-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S128x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩
abbrev S1x600000 : Shape := ⟨2, ![1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_v33 : IVec S_ 1) : IVec S_ 1 :=
  let main_v34 : IVec S1x600000 32 := (extractStridedSlice S1x600000 ![0, 0] · slices_S2x600000_S1x600000_0_0) main_arg1
  let main_v35 : IVec S600000 32 := shapeCast S600000 main_v34 shapeCasts_S1x600000_S600000
  let main_c_12 : IVec S_ 32 := constantI S_ 32 0#32
  let main_v36 : IVec S600000 32 := broadcastInDim S600000 ![] bcast_S_S600000 main_c_12
  let main_v37 : IVec S600000 1 := cmpi .sge main_v35 main_v36
  let main_v38 : IVec S1x600000 32 := (extractStridedSlice S1x600000 ![0, 0] · slices_S2x600000_S1x600000_0_0) main_arg1
  let main_v39 : IVec S600000 32 := shapeCast S600000 main_v38 shapeCasts_S1x600000_S600000
  let main_c_13 : IVec S_ 32 := constantI S_ 32 100000#32
  let main_v40 : IVec S600000 32 := broadcastInDim S600000 ![] bcast_S_S600000 main_c_13
  let main_v41 : IVec S600000 1 := cmpi .slt main_v39 main_v40
  let main_v42 : IVec S600000 1 := andi main_v37 main_v41
  let main_c_14 : IVec S_ 1 := constantI S_ 1 1#1
  let main_v43 : IVec S_ 1 := (fun x v => Host.reduce IntOp.andi x v reducesTo_S600000_S_d0 h_S_) main_v42 main_c_14
  let main_v44 : IVec S_ 1 := andi main_v33 main_v43
  main_v44

def fn_part1 {F : FTy → Type} [FloatOps F] (main_arg1 : IVec S2x600000 32) (main_arg6 : FVec F S3x128 .f32) (main_arg7 : FVec F S3x128 .f32) (main_arg8 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x600000 32) (main_arg2 : IVec S100000 32) (main_arg3 : FVec F S128x128 .f32) (main_arg4 : FVec F S128 .f32) (main_arg5 : FVec F S3x128x128 .f32) (main_arg6 : FVec F S3x128 .f32) (main_arg7 : FVec F S3x128 .f32) (main_arg8 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg6 main_arg7 main_arg8 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩
abbrev S100352x128 : Shape := ⟨2, ![100352, 128]⟩
abbrev S1x600000 : Shape := ⟨2, ![1, 600000]⟩
abbrev S600000 : Shape := ⟨1, ![600000]⟩
abbrev S602112 : Shape := ⟨1, ![602112]⟩
abbrev S100352 : Shape := ⟨1, ![100352]⟩
abbrev S1x602112 : Shape := ⟨2, ![1, 602112]⟩
abbrev S1x100352 : Shape := ⟨2, ![1, 100352]⟩
abbrev S1x128 : Shape := ⟨2, ![1, 128]⟩
abbrev S3x1x128 : Shape := ⟨3, ![3, 1, 128]⟩
abbrev S2048x128 : Shape := ⟨2, ![2048, 128]⟩
abbrev S602112x128 : Shape := ⟨2, ![602112, 128]⟩
abbrev S1x4096 : Shape := ⟨2, ![1, 4096]⟩
abbrev S1024x128 : Shape := ⟨2, ![1024, 128]⟩
abbrev S4096x128 : Shape := ⟨2, ![4096, 128]⟩
abbrev S1024x1 : Shape := ⟨2, ![1024, 1]⟩
abbrev S1024x4096 : Shape := ⟨2, ![1024, 4096]⟩
abbrev S4096x1024 : Shape := ⟨2, ![4096, 1024]⟩
abbrev S1x128x128 : Shape := ⟨3, ![1, 128, 128]⟩
abbrev S1x1x128 : Shape := ⟨3, ![1, 1, 128]⟩
abbrev S1024 : Shape := ⟨1, ![1024]⟩
abbrev S128x1 : Shape := ⟨2, ![128, 1]⟩
abbrev S1x1024 : Shape := ⟨2, ![1, 1024]⟩
abbrev S128x1024 : Shape := ⟨2, ![128, 1024]⟩
abbrev S64x128 : Shape := ⟨2, ![64, 128]⟩
abbrev S64x1 : Shape := ⟨2, ![64, 1]⟩

abbrev nBuf : Space → Nat
  | .hbm => 72
  | .vmem => 72
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S3x128x128, .f32⟩
  | .hbm, ⟨6, _⟩ => ⟨S3x128, .f32⟩
  | .hbm, ⟨7, _⟩ => ⟨S3x128, .f32⟩
  | .hbm, ⟨8, _⟩ => ⟨S3x128, .f32⟩
  | .hbm, ⟨9, _⟩ => ⟨S_, .i32⟩
  | .hbm, ⟨10, _⟩ => ⟨S_, .f32⟩
  | .hbm, ⟨11, _⟩ => ⟨S100352x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S_, .i32⟩
  | .hbm, ⟨18, _⟩ => ⟨S602112, .i32⟩
  | .hbm, ⟨19, _⟩ => ⟨S_, .i32⟩
  | .hbm, ⟨20, _⟩ => ⟨S_, .i32⟩
  | .hbm, ⟨21, _⟩ => ⟨S602112, .i32⟩
  | .hbm, ⟨22, _⟩ => ⟨S_, .i32⟩
  | .hbm, ⟨23, _⟩ => ⟨S_, .i32⟩
  | .hbm, ⟨24, _⟩ => ⟨S100352, .i32⟩
  | .hbm, ⟨25, _⟩ => ⟨S1x602112, .i32⟩
  | .hbm, ⟨26, _⟩ => ⟨S1x602112, .i32⟩
  | .hbm, ⟨27, _⟩ => ⟨S1x100352, .i32⟩
  | .hbm, ⟨28, _⟩ => ⟨S1x128, .f32⟩
  | .hbm, ⟨29, _⟩ => ⟨S3x1x128, .f32⟩
  | .hbm, ⟨30, _⟩ => ⟨S3x1x128, .f32⟩
  | .hbm, ⟨31, _⟩ => ⟨S3x1x128, .f32⟩
  | .hbm, ⟨32, _⟩ => ⟨S100352x128, .f32⟩
  | .hbm, ⟨33, _⟩ => ⟨S602112x128, .bf16⟩
  | .hbm, ⟨34, _⟩ => ⟨S1x128x128, .f32⟩
  | .hbm, ⟨35, _⟩ => ⟨S128x128, .f32⟩
  | .hbm, ⟨36, _⟩ => ⟨S1x1x128, .f32⟩
  | .hbm, ⟨37, _⟩ => ⟨S1x128, .f32⟩
  | .hbm, ⟨38, _⟩ => ⟨S1x1x128, .f32⟩
  | .hbm, ⟨39, _⟩ => ⟨S1x128, .f32⟩
  | .hbm, ⟨40, _⟩ => ⟨S1x1x128, .f32⟩
  | .hbm, ⟨41, _⟩ => ⟨S1x128, .f32⟩
  | .hbm, ⟨42, _⟩ => ⟨S100352x128, .f32⟩
  | .hbm, ⟨43, _⟩ => ⟨S602112x128, .bf16⟩
  | .hbm, ⟨44, _⟩ => ⟨S1x128x128, .f32⟩
  | .hbm, ⟨45, _⟩ => ⟨S128x128, .f32⟩
  | .hbm, ⟨46, _⟩ => ⟨S1x1x128, .f32⟩
  | .hbm, ⟨47, _⟩ => ⟨S1x128, .f32⟩
  | .hbm, ⟨48, _⟩ => ⟨S1x1x128, .f32⟩
  | .hbm, ⟨49, _⟩ => ⟨S1x128, .f32⟩
  | .hbm, ⟨50, _⟩ => ⟨S1x1x128, .f32⟩
  | .hbm, ⟨51, _⟩ => ⟨S1x128, .f32⟩
  | .hbm, ⟨52, _⟩ => ⟨S100352x128, .f32⟩
  | .hbm, ⟨53, _⟩ => ⟨S602112x128, .bf16⟩
  | .hbm, ⟨54, _⟩ => ⟨S1x128x128, .f32⟩
  | .hbm, ⟨55, _⟩ => ⟨S128x128, .f32⟩
  | .hbm, ⟨56, _⟩ => ⟨S1x1x128, .f32⟩
  | .hbm, ⟨57, _⟩ => ⟨S1x128, .f32⟩
  | .hbm, ⟨58, _⟩ => ⟨S1x1x128, .f32⟩
  | .hbm, ⟨59, _⟩ => ⟨S1x128, .f32⟩
  | .hbm, ⟨60, _⟩ => ⟨S1x1x128, .f32⟩
  | .hbm, ⟨61, _⟩ => ⟨S1x128, .f32⟩
  | .hbm, ⟨62, _⟩ => ⟨S100352x128, .f32⟩
  | .hbm, ⟨63, _⟩ => ⟨S128x128, .f32⟩
  | .hbm, ⟨64, _⟩ => ⟨S128x1, .f32⟩
  | .hbm, ⟨65, _⟩ => ⟨S64x128, .f32⟩
  | .hbm, ⟨66, _⟩ => ⟨S64x1, .f32⟩
  | .hbm, ⟨67, _⟩ => ⟨S_, .f32⟩
  | .hbm, ⟨68, _⟩ => ⟨S64x1, .f32⟩
  | .hbm, ⟨69, _⟩ => ⟨S64x1, .f32⟩
  | .hbm, ⟨70, _⟩ => ⟨S64x128, .f32⟩
  | .hbm, ⟨71, _⟩ => ⟨S64x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S1x4096, .i32⟩
  | .local _ .vmem, ⟨7, _⟩ => ⟨S1x4096, .i32⟩
  | .local _ .vmem, ⟨8, _⟩ => ⟨S1024x128, .f32⟩
  | .local _ .vmem, ⟨9, _⟩ => ⟨S1024x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .f32⟩
  | .local _ .vmem, ⟨13, _⟩ => ⟨S1x4096, .i32⟩
  | .local _ .vmem, ⟨14, _⟩ => ⟨S1x4096, .i32⟩
  | .local _ .vmem, ⟨15, _⟩ => ⟨S4096x128, .bf16⟩
  | .local _ .vmem, ⟨16, _⟩ => ⟨S4096x128, .bf16⟩
  | .local _ .vmem, ⟨17, _⟩ => ⟨S1024x128, .f32⟩
  | .local _ .vmem, ⟨18, _⟩ => ⟨S1024x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1x4096, .i32⟩
  | .local _ .vmem, ⟨27, _⟩ => ⟨S1x4096, .i32⟩
  | .local _ .vmem, ⟨28, _⟩ => ⟨S1024x128, .f32⟩
  | .local _ .vmem, ⟨29, _⟩ => ⟨S1024x128, .f32⟩
  | .local _ .vmem, ⟨30, _⟩ => ⟨S4096x128, .bf16⟩
  | .local _ .vmem, ⟨31, _⟩ => ⟨S4096x128, .bf16⟩
  | .local _ .vmem, ⟨32, _⟩ => ⟨S4096x128, .f32⟩
  | .local _ .vmem, ⟨33, _⟩ => ⟨S1x4096, .i32⟩
  | .local _ .vmem, ⟨34, _⟩ => ⟨S1x4096, .i32⟩
  | .local _ .vmem, ⟨35, _⟩ => ⟨S4096x128, .bf16⟩
  | .local _ .vmem, ⟨36, _⟩ => ⟨S4096x128, .bf16⟩
  | .local _ .vmem, ⟨37, _⟩ => ⟨S1024x128, .f32⟩
  | .local _ .vmem, ⟨38, _⟩ => ⟨S1024x128, .f32⟩
  | .local _ .vmem, ⟨39, _⟩ => ⟨S128x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1024x128, .f32⟩
  | .local _ .vmem, ⟨44, _⟩ => ⟨S1024x128, .f32⟩
  | .local _ .vmem, ⟨45, _⟩ => ⟨S1024x128, .f32⟩
  | .local _ .vmem, ⟨46, _⟩ => ⟨S1x4096, .i32⟩
  | .local _ .vmem, ⟨47, _⟩ => ⟨S1x4096, .i32⟩
  | .local _ .vmem, ⟨48, _⟩ => ⟨S1024x128, .f32⟩
  | .local _ .vmem, ⟨49, _⟩ => ⟨S1024x128, .f32⟩
  | .local _ .vmem, ⟨50, _⟩ => ⟨S4096x128, .bf16⟩
  | .local _ .vmem, ⟨51, _⟩ => ⟨S4096x128, .bf16⟩
  | .local _ .vmem, ⟨52, _⟩ => ⟨S4096x128, .f32⟩
  | .local _ .vmem, ⟨53, _⟩ => ⟨S1x4096, .i32⟩
  | .local _ .vmem, ⟨54, _⟩ => ⟨S1x4096, .i32⟩
  | .local _ .vmem, ⟨55, _⟩ => ⟨S4096x128, .bf16⟩
  | .local _ .vmem, ⟨56, _⟩ => ⟨S4096x128, .bf16⟩
  | .local _ .vmem, ⟨57, _⟩ => ⟨S1024x128, .f32⟩
  | .local _ .vmem, ⟨58, _⟩ => ⟨S1024x128, .f32⟩
  | .local _ .vmem, ⟨59, _⟩ => ⟨S128x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1024x128, .f32⟩
  | .local _ .vmem, ⟨64, _⟩ => ⟨S1024x128, .f32⟩
  | .local _ .vmem, ⟨65, _⟩ => ⟨S1024x128, .f32⟩
  | .local _ .vmem, ⟨66, _⟩ => ⟨S1x1024, .i32⟩
  | .local _ .vmem, ⟨67, _⟩ => ⟨S1x1024, .i32⟩
  | .local _ .vmem, ⟨68, _⟩ => ⟨S1024x128, .f32⟩
  | .local _ .vmem, ⟨69, _⟩ => ⟨S1024x128, .f32⟩
  | .local _ .vmem, ⟨70, _⟩ => ⟨S128x128, .f32⟩
  | .local _ .vmem, ⟨71, _⟩ => ⟨S128x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_c_2 : Ref sig .tc := ⟨.hbm, 22, rfl⟩
abbrev main_call3_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46_0 : Ref sig .tc := ⟨.hbm, 63, rfl⟩
abbrev main_v46_1 : Ref sig .tc := ⟨.hbm, 64, rfl⟩
abbrev main_v47 : Ref sig .tc := ⟨.hbm, 65, rfl⟩
abbrev main_v48 : Ref sig .tc := ⟨.hbm, 66, rfl⟩
abbrev main_cst : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_scratch0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg7_1 : Ref sig .tc := ⟨.vmem, 44, rfl⟩
abbrev cc4_scratch0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_scratch0 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg2_1 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg7_0 : Ref sig .tc := ⟨.vmem, 63, rfl⟩
abbrev cc6_stg7_1 : Ref sig .tc := ⟨.vmem, 64, rfl⟩
abbrev cc6_scratch0 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg1_1 : Ref sig .tc := ⟨.vmem, 69, rfl⟩
abbrev cc7_stg2_0 : Ref sig .tc := ⟨.vmem, 70, rfl⟩
abbrev cc7_stg3_0 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem5_0 : DmaSem sig := 38
abbrev cc4_sem6_0 : DmaSem sig := 39
abbrev cc4_sem7_0 : DmaSem sig := 40
abbrev cc4_sem7_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem4_0 : DmaSem sig := 55
abbrev cc6_sem5_0 : DmaSem sig := 56
abbrev cc6_sem6_0 : DmaSem sig := 57
abbrev cc6_sem7_0 : DmaSem sig := 58
abbrev cc6_sem7_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem3_0 : DmaSem sig := 65

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![147, 98], ![false, false]⟩

def k1_cond2 (i : grid1.Coords) : BitVec 1 :=
  let arg1 : BitVec 32 := BitVec.ofNat 32 (i 1).val
  let c97_i32 : BitVec 32 := 97#32
  let v25 : BitVec 1 := Scalar.cmpi .eq arg1 c97_i32
  let v26 : BitVec 32 := Scalar.extui v25
  let c0_i32_8 : BitVec 32 := 0#32
  let v27 : BitVec 1 := Scalar.cmpi .ne v26 c0_i32_8
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![98, 147], ![false, false]⟩

def k2_cond2 (i : grid2.Coords) : BitVec 1 :=
  let arg1 : BitVec 32 := BitVec.ofNat 32 (i 1).val
  let c146_i32 : BitVec 32 := 146#32
  let v23 : BitVec 1 := Scalar.cmpi .eq arg1 c146_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨2, ![147, 98], ![false, false]⟩

def k3_cond2 (i : grid3.Coords) : BitVec 1 :=
  let arg1 : BitVec 32 := BitVec.ofNat 32 (i 1).val
  let c97_i32 : BitVec 32 := 97#32
  let v25 : BitVec 1 := Scalar.cmpi .eq arg1 c97_i32
  let v26 : BitVec 32 := Scalar.extui v25
  let c0_i32_8 : BitVec 32 := 0#32
  let v27 : BitVec 1 := Scalar.cmpi .ne v26 c0_i32_8
  v27

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![98, 147], ![false, false]⟩

def k4_cond2 (i : grid4.Coords) : BitVec 1 :=
  let arg1 : BitVec 32 := BitVec.ofNat 32 (i 1).val
  let c146_i32 : BitVec 32 := 146#32
  let v23 : BitVec 1 := Scalar.cmpi .eq arg1 c146_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S4096x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 2 → Memref sig .tc .vmem S1024x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev grid5 : Pipeline.Grid := ⟨2, ![147, 98], ![false, false]⟩

def k5_cond2 (i : grid5.Coords) : BitVec 1 :=
  let arg1 : BitVec 32 := BitVec.ofNat 32 (i 1).val
  let c97_i32 : BitVec 32 := 97#32
  let v25 : BitVec 1 := Scalar.cmpi .eq arg1 c97_i32
  let v26 : BitVec 32 := Scalar.extui v25
  let c0_i32_8 : BitVec 32 := 0#32
  let v27 : BitVec 1 := Scalar.cmpi .ne v26 c0_i32_8
  v27

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S4096x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![98, 147], ![false, false]⟩

def k6_cond2 (i : grid6.Coords) : BitVec 1 :=
  let arg1 : BitVec 32 := BitVec.ofNat 32 (i 1).val
  let c146_i32 : BitVec 32 := 146#32
  let v23 : BitVec 1 := Scalar.cmpi .eq arg1 c146_i32
  let v24 : BitVec 32 := Scalar.extui v23
  let c0_i32_8 : BitVec 32 := 0#32
  let v25 : BitVec 1 := Scalar.cmpi .ne v24 c0_i32_8
  v25

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1x4096 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S4096x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 2 → Memref sig .tc .vmem S1024x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, false]

abbrev grid7 : Pipeline.Grid := ⟨1, ![98], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1x1024 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  pads_S100000x128_S100352x128_03520_000 : S100000x128.Pads (![0, 0] : Fin 2 → Nat) ![352, 0] ![0, 0] S100352x128
  h_S_ : 0 < S_.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  pads_S600000_S602112_021120 : S600000.Pads (![0] : Fin 1 → Nat) ![2112] ![0] S602112
  pads_S100000_S100352_03520 : S100000.Pads (![0] : Fin 1 → Nat) ![352] ![0] S100352
  shapeCasts_S602112_S1x602112 : S602112.ShapeCasts S1x602112
  shapeCasts_S100352_S1x100352 : S100352.ShapeCasts S1x100352
  shapeCasts_S128_S1x128 : S128.ShapeCasts S1x128
  shapeCasts_S3x128_S3x1x128 : S3x128.ShapeCasts S3x1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1024x1_d0_w32 : S1024x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  broadcasts_S1024x1_S1024x4096 : S1024x1.Broadcasts S1024x4096
  natLt_1_32 : 1 < 32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x4096_p1_0_S4096x1024 : S1024x4096.Transposes [1, 0] S4096x1024
  packedbf16_S4096x128_S4096x128_0_0 : (Rect.unit (s := S4096x128) ![0, 0] S4096x128.size inb_S4096x128_S4096x128_0_0).PackedRows (EltTy.packing .bf16)
  slices_S3x128x128_S1x128x128_0_0_0 : S3x128x128.Slices ![0, 0, 0] S1x128x128
  shapeCasts_S1x128x128_S128x128 : S1x128x128.ShapeCasts S128x128
  slices_S3x1x128_S1x1x128_0_0_0 : S3x1x128.Slices ![0, 0, 0] S1x1x128
  shapeCasts_S1x1x128_S1x128 : S1x1x128.ShapeCasts S1x128
  shapeCasts_S128x128_S128x128 : S128x128.ShapeCasts S128x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  slices_S3x128x128_S1x128x128_1_0_0 : S3x128x128.Slices ![1, 0, 0] S1x128x128
  slices_S3x1x128_S1x1x128_1_0_0 : S3x1x128.Slices ![1, 0, 0] S1x1x128
  slices_S3x128x128_S1x128x128_2_0_0 : S3x128x128.Slices ![2, 0, 0] S1x128x128
  slices_S3x1x128_S1x1x128_2_0_0 : S3x1x128.Slices ![2, 0, 0] S1x1x128
  inb_S128x1_S128x1_0_0 : ∀ a, (![0, 0] : Fin 2 → Nat) a + S128x1.size a ≤ S128x1.size a
  h_S128x1 : 0 < S128x1.numel
  iota_S128x1_d0_w32 : S128x1.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  broadcasts_S128x1_S128x1024 : S128x1.Broadcasts S128x1024
  shapeCasts_S128x1_S128x1 : S128x1.ShapeCasts S128x1
  reduces_S128x1024_S128 : S128x1024.Reduces [1] S128
  shapeCasts_S128_S128x1 : S128.ShapeCasts S128x1
  slices_S128x128_S64x128_0_0 : S128x128.Slices ![0, 0] S64x128
  slices_S128x1_S64x1_0_0 : S128x1.Slices ![0, 0] S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  dot_S2048x128_S128x128_S2048x128_1_0_0_1_n_n_wf : DotDims.WF S2048x128 S128x128 S2048x128 [1] [0] [0] [1] [] []
  dot_S4096x1024_S1024x128_S4096x128_1_0_0_1_n_n_wf : DotDims.WF S4096x1024 S1024x128 S4096x128 [1] [0] [0] [1] [] []
  dot_S1024x4096_S4096x128_S1024x128_1_0_0_1_n_n_wf : DotDims.WF S1024x4096 S4096x128 S1024x128 [1] [0] [0] [1] [] []
  dot_S1024x128_S128x128_S1024x128_1_0_0_1_n_n_wf : DotDims.WF S1024x128 S128x128 S1024x128 [1] [0] [0] [1] [] []
  dot_S128x1024_S1024x128_S128x128_1_0_0_1_n_n_wf : DotDims.WF S128x1024 S1024x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S100352x128.size a
  hwx0_3 : ∀ i : grid0.Coords, EltTy.bits .f32 = 32 ∨ (Rect.block (s := S100352x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x602112.size a
  hwx1_0 : ∀ i : grid1.Coords, EltTy.bits .i32 = 32 ∨ (Rect.block (s := S1x602112) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S100352x128.size a
  hwx1_1 : ∀ i : grid1.Coords, EltTy.bits .f32 = 32 ∨ (Rect.block (s := S100352x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S602112x128.size a
  hwx1_2 : ∀ i : grid1.Coords, EltTy.bits .bf16 = 32 ∨ (Rect.block (s := S602112x128) S4096x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x602112.size a
  hwx2_0 : ∀ i : grid2.Coords, EltTy.bits .i32 = 32 ∨ (Rect.block (s := S1x602112) S1x4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S602112x128.size a
  hwx2_1 : ∀ i : grid2.Coords, EltTy.bits .bf16 = 32 ∨ (Rect.block (s := S602112x128) S4096x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S100352x128.size a
  hwx2_2 : ∀ i : grid2.Coords, EltTy.bits .f32 = 32 ∨ (Rect.block (s := S100352x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x128.size a ≤ S100352x128.size a
  hwx2_7 : ∀ i : grid2.Coords, EltTy.bits .f32 = 32 ∨ (Rect.block (s := S100352x128) S1024x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x4096.size a ≤ S1x602112.size a
  hwx3_0 : ∀ i : grid3.Coords, EltTy.bits .i32 = 32 ∨ (Rect.block (s := S1x602112) S1x4096.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S100352x128.size a
  hwx3_1 : ∀ i : grid3.Coords, EltTy.bits .f32 = 32 ∨ (Rect.block (s := S100352x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S602112x128.size a
  hwx3_2 : ∀ i : grid3.Coords, EltTy.bits .bf16 = 32 ∨ (Rect.block (s := S602112x128) S4096x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x4096.size a ≤ S1x602112.size a
  hwx4_0 : ∀ i : grid4.Coords, EltTy.bits .i32 = 32 ∨ (Rect.block (s := S1x602112) S1x4096.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S602112x128.size a
  hwx4_1 : ∀ i : grid4.Coords, EltTy.bits .bf16 = 32 ∨ (Rect.block (s := S602112x128) S4096x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S100352x128.size a
  hwx4_2 : ∀ i : grid4.Coords, EltTy.bits .f32 = 32 ∨ (Rect.block (s := S100352x128) S1024x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x128.size a ≤ S100352x128.size a
  hwx4_7 : ∀ i : grid4.Coords, EltTy.bits .f32 = 32 ∨ (Rect.block (s := S100352x128) S1024x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x4096.size a ≤ S1x602112.size a
  hwx5_0 : ∀ i : grid5.Coords, EltTy.bits .i32 = 32 ∨ (Rect.block (s := S1x602112) S1x4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S100352x128.size a
  hwx5_1 : ∀ i : grid5.Coords, EltTy.bits .f32 = 32 ∨ (Rect.block (s := S100352x128) S1024x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x128.size a ≤ S602112x128.size a
  hwx5_2 : ∀ i : grid5.Coords, EltTy.bits .bf16 = 32 ∨ (Rect.block (s := S602112x128) S4096x128.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x4096.size a ≤ S1x602112.size a
  hwx6_0 : ∀ i : grid6.Coords, EltTy.bits .i32 = 32 ∨ (Rect.block (s := S1x602112) S1x4096.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x128.size a ≤ S602112x128.size a
  hwx6_1 : ∀ i : grid6.Coords, EltTy.bits .bf16 = 32 ∨ (Rect.block (s := S602112x128) S4096x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x128.size a ≤ S100352x128.size a
  hwx6_2 : ∀ i : grid6.Coords, EltTy.bits .f32 = 32 ∨ (Rect.block (s := S100352x128) S1024x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1024x128.size a ≤ S100352x128.size a
  hwx6_7 : ∀ i : grid6.Coords, EltTy.bits .f32 = 32 ∨ (Rect.block (s := S100352x128) S1024x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x1024.size a ≤ S1x100352.size a
  hwx7_0 : ∀ i : grid7.Coords, EltTy.bits .i32 = 32 ∨ (Rect.block (s := S1x100352) S1x1024.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x128.size a ≤ S100352x128.size a
  hwx7_1 : ∀ i : grid7.Coords, EltTy.bits .f32 = 32 ∨ (Rect.block (s := S100352x128) S1024x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x1.size a ≤ S128x1.size a
  hwx7_3 : ∀ i : grid7.Coords, EltTy.bits .f32 = 32 ∨ (Rect.block (s := S128x1) S128x1.size (cc7_transform_3 i) (hinb7_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v9) S1x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v25) S1024x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v8) S1x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S4096x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v9) S1x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v28) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v30) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v32) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v34) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v35) S1024x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun _ => false | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v8) S1x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v36) S4096x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v9) S1x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v36) S4096x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v35) S1024x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v38) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v40) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v42) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v44) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v45) S1024x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev idle6 : Fin 8 → grid6.Coords → Bool := fun | 0 => fun _ => false | 1 => fun _ => false | 2 => fun _ => false | 3 => fun _ => false | 4 => fun _ => false | 5 => fun _ => false | 6 => fun _ => false | 7 => fun i => !(k6_cond2 i == 1#1) | ⟨_ + 8, h⟩ => absurd h (Nat.not_lt.2 (Nat.le_add_left _ _))

abbrev win7_0 : Pipeline.Window sig grid7 :=
  Pipeline.Window.ofSpec (Memref.whole main_v10) S1x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v45) S1024x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v46_0) S128x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v46_1) S128x1.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x128 : Shape := ⟨2, ![1, 128]⟩
abbrev S_ : Shape := ⟨0, ![]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x128x128 : Shape := ⟨3, ![1, 128, 128]⟩
abbrev S100000x1 : Shape := ⟨2, ![100000, 1]⟩
abbrev S64x128 : Shape := ⟨2, ![64, 128]⟩
abbrev S64 : Shape := ⟨1, ![64]⟩
abbrev S64x1 : Shape := ⟨2, ![64, 1]⟩

abbrev nBuf : Space → Nat
  | .hbm => 210
  | .vmem => 0
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S128x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S1x600000, .i32⟩
  | 17 => ⟨S600000, .i32⟩
  | 18 => ⟨S1x600000, .i32⟩
  | 19 => ⟨S600000, .i32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .f32⟩
  | 30 => ⟨S100000x128, .f32⟩
  | 31 => ⟨S600000x1, .i32⟩
  | 32 => ⟨S100000x128, .f32⟩
  | 33 => ⟨S100000x128, .f32⟩
  | 34 => ⟨S1x128x128, .f32⟩
  | 35 => ⟨S128x128, .f32⟩
  | 36 => ⟨S100000x128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S100000, .f32⟩
  | 51 => ⟨S100000x1, .f32⟩
  | 52 => ⟨S_, .f32⟩
  | 53 => ⟨S100000x1, .f32⟩
  | 54 => ⟨S100000x1, .f32⟩
  | 55 => ⟨S100000x128, .f32⟩
  | 56 => ⟨S100000x128, .f32⟩
  | 57 => ⟨S100000x128, .f32⟩
  | 58 => ⟨S_, .f32⟩
  | 59 => ⟨S100000, .f32⟩
  | 60 => ⟨S100000x1, .f32⟩
  | 61 => ⟨S_, .f32⟩
  | 62 => ⟨S100000x1, .f32⟩
  | 63 => ⟨S100000x1, .f32⟩
  | 64 => ⟨S100000x128, .f32⟩
  | 65 => ⟨S100000x128, .f32⟩
  | 66 => ⟨S_, .f32⟩
  | 67 => ⟨S100000x1, .f32⟩
  | 68 => ⟨S100000x1, .f32⟩
  | 69 => ⟨S100000x1, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S_, .f32⟩
  | 88 => ⟨S100000x128, .f32⟩
  | 89 => ⟨S600000x1, .i32⟩
  | 90 => ⟨S100000x128, .f32⟩
  | 91 => ⟨S100000x128, .f32⟩
  | 92 => ⟨S1x128x128, .f32⟩
  | 93 => ⟨S128x128, .f32⟩
  | 94 => ⟨S100000x128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S128, .f32⟩
  | 107 => ⟨S_, .f32⟩
  | 108 => ⟨S100000, .f32⟩
  | 109 => ⟨S100000x1, .f32⟩
  | 110 => ⟨S_, .f32⟩
  | 111 => ⟨S100000x1, .f32⟩
  | 112 => ⟨S100000x1, .f32⟩
  | 113 => ⟨S100000x128, .f32⟩
  | 114 => ⟨S100000x128, .f32⟩
  | 115 => ⟨S100000x128, .f32⟩
  | 116 => ⟨S_, .f32⟩
  | 117 => ⟨S100000, .f32⟩
  | 118 => ⟨S100000x1, .f32⟩
  | 119 => ⟨S_, .f32⟩
  | 120 => ⟨S100000x1, .f32⟩
  | 121 => ⟨S100000x1, .f32⟩
  | 122 => ⟨S100000x128, .f32⟩
  | 123 => ⟨S100000x128, .f32⟩
  | 124 => ⟨S_, .f32⟩
  | 125 => ⟨S100000x1, .f32⟩
  | 126 => ⟨S100000x1, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000x128, .f32⟩
  | 17 => ⟨S_, .f32⟩
  | 18 => ⟨S100000x128, .f32⟩
  | 19 => ⟨S600000x1, .i32⟩
  | 20 => ⟨S100000x128, .f32⟩
  | 21 => ⟨S100000x128, .f32⟩
  | 22 => ⟨S1x128x128, .f32⟩
  | 23 => ⟨S128x128, .f32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S128, .f32⟩
  | 37 => ⟨S_, .f32⟩
  | 38 => ⟨S100000, .f32⟩
  | 39 => ⟨S100000x1, .f32⟩
  | 40 => ⟨S_, .f32⟩
  | 41 => ⟨S100000x1, .f32⟩
  | 42 => ⟨S100000x1, .f32⟩
  | 43 => ⟨S100000x128, .f32⟩
  | 44 => ⟨S100000x128, .f32⟩
  | 45 => ⟨S100000x128, .f32⟩
  | 46 => ⟨S_, .f32⟩
  | 47 => ⟨S100000, .f32⟩
  | 48 => ⟨S100000x1, .f32⟩
  | 49 => ⟨S_, .f32⟩
  | 50 => ⟨S100000x1, .f32⟩
  | 51 => ⟨S100000x1, .f32⟩
  | 52 => ⟨S100000x128, .f32⟩
  | 53 => ⟨S100000x128, .f32⟩
  | 54 => ⟨S_, .f32⟩
  | 55 => ⟨S100000x1, .f32⟩
  | 56 => ⟨S100000x1, .f32⟩
  | 57 => ⟨S100000x1, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S64x128, .f32⟩
  | 68 => ⟨S100000x1, .i32⟩
  | 69 => ⟨S64x128, .f32⟩
  | 70 => ⟨S_, .f32⟩
  | 71 => ⟨S100000, .f32⟩
  | 72 => ⟨S_, .f32⟩
  | 73 => ⟨S64, .f32⟩
  | 74 => ⟨S100000x1, .i32⟩
  | 75 => ⟨S64, .f32⟩
  | 76 => ⟨S_, .f32⟩
  | 77 => ⟨S64, .f32⟩
  | 78 => ⟨S64, .f32⟩
  | 79 => ⟨S64x1, .f32⟩
  | 80 => ⟨S64x128, .f32⟩
  | 81 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_1 : Ref sig .tc := ⟨.hbm, 49, rfl⟩
abbrev main_v33 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_6 : Ref sig .tc := ⟨.hbm, 78, rfl⟩
abbrev main_v57 : Ref sig .tc := ⟨.hbm, 79, rfl⟩
abbrev main_v58 : Ref sig .tc := ⟨.hbm, 80, rfl⟩
abbrev main_c_7 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_8 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call2_cst : Ref sig .tc := ⟨.hbm, 100, rfl⟩
abbrev main_call2_v0 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_9 : Ref sig .tc := ⟨.hbm, 107, rfl⟩
abbrev main_v81 : Ref sig .tc := ⟨.hbm, 108, rfl⟩
abbrev main_v82 : Ref sig .tc := ⟨.hbm, 109, rfl⟩
abbrev main_cst_10 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_11 : Ref sig .tc := ⟨.hbm, 116, rfl⟩
abbrev main_v88 : Ref sig .tc := ⟨.hbm, 117, rfl⟩
abbrev main_v89 : Ref sig .tc := ⟨.hbm, 118, rfl⟩
abbrev main_cst_12 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_13 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_14 : Ref sig .tc := ⟨.hbm, 136, rfl⟩
abbrev main_v105 : Ref sig .tc := ⟨.hbm, 137, rfl⟩
abbrev main_v106 : Ref sig .tc := ⟨.hbm, 138, rfl⟩
abbrev main_c_15 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_16 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_call3_cst : Ref sig .tc := ⟨.hbm, 158, rfl⟩
abbrev main_call3_v0 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_17 : Ref sig .tc := ⟨.hbm, 165, rfl⟩
abbrev main_v129 : Ref sig .tc := ⟨.hbm, 166, rfl⟩
abbrev main_v130 : Ref sig .tc := ⟨.hbm, 167, rfl⟩
abbrev main_cst_18 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_19 : Ref sig .tc := ⟨.hbm, 174, rfl⟩
abbrev main_v136 : Ref sig .tc := ⟨.hbm, 175, rfl⟩
abbrev main_v137 : Ref sig .tc := ⟨.hbm, 176, rfl⟩
abbrev main_cst_20 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_21 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_22 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_23 : Ref sig .tc := ⟨.hbm, 198, rfl⟩
abbrev main_v156 : Ref sig .tc := ⟨.hbm, 199, rfl⟩
abbrev main_cst_24 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_25 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.K.Reg0.lean ====
/-
  Kernel region 0 (the projection): at each of the 49 grid points the body reads a 2048×128 row block of the
  node features, the resident 128×128 weight and the resident 1×128 bias, and stores relu(x·W + b) over the
  whole 2048×128 output block (it also reads the output block before storing, a value nothing uses).

  Everything is stated at a PARAMETER V: the TensorCore's buffer contents when the region is entered.  The proof
  data say: every input window's staging buffer holds, at every point, that window's block of its array as the
  region found it (the resident windows are fetched once and keep their block, the block index never moves); the
  output window's buffer after the body at point t is the one payload of the body applied to the three input
  blocks at t.  Nothing is carried from point to point, so the invariant is the class invariant (the scoped rest
  and the generator register, untouched).
-/
import proofs.«423195_j8272107012813_1_alg».proof.Proof.Gen.Kernel.Launch
import proofs.«423195_j8272107012813_1_alg».proof.Proof.Gen.Kernel.Skeleton
import proofs.«423195_j8272107012813_1_alg».proof.Proof.Gen.Kernel.Points
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's buffer at point t: relu(x·W + b), the body's one payload, of the
    row block of the features at t, the weight and the bias. -/
def outAt (c : Dev nD) (t : Fin cfg0.N) : Vec F S2048x128 .f32 :=
  k0_pay1 (iblk V c 0 t) (iblk V c 1 t) (iblk V c 2 t)

/-! ## The body's triple -/

theorem off0 : (![0, 0] : Fin 2 → Nat) = fun _ => 0 := funext fun a => by fin_cases a <;> rfl

set_option maxHeartbeats 1000000 in
/-- The body on whole staging memrefs — the three inputs' at read contents x0, x1, x2, the output's at anything —
    runs to the continuation holding the inputs' as they were and the output's at the payload of x0, x1, x2: each
    load through the whole-shape rectangle reads the contents, the one store through it covers the buffer. -/
theorem sound_kernel (c : Dev nD) (E : Set ℕ) (i : grid0.Coords)
    (arg1 : Memref sig .tc .vmem S2048x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2048x128 .f32) (harg4 : arg4.IsWhole)
    (x0 : Vec F S2048x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero off0 inb_S2048x128_S2048x128_0_0 y⟩),
    View.canon_unit_zero off0, View.readAt_eq_ld, View.readAt_eq_ld, View.readAt_eq_ld,
    View.ld_unit_zero off0, View.ld_unit_zero off0, View.ld_unit_zero off0]

/-! ## The proof data -/

/-- The proof data of the region on core c: the arrays as the region finds them; after the body at point t each
    input's buffer at its block and the output's at outAt; the class invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
/-- The output window's buffer after the body at point t is relu(x·W + b) of the blocks at t. -/
theorem after_3 (c : Dev nD) (t : Fin cfg0.N) : (dat V c).after 3 t = outAt V c t := by dsimp only [dat]

/-- The invariant is the class invariant at every point. -/
theorem Φ_eq (c : Dev nD) (t : Fin (cfg0.N + 1)) : (dat (F := F) V c).Φ t = Pipeline.ΦA spec0 c := rfl

/-- Each input's current staging buffer holds its block at every point, fetched there or not: the features' window
    is fetched at every point; the weight's and the bias's at the first point only, their block index never moving
    (Dat.before_in_eq_fetched). -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body obligation, at a generic point -/

/-- What the body is called with at point t (the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the triple applies; the invariant and the
    core's owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-! ## Into the invariant and out of it -/

/-- The class invariant is the proof data's before the first point, -/
theorem hin (c : Dev nD) : (Pipeline.ΦA spec0 c : sProp 𝕄) ⊢ (dat V c).Φ 0 := by
  rw [Φ_eq]

/-- and after the last. -/
theorem hout (c : Dev nD) : (dat V c).Φ (Fin.last cfg0.N) ⊢ (Pipeline.ΦA spec0 c : sProp 𝕄) := by
  rw [Φ_eq]

/-! ## The values the region leaves -/

/-- What the write-back at point t writes into the output array: relu(x·W + b) of the blocks at t (the window is
    uncut, so all of what the body left). -/
theorem flushed_3 (c : Dev nD) (t : Fin cfg0.N) : (dat V c).flushed 3 t = outAt V c t := by
  unfold Dat.flushed; rw [after_3]; rfl

/-- The output's block is written back at every point, -/
theorem flush_3 (t : Fin cfg0.N) : (cfg0.win 3).flush t = true := flush0_3 t

/-- and an input's array is never written: it ends as entered. -/
theorem arrAt_0 (c : Dev nD) (n : Nat) : (dat V c).arrAt 0 n = V c (Pipeline.arrRef spec0 0) :=
  ((dat V c).arrAt_in 0 rfl n).trans (A_eq V c 0)
theorem arrAt_1 (c : Dev nD) (n : Nat) : (dat V c).arrAt 1 n = V c (Pipeline.arrRef spec0 1) :=
  ((dat V c).arrAt_in 1 rfl n).trans (A_eq V c 1)
theorem arrAt_2 (c : Dev nD) (n : Nat) : (dat V c).arrAt 2 n = V c (Pipeline.arrRef spec0 2) :=
  ((dat V c).arrAt_in 2 rfl n).trans (A_eq V c 2)

/-- The weight's and the bias's blocks do not depend on the point: their windows' block index is constant. -/
theorem iblk_1_const (c : Dev nD) (t t' : Fin cfg0.N) : iblk V c 1 t = iblk V c 1 t' := rfl
theorem iblk_2_const (c : Dev nD) (t t' : Fin cfg0.N) : iblk V c 2 t = iblk V c 2 t' := rfl

end Cert.Kernel.Reg0

end
-- ==== Proof.K.Reg1.lean ====
/-
  Region 1 of the program: the gather of every edge's source row as a one-hot product, accumulated over the node
  blocks in a scratch buffer that the kernel keeps from one grid point to the next.

  The grid is 147 edge blocks by 98 node blocks, the node block the fast coordinate. At the first node block of an
  edge block the accumulator is zeroed; at every point it is updated by the one-hot product of the point's source
  ids against its block of node rows; at the last node block it is rounded and stored into the output block, which
  only that point writes back. This module gives the proof data of that pipeline at a parameter `V` (the
  TensorCore's buffer contents when the region is entered): what the accumulator holds after each point as a
  recursion over the points (`accAt`, with its two case equations), what the output block holds (`outAt`), the
  invariant carrying the accumulator's contents from point to point (`PhiS`), the body's triple in each of its three
  cases and the body obligation. Everything is generic in the float model `F`.
-/
import proofs.«423195_j8272107012813_1_alg».proof.Proof.Gen.Kernel.Launch
import proofs.«423195_j8272107012813_1_alg».proof.Proof.Gen.Kernel.Skeleton
import proofs.«423195_j8272107012813_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: the edge block is the slow coordinate, the node block the fast one -/

/-- The node-block coordinate of point `t` is `t mod 98`. -/
theorem nodeCoord (t : Fin cfg1.N) : (grid1.coords t 1).val = t.val % 98 := by
  show t.val / 1 % 98 = t.val % 98
  rw [Nat.div_one]

/-- The body's first conditional: the node-block coordinate is zero (the accumulator is reset). -/
abbrev condReset (i : grid1.Coords) : Prop :=
  (Scalar.cmpi .ne (Scalar.extui (Scalar.cmpi .eq (BitVec.ofNat 32 (i 1).val) 0#32)) 0#32) = 1#1

/-- The body's second conditional: the node-block coordinate is the last one (the output block is stored). -/
abbrev condStore (i : grid1.Coords) : Prop := k1_cond2 i = 1#1

theorem condReset_fin : ∀ k : Fin 98,
    (Scalar.cmpi .ne (Scalar.extui (Scalar.cmpi .eq (BitVec.ofNat 32 k.val) 0#32)) 0#32) = 1#1 ↔ k.val = 0 := by
  decide

theorem condStore_fin : ∀ k : Fin 98,
    (Scalar.cmpi .ne (Scalar.extui (Scalar.cmpi .eq (BitVec.ofNat 32 k.val) 97#32)) 0#32) = 1#1 ↔ k.val = 97 := by
  decide

theorem condReset_iff (i : grid1.Coords) : condReset i ↔ (i 1).val = 0 := condReset_fin (i 1)

theorem condStore_iff (i : grid1.Coords) : condStore i ↔ (i 1).val = 97 := condStore_fin (i 1)

/-- At a point, in closed form. -/
theorem condReset_at (t : Fin cfg1.N) : condReset (grid1.coords t) ↔ t.val % 98 = 0 := by
  rw [condReset_iff, nodeCoord]

theorem condStore_at (t : Fin cfg1.N) : condStore (grid1.coords t) ↔ t.val % 98 = 97 := by
  rw [condStore_iff, nodeCoord]

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of source ids the point's edge block reads (window 0), at its literal type. -/
abbrev srcBlk (c : Dev nD) (t : Fin cfg1.N) : Vec F S1x4096 .i32 := iblk V c 0 t

/-- The block of node features the point's node block reads (window 1), at its literal type. -/
abbrev featBlk (c : Dev nD) (t : Fin cfg1.N) : Vec F S1024x128 .f32 := iblk V c 1 t

/-- An input window's current staging buffer holds its block at every point, fetched there or not, for any proof
    data whose array is `V`'s and whose body leaves the block in place: unfetched, the block index has not moved. -/
theorem before_src_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_feat_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the accumulator and the output block hold, point by point -/

/-- One point's update of the accumulator: the one-hot product of the point's source ids against its node block,
    added to what the accumulator held (`k1_pay2`, the skeleton's payload). -/
abbrev accStep (i : grid1.Coords) (xs : Vec F S1x4096 .i32) (xh : Vec F S1024x128 .f32) (xa : Vec F S4096x128 .f32) :
    Vec F S4096x128 .f32 := k1_pay2 i xs xh xa

/-- The accumulator at the start of an edge block: all zero (`k1_pay1`). -/
abbrev accZero : Vec F S4096x128 .f32 := k1_pay1 (F := F)

/-- THE ACCUMULATION. What the scratch accumulator holds after the body at position `n`: at the first node block of
    an edge block (`n mod 98 = 0`) one update of the zero accumulator, at every other point one update of what the
    point before left. -/
def accAt (c : Dev nD) : (n : ℕ) → n < cfg1.N → Vec F S4096x128 .f32
  | 0, hn => accStep (grid1.coords ⟨0, hn⟩) (srcBlk V c ⟨0, hn⟩) (featBlk V c ⟨0, hn⟩) accZero
  | n + 1, hn =>
    if (n + 1) % 98 = 0 then accStep (grid1.coords ⟨n + 1, hn⟩) (srcBlk V c ⟨n + 1, hn⟩) (featBlk V c ⟨n + 1, hn⟩) accZero
    else accStep (grid1.coords ⟨n + 1, hn⟩) (srcBlk V c ⟨n + 1, hn⟩) (featBlk V c ⟨n + 1, hn⟩) (accAt c n (Nat.lt_of_succ_lt hn))

/-- At a point where the accumulator is reset. -/
theorem accAt_reset (c : Dev nD) (t : Fin cfg1.N) (h : t.val % 98 = 0) :
    accAt V c t.val t.isLt = accStep (grid1.coords t) (srcBlk V c t) (featBlk V c t) accZero := by
  obtain ⟨n, hn⟩ := t
  cases n with
  | zero => rfl
  | succ n => exact if_pos h

/-- At a point where it is not: over what the point before left. -/
theorem accAt_step (c : Dev nD) (t : Fin cfg1.N) (h : ¬t.val % 98 = 0) :
    accAt V c t.val t.isLt
      = accStep (grid1.coords t) (srcBlk V c t) (featBlk V c t) (accAt V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at point `t`: the accumulator there, rounded to the
    output's format (`k1_pay3`). Stored by the body — and written back — only at the last node block of an edge
    block; elsewhere the window is idle and nothing consults this. -/
def outAt (c : Dev nD) (t : Fin cfg1.N) : Vec F S4096x128 .bf16 := k1_pay3 (accAt V c t.val t.isLt)

/-! ## Where the output window is stored and where it is idle -/

/-- At the last node block of an edge block the body stores the output block: the window is live. -/
theorem live_out (t : Fin cfg1.N) (h : t.val % 98 = 97) : cfg1.idle 2 (grid1.coords t) = false := by
  have hc : k1_cond2 (grid1.coords t) = 1#1 := (condStore_at t).mpr h
  show (!(k1_cond2 (grid1.coords t) == 1#1)) = false
  rw [hc]; rfl

/-- Elsewhere it stores nothing into it: the window is idle, -/
theorem idle_out (t : Fin cfg1.N) (h : ¬t.val % 98 = 97) : cfg1.idle 2 (grid1.coords t) = true := by
  have hc : ¬k1_cond2 (grid1.coords t) = 1#1 := fun e => h ((condStore_at t).mp e)
  show (!(k1_cond2 (grid1.coords t) == 1#1)) = true
  rw [Bool.not_eq_true', beq_eq_false_iff_ne]; exact hc

/-- and the pipeline does not write its block back. -/
theorem noFlush_out (t : Fin cfg1.N) (h : ¬t.val % 98 = 97) : (cfg1.win 2).flush t = false :=
  Bool.eq_false_iff.mpr fun e => h ((flush1_2 t).mp e)

/-! ## The invariant: the accumulator's contents, point by point -/

/-- The scratch accumulator, a whole scoped buffer of the kernel's own. -/
abbrev scM : Memref sig .tc .vmem S4096x128 .f32 := Memref.whole cc1_scratch0

/-- Every other scoped buffer of the core that is no staging buffer of this call, at some contents each. -/
abbrev restBut (c : Dev nD) : sProp 𝕄 :=
  Pipeline.scopedRestBut (Ix := Unit) (Name := ℕ) (U := UR sig nD τ) (Lvl := ℕ) (Val := Elt F) spec1 c [cc1_scratch0]

/-- The class's invariant with the accumulator as a memref owned at some contents. -/
theorem PhiA_eq (c : Dev nD) :
    (Pipeline.ΦA spec1 c : sProp 𝕄)
      = iprop(iprop((∃ d, owns (c : Thread nD τ) scM fullShare d) ∗ restBut (F := F) c) ∗ (∃ r, prngReg c r)) := by
  unfold Pipeline.ΦA; rw [scopedRest1_split]; simp only [scM, owns_whole]; try rfl

/-- The region invariant before position `n`: before the first point the class's (the accumulator at anything);
    afterwards the accumulator at what the point before left in it (`accAt`), the other scoped buffers at anything
    and the generator register at some state. -/
def PhiS (c : Dev nD) : (n : ℕ) → n ≤ cfg1.N → sProp 𝕄
  | 0, _ => Pipeline.ΦA spec1 c
  | n + 1, hn => iprop(iprop(owns (c : Thread nD τ) scM fullShare (accAt V c n hn) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

/-! ## The proof data -/

/-- The proof data of this pipeline on core `c`: the arrays as the region finds them (`V`); after the body at point
    `t` each input's buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

/-- What the body leaves, window by window. -/
theorem after_src (c : Dev nD) (t : Fin cfg1.N) : (dat V c).after 0 t = iblk V c 0 t := by dsimp only [dat]
theorem after_feat (c : Dev nD) (t : Fin cfg1.N) : (dat V c).after 1 t = iblk V c 1 t := by dsimp only [dat]
theorem after_out (c : Dev nD) (t : Fin cfg1.N) : (dat V c).after 2 t = outAt V c t := by dsimp only [dat]

/-- The output's staged block in terms of the accumulator. -/
theorem after_out_eq (c : Dev nD) (t : Fin cfg1.N) : (dat V c).after 2 t = k1_pay3 (accAt V c t.val t.isLt) := after_out V c t

/-- The invariant at a point's start, restated at `t.val`. -/
theorem Phi_castSucc (c : Dev nD) (t : Fin cfg1.N) :
    (dat V c).Φ t.castSucc = PhiS V c t.val (Nat.le_of_lt t.isLt) := by
  dsimp only [dat]; simp only [Fin.coe_castSucc]

/-- Each input's current staging buffer holds its block at every point. -/
theorem before_src (c : Dev nD) (t : Fin cfg1.N) (d) : (dat V c).before 0 t d = iblk V c 0 t :=
  before_src_of V (dat V c) (A_eq V c 0) (after_src V c) t d
theorem before_feat (c : Dev nD) (t : Fin cfg1.N) (d) : (dat V c).before 1 t d = iblk V c 1 t :=
  before_feat_of V (dat V c) (A_eq V c 1) (after_feat V c) t d

/-! ## The body's triples, case by case

On whole memrefs — the staging buffers the pipeline passes and the scratch accumulator —, the two inputs' at read
contents `xs` (source ids) and `xh` (node features): the body runs to the continuation holding the inputs' as they
were, the accumulator at one update (`accStep`) of zero or of what it held, and, at the last node block, the
output's at the accumulator rounded. The conditionals are decided by the case's hypotheses. -/

/-- The zero offsets of a whole-buffer rectangle, however spelt. -/
theorem zeroOff : (![0, 0] : Fin 2 → Nat) = fun _ => 0 := by
  funext a; fin_cases a <;> rfl

/-- A list of pieces whose newest is a store through the whole-buffer rectangle covers the buffer. -/
theorem coverHead {e : EltTy} (w : S4096x128.Idx → Elt F e) (L : List (View.Piece (Elt F) S4096x128 e)) (y : S4096x128.Idx) :
    ∃ p ∈ ((⟨Rect.unit (s := S4096x128) ![0, 0] S4096x128.size inb_S4096x128_S4096x128_0_0, w⟩ : View.Piece (Elt F) S4096x128 e) :: L), y ∈ p.1.set :=
  ⟨_, List.Mem.head _, View.mem_set_unit_zero (S := S4096x128) zeroOff inb_S4096x128_S4096x128_0_0 y⟩

set_option maxHeartbeats 1000000 in
/-- AT A RESET POINT (the first node block of an edge block): the accumulator, at anything, is zeroed and updated once.
    The output's memref is not touched. -/
theorem run_reset (c : Dev nD) (i : grid1.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : condReset i) (hs : ¬condStore i)
    (xs : Vec F S1x4096 .i32) (xh : Vec F S1024x128 .f32) (E : Set ℕ) (K : PUnit → sProp 𝕄) :
    iprop(owns (c : Thread nD τ) arg2 fullShare xs ∗ owns (c : Thread nD τ) arg3 fullShare xh ∗ (∃ d, owns (c : Thread nD τ) arg5 fullShare d)
        ∗ (iprop(owns (c : Thread nD τ) arg2 fullShare xs ∗ owns (c : Thread nD τ) arg3 fullShare xh
            ∗ owns (c : Thread nD τ) arg5 fullShare (accStep i xs xh accZero)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT A POINT THAT NEITHER RESETS NOR STORES: the accumulator, at `xa`, is updated once. The output's memref is not
    touched. -/
theorem run_step (c : Dev nD) (i : grid1.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : ¬condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ owns (c : Thread nD τ) arg5 fullShare xa
        ∗ (iprop(owns (c : Thread nD τ) arg2 fullShare xs ∗ owns (c : Thread nD τ) arg3 fullShare xh
            ∗ owns (c : Thread nD τ) arg5 fullShare (accStep i xs xh xa)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT THE LAST NODE BLOCK of an edge block: the accumulator, at `xa`, is updated once, and the output's memref, at
    anything, is left at the accumulator rounded to the output's format. -/
theorem run_last (c : Dev nD) (i : grid1.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ (∃ d, owns (c : Thread nD τ) arg4 fullShare d) ∗ owns (c : Thread nD τ) arg5 fullShare xa
        ∗ (iprop(owns (c : Thread nD τ) arg2 fullShare xs ∗ owns (c : Thread nD τ) arg3 fullShare xh
            ∗ owns (c : Thread nD τ) arg4 fullShare (k1_pay3 (accStep i xs xh xa)) ∗ owns (c : Thread nD τ) arg5 fullShare (accStep i xs xh xa)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_run_names
    refine (View.read_writes_eq_canon _ _ _ (coverHead _ _)).trans ?_
    rw [View.canon_cons_unit_zero (S := S4096x128) zeroOff]
    simp only [View.readAt_eq_ld, harg2.read_unread, harg3.read_unread, harg5.read_unread, View.ld_unit_zero (S := S1x4096) zeroOff,
      View.ld_unit_zero (S := S1024x128) zeroOff, View.ld_unit_zero (S := S4096x128) zeroOff, View.readCov_unit_zero (S := S4096x128) _ zeroOff]
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

/-! ## The body obligation, at a generic point -/

/-- Each window's current staging memref at point `t`, spelt as the pipeline passes it, and its wholeness. -/
abbrev msSrc (t : Fin cfg1.N) : Memref sig .tc .vmem S1x4096 .i32 := win1_0.stage (cfg1.slots t 0)
abbrev hsSrc (t : Fin cfg1.N) : (msSrc t).IsWhole := hstage1_0 ((cfg1.slots t 0).cast nbuf1_0)
abbrev msFeat (t : Fin cfg1.N) : Memref sig .tc .vmem S1024x128 .f32 := win1_1.stage (cfg1.slots t 1)
abbrev hsFeat (t : Fin cfg1.N) : (msFeat t).IsWhole := hstage1_1 ((cfg1.slots t 1).cast nbuf1_1)
abbrev msOut (t : Fin cfg1.N) : Memref sig .tc .vmem S4096x128 .bf16 := win1_2.stage (cfg1.slots t 2)
abbrev hsOut (t : Fin cfg1.N) : (msOut t).IsWhole := hstage1_2 ((cfg1.slots t 2).cast nbuf1_2)

/-- What the body is called with at point `t` (the obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (msSrc t) fullShare ((dat V c).before 0 t d))
    ∗ (∃ d, owns (c : Thread nD τ) (msFeat t) fullShare ((dat V c).before 1 t d))
    ∗ (∃ d, owns (c : Thread nD τ) (msOut t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

/-- An input window is never idle: its buffer is left at its block. -/
theorem leaves_src (c : Dev nD) (t : Fin cfg1.N) :
    (dat V c).leavesExact 0 t = owns (c : Thread nD τ) (msSrc t) fullShare (iblk V c 0 t) := by
  rw [← after_src V c t]
theorem leaves_feat (c : Dev nD) (t : Fin cfg1.N) :
    (dat V c).leavesExact 1 t = owns (c : Thread nD τ) (msFeat t) fullShare (iblk V c 1 t) := by
  rw [← after_feat V c t]

/-- The output window where it is stored: its buffer is left at the accumulator rounded. -/
theorem leaves_out_live (c : Dev nD) (t : Fin cfg1.N) (h : t.val % 98 = 97) :
    (dat V c).leavesExact 2 t = owns (c : Thread nD τ) (msOut t) fullShare (outAt V c t) := by
  unfold Dat.leavesExact; rw [live_out t h, after_out]

/-- The output window where it is idle: its buffer is handed back as it was found. -/
theorem leaves_out_idle (c : Dev nD) (t : Fin cfg1.N) (h : ¬t.val % 98 = 97) :
    (dat V c).leavesExact 2 t = iprop(∃ d, owns (c : Thread nD τ) (msOut t) fullShare ((dat V c).before 2 t d)) :=
  Dat.leavesExact_idle (dat V c) 2 t (idle_out t h) (noFlush_out t h)

set_option maxHeartbeats 2000000 in
/-- The body at any point. The inputs' memrefs hold their blocks; the point's position in its edge block says which
    case it is in: at the first node block the accumulator (at what the point before left, or at anything at the very
    first point) is zeroed and updated, elsewhere it is updated from what the point before left; at the last node
    block the output's buffer is stored, elsewhere it is handed back untouched. The invariant takes the accumulator
    back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_src, before_feat]
  rw [show (dat V c).owesAt () t.succ = (dat V c).owesAt () t.castSucc from rfl]
  rw [show (dat V c).Φ t.succ = PhiS V c (t.val + 1) t.isLt from rfl, PhiS_succ]
  rw [leaves_src, leaves_feat, Phi_castSucc]
  by_cases h0 : t.val % 98 = 0
  · -- the first node block of an edge block
    have h97 : ¬t.val % 98 = 97 := by omega
    rw [leaves_out_idle V c t h97, accAt_reset V c t h0]
    by_cases hz : t.val = 0
    · rw [PhiS_zero V c _ _ hz, PhiA_eq]
      iintro ⟨⟨⟨HS, HR⟩, Hg⟩, Ho, ⟨%d0, H0⟩, ⟨%d1, H1⟩, H2⟩
      iapply (run_reset c (grid1.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [PhiS_pos V c _ _ hz]
      iintro ⟨⟨⟨HS, HR⟩, Hg⟩, Ho, ⟨%d0, H0⟩, ⟨%d1, H1⟩, H2⟩
      iapply (run_reset c (grid1.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexists _; iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [PhiS_pos V c _ _ hz, accAt_step V c t h0]
    by_cases h97 : t.val % 98 = 97
    · -- the last node block of an edge block
      rw [leaves_out_live V c t h97]
      unfold outAt
      rw [accAt_step V c t h0]
      iintro ⟨⟨⟨HS, HR⟩, Hg⟩, Ho, ⟨%d0, H0⟩, ⟨%d1, H1⟩, ⟨%d2, H2⟩⟩
      iapply (run_last c (grid1.coords t) _ _ _ _ _ _ _ _ (fun e => h0 ((condReset_at t).mp e)) ((condStore_at t).mpr h97)
        (srcBlk V c t) (featBlk V c t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · -- a node block in between
      rw [leaves_out_idle V c t h97]
      iintro ⟨⟨⟨HS, HR⟩, Hg⟩, Ho, ⟨%d0, H0⟩, ⟨%d1, H1⟩, H2⟩
      iapply (run_step c (grid1.coords t) _ _ _ _ _ _ _ _ (fun e => h0 ((condReset_at t).mp e)) (fun e => h97 ((condStore_at t).mp e))
        (srcBlk V c t) (featBlk V c t) _ Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class's back: the accumulator's named contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨HS, HR⟩, Hg⟩
  isplitr [Hg]
  · isplitl [HS]; · iexists _; iexact HS
    iexact HR
  iexact Hg

/-- The same after the last point. -/
theorem hout (c : Dev nD) : (dat V c).Φ (Fin.last cfg1.N) ⊢ (Pipeline.ΦA spec1 c : sProp 𝕄) :=
  Phi_out V c _ (by rw [Fin.val_last]; have : cfg1.N = 14406 := N_1; omega)

end Cert.Kernel.Reg1

end
-- ==== Proof.K.Reg2.lean ====
/-
  Kernel region 2 (scatter-add by one-hot weights over edge blocks, then the dense layer, ReLU and row
  normalization at the last edge block), on one core, at any float model and at any contents `V` of the
  TensorCore's buffers when the region is entered: the proof data of its pipeline and the body obligation.

  The grid is 98 node blocks by 147 edge blocks, the edge axis fastest. The kernel keeps a 1024 x 128 accumulator in a
  scratch block of its own: zeroed where the edge-block coordinate is 0, increased at every point by the product of the
  point's one-hot matrix (destination ids against the node block's row numbers) with the point's block of gathered
  rows; where the coordinate is 146, the last, the output block is computed from the node block's features plus the
  accumulator and stored. What the scratch holds after each point (`scr`) and what the output block is (`outv`) are
  functions of the input blocks through the kernel's payloads, by recursion on the point; the region's invariant
  carries the scratch at `scr` from point to point.
-/
import proofs.«423195_j8272107012813_1_alg».proof.Proof.Gen.Kernel.Launch
import proofs.«423195_j8272107012813_1_alg».proof.Proof.Gen.Kernel.Skeleton
import proofs.«423195_j8272107012813_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: a point's edge-block coordinate, and the body's two conditions in closed form

The grid is 98 node blocks by 147 edge blocks, the edge axis fastest: point `t` has edge-block coordinate
`t % 147`. The body zeroes its accumulator where that coordinate is 0 and stores its output where it is 146. -/

/-- The edge-block coordinate (axis 1) of point `t` is `t % 147`. -/
theorem coord_e (t : Fin cfg2.N) : ((grid2.coords t) 1).val = t.val % 147 := by
  show t.val / grid2.stride 1 % grid2.bound 1 = t.val % 147
  rw [show grid2.stride 1 = 1 from by decide, Nat.div_one]; rfl

/-- The condition under which the body zeroes the accumulator (the first conditional of the kernel function), as
    the kernel function computes it from the coordinates. -/
abbrev condR (i : grid2.Coords) : Prop :=
  Scalar.cmpi .ne (Scalar.extui (Scalar.cmpi .eq (BitVec.ofNat 32 (i 1).val) 0#32)) 0#32 = 1#1

/-- The condition under which the body computes and stores its output block (the second conditional). -/
abbrev condS (i : grid2.Coords) : Prop := k2_cond2 i = 1#1

/-- The accumulator is zeroed exactly where the edge-block coordinate is 0 (the 147 values of the coordinate
    checked one by one). -/
theorem condR_iff (i : grid2.Coords) : condR i ↔ (i 1).val = 0 :=
  (by decide +kernel : ∀ k : Fin 147,
    (Scalar.cmpi .ne (Scalar.extui (Scalar.cmpi .eq (BitVec.ofNat 32 k.val) 0#32)) 0#32 = 1#1) ↔ k.val = 0) (i 1)

/-- The output is stored exactly where the edge-block coordinate is 146, the last. -/
theorem condS_iff (i : grid2.Coords) : condS i ↔ (i 1).val = 146 :=
  (by decide +kernel : ∀ k : Fin 147,
    (Scalar.cmpi .ne (Scalar.extui (Scalar.cmpi .eq (BitVec.ofNat 32 k.val) 146#32)) 0#32 = 1#1) ↔ k.val = 146) (i 1)

/-- At point `t` the accumulator is zeroed iff `t % 147 = 0`. -/
theorem hR (t : Fin cfg2.N) : condR (grid2.coords t) ↔ t.val % 147 = 0 :=
  (condR_iff (grid2.coords t)).trans (by rw [coord_e])

/-- At point `t` the output is stored iff `t % 147 = 146`. -/
theorem hS (t : Fin cfg2.N) : condS (grid2.coords t) ↔ t.val % 147 = 146 :=
  (condS_iff (grid2.coords t)).trans (by rw [coord_e])

/-- Where the output is not stored its window is idle; -/
theorem idle_out (t : Fin cfg2.N) (h : ¬t.val % 147 = 146) : cfg2.idle 7 (grid2.coords t) = true := by
  have hc : ¬k2_cond2 (grid2.coords t) = 1#1 := fun h' => h ((hS t).mp h')
  show (!(k2_cond2 (grid2.coords t) == 1#1)) = true
  simp [hc]

/-- where it is stored the window is live; -/
theorem live_out (t : Fin cfg2.N) (h : t.val % 147 = 146) : cfg2.idle 7 (grid2.coords t) = false := by
  have hc : k2_cond2 (grid2.coords t) = 1#1 := (hS t).mpr h
  show (!(k2_cond2 (grid2.coords t) == 1#1)) = false
  simp [hc]

/-- and the pipeline writes the block back only there. -/
theorem noflush_out (t : Fin cfg2.N) (h : ¬t.val % 147 = 146) : (cfg2.win 7).flush t = false :=
  Bool.eq_false_iff.mpr fun hf => h ((flush2_7 t).mp hf)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input blocks at their literal types: the destination ids of edge block `e`, the gathered rows of edge block
    `e`, the node features of node block `n`, the layer's weight, bias, and the normalization's scale and shift. -/
abbrev dstB (c : Dev nD) (t : Fin cfg2.N) : Vec F S1x4096 .i32 := iblk V c 0 t
abbrev tB (c : Dev nD) (t : Fin cfg2.N) : Vec F S4096x128 .bf16 := iblk V c 1 t
abbrev hB (c : Dev nD) (t : Fin cfg2.N) : Vec F S1024x128 .f32 := iblk V c 2 t
abbrev wB (c : Dev nD) (t : Fin cfg2.N) : Vec F S128x128 .f32 := iblk V c 3 t
abbrev bB (c : Dev nD) (t : Fin cfg2.N) : Vec F S1x128 .f32 := iblk V c 4 t
abbrev gB (c : Dev nD) (t : Fin cfg2.N) : Vec F S1x128 .f32 := iblk V c 5 t
abbrev lB (c : Dev nD) (t : Fin cfg2.N) : Vec F S1x128 .f32 := iblk V c 6 t

/-! ## What the body leaves: the accumulator point by point, and the output block -/

/-- THE ACCUMULATION. The accumulator (the kernel's own scratch block) after the body at point `n`: the point's
    one-hot scatter product of its edge block added (`k2_pay2`) to the zero block (`k2_pay1`) where the
    edge-block coordinate is 0, to what the point before left elsewhere. -/
def scr (c : Dev nD) : (n : ℕ) → n < cfg2.N → Vec F S1024x128 .f32
  | 0, hn => k2_pay2 (grid2.coords ⟨0, hn⟩) (dstB V c ⟨0, hn⟩) (tB V c ⟨0, hn⟩) k2_pay1
  | n + 1, hn =>
    if (n + 1) % 147 = 0 then k2_pay2 (grid2.coords ⟨n + 1, hn⟩) (dstB V c ⟨n + 1, hn⟩) (tB V c ⟨n + 1, hn⟩) k2_pay1
    else k2_pay2 (grid2.coords ⟨n + 1, hn⟩) (dstB V c ⟨n + 1, hn⟩) (tB V c ⟨n + 1, hn⟩) (scr c n (Nat.lt_of_succ_lt hn))

/-- At a point whose edge-block coordinate is 0 the sum starts afresh from the zero block; -/
theorem scr_reset (c : Dev nD) (t : Fin cfg2.N) (h : t.val % 147 = 0) :
    scr V c t.val t.isLt = k2_pay2 (grid2.coords t) (dstB V c t) (tB V c t) k2_pay1 := by
  obtain ⟨n, hn⟩ := t
  cases n with
  | zero => rfl
  | succ n => exact if_pos h

/-- elsewhere it goes on from what the point before left. -/
theorem scr_acc (c : Dev nD) (t : Fin cfg2.N) (h : ¬t.val % 147 = 0) :
    scr V c t.val t.isLt = k2_pay2 (grid2.coords t) (dstB V c t) (tB V c t)
      (scr V c (t.val - 1) (Nat.lt_of_le_of_lt (Nat.sub_le _ _) t.isLt)) := by
  obtain ⟨n, hn⟩ := t
  cases n with
  | zero => exact absurd (Nat.zero_mod _) h
  | succ n => exact if_neg h

/-- The output block the body computes from the point's accumulator (the dense layer on features plus aggregate,
    rectified and normalized: `k2_pay3`). The body stores it only where the edge-block coordinate is 146; it is the
    value of the proof data's `after` for the output window at every point, consulted only there. -/
def outv (c : Dev nD) (t : Fin cfg2.N) : Vec F S1024x128 .f32 :=
  k2_pay3 (hB V c t) (scr V c t.val t.isLt) (wB V c t) (bB V c t) (gB V c t) (lB V c t)

/-! ## The invariant: the accumulator between points -/

/-- The kernel's scratch block, whole. -/
abbrev scM : Memref sig .tc .vmem S1024x128 .f32 := Memref.whole cc2_scratch0

/-- The core's scoped buffers other than the staging buffers and the scratch block, each at some contents. -/
abbrev restBut (c : Dev nD) : sProp 𝕄 :=
  Pipeline.scopedRestBut (Ix := Unit) (Name := ℕ) (U := UR sig nD τ) (Lvl := ℕ) (Val := Elt F) spec2 c [cc2_scratch0]

/-- The class's invariant with the scratch block as a memref owned at some contents. -/
theorem PhiA_eq (c : Dev nD) :
    (Pipeline.ΦA spec2 c : sProp 𝕄)
      = iprop(iprop((∃ d, owns (c : Thread nD τ) scM fullShare d) ∗ restBut c) ∗ (∃ r, prngReg c r)) := by
  unfold Pipeline.ΦA; rw [scopedRest2_split]; simp only [scM, owns_whole]; try rfl

/-- The region's invariant before position `n`: before the first point the class's (the scratch at anything);
    afterwards the scratch at what the point before left in it (`scr`), the other scoped buffers at anything, the
    generator register at some state. -/
def Phi (c : Dev nD) : (n : ℕ) → n ≤ cfg2.N → sProp 𝕄
  | 0, _ => Pipeline.ΦA spec2 c
  | n + 1, hn => iprop(iprop(owns (c : Thread nD τ) scM fullShare (scr V c n hn) ∗ restBut c) ∗ (∃ r, prngReg c r))

theorem Phi_succ (c : Dev nD) (n : ℕ) (hn : n < cfg2.N) :
    Phi V c (n + 1) hn = iprop(iprop(owns (c : Thread nD τ) scM fullShare (scr V c n hn) ∗ restBut c) ∗ (∃ r, prngReg c r)) := rfl

theorem Phi_pos (c : Dev nD) (n : ℕ) (h : n ≤ cfg2.N) (hz : n ≠ 0) :
    Phi V c n h = iprop(iprop(owns (c : Thread nD τ) scM fullShare (scr V c (n - 1) (by omega)) ∗ restBut c) ∗ (∃ r, prngReg c r)) := by
  cases n with
  | zero => exact absurd rfl hz
  | succ n => rfl

/-- At any position the invariant yields the scratch at SOME contents: what a point that zeroes it needs, and what
    the class's invariant says. -/
theorem Phi_any (c : Dev nD) (n : ℕ) (h : n ≤ cfg2.N) :
    Phi V c n h ⊢ iprop(iprop((∃ d, owns (c : Thread nD τ) scM fullShare d) ∗ restBut c) ∗ (∃ r, prngReg c r)) := by
  cases n with
  | zero => rw [show Phi V c 0 h = Pipeline.ΦA spec2 c from rfl, PhiA_eq]; try exact Idealize.SL.BI.Entails.refl _
  | succ n =>
    rw [Phi_succ]
    iintro ⟨⟨HS, HR⟩, Hg⟩
    isplitl [HS HR]
    · isplitl [HS]
      · iexists _; iexact HS
      iexact HR
    iexact Hg

/-! ## The pipeline's proof data -/

/-- The proof data of the region on core `c`: the arrays as the region finds them (`V`); after the body at point
    `t` each input's buffer at its block and the output's at `outv`; the invariant `Phi`; nothing owed; full
    shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outv V c t
  Φ t := Phi V c t.val (Nat.le_of_lt_succ t.isLt)
  q _ := fullShare
  owed _ := 0

/-- The proof data's arrays are the region-entry contents. -/
theorem A_eq (c : Dev nD) (w : Fin cfg2.W) : (dat V c).A w = V c (Pipeline.arrRef spec2 w) := by
  dsimp only [dat]

/-- The invariant at a point's start, restated at `t.val`. -/
theorem Phi_castSucc (c : Dev nD) (t : Fin cfg2.N) :
    (dat V c).Φ t.castSucc = Phi V c t.val (Nat.le_of_lt t.isLt) := by
  dsimp only [dat]; simp only [Fin.coe_castSucc]

/-- What the body leaves, window by window. -/
theorem after_D (c : Dev nD) (t : Fin cfg2.N) : (dat V c).after 0 t = iblk V c 0 t := by dsimp only [dat]
theorem after_T (c : Dev nD) (t : Fin cfg2.N) : (dat V c).after 1 t = iblk V c 1 t := by dsimp only [dat]
theorem after_H (c : Dev nD) (t : Fin cfg2.N) : (dat V c).after 2 t = iblk V c 2 t := by dsimp only [dat]
theorem after_W (c : Dev nD) (t : Fin cfg2.N) : (dat V c).after 3 t = iblk V c 3 t := by dsimp only [dat]
theorem after_B (c : Dev nD) (t : Fin cfg2.N) : (dat V c).after 4 t = iblk V c 4 t := by dsimp only [dat]
theorem after_G (c : Dev nD) (t : Fin cfg2.N) : (dat V c).after 5 t = iblk V c 5 t := by dsimp only [dat]
theorem after_L (c : Dev nD) (t : Fin cfg2.N) : (dat V c).after 6 t = iblk V c 6 t := by dsimp only [dat]
theorem after_out (c : Dev nD) (t : Fin cfg2.N) : (dat V c).after 7 t = outv V c t := by dsimp only [dat]

/-- Each input's current staging buffer holds its block at every point, fetched there or not: the body leaves the
    block in place, and where the pipeline does not fetch, the block index has not moved. -/
theorem before_D (c : Dev nD) (t : Fin cfg2.N) (d) : (dat V c).before 0 t d = iblk V c 0 t :=
  ((dat V c).before_in_eq_fetched 0 rfl (fun _ => rfl) (fun _ _ _ => rfl)
    (fun t => by rw [after_D]; unfold Dat.blockOf iblk; rw [A_eq]; try rfl) t d).trans
    (by unfold Dat.fetched Dat.blockOf iblk; rw [A_eq]; try rfl)
theorem before_T (c : Dev nD) (t : Fin cfg2.N) (d) : (dat V c).before 1 t d = iblk V c 1 t :=
  ((dat V c).before_in_eq_fetched 1 rfl (fun _ => rfl) (fun _ _ _ => rfl)
    (fun t => by rw [after_T]; unfold Dat.blockOf iblk; rw [A_eq]; try rfl) t d).trans
    (by unfold Dat.fetched Dat.blockOf iblk; rw [A_eq]; try rfl)
theorem before_H (c : Dev nD) (t : Fin cfg2.N) (d) : (dat V c).before 2 t d = iblk V c 2 t :=
  ((dat V c).before_in_eq_fetched 2 rfl (fun _ => rfl) (fun _ _ _ => rfl)
    (fun t => by rw [after_H]; unfold Dat.blockOf iblk; rw [A_eq]; try rfl) t d).trans
    (by unfold Dat.fetched Dat.blockOf iblk; rw [A_eq]; try rfl)
theorem before_W (c : Dev nD) (t : Fin cfg2.N) (d) : (dat V c).before 3 t d = iblk V c 3 t :=
  ((dat V c).before_in_eq_fetched 3 rfl (fun _ => rfl) (fun _ _ _ => rfl)
    (fun t => by rw [after_W]; unfold Dat.blockOf iblk; rw [A_eq]; try rfl) t d).trans
    (by unfold Dat.fetched Dat.blockOf iblk; rw [A_eq]; try rfl)
theorem before_B (c : Dev nD) (t : Fin cfg2.N) (d) : (dat V c).before 4 t d = iblk V c 4 t :=
  ((dat V c).before_in_eq_fetched 4 rfl (fun _ => rfl) (fun _ _ _ => rfl)
    (fun t => by rw [after_B]; unfold Dat.blockOf iblk; rw [A_eq]; try rfl) t d).trans
    (by unfold Dat.fetched Dat.blockOf iblk; rw [A_eq]; try rfl)
theorem before_G (c : Dev nD) (t : Fin cfg2.N) (d) : (dat V c).before 5 t d = iblk V c 5 t :=
  ((dat V c).before_in_eq_fetched 5 rfl (fun _ => rfl) (fun _ _ _ => rfl)
    (fun t => by rw [after_G]; unfold Dat.blockOf iblk; rw [A_eq]; try rfl) t d).trans
    (by unfold Dat.fetched Dat.blockOf iblk; rw [A_eq]; try rfl)
theorem before_L (c : Dev nD) (t : Fin cfg2.N) (d) : (dat V c).before 6 t d = iblk V c 6 t :=
  ((dat V c).before_in_eq_fetched 6 rfl (fun _ => rfl) (fun _ _ _ => rfl)
    (fun t => by rw [after_L]; unfold Dat.blockOf iblk; rw [A_eq]; try rfl) t d).trans
    (by unfold Dat.fetched Dat.blockOf iblk; rw [A_eq]; try rfl)

/-! ## The body's triple, case by case

The kernel function on whole memrefs. It reads the destination ids and the gathered rows, and reads and rewrites the
accumulator; only where it stores the output does it touch the other operands. The whole-block rectangle's offsets
are zero, so that a load through it reads the contents and a store through it, last, leaves its payload. -/

theorem hz : (![0, 0] : Fin 2 → ℕ) = fun _ => 0 := funext fun a => by fin_cases a <;> rfl

/-- After writes whose LAST is a store through the whole-block rectangle, the buffer reads as that store's payload,
    whatever the earlier writes and the prior contents. -/
theorem read_last_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

set_option maxHeartbeats 1000000 in
/-- WHERE THE ACCUMULATOR IS ZEROED and the output not stored: from the ids and rows at `xd`, `xt` and the
    accumulator at anything, the body leaves the accumulator at the point's product added to the zero block (the
    zero block stored first and read back), the ids and rows as they were. -/
theorem run_reset (c : Dev nD) (E : Set ℕ) (i : grid2.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : condR i) (hs : ¬condS i) (xd : Vec F S1x4096 .i32) (xt : Vec F S4096x128 .bf16) (K : PUnit → sProp 𝕄) :
    iprop(owns (c : Thread nD τ) aD fullShare xd ∗ owns (c : Thread nD τ) aT fullShare xt ∗ (∃ d, owns (c : Thread nD τ) aS fullShare d)
        ∗ (iprop(owns (c : Thread nD τ) aD fullShare xd ∗ owns (c : Thread nD τ) aT fullShare xt
            ∗ owns (c : Thread nD τ) aS fullShare (k2_pay2 i xd xt k2_pay1)) -∗ K ⟨⟩))
      ⊢ wp frame (wpE (defs₀ (F := F)) Variants.none c none) E (cc2__scatter_mlp_ln_kernel i aD hD aT hT aH hH aW hW aB hB' aG hG aL hL aO hO aS hS') K := by
  simp only [cc2__scatter_mlp_ln_kernel_eq_skeleton]; unfold cc2__scatter_mlp_ln_kernel_skel
  unfold owns
  iintro ⟨⟨%fD, %hfD, HD⟩, ⟨%fT, %hfT, HT⟩, ⟨%ds, %fs, -, HS⟩, Hk⟩
  subst hfD; subst hfT
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  sl_unfold_run_names
  rw [View.readCov_unit_zero (S := S1024x128) _ hz]
  simp only [View.readAt_eq_ld, View.ld_unit_zero (S := S1x4096) hz, View.ld_unit_zero (S := S4096x128) hz]

set_option maxHeartbeats 1000000 in
/-- WHERE THE ACCUMULATOR IS KEPT and the output not stored: from the accumulator at `xs`, the body leaves it at the
    point's product added to `xs`. -/
theorem run_acc (c : Dev nD) (E : Set ℕ) (i : grid2.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : ¬condS i) (xd : Vec F S1x4096 .i32) (xt : Vec F S4096x128 .bf16) (xs : Vec F S1024x128 .f32)
    (K : PUnit → sProp 𝕄) :
    iprop(owns (c : Thread nD τ) aD fullShare xd ∗ owns (c : Thread nD τ) aT fullShare xt ∗ owns (c : Thread nD τ) aS fullShare xs
        ∗ (iprop(owns (c : Thread nD τ) aD fullShare xd ∗ owns (c : Thread nD τ) aT fullShare xt
            ∗ owns (c : Thread nD τ) aS fullShare (k2_pay2 i xd xt xs)) -∗ K ⟨⟩))
      ⊢ wp frame (wpE (defs₀ (F := F)) Variants.none c none) E (cc2__scatter_mlp_ln_kernel i aD hD aT hT aH hH aW hW aB hB' aG hG aL hL aO hO aS hS') K := by
  simp only [cc2__scatter_mlp_ln_kernel_eq_skeleton]; unfold cc2__scatter_mlp_ln_kernel_skel
  unfold owns
  iintro ⟨⟨%fD, %hfD, HD⟩, ⟨%fT, %hfT, HT⟩, ⟨%fs, %hfs, HS⟩, Hk⟩
  subst hfD; subst hfT; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  simp only [View.readAt_eq_ld, View.ld_unit_zero (S := S1x4096) hz, View.ld_unit_zero (S := S4096x128) hz,
    View.ld_unit_zero (S := S1024x128) hz]

set_option maxHeartbeats 2000000 in
/-- WHERE THE OUTPUT IS STORED (the accumulator kept): from the accumulator at `xs` and the other operands at their
    contents, the output's buffer at anything, the body leaves the accumulator at the point's product added to `xs`
    and the output's buffer at the block computed from that sum. -/
theorem run_store (c : Dev nD) (E : Set ℕ) (i : grid2.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : condS i) (xd : Vec F S1x4096 .i32) (xt : Vec F S4096x128 .bf16) (xh : Vec F S1024x128 .f32)
    (xw : Vec F S128x128 .f32) (xb : Vec F S1x128 .f32) (xg : Vec F S1x128 .f32) (xl : Vec F S1x128 .f32)
    (xs : Vec F S1024x128 .f32) (K : PUnit → sProp 𝕄) :
    iprop(owns (c : Thread nD τ) aD fullShare xd ∗ owns (c : Thread nD τ) aT fullShare xt ∗ owns (c : Thread nD τ) aH fullShare xh ∗ owns (c : Thread nD τ) aW fullShare xw
        ∗ owns (c : Thread nD τ) aB fullShare xb ∗ owns (c : Thread nD τ) aG fullShare xg ∗ owns (c : Thread nD τ) aL fullShare xl
        ∗ (∃ d, owns (c : Thread nD τ) aO fullShare d) ∗ owns (c : Thread nD τ) aS fullShare xs
        ∗ (iprop(owns (c : Thread nD τ) aD fullShare xd ∗ owns (c : Thread nD τ) aT fullShare xt ∗ owns (c : Thread nD τ) aH fullShare xh ∗ owns (c : Thread nD τ) aW fullShare xw
            ∗ owns (c : Thread nD τ) aB fullShare xb ∗ owns (c : Thread nD τ) aG fullShare xg ∗ owns (c : Thread nD τ) aL fullShare xl
            ∗ owns (c : Thread nD τ) aO fullShare (k2_pay3 xh (k2_pay2 i xd xt xs) xw xb xg xl)
            ∗ owns (c : Thread nD τ) aS fullShare (k2_pay2 i xd xt xs)) -∗ K ⟨⟩))
      ⊢ wp frame (wpE (defs₀ (F := F)) Variants.none c none) E (cc2__scatter_mlp_ln_kernel i aD hD aT hT aH hH aW hW aB hB' aG hG aL hL aO hO aS hS') K := by
  simp only [cc2__scatter_mlp_ln_kernel_eq_skeleton]; unfold cc2__scatter_mlp_ln_kernel_skel
  unfold owns
  iintro ⟨⟨%fD, %hfD, HD⟩, ⟨%fT, %hfT, HT⟩, ⟨%fH, %hfH, HH⟩, ⟨%fW, %hfW, HW⟩, ⟨%fB, %hfB, HB⟩, ⟨%fG, %hfG, HG⟩, ⟨%fL, %hfL, HL⟩,
    ⟨%dO, %fO, -, HO⟩, ⟨%fs, %hfs, HS⟩, Hk⟩
  subst hfD; subst hfT; subst hfH; subst hfW; subst hfB; subst hfG; subst hfL; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  isplitl [HH]
  · iexists fH; isplitr; · ipureintro; rfl
    iexact HH
  isplitl [HW]
  · iexists fW; isplitr; · ipureintro; rfl
    iexact HW
  isplitl [HB]
  · iexists fB; isplitr; · ipureintro; rfl
    iexact HB
  isplitl [HG]
  · iexists fG; isplitr; · ipureintro; rfl
    iexact HG
  isplitl [HL]
  · iexists fL; isplitr; · ipureintro; rfl
    iexact HL
  isplitl [HO]
  · iexists _; isplitr
    swap; · iexact HO
    ipureintro
    rw [read_last_whole _ _ hz]
    sl_unfold_run_names
    rw [View.readCov_unit_zero (S := S1024x128) _ hz]
    simp only [View.readAt_eq_ld, View.ld_unit_zero (S := S1x4096) hz, View.ld_unit_zero (S := S4096x128) hz,
      View.ld_unit_zero (S := S1024x128) hz, View.ld_unit_zero (S := S128x128) hz, View.ld_unit_zero (S := S1x128) hz]
  iexists _; isplitr
  swap; · iexact HS
  ipureintro
  sl_unfold_run_names
  rw [read_last_whole _ _ hz]
  simp only [View.readAt_eq_ld, View.ld_unit_zero (S := S1x4096) hz, View.ld_unit_zero (S := S4096x128) hz,
    View.ld_unit_zero (S := S1024x128) hz]

/-! ## The body obligation, at a generic point -/

/-- An input window is never idle: the body's post for it is its buffer at its block. -/
theorem leaves_D (c : Dev nD) (t : Fin cfg2.N) :
    (dat V c).leavesExact 0 t = owns (c : Thread nD τ) (st2_0 t) fullShare (iblk V c 0 t) := by
  unfold Dat.leavesExact; rw [show cfg2.idle 0 (grid2.coords t) = false from rfl, after_D]
theorem leaves_T (c : Dev nD) (t : Fin cfg2.N) :
    (dat V c).leavesExact 1 t = owns (c : Thread nD τ) (st2_1 t) fullShare (iblk V c 1 t) := by
  unfold Dat.leavesExact; rw [show cfg2.idle 1 (grid2.coords t) = false from rfl, after_T]
theorem leaves_H (c : Dev nD) (t : Fin cfg2.N) :
    (dat V c).leavesExact 2 t = owns (c : Thread nD τ) (st2_2 t) fullShare (iblk V c 2 t) := by
  unfold Dat.leavesExact; rw [show cfg2.idle 2 (grid2.coords t) = false from rfl, after_H]
theorem leaves_W (c : Dev nD) (t : Fin cfg2.N) :
    (dat V c).leavesExact 3 t = owns (c : Thread nD τ) (st2_3 t) fullShare (iblk V c 3 t) := by
  unfold Dat.leavesExact; rw [show cfg2.idle 3 (grid2.coords t) = false from rfl, after_W]
theorem leaves_B (c : Dev nD) (t : Fin cfg2.N) :
    (dat V c).leavesExact 4 t = owns (c : Thread nD τ) (st2_4 t) fullShare (iblk V c 4 t) := by
  unfold Dat.leavesExact; rw [show cfg2.idle 4 (grid2.coords t) = false from rfl, after_B]
theorem leaves_G (c : Dev nD) (t : Fin cfg2.N) :
    (dat V c).leavesExact 5 t = owns (c : Thread nD τ) (st2_5 t) fullShare (iblk V c 5 t) := by
  unfold Dat.leavesExact; rw [show cfg2.idle 5 (grid2.coords t) = false from rfl, after_G]
theorem leaves_L (c : Dev nD) (t : Fin cfg2.N) :
    (dat V c).leavesExact 6 t = owns (c : Thread nD τ) (st2_6 t) fullShare (iblk V c 6 t) := by
  unfold Dat.leavesExact; rw [show cfg2.idle 6 (grid2.coords t) = false from rfl, after_L]

/-- What the body is called with at point `t` (the library's obligation, the windows one by one), -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body at any point. The inputs' memrefs hold their blocks; the point's edge-block coordinate says which case
    it is in. Where the coordinate is 0 the invariant's scratch, at whatever it holds, is zeroed and summed into; elsewhere
    it holds what the point before left and is summed into; at the last coordinate the output block is computed from
    the sum and stored, at the others the output's buffer is handed back untouched (the window idle, not written
    back). The invariant takes the scratch back at this point's sum; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_D, before_T, before_H, before_W, before_B, before_G, before_L]
  rw [show (dat V c).owesAt () t.succ = (dat V c).owesAt () t.castSucc from rfl]
  rw [show (dat V c).Φ t.succ = Phi V c (t.val + 1) t.isLt from rfl, Phi_succ]
  rw [leaves_D, leaves_T, leaves_H, leaves_W, leaves_B, leaves_G, leaves_L, Phi_castSucc]
  by_cases hr : t.val % 147 = 0
  · have hs : ¬t.val % 147 = 146 := by omega
    rw [Dat.leavesExact_idle (dat V c) 7 t (idle_out t hs) (noflush_out t hs), scr_reset V c t hr]
    iintro ⟨HΦ, Ho, ⟨%dD, HD⟩, ⟨%dT, HT⟩, ⟨%dH, HH⟩, ⟨%dW, HW⟩, ⟨%dB, HB⟩, ⟨%dG, HG⟩, ⟨%dL, HL⟩, ⟨%dO, HO⟩⟩
    ihave HΦ' := (Phi_any V c _ _) $$ HΦ
    icases HΦ' with ⟨⟨HS, HR⟩, Hg⟩
    iapply (run_reset c Set.univ (grid2.coords t) _ _ _ _ _ _ _ _ _ _ _ _ _ _ _ _ _ _ ((hR t).mpr hr) (fun h => hs ((hS t).mp h))
      (dstB V c t) (tB V c t) _)
    isplitl [HD]; · iexact HD
    isplitl [HT]; · iexact HT
    isplitl [HS]; · iexact HS
    iintro ⟨HD, HT, HS⟩
    isplitl [HS HR Hg]
    · isplitl [HS HR]
      · isplitl [HS]; · iexact HS
        iexact HR
      iexact Hg
    isplitl [Ho]; · iexact Ho
    isplitl [HD]; · iexact HD
    isplitl [HT]; · iexact HT
    isplitl [HH]; · iexact HH
    isplitl [HW]; · iexact HW
    isplitl [HB]; · iexact HB
    isplitl [HG]; · iexact HG
    isplitl [HL]; · iexact HL
    iexists _; iexact HO
  · have hz' : t.val ≠ 0 := fun h => hr (by rw [h])
    rw [Phi_pos V c _ _ hz', scr_acc V c t hr]
    by_cases hs : t.val % 147 = 146
    · rw [show (dat V c).leavesExact 7 t = owns (c : Thread nD τ) (st2_7 t) fullShare ((dat V c).after 7 t) from by
        unfold Dat.leavesExact; rw [live_out t hs], after_out]
      unfold outv
      rw [scr_acc V c t hr]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_store c Set.univ (grid2.coords t) _ _ _ _ _ _ _ _ _ _ _ _ _ _ _ _ _ _ (fun h => hr ((hR t).mp h)) ((hS t).mpr hs)
        (dstB V c t) (tB V c t) (hB V c t) (wB V c t) (bB V c t) (gB V c t) (lB V c t) _ _)
      isplitl [HD]; · iexact HD
      isplitl [HT]; · iexact HT
      isplitl [HH]; · iexact HH
      isplitl [HW]; · iexact HW
      isplitl [HB]; · iexact HB
      isplitl [HG]; · iexact HG
      isplitl [HL]; · iexact HL
      isplitl [HO]; · iexists _; iexact HO
      isplitl [HS]; · iexact HS
      iintro ⟨HD, HT, HH, HW, HB, HG, HL, HO, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexact HO
    · rw [Dat.leavesExact_idle (dat V c) 7 t (idle_out t hs) (noflush_out t hs)]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_acc c Set.univ (grid2.coords t) _ _ _ _ _ _ _ _ _ _ _ _ _ _ _ _ _ _ (fun h => hr ((hR t).mp h)) (fun h => hs ((hS t).mp h))
        (dstB V c t) (tB V c t) _ _)
      isplitl [HD]; · iexact HD
      isplitl [HT]; · iexact HT
      isplitl [HS]; · iexact HS
      iintro ⟨HD, HT, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexists _; iexact HO

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region (the class's invariant) is the invariant before the first point. -/
theorem hin (c : Dev nD) : (Pipeline.ΦA spec2 c : sProp 𝕄) ⊢ (dat V c).Φ 0 := by
  rw [show (dat V c).Φ 0 = Pipeline.ΦA spec2 c from rfl]
  try exact Idealize.SL.BI.Entails.refl _

/-- After the last point the invariant gives the class's back: the scratch's named contents are forgotten. -/
theorem hout (c : Dev nD) : (dat V c).Φ (Fin.last cfg2.N) ⊢ (Pipeline.ΦA spec2 c : sProp 𝕄) := by
  rw [PhiA_eq]
  exact Phi_any V c (Fin.last cfg2.N).val (Nat.le_of_lt_succ (Fin.last cfg2.N).isLt)

end Cert.Kernel.Reg2

end
-- ==== Proof.K.Reg3.lean ====
/-
  Region 1 of the program: the gather of every edge's source row as a one-hot product, accumulated over the node
  blocks in a scratch buffer that the kernel keeps from one grid point to the next.

  The grid is 147 edge blocks by 98 node blocks, the node block the fast coordinate. At the first node block of an
  edge block the accumulator is zeroed; at every point it is updated by the one-hot product of the point's source
  ids against its block of node rows; at the last node block it is rounded and stored into the output block, which
  only that point writes back. This module gives the proof data of that pipeline at a parameter `V` (the
  TensorCore's buffer contents when the region is entered): what the accumulator holds after each point as a
  recursion over the points (`accAt`, with its two case equations), what the output block holds (`outAt`), the
  invariant carrying the accumulator's contents from point to point (`PhiS`), the body's triple in each of its three
  cases and the body obligation. Everything is generic in the float model `F`.
-/
import proofs.«423195_j8272107012813_1_alg».proof.Proof.Gen.Kernel.Launch
import proofs.«423195_j8272107012813_1_alg».proof.Proof.Gen.Kernel.Skeleton
import proofs.«423195_j8272107012813_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: the edge block is the slow coordinate, the node block the fast one -/

/-- The node-block coordinate of point `t` is `t mod 98`. -/
theorem nodeCoord (t : Fin cfg3.N) : (grid3.coords t 1).val = t.val % 98 := by
  show t.val / 1 % 98 = t.val % 98
  rw [Nat.div_one]

/-- The body's first conditional: the node-block coordinate is zero (the accumulator is reset). -/
abbrev condReset (i : grid3.Coords) : Prop :=
  (Scalar.cmpi .ne (Scalar.extui (Scalar.cmpi .eq (BitVec.ofNat 32 (i 1).val) 0#32)) 0#32) = 1#1

/-- The body's second conditional: the node-block coordinate is the last one (the output block is stored). -/
abbrev condStore (i : grid3.Coords) : Prop := k3_cond2 i = 1#1

theorem condReset_fin : ∀ k : Fin 98,
    (Scalar.cmpi .ne (Scalar.extui (Scalar.cmpi .eq (BitVec.ofNat 32 k.val) 0#32)) 0#32) = 1#1 ↔ k.val = 0 := by
  decide

theorem condStore_fin : ∀ k : Fin 98,
    (Scalar.cmpi .ne (Scalar.extui (Scalar.cmpi .eq (BitVec.ofNat 32 k.val) 97#32)) 0#32) = 1#1 ↔ k.val = 97 := by
  decide

theorem condReset_iff (i : grid3.Coords) : condReset i ↔ (i 1).val = 0 := condReset_fin (i 1)

theorem condStore_iff (i : grid3.Coords) : condStore i ↔ (i 1).val = 97 := condStore_fin (i 1)

/-- At a point, in closed form. -/
theorem condReset_at (t : Fin cfg3.N) : condReset (grid3.coords t) ↔ t.val % 98 = 0 := by
  rw [condReset_iff, nodeCoord]

theorem condStore_at (t : Fin cfg3.N) : condStore (grid3.coords t) ↔ t.val % 98 = 97 := by
  rw [condStore_iff, nodeCoord]

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of source ids the point's edge block reads (window 0), at its literal type. -/
abbrev srcBlk (c : Dev nD) (t : Fin cfg3.N) : Vec F S1x4096 .i32 := iblk V c 0 t

/-- The block of node features the point's node block reads (window 1), at its literal type. -/
abbrev featBlk (c : Dev nD) (t : Fin cfg3.N) : Vec F S1024x128 .f32 := iblk V c 1 t

/-- An input window's current staging buffer holds its block at every point, fetched there or not, for any proof
    data whose array is `V`'s and whose body leaves the block in place: unfetched, the block index has not moved. -/
theorem before_src_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_feat_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the accumulator and the output block hold, point by point -/

/-- One point's update of the accumulator: the one-hot product of the point's source ids against its node block,
    added to what the accumulator held (`k3_pay2`, the skeleton's payload). -/
abbrev accStep (i : grid3.Coords) (xs : Vec F S1x4096 .i32) (xh : Vec F S1024x128 .f32) (xa : Vec F S4096x128 .f32) :
    Vec F S4096x128 .f32 := k3_pay2 i xs xh xa

/-- The accumulator at the start of an edge block: all zero (`k3_pay1`). -/
abbrev accZero : Vec F S4096x128 .f32 := k3_pay1 (F := F)

/-- THE ACCUMULATION. What the scratch accumulator holds after the body at position `n`: at the first node block of
    an edge block (`n mod 98 = 0`) one update of the zero accumulator, at every other point one update of what the
    point before left. -/
def accAt (c : Dev nD) : (n : ℕ) → n < cfg3.N → Vec F S4096x128 .f32
  | 0, hn => accStep (grid3.coords ⟨0, hn⟩) (srcBlk V c ⟨0, hn⟩) (featBlk V c ⟨0, hn⟩) accZero
  | n + 1, hn =>
    if (n + 1) % 98 = 0 then accStep (grid3.coords ⟨n + 1, hn⟩) (srcBlk V c ⟨n + 1, hn⟩) (featBlk V c ⟨n + 1, hn⟩) accZero
    else accStep (grid3.coords ⟨n + 1, hn⟩) (srcBlk V c ⟨n + 1, hn⟩) (featBlk V c ⟨n + 1, hn⟩) (accAt c n (Nat.lt_of_succ_lt hn))

/-- At a point where the accumulator is reset. -/
theorem accAt_reset (c : Dev nD) (t : Fin cfg3.N) (h : t.val % 98 = 0) :
    accAt V c t.val t.isLt = accStep (grid3.coords t) (srcBlk V c t) (featBlk V c t) accZero := by
  obtain ⟨n, hn⟩ := t
  cases n with
  | zero => rfl
  | succ n => exact if_pos h

/-- At a point where it is not: over what the point before left. -/
theorem accAt_step (c : Dev nD) (t : Fin cfg3.N) (h : ¬t.val % 98 = 0) :
    accAt V c t.val t.isLt
      = accStep (grid3.coords t) (srcBlk V c t) (featBlk V c t) (accAt V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at point `t`: the accumulator there, rounded to the
    output's format (`k3_pay3`). Stored by the body — and written back — only at the last node block of an edge
    block; elsewhere the window is idle and nothing consults this. -/
def outAt (c : Dev nD) (t : Fin cfg3.N) : Vec F S4096x128 .bf16 := k3_pay3 (accAt V c t.val t.isLt)

/-! ## Where the output window is stored and where it is idle -/

/-- At the last node block of an edge block the body stores the output block: the window is live. -/
theorem live_out (t : Fin cfg3.N) (h : t.val % 98 = 97) : cfg3.idle 2 (grid3.coords t) = false := by
  have hc : k3_cond2 (grid3.coords t) = 1#1 := (condStore_at t).mpr h
  show (!(k3_cond2 (grid3.coords t) == 1#1)) = false
  rw [hc]; rfl

/-- Elsewhere it stores nothing into it: the window is idle, -/
theorem idle_out (t : Fin cfg3.N) (h : ¬t.val % 98 = 97) : cfg3.idle 2 (grid3.coords t) = true := by
  have hc : ¬k3_cond2 (grid3.coords t) = 1#1 := fun e => h ((condStore_at t).mp e)
  show (!(k3_cond2 (grid3.coords t) == 1#1)) = true
  rw [Bool.not_eq_true', beq_eq_false_iff_ne]; exact hc

/-- and the pipeline does not write its block back. -/
theorem noFlush_out (t : Fin cfg3.N) (h : ¬t.val % 98 = 97) : (cfg3.win 2).flush t = false :=
  Bool.eq_false_iff.mpr fun e => h ((flush3_2 t).mp e)

/-! ## The invariant: the accumulator's contents, point by point -/

/-- The scratch accumulator, a whole scoped buffer of the kernel's own. -/
abbrev scM : Memref sig .tc .vmem S4096x128 .f32 := Memref.whole cc3_scratch0

/-- Every other scoped buffer of the core that is no staging buffer of this call, at some contents each. -/
abbrev restBut (c : Dev nD) : sProp 𝕄 :=
  Pipeline.scopedRestBut (Ix := Unit) (Name := ℕ) (U := UR sig nD τ) (Lvl := ℕ) (Val := Elt F) spec3 c [cc3_scratch0]

/-- The class's invariant with the accumulator as a memref owned at some contents. -/
theorem PhiA_eq (c : Dev nD) :
    (Pipeline.ΦA spec3 c : sProp 𝕄)
      = iprop(iprop((∃ d, owns (c : Thread nD τ) scM fullShare d) ∗ restBut (F := F) c) ∗ (∃ r, prngReg c r)) := by
  unfold Pipeline.ΦA; rw [scopedRest3_split]; simp only [scM, owns_whole]; try rfl

/-- The region invariant before position `n`: before the first point the class's (the accumulator at anything);
    afterwards the accumulator at what the point before left in it (`accAt`), the other scoped buffers at anything
    and the generator register at some state. -/
def PhiS (c : Dev nD) : (n : ℕ) → n ≤ cfg3.N → sProp 𝕄
  | 0, _ => Pipeline.ΦA spec3 c
  | n + 1, hn => iprop(iprop(owns (c : Thread nD τ) scM fullShare (accAt V c n hn) ∗ restBut (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg3.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

/-! ## The proof data -/

/-- The proof data of this pipeline on core `c`: the arrays as the region finds them (`V`); after the body at point
    `t` each input's buffer at its block and the output's at `outAt`; the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

/-- What the body leaves, window by window. -/
theorem after_src (c : Dev nD) (t : Fin cfg3.N) : (dat V c).after 0 t = iblk V c 0 t := by dsimp only [dat]
theorem after_feat (c : Dev nD) (t : Fin cfg3.N) : (dat V c).after 1 t = iblk V c 1 t := by dsimp only [dat]
theorem after_out (c : Dev nD) (t : Fin cfg3.N) : (dat V c).after 2 t = outAt V c t := by dsimp only [dat]

/-- The output's staged block in terms of the accumulator. -/
theorem after_out_eq (c : Dev nD) (t : Fin cfg3.N) : (dat V c).after 2 t = k3_pay3 (accAt V c t.val t.isLt) := after_out V c t

/-- The invariant at a point's start, restated at `t.val`. -/
theorem Phi_castSucc (c : Dev nD) (t : Fin cfg3.N) :
    (dat V c).Φ t.castSucc = PhiS V c t.val (Nat.le_of_lt t.isLt) := by
  dsimp only [dat]; simp only [Fin.coe_castSucc]

/-- Each input's current staging buffer holds its block at every point. -/
theorem before_src (c : Dev nD) (t : Fin cfg3.N) (d) : (dat V c).before 0 t d = iblk V c 0 t :=
  before_src_of V (dat V c) (A_eq V c 0) (after_src V c) t d
theorem before_feat (c : Dev nD) (t : Fin cfg3.N) (d) : (dat V c).before 1 t d = iblk V c 1 t :=
  before_feat_of V (dat V c) (A_eq V c 1) (after_feat V c) t d

/-! ## The body's triples, case by case

On whole memrefs — the staging buffers the pipeline passes and the scratch accumulator —, the two inputs' at read
contents `xs` (source ids) and `xh` (node features): the body runs to the continuation holding the inputs' as they
were, the accumulator at one update (`accStep`) of zero or of what it held, and, at the last node block, the
output's at the accumulator rounded. The conditionals are decided by the case's hypotheses. -/

/-- The zero offsets of a whole-buffer rectangle, however spelt. -/
theorem zeroOff : (![0, 0] : Fin 2 → Nat) = fun _ => 0 := by
  funext a; fin_cases a <;> rfl

/-- A list of pieces whose newest is a store through the whole-buffer rectangle covers the buffer. -/
theorem coverHead {e : EltTy} (w : S4096x128.Idx → Elt F e) (L : List (View.Piece (Elt F) S4096x128 e)) (y : S4096x128.Idx) :
    ∃ p ∈ ((⟨Rect.unit (s := S4096x128) ![0, 0] S4096x128.size inb_S4096x128_S4096x128_0_0, w⟩ : View.Piece (Elt F) S4096x128 e) :: L), y ∈ p.1.set :=
  ⟨_, List.Mem.head _, View.mem_set_unit_zero (S := S4096x128) zeroOff inb_S4096x128_S4096x128_0_0 y⟩

set_option maxHeartbeats 1000000 in
/-- AT A RESET POINT (the first node block of an edge block): the accumulator, at anything, is zeroed and updated once.
    The output's memref is not touched. -/
theorem run_reset (c : Dev nD) (i : grid3.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : condReset i) (hs : ¬condStore i)
    (xs : Vec F S1x4096 .i32) (xh : Vec F S1024x128 .f32) (E : Set ℕ) (K : PUnit → sProp 𝕄) :
    iprop(owns (c : Thread nD τ) arg2 fullShare xs ∗ owns (c : Thread nD τ) arg3 fullShare xh ∗ (∃ d, owns (c : Thread nD τ) arg5 fullShare d)
        ∗ (iprop(owns (c : Thread nD τ) arg2 fullShare xs ∗ owns (c : Thread nD τ) arg3 fullShare xh
            ∗ owns (c : Thread nD τ) arg5 fullShare (accStep i xs xh accZero)) -∗ K ⟨⟩))
      ⊢ wp frame (wpE (defs₀ (F := F)) Variants.none c none) E (cc3__gather_kernel i arg2 harg2 arg3 harg3 arg4 harg4 arg5 harg5) K := by
  simp only [cc3__gather_kernel_eq_skeleton]; unfold cc3__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT A POINT THAT NEITHER RESETS NOR STORES: the accumulator, at `xa`, is updated once. The output's memref is not
    touched. -/
theorem run_step (c : Dev nD) (i : grid3.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : ¬condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ owns (c : Thread nD τ) arg5 fullShare xa
        ∗ (iprop(owns (c : Thread nD τ) arg2 fullShare xs ∗ owns (c : Thread nD τ) arg3 fullShare xh
            ∗ owns (c : Thread nD τ) arg5 fullShare (accStep i xs xh xa)) -∗ K ⟨⟩))
      ⊢ wp frame (wpE (defs₀ (F := F)) Variants.none c none) E (cc3__gather_kernel i arg2 harg2 arg3 harg3 arg4 harg4 arg5 harg5) K := by
  simp only [cc3__gather_kernel_eq_skeleton]; unfold cc3__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT THE LAST NODE BLOCK of an edge block: the accumulator, at `xa`, is updated once, and the output's memref, at
    anything, is left at the accumulator rounded to the output's format. -/
theorem run_last (c : Dev nD) (i : grid3.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ (∃ d, owns (c : Thread nD τ) arg4 fullShare d) ∗ owns (c : Thread nD τ) arg5 fullShare xa
        ∗ (iprop(owns (c : Thread nD τ) arg2 fullShare xs ∗ owns (c : Thread nD τ) arg3 fullShare xh
            ∗ owns (c : Thread nD τ) arg4 fullShare (k3_pay3 (accStep i xs xh xa)) ∗ owns (c : Thread nD τ) arg5 fullShare (accStep i xs xh xa)) -∗ K ⟨⟩))
      ⊢ wp frame (wpE (defs₀ (F := F)) Variants.none c none) E (cc3__gather_kernel i arg2 harg2 arg3 harg3 arg4 harg4 arg5 harg5) K := by
  simp only [cc3__gather_kernel_eq_skeleton]; unfold cc3__gather_kernel_skel
  unfold owns
  iintro ⟨⟨%f0, %hf0, H0⟩, ⟨%f1, %hf1, H1⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_run_names
    refine (View.read_writes_eq_canon _ _ _ (coverHead _ _)).trans ?_
    rw [View.canon_cons_unit_zero (S := S4096x128) zeroOff]
    simp only [View.readAt_eq_ld, harg2.read_unread, harg3.read_unread, harg5.read_unread, View.ld_unit_zero (S := S1x4096) zeroOff,
      View.ld_unit_zero (S := S1024x128) zeroOff, View.ld_unit_zero (S := S4096x128) zeroOff, View.readCov_unit_zero (S := S4096x128) _ zeroOff]
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

/-! ## The body obligation, at a generic point -/

/-- Each window's current staging memref at point `t`, spelt as the pipeline passes it, and its wholeness. -/
abbrev msSrc (t : Fin cfg3.N) : Memref sig .tc .vmem S1x4096 .i32 := win3_0.stage (cfg3.slots t 0)
abbrev hsSrc (t : Fin cfg3.N) : (msSrc t).IsWhole := hstage3_0 ((cfg3.slots t 0).cast nbuf3_0)
abbrev msFeat (t : Fin cfg3.N) : Memref sig .tc .vmem S1024x128 .f32 := win3_1.stage (cfg3.slots t 1)
abbrev hsFeat (t : Fin cfg3.N) : (msFeat t).IsWhole := hstage3_1 ((cfg3.slots t 1).cast nbuf3_1)
abbrev msOut (t : Fin cfg3.N) : Memref sig .tc .vmem S4096x128 .bf16 := win3_2.stage (cfg3.slots t 2)
abbrev hsOut (t : Fin cfg3.N) : (msOut t).IsWhole := hstage3_2 ((cfg3.slots t 2).cast nbuf3_2)

/-- What the body is called with at point `t` (the obligation's precondition, the windows one by one), -/
def bodyPre (c : Dev nD) (t : Fin cfg3.N) : sProp 𝕄 :=
  iprop((dat V c).Φ t.castSucc ∗ (dat V c).owesAt () t.castSucc
    ∗ (∃ d, owns (c : Thread nD τ) (msSrc t) fullShare ((dat V c).before 0 t d))
    ∗ (∃ d, owns (c : Thread nD τ) (msFeat t) fullShare ((dat V c).before 1 t d))
    ∗ (∃ d, owns (c : Thread nD τ) (msOut t) fullShare ((dat V c).before 2 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

/-- An input window is never idle: its buffer is left at its block. -/
theorem leaves_src (c : Dev nD) (t : Fin cfg3.N) :
    (dat V c).leavesExact 0 t = owns (c : Thread nD τ) (msSrc t) fullShare (iblk V c 0 t) := by
  rw [← after_src V c t]
theorem leaves_feat (c : Dev nD) (t : Fin cfg3.N) :
    (dat V c).leavesExact 1 t = owns (c : Thread nD τ) (msFeat t) fullShare (iblk V c 1 t) := by
  rw [← after_feat V c t]

/-- The output window where it is stored: its buffer is left at the accumulator rounded. -/
theorem leaves_out_live (c : Dev nD) (t : Fin cfg3.N) (h : t.val % 98 = 97) :
    (dat V c).leavesExact 2 t = owns (c : Thread nD τ) (msOut t) fullShare (outAt V c t) := by
  unfold Dat.leavesExact; rw [live_out t h, after_out]

/-- The output window where it is idle: its buffer is handed back as it was found. -/
theorem leaves_out_idle (c : Dev nD) (t : Fin cfg3.N) (h : ¬t.val % 98 = 97) :
    (dat V c).leavesExact 2 t = iprop(∃ d, owns (c : Thread nD τ) (msOut t) fullShare ((dat V c).before 2 t d)) :=
  Dat.leavesExact_idle (dat V c) 2 t (idle_out t h) (noFlush_out t h)

set_option maxHeartbeats 2000000 in
/-- The body at any point. The inputs' memrefs hold their blocks; the point's position in its edge block says which
    case it is in: at the first node block the accumulator (at what the point before left, or at anything at the very
    first point) is zeroed and updated, elsewhere it is updated from what the point before left; at the last node
    block the output's buffer is stored, elsewhere it is handed back untouched. The invariant takes the accumulator
    back at this point's contents; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_src, before_feat]
  rw [show (dat V c).owesAt () t.succ = (dat V c).owesAt () t.castSucc from rfl]
  rw [show (dat V c).Φ t.succ = PhiS V c (t.val + 1) t.isLt from rfl, PhiS_succ]
  rw [leaves_src, leaves_feat, Phi_castSucc]
  by_cases h0 : t.val % 98 = 0
  · -- the first node block of an edge block
    have h97 : ¬t.val % 98 = 97 := by omega
    rw [leaves_out_idle V c t h97, accAt_reset V c t h0]
    by_cases hz : t.val = 0
    · rw [PhiS_zero V c _ _ hz, PhiA_eq]
      iintro ⟨⟨⟨HS, HR⟩, Hg⟩, Ho, ⟨%d0, H0⟩, ⟨%d1, H1⟩, H2⟩
      iapply (run_reset c (grid3.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [PhiS_pos V c _ _ hz]
      iintro ⟨⟨⟨HS, HR⟩, Hg⟩, Ho, ⟨%d0, H0⟩, ⟨%d1, H1⟩, H2⟩
      iapply (run_reset c (grid3.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexists _; iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [PhiS_pos V c _ _ hz, accAt_step V c t h0]
    by_cases h97 : t.val % 98 = 97
    · -- the last node block of an edge block
      rw [leaves_out_live V c t h97]
      unfold outAt
      rw [accAt_step V c t h0]
      iintro ⟨⟨⟨HS, HR⟩, Hg⟩, Ho, ⟨%d0, H0⟩, ⟨%d1, H1⟩, ⟨%d2, H2⟩⟩
      iapply (run_last c (grid3.coords t) _ _ _ _ _ _ _ _ (fun e => h0 ((condReset_at t).mp e)) ((condStore_at t).mpr h97)
        (srcBlk V c t) (featBlk V c t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · -- a node block in between
      rw [leaves_out_idle V c t h97]
      iintro ⟨⟨⟨HS, HR⟩, Hg⟩, Ho, ⟨%d0, H0⟩, ⟨%d1, H1⟩, H2⟩
      iapply (run_step c (grid3.coords t) _ _ _ _ _ _ _ _ (fun e => h0 ((condReset_at t).mp e)) (fun e => h97 ((condStore_at t).mp e))
        (srcBlk V c t) (featBlk V c t) _ Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : (Pipeline.ΦA spec3 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class's back: the accumulator's named contents are forgotten. -/
theorem Phi_out (c : Dev nD) (t : Fin (cfg3.N + 1)) (ht : t.val ≠ 0) : (dat V c).Φ t ⊢ (Pipeline.ΦA spec3 c : sProp 𝕄) := by
  rw [show (dat V c).Φ t = PhiS V c t.val (Nat.le_of_lt_succ t.isLt) from rfl, PhiS_pos V c _ _ ht, PhiA_eq]
  iintro ⟨⟨HS, HR⟩, Hg⟩
  isplitr [Hg]
  · isplitl [HS]; · iexists _; iexact HS
    iexact HR
  iexact Hg

/-- The same after the last point. -/
theorem hout (c : Dev nD) : (dat V c).Φ (Fin.last cfg3.N) ⊢ (Pipeline.ΦA spec3 c : sProp 𝕄) :=
  Phi_out V c _ (by rw [Fin.val_last]; have : cfg3.N = 14406 := N_3; omega)

end Cert.Kernel.Reg3

end
-- ==== Proof.K.Reg4.lean ====
/-
  Kernel region 2 (scatter-add by one-hot weights over edge blocks, then the dense layer, ReLU and row
  normalization at the last edge block), on one core, at any float model and at any contents `V` of the
  TensorCore's buffers when the region is entered: the proof data of its pipeline and the body obligation.

  The grid is 98 node blocks by 147 edge blocks, the edge axis fastest. The kernel keeps a 1024 x 128 accumulator in a
  scratch block of its own: zeroed where the edge-block coordinate is 0, increased at every point by the product of the
  point's one-hot matrix (destination ids against the node block's row numbers) with the point's block of gathered
  rows; where the coordinate is 146, the last, the output block is computed from the node block's features plus the
  accumulator and stored. What the scratch holds after each point (`scr`) and what the output block is (`outv`) are
  functions of the input blocks through the kernel's payloads, by recursion on the point; the region's invariant
  carries the scratch at `scr` from point to point.
-/
import proofs.«423195_j8272107012813_1_alg».proof.Proof.Gen.Kernel.Launch
import proofs.«423195_j8272107012813_1_alg».proof.Proof.Gen.Kernel.Skeleton
import proofs.«423195_j8272107012813_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: a point's edge-block coordinate, and the body's two conditions in closed form

The grid is 98 node blocks by 147 edge blocks, the edge axis fastest: point `t` has edge-block coordinate
`t % 147`. The body zeroes its accumulator where that coordinate is 0 and stores its output where it is 146. -/

/-- The edge-block coordinate (axis 1) of point `t` is `t % 147`. -/
theorem coord_e (t : Fin cfg4.N) : ((grid4.coords t) 1).val = t.val % 147 := by
  show t.val / grid4.stride 1 % grid4.bound 1 = t.val % 147
  rw [show grid4.stride 1 = 1 from by decide, Nat.div_one]; rfl

/-- The condition under which the body zeroes the accumulator (the first conditional of the kernel function), as
    the kernel function computes it from the coordinates. -/
abbrev condR (i : grid4.Coords) : Prop :=
  Scalar.cmpi .ne (Scalar.extui (Scalar.cmpi .eq (BitVec.ofNat 32 (i 1).val) 0#32)) 0#32 = 1#1

/-- The condition under which the body computes and stores its output block (the second conditional). -/
abbrev condS (i : grid4.Coords) : Prop := k4_cond2 i = 1#1

/-- The accumulator is zeroed exactly where the edge-block coordinate is 0 (the 147 values of the coordinate
    checked one by one). -/
theorem condR_iff (i : grid4.Coords) : condR i ↔ (i 1).val = 0 :=
  (by decide +kernel : ∀ k : Fin 147,
    (Scalar.cmpi .ne (Scalar.extui (Scalar.cmpi .eq (BitVec.ofNat 32 k.val) 0#32)) 0#32 = 1#1) ↔ k.val = 0) (i 1)

/-- The output is stored exactly where the edge-block coordinate is 146, the last. -/
theorem condS_iff (i : grid4.Coords) : condS i ↔ (i 1).val = 146 :=
  (by decide +kernel : ∀ k : Fin 147,
    (Scalar.cmpi .ne (Scalar.extui (Scalar.cmpi .eq (BitVec.ofNat 32 k.val) 146#32)) 0#32 = 1#1) ↔ k.val = 146) (i 1)

/-- At point `t` the accumulator is zeroed iff `t % 147 = 0`. -/
theorem hR (t : Fin cfg4.N) : condR (grid4.coords t) ↔ t.val % 147 = 0 :=
  (condR_iff (grid4.coords t)).trans (by rw [coord_e])

/-- At point `t` the output is stored iff `t % 147 = 146`. -/
theorem hS (t : Fin cfg4.N) : condS (grid4.coords t) ↔ t.val % 147 = 146 :=
  (condS_iff (grid4.coords t)).trans (by rw [coord_e])

/-- Where the output is not stored its window is idle; -/
theorem idle_out (t : Fin cfg4.N) (h : ¬t.val % 147 = 146) : cfg4.idle 7 (grid4.coords t) = true := by
  have hc : ¬k4_cond2 (grid4.coords t) = 1#1 := fun h' => h ((hS t).mp h')
  show (!(k4_cond2 (grid4.coords t) == 1#1)) = true
  simp [hc]

/-- where it is stored the window is live; -/
theorem live_out (t : Fin cfg4.N) (h : t.val % 147 = 146) : cfg4.idle 7 (grid4.coords t) = false := by
  have hc : k4_cond2 (grid4.coords t) = 1#1 := (hS t).mpr h
  show (!(k4_cond2 (grid4.coords t) == 1#1)) = false
  simp [hc]

/-- and the pipeline writes the block back only there. -/
theorem noflush_out (t : Fin cfg4.N) (h : ¬t.val % 147 = 146) : (cfg4.win 7).flush t = false :=
  Bool.eq_false_iff.mpr fun hf => h ((flush4_7 t).mp hf)

/-! ## The windows' blocks -/

/-- Window `w`'s block at point `t`, read off its array as the region finds it (`V`). -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input blocks at their literal types: the destination ids of edge block `e`, the gathered rows of edge block
    `e`, the node features of node block `n`, the layer's weight, bias, and the normalization's scale and shift. -/
abbrev dstB (c : Dev nD) (t : Fin cfg4.N) : Vec F S1x4096 .i32 := iblk V c 0 t
abbrev tB (c : Dev nD) (t : Fin cfg4.N) : Vec F S4096x128 .bf16 := iblk V c 1 t
abbrev hB (c : Dev nD) (t : Fin cfg4.N) : Vec F S1024x128 .f32 := iblk V c 2 t
abbrev wB (c : Dev nD) (t : Fin cfg4.N) : Vec F S128x128 .f32 := iblk V c 3 t
abbrev bB (c : Dev nD) (t : Fin cfg4.N) : Vec F S1x128 .f32 := iblk V c 4 t
abbrev gB (c : Dev nD) (t : Fin cfg4.N) : Vec F S1x128 .f32 := iblk V c 5 t
abbrev lB (c : Dev nD) (t : Fin cfg4.N) : Vec F S1x128 .f32 := iblk V c 6 t

/-! ## What the body leaves: the accumulator point by point, and the output block -/

/-- THE ACCUMULATION. The accumulator (the kernel's own scratch block) after the body at point `n`: the point's
    one-hot scatter product of its edge block added (`k4_pay2`) to the zero block (`k4_pay1`) where the
    edge-block coordinate is 0, to what the point before left elsewhere. -/
def scr (c : Dev nD) : (n : ℕ) → n < cfg4.N → Vec F S1024x128 .f32
  | 0, hn => k4_pay2 (grid4.coords ⟨0, hn⟩) (dstB V c ⟨0, hn⟩) (tB V c ⟨0, hn⟩) k4_pay1
  | n + 1, hn =>
    if (n + 1) % 147 = 0 then k4_pay2 (grid4.coords ⟨n + 1, hn⟩) (dstB V c ⟨n + 1, hn⟩) (tB V c ⟨n + 1, hn⟩) k4_pay1
    else k4_pay2 (grid4.coords ⟨n + 1, hn⟩) (dstB V c ⟨n + 1, hn⟩) (tB V c ⟨n + 1, hn⟩) (scr c n (Nat.lt_of_succ_lt hn))

/-- At a point whose edge-block coordinate is 0 the sum starts afresh from the zero block; -/
theorem scr_reset (c : Dev nD) (t : Fin cfg4.N) (h : t.val % 147 = 0) :
    scr V c t.val t.isLt = k4_pay2 (grid4.coords t) (dstB V c t) (tB V c t) k4_pay1 := by
  obtain ⟨n, hn⟩ := t
  cases n with
  | zero => rfl
  | succ n => exact if_pos h

/-- elsewhere it goes on from what the point before left. -/
theorem scr_acc (c : Dev nD) (t : Fin cfg4.N) (h : ¬t.val % 147 = 0) :
    scr V c t.val t.isLt = k4_pay2 (grid4.coords t) (dstB V c t) (tB V c t)
      (scr V c (t.val - 1) (Nat.lt_of_le_of_lt (Nat.sub_le _ _) t.isLt)) := by
  obtain ⟨n, hn⟩ := t
  cases n with
  | zero => exact absurd (Nat.zero_mod _) h
  | succ n => exact if_neg h

/-- The output block the body computes from the point's accumulator (the dense layer on features plus aggregate,
    rectified and normalized: `k4_pay3`). The body stores it only where the edge-block coordinate is 146; it is the
    value of the proof data's `after` for the output window at every point, consulted only there. -/
def outv (c : Dev nD) (t : Fin cfg4.N) : Vec F S1024x128 .f32 :=
  k4_pay3 (hB V c t) (scr V c t.val t.isLt) (wB V c t) (bB V c t) (gB V c t) (lB V c t)

/-! ## The invariant: the accumulator between points -/

/-- The kernel's scratch block, whole. -/
abbrev scM : Memref sig .tc .vmem S1024x128 .f32 := Memref.whole cc4_scratch0

/-- The core's scoped buffers other than the staging buffers and the scratch block, each at some contents. -/
abbrev restBut (c : Dev nD) : sProp 𝕄 :=
  Pipeline.scopedRestBut (Ix := Unit) (Name := ℕ) (U := UR sig nD τ) (Lvl := ℕ) (Val := Elt F) spec4 c [cc4_scratch0]

/-- The class's invariant with the scratch block as a memref owned at some contents. -/
theorem PhiA_eq (c : Dev nD) :
    (Pipeline.ΦA spec4 c : sProp 𝕄)
      = iprop(iprop((∃ d, owns (c : Thread nD τ) scM fullShare d) ∗ restBut c) ∗ (∃ r, prngReg c r)) := by
  unfold Pipeline.ΦA; rw [scopedRest4_split]; simp only [scM, owns_whole]; try rfl

/-- The region's invariant before position `n`: before the first point the class's (the scratch at anything);
    afterwards the scratch at what the point before left in it (`scr`), the other scoped buffers at anything, the
    generator register at some state. -/
def Phi (c : Dev nD) : (n : ℕ) → n ≤ cfg4.N → sProp 𝕄
  | 0, _ => Pipeline.ΦA spec4 c
  | n + 1, hn => iprop(iprop(owns (c : Thread nD τ) scM fullShare (scr V c n hn) ∗ restBut c) ∗ (∃ r, prngReg c r))

theorem Phi_succ (c : Dev nD) (n : ℕ) (hn : n < cfg4.N) :
    Phi V c (n + 1) hn = iprop(iprop(owns (c : Thread nD τ) scM fullShare (scr V c n hn) ∗ restBut c) ∗ (∃ r, prngReg c r)) := rfl

theorem Phi_pos (c : Dev nD) (n : ℕ) (h : n ≤ cfg4.N) (hz : n ≠ 0) :
    Phi V c n h = iprop(iprop(owns (c : Thread nD τ) scM fullShare (scr V c (n - 1) (by omega)) ∗ restBut c) ∗ (∃ r, prngReg c r)) := by
  cases n with
  | zero => exact absurd rfl hz
  | succ n => rfl

/-- At any position the invariant yields the scratch at SOME contents: what a point that zeroes it needs, and what
    the class's invariant says. -/
theorem Phi_any (c : Dev nD) (n : ℕ) (h : n ≤ cfg4.N) :
    Phi V c n h ⊢ iprop(iprop((∃ d, owns (c : Thread nD τ) scM fullShare d) ∗ restBut c) ∗ (∃ r, prngReg c r)) := by
  cases n with
  | zero => rw [show Phi V c 0 h = Pipeline.ΦA spec4 c from rfl, PhiA_eq]; try exact Idealize.SL.BI.Entails.refl _
  | succ n =>
    rw [Phi_succ]
    iintro ⟨⟨HS, HR⟩, Hg⟩
    isplitl [HS HR]
    · isplitl [HS]
      · iexists _; iexact HS
      iexact HR
    iexact Hg

/-! ## The pipeline's proof data -/

/-- The proof data of the region on core `c`: the arrays as the region finds them (`V`); after the body at point
    `t` each input's buffer at its block and the output's at `outv`; the invariant `Phi`; nothing owed; full
    shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outv V c t
  Φ t := Phi V c t.val (Nat.le_of_lt_succ t.isLt)
  q _ := fullShare
  owed _ := 0

/-- The proof data's arrays are the region-entry contents. -/
theorem A_eq (c : Dev nD) (w : Fin cfg4.W) : (dat V c).A w = V c (Pipeline.arrRef spec4 w) := by
  dsimp only [dat]

/-- The invariant at a point's start, restated at `t.val`. -/
theorem Phi_castSucc (c : Dev nD) (t : Fin cfg4.N) :
    (dat V c).Φ t.castSucc = Phi V c t.val (Nat.le_of_lt t.isLt) := by
  dsimp only [dat]; simp only [Fin.coe_castSucc]

/-- What the body leaves, window by window. -/
theorem after_D (c : Dev nD) (t : Fin cfg4.N) : (dat V c).after 0 t = iblk V c 0 t := by dsimp only [dat]
theorem after_T (c : Dev nD) (t : Fin cfg4.N) : (dat V c).after 1 t = iblk V c 1 t := by dsimp only [dat]
theorem after_H (c : Dev nD) (t : Fin cfg4.N) : (dat V c).after 2 t = iblk V c 2 t := by dsimp only [dat]
theorem after_W (c : Dev nD) (t : Fin cfg4.N) : (dat V c).after 3 t = iblk V c 3 t := by dsimp only [dat]
theorem after_B (c : Dev nD) (t : Fin cfg4.N) : (dat V c).after 4 t = iblk V c 4 t := by dsimp only [dat]
theorem after_G (c : Dev nD) (t : Fin cfg4.N) : (dat V c).after 5 t = iblk V c 5 t := by dsimp only [dat]
theorem after_L (c : Dev nD) (t : Fin cfg4.N) : (dat V c).after 6 t = iblk V c 6 t := by dsimp only [dat]
theorem after_out (c : Dev nD) (t : Fin cfg4.N) : (dat V c).after 7 t = outv V c t := by dsimp only [dat]

/-- Each input's current staging buffer holds its block at every point, fetched there or not: the body leaves the
    block in place, and where the pipeline does not fetch, the block index has not moved. -/
theorem before_D (c : Dev nD) (t : Fin cfg4.N) (d) : (dat V c).before 0 t d = iblk V c 0 t :=
  ((dat V c).before_in_eq_fetched 0 rfl (fun _ => rfl) (fun _ _ _ => rfl)
    (fun t => by rw [after_D]; unfold Dat.blockOf iblk; rw [A_eq]; try rfl) t d).trans
    (by unfold Dat.fetched Dat.blockOf iblk; rw [A_eq]; try rfl)
theorem before_T (c : Dev nD) (t : Fin cfg4.N) (d) : (dat V c).before 1 t d = iblk V c 1 t :=
  ((dat V c).before_in_eq_fetched 1 rfl (fun _ => rfl) (fun _ _ _ => rfl)
    (fun t => by rw [after_T]; unfold Dat.blockOf iblk; rw [A_eq]; try rfl) t d).trans
    (by unfold Dat.fetched Dat.blockOf iblk; rw [A_eq]; try rfl)
theorem before_H (c : Dev nD) (t : Fin cfg4.N) (d) : (dat V c).before 2 t d = iblk V c 2 t :=
  ((dat V c).before_in_eq_fetched 2 rfl (fun _ => rfl) (fun _ _ _ => rfl)
    (fun t => by rw [after_H]; unfold Dat.blockOf iblk; rw [A_eq]; try rfl) t d).trans
    (by unfold Dat.fetched Dat.blockOf iblk; rw [A_eq]; try rfl)
theorem before_W (c : Dev nD) (t : Fin cfg4.N) (d) : (dat V c).before 3 t d = iblk V c 3 t :=
  ((dat V c).before_in_eq_fetched 3 rfl (fun _ => rfl) (fun _ _ _ => rfl)
    (fun t => by rw [after_W]; unfold Dat.blockOf iblk; rw [A_eq]; try rfl) t d).trans
    (by unfold Dat.fetched Dat.blockOf iblk; rw [A_eq]; try rfl)
theorem before_B (c : Dev nD) (t : Fin cfg4.N) (d) : (dat V c).before 4 t d = iblk V c 4 t :=
  ((dat V c).before_in_eq_fetched 4 rfl (fun _ => rfl) (fun _ _ _ => rfl)
    (fun t => by rw [after_B]; unfold Dat.blockOf iblk; rw [A_eq]; try rfl) t d).trans
    (by unfold Dat.fetched Dat.blockOf iblk; rw [A_eq]; try rfl)
theorem before_G (c : Dev nD) (t : Fin cfg4.N) (d) : (dat V c).before 5 t d = iblk V c 5 t :=
  ((dat V c).before_in_eq_fetched 5 rfl (fun _ => rfl) (fun _ _ _ => rfl)
    (fun t => by rw [after_G]; unfold Dat.blockOf iblk; rw [A_eq]; try rfl) t d).trans
    (by unfold Dat.fetched Dat.blockOf iblk; rw [A_eq]; try rfl)
theorem before_L (c : Dev nD) (t : Fin cfg4.N) (d) : (dat V c).before 6 t d = iblk V c 6 t :=
  ((dat V c).before_in_eq_fetched 6 rfl (fun _ => rfl) (fun _ _ _ => rfl)
    (fun t => by rw [after_L]; unfold Dat.blockOf iblk; rw [A_eq]; try rfl) t d).trans
    (by unfold Dat.fetched Dat.blockOf iblk; rw [A_eq]; try rfl)

/-! ## The body's triple, case by case

The kernel function on whole memrefs. It reads the destination ids and the gathered rows, and reads and rewrites the
accumulator; only where it stores the output does it touch the other operands. The whole-block rectangle's offsets
are zero, so that a load through it reads the contents and a store through it, last, leaves its payload. -/

theorem hz : (![0, 0] : Fin 2 → ℕ) = fun _ => 0 := funext fun a => by fin_cases a <;> rfl

/-- After writes whose LAST is a store through the whole-block rectangle, the buffer reads as that store's payload,
    whatever the earlier writes and the prior contents. -/
theorem read_last_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

set_option maxHeartbeats 1000000 in
/-- WHERE THE ACCUMULATOR IS ZEROED and the output not stored: from the ids and rows at `xd`, `xt` and the
    accumulator at anything, the body leaves the accumulator at the point's product added to the zero block (the
    zero block stored first and read back), the ids and rows as they were. -/
theorem run_reset (c : Dev nD) (E : Set ℕ) (i : grid4.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : condR i) (hs : ¬condS i) (xd : Vec F S1x4096 .i32) (xt : Vec F S4096x128 .bf16) (K : PUnit → sProp 𝕄) :
    iprop(owns (c : Thread nD τ) aD fullShare xd ∗ owns (c : Thread nD τ) aT fullShare xt ∗ (∃ d, owns (c : Thread nD τ) aS fullShare d)
        ∗ (iprop(owns (c : Thread nD τ) aD fullShare xd ∗ owns (c : Thread nD τ) aT fullShare xt
            ∗ owns (c : Thread nD τ) aS fullShare (k4_pay2 i xd xt k4_pay1)) -∗ K ⟨⟩))
      ⊢ wp frame (wpE (defs₀ (F := F)) Variants.none c none) E (cc4__scatter_mlp_ln_kernel i aD hD aT hT aH hH aW hW aB hB' aG hG aL hL aO hO aS hS') K := by
  simp only [cc4__scatter_mlp_ln_kernel_eq_skeleton]; unfold cc4__scatter_mlp_ln_kernel_skel
  unfold owns
  iintro ⟨⟨%fD, %hfD, HD⟩, ⟨%fT, %hfT, HT⟩, ⟨%ds, %fs, -, HS⟩, Hk⟩
  subst hfD; subst hfT
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  sl_unfold_run_names
  rw [View.readCov_unit_zero (S := S1024x128) _ hz]
  simp only [View.readAt_eq_ld, View.ld_unit_zero (S := S1x4096) hz, View.ld_unit_zero (S := S4096x128) hz]

set_option maxHeartbeats 1000000 in
/-- WHERE THE ACCUMULATOR IS KEPT and the output not stored: from the accumulator at `xs`, the body leaves it at the
    point's product added to `xs`. -/
theorem run_acc (c : Dev nD) (E : Set ℕ) (i : grid4.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : ¬condS i) (xd : Vec F S1x4096 .i32) (xt : Vec F S4096x128 .bf16) (xs : Vec F S1024x128 .f32)
    (K : PUnit → sProp 𝕄) :
    iprop(owns (c : Thread nD τ) aD fullShare xd ∗ owns (c : Thread nD τ) aT fullShare xt ∗ owns (c : Thread nD τ) aS fullShare xs
        ∗ (iprop(owns (c : Thread nD τ) aD fullShare xd ∗ owns (c : Thread nD τ) aT fullShare xt
            ∗ owns (c : Thread nD τ) aS fullShare (k4_pay2 i xd xt xs)) -∗ K ⟨⟩))
      ⊢ wp frame (wpE (defs₀ (F := F)) Variants.none c none) E (cc4__scatter_mlp_ln_kernel i aD hD aT hT aH hH aW hW aB hB' aG hG aL hL aO hO aS hS') K := by
  simp only [cc4__scatter_mlp_ln_kernel_eq_skeleton]; unfold cc4__scatter_mlp_ln_kernel_skel
  unfold owns
  iintro ⟨⟨%fD, %hfD, HD⟩, ⟨%fT, %hfT, HT⟩, ⟨%fs, %hfs, HS⟩, Hk⟩
  subst hfD; subst hfT; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  simp only [View.readAt_eq_ld, View.ld_unit_zero (S := S1x4096) hz, View.ld_unit_zero (S := S4096x128) hz,
    View.ld_unit_zero (S := S1024x128) hz]

set_option maxHeartbeats 2000000 in
/-- WHERE THE OUTPUT IS STORED (the accumulator kept): from the accumulator at `xs` and the other operands at their
    contents, the output's buffer at anything, the body leaves the accumulator at the point's product added to `xs`
    and the output's buffer at the block computed from that sum. -/
theorem run_store (c : Dev nD) (E : Set ℕ) (i : grid4.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : condS i) (xd : Vec F S1x4096 .i32) (xt : Vec F S4096x128 .bf16) (xh : Vec F S1024x128 .f32)
    (xw : Vec F S128x128 .f32) (xb : Vec F S1x128 .f32) (xg : Vec F S1x128 .f32) (xl : Vec F S1x128 .f32)
    (xs : Vec F S1024x128 .f32) (K : PUnit → sProp 𝕄) :
    iprop(owns (c : Thread nD τ) aD fullShare xd ∗ owns (c : Thread nD τ) aT fullShare xt ∗ owns (c : Thread nD τ) aH fullShare xh ∗ owns (c : Thread nD τ) aW fullShare xw
        ∗ owns (c : Thread nD τ) aB fullShare xb ∗ owns (c : Thread nD τ) aG fullShare xg ∗ owns (c : Thread nD τ) aL fullShare xl
        ∗ (∃ d, owns (c : Thread nD τ) aO fullShare d) ∗ owns (c : Thread nD τ) aS fullShare xs
        ∗ (iprop(owns (c : Thread nD τ) aD fullShare xd ∗ owns (c : Thread nD τ) aT fullShare xt ∗ owns (c : Thread nD τ) aH fullShare xh ∗ owns (c : Thread nD τ) aW fullShare xw
            ∗ owns (c : Thread nD τ) aB fullShare xb ∗ owns (c : Thread nD τ) aG fullShare xg ∗ owns (c : Thread nD τ) aL fullShare xl
            ∗ owns (c : Thread nD τ) aO fullShare (k4_pay3 xh (k4_pay2 i xd xt xs) xw xb xg xl)
            ∗ owns (c : Thread nD τ) aS fullShare (k4_pay2 i xd xt xs)) -∗ K ⟨⟩))
      ⊢ wp frame (wpE (defs₀ (F := F)) Variants.none c none) E (cc4__scatter_mlp_ln_kernel i aD hD aT hT aH hH aW hW aB hB' aG hG aL hL aO hO aS hS') K := by
  simp only [cc4__scatter_mlp_ln_kernel_eq_skeleton]; unfold cc4__scatter_mlp_ln_kernel_skel
  unfold owns
  iintro ⟨⟨%fD, %hfD, HD⟩, ⟨%fT, %hfT, HT⟩, ⟨%fH, %hfH, HH⟩, ⟨%fW, %hfW, HW⟩, ⟨%fB, %hfB, HB⟩, ⟨%fG, %hfG, HG⟩, ⟨%fL, %hfL, HL⟩,
    ⟨%dO, %fO, -, HO⟩, ⟨%fs, %hfs, HS⟩, Hk⟩
  subst hfD; subst hfT; subst hfH; subst hfW; subst hfB; subst hfG; subst hfL; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  isplitl [HH]
  · iexists fH; isplitr; · ipureintro; rfl
    iexact HH
  isplitl [HW]
  · iexists fW; isplitr; · ipureintro; rfl
    iexact HW
  isplitl [HB]
  · iexists fB; isplitr; · ipureintro; rfl
    iexact HB
  isplitl [HG]
  · iexists fG; isplitr; · ipureintro; rfl
    iexact HG
  isplitl [HL]
  · iexists fL; isplitr; · ipureintro; rfl
    iexact HL
  isplitl [HO]
  · iexists _; isplitr
    swap; · iexact HO
    ipureintro
    rw [read_last_whole _ _ hz]
    sl_unfold_run_names
    rw [View.readCov_unit_zero (S := S1024x128) _ hz]
    simp only [View.readAt_eq_ld, View.ld_unit_zero (S := S1x4096) hz, View.ld_unit_zero (S := S4096x128) hz,
      View.ld_unit_zero (S := S1024x128) hz, View.ld_unit_zero (S := S128x128) hz, View.ld_unit_zero (S := S1x128) hz]
  iexists _; isplitr
  swap; · iexact HS
  ipureintro
  sl_unfold_run_names
  rw [read_last_whole _ _ hz]
  simp only [View.readAt_eq_ld, View.ld_unit_zero (S := S1x4096) hz, View.ld_unit_zero (S := S4096x128) hz,
    View.ld_unit_zero (S := S1024x128) hz]

/-! ## The body obligation, at a generic point -/

/-- An input window is never idle: the body's post for it is its buffer at its block. -/
theorem leaves_D (c : Dev nD) (t : Fin cfg4.N) :
    (dat V c).leavesExact 0 t = owns (c : Thread nD τ) (st4_0 t) fullShare (iblk V c 0 t) := by
  unfold Dat.leavesExact; rw [show cfg4.idle 0 (grid4.coords t) = false from rfl, after_D]
theorem leaves_T (c : Dev nD) (t : Fin cfg4.N) :
    (dat V c).leavesExact 1 t = owns (c : Thread nD τ) (st4_1 t) fullShare (iblk V c 1 t) := by
  unfold Dat.leavesExact; rw [show cfg4.idle 1 (grid4.coords t) = false from rfl, after_T]
theorem leaves_H (c : Dev nD) (t : Fin cfg4.N) :
    (dat V c).leavesExact 2 t = owns (c : Thread nD τ) (st4_2 t) fullShare (iblk V c 2 t) := by
  unfold Dat.leavesExact; rw [show cfg4.idle 2 (grid4.coords t) = false from rfl, after_H]
theorem leaves_W (c : Dev nD) (t : Fin cfg4.N) :
    (dat V c).leavesExact 3 t = owns (c : Thread nD τ) (st4_3 t) fullShare (iblk V c 3 t) := by
  unfold Dat.leavesExact; rw [show cfg4.idle 3 (grid4.coords t) = false from rfl, after_W]
theorem leaves_B (c : Dev nD) (t : Fin cfg4.N) :
    (dat V c).leavesExact 4 t = owns (c : Thread nD τ) (st4_4 t) fullShare (iblk V c 4 t) := by
  unfold Dat.leavesExact; rw [show cfg4.idle 4 (grid4.coords t) = false from rfl, after_B]
theorem leaves_G (c : Dev nD) (t : Fin cfg4.N) :
    (dat V c).leavesExact 5 t = owns (c : Thread nD τ) (st4_5 t) fullShare (iblk V c 5 t) := by
  unfold Dat.leavesExact; rw [show cfg4.idle 5 (grid4.coords t) = false from rfl, after_G]
theorem leaves_L (c : Dev nD) (t : Fin cfg4.N) :
    (dat V c).leavesExact 6 t = owns (c : Thread nD τ) (st4_6 t) fullShare (iblk V c 6 t) := by
  unfold Dat.leavesExact; rw [show cfg4.idle 6 (grid4.coords t) = false from rfl, after_L]

/-- What the body is called with at point `t` (the library's obligation, the windows one by one), -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d))
    ∗ (∃ d, owns (c : Thread nD τ) (st4_7 t) fullShare ((dat V c).before 7 t d)))

/-- and what it returns. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body at any point. The inputs' memrefs hold their blocks; the point's edge-block coordinate says which case
    it is in. Where the coordinate is 0 the invariant's scratch, at whatever it holds, is zeroed and summed into; elsewhere
    it holds what the point before left and is summed into; at the last coordinate the output block is computed from
    the sum and stored, at the others the output's buffer is handed back untouched (the window idle, not written
    back). The invariant takes the scratch back at this point's sum; the core owes nothing throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_D, before_T, before_H, before_W, before_B, before_G, before_L]
  rw [show (dat V c).owesAt () t.succ = (dat V c).owesAt () t.castSucc from rfl]
  rw [show (dat V c).Φ t.succ = Phi V c (t.val + 1) t.isLt from rfl, Phi_succ]
  rw [leaves_D, leaves_T, leaves_H, leaves_W, leaves_B, leaves_G, leaves_L, Phi_castSucc]
  by_cases hr : t.val % 147 = 0
  · have hs : ¬t.val % 147 = 146 := by omega
    rw [Dat.leavesExact_idle (dat V c) 7 t (idle_out t hs) (noflush_out t hs), scr_reset V c t hr]
    iintro ⟨HΦ, Ho, ⟨%dD, HD⟩, ⟨%dT, HT⟩, ⟨%dH, HH⟩, ⟨%dW, HW⟩, ⟨%dB, HB⟩, ⟨%dG, HG⟩, ⟨%dL, HL⟩, ⟨%dO, HO⟩⟩
    ihave HΦ' := (Phi_any V c _ _) $$ HΦ
    icases HΦ' with ⟨⟨HS, HR⟩, Hg⟩
    iapply (run_reset c Set.univ (grid4.coords t) _ _ _ _ _ _ _ _ _ _ _ _ _ _ _ _ _ _ ((hR t).mpr hr) (fun h => hs ((hS t).mp h))
      (dstB V c t) (tB V c t) _)
    isplitl [HD]; · iexact HD
    isplitl [HT]; · iexact HT
    isplitl [HS]; · iexact HS
    iintro ⟨HD, HT, HS⟩
    isplitl [HS HR Hg]
    · isplitl [HS HR]
      · isplitl [HS]; · iexact HS
        iexact HR
      iexact Hg
    isplitl [Ho]; · iexact Ho
    isplitl [HD]; · iexact HD
    isplitl [HT]; · iexact HT
    isplitl [HH]; · iexact HH
    isplitl [HW]; · iexact HW
    isplitl [HB]; · iexact HB
    isplitl [HG]; · iexact HG
    isplitl [HL]; · iexact HL
    iexists _; iexact HO
  · have hz' : t.val ≠ 0 := fun h => hr (by rw [h])
    rw [Phi_pos V c _ _ hz', scr_acc V c t hr]
    by_cases hs : t.val % 147 = 146
    · rw [show (dat V c).leavesExact 7 t = owns (c : Thread nD τ) (st4_7 t) fullShare ((dat V c).after 7 t) from by
        unfold Dat.leavesExact; rw [live_out t hs], after_out]
      unfold outv
      rw [scr_acc V c t hr]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_store c Set.univ (grid4.coords t) _ _ _ _ _ _ _ _ _ _ _ _ _ _ _ _ _ _ (fun h => hr ((hR t).mp h)) ((hS t).mpr hs)
        (dstB V c t) (tB V c t) (hB V c t) (wB V c t) (bB V c t) (gB V c t) (lB V c t) _ _)
      isplitl [HD]; · iexact HD
      isplitl [HT]; · iexact HT
      isplitl [HH]; · iexact HH
      isplitl [HW]; · iexact HW
      isplitl [HB]; · iexact HB
      isplitl [HG]; · iexact HG
      isplitl [HL]; · iexact HL
      isplitl [HO]; · iexists _; iexact HO
      isplitl [HS]; · iexact HS
      iintro ⟨HD, HT, HH, HW, HB, HG, HL, HO, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexact HO
    · rw [Dat.leavesExact_idle (dat V c) 7 t (idle_out t hs) (noflush_out t hs)]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_acc c Set.univ (grid4.coords t) _ _ _ _ _ _ _ _ _ _ _ _ _ _ _ _ _ _ (fun h => hr ((hR t).mp h)) (fun h => hs ((hS t).mp h))
        (dstB V c t) (tB V c t) _ _)
      isplitl [HD]; · iexact HD
      isplitl [HT]; · iexact HT
      isplitl [HS]; · iexact HS
      iintro ⟨HD, HT, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexists _; iexact HO

/-- The library's body obligation, at every point. -/
theorem body_obligation (c : Dev nD) : BodyObligation (dat (F := F) V c) (defs₀ (F := F)) Variants.none () Set.univ := fun t => by
  rw [bigSep_W4, bigSep_W4]
  exact sound_body V c t

/-- What the launch hands the region (the class's invariant) is the invariant before the first point. -/
theorem hin (c : Dev nD) : (Pipeline.ΦA spec4 c : sProp 𝕄) ⊢ (dat V c).Φ 0 := by
  rw [show (dat V c).Φ 0 = Pipeline.ΦA spec4 c from rfl]
  try exact Idealize.SL.BI.Entails.refl _

/-- After the last point the invariant gives the class's back: the scratch's named contents are forgotten. -/
theorem hout (c : Dev nD) : (dat V c).Φ (Fin.last cfg4.N) ⊢ (Pipeline.ΦA spec4 c : sProp 𝕄) := by
  rw [PhiA_eq]
  exact Phi_any V c (Fin.last cfg4.N).val (Nat.le_of_lt_succ (Fin.last cfg4.N).isLt)

end Cert.Kernel.Reg4

end
-- ==== Proof.K.Reg5.lean ====
/-
  Region 1 of the program: the gather of every edge's source row as a one-hot product, accumulated over the node
  blocks in a scratch buffer that the kernel keeps from one grid point to the next.

  The grid is 147 edge blocks by 98 node blocks, the node block the fast coordinate. At the first node block of an
  edge block the accumulator is zeroed; at every point it is updated by the one-hot product of the point's source
  ids against its block of node rows; at the last node block it is rounded and stored into the output block, which
  only that point writes back. This module gives the proof data of that pipeline at a parameter `V` (the
  TensorCore's buffer contents when the region is entered): what the accumulator holds after each point as a
  recursion over the points (`accAt`, with its two case equations), what the output block holds (`outAt`), the
  invariant carrying the accumulator's contents from point to point (`PhiS`), the body's triple in each of its three
  cases and the body obligation. Everything is generic in the float model `F`.
-/
import proofs.«423195_j8272107012813_1_alg».proof.Proof.Gen.Kernel.Launch
import proofs.«423195_j8272107012813_1_alg».proof.Proof.Gen.Kernel.Skeleton
import proofs.«423195_j8272107012813_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.Kernel.Reg5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: the edge block is the slow coordinate, the node block the fast one -/

/-- The node-block coordinate of point `t` is `t mod 98`. -/
theorem nodeCoord (t : Fin cfg5.N) : (grid5.coords t 1).val = t.val % 98 := by
  show t.val / 1 % 98 = t.val % 98
  rw [Nat.div_one]

/-- The body's first conditional: the node-block coordinate is zero (the accumulator is reset). -/
abbrev condReset (i : grid5.Coords) : Prop :=
  (Scalar.cmpi .ne (Scalar.extui (Scalar.cmpi .eq (BitVec.ofNat 32 (i 1).val) 0#32)) 0#32) = 1#1

/-- The body's second conditional: the node-block coordinate is the last one (the output block is stored). -/
abbrev condStore (i : grid5.Coords) : Prop := k5_cond2 i = 1#1

theorem condReset_fin : ∀ k : Fin 98,
    (Scalar.cmpi .ne (Scalar.extui (Scalar.cmpi .eq (BitVec.ofNat 32 k.val) 0#32)) 0#32) = 1#1 ↔ k.val = 0 := by
  decide

theorem condStore_fin : ∀ k : Fin 98,
    (Scalar.cmpi .ne (Scalar.extui (Scalar.cmpi .eq (BitVec.ofNat 32 k.val) 97#32)) 0#32) = 1#1 ↔ k.val = 97 := by
  decide

theorem condReset_iff (i : grid5.Coords) : condReset i ↔ (i 1).val = 0 := condReset_fin (i 1)

theorem condStore_iff (i : grid5.Coords) : condStore i ↔ (i 1).val = 97 := condStore_fin (i 1)

/-- At a point, in closed form. -/
theorem condReset_at (t : Fin cfg5.N) : condReset (grid5.coords t) ↔ t.val % 98 = 0 := by
  rw [condReset_iff, nodeCoord]

theorem condStore_at (t : Fin cfg5.N) : condStore (grid5.coords t) ↔ t.val % 98 = 97 := by
  rw [condStore_iff, nodeCoord]

/-! ## The windows' blocks -/

/-- Window `w`'s block at point `t`, read off its array as the region finds it (`V`). -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The block of source ids the point's edge block reads (window 0), at its literal type. -/
abbrev srcBlk (c : Dev nD) (t : Fin cfg5.N) : Vec F S1x4096 .i32 := iblk V c 0 t

/-- The block of node features the point's node block reads (window 1), at its literal type. -/
abbrev featBlk (c : Dev nD) (t : Fin cfg5.N) : Vec F S1024x128 .f32 := iblk V c 1 t

/-- An input window's current staging buffer holds its block at every point, fetched there or not, for any proof
    data whose array is `V`'s and whose body leaves the block in place: unfetched, the block index has not moved. -/
theorem before_src_of {c : Dev nD} (dat : Dat τ (Elt F) Unit ℕ (UR sig nD τ) ℕ cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_feat_of {c : Dev nD} (dat : Dat τ (Elt F) Unit ℕ (UR sig nD τ) ℕ cfg5 c) (hA : dat.A 1 = V c (Pipeline.arrRef spec5 1))
    (hafter : ∀ t, dat.after 1 t = iblk V c 1 t) (t : Fin cfg5.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the accumulator and the output block hold, point by point -/

/-- One point's update of the accumulator: the one-hot product of the point's source ids against its node block,
    added to what the accumulator held (`k5_pay2`, the skeleton's payload). -/
abbrev accStep (i : grid5.Coords) (xs : Vec F S1x4096 .i32) (xh : Vec F S1024x128 .f32) (xa : Vec F S4096x128 .f32) :
    Vec F S4096x128 .f32 := k5_pay2 i xs xh xa

/-- The accumulator at the start of an edge block: all zero (`k5_pay1`). -/
abbrev accZero : Vec F S4096x128 .f32 := k5_pay1 (F := F)

/-- THE ACCUMULATION. What the scratch accumulator holds after the body at position `n`: at the first node block of
    an edge block (`n mod 98 = 0`) one update of the zero accumulator, at every other point one update of what the
    point before left. -/
def accAt (c : Dev nD) : (n : ℕ) → n < cfg5.N → Vec F S4096x128 .f32
  | 0, hn => accStep (grid5.coords ⟨0, hn⟩) (srcBlk V c ⟨0, hn⟩) (featBlk V c ⟨0, hn⟩) accZero
  | n + 1, hn =>
    if (n + 1) % 98 = 0 then accStep (grid5.coords ⟨n + 1, hn⟩) (srcBlk V c ⟨n + 1, hn⟩) (featBlk V c ⟨n + 1, hn⟩) accZero
    else accStep (grid5.coords ⟨n + 1, hn⟩) (srcBlk V c ⟨n + 1, hn⟩) (featBlk V c ⟨n + 1, hn⟩) (accAt c n (Nat.lt_of_succ_lt hn))

/-- At a point where the accumulator is reset. -/
theorem accAt_reset (c : Dev nD) (t : Fin cfg5.N) (h : t.val % 98 = 0) :
    accAt V c t.val t.isLt = accStep (grid5.coords t) (srcBlk V c t) (featBlk V c t) accZero := by
  obtain ⟨n, hn⟩ := t
  cases n with
  | zero => rfl
  | succ n => exact if_pos h

/-- At a point where it is not: over what the point before left. -/
theorem accAt_step (c : Dev nD) (t : Fin cfg5.N) (h : ¬t.val % 98 = 0) :
    accAt V c t.val t.isLt
      = accStep (grid5.coords t) (srcBlk V c t) (featBlk V c t) (accAt V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at point `t`: the accumulator there, rounded to the
    output's format (`k5_pay3`). Stored by the body — and written back — only at the last node block of an edge
    block; elsewhere the window is idle and nothing consults this. -/
def outAt (c : Dev nD) (t : Fin cfg5.N) : Vec F S4096x128 .bf16 := k5_pay3 (accAt V c t.val t.isLt)

/-! ## Where the output window is stored and where it is idle -/

/-- At the last node block of an edge block the body stores the output block: the window is live. -/
theorem live_out (t : Fin cfg5.N) (h : t.val % 98 = 97) : cfg5.idle 2 (grid5.coords t) = false := by
  have hc : k5_cond2 (grid5.coords t) = 1#1 := (condStore_at t).mpr h
  show (!(k5_cond2 (grid5.coords t) == 1#1)) = false
  rw [hc]; rfl

/-- Elsewhere it stores nothing into it: the window is idle, -/
theorem idle_out (t : Fin cfg5.N) (h : ¬t.val % 98 = 97) : cfg5.idle 2 (grid5.coords t) = true := by
  have hc : ¬k5_cond2 (grid5.coords t) = 1#1 := fun e => h ((condStore_at t).mp e)
  show (!(k5_cond2 (grid5.coords t) == 1#1)) = true
  rw [Bool.not_eq_true', beq_eq_false_iff_ne]; exact hc

/-- and the pipeline does not write its block back. -/
theorem noFlush_out (t : Fin cfg5.N) (h : ¬t.val % 98 = 97) : (cfg5.win 2).flush t = false :=
  Bool.eq_false_iff.mpr fun e => h ((flush5_2 t).mp e)

/-! ## The invariant: the accumulator's contents, point by point -/

/-- The scratch accumulator, a whole scoped buffer of the kernel's own. -/
abbrev scM : Memref sig .tc .vmem S4096x128 .f32 := Memref.whole cc5_scratch0

/-- Every other scoped buffer of the core that is no staging buffer of this call, at some contents each. -/
abbrev restBut (c : Dev nD) : sProp 𝕄 :=
  Pipeline.scopedRestBut (Ix := Unit) (Name := ℕ) (U := UR sig nD τ) (Lvl := ℕ) (Val := Elt F) spec5 c [cc5_scratch0]

/-- The class's invariant with the accumulator as a memref owned at some contents. -/
theorem PhiA_eq (c : Dev nD) :
    (Pipeline.ΦA spec5 c : sProp 𝕄)
      = iprop(iprop((∃ d, owns (c : Thread nD τ) scM fullShare d) ∗ restBut (F := F) c) ∗ (∃ r, prngReg c r)) := by
  unfold Pipeline.ΦA; rw [scopedRest5_split]; simp only [scM, owns_whole]; try rfl

/-- The region invariant before position `n`: before the first point the class's (the accumulator at anything);
    afterwards the accumulator at what the point before left in it (`accAt`), the other scoped buffers at anything
    and the generator register at some state. -/
def PhiS (c : Dev nD) : (n : ℕ) → n ≤ cfg5.N → sProp 𝕄
  | 0, _ => Pipeline.ΦA spec5 c
  | n + 1, hn => iprop(iprop(owns (c : Thread nD τ) scM fullShare (accAt V c n hn) ∗ restBut (F := F) c) ∗ (∃ r, prngReg c r))

theorem PhiS_zero (c : Dev nD) (n : ℕ) (h : n ≤ cfg5.N) (hz : n = 0) : PhiS V c n h = Pipeline.ΦA spec5 c := by
  subst hz; rfl

theorem PhiS_succ (c : Dev nD) (n : ℕ) (hn : n < cfg5.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg5.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

/-! ## The proof data -/

/-- The proof data of this pipeline on core `c`: the arrays as the region finds them (`V`); after the body at point
    `t` each input's buffer at its block and the output's at `outAt`; the invariant `PhiS`; nothing owed; full shares. -/
def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg5.W) : (dat V c).A w = V c (Pipeline.arrRef spec5 w) := by
  dsimp only [dat]

/-- What the body leaves, window by window. -/
theorem after_src (c : Dev nD) (t : Fin cfg5.N) : (dat V c).after 0 t = iblk V c 0 t := by dsimp only [dat]
theorem after_feat (c : Dev nD) (t : Fin cfg5.N) : (dat V c).after 1 t = iblk V c 1 t := by dsimp only [dat]
theorem after_out (c : Dev nD) (t : Fin cfg5.N) : (dat V c).after 2 t = outAt V c t := by dsimp only [dat]

/-- The output's staged block in terms of the accumulator. -/
theorem after_out_eq (c : Dev nD) (t : Fin cfg5.N) : (dat V c).after 2 t = k5_pay3 (accAt V c t.val t.isLt) := after_out V c t

/-- The invariant at a point's start, restated at `t.val`. -/
theorem Phi_castSucc (c : Dev nD) (t : Fin cfg5.N) :
    (dat V c).Φ t.castSucc = PhiS V c t.val (Nat.le_of_lt t.isLt) := by
  dsimp only [dat]; simp only [Fin.coe_castSucc]

/-- Each input's current staging buffer holds its block at every point. -/
theorem before_src (c : Dev nD) (t : Fin cfg5.N) (d) : (dat V c).before 0 t d = iblk V c 0 t :=
  before_src_of V (dat V c) (A_eq V c 0) (after_src V c) t d
theorem before_feat (c : Dev nD) (t : Fin cfg5.N) (d) : (dat V c).before 1 t d = iblk V c 1 t :=
  before_feat_of V (dat V c) (A_eq V c 1) (after_feat V c) t d

/-! ## The body's triples, case by case

On whole memrefs — the staging buffers the pipeline passes and the scratch accumulator —, the two inputs' at read
contents `xs` (source ids) and `xh` (node features): the body runs to the continuation holding the inputs' as they
were, the accumulator at one update (`accStep`) of zero or of what it held, and, at the last node block, the
output's at the accumulator rounded. The conditionals are decided by the case's hypotheses. -/

/-- The zero offsets of a whole-buffer rectangle, however spelt. -/
theorem zeroOff : (![0, 0] : Fin 2 → Nat) = fun _ => 0 := by
  funext a; fin_cases a <;> rfl

/-- A list of pieces whose newest is a store through the whole-buffer rectangle covers the buffer. -/
theorem coverHead {e : EltTy} (w : S4096x128.Idx → Elt F e) (L : List (View.Piece (Elt F) S4096x128 e)) (y : S4096x128.Idx) :
    ∃ p ∈ ((⟨Rect.unit (s := S4096x128) ![0, 0] S4096x128.size inb_S4096x128_S4096x128_0_0, w⟩ : View.Piece (Elt F) S4096x128 e) :: L), y ∈ p.1.set :=
  ⟨_, List.Mem.head _, View.mem_set_unit_zero (S := S4096x128) zeroOff inb_S4096x128_S4096x128_0_0 y⟩

set_option maxHeartbeats 1000000 in
/-- AT A RESET POINT (the first node block of an edge block): the accumulator, at anything, is zeroed and updated once.
    The output's memref is not touched. -/
theorem run_reset (c : Dev nD) (i : grid5.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : condReset i) (hs : ¬condStore i)
    (xs : Vec F S1x4096 .i32) (xh : Vec F S1024x128 .f32) (E : Set ℕ) (K : PUnit → sProp 𝕄) :
    iprop(owns (c : Thread nD τ) arg2 fullShare xs ∗ owns (c : Thread nD τ) arg3 fullShare xh ∗ (∃ d, owns (c : Thread nD τ) arg5 fullShare d)
        ∗ (iprop(owns (c : Thread nD τ) arg2 fullShare xs ∗ owns (c : Thread nD τ) arg3 fullShare xh
            ∗ owns (c : Thread nD τ) arg5 fullShare (accStep i xs xh accZero)) -∗ K ⟨⟩))
      ⊢ wp frame (wpE (defs₀ (F := F)) Variants.none c none) E (cc5__gather_kernel i arg2 harg2 arg3 harg3 arg4 harg4 arg5 harg5) K := by
  simp only [cc5__gather_kernel_eq_skeleton]; unfold cc5__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT A POINT THAT NEITHER RESETS NOR STORES: the accumulator, at `xa`, is updated once. The output's memref is not
    touched. -/
theorem run_step (c : Dev nD) (i : grid5.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : ¬condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ owns (c : Thread nD τ) arg5 fullShare xa
        ∗ (iprop(owns (c : Thread nD τ) arg2 fullShare xs ∗ owns (c : Thread nD τ) arg3 fullShare xh
            ∗ owns (c : Thread nD τ) arg5 fullShare (accStep i xs xh xa)) -∗ K ⟨⟩))
      ⊢ wp frame (wpE (defs₀ (F := F)) Variants.none c none) E (cc5__gather_kernel i arg2 harg2 arg3 harg3 arg4 harg4 arg5 harg5) K := by
  simp only [cc5__gather_kernel_eq_skeleton]; unfold cc5__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT THE LAST NODE BLOCK of an edge block: the accumulator, at `xa`, is updated once, and the output's memref, at
    anything, is left at the accumulator rounded to the output's format. -/
theorem run_last (c : Dev nD) (i : grid5.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ (∃ d, owns (c : Thread nD τ) arg4 fullShare d) ∗ owns (c : Thread nD τ) arg5 fullShare xa
        ∗ (iprop(owns (c : Thread nD τ) arg2 fullShare xs ∗ owns (c : Thread nD τ) arg3 fullShare xh
            ∗ owns (c : Thread nD τ) arg4 fullShare (k5_pay3 (accStep i xs xh xa)) ∗ owns (c : Thread nD τ) arg5 fullShare (accStep i xs xh xa)) -∗ K ⟨⟩))
      ⊢ wp frame (wpE (defs₀ (F := F)) Variants.none c none) E (cc5__gather_kernel i arg2 harg2 arg3 harg3 arg4 harg4 arg5 harg5) K := by
  simp only [cc5__gather_kernel_eq_skeleton]; unfold cc5__gather_kernel_skel
  unfold owns
  iintro ⟨⟨%f0, %hf0, H0⟩, ⟨%f1, %hf1, H1⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_run_names
    refine (View.read_writes_eq_canon _ _ _ (coverHead _ _)).trans ?_
    rw [View.canon_cons_unit_zero (S := S4096x128) zeroOff]
    simp only [View.readAt_eq_ld, harg2.read_unread, harg3.read_unread, harg5.read_unread, View.ld_unit_zero (S := S1x4096) zeroOff,
      View.ld_unit_zero (S := S1024x128) zeroOff, View.ld_unit_zero (S := S4096x128) zeroOff, View.readCov_unit_zero (S := S4096x128) _ zeroOff]
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

/-! ## The body obligation, at a generic point -/

/-- Each window's current staging memref at point `t`, spelt as the pipeline passes it, and its wholeness. -/
abbrev msSrc (t : Fin cfg5.N) : Memref sig .tc .vmem S1x4096 .i32 := win5_0.stage (cfg5.slots t 0)
abbrev hsSrc (t : Fin cfg5.N) : (msSrc t).IsWhole := hstage5_0 ((cfg5.slots t 0).cast nbuf5_0)
abbrev msFeat (t : Fin cfg5.N) : Memref sig .tc .vmem S1024x128 .f32 := win5_1.stage (cfg5.slots t 1)
abbrev hsFeat (t : Fin cfg5.N) : (msFeat t).IsWhole := hstage5_1 ((cfg5.slots t 1).cast nbuf5_1)
abbrev msOut (t : Fin cfg5.N) : Memref sig .tc .vmem S4096x128 .bf16 := win5_2.stage (cfg5.slots t 2)
abbrev hsOut (t : Fin cfg5.N) : (msOut t).IsWhole := hstage5_2 ((cfg5.slots t 2).cast nbuf5_2)

/-- What the body is called with at point `t` (the obligation's precondition, the windows one by one), -/
def bodyPre (c : Dev nD) (t : Fin cfg5.N) : sProp 𝕄 :=
  iprop((dat V c).Φ t.castSucc ∗ (dat V c).owesAt () t.castSucc
    ∗ (∃ d, owns (c : Thread nD τ) (msSrc t) fullShare ((dat V c).before 0 t d))
    ∗ (∃ d, owns (c : Thread nD τ) (msFeat t) fullShare ((dat V c).before 1 t d))
    ∗ (∃ d, owns (c : Thread nD τ) (msOut t) fullShare ((dat V c).before 2 t d)))

/-- and what it returns. -/
def bodyPost (c : Dev nD) (t : Fin cfg5.N) : sProp 𝕄 :=
  iprop((dat V c).Φ t.succ ∗ (dat V c).owesAt () t.succ
    ∗ (dat V c).leavesExact 0 t
    ∗ (dat V c).leavesExact 1 t
    ∗ (dat V c).leavesExact 2 t)

/-- An input window is never idle: its buffer is left at its block. -/
theorem leaves_src (c : Dev nD) (t : Fin cfg5.N) :
    (dat V c).leavesExact 0 t = owns (c : Thread nD τ) (msSrc t) fullShare (iblk V c 0 t) := by
  rw [← after_src V c t]
theorem leaves_feat (c : Dev nD) (t : Fin cfg5.N) :
    (dat V c).leavesExact 1 t = owns (c : Thread nD τ) (msFeat t) fullShare (iblk V c 1 t) := by
  rw [← after_feat V c t]

/-- The output window where it is stored: its buffer is left at the accumulator rounded. -/
theorem leaves_out_live (c : Dev nD) (t : Fin cfg5.N) (h : t.val % 98 = 97) :
    (dat V c).leavesExact 2 t = owns (c : Thread nD τ) (msOut t) fullShare (outAt V c t) := by
  unfold Dat.leavesExact; rw [live_out t h, after_out]

/-- The output window where it is idle: its buffer is handed back as it was found. -/
theorem leaves_out_idle (c : Dev nD) (t : Fin cfg5.N) (h : ¬t.val % 98 = 97) :
    (dat V c).leavesExact 2 t = iprop(∃ d, owns (c : Thread nD τ) (msOut t) fullShare ((dat V c).before 2 t d)) :=
  Dat.leavesExact_idle (dat V c) 2 t (idle_out t h) (noFlush_out t h)

set_option maxHeartbeats 2000000 in
/-- The body at any point. The inputs' memrefs hold their blocks; the point's position in its edge block says which
    case it is in: at the first node block the accumulator (at what the point before left, or at anything at the very
    first point) is zeroed and updated, elsewhere it is updated from what the point before left; at the last node
    block the output's buffer is stored, elsewhere it is handed back untouched. The invariant takes the accumulator
    back at this point's contents; the core owes nothing throughout. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_src, before_feat]
  rw [show (dat V c).owesAt () t.succ = (dat V c).owesAt () t.castSucc from rfl]
  rw [show (dat V c).Φ t.succ = PhiS V c (t.val + 1) t.isLt from rfl, PhiS_succ]
  rw [leaves_src, leaves_feat, Phi_castSucc]
  by_cases h0 : t.val % 98 = 0
  · -- the first node block of an edge block
    have h97 : ¬t.val % 98 = 97 := by omega
    rw [leaves_out_idle V c t h97, accAt_reset V c t h0]
    by_cases hz : t.val = 0
    · rw [PhiS_zero V c _ _ hz, PhiA_eq]
      iintro ⟨⟨⟨HS, HR⟩, Hg⟩, Ho, ⟨%d0, H0⟩, ⟨%d1, H1⟩, H2⟩
      iapply (run_reset c (grid5.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [PhiS_pos V c _ _ hz]
      iintro ⟨⟨⟨HS, HR⟩, Hg⟩, Ho, ⟨%d0, H0⟩, ⟨%d1, H1⟩, H2⟩
      iapply (run_reset c (grid5.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexists _; iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [PhiS_pos V c _ _ hz, accAt_step V c t h0]
    by_cases h97 : t.val % 98 = 97
    · -- the last node block of an edge block
      rw [leaves_out_live V c t h97]
      unfold outAt
      rw [accAt_step V c t h0]
      iintro ⟨⟨⟨HS, HR⟩, Hg⟩, Ho, ⟨%d0, H0⟩, ⟨%d1, H1⟩, ⟨%d2, H2⟩⟩
      iapply (run_last c (grid5.coords t) _ _ _ _ _ _ _ _ (fun e => h0 ((condReset_at t).mp e)) ((condStore_at t).mpr h97)
        (srcBlk V c t) (featBlk V c t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · -- a node block in between
      rw [leaves_out_idle V c t h97]
      iintro ⟨⟨⟨HS, HR⟩, Hg⟩, Ho, ⟨%d0, H0⟩, ⟨%d1, H1⟩, H2⟩
      iapply (run_step c (grid5.coords t) _ _ _ _ _ _ _ _ (fun e => h0 ((condReset_at t).mp e)) (fun e => h97 ((condStore_at t).mp e))
        (srcBlk V c t) (featBlk V c t) _ Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W5, bigSep_W5]
  exact sound_body V c t

/-- What the launch hands the region is the invariant before the first point. -/
theorem hin (c : Dev nD) : (Pipeline.ΦA spec5 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class's back: the accumulator's named contents are forgotten. -/
theorem Phi_out (c : Dev nD) (t : Fin (cfg5.N + 1)) (ht : t.val ≠ 0) : (dat V c).Φ t ⊢ (Pipeline.ΦA spec5 c : sProp 𝕄) := by
  rw [show (dat V c).Φ t = PhiS V c t.val (Nat.le_of_lt_succ t.isLt) from rfl, PhiS_pos V c _ _ ht, PhiA_eq]
  iintro ⟨⟨HS, HR⟩, Hg⟩
  isplitr [Hg]
  · isplitl [HS]; · iexists _; iexact HS
    iexact HR
  iexact Hg

/-- The same after the last point. -/
theorem hout (c : Dev nD) : (dat V c).Φ (Fin.last cfg5.N) ⊢ (Pipeline.ΦA spec5 c : sProp 𝕄) :=
  Phi_out V c _ (by rw [Fin.val_last]; have : cfg5.N = 14406 := N_5; omega)

end Cert.Kernel.Reg5

end
-- ==== Proof.K.Reg6.lean ====
/-
  Kernel region 2 (scatter-add by one-hot weights over edge blocks, then the dense layer, ReLU and row
  normalization at the last edge block), on one core, at any float model and at any contents `V` of the
  TensorCore's buffers when the region is entered: the proof data of its pipeline and the body obligation.

  The grid is 98 node blocks by 147 edge blocks, the edge axis fastest. The kernel keeps a 1024 x 128 accumulator in a
  scratch block of its own: zeroed where the edge-block coordinate is 0, increased at every point by the product of the
  point's one-hot matrix (destination ids against the node block's row numbers) with the point's block of gathered
  rows; where the coordinate is 146, the last, the output block is computed from the node block's features plus the
  accumulator and stored. What the scratch holds after each point (`scr`) and what the output block is (`outv`) are
  functions of the input blocks through the kernel's payloads, by recursion on the point; the region's invariant
  carries the scratch at `scr` from point to point.
-/
import proofs.«423195_j8272107012813_1_alg».proof.Proof.Gen.Kernel.Launch
import proofs.«423195_j8272107012813_1_alg».proof.Proof.Gen.Kernel.Skeleton
import proofs.«423195_j8272107012813_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.Kernel.Reg6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: a point's edge-block coordinate, and the body's two conditions in closed form

The grid is 98 node blocks by 147 edge blocks, the edge axis fastest: point `t` has edge-block coordinate
`t % 147`. The body zeroes its accumulator where that coordinate is 0 and stores its output where it is 146. -/

/-- The edge-block coordinate (axis 1) of point `t` is `t % 147`. -/
theorem coord_e (t : Fin cfg6.N) : ((grid6.coords t) 1).val = t.val % 147 := by
  show t.val / grid6.stride 1 % grid6.bound 1 = t.val % 147
  rw [show grid6.stride 1 = 1 from by decide, Nat.div_one]; rfl

/-- The condition under which the body zeroes the accumulator (the first conditional of the kernel function), as
    the kernel function computes it from the coordinates. -/
abbrev condR (i : grid6.Coords) : Prop :=
  Scalar.cmpi .ne (Scalar.extui (Scalar.cmpi .eq (BitVec.ofNat 32 (i 1).val) 0#32)) 0#32 = 1#1

/-- The condition under which the body computes and stores its output block (the second conditional). -/
abbrev condS (i : grid6.Coords) : Prop := k6_cond2 i = 1#1

/-- The accumulator is zeroed exactly where the edge-block coordinate is 0 (the 147 values of the coordinate
    checked one by one). -/
theorem condR_iff (i : grid6.Coords) : condR i ↔ (i 1).val = 0 :=
  (by decide +kernel : ∀ k : Fin 147,
    (Scalar.cmpi .ne (Scalar.extui (Scalar.cmpi .eq (BitVec.ofNat 32 k.val) 0#32)) 0#32 = 1#1) ↔ k.val = 0) (i 1)

/-- The output is stored exactly where the edge-block coordinate is 146, the last. -/
theorem condS_iff (i : grid6.Coords) : condS i ↔ (i 1).val = 146 :=
  (by decide +kernel : ∀ k : Fin 147,
    (Scalar.cmpi .ne (Scalar.extui (Scalar.cmpi .eq (BitVec.ofNat 32 k.val) 146#32)) 0#32 = 1#1) ↔ k.val = 146) (i 1)

/-- At point `t` the accumulator is zeroed iff `t % 147 = 0`. -/
theorem hR (t : Fin cfg6.N) : condR (grid6.coords t) ↔ t.val % 147 = 0 :=
  (condR_iff (grid6.coords t)).trans (by rw [coord_e])

/-- At point `t` the output is stored iff `t % 147 = 146`. -/
theorem hS (t : Fin cfg6.N) : condS (grid6.coords t) ↔ t.val % 147 = 146 :=
  (condS_iff (grid6.coords t)).trans (by rw [coord_e])

/-- Where the output is not stored its window is idle; -/
theorem idle_out (t : Fin cfg6.N) (h : ¬t.val % 147 = 146) : cfg6.idle 7 (grid6.coords t) = true := by
  have hc : ¬k6_cond2 (grid6.coords t) = 1#1 := fun h' => h ((hS t).mp h')
  show (!(k6_cond2 (grid6.coords t) == 1#1)) = true
  simp [hc]

/-- where it is stored the window is live; -/
theorem live_out (t : Fin cfg6.N) (h : t.val % 147 = 146) : cfg6.idle 7 (grid6.coords t) = false := by
  have hc : k6_cond2 (grid6.coords t) = 1#1 := (hS t).mpr h
  show (!(k6_cond2 (grid6.coords t) == 1#1)) = false
  simp [hc]

/-- and the pipeline writes the block back only there. -/
theorem noflush_out (t : Fin cfg6.N) (h : ¬t.val % 147 = 146) : (cfg6.win 7).flush t = false :=
  Bool.eq_false_iff.mpr fun hf => h ((flush6_7 t).mp hf)

/-! ## The windows' blocks -/

/-- Window `w`'s block at point `t`, read off its array as the region finds it (`V`). -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The input blocks at their literal types: the destination ids of edge block `e`, the gathered rows of edge block
    `e`, the node features of node block `n`, the layer's weight, bias, and the normalization's scale and shift. -/
abbrev dstB (c : Dev nD) (t : Fin cfg6.N) : Vec F S1x4096 .i32 := iblk V c 0 t
abbrev tB (c : Dev nD) (t : Fin cfg6.N) : Vec F S4096x128 .bf16 := iblk V c 1 t
abbrev hB (c : Dev nD) (t : Fin cfg6.N) : Vec F S1024x128 .f32 := iblk V c 2 t
abbrev wB (c : Dev nD) (t : Fin cfg6.N) : Vec F S128x128 .f32 := iblk V c 3 t
abbrev bB (c : Dev nD) (t : Fin cfg6.N) : Vec F S1x128 .f32 := iblk V c 4 t
abbrev gB (c : Dev nD) (t : Fin cfg6.N) : Vec F S1x128 .f32 := iblk V c 5 t
abbrev lB (c : Dev nD) (t : Fin cfg6.N) : Vec F S1x128 .f32 := iblk V c 6 t

/-! ## What the body leaves: the accumulator point by point, and the output block -/

/-- THE ACCUMULATION. The accumulator (the kernel's own scratch block) after the body at point `n`: the point's
    one-hot scatter product of its edge block added (`k6_pay2`) to the zero block (`k6_pay1`) where the
    edge-block coordinate is 0, to what the point before left elsewhere. -/
def scr (c : Dev nD) : (n : ℕ) → n < cfg6.N → Vec F S1024x128 .f32
  | 0, hn => k6_pay2 (grid6.coords ⟨0, hn⟩) (dstB V c ⟨0, hn⟩) (tB V c ⟨0, hn⟩) k6_pay1
  | n + 1, hn =>
    if (n + 1) % 147 = 0 then k6_pay2 (grid6.coords ⟨n + 1, hn⟩) (dstB V c ⟨n + 1, hn⟩) (tB V c ⟨n + 1, hn⟩) k6_pay1
    else k6_pay2 (grid6.coords ⟨n + 1, hn⟩) (dstB V c ⟨n + 1, hn⟩) (tB V c ⟨n + 1, hn⟩) (scr c n (Nat.lt_of_succ_lt hn))

/-- At a point whose edge-block coordinate is 0 the sum starts afresh from the zero block; -/
theorem scr_reset (c : Dev nD) (t : Fin cfg6.N) (h : t.val % 147 = 0) :
    scr V c t.val t.isLt = k6_pay2 (grid6.coords t) (dstB V c t) (tB V c t) k6_pay1 := by
  obtain ⟨n, hn⟩ := t
  cases n with
  | zero => rfl
  | succ n => exact if_pos h

/-- elsewhere it goes on from what the point before left. -/
theorem scr_acc (c : Dev nD) (t : Fin cfg6.N) (h : ¬t.val % 147 = 0) :
    scr V c t.val t.isLt = k6_pay2 (grid6.coords t) (dstB V c t) (tB V c t)
      (scr V c (t.val - 1) (Nat.lt_of_le_of_lt (Nat.sub_le _ _) t.isLt)) := by
  obtain ⟨n, hn⟩ := t
  cases n with
  | zero => exact absurd (Nat.zero_mod _) h
  | succ n => exact if_neg h

/-- The output block the body computes from the point's accumulator (the dense layer on features plus aggregate,
    rectified and normalized: `k6_pay3`). The body stores it only where the edge-block coordinate is 146; it is the
    value of the proof data's `after` for the output window at every point, consulted only there. -/
def outv (c : Dev nD) (t : Fin cfg6.N) : Vec F S1024x128 .f32 :=
  k6_pay3 (hB V c t) (scr V c t.val t.isLt) (wB V c t) (bB V c t) (gB V c t) (lB V c t)

/-! ## The invariant: the accumulator between points -/

/-- The kernel's scratch block, whole. -/
abbrev scM : Memref sig .tc .vmem S1024x128 .f32 := Memref.whole cc6_scratch0

/-- The core's scoped buffers other than the staging buffers and the scratch block, each at some contents. -/
abbrev restBut (c : Dev nD) : sProp 𝕄 :=
  Pipeline.scopedRestBut (Ix := Unit) (Name := ℕ) (U := UR sig nD τ) (Lvl := ℕ) (Val := Elt F) spec6 c [cc6_scratch0]

/-- The class's invariant with the scratch block as a memref owned at some contents. -/
theorem PhiA_eq (c : Dev nD) :
    (Pipeline.ΦA spec6 c : sProp 𝕄)
      = iprop(iprop((∃ d, owns (c : Thread nD τ) scM fullShare d) ∗ restBut c) ∗ (∃ r, prngReg c r)) := by
  unfold Pipeline.ΦA; rw [scopedRest6_split]; simp only [scM, owns_whole]; try rfl

/-- The region's invariant before position `n`: before the first point the class's (the scratch at anything);
    afterwards the scratch at what the point before left in it (`scr`), the other scoped buffers at anything, the
    generator register at some state. -/
def Phi (c : Dev nD) : (n : ℕ) → n ≤ cfg6.N → sProp 𝕄
  | 0, _ => Pipeline.ΦA spec6 c
  | n + 1, hn => iprop(iprop(owns (c : Thread nD τ) scM fullShare (scr V c n hn) ∗ restBut c) ∗ (∃ r, prngReg c r))

theorem Phi_succ (c : Dev nD) (n : ℕ) (hn : n < cfg6.N) :
    Phi V c (n + 1) hn = iprop(iprop(owns (c : Thread nD τ) scM fullShare (scr V c n hn) ∗ restBut c) ∗ (∃ r, prngReg c r)) := rfl

theorem Phi_pos (c : Dev nD) (n : ℕ) (h : n ≤ cfg6.N) (hz : n ≠ 0) :
    Phi V c n h = iprop(iprop(owns (c : Thread nD τ) scM fullShare (scr V c (n - 1) (by omega)) ∗ restBut c) ∗ (∃ r, prngReg c r)) := by
  cases n with
  | zero => exact absurd rfl hz
  | succ n => rfl

/-- At any position the invariant yields the scratch at SOME contents: what a point that zeroes it needs, and what
    the class's invariant says. -/
theorem Phi_any (c : Dev nD) (n : ℕ) (h : n ≤ cfg6.N) :
    Phi V c n h ⊢ iprop(iprop((∃ d, owns (c : Thread nD τ) scM fullShare d) ∗ restBut c) ∗ (∃ r, prngReg c r)) := by
  cases n with
  | zero => rw [show Phi V c 0 h = Pipeline.ΦA spec6 c from rfl, PhiA_eq]; try exact Idealize.SL.BI.Entails.refl _
  | succ n =>
    rw [Phi_succ]
    iintro ⟨⟨HS, HR⟩, Hg⟩
    isplitl [HS HR]
    · isplitl [HS]
      · iexists _; iexact HS
      iexact HR
    iexact Hg

/-! ## The pipeline's proof data -/

/-- The proof data of the region on core `c`: the arrays as the region finds them (`V`); after the body at point
    `t` each input's buffer at its block and the output's at `outv`; the invariant `Phi`; nothing owed; full
    shares. -/
def dat (c : Dev nD) : Dat τ (Elt F) Unit ℕ (UR sig nD τ) ℕ cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outv V c t
  Φ t := Phi V c t.val (Nat.le_of_lt_succ t.isLt)
  q _ := fullShare
  owed _ := 0

/-- The proof data's arrays are the region-entry contents. -/
theorem A_eq (c : Dev nD) (w : Fin cfg6.W) : (dat V c).A w = V c (Pipeline.arrRef spec6 w) := by
  dsimp only [dat]

/-- The invariant at a point's start, restated at `t.val`. -/
theorem Phi_castSucc (c : Dev nD) (t : Fin cfg6.N) :
    (dat V c).Φ t.castSucc = Phi V c t.val (Nat.le_of_lt t.isLt) := by
  dsimp only [dat]; simp only [Fin.coe_castSucc]

/-- What the body leaves, window by window. -/
theorem after_D (c : Dev nD) (t : Fin cfg6.N) : (dat V c).after 0 t = iblk V c 0 t := by dsimp only [dat]
theorem after_T (c : Dev nD) (t : Fin cfg6.N) : (dat V c).after 1 t = iblk V c 1 t := by dsimp only [dat]
theorem after_H (c : Dev nD) (t : Fin cfg6.N) : (dat V c).after 2 t = iblk V c 2 t := by dsimp only [dat]
theorem after_W (c : Dev nD) (t : Fin cfg6.N) : (dat V c).after 3 t = iblk V c 3 t := by dsimp only [dat]
theorem after_B (c : Dev nD) (t : Fin cfg6.N) : (dat V c).after 4 t = iblk V c 4 t := by dsimp only [dat]
theorem after_G (c : Dev nD) (t : Fin cfg6.N) : (dat V c).after 5 t = iblk V c 5 t := by dsimp only [dat]
theorem after_L (c : Dev nD) (t : Fin cfg6.N) : (dat V c).after 6 t = iblk V c 6 t := by dsimp only [dat]
theorem after_out (c : Dev nD) (t : Fin cfg6.N) : (dat V c).after 7 t = outv V c t := by dsimp only [dat]

/-- Each input's current staging buffer holds its block at every point, fetched there or not: the body leaves the
    block in place, and where the pipeline does not fetch, the block index has not moved. -/
theorem before_D (c : Dev nD) (t : Fin cfg6.N) (d) : (dat V c).before 0 t d = iblk V c 0 t :=
  ((dat V c).before_in_eq_fetched 0 rfl (fun _ => rfl) (fun _ _ _ => rfl)
    (fun t => by rw [after_D]; unfold Dat.blockOf iblk; rw [A_eq]; try rfl) t d).trans
    (by unfold Dat.fetched Dat.blockOf iblk; rw [A_eq]; try rfl)
theorem before_T (c : Dev nD) (t : Fin cfg6.N) (d) : (dat V c).before 1 t d = iblk V c 1 t :=
  ((dat V c).before_in_eq_fetched 1 rfl (fun _ => rfl) (fun _ _ _ => rfl)
    (fun t => by rw [after_T]; unfold Dat.blockOf iblk; rw [A_eq]; try rfl) t d).trans
    (by unfold Dat.fetched Dat.blockOf iblk; rw [A_eq]; try rfl)
theorem before_H (c : Dev nD) (t : Fin cfg6.N) (d) : (dat V c).before 2 t d = iblk V c 2 t :=
  ((dat V c).before_in_eq_fetched 2 rfl (fun _ => rfl) (fun _ _ _ => rfl)
    (fun t => by rw [after_H]; unfold Dat.blockOf iblk; rw [A_eq]; try rfl) t d).trans
    (by unfold Dat.fetched Dat.blockOf iblk; rw [A_eq]; try rfl)
theorem before_W (c : Dev nD) (t : Fin cfg6.N) (d) : (dat V c).before 3 t d = iblk V c 3 t :=
  ((dat V c).before_in_eq_fetched 3 rfl (fun _ => rfl) (fun _ _ _ => rfl)
    (fun t => by rw [after_W]; unfold Dat.blockOf iblk; rw [A_eq]; try rfl) t d).trans
    (by unfold Dat.fetched Dat.blockOf iblk; rw [A_eq]; try rfl)
theorem before_B (c : Dev nD) (t : Fin cfg6.N) (d) : (dat V c).before 4 t d = iblk V c 4 t :=
  ((dat V c).before_in_eq_fetched 4 rfl (fun _ => rfl) (fun _ _ _ => rfl)
    (fun t => by rw [after_B]; unfold Dat.blockOf iblk; rw [A_eq]; try rfl) t d).trans
    (by unfold Dat.fetched Dat.blockOf iblk; rw [A_eq]; try rfl)
theorem before_G (c : Dev nD) (t : Fin cfg6.N) (d) : (dat V c).before 5 t d = iblk V c 5 t :=
  ((dat V c).before_in_eq_fetched 5 rfl (fun _ => rfl) (fun _ _ _ => rfl)
    (fun t => by rw [after_G]; unfold Dat.blockOf iblk; rw [A_eq]; try rfl) t d).trans
    (by unfold Dat.fetched Dat.blockOf iblk; rw [A_eq]; try rfl)
theorem before_L (c : Dev nD) (t : Fin cfg6.N) (d) : (dat V c).before 6 t d = iblk V c 6 t :=
  ((dat V c).before_in_eq_fetched 6 rfl (fun _ => rfl) (fun _ _ _ => rfl)
    (fun t => by rw [after_L]; unfold Dat.blockOf iblk; rw [A_eq]; try rfl) t d).trans
    (by unfold Dat.fetched Dat.blockOf iblk; rw [A_eq]; try rfl)

/-! ## The body's triple, case by case

The kernel function on whole memrefs. It reads the destination ids and the gathered rows, and reads and rewrites the
accumulator; only where it stores the output does it touch the other operands. The whole-block rectangle's offsets
are zero, so that a load through it reads the contents and a store through it, last, leaves its payload. -/

theorem hz : (![0, 0] : Fin 2 → ℕ) = fun _ => 0 := funext fun a => by fin_cases a <;> rfl

/-- After writes whose LAST is a store through the whole-block rectangle, the buffer reads as that store's payload,
    whatever the earlier writes and the prior contents. -/
theorem read_last_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

set_option maxHeartbeats 1000000 in
/-- WHERE THE ACCUMULATOR IS ZEROED and the output not stored: from the ids and rows at `xd`, `xt` and the
    accumulator at anything, the body leaves the accumulator at the point's product added to the zero block (the
    zero block stored first and read back), the ids and rows as they were. -/
theorem run_reset (c : Dev nD) (E : Set ℕ) (i : grid6.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : condR i) (hs : ¬condS i) (xd : Vec F S1x4096 .i32) (xt : Vec F S4096x128 .bf16) (K : PUnit → sProp 𝕄) :
    iprop(owns (c : Thread nD τ) aD fullShare xd ∗ owns (c : Thread nD τ) aT fullShare xt ∗ (∃ d, owns (c : Thread nD τ) aS fullShare d)
        ∗ (iprop(owns (c : Thread nD τ) aD fullShare xd ∗ owns (c : Thread nD τ) aT fullShare xt
            ∗ owns (c : Thread nD τ) aS fullShare (k6_pay2 i xd xt k6_pay1)) -∗ K ⟨⟩))
      ⊢ wp frame (wpE (defs₀ (F := F)) Variants.none c none) E (cc6__scatter_mlp_ln_kernel i aD hD aT hT aH hH aW hW aB hB' aG hG aL hL aO hO aS hS') K := by
  simp only [cc6__scatter_mlp_ln_kernel_eq_skeleton]; unfold cc6__scatter_mlp_ln_kernel_skel
  unfold owns
  iintro ⟨⟨%fD, %hfD, HD⟩, ⟨%fT, %hfT, HT⟩, ⟨%ds, %fs, -, HS⟩, Hk⟩
  subst hfD; subst hfT
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  sl_unfold_run_names
  rw [View.readCov_unit_zero (S := S1024x128) _ hz]
  simp only [View.readAt_eq_ld, View.ld_unit_zero (S := S1x4096) hz, View.ld_unit_zero (S := S4096x128) hz]

set_option maxHeartbeats 1000000 in
/-- WHERE THE ACCUMULATOR IS KEPT and the output not stored: from the accumulator at `xs`, the body leaves it at the
    point's product added to `xs`. -/
theorem run_acc (c : Dev nD) (E : Set ℕ) (i : grid6.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : ¬condS i) (xd : Vec F S1x4096 .i32) (xt : Vec F S4096x128 .bf16) (xs : Vec F S1024x128 .f32)
    (K : PUnit → sProp 𝕄) :
    iprop(owns (c : Thread nD τ) aD fullShare xd ∗ owns (c : Thread nD τ) aT fullShare xt ∗ owns (c : Thread nD τ) aS fullShare xs
        ∗ (iprop(owns (c : Thread nD τ) aD fullShare xd ∗ owns (c : Thread nD τ) aT fullShare xt
            ∗ owns (c : Thread nD τ) aS fullShare (k6_pay2 i xd xt xs)) -∗ K ⟨⟩))
      ⊢ wp frame (wpE (defs₀ (F := F)) Variants.none c none) E (cc6__scatter_mlp_ln_kernel i aD hD aT hT aH hH aW hW aB hB' aG hG aL hL aO hO aS hS') K := by
  simp only [cc6__scatter_mlp_ln_kernel_eq_skeleton]; unfold cc6__scatter_mlp_ln_kernel_skel
  unfold owns
  iintro ⟨⟨%fD, %hfD, HD⟩, ⟨%fT, %hfT, HT⟩, ⟨%fs, %hfs, HS⟩, Hk⟩
  subst hfD; subst hfT; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  simp only [View.readAt_eq_ld, View.ld_unit_zero (S := S1x4096) hz, View.ld_unit_zero (S := S4096x128) hz,
    View.ld_unit_zero (S := S1024x128) hz]

set_option maxHeartbeats 2000000 in
/-- WHERE THE OUTPUT IS STORED (the accumulator kept): from the accumulator at `xs` and the other operands at their
    contents, the output's buffer at anything, the body leaves the accumulator at the point's product added to `xs`
    and the output's buffer at the block computed from that sum. -/
theorem run_store (c : Dev nD) (E : Set ℕ) (i : grid6.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : condS i) (xd : Vec F S1x4096 .i32) (xt : Vec F S4096x128 .bf16) (xh : Vec F S1024x128 .f32)
    (xw : Vec F S128x128 .f32) (xb : Vec F S1x128 .f32) (xg : Vec F S1x128 .f32) (xl : Vec F S1x128 .f32)
    (xs : Vec F S1024x128 .f32) (K : PUnit → sProp 𝕄) :
    iprop(owns (c : Thread nD τ) aD fullShare xd ∗ owns (c : Thread nD τ) aT fullShare xt ∗ owns (c : Thread nD τ) aH fullShare xh ∗ owns (c : Thread nD τ) aW fullShare xw
        ∗ owns (c : Thread nD τ) aB fullShare xb ∗ owns (c : Thread nD τ) aG fullShare xg ∗ owns (c : Thread nD τ) aL fullShare xl
        ∗ (∃ d, owns (c : Thread nD τ) aO fullShare d) ∗ owns (c : Thread nD τ) aS fullShare xs
        ∗ (iprop(owns (c : Thread nD τ) aD fullShare xd ∗ owns (c : Thread nD τ) aT fullShare xt ∗ owns (c : Thread nD τ) aH fullShare xh ∗ owns (c : Thread nD τ) aW fullShare xw
            ∗ owns (c : Thread nD τ) aB fullShare xb ∗ owns (c : Thread nD τ) aG fullShare xg ∗ owns (c : Thread nD τ) aL fullShare xl
            ∗ owns (c : Thread nD τ) aO fullShare (k6_pay3 xh (k6_pay2 i xd xt xs) xw xb xg xl)
            ∗ owns (c : Thread nD τ) aS fullShare (k6_pay2 i xd xt xs)) -∗ K ⟨⟩))
      ⊢ wp frame (wpE (defs₀ (F := F)) Variants.none c none) E (cc6__scatter_mlp_ln_kernel i aD hD aT hT aH hH aW hW aB hB' aG hG aL hL aO hO aS hS') K := by
  simp only [cc6__scatter_mlp_ln_kernel_eq_skeleton]; unfold cc6__scatter_mlp_ln_kernel_skel
  unfold owns
  iintro ⟨⟨%fD, %hfD, HD⟩, ⟨%fT, %hfT, HT⟩, ⟨%fH, %hfH, HH⟩, ⟨%fW, %hfW, HW⟩, ⟨%fB, %hfB, HB⟩, ⟨%fG, %hfG, HG⟩, ⟨%fL, %hfL, HL⟩,
    ⟨%dO, %fO, -, HO⟩, ⟨%fs, %hfs, HS⟩, Hk⟩
  subst hfD; subst hfT; subst hfH; subst hfW; subst hfB; subst hfG; subst hfL; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  isplitl [HH]
  · iexists fH; isplitr; · ipureintro; rfl
    iexact HH
  isplitl [HW]
  · iexists fW; isplitr; · ipureintro; rfl
    iexact HW
  isplitl [HB]
  · iexists fB; isplitr; · ipureintro; rfl
    iexact HB
  isplitl [HG]
  · iexists fG; isplitr; · ipureintro; rfl
    iexact HG
  isplitl [HL]
  · iexists fL; isplitr; · ipureintro; rfl
    iexact HL
  isplitl [HO]
  · iexists _; isplitr
    swap; · iexact HO
    ipureintro
    rw [read_last_whole _ _ hz]
    sl_unfold_run_names
    rw [View.readCov_unit_zero (S := S1024x128) _ hz]
    simp only [View.readAt_eq_ld, View.ld_unit_zero (S := S1x4096) hz, View.ld_unit_zero (S := S4096x128) hz,
      View.ld_unit_zero (S := S1024x128) hz, View.ld_unit_zero (S := S128x128) hz, View.ld_unit_zero (S := S1x128) hz]
  iexists _; isplitr
  swap; · iexact HS
  ipureintro
  sl_unfold_run_names
  rw [read_last_whole _ _ hz]
  simp only [View.readAt_eq_ld, View.ld_unit_zero (S := S1x4096) hz, View.ld_unit_zero (S := S4096x128) hz,
    View.ld_unit_zero (S := S1024x128) hz]

/-! ## The body obligation, at a generic point -/

/-- An input window is never idle: the body's post for it is its buffer at its block. -/
theorem leaves_D (c : Dev nD) (t : Fin cfg6.N) :
    (dat V c).leavesExact 0 t = owns (c : Thread nD τ) (st6_0 t) fullShare (iblk V c 0 t) := by
  unfold Dat.leavesExact; rw [show cfg6.idle 0 (grid6.coords t) = false from rfl, after_D]
theorem leaves_T (c : Dev nD) (t : Fin cfg6.N) :
    (dat V c).leavesExact 1 t = owns (c : Thread nD τ) (st6_1 t) fullShare (iblk V c 1 t) := by
  unfold Dat.leavesExact; rw [show cfg6.idle 1 (grid6.coords t) = false from rfl, after_T]
theorem leaves_H (c : Dev nD) (t : Fin cfg6.N) :
    (dat V c).leavesExact 2 t = owns (c : Thread nD τ) (st6_2 t) fullShare (iblk V c 2 t) := by
  unfold Dat.leavesExact; rw [show cfg6.idle 2 (grid6.coords t) = false from rfl, after_H]
theorem leaves_W (c : Dev nD) (t : Fin cfg6.N) :
    (dat V c).leavesExact 3 t = owns (c : Thread nD τ) (st6_3 t) fullShare (iblk V c 3 t) := by
  unfold Dat.leavesExact; rw [show cfg6.idle 3 (grid6.coords t) = false from rfl, after_W]
theorem leaves_B (c : Dev nD) (t : Fin cfg6.N) :
    (dat V c).leavesExact 4 t = owns (c : Thread nD τ) (st6_4 t) fullShare (iblk V c 4 t) := by
  unfold Dat.leavesExact; rw [show cfg6.idle 4 (grid6.coords t) = false from rfl, after_B]
theorem leaves_G (c : Dev nD) (t : Fin cfg6.N) :
    (dat V c).leavesExact 5 t = owns (c : Thread nD τ) (st6_5 t) fullShare (iblk V c 5 t) := by
  unfold Dat.leavesExact; rw [show cfg6.idle 5 (grid6.coords t) = false from rfl, after_G]
theorem leaves_L (c : Dev nD) (t : Fin cfg6.N) :
    (dat V c).leavesExact 6 t = owns (c : Thread nD τ) (st6_6 t) fullShare (iblk V c 6 t) := by
  unfold Dat.leavesExact; rw [show cfg6.idle 6 (grid6.coords t) = false from rfl, after_L]

/-- What the body is called with at point `t` (the library's obligation, the windows one by one), -/
def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d))
    ∗ (∃ d, owns (c : Thread nD τ) (st6_6 t) fullShare ((dat V c).before 6 t d))
    ∗ (∃ d, owns (c : Thread nD τ) (st6_7 t) fullShare ((dat V c).before 7 t d)))

/-- and what it returns. -/
def bodyPost (c : Dev nD) (t : Fin cfg6.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body at any point. The inputs' memrefs hold their blocks; the point's edge-block coordinate says which case
    it is in. Where the coordinate is 0 the invariant's scratch, at whatever it holds, is zeroed and summed into; elsewhere
    it holds what the point before left and is summed into; at the last coordinate the output block is computed from
    the sum and stored, at the others the output's buffer is handed back untouched (the window idle, not written
    back). The invariant takes the scratch back at this point's sum; the core owes nothing throughout. -/
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_D, before_T, before_H, before_W, before_B, before_G, before_L]
  rw [show (dat V c).owesAt () t.succ = (dat V c).owesAt () t.castSucc from rfl]
  rw [show (dat V c).Φ t.succ = Phi V c (t.val + 1) t.isLt from rfl, Phi_succ]
  rw [leaves_D, leaves_T, leaves_H, leaves_W, leaves_B, leaves_G, leaves_L, Phi_castSucc]
  by_cases hr : t.val % 147 = 0
  · have hs : ¬t.val % 147 = 146 := by omega
    rw [Dat.leavesExact_idle (dat V c) 7 t (idle_out t hs) (noflush_out t hs), scr_reset V c t hr]
    iintro ⟨HΦ, Ho, ⟨%dD, HD⟩, ⟨%dT, HT⟩, ⟨%dH, HH⟩, ⟨%dW, HW⟩, ⟨%dB, HB⟩, ⟨%dG, HG⟩, ⟨%dL, HL⟩, ⟨%dO, HO⟩⟩
    ihave HΦ' := (Phi_any V c _ _) $$ HΦ
    icases HΦ' with ⟨⟨HS, HR⟩, Hg⟩
    iapply (run_reset c Set.univ (grid6.coords t) _ _ _ _ _ _ _ _ _ _ _ _ _ _ _ _ _ _ ((hR t).mpr hr) (fun h => hs ((hS t).mp h))
      (dstB V c t) (tB V c t) _)
    isplitl [HD]; · iexact HD
    isplitl [HT]; · iexact HT
    isplitl [HS]; · iexact HS
    iintro ⟨HD, HT, HS⟩
    isplitl [HS HR Hg]
    · isplitl [HS HR]
      · isplitl [HS]; · iexact HS
        iexact HR
      iexact Hg
    isplitl [Ho]; · iexact Ho
    isplitl [HD]; · iexact HD
    isplitl [HT]; · iexact HT
    isplitl [HH]; · iexact HH
    isplitl [HW]; · iexact HW
    isplitl [HB]; · iexact HB
    isplitl [HG]; · iexact HG
    isplitl [HL]; · iexact HL
    iexists _; iexact HO
  · have hz' : t.val ≠ 0 := fun h => hr (by rw [h])
    rw [Phi_pos V c _ _ hz', scr_acc V c t hr]
    by_cases hs : t.val % 147 = 146
    · rw [show (dat V c).leavesExact 7 t = owns (c : Thread nD τ) (st6_7 t) fullShare ((dat V c).after 7 t) from by
        unfold Dat.leavesExact; rw [live_out t hs], after_out]
      unfold outv
      rw [scr_acc V c t hr]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_store c Set.univ (grid6.coords t) _ _ _ _ _ _ _ _ _ _ _ _ _ _ _ _ _ _ (fun h => hr ((hR t).mp h)) ((hS t).mpr hs)
        (dstB V c t) (tB V c t) (hB V c t) (wB V c t) (bB V c t) (gB V c t) (lB V c t) _ _)
      isplitl [HD]; · iexact HD
      isplitl [HT]; · iexact HT
      isplitl [HH]; · iexact HH
      isplitl [HW]; · iexact HW
      isplitl [HB]; · iexact HB
      isplitl [HG]; · iexact HG
      isplitl [HL]; · iexact HL
      isplitl [HO]; · iexists _; iexact HO
      isplitl [HS]; · iexact HS
      iintro ⟨HD, HT, HH, HW, HB, HG, HL, HO, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexact HO
    · rw [Dat.leavesExact_idle (dat V c) 7 t (idle_out t hs) (noflush_out t hs)]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_acc c Set.univ (grid6.coords t) _ _ _ _ _ _ _ _ _ _ _ _ _ _ _ _ _ _ (fun h => hr ((hR t).mp h)) (fun h => hs ((hS t).mp h))
        (dstB V c t) (tB V c t) _ _)
      isplitl [HD]; · iexact HD
      isplitl [HT]; · iexact HT
      isplitl [HS]; · iexact HS
      iintro ⟨HD, HT, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexists _; iexact HO

/-- The library's body obligation, at every point. -/
theorem body_obligation (c : Dev nD) : BodyObligation (dat (F := F) V c) (defs₀ (F := F)) Variants.none () Set.univ := fun t => by
  rw [bigSep_W6, bigSep_W6]
  exact sound_body V c t

/-- What the launch hands the region (the class's invariant) is the invariant before the first point. -/
theorem hin (c : Dev nD) : (Pipeline.ΦA spec6 c : sProp 𝕄) ⊢ (dat V c).Φ 0 := by
  rw [show (dat V c).Φ 0 = Pipeline.ΦA spec6 c from rfl]
  try exact Idealize.SL.BI.Entails.refl _

/-- After the last point the invariant gives the class's back: the scratch's named contents are forgotten. -/
theorem hout (c : Dev nD) : (dat V c).Φ (Fin.last cfg6.N) ⊢ (Pipeline.ΦA spec6 c : sProp 𝕄) := by
  rw [PhiA_eq]
  exact Phi_any V c (Fin.last cfg6.N).val (Nat.le_of_lt_succ (Fin.last cfg6.N).isLt)

end Cert.Kernel.Reg6

end
-- ==== Proof.K.Reg7.lean ====
/-
  Kernel region 7 of the program, the mean-pool kernel, at the TensorCore's buffer contents `V` found when the
  region is entered: the proof data of its pipeline and the body obligation, generic in the float model.

  The kernel runs over 98 node blocks. Window 0 is the block's 1024 graph ids (i32), window 1 its 1024x128 block
  of node features; windows 2 (the 128x128 sums) and 3 (the 128x1 counts) are outputs whose block index never
  moves: their staging buffers stay resident over the whole grid and are written back once, after the last
  point. At the first point the body stores the zero blocks into both (under the branch on the grid coordinate);
  at every point it reads each output buffer back and stores the payload of the ids, the feature block and what
  it read: `k7_pay4 ids h sums` and `k7_pay5 ids counts`. So the output buffers after point `n` are two
  left folds over the points, `sumsAt` and `countsAt`, stated here by recursion on the point with the payloads
  kept closed: nothing below looks inside a payload, only at this sequence of loads and stores.
-/
import proofs.«423195_j8272107012813_1_alg».proof.Proof.Gen.Kernel.Launch
import proofs.«423195_j8272107012813_1_alg».proof.Proof.Gen.Kernel.Skeleton
import proofs.«423195_j8272107012813_1_alg».proof.Proof.Gen.Kernel.Points
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Reg7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The graph ids of node block `t`: window 0's block, at its literal type. -/
abbrev ids (c : Dev nD) (t : Fin cfg7.N) : Vec F S1x1024 .i32 := iblk V c 0 t

/-- The features of node block `t`: window 1's block, at its literal type. -/
abbrev feats (c : Dev nD) (t : Fin cfg7.N) : Vec F S1024x128 .f32 := iblk V c 1 t

/-! ## What the resident outputs hold after each point -/

/-- The sums' buffer after point `n`: at the first point the zero block the reset stores, read back and
    updated with the point's ids and features; at a later point what the point before left, updated. -/
def sumsAt (c : Dev nD) : (n : ℕ) → n < cfg7.N → Vec F S128x128 .f32
  | 0, hn => k7_pay4 (ids V c ⟨0, hn⟩) (feats V c ⟨0, hn⟩) k7_pay1
  | n + 1, hn => k7_pay4 (ids V c ⟨n + 1, hn⟩) (feats V c ⟨n + 1, hn⟩) (sumsAt c n (Nat.lt_of_succ_lt hn))

/-- The counts' buffer after point `n`, likewise. -/
def countsAt (c : Dev nD) : (n : ℕ) → n < cfg7.N → Vec F S128x1 .f32
  | 0, hn => k7_pay5 (ids V c ⟨0, hn⟩) k7_pay2
  | n + 1, hn => k7_pay5 (ids V c ⟨n + 1, hn⟩) (countsAt c n (Nat.lt_of_succ_lt hn))

/-- At the point where the reset runs (the first), the sums are the update of the zero block. -/
theorem sumsAt_reset (c : Dev nD) (t : Fin cfg7.N) (h0 : t.val = 0) :
    sumsAt V c t.val t.isLt = k7_pay4 (ids V c t) (feats V c t) k7_pay1 := by
  obtain ⟨n, hn⟩ := t
  cases n with
  | zero => rfl
  | succ n => exact absurd h0 (Nat.succ_ne_zero n)

/-- At any other point, the update of what the point before left. -/
theorem sumsAt_acc (c : Dev nD) (t : Fin cfg7.N) (h0 : t.val ≠ 0) :
    sumsAt V c t.val t.isLt
      = k7_pay4 (ids V c t) (feats V c t) (sumsAt V c (t.val - 1) (Nat.lt_of_le_of_lt (Nat.sub_le _ _) t.isLt)) := by
  obtain ⟨n, hn⟩ := t
  cases n with
  | zero => exact absurd rfl h0
  | succ n => rfl

theorem countsAt_reset (c : Dev nD) (t : Fin cfg7.N) (h0 : t.val = 0) :
    countsAt V c t.val t.isLt = k7_pay5 (ids V c t) k7_pay2 := by
  obtain ⟨n, hn⟩ := t
  cases n with
  | zero => rfl
  | succ n => exact absurd h0 (Nat.succ_ne_zero n)

theorem countsAt_acc (c : Dev nD) (t : Fin cfg7.N) (h0 : t.val ≠ 0) :
    countsAt V c t.val t.isLt
      = k7_pay5 (ids V c t) (countsAt V c (t.val - 1) (Nat.lt_of_le_of_lt (Nat.sub_le _ _) t.isLt)) := by
  obtain ⟨n, hn⟩ := t
  cases n with
  | zero => exact absurd rfl h0
  | succ n => rfl

/-! ## The pipeline's proof data -/

/-- The proof data of the region's pipeline on core `c`: the arrays as the region finds them; after the body at
    point `t` each input's buffer at its block, the sums' at `sumsAt` and the counts' at `countsAt`; the
    invariant the scoped rest and the generator register, which the body never touches; nothing owed; full
    shares. -/
def dat (c : Dev nD) : Dat τ (Elt F) Unit ℕ (UR sig nD τ) ℕ cfg7 c where
  A w := V c (Pipeline.arrRef spec7 w)
  after w t := match w with
    | ⟨0, _⟩ => iblk V c 0 t
    | ⟨1, _⟩ => iblk V c 1 t
    | ⟨2, _⟩ => sumsAt V c t.val t.isLt
    | ⟨3, _⟩ => countsAt V c t.val t.isLt
  Φ _ := Pipeline.ΦA spec7 c
  q _ := fullShare
  owed _ := 0

/-- The proof data's arrays are the region-entry contents. -/
theorem A_eq (c : Dev nD) (w : Fin cfg7.W) : (dat V c).A w = V c (Pipeline.arrRef spec7 w) := by
  dsimp only [dat]

/-- What the body leaves, window by window. -/
theorem after_0 (c : Dev nD) (t : Fin cfg7.N) : (dat V c).after 0 t = iblk V c 0 t := by dsimp only [dat]
theorem after_1 (c : Dev nD) (t : Fin cfg7.N) : (dat V c).after 1 t = iblk V c 1 t := by dsimp only [dat]
theorem after_2 (c : Dev nD) (t : Fin cfg7.N) : (dat V c).after 2 t = sumsAt V c t.val t.isLt := by dsimp only [dat]
theorem after_3 (c : Dev nD) (t : Fin cfg7.N) : (dat V c).after 3 t = countsAt V c t.val t.isLt := by dsimp only [dat]

/-- The invariant is the same at every point. -/
theorem Φ_eq (c : Dev nD) (n : Fin (cfg7.N + 1)) : (dat V c).Φ n = (Pipeline.ΦA spec7 c : sProp 𝕄) := by dsimp only [dat]

/-- What the launch hands the kernel is the invariant before the first point, -/
theorem hin (c : Dev nD) : (Pipeline.ΦA spec7 c : sProp 𝕄) ⊢ (dat V c).Φ 0 := by
  rw [Φ_eq]

/-- and the invariant after the last point is what the launch takes back. -/
theorem hout (c : Dev nD) : (dat V c).Φ (Fin.last cfg7.N) ⊢ (Pipeline.ΦA spec7 c : sProp 𝕄) := by
  rw [Φ_eq]

/-! ## The body's branch condition -/

/-- The condition of the body's one branch, from the grid coordinate: the coordinate is zero. -/
abbrev cond0 (i : grid7.Coords) : Prop :=
  (Scalar.cmpi .ne (Scalar.extui (Scalar.cmpi .eq (BitVec.ofNat 32 (i 0).val) 0#32)) 0#32) = 1#1

/-- It holds at the first point only (98 points: decided). -/
theorem hcond0 : ∀ t : Fin cfg7.N, cond0 (grid7.coords t) ↔ t.val = 0 :=
  (by decide +kernel : ∀ t : Fin grid7.N, cond0 (grid7.coords t) ↔ t.val = 0)

/-! ## The body's two runs -/

theorem hz : (![0, 0] : Fin 2 → Nat) = fun _ => 0 := funext fun a => by fin_cases a <;> rfl

/-- A buffer whose LAST store went through the whole-shape rectangle (zero offsets, the shape's own sizes) reads
    that store's payload, whatever was stored before and whatever the buffer held. -/
theorem read_writes_cons_whole {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

set_option maxHeartbeats 1000000 in
/-- WHERE THE RESET RUNS. On whole staging memrefs, the inputs' at contents `x0` (ids) and `x1` (features), the
    outputs' at anything, the body runs to the continuation holding the inputs' as they were, the sums' at the
    update of the zero block and the counts' likewise: each output's last store covers its buffer, and what the
    store's payload read back is the zero block the reset had just stored. -/
theorem kernel_reset (c : Dev nD) (E : Set ℕ) (i : grid7.Coords)
    (arg1 : Memref sig .tc .vmem S1x1024 .i32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x1 .f32) (harg4 : arg4.IsWhole)
    (hc : cond0 i) (x0 : Vec F S1x1024 .i32) (x1 : Vec F S1024x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k7_pay4 x0 x1 k7_pay1)
            ∗ owns (c : Thread nD τ) arg4 fullShare (k7_pay5 x0 k7_pay2)) -∗ K ⟨⟩))
      ⊢ wp frame (wpE (defs₀ (F := F)) Variants.none c none) E
          (cc7__pool_kernel i arg1 harg1 arg2 harg2 arg3 harg3 arg4 harg4) K := by
  simp only [cc7__pool_kernel_eq_skeleton]; unfold cc7__pool_kernel_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_cons_whole (S := S128x128) _ _ hz, View.readCov_unit_zero (S := S128x128) _ hz]
    simp only [View.readAt_eq_ld, harg1.read_unread, harg2.read_unread, View.ld_unit_zero (S := S1x1024) hz,
      View.ld_unit_zero (S := S1024x128) hz]
  · iexists _; isplitr
    swap; · iexact H3
    ipureintro
    sl_unfold_words
    rw [read_writes_cons_whole (S := S128x1) _ _ hz, View.readCov_unit_zero (S := S128x1) _ hz]
    simp only [View.readAt_eq_ld, harg1.read_unread, View.ld_unit_zero (S := S1x1024) hz]

set_option maxHeartbeats 1000000 in
/-- WHERE IT DOES NOT. The same memrefs, the outputs' now at the running contents `xo2` (sums) and `xo3` (counts):
    the body leaves the sums' at their update and the counts' at theirs; the payloads' read-backs are the
    running contents themselves. -/
theorem kernel_acc (c : Dev nD) (E : Set ℕ) (i : grid7.Coords)
    (arg1 : Memref sig .tc .vmem S1x1024 .i32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x1 .f32) (harg4 : arg4.IsWhole)
    (hc : ¬cond0 i) (x0 : Vec F S1x1024 .i32) (x1 : Vec F S1024x128 .f32)
    (xo2 : Vec F S128x128 .f32) (xo3 : Vec F S128x1 .f32) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k7_pay4 x0 x1 xo2)
            ∗ owns (c : Thread nD τ) arg4 fullShare (k7_pay5 x0 xo3)) -∗ K ⟨⟩))
      ⊢ wp frame (wpE (defs₀ (F := F)) Variants.none c none) E
          (cc7__pool_kernel i arg1 harg1 arg2 harg2 arg3 harg3 arg4 harg4) K := by
  simp only [cc7__pool_kernel_eq_skeleton]; unfold cc7__pool_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_cons_whole (S := S128x128) _ _ hz]
    simp only [View.readAt_eq_ld, harg1.read_unread, harg2.read_unread, harg3.read_unread,
      View.ld_unit_zero (S := S1x1024) hz, View.ld_unit_zero (S := S1024x128) hz, View.ld_unit_zero (S := S128x128) hz]
  · iexists _; isplitr
    swap; · iexact H3
    ipureintro
    sl_unfold_words
    rw [read_writes_cons_whole (S := S128x1) _ _ hz]
    simp only [View.readAt_eq_ld, harg1.read_unread, harg4.read_unread,
      View.ld_unit_zero (S := S1x1024) hz, View.ld_unit_zero (S := S128x1) hz]

/-! ## What the body finds in each staging buffer -/

/-- An input's current staging buffer holds its block at every point, fetched there or not: the body leaves the
    block in place, and an unfetched block's index has not moved. -/
theorem before_0 (c : Dev nD) (t : Fin cfg7.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg7.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- After the first point the sums' buffer holds what the body left at the point before: the buffer is written
    back only after the last point, the window is never idle and its block is not cut. -/
theorem before_2 (c : Dev nD) (t : Fin cfg7.N) (h0 : t.val ≠ 0) (d) :
    (dat V c).before 2 t d = sumsAt V c (t.val - 1) (Nat.lt_of_le_of_lt (Nat.sub_le _ _) t.isLt) := by
  have hN : t.val < 98 := lt_of_lt_of_eq t.isLt (show cfg7.N = 98 from N_7)
  rw [Dat.before_out_kept _ 2 rfl t h0
    (Bool.eq_false_iff.mpr fun h => by have := (flush7_2 _).mp h; dsimp only at this; omega)
    (fun _ => rfl) (fun _ _ => rfl)]
  dsimp only [dat]

/-- The counts' buffer likewise. -/
theorem before_3 (c : Dev nD) (t : Fin cfg7.N) (h0 : t.val ≠ 0) (d) :
    (dat V c).before 3 t d = countsAt V c (t.val - 1) (Nat.lt_of_le_of_lt (Nat.sub_le _ _) t.isLt) := by
  have hN : t.val < 98 := lt_of_lt_of_eq t.isLt (show cfg7.N = 98 from N_7)
  rw [Dat.before_out_kept _ 3 rfl t h0
    (Bool.eq_false_iff.mpr fun h => by have := (flush7_3 _).mp h; dsimp only at this; omega)
    (fun _ => rfl) (fun _ _ => rfl)]
  dsimp only [dat]

/-! ## The body obligation, at a generic point -/

/-- What the body is called with at point `t`: the invariant, the core owing nothing, and each window's current
    staging buffer at what it then holds, -/
def bodyPre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d)))

/-- and what it returns: the same, each buffer at what the proof data says the body leaves. -/
def bodyPost (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t))

set_option maxHeartbeats 800000 in
/-- The body at any point. The inputs' buffers hold their blocks. At the first point the branch is taken and the
    outputs' buffers may hold anything: the run with the reset applies. At a later point it is not, and the
    outputs' buffers hold what the point before left: the other run applies at those contents. The invariant and
    the core's debts pass through untouched. -/
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1]
  rw [show (dat V c).Φ t.succ = (dat V c).Φ t.castSucc from rfl,
    show (dat V c).owesAt () t.succ = (dat V c).owesAt () t.castSucc from rfl,
    after_0, after_1, after_2, after_3]
  by_cases h0 : t.val = 0
  · rw [sumsAt_reset V c t h0, countsAt_reset V c t h0]
    iintro ⟨HΦ, Ho, ⟨%d0, H0⟩, ⟨%d1, H1⟩, ⟨%d2, H2⟩, ⟨%d3, H3⟩⟩
    iapply (kernel_reset c Set.univ (grid7.coords t) _ _ _ _ _ _ _ _ ((hcond0 t).mpr h0) (iblk V c 0 t) (iblk V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [sumsAt_acc V c t h0, countsAt_acc V c t h0]
    simp only [before_2 V c t h0, before_3 V c t h0]
    iintro ⟨HΦ, Ho, ⟨%d0, H0⟩, ⟨%d1, H1⟩, ⟨%d2, H2⟩, ⟨%d3, H3⟩⟩
    iapply (kernel_acc c Set.univ (grid7.coords t) _ _ _ _ _ _ _ _ (fun h => h0 ((hcond0 t).mp h)) (iblk V c 0 t) (iblk V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W7, bigSep_W7]
  exact sound_body V c t

/-! ## The result arrays after the run -/

/-- The last point, the only one after which the outputs are written back. -/
def tLast : Fin cfg7.N := ⟨97, by rw [show cfg7.N = 98 from N_7]; decide⟩

/-- The sums after the run, as contents of the result array: what the last point left in the resident buffer
    (the window's one block is the whole array). -/
abbrev sumsFinal (c : Dev nD) : Buf (Elt F) ((c : Thread nD τ).loc main_v46_0) :=
  sumsAt V c 97 (by rw [show cfg7.N = 98 from N_7]; decide)

/-- The counts after the run, likewise. -/
abbrev countsFinal (c : Dev nD) : Buf (Elt F) ((c : Thread nD τ).loc main_v46_1) :=
  countsAt V c 97 (by rw [show cfg7.N = 98 from N_7]; decide)

/-- The one write-back of the sums, after the last point, writes them: block (0, 0) of the 128x128 array read
    through zero offsets is the array. -/
theorem flushed_2 (c : Dev nD) (t : Fin cfg7.N) (hf : (cfg7.win 2).flush t = true) :
    (dat V c).flushed 2 t = ((cfg7.win 2).blk t).view.read (Elt F) (sumsFinal V c) := by
  have hN : cfg7.N = 98 := N_7
  have h97 : t.val = 97 := by have := (flush7_2 t).mp hf; have := t.isLt; omega
  obtain rfl : t = tLast := Fin.ext h97
  show (cfg7.win 2).cut (grid7.coords tLast) ((dat V c).after 2 tLast) = _
  rw [after_2]
  have hz' : (fun a => win7_2.index tLast a * main_v46_0.ty.shape.size a) = fun _ => 0 :=
    funext fun a => by fin_cases a <;> decide
  exact (Memref.read_access_unit_zero (Elt F) main_v46_0 hz' (fun a => by rw [congrFun hz' a]; simp) (sumsFinal V c)).symm

theorem flushed_3 (c : Dev nD) (t : Fin cfg7.N) (hf : (cfg7.win 3).flush t = true) :
    (dat V c).flushed 3 t = ((cfg7.win 3).blk t).view.read (Elt F) (countsFinal V c) := by
  have hN : cfg7.N = 98 := N_7
  have h97 : t.val = 97 := by have := (flush7_3 t).mp hf; have := t.isLt; omega
  obtain rfl : t = tLast := Fin.ext h97
  show (cfg7.win 3).cut (grid7.coords tLast) ((dat V c).after 3 tLast) = _
  rw [after_3]
  have hz' : (fun a => win7_3.index tLast a * main_v46_1.ty.shape.size a) = fun _ => 0 :=
    funext fun a => by fin_cases a <;> decide
  exact (Memref.read_access_unit_zero (Elt F) main_v46_1 hz' (fun a => by rw [congrFun hz' a]; simp) (countsFinal V c)).symm

/-- So the sums array ends holding what the last point left: that point's block covers it. -/
theorem final_2 (c : Dev nD) : (dat V c).arrAt 2 cfg7.N = sumsFinal V c :=
  (dat V c).arrAt_eq_of_cover 2 (sumsFinal V c) (flushed_2 V c) fun i =>
    ⟨tLast, (flush7_2 tLast).mpr rfl, by
      show i ∈ ((View.whole main_v46_0).slice (win7_2.rect tLast)).set
      rw [View.set_slice_whole, Rect.mem_set_unit]
      intro a
      have h0 : (i 0 : Nat) < 128 := (i 0).isLt
      have h1 : (i 1 : Nat) < 128 := (i 1).isLt
      match a with
      | ⟨0, _⟩ =>
        show win7_2.index tLast 0 * win7_2.size 0 ≤ (i 0 : Nat)
          ∧ (i 0 : Nat) < win7_2.index tLast 0 * win7_2.size 0 + win7_2.xsize (grid7.coords tLast) 0
        rw [show win7_2.index tLast 0 * win7_2.size 0 = 0 from by decide +kernel,
          show win7_2.xsize (grid7.coords tLast) 0 = 128 from by decide +kernel]; omega
      | ⟨1, _⟩ =>
        show win7_2.index tLast 1 * win7_2.size 1 ≤ (i 1 : Nat)
          ∧ (i 1 : Nat) < win7_2.index tLast 1 * win7_2.size 1 + win7_2.xsize (grid7.coords tLast) 1
        rw [show win7_2.index tLast 1 * win7_2.size 1 = 0 from by decide +kernel,
          show win7_2.xsize (grid7.coords tLast) 1 = 128 from by decide +kernel]; omega⟩

/-- And the counts array. -/
theorem final_3 (c : Dev nD) : (dat V c).arrAt 3 cfg7.N = countsFinal V c :=
  (dat V c).arrAt_eq_of_cover 3 (countsFinal V c) (flushed_3 V c) fun i =>
    ⟨tLast, (flush7_3 tLast).mpr rfl, by
      show i ∈ ((View.whole main_v46_1).slice (win7_3.rect tLast)).set
      rw [View.set_slice_whole, Rect.mem_set_unit]
      intro a
      have h0 : (i 0 : Nat) < 128 := (i 0).isLt
      have h1 : (i 1 : Nat) < 1 := (i 1).isLt
      match a with
      | ⟨0, _⟩ =>
        show win7_3.index tLast 0 * win7_3.size 0 ≤ (i 0 : Nat)
          ∧ (i 0 : Nat) < win7_3.index tLast 0 * win7_3.size 0 + win7_3.xsize (grid7.coords tLast) 0
        rw [show win7_3.index tLast 0 * win7_3.size 0 = 0 from by decide +kernel,
          show win7_3.xsize (grid7.coords tLast) 0 = 128 from by decide +kernel]; omega
      | ⟨1, _⟩ =>
        show win7_3.index tLast 1 * win7_3.size 1 ≤ (i 1 : Nat)
          ∧ (i 1 : Nat) < win7_3.index tLast 1 * win7_3.size 1 + win7_3.xsize (grid7.coords tLast) 1
        rw [show win7_3.index tLast 1 * win7_3.size 1 = 0 from by decide +kernel,
          show win7_3.xsize (grid7.coords tLast) 1 = 1 from by decide +kernel]; omega⟩

end Cert.Kernel.Reg7

end
-- ==== Proof.K.Run.lean ====
/-
  The launch of the idealized kernel program: its eight kernel regions as segments of @main.

  Between two items of @main a core holds every unscoped buffer at a known valuation.  A region takes the
  buffers its windows stage out of that valuation, runs its pipeline, and puts them back at what the
  write-backs leave; every other buffer passes by untouched.  One constructor builds a region's record from
  its proof data, its body obligation and the two valuations; the eight regions are its instances.
-/
import proofs.«423195_j8272107012813_1_alg».proof.Proof.Gen.Kernel.Regions
import proofs.«423195_j8272107012813_1_alg».proof.Proof.K.Reg0
import proofs.«423195_j8272107012813_1_alg».proof.Proof.K.Reg1
import proofs.«423195_j8272107012813_1_alg».proof.Proof.K.Reg2
import proofs.«423195_j8272107012813_1_alg».proof.Proof.K.Reg3
import proofs.«423195_j8272107012813_1_alg».proof.Proof.K.Reg4
import proofs.«423195_j8272107012813_1_alg».proof.Proof.K.Reg5
import proofs.«423195_j8272107012813_1_alg».proof.Proof.K.Reg6
import proofs.«423195_j8272107012813_1_alg».proof.Proof.K.Reg7
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)

/-- A valuation read at the TensorCore's references. -/
abbrev atRefs (W : Dev nD → Valuation τ sig (Elt F)) : (c : Dev nD) → (b : Ref sig .tc) → Buf (Elt F) ((c : Thread nD τ).loc b) :=
  fun c b => W c b

set_option backward.isDefEq.respectTransparency.types false in
/-- A region's record from its proof data: entered with every unscoped buffer at `Vi`, left with them at `Vo`. -/
def mkReg (p : Fin 8) (pd : (p : Fin 8) → (c : Dev nD) → Dat τ (Elt F) Unit ℕ (UR sig nD τ) ℕ (cfgs p) c)
    (lf : Pipeline.LaunchFacts (nD := nD) (τ := τ) cfgs p)
    (Vi Vo : Dev nD → Valuation τ sig (Elt F))
    (hq : ∀ c w, (pd p c).q w = fullShare)
    (howed : ∀ c t, (pd p c).owed t = 0)
    (hrec : ∀ c t, (pd p c).recorded t = Set.univ)
    (hA : ∀ c w, (pd p c).A w = Vi c (Pipeline.arrRef (cfgs p).spec w))
    (hbody : ∀ c, BodyObligation (pd p c) (defs₀ (F := F)) 𝒱₀ () Set.univ)
    (hin : ∀ c, (Pipeline.ΦA (cfgs p).spec c : sProp 𝕄) ⊢ (pd p c).Φ 0)
    (hout : ∀ c, (pd p c).Φ (Fin.last (cfgs p).N) ⊢ (Pipeline.ΦA (cfgs p).spec c : sProp 𝕄))
    (hF : ∀ c w, (pd p c).arrAt w (cfgs p).N = Vo c (Pipeline.arrRef (cfgs p).spec w))
    (hrest : ∀ c (b : Ref sig .tc), b ∉ Finset.univ.image (Pipeline.arrRef (cfgs p).spec) → Vo c b = Vi c b) :
    RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm pd lf.win lf.arr_whole c
      ((pd p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c 0]; exact Set.mem_univ x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Vi c b) (fun b => Vo c b) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-! ## The buffers' contents between items -/

variable (m : (ℓ : Loc nD τ sig) → Buf (Elt F) ℓ)

/-- After region 0: its arrays at what its write-backs leave, read at the result it may change. -/
def o10 (c : Dev nD) : Valuation τ sig (Elt F) :=
  Pipeline.withArrays spec0 c (V9 m c) fun w => (Reg0.dat (atRefs (V9 m)) c).arrAt w cfg0.N
abbrev Y10 (c : Dev nD) : Valuation τ sig (Elt F) := Function.update (V9 m c) main_v15 (o10 m c main_v15)
def o11 (c : Dev nD) : Valuation τ sig (Elt F) :=
  Pipeline.withArrays spec1 c (Y10 m c) fun w => (Reg1.dat (atRefs (Y10 m)) c).arrAt w cfg1.N
abbrev Y11 (c : Dev nD) : Valuation τ sig (Elt F) := Function.update (Y10 m c) main_v16 (o11 m c main_v16)
abbrev Y12 (c : Dev nD) : Valuation τ sig (Elt F) := StableHlo.after hostOps2 (Y11 m c)
def o13 (c : Dev nD) : Valuation τ sig (Elt F) :=
  Pipeline.withArrays spec2 c (Y12 m c) fun w => (Reg2.dat (atRefs (Y12 m)) c).arrAt w cfg2.N
abbrev Y13 (c : Dev nD) : Valuation τ sig (Elt F) := Function.update (Y12 m c) main_v25 (o13 m c main_v25)
def o14 (c : Dev nD) : Valuation τ sig (Elt F) :=
  Pipeline.withArrays spec3 c (Y13 m c) fun w => (Reg3.dat (atRefs (Y13 m)) c).arrAt w cfg3.N
abbrev Y14 (c : Dev nD) : Valuation τ sig (Elt F) := Function.update (Y13 m c) main_v26 (o14 m c main_v26)
abbrev Y15 (c : Dev nD) : Valuation τ sig (Elt F) := StableHlo.after hostOps4 (Y14 m c)
def o16 (c : Dev nD) : Valuation τ sig (Elt F) :=
  Pipeline.withArrays spec4 c (Y15 m c) fun w => (Reg4.dat (atRefs (Y15 m)) c).arrAt w cfg4.N
abbrev Y16 (c : Dev nD) : Valuation τ sig (Elt F) := Function.update (Y15 m c) main_v35 (o16 m c main_v35)
def o17 (c : Dev nD) : Valuation τ sig (Elt F) :=
  Pipeline.withArrays spec5 c (Y16 m c) fun w => (Reg5.dat (atRefs (Y16 m)) c).arrAt w cfg5.N
abbrev Y17 (c : Dev nD) : Valuation τ sig (Elt F) := Function.update (Y16 m c) main_v36 (o17 m c main_v36)
abbrev Y18 (c : Dev nD) : Valuation τ sig (Elt F) := StableHlo.after hostOps6 (Y17 m c)
def o19 (c : Dev nD) : Valuation τ sig (Elt F) :=
  Pipeline.withArrays spec6 c (Y18 m c) fun w => (Reg6.dat (atRefs (Y18 m)) c).arrAt w cfg6.N
abbrev Y19 (c : Dev nD) : Valuation τ sig (Elt F) := Function.update (Y18 m c) main_v45 (o19 m c main_v45)
def o20 (c : Dev nD) : Valuation τ sig (Elt F) :=
  Pipeline.withArrays spec7 c (Y19 m c) fun w => (Reg7.dat (atRefs (Y19 m)) c).arrAt w cfg7.N
abbrev Y20 (c : Dev nD) : Valuation τ sig (Elt F) :=
  Function.update (Function.update (Y19 m c) main_v46_0 (o20 m c main_v46_0)) main_v46_1 (o20 m c main_v46_1)

/-- What the regions leave, item by item. -/
def outs : Outs (F := F) := fun J r c =>
  match J with
  | 10 => o10 m c r
  | 11 => o11 m c r
  | 13 => o13 m c r
  | 14 => o14 m c r
  | 16 => o16 m c r
  | 17 => o17 m c r
  | 19 => o19 m c r
  | _ => o20 m c r

theorem V10_eq (c : Dev nD) : V10 m (outs m) c = Y10 m c := rfl
theorem V11_eq (c : Dev nD) : V11 m (outs m) c = Y11 m c := rfl
theorem V12_eq (c : Dev nD) : V12 m (outs m) c = Y12 m c := rfl
theorem V13_eq (c : Dev nD) : V13 m (outs m) c = Y13 m c := rfl
theorem V14_eq (c : Dev nD) : V14 m (outs m) c = Y14 m c := rfl
theorem V15_eq (c : Dev nD) : V15 m (outs m) c = Y15 m c := rfl
theorem V16_eq (c : Dev nD) : V16 m (outs m) c = Y16 m c := rfl
theorem V17_eq (c : Dev nD) : V17 m (outs m) c = Y17 m c := rfl
theorem V18_eq (c : Dev nD) : V18 m (outs m) c = Y18 m c := rfl
theorem V19_eq (c : Dev nD) : V19 m (outs m) c = Y19 m c := rfl
theorem V20_eq (c : Dev nD) : V20 m (outs m) c = Y20 m c := rfl

/-- Every pipeline's proof data, each at its region's entry contents. -/
def pdats : (p : Fin 8) → (c : Dev nD) → Dat τ (Elt F) Unit ℕ (UR sig nD τ) ℕ (cfgs p) c
  | ⟨0, _⟩ => fun c => Reg0.dat (atRefs (V9 m)) c
  | ⟨1, _⟩ => fun c => Reg1.dat (atRefs (Y10 m)) c
  | ⟨2, _⟩ => fun c => Reg2.dat (atRefs (Y12 m)) c
  | ⟨3, _⟩ => fun c => Reg3.dat (atRefs (Y13 m)) c
  | ⟨4, _⟩ => fun c => Reg4.dat (atRefs (Y15 m)) c
  | ⟨5, _⟩ => fun c => Reg5.dat (atRefs (Y16 m)) c
  | ⟨6, _⟩ => fun c => Reg6.dat (atRefs (Y18 m)) c
  | ⟨7, _⟩ => fun c => Reg7.dat (atRefs (Y19 m)) c

/-! ## The regions as segments -/

set_option backward.isDefEq.respectTransparency.types false in
/-- Region 0: entered at `V9`, left at `Y10`. -/
def reg0 : RegionSeg (pcfgs (F := F)) adm (pdats m) () defs₀ 𝒱₀ L lv 0 :=
  mkReg 0 (pdats m) launch0 (V9 m) (Y10 m) (fun _ _ => rfl) (fun _ _ => rfl) (fun _ _ => rfl)
    (fun c w => Reg0.A_eq _ c w) (fun c => Reg0.body_obligation _ c) (fun c => Reg0.hin _ c) (fun c => Reg0.hout _ c)
    (fun c w => by
      match w with
    | ⟨0, _⟩ => exact ((pdats m 0 c).arrAt_in ⟨0, by decide⟩ rfl _).trans ((Reg0.A_eq _ c ⟨0, by decide⟩).trans (Function.update_of_ne (StableHlo.devRef_ne_of_ne (by decide)) _ _).symm)
    | ⟨1, _⟩ => exact ((pdats m 0 c).arrAt_in ⟨1, by decide⟩ rfl _).trans ((Reg0.A_eq _ c ⟨1, by decide⟩).trans (Function.update_of_ne (StableHlo.devRef_ne_of_ne (by decide)) _ _).symm)
    | ⟨2, _⟩ => exact ((pdats m 0 c).arrAt_in ⟨2, by decide⟩ rfl _).trans ((Reg0.A_eq _ c ⟨2, by decide⟩).trans (Function.update_of_ne (StableHlo.devRef_ne_of_ne (by decide)) _ _).symm)
    | ⟨3, _⟩ =>
      refine Eq.symm ?_
      refine (Function.update_self _ _ _).trans ?_
      unfold o10
      exact Pipeline.withArrays_arr spec0 launch0.win.arr_inj c _ _ ⟨3, by decide⟩)
    (fun c b hb => Function.update_of_ne (StableHlo.devRef_ne_of_ne (fun e => hb (Finset.mem_image.mpr ⟨⟨3, by decide⟩, Finset.mem_univ _, e.symm⟩))) _ _)

set_option backward.isDefEq.respectTransparency.types false in
/-- Region 1: entered at `Y10`, left at `Y11`. -/
def reg1 : RegionSeg (pcfgs (F := F)) adm (pdats m) () defs₀ 𝒱₀ L lv 1 :=
  mkReg 1 (pdats m) launch1 (Y10 m) (Y11 m) (fun _ _ => rfl) (fun _ _ => rfl) (fun _ _ => rfl)
    (fun c w => Reg1.A_eq _ c w) (fun c => Reg1.body_obligation _ c) (fun c => Reg1.hin _ c) (fun c => Reg1.hout _ c)
    (fun c w => by
      match w with
    | ⟨0, _⟩ => exact ((pdats m 1 c).arrAt_in ⟨0, by decide⟩ rfl _).trans ((Reg1.A_eq _ c ⟨0, by decide⟩).trans (Function.update_of_ne (StableHlo.devRef_ne_of_ne (by decide)) _ _).symm)
    | ⟨1, _⟩ => exact ((pdats m 1 c).arrAt_in ⟨1, by decide⟩ rfl _).trans ((Reg1.A_eq _ c ⟨1, by decide⟩).trans (Function.update_of_ne (StableHlo.devRef_ne_of_ne (by decide)) _ _).symm)
    | ⟨2, _⟩ =>
      refine Eq.symm ?_
      refine (Function.update_self _ _ _).trans ?_
      unfold o11
      exact Pipeline.withArrays_arr spec1 launch1.win.arr_inj c _ _ ⟨2, by decide⟩)
    (fun c b hb => Function.update_of_ne (StableHlo.devRef_ne_of_ne (fun e => hb (Finset.mem_image.mpr ⟨⟨2, by decide⟩, Finset.mem_univ _, e.symm⟩))) _ _)

set_option backward.isDefEq.respectTransparency.types false in
/-- Region 2: entered at `Y12`, left at `Y13`. -/
def reg2 : RegionSeg (pcfgs (F := F)) adm (pdats m) () defs₀ 𝒱₀ L lv 2 :=
  mkReg 2 (pdats m) launch2 (Y12 m) (Y13 m) (fun _ _ => rfl) (fun _ _ => rfl) (fun _ _ => rfl)
    (fun c w => Reg2.A_eq _ c w) (fun c => Reg2.body_obligation _ c) (fun c => Reg2.hin _ c) (fun c => Reg2.hout _ c)
    (fun c w => by
      match w with
    | ⟨0, _⟩ => exact ((pdats m 2 c).arrAt_in ⟨0, by decide⟩ rfl _).trans ((Reg2.A_eq _ c ⟨0, by decide⟩).trans (Function.update_of_ne (StableHlo.devRef_ne_of_ne (by decide)) _ _).symm)
    | ⟨1, _⟩ => exact ((pdats m 2 c).arrAt_in ⟨1, by decide⟩ rfl _).trans ((Reg2.A_eq _ c ⟨1, by decide⟩).trans (Function.update_of_ne (StableHlo.devRef_ne_of_ne (by decide)) _ _).symm)
    | ⟨2, _⟩ => exact ((pdats m 2 c).arrAt_in ⟨2, by decide⟩ rfl _).trans ((Reg2.A_eq _ c ⟨2, by decide⟩).trans (Function.update_of_ne (StableHlo.devRef_ne_of_ne (by decide)) _ _).symm)
    | ⟨3, _⟩ => exact ((pdats m 2 c).arrAt_in ⟨3, by decide⟩ rfl _).trans ((Reg2.A_eq _ c ⟨3, by decide⟩).trans (Function.update_of_ne (StableHlo.devRef_ne_of_ne (by decide)) _ _).symm)
    | ⟨4, _⟩ => exact ((pdats m 2 c).arrAt_in ⟨4, by decide⟩ rfl _).trans ((Reg2.A_eq _ c ⟨4, by decide⟩).trans (Function.update_of_ne (StableHlo.devRef_ne_of_ne (by decide)) _ _).symm)
    | ⟨5, _⟩ => exact ((pdats m 2 c).arrAt_in ⟨5, by decide⟩ rfl _).trans ((Reg2.A_eq _ c ⟨5, by decide⟩).trans (Function.update_of_ne (StableHlo.devRef_ne_of_ne (by decide)) _ _).symm)
    | ⟨6, _⟩ => exact ((pdats m 2 c).arrAt_in ⟨6, by decide⟩ rfl _).trans ((Reg2.A_eq _ c ⟨6, by decide⟩).trans (Function.update_of_ne (StableHlo.devRef_ne_of_ne (by decide)) _ _).symm)
    | ⟨7, _⟩ =>
      refine Eq.symm ?_
      refine (Function.update_self _ _ _).trans ?_
      unfold o13
      exact Pipeline.withArrays_arr spec2 launch2.win.arr_inj c _ _ ⟨7, by decide⟩)
    (fun c b hb => Function.update_of_ne (StableHlo.devRef_ne_of_ne (fun e => hb (Finset.mem_image.mpr ⟨⟨7, by decide⟩, Finset.mem_univ _, e.symm⟩))) _ _)

set_option backward.isDefEq.respectTransparency.types false in
/-- Region 3: entered at `Y13`, left at `Y14`. -/
def reg3 : RegionSeg (pcfgs (F := F)) adm (pdats m) () defs₀ 𝒱₀ L lv 3 :=
  mkReg 3 (pdats m) launch3 (Y13 m) (Y14 m) (fun _ _ => rfl) (fun _ _ => rfl) (fun _ _ => rfl)
    (fun c w => Reg3.A_eq _ c w) (fun c => Reg3.body_obligation _ c) (fun c => Reg3.hin _ c) (fun c => Reg3.hout _ c)
    (fun c w => by
      match w with
    | ⟨0, _⟩ => exact ((pdats m 3 c).arrAt_in ⟨0, by decide⟩ rfl _).trans ((Reg3.A_eq _ c ⟨0, by decide⟩).trans (Function.update_of_ne (StableHlo.devRef_ne_of_ne (by decide)) _ _).symm)
    | ⟨1, _⟩ => exact ((pdats m 3 c).arrAt_in ⟨1, by decide⟩ rfl _).trans ((Reg3.A_eq _ c ⟨1, by decide⟩).trans (Function.update_of_ne (StableHlo.devRef_ne_of_ne (by decide)) _ _).symm)
    | ⟨2, _⟩ =>
      refine Eq.symm ?_
      refine (Function.update_self _ _ _).trans ?_
      unfold o14
      exact Pipeline.withArrays_arr spec3 launch3.win.arr_inj c _ _ ⟨2, by decide⟩)
    (fun c b hb => Function.update_of_ne (StableHlo.devRef_ne_of_ne (fun e => hb (Finset.mem_image.mpr ⟨⟨2, by decide⟩, Finset.mem_univ _, e.symm⟩))) _ _)

set_option backward.isDefEq.respectTransparency.types false in
/-- Region 4: entered at `Y15`, left at `Y16`. -/
def reg4 : RegionSeg (pcfgs (F := F)) adm (pdats m) () defs₀ 𝒱₀ L lv 4 :=
  mkReg 4 (pdats m) launch4 (Y15 m) (Y16 m) (fun _ _ => rfl) (fun _ _ => rfl) (fun _ _ => rfl)
    (fun c w => Reg4.A_eq _ c w) (fun c => Reg4.body_obligation _ c) (fun c => Reg4.hin _ c) (fun c => Reg4.hout _ c)
    (fun c w => by
      match w with
    | ⟨0, _⟩ => exact ((pdats m 4 c).arrAt_in ⟨0, by decide⟩ rfl _).trans ((Reg4.A_eq _ c ⟨0, by decide⟩).trans (Function.update_of_ne (StableHlo.devRef_ne_of_ne (by decide)) _ _).symm)
    | ⟨1, _⟩ => exact ((pdats m 4 c).arrAt_in ⟨1, by decide⟩ rfl _).trans ((Reg4.A_eq _ c ⟨1, by decide⟩).trans (Function.update_of_ne (StableHlo.devRef_ne_of_ne (by decide)) _ _).symm)
    | ⟨2, _⟩ => exact ((pdats m 4 c).arrAt_in ⟨2, by decide⟩ rfl _).trans ((Reg4.A_eq _ c ⟨2, by decide⟩).trans (Function.update_of_ne (StableHlo.devRef_ne_of_ne (by decide)) _ _).symm)
    | ⟨3, _⟩ => exact ((pdats m 4 c).arrAt_in ⟨3, by decide⟩ rfl _).trans ((Reg4.A_eq _ c ⟨3, by decide⟩).trans (Function.update_of_ne (StableHlo.devRef_ne_of_ne (by decide)) _ _).symm)
    | ⟨4, _⟩ => exact ((pdats m 4 c).arrAt_in ⟨4, by decide⟩ rfl _).trans ((Reg4.A_eq _ c ⟨4, by decide⟩).trans (Function.update_of_ne (StableHlo.devRef_ne_of_ne (by decide)) _ _).symm)
    | ⟨5, _⟩ => exact ((pdats m 4 c).arrAt_in ⟨5, by decide⟩ rfl _).trans ((Reg4.A_eq _ c ⟨5, by decide⟩).trans (Function.update_of_ne (StableHlo.devRef_ne_of_ne (by decide)) _ _).symm)
    | ⟨6, _⟩ => exact ((pdats m 4 c).arrAt_in ⟨6, by decide⟩ rfl _).trans ((Reg4.A_eq _ c ⟨6, by decide⟩).trans (Function.update_of_ne (StableHlo.devRef_ne_of_ne (by decide)) _ _).symm)
    | ⟨7, _⟩ =>
      refine Eq.symm ?_
      refine (Function.update_self _ _ _).trans ?_
      unfold o16
      exact Pipeline.withArrays_arr spec4 launch4.win.arr_inj c _ _ ⟨7, by decide⟩)
    (fun c b hb => Function.update_of_ne (StableHlo.devRef_ne_of_ne (fun e => hb (Finset.mem_image.mpr ⟨⟨7, by decide⟩, Finset.mem_univ _, e.symm⟩))) _ _)

set_option backward.isDefEq.respectTransparency.types false in
/-- Region 5: entered at `Y16`, left at `Y17`. -/
def reg5 : RegionSeg (pcfgs (F := F)) adm (pdats m) () defs₀ 𝒱₀ L lv 5 :=
  mkReg 5 (pdats m) launch5 (Y16 m) (Y17 m) (fun _ _ => rfl) (fun _ _ => rfl) (fun _ _ => rfl)
    (fun c w => Reg5.A_eq _ c w) (fun c => Reg5.body_obligation _ c) (fun c => Reg5.hin _ c) (fun c => Reg5.hout _ c)
    (fun c w => by
      match w with
    | ⟨0, _⟩ => exact ((pdats m 5 c).arrAt_in ⟨0, by decide⟩ rfl _).trans ((Reg5.A_eq _ c ⟨0, by decide⟩).trans (Function.update_of_ne (StableHlo.devRef_ne_of_ne (by decide)) _ _).symm)
    | ⟨1, _⟩ => exact ((pdats m 5 c).arrAt_in ⟨1, by decide⟩ rfl _).trans ((Reg5.A_eq _ c ⟨1, by decide⟩).trans (Function.update_of_ne (StableHlo.devRef_ne_of_ne (by decide)) _ _).symm)
    | ⟨2, _⟩ =>
      refine Eq.symm ?_
      refine (Function.update_self _ _ _).trans ?_
      unfold o17
      exact Pipeline.withArrays_arr spec5 launch5.win.arr_inj c _ _ ⟨2, by decide⟩)
    (fun c b hb => Function.update_of_ne (StableHlo.devRef_ne_of_ne (fun e => hb (Finset.mem_image.mpr ⟨⟨2, by decide⟩, Finset.mem_univ _, e.symm⟩))) _ _)

set_option backward.isDefEq.respectTransparency.types false in
/-- Region 6: entered at `Y18`, left at `Y19`. -/
def reg6 : RegionSeg (pcfgs (F := F)) adm (pdats m) () defs₀ 𝒱₀ L lv 6 :=
  mkReg 6 (pdats m) launch6 (Y18 m) (Y19 m) (fun _ _ => rfl) (fun _ _ => rfl) (fun _ _ => rfl)
    (fun c w => Reg6.A_eq _ c w) (fun c => Reg6.body_obligation _ c) (fun c => Reg6.hin _ c) (fun c => Reg6.hout _ c)
    (fun c w => by
      match w with
    | ⟨0, _⟩ => exact ((pdats m 6 c).arrAt_in ⟨0, by decide⟩ rfl _).trans ((Reg6.A_eq _ c ⟨0, by decide⟩).trans (Function.update_of_ne (StableHlo.devRef_ne_of_ne (by decide)) _ _).symm)
    | ⟨1, _⟩ => exact ((pdats m 6 c).arrAt_in ⟨1, by decide⟩ rfl _).trans ((Reg6.A_eq _ c ⟨1, by decide⟩).trans (Function.update_of_ne (StableHlo.devRef_ne_of_ne (by decide)) _ _).symm)
    | ⟨2, _⟩ => exact ((pdats m 6 c).arrAt_in ⟨2, by decide⟩ rfl _).trans ((Reg6.A_eq _ c ⟨2, by decide⟩).trans (Function.update_of_ne (StableHlo.devRef_ne_of_ne (by decide)) _ _).symm)
    | ⟨3, _⟩ => exact ((pdats m 6 c).arrAt_in ⟨3, by decide⟩ rfl _).trans ((Reg6.A_eq _ c ⟨3, by decide⟩).trans (Function.update_of_ne (StableHlo.devRef_ne_of_ne (by decide)) _ _).symm)
    | ⟨4, _⟩ => exact ((pdats m 6 c).arrAt_in ⟨4, by decide⟩ rfl _).trans ((Reg6.A_eq _ c ⟨4, by decide⟩).trans (Function.update_of_ne (StableHlo.devRef_ne_of_ne (by decide)) _ _).symm)
    | ⟨5, _⟩ => exact ((pdats m 6 c).arrAt_in ⟨5, by decide⟩ rfl _).trans ((Reg6.A_eq _ c ⟨5, by decide⟩).trans (Function.update_of_ne (StableHlo.devRef_ne_of_ne (by decide)) _ _).symm)
    | ⟨6, _⟩ => exact ((pdats m 6 c).arrAt_in ⟨6, by decide⟩ rfl _).trans ((Reg6.A_eq _ c ⟨6, by decide⟩).trans (Function.update_of_ne (StableHlo.devRef_ne_of_ne (by decide)) _ _).symm)
    | ⟨7, _⟩ =>
      refine Eq.symm ?_
      refine (Function.update_self _ _ _).trans ?_
      unfold o19
      exact Pipeline.withArrays_arr spec6 launch6.win.arr_inj c _ _ ⟨7, by decide⟩)
    (fun c b hb => Function.update_of_ne (StableHlo.devRef_ne_of_ne (fun e => hb (Finset.mem_image.mpr ⟨⟨7, by decide⟩, Finset.mem_univ _, e.symm⟩))) _ _)

set_option backward.isDefEq.respectTransparency.types false in
/-- Region 7: entered at `Y19`, left at `Y20`. -/
def reg7 : RegionSeg (pcfgs (F := F)) adm (pdats m) () defs₀ 𝒱₀ L lv 7 :=
  mkReg 7 (pdats m) launch7 (Y19 m) (Y20 m) (fun _ _ => rfl) (fun _ _ => rfl) (fun _ _ => rfl)
    (fun c w => Reg7.A_eq _ c w) (fun c => Reg7.body_obligation _ c) (fun c => Reg7.hin _ c) (fun c => Reg7.hout _ c)
    (fun c w => by
      match w with
    | ⟨0, _⟩ => exact ((pdats m 7 c).arrAt_in ⟨0, by decide⟩ rfl _).trans ((Reg7.A_eq _ c ⟨0, by decide⟩).trans ((Function.update_of_ne (StableHlo.devRef_ne_of_ne (by decide)) _ _).trans (Function.update_of_ne (StableHlo.devRef_ne_of_ne (by decide)) _ _)).symm)
    | ⟨1, _⟩ => exact ((pdats m 7 c).arrAt_in ⟨1, by decide⟩ rfl _).trans ((Reg7.A_eq _ c ⟨1, by decide⟩).trans ((Function.update_of_ne (StableHlo.devRef_ne_of_ne (by decide)) _ _).trans (Function.update_of_ne (StableHlo.devRef_ne_of_ne (by decide)) _ _)).symm)
    | ⟨2, _⟩ =>
      refine Eq.symm ?_
      refine (Function.update_of_ne (StableHlo.devRef_ne_of_ne (by decide : (main_v46_0 : Ref sig .tc) ≠ main_v46_1)) _ _).trans ?_
      refine (Function.update_self _ _ _).trans ?_
      unfold o20
      exact Pipeline.withArrays_arr spec7 launch7.win.arr_inj c _ _ ⟨2, by decide⟩
    | ⟨3, _⟩ =>
      refine Eq.symm ?_
      refine (Function.update_self _ _ _).trans ?_
      unfold o20
      exact Pipeline.withArrays_arr spec7 launch7.win.arr_inj c _ _ ⟨3, by decide⟩)
    (fun c b hb => (Function.update_of_ne (StableHlo.devRef_ne_of_ne (fun e => hb (Finset.mem_image.mpr ⟨⟨3, by decide⟩, Finset.mem_univ _, e.symm⟩))) _ _).trans (Function.update_of_ne (StableHlo.devRef_ne_of_ne (fun e => hb (Finset.mem_image.mpr ⟨⟨2, by decide⟩, Finset.mem_univ _, e.symm⟩))) _ _))

/-! ## The launch -/

variable (ρ : Dev nD → PrngReg)

/-- The launch element is the pipelines' cells and duty tokens; nothing else is dealt. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core starts with its generator register at the launch state and owing nothing. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

/-- At the end a core still owes nothing. -/
theorem hE8 (c : Dev nD) : R (F := F) c ⊢ (iprop(∃ W, owes (c : Thread nD τ) (0 : CellTallies nD τ sig Unit) W) : sProp 𝕄) := by
  iintro ⟨-, HO⟩; iexact HO

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (m := m) (EP := emb₁) (ι := ()) (𝒱₀ := 𝒱₀) (L := L) (lv := lv) (hL := fun _ _ => rfl) (ρ := ρ) (outs := outs m) (pdats := pdats m)
    (O₀ := 0) (G := fun _ => iprop(emp)) (u₀ := initOf (Pipeline.cells cfgs cellOf_inj) (Pipeline.launchToks cfgs cellOf_inj))
    (hu₀ := hu₀) (E := fun _ c => R c) (hE0 := hE0 ρ) (hE8 := hE8)
    (R0 := reg0 m) (hpre0 := (fun c => .rfl)) (hpost0 := fun c => by rw [V10_eq m c]; exact .rfl)
    (R1 := reg1 m) (hpre1 := (fun c => by rw [V10_eq m c]; exact .rfl)) (hpost1 := fun c => by rw [V11_eq m c]; exact .rfl)
    (R2 := reg2 m) (hpre2 := (fun c => by rw [V12_eq m c]; exact .rfl)) (hpost2 := fun c => by rw [V13_eq m c]; exact .rfl)
    (R3 := reg3 m) (hpre3 := (fun c => by rw [V13_eq m c]; exact .rfl)) (hpost3 := fun c => by rw [V14_eq m c]; exact .rfl)
    (R4 := reg4 m) (hpre4 := (fun c => by rw [V15_eq m c]; exact .rfl)) (hpost4 := fun c => by rw [V16_eq m c]; exact .rfl)
    (R5 := reg5 m) (hpre5 := (fun c => by rw [V16_eq m c]; exact .rfl)) (hpost5 := fun c => by rw [V17_eq m c]; exact .rfl)
    (R6 := reg6 m) (hpre6 := (fun c => by rw [V18_eq m c]; exact .rfl)) (hpost6 := fun c => by rw [V19_eq m c]; exact .rfl)
    (R7 := reg7 m) (hpre7 := (fun c => by rw [V19_eq m c]; exact .rfl)) (hpost7 := fun c => by rw [V20_eq m c]; exact .rfl)

end Cert.Kernel.Run

end
-- ==== Proof.KI.Reg0.lean ====
/-
  Kernel region 0 (the projection): at each of the 49 grid points the body reads a 2048×128 row block of the
  node features, the resident 128×128 weight and the resident 1×128 bias, and stores relu(x·W + b) over the
  whole 2048×128 output block (it also reads the output block before storing, a value nothing uses).

  Everything is stated at a PARAMETER V: the TensorCore's buffer contents when the region is entered.  The proof
  data say: every input window's staging buffer holds, at every point, that window's block of its array as the
  region found it (the resident windows are fetched once and keep their block, the block index never moves); the
  output window's buffer after the body at point t is the one payload of the body applied to the three input
  blocks at t.  Nothing is carried from point to point, so the invariant is the class invariant (the scoped rest
  and the generator register, untouched).
-/
import proofs.«423195_j8272107012813_1_alg».proof.Proof.Gen.KernelIdeal.Launch
import proofs.«423195_j8272107012813_1_alg».proof.Proof.Gen.KernelIdeal.Skeleton
import proofs.«423195_j8272107012813_1_alg».proof.Proof.Gen.KernelIdeal.Points
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's buffer at point t: relu(x·W + b), the body's one payload, of the
    row block of the features at t, the weight and the bias. -/
def outAt (c : Dev nD) (t : Fin cfg0.N) : Vec F S2048x128 .f32 :=
  k0_pay1 (iblk V c 0 t) (iblk V c 1 t) (iblk V c 2 t)

/-! ## The body's triple -/

theorem off0 : (![0, 0] : Fin 2 → Nat) = fun _ => 0 := funext fun a => by fin_cases a <;> rfl

set_option maxHeartbeats 1000000 in
/-- The body on whole staging memrefs — the three inputs' at read contents x0, x1, x2, the output's at anything —
    runs to the continuation holding the inputs' as they were and the output's at the payload of x0, x1, x2: each
    load through the whole-shape rectangle reads the contents, the one store through it covers the buffer. -/
theorem sound_kernel (c : Dev nD) (E : Set ℕ) (i : grid0.Coords)
    (arg1 : Memref sig .tc .vmem S2048x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2048x128 .f32) (harg4 : arg4.IsWhole)
    (x0 : Vec F S2048x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero off0 inb_S2048x128_S2048x128_0_0 y⟩),
    View.canon_unit_zero off0, View.readAt_eq_ld, View.readAt_eq_ld, View.readAt_eq_ld,
    View.ld_unit_zero off0, View.ld_unit_zero off0, View.ld_unit_zero off0]

/-! ## The proof data -/

/-- The proof data of the region on core c: the arrays as the region finds them; after the body at point t each
    input's buffer at its block and the output's at outAt; the class invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
/-- The output window's buffer after the body at point t is relu(x·W + b) of the blocks at t. -/
theorem after_3 (c : Dev nD) (t : Fin cfg0.N) : (dat V c).after 3 t = outAt V c t := by dsimp only [dat]

/-- The invariant is the class invariant at every point. -/
theorem Φ_eq (c : Dev nD) (t : Fin (cfg0.N + 1)) : (dat (F := F) V c).Φ t = Pipeline.ΦA spec0 c := rfl

/-- Each input's current staging buffer holds its block at every point, fetched there or not: the features' window
    is fetched at every point; the weight's and the bias's at the first point only, their block index never moving
    (Dat.before_in_eq_fetched). -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body obligation, at a generic point -/

/-- What the body is called with at point t (the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the triple applies; the invariant and the
    core's owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-! ## Into the invariant and out of it -/

/-- The class invariant is the proof data's before the first point, -/
theorem hin (c : Dev nD) : (Pipeline.ΦA spec0 c : sProp 𝕄) ⊢ (dat V c).Φ 0 := by
  rw [Φ_eq]

/-- and after the last. -/
theorem hout (c : Dev nD) : (dat V c).Φ (Fin.last cfg0.N) ⊢ (Pipeline.ΦA spec0 c : sProp 𝕄) := by
  rw [Φ_eq]

/-! ## The values the region leaves -/

/-- What the write-back at point t writes into the output array: relu(x·W + b) of the blocks at t (the window is
    uncut, so all of what the body left). -/
theorem flushed_3 (c : Dev nD) (t : Fin cfg0.N) : (dat V c).flushed 3 t = outAt V c t := by
  unfold Dat.flushed; rw [after_3]; rfl

/-- The output's block is written back at every point, -/
theorem flush_3 (t : Fin cfg0.N) : (cfg0.win 3).flush t = true := flush0_3 t

/-- and an input's array is never written: it ends as entered. -/
theorem arrAt_0 (c : Dev nD) (n : Nat) : (dat V c).arrAt 0 n = V c (Pipeline.arrRef spec0 0) :=
  ((dat V c).arrAt_in 0 rfl n).trans (A_eq V c 0)
theorem arrAt_1 (c : Dev nD) (n : Nat) : (dat V c).arrAt 1 n = V c (Pipeline.arrRef spec0 1) :=
  ((dat V c).arrAt_in 1 rfl n).trans (A_eq V c 1)
theorem arrAt_2 (c : Dev nD) (n : Nat) : (dat V c).arrAt 2 n = V c (Pipeline.arrRef spec0 2) :=
  ((dat V c).arrAt_in 2 rfl n).trans (A_eq V c 2)

/-- The weight's and the bias's blocks do not depend on the point: their windows' block index is constant. -/
theorem iblk_1_const (c : Dev nD) (t t' : Fin cfg0.N) : iblk V c 1 t = iblk V c 1 t' := rfl
theorem iblk_2_const (c : Dev nD) (t t' : Fin cfg0.N) : iblk V c 2 t = iblk V c 2 t' := rfl

end Cert.KernelIdeal.Reg0

end
-- ==== Proof.KI.Reg1.lean ====
/-
  Region 1 of the program: the gather of every edge's source row as a one-hot product, accumulated over the node
  blocks in a scratch buffer that the kernel keeps from one grid point to the next.

  The grid is 147 edge blocks by 98 node blocks, the node block the fast coordinate. At the first node block of an
  edge block the accumulator is zeroed; at every point it is updated by the one-hot product of the point's source
  ids against its block of node rows; at the last node block it is rounded and stored into the output block, which
  only that point writes back. This module gives the proof data of that pipeline at a parameter `V` (the
  TensorCore's buffer contents when the region is entered): what the accumulator holds after each point as a
  recursion over the points (`accAt`, with its two case equations), what the output block holds (`outAt`), the
  invariant carrying the accumulator's contents from point to point (`PhiS`), the body's triple in each of its three
  cases and the body obligation. Everything is generic in the float model `F`.
-/
import proofs.«423195_j8272107012813_1_alg».proof.Proof.Gen.KernelIdeal.Launch
import proofs.«423195_j8272107012813_1_alg».proof.Proof.Gen.KernelIdeal.Skeleton
import proofs.«423195_j8272107012813_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: the edge block is the slow coordinate, the node block the fast one -/

/-- The node-block coordinate of point `t` is `t mod 98`. -/
theorem nodeCoord (t : Fin cfg1.N) : (grid1.coords t 1).val = t.val % 98 := by
  show t.val / 1 % 98 = t.val % 98
  rw [Nat.div_one]

/-- The body's first conditional: the node-block coordinate is zero (the accumulator is reset). -/
abbrev condReset (i : grid1.Coords) : Prop :=
  (Scalar.cmpi .ne (Scalar.extui (Scalar.cmpi .eq (BitVec.ofNat 32 (i 1).val) 0#32)) 0#32) = 1#1

/-- The body's second conditional: the node-block coordinate is the last one (the output block is stored). -/
abbrev condStore (i : grid1.Coords) : Prop := k1_cond2 i = 1#1

theorem condReset_fin : ∀ k : Fin 98,
    (Scalar.cmpi .ne (Scalar.extui (Scalar.cmpi .eq (BitVec.ofNat 32 k.val) 0#32)) 0#32) = 1#1 ↔ k.val = 0 := by
  decide

theorem condStore_fin : ∀ k : Fin 98,
    (Scalar.cmpi .ne (Scalar.extui (Scalar.cmpi .eq (BitVec.ofNat 32 k.val) 97#32)) 0#32) = 1#1 ↔ k.val = 97 := by
  decide

theorem condReset_iff (i : grid1.Coords) : condReset i ↔ (i 1).val = 0 := condReset_fin (i 1)

theorem condStore_iff (i : grid1.Coords) : condStore i ↔ (i 1).val = 97 := condStore_fin (i 1)

/-- At a point, in closed form. -/
theorem condReset_at (t : Fin cfg1.N) : condReset (grid1.coords t) ↔ t.val % 98 = 0 := by
  rw [condReset_iff, nodeCoord]

theorem condStore_at (t : Fin cfg1.N) : condStore (grid1.coords t) ↔ t.val % 98 = 97 := by
  rw [condStore_iff, nodeCoord]

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of source ids the point's edge block reads (window 0), at its literal type. -/
abbrev srcBlk (c : Dev nD) (t : Fin cfg1.N) : Vec F S1x4096 .i32 := iblk V c 0 t

/-- The block of node features the point's node block reads (window 1), at its literal type. -/
abbrev featBlk (c : Dev nD) (t : Fin cfg1.N) : Vec F S1024x128 .f32 := iblk V c 1 t

/-- An input window's current staging buffer holds its block at every point, fetched there or not, for any proof
    data whose array is `V`'s and whose body leaves the block in place: unfetched, the block index has not moved. -/
theorem before_src_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_feat_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the accumulator and the output block hold, point by point -/

/-- One point's update of the accumulator: the one-hot product of the point's source ids against its node block,
    added to what the accumulator held (`k1_pay2`, the skeleton's payload). -/
abbrev accStep (i : grid1.Coords) (xs : Vec F S1x4096 .i32) (xh : Vec F S1024x128 .f32) (xa : Vec F S4096x128 .f32) :
    Vec F S4096x128 .f32 := k1_pay2 i xs xh xa

/-- The accumulator at the start of an edge block: all zero (`k1_pay1`). -/
abbrev accZero : Vec F S4096x128 .f32 := k1_pay1 (F := F)

/-- THE ACCUMULATION. What the scratch accumulator holds after the body at position `n`: at the first node block of
    an edge block (`n mod 98 = 0`) one update of the zero accumulator, at every other point one update of what the
    point before left. -/
def accAt (c : Dev nD) : (n : ℕ) → n < cfg1.N → Vec F S4096x128 .f32
  | 0, hn => accStep (grid1.coords ⟨0, hn⟩) (srcBlk V c ⟨0, hn⟩) (featBlk V c ⟨0, hn⟩) accZero
  | n + 1, hn =>
    if (n + 1) % 98 = 0 then accStep (grid1.coords ⟨n + 1, hn⟩) (srcBlk V c ⟨n + 1, hn⟩) (featBlk V c ⟨n + 1, hn⟩) accZero
    else accStep (grid1.coords ⟨n + 1, hn⟩) (srcBlk V c ⟨n + 1, hn⟩) (featBlk V c ⟨n + 1, hn⟩) (accAt c n (Nat.lt_of_succ_lt hn))

/-- At a point where the accumulator is reset. -/
theorem accAt_reset (c : Dev nD) (t : Fin cfg1.N) (h : t.val % 98 = 0) :
    accAt V c t.val t.isLt = accStep (grid1.coords t) (srcBlk V c t) (featBlk V c t) accZero := by
  obtain ⟨n, hn⟩ := t
  cases n with
  | zero => rfl
  | succ n => exact if_pos h

/-- At a point where it is not: over what the point before left. -/
theorem accAt_step (c : Dev nD) (t : Fin cfg1.N) (h : ¬t.val % 98 = 0) :
    accAt V c t.val t.isLt
      = accStep (grid1.coords t) (srcBlk V c t) (featBlk V c t) (accAt V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at point `t`: the accumulator there, rounded to the
    output's format (`k1_pay3`). Stored by the body — and written back — only at the last node block of an edge
    block; elsewhere the window is idle and nothing consults this. -/
def outAt (c : Dev nD) (t : Fin cfg1.N) : Vec F S4096x128 .bf16 := k1_pay3 (accAt V c t.val t.isLt)

/-! ## Where the output window is stored and where it is idle -/

/-- At the last node block of an edge block the body stores the output block: the window is live. -/
theorem live_out (t : Fin cfg1.N) (h : t.val % 98 = 97) : cfg1.idle 2 (grid1.coords t) = false := by
  have hc : k1_cond2 (grid1.coords t) = 1#1 := (condStore_at t).mpr h
  show (!(k1_cond2 (grid1.coords t) == 1#1)) = false
  rw [hc]; rfl

/-- Elsewhere it stores nothing into it: the window is idle, -/
theorem idle_out (t : Fin cfg1.N) (h : ¬t.val % 98 = 97) : cfg1.idle 2 (grid1.coords t) = true := by
  have hc : ¬k1_cond2 (grid1.coords t) = 1#1 := fun e => h ((condStore_at t).mp e)
  show (!(k1_cond2 (grid1.coords t) == 1#1)) = true
  rw [Bool.not_eq_true', beq_eq_false_iff_ne]; exact hc

/-- and the pipeline does not write its block back. -/
theorem noFlush_out (t : Fin cfg1.N) (h : ¬t.val % 98 = 97) : (cfg1.win 2).flush t = false :=
  Bool.eq_false_iff.mpr fun e => h ((flush1_2 t).mp e)

/-! ## The invariant: the accumulator's contents, point by point -/

/-- The scratch accumulator, a whole scoped buffer of the kernel's own. -/
abbrev scM : Memref sig .tc .vmem S4096x128 .f32 := Memref.whole cc1_scratch0

/-- Every other scoped buffer of the core that is no staging buffer of this call, at some contents each. -/
abbrev restBut (c : Dev nD) : sProp 𝕄 :=
  Pipeline.scopedRestBut (Ix := Unit) (Name := ℕ) (U := UR sig nD τ) (Lvl := ℕ) (Val := Elt F) spec1 c [cc1_scratch0]

/-- The class's invariant with the accumulator as a memref owned at some contents. -/
theorem PhiA_eq (c : Dev nD) :
    (Pipeline.ΦA spec1 c : sProp 𝕄)
      = iprop(iprop((∃ d, owns (c : Thread nD τ) scM fullShare d) ∗ restBut (F := F) c) ∗ (∃ r, prngReg c r)) := by
  unfold Pipeline.ΦA; rw [scopedRest1_split]; simp only [scM, owns_whole]; try rfl

/-- The region invariant before position `n`: before the first point the class's (the accumulator at anything);
    afterwards the accumulator at what the point before left in it (`accAt`), the other scoped buffers at anything
    and the generator register at some state. -/
def PhiS (c : Dev nD) : (n : ℕ) → n ≤ cfg1.N → sProp 𝕄
  | 0, _ => Pipeline.ΦA spec1 c
  | n + 1, hn => iprop(iprop(owns (c : Thread nD τ) scM fullShare (accAt V c n hn) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

/-! ## The proof data -/

/-- The proof data of this pipeline on core `c`: the arrays as the region finds them (`V`); after the body at point
    `t` each input's buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

/-- What the body leaves, window by window. -/
theorem after_src (c : Dev nD) (t : Fin cfg1.N) : (dat V c).after 0 t = iblk V c 0 t := by dsimp only [dat]
theorem after_feat (c : Dev nD) (t : Fin cfg1.N) : (dat V c).after 1 t = iblk V c 1 t := by dsimp only [dat]
theorem after_out (c : Dev nD) (t : Fin cfg1.N) : (dat V c).after 2 t = outAt V c t := by dsimp only [dat]

/-- The output's staged block in terms of the accumulator. -/
theorem after_out_eq (c : Dev nD) (t : Fin cfg1.N) : (dat V c).after 2 t = k1_pay3 (accAt V c t.val t.isLt) := after_out V c t

/-- The invariant at a point's start, restated at `t.val`. -/
theorem Phi_castSucc (c : Dev nD) (t : Fin cfg1.N) :
    (dat V c).Φ t.castSucc = PhiS V c t.val (Nat.le_of_lt t.isLt) := by
  dsimp only [dat]; simp only [Fin.coe_castSucc]

/-- Each input's current staging buffer holds its block at every point. -/
theorem before_src (c : Dev nD) (t : Fin cfg1.N) (d) : (dat V c).before 0 t d = iblk V c 0 t :=
  before_src_of V (dat V c) (A_eq V c 0) (after_src V c) t d
theorem before_feat (c : Dev nD) (t : Fin cfg1.N) (d) : (dat V c).before 1 t d = iblk V c 1 t :=
  before_feat_of V (dat V c) (A_eq V c 1) (after_feat V c) t d

/-! ## The body's triples, case by case

On whole memrefs — the staging buffers the pipeline passes and the scratch accumulator —, the two inputs' at read
contents `xs` (source ids) and `xh` (node features): the body runs to the continuation holding the inputs' as they
were, the accumulator at one update (`accStep`) of zero or of what it held, and, at the last node block, the
output's at the accumulator rounded. The conditionals are decided by the case's hypotheses. -/

/-- The zero offsets of a whole-buffer rectangle, however spelt. -/
theorem zeroOff : (![0, 0] : Fin 2 → Nat) = fun _ => 0 := by
  funext a; fin_cases a <;> rfl

/-- A list of pieces whose newest is a store through the whole-buffer rectangle covers the buffer. -/
theorem coverHead {e : EltTy} (w : S4096x128.Idx → Elt F e) (L : List (View.Piece (Elt F) S4096x128 e)) (y : S4096x128.Idx) :
    ∃ p ∈ ((⟨Rect.unit (s := S4096x128) ![0, 0] S4096x128.size inb_S4096x128_S4096x128_0_0, w⟩ : View.Piece (Elt F) S4096x128 e) :: L), y ∈ p.1.set :=
  ⟨_, List.Mem.head _, View.mem_set_unit_zero (S := S4096x128) zeroOff inb_S4096x128_S4096x128_0_0 y⟩

set_option maxHeartbeats 1000000 in
/-- AT A RESET POINT (the first node block of an edge block): the accumulator, at anything, is zeroed and updated once.
    The output's memref is not touched. -/
theorem run_reset (c : Dev nD) (i : grid1.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : condReset i) (hs : ¬condStore i)
    (xs : Vec F S1x4096 .i32) (xh : Vec F S1024x128 .f32) (E : Set ℕ) (K : PUnit → sProp 𝕄) :
    iprop(owns (c : Thread nD τ) arg2 fullShare xs ∗ owns (c : Thread nD τ) arg3 fullShare xh ∗ (∃ d, owns (c : Thread nD τ) arg5 fullShare d)
        ∗ (iprop(owns (c : Thread nD τ) arg2 fullShare xs ∗ owns (c : Thread nD τ) arg3 fullShare xh
            ∗ owns (c : Thread nD τ) arg5 fullShare (accStep i xs xh accZero)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT A POINT THAT NEITHER RESETS NOR STORES: the accumulator, at `xa`, is updated once. The output's memref is not
    touched. -/
theorem run_step (c : Dev nD) (i : grid1.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : ¬condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ owns (c : Thread nD τ) arg5 fullShare xa
        ∗ (iprop(owns (c : Thread nD τ) arg2 fullShare xs ∗ owns (c : Thread nD τ) arg3 fullShare xh
            ∗ owns (c : Thread nD τ) arg5 fullShare (accStep i xs xh xa)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT THE LAST NODE BLOCK of an edge block: the accumulator, at `xa`, is updated once, and the output's memref, at
    anything, is left at the accumulator rounded to the output's format. -/
theorem run_last (c : Dev nD) (i : grid1.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ (∃ d, owns (c : Thread nD τ) arg4 fullShare d) ∗ owns (c : Thread nD τ) arg5 fullShare xa
        ∗ (iprop(owns (c : Thread nD τ) arg2 fullShare xs ∗ owns (c : Thread nD τ) arg3 fullShare xh
            ∗ owns (c : Thread nD τ) arg4 fullShare (k1_pay3 (accStep i xs xh xa)) ∗ owns (c : Thread nD τ) arg5 fullShare (accStep i xs xh xa)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_run_names
    refine (View.read_writes_eq_canon _ _ _ (coverHead _ _)).trans ?_
    rw [View.canon_cons_unit_zero (S := S4096x128) zeroOff]
    simp only [View.readAt_eq_ld, harg2.read_unread, harg3.read_unread, harg5.read_unread, View.ld_unit_zero (S := S1x4096) zeroOff,
      View.ld_unit_zero (S := S1024x128) zeroOff, View.ld_unit_zero (S := S4096x128) zeroOff, View.readCov_unit_zero (S := S4096x128) _ zeroOff]
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

/-! ## The body obligation, at a generic point -/

/-- Each window's current staging memref at point `t`, spelt as the pipeline passes it, and its wholeness. -/
abbrev msSrc (t : Fin cfg1.N) : Memref sig .tc .vmem S1x4096 .i32 := win1_0.stage (cfg1.slots t 0)
abbrev hsSrc (t : Fin cfg1.N) : (msSrc t).IsWhole := hstage1_0 ((cfg1.slots t 0).cast nbuf1_0)
abbrev msFeat (t : Fin cfg1.N) : Memref sig .tc .vmem S1024x128 .f32 := win1_1.stage (cfg1.slots t 1)
abbrev hsFeat (t : Fin cfg1.N) : (msFeat t).IsWhole := hstage1_1 ((cfg1.slots t 1).cast nbuf1_1)
abbrev msOut (t : Fin cfg1.N) : Memref sig .tc .vmem S4096x128 .bf16 := win1_2.stage (cfg1.slots t 2)
abbrev hsOut (t : Fin cfg1.N) : (msOut t).IsWhole := hstage1_2 ((cfg1.slots t 2).cast nbuf1_2)

/-- What the body is called with at point `t` (the obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (msSrc t) fullShare ((dat V c).before 0 t d))
    ∗ (∃ d, owns (c : Thread nD τ) (msFeat t) fullShare ((dat V c).before 1 t d))
    ∗ (∃ d, owns (c : Thread nD τ) (msOut t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

/-- An input window is never idle: its buffer is left at its block. -/
theorem leaves_src (c : Dev nD) (t : Fin cfg1.N) :
    (dat V c).leavesExact 0 t = owns (c : Thread nD τ) (msSrc t) fullShare (iblk V c 0 t) := by
  rw [← after_src V c t]
theorem leaves_feat (c : Dev nD) (t : Fin cfg1.N) :
    (dat V c).leavesExact 1 t = owns (c : Thread nD τ) (msFeat t) fullShare (iblk V c 1 t) := by
  rw [← after_feat V c t]

/-- The output window where it is stored: its buffer is left at the accumulator rounded. -/
theorem leaves_out_live (c : Dev nD) (t : Fin cfg1.N) (h : t.val % 98 = 97) :
    (dat V c).leavesExact 2 t = owns (c : Thread nD τ) (msOut t) fullShare (outAt V c t) := by
  unfold Dat.leavesExact; rw [live_out t h, after_out]

/-- The output window where it is idle: its buffer is handed back as it was found. -/
theorem leaves_out_idle (c : Dev nD) (t : Fin cfg1.N) (h : ¬t.val % 98 = 97) :
    (dat V c).leavesExact 2 t = iprop(∃ d, owns (c : Thread nD τ) (msOut t) fullShare ((dat V c).before 2 t d)) :=
  Dat.leavesExact_idle (dat V c) 2 t (idle_out t h) (noFlush_out t h)

set_option maxHeartbeats 2000000 in
/-- The body at any point. The inputs' memrefs hold their blocks; the point's position in its edge block says which
    case it is in: at the first node block the accumulator (at what the point before left, or at anything at the very
    first point) is zeroed and updated, elsewhere it is updated from what the point before left; at the last node
    block the output's buffer is stored, elsewhere it is handed back untouched. The invariant takes the accumulator
    back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_src, before_feat]
  rw [show (dat V c).owesAt () t.succ = (dat V c).owesAt () t.castSucc from rfl]
  rw [show (dat V c).Φ t.succ = PhiS V c (t.val + 1) t.isLt from rfl, PhiS_succ]
  rw [leaves_src, leaves_feat, Phi_castSucc]
  by_cases h0 : t.val % 98 = 0
  · -- the first node block of an edge block
    have h97 : ¬t.val % 98 = 97 := by omega
    rw [leaves_out_idle V c t h97, accAt_reset V c t h0]
    by_cases hz : t.val = 0
    · rw [PhiS_zero V c _ _ hz, PhiA_eq]
      iintro ⟨⟨⟨HS, HR⟩, Hg⟩, Ho, ⟨%d0, H0⟩, ⟨%d1, H1⟩, H2⟩
      iapply (run_reset c (grid1.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [PhiS_pos V c _ _ hz]
      iintro ⟨⟨⟨HS, HR⟩, Hg⟩, Ho, ⟨%d0, H0⟩, ⟨%d1, H1⟩, H2⟩
      iapply (run_reset c (grid1.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexists _; iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [PhiS_pos V c _ _ hz, accAt_step V c t h0]
    by_cases h97 : t.val % 98 = 97
    · -- the last node block of an edge block
      rw [leaves_out_live V c t h97]
      unfold outAt
      rw [accAt_step V c t h0]
      iintro ⟨⟨⟨HS, HR⟩, Hg⟩, Ho, ⟨%d0, H0⟩, ⟨%d1, H1⟩, ⟨%d2, H2⟩⟩
      iapply (run_last c (grid1.coords t) _ _ _ _ _ _ _ _ (fun e => h0 ((condReset_at t).mp e)) ((condStore_at t).mpr h97)
        (srcBlk V c t) (featBlk V c t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · -- a node block in between
      rw [leaves_out_idle V c t h97]
      iintro ⟨⟨⟨HS, HR⟩, Hg⟩, Ho, ⟨%d0, H0⟩, ⟨%d1, H1⟩, H2⟩
      iapply (run_step c (grid1.coords t) _ _ _ _ _ _ _ _ (fun e => h0 ((condReset_at t).mp e)) (fun e => h97 ((condStore_at t).mp e))
        (srcBlk V c t) (featBlk V c t) _ Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class's back: the accumulator's named contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨HS, HR⟩, Hg⟩
  isplitr [Hg]
  · isplitl [HS]; · iexists _; iexact HS
    iexact HR
  iexact Hg

/-- The same after the last point. -/
theorem hout (c : Dev nD) : (dat V c).Φ (Fin.last cfg1.N) ⊢ (Pipeline.ΦA spec1 c : sProp 𝕄) :=
  Phi_out V c _ (by rw [Fin.val_last]; have : cfg1.N = 14406 := N_1; omega)

end Cert.KernelIdeal.Reg1

end
-- ==== Proof.KI.Reg2.lean ====
/-
  Kernel region 2 (scatter-add by one-hot weights over edge blocks, then the dense layer, ReLU and row
  normalization at the last edge block), on one core, at any float model and at any contents `V` of the
  TensorCore's buffers when the region is entered: the proof data of its pipeline and the body obligation.

  The grid is 98 node blocks by 147 edge blocks, the edge axis fastest. The kernel keeps a 1024 x 128 accumulator in a
  scratch block of its own: zeroed where the edge-block coordinate is 0, increased at every point by the product of the
  point's one-hot matrix (destination ids against the node block's row numbers) with the point's block of gathered
  rows; where the coordinate is 146, the last, the output block is computed from the node block's features plus the
  accumulator and stored. What the scratch holds after each point (`scr`) and what the output block is (`outv`) are
  functions of the input blocks through the kernel's payloads, by recursion on the point; the region's invariant
  carries the scratch at `scr` from point to point.
-/
import proofs.«423195_j8272107012813_1_alg».proof.Proof.Gen.KernelIdeal.Launch
import proofs.«423195_j8272107012813_1_alg».proof.Proof.Gen.KernelIdeal.Skeleton
import proofs.«423195_j8272107012813_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: a point's edge-block coordinate, and the body's two conditions in closed form

The grid is 98 node blocks by 147 edge blocks, the edge axis fastest: point `t` has edge-block coordinate
`t % 147`. The body zeroes its accumulator where that coordinate is 0 and stores its output where it is 146. -/

/-- The edge-block coordinate (axis 1) of point `t` is `t % 147`. -/
theorem coord_e (t : Fin cfg2.N) : ((grid2.coords t) 1).val = t.val % 147 := by
  show t.val / grid2.stride 1 % grid2.bound 1 = t.val % 147
  rw [show grid2.stride 1 = 1 from by decide, Nat.div_one]; rfl

/-- The condition under which the body zeroes the accumulator (the first conditional of the kernel function), as
    the kernel function computes it from the coordinates. -/
abbrev condR (i : grid2.Coords) : Prop :=
  Scalar.cmpi .ne (Scalar.extui (Scalar.cmpi .eq (BitVec.ofNat 32 (i 1).val) 0#32)) 0#32 = 1#1

/-- The condition under which the body computes and stores its output block (the second conditional). -/
abbrev condS (i : grid2.Coords) : Prop := k2_cond2 i = 1#1

/-- The accumulator is zeroed exactly where the edge-block coordinate is 0 (the 147 values of the coordinate
    checked one by one). -/
theorem condR_iff (i : grid2.Coords) : condR i ↔ (i 1).val = 0 :=
  (by decide +kernel : ∀ k : Fin 147,
    (Scalar.cmpi .ne (Scalar.extui (Scalar.cmpi .eq (BitVec.ofNat 32 k.val) 0#32)) 0#32 = 1#1) ↔ k.val = 0) (i 1)

/-- The output is stored exactly where the edge-block coordinate is 146, the last. -/
theorem condS_iff (i : grid2.Coords) : condS i ↔ (i 1).val = 146 :=
  (by decide +kernel : ∀ k : Fin 147,
    (Scalar.cmpi .ne (Scalar.extui (Scalar.cmpi .eq (BitVec.ofNat 32 k.val) 146#32)) 0#32 = 1#1) ↔ k.val = 146) (i 1)

/-- At point `t` the accumulator is zeroed iff `t % 147 = 0`. -/
theorem hR (t : Fin cfg2.N) : condR (grid2.coords t) ↔ t.val % 147 = 0 :=
  (condR_iff (grid2.coords t)).trans (by rw [coord_e])

/-- At point `t` the output is stored iff `t % 147 = 146`. -/
theorem hS (t : Fin cfg2.N) : condS (grid2.coords t) ↔ t.val % 147 = 146 :=
  (condS_iff (grid2.coords t)).trans (by rw [coord_e])

/-- Where the output is not stored its window is idle; -/
theorem idle_out (t : Fin cfg2.N) (h : ¬t.val % 147 = 146) : cfg2.idle 7 (grid2.coords t) = true := by
  have hc : ¬k2_cond2 (grid2.coords t) = 1#1 := fun h' => h ((hS t).mp h')
  show (!(k2_cond2 (grid2.coords t) == 1#1)) = true
  simp [hc]

/-- where it is stored the window is live; -/
theorem live_out (t : Fin cfg2.N) (h : t.val % 147 = 146) : cfg2.idle 7 (grid2.coords t) = false := by
  have hc : k2_cond2 (grid2.coords t) = 1#1 := (hS t).mpr h
  show (!(k2_cond2 (grid2.coords t) == 1#1)) = false
  simp [hc]

/-- and the pipeline writes the block back only there. -/
theorem noflush_out (t : Fin cfg2.N) (h : ¬t.val % 147 = 146) : (cfg2.win 7).flush t = false :=
  Bool.eq_false_iff.mpr fun hf => h ((flush2_7 t).mp hf)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input blocks at their literal types: the destination ids of edge block `e`, the gathered rows of edge block
    `e`, the node features of node block `n`, the layer's weight, bias, and the normalization's scale and shift. -/
abbrev dstB (c : Dev nD) (t : Fin cfg2.N) : Vec F S1x4096 .i32 := iblk V c 0 t
abbrev tB (c : Dev nD) (t : Fin cfg2.N) : Vec F S4096x128 .bf16 := iblk V c 1 t
abbrev hB (c : Dev nD) (t : Fin cfg2.N) : Vec F S1024x128 .f32 := iblk V c 2 t
abbrev wB (c : Dev nD) (t : Fin cfg2.N) : Vec F S128x128 .f32 := iblk V c 3 t
abbrev bB (c : Dev nD) (t : Fin cfg2.N) : Vec F S1x128 .f32 := iblk V c 4 t
abbrev gB (c : Dev nD) (t : Fin cfg2.N) : Vec F S1x128 .f32 := iblk V c 5 t
abbrev lB (c : Dev nD) (t : Fin cfg2.N) : Vec F S1x128 .f32 := iblk V c 6 t

/-! ## What the body leaves: the accumulator point by point, and the output block -/

/-- THE ACCUMULATION. The accumulator (the kernel's own scratch block) after the body at point `n`: the point's
    one-hot scatter product of its edge block added (`k2_pay2`) to the zero block (`k2_pay1`) where the
    edge-block coordinate is 0, to what the point before left elsewhere. -/
def scr (c : Dev nD) : (n : ℕ) → n < cfg2.N → Vec F S1024x128 .f32
  | 0, hn => k2_pay2 (grid2.coords ⟨0, hn⟩) (dstB V c ⟨0, hn⟩) (tB V c ⟨0, hn⟩) k2_pay1
  | n + 1, hn =>
    if (n + 1) % 147 = 0 then k2_pay2 (grid2.coords ⟨n + 1, hn⟩) (dstB V c ⟨n + 1, hn⟩) (tB V c ⟨n + 1, hn⟩) k2_pay1
    else k2_pay2 (grid2.coords ⟨n + 1, hn⟩) (dstB V c ⟨n + 1, hn⟩) (tB V c ⟨n + 1, hn⟩) (scr c n (Nat.lt_of_succ_lt hn))

/-- At a point whose edge-block coordinate is 0 the sum starts afresh from the zero block; -/
theorem scr_reset (c : Dev nD) (t : Fin cfg2.N) (h : t.val % 147 = 0) :
    scr V c t.val t.isLt = k2_pay2 (grid2.coords t) (dstB V c t) (tB V c t) k2_pay1 := by
  obtain ⟨n, hn⟩ := t
  cases n with
  | zero => rfl
  | succ n => exact if_pos h

/-- elsewhere it goes on from what the point before left. -/
theorem scr_acc (c : Dev nD) (t : Fin cfg2.N) (h : ¬t.val % 147 = 0) :
    scr V c t.val t.isLt = k2_pay2 (grid2.coords t) (dstB V c t) (tB V c t)
      (scr V c (t.val - 1) (Nat.lt_of_le_of_lt (Nat.sub_le _ _) t.isLt)) := by
  obtain ⟨n, hn⟩ := t
  cases n with
  | zero => exact absurd (Nat.zero_mod _) h
  | succ n => exact if_neg h

/-- The output block the body computes from the point's accumulator (the dense layer on features plus aggregate,
    rectified and normalized: `k2_pay3`). The body stores it only where the edge-block coordinate is 146; it is the
    value of the proof data's `after` for the output window at every point, consulted only there. -/
def outv (c : Dev nD) (t : Fin cfg2.N) : Vec F S1024x128 .f32 :=
  k2_pay3 (hB V c t) (scr V c t.val t.isLt) (wB V c t) (bB V c t) (gB V c t) (lB V c t)

/-! ## The invariant: the accumulator between points -/

/-- The kernel's scratch block, whole. -/
abbrev scM : Memref sig .tc .vmem S1024x128 .f32 := Memref.whole cc2_scratch0

/-- The core's scoped buffers other than the staging buffers and the scratch block, each at some contents. -/
abbrev restBut (c : Dev nD) : sProp 𝕄 :=
  Pipeline.scopedRestBut (Ix := Unit) (Name := ℕ) (U := UR sig nD τ) (Lvl := ℕ) (Val := Elt F) spec2 c [cc2_scratch0]

/-- The class's invariant with the scratch block as a memref owned at some contents. -/
theorem PhiA_eq (c : Dev nD) :
    (Pipeline.ΦA spec2 c : sProp 𝕄)
      = iprop(iprop((∃ d, owns (c : Thread nD τ) scM fullShare d) ∗ restBut c) ∗ (∃ r, prngReg c r)) := by
  unfold Pipeline.ΦA; rw [scopedRest2_split]; simp only [scM, owns_whole]; try rfl

/-- The region's invariant before position `n`: before the first point the class's (the scratch at anything);
    afterwards the scratch at what the point before left in it (`scr`), the other scoped buffers at anything, the
    generator register at some state. -/
def Phi (c : Dev nD) : (n : ℕ) → n ≤ cfg2.N → sProp 𝕄
  | 0, _ => Pipeline.ΦA spec2 c
  | n + 1, hn => iprop(iprop(owns (c : Thread nD τ) scM fullShare (scr V c n hn) ∗ restBut c) ∗ (∃ r, prngReg c r))

theorem Phi_succ (c : Dev nD) (n : ℕ) (hn : n < cfg2.N) :
    Phi V c (n + 1) hn = iprop(iprop(owns (c : Thread nD τ) scM fullShare (scr V c n hn) ∗ restBut c) ∗ (∃ r, prngReg c r)) := rfl

theorem Phi_pos (c : Dev nD) (n : ℕ) (h : n ≤ cfg2.N) (hz : n ≠ 0) :
    Phi V c n h = iprop(iprop(owns (c : Thread nD τ) scM fullShare (scr V c (n - 1) (by omega)) ∗ restBut c) ∗ (∃ r, prngReg c r)) := by
  cases n with
  | zero => exact absurd rfl hz
  | succ n => rfl

/-- At any position the invariant yields the scratch at SOME contents: what a point that zeroes it needs, and what
    the class's invariant says. -/
theorem Phi_any (c : Dev nD) (n : ℕ) (h : n ≤ cfg2.N) :
    Phi V c n h ⊢ iprop(iprop((∃ d, owns (c : Thread nD τ) scM fullShare d) ∗ restBut c) ∗ (∃ r, prngReg c r)) := by
  cases n with
  | zero => rw [show Phi V c 0 h = Pipeline.ΦA spec2 c from rfl, PhiA_eq]; try exact Idealize.SL.BI.Entails.refl _
  | succ n =>
    rw [Phi_succ]
    iintro ⟨⟨HS, HR⟩, Hg⟩
    isplitl [HS HR]
    · isplitl [HS]
      · iexists _; iexact HS
      iexact HR
    iexact Hg

/-! ## The pipeline's proof data -/

/-- The proof data of the region on core `c`: the arrays as the region finds them (`V`); after the body at point
    `t` each input's buffer at its block and the output's at `outv`; the invariant `Phi`; nothing owed; full
    shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outv V c t
  Φ t := Phi V c t.val (Nat.le_of_lt_succ t.isLt)
  q _ := fullShare
  owed _ := 0

/-- The proof data's arrays are the region-entry contents. -/
theorem A_eq (c : Dev nD) (w : Fin cfg2.W) : (dat V c).A w = V c (Pipeline.arrRef spec2 w) := by
  dsimp only [dat]

/-- The invariant at a point's start, restated at `t.val`. -/
theorem Phi_castSucc (c : Dev nD) (t : Fin cfg2.N) :
    (dat V c).Φ t.castSucc = Phi V c t.val (Nat.le_of_lt t.isLt) := by
  dsimp only [dat]; simp only [Fin.coe_castSucc]

/-- What the body leaves, window by window. -/
theorem after_D (c : Dev nD) (t : Fin cfg2.N) : (dat V c).after 0 t = iblk V c 0 t := by dsimp only [dat]
theorem after_T (c : Dev nD) (t : Fin cfg2.N) : (dat V c).after 1 t = iblk V c 1 t := by dsimp only [dat]
theorem after_H (c : Dev nD) (t : Fin cfg2.N) : (dat V c).after 2 t = iblk V c 2 t := by dsimp only [dat]
theorem after_W (c : Dev nD) (t : Fin cfg2.N) : (dat V c).after 3 t = iblk V c 3 t := by dsimp only [dat]
theorem after_B (c : Dev nD) (t : Fin cfg2.N) : (dat V c).after 4 t = iblk V c 4 t := by dsimp only [dat]
theorem after_G (c : Dev nD) (t : Fin cfg2.N) : (dat V c).after 5 t = iblk V c 5 t := by dsimp only [dat]
theorem after_L (c : Dev nD) (t : Fin cfg2.N) : (dat V c).after 6 t = iblk V c 6 t := by dsimp only [dat]
theorem after_out (c : Dev nD) (t : Fin cfg2.N) : (dat V c).after 7 t = outv V c t := by dsimp only [dat]

/-- Each input's current staging buffer holds its block at every point, fetched there or not: the body leaves the
    block in place, and where the pipeline does not fetch, the block index has not moved. -/
theorem before_D (c : Dev nD) (t : Fin cfg2.N) (d) : (dat V c).before 0 t d = iblk V c 0 t :=
  ((dat V c).before_in_eq_fetched 0 rfl (fun _ => rfl) (fun _ _ _ => rfl)
    (fun t => by rw [after_D]; unfold Dat.blockOf iblk; rw [A_eq]; try rfl) t d).trans
    (by unfold Dat.fetched Dat.blockOf iblk; rw [A_eq]; try rfl)
theorem before_T (c : Dev nD) (t : Fin cfg2.N) (d) : (dat V c).before 1 t d = iblk V c 1 t :=
  ((dat V c).before_in_eq_fetched 1 rfl (fun _ => rfl) (fun _ _ _ => rfl)
    (fun t => by rw [after_T]; unfold Dat.blockOf iblk; rw [A_eq]; try rfl) t d).trans
    (by unfold Dat.fetched Dat.blockOf iblk; rw [A_eq]; try rfl)
theorem before_H (c : Dev nD) (t : Fin cfg2.N) (d) : (dat V c).before 2 t d = iblk V c 2 t :=
  ((dat V c).before_in_eq_fetched 2 rfl (fun _ => rfl) (fun _ _ _ => rfl)
    (fun t => by rw [after_H]; unfold Dat.blockOf iblk; rw [A_eq]; try rfl) t d).trans
    (by unfold Dat.fetched Dat.blockOf iblk; rw [A_eq]; try rfl)
theorem before_W (c : Dev nD) (t : Fin cfg2.N) (d) : (dat V c).before 3 t d = iblk V c 3 t :=
  ((dat V c).before_in_eq_fetched 3 rfl (fun _ => rfl) (fun _ _ _ => rfl)
    (fun t => by rw [after_W]; unfold Dat.blockOf iblk; rw [A_eq]; try rfl) t d).trans
    (by unfold Dat.fetched Dat.blockOf iblk; rw [A_eq]; try rfl)
theorem before_B (c : Dev nD) (t : Fin cfg2.N) (d) : (dat V c).before 4 t d = iblk V c 4 t :=
  ((dat V c).before_in_eq_fetched 4 rfl (fun _ => rfl) (fun _ _ _ => rfl)
    (fun t => by rw [after_B]; unfold Dat.blockOf iblk; rw [A_eq]; try rfl) t d).trans
    (by unfold Dat.fetched Dat.blockOf iblk; rw [A_eq]; try rfl)
theorem before_G (c : Dev nD) (t : Fin cfg2.N) (d) : (dat V c).before 5 t d = iblk V c 5 t :=
  ((dat V c).before_in_eq_fetched 5 rfl (fun _ => rfl) (fun _ _ _ => rfl)
    (fun t => by rw [after_G]; unfold Dat.blockOf iblk; rw [A_eq]; try rfl) t d).trans
    (by unfold Dat.fetched Dat.blockOf iblk; rw [A_eq]; try rfl)
theorem before_L (c : Dev nD) (t : Fin cfg2.N) (d) : (dat V c).before 6 t d = iblk V c 6 t :=
  ((dat V c).before_in_eq_fetched 6 rfl (fun _ => rfl) (fun _ _ _ => rfl)
    (fun t => by rw [after_L]; unfold Dat.blockOf iblk; rw [A_eq]; try rfl) t d).trans
    (by unfold Dat.fetched Dat.blockOf iblk; rw [A_eq]; try rfl)

/-! ## The body's triple, case by case

The kernel function on whole memrefs. It reads the destination ids and the gathered rows, and reads and rewrites the
accumulator; only where it stores the output does it touch the other operands. The whole-block rectangle's offsets
are zero, so that a load through it reads the contents and a store through it, last, leaves its payload. -/

theorem hz : (![0, 0] : Fin 2 → ℕ) = fun _ => 0 := funext fun a => by fin_cases a <;> rfl

/-- After writes whose LAST is a store through the whole-block rectangle, the buffer reads as that store's payload,
    whatever the earlier writes and the prior contents. -/
theorem read_last_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

set_option maxHeartbeats 1000000 in
/-- WHERE THE ACCUMULATOR IS ZEROED and the output not stored: from the ids and rows at `xd`, `xt` and the
    accumulator at anything, the body leaves the accumulator at the point's product added to the zero block (the
    zero block stored first and read back), the ids and rows as they were. -/
theorem run_reset (c : Dev nD) (E : Set ℕ) (i : grid2.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : condR i) (hs : ¬condS i) (xd : Vec F S1x4096 .i32) (xt : Vec F S4096x128 .bf16) (K : PUnit → sProp 𝕄) :
    iprop(owns (c : Thread nD τ) aD fullShare xd ∗ owns (c : Thread nD τ) aT fullShare xt ∗ (∃ d, owns (c : Thread nD τ) aS fullShare d)
        ∗ (iprop(owns (c : Thread nD τ) aD fullShare xd ∗ owns (c : Thread nD τ) aT fullShare xt
            ∗ owns (c : Thread nD τ) aS fullShare (k2_pay2 i xd xt k2_pay1)) -∗ K ⟨⟩))
      ⊢ wp frame (wpE (defs₀ (F := F)) Variants.none c none) E (cc2__scatter_mlp_ln_kernel i aD hD aT hT aH hH aW hW aB hB' aG hG aL hL aO hO aS hS') K := by
  simp only [cc2__scatter_mlp_ln_kernel_eq_skeleton]; unfold cc2__scatter_mlp_ln_kernel_skel
  unfold owns
  iintro ⟨⟨%fD, %hfD, HD⟩, ⟨%fT, %hfT, HT⟩, ⟨%ds, %fs, -, HS⟩, Hk⟩
  subst hfD; subst hfT
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  sl_unfold_run_names
  rw [View.readCov_unit_zero (S := S1024x128) _ hz]
  simp only [View.readAt_eq_ld, View.ld_unit_zero (S := S1x4096) hz, View.ld_unit_zero (S := S4096x128) hz]

set_option maxHeartbeats 1000000 in
/-- WHERE THE ACCUMULATOR IS KEPT and the output not stored: from the accumulator at `xs`, the body leaves it at the
    point's product added to `xs`. -/
theorem run_acc (c : Dev nD) (E : Set ℕ) (i : grid2.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : ¬condS i) (xd : Vec F S1x4096 .i32) (xt : Vec F S4096x128 .bf16) (xs : Vec F S1024x128 .f32)
    (K : PUnit → sProp 𝕄) :
    iprop(owns (c : Thread nD τ) aD fullShare xd ∗ owns (c : Thread nD τ) aT fullShare xt ∗ owns (c : Thread nD τ) aS fullShare xs
        ∗ (iprop(owns (c : Thread nD τ) aD fullShare xd ∗ owns (c : Thread nD τ) aT fullShare xt
            ∗ owns (c : Thread nD τ) aS fullShare (k2_pay2 i xd xt xs)) -∗ K ⟨⟩))
      ⊢ wp frame (wpE (defs₀ (F := F)) Variants.none c none) E (cc2__scatter_mlp_ln_kernel i aD hD aT hT aH hH aW hW aB hB' aG hG aL hL aO hO aS hS') K := by
  simp only [cc2__scatter_mlp_ln_kernel_eq_skeleton]; unfold cc2__scatter_mlp_ln_kernel_skel
  unfold owns
  iintro ⟨⟨%fD, %hfD, HD⟩, ⟨%fT, %hfT, HT⟩, ⟨%fs, %hfs, HS⟩, Hk⟩
  subst hfD; subst hfT; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  simp only [View.readAt_eq_ld, View.ld_unit_zero (S := S1x4096) hz, View.ld_unit_zero (S := S4096x128) hz,
    View.ld_unit_zero (S := S1024x128) hz]

set_option maxHeartbeats 2000000 in
/-- WHERE THE OUTPUT IS STORED (the accumulator kept): from the accumulator at `xs` and the other operands at their
    contents, the output's buffer at anything, the body leaves the accumulator at the point's product added to `xs`
    and the output's buffer at the block computed from that sum. -/
theorem run_store (c : Dev nD) (E : Set ℕ) (i : grid2.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : condS i) (xd : Vec F S1x4096 .i32) (xt : Vec F S4096x128 .bf16) (xh : Vec F S1024x128 .f32)
    (xw : Vec F S128x128 .f32) (xb : Vec F S1x128 .f32) (xg : Vec F S1x128 .f32) (xl : Vec F S1x128 .f32)
    (xs : Vec F S1024x128 .f32) (K : PUnit → sProp 𝕄) :
    iprop(owns (c : Thread nD τ) aD fullShare xd ∗ owns (c : Thread nD τ) aT fullShare xt ∗ owns (c : Thread nD τ) aH fullShare xh ∗ owns (c : Thread nD τ) aW fullShare xw
        ∗ owns (c : Thread nD τ) aB fullShare xb ∗ owns (c : Thread nD τ) aG fullShare xg ∗ owns (c : Thread nD τ) aL fullShare xl
        ∗ (∃ d, owns (c : Thread nD τ) aO fullShare d) ∗ owns (c : Thread nD τ) aS fullShare xs
        ∗ (iprop(owns (c : Thread nD τ) aD fullShare xd ∗ owns (c : Thread nD τ) aT fullShare xt ∗ owns (c : Thread nD τ) aH fullShare xh ∗ owns (c : Thread nD τ) aW fullShare xw
            ∗ owns (c : Thread nD τ) aB fullShare xb ∗ owns (c : Thread nD τ) aG fullShare xg ∗ owns (c : Thread nD τ) aL fullShare xl
            ∗ owns (c : Thread nD τ) aO fullShare (k2_pay3 xh (k2_pay2 i xd xt xs) xw xb xg xl)
            ∗ owns (c : Thread nD τ) aS fullShare (k2_pay2 i xd xt xs)) -∗ K ⟨⟩))
      ⊢ wp frame (wpE (defs₀ (F := F)) Variants.none c none) E (cc2__scatter_mlp_ln_kernel i aD hD aT hT aH hH aW hW aB hB' aG hG aL hL aO hO aS hS') K := by
  simp only [cc2__scatter_mlp_ln_kernel_eq_skeleton]; unfold cc2__scatter_mlp_ln_kernel_skel
  unfold owns
  iintro ⟨⟨%fD, %hfD, HD⟩, ⟨%fT, %hfT, HT⟩, ⟨%fH, %hfH, HH⟩, ⟨%fW, %hfW, HW⟩, ⟨%fB, %hfB, HB⟩, ⟨%fG, %hfG, HG⟩, ⟨%fL, %hfL, HL⟩,
    ⟨%dO, %fO, -, HO⟩, ⟨%fs, %hfs, HS⟩, Hk⟩
  subst hfD; subst hfT; subst hfH; subst hfW; subst hfB; subst hfG; subst hfL; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  isplitl [HH]
  · iexists fH; isplitr; · ipureintro; rfl
    iexact HH
  isplitl [HW]
  · iexists fW; isplitr; · ipureintro; rfl
    iexact HW
  isplitl [HB]
  · iexists fB; isplitr; · ipureintro; rfl
    iexact HB
  isplitl [HG]
  · iexists fG; isplitr; · ipureintro; rfl
    iexact HG
  isplitl [HL]
  · iexists fL; isplitr; · ipureintro; rfl
    iexact HL
  isplitl [HO]
  · iexists _; isplitr
    swap; · iexact HO
    ipureintro
    rw [read_last_whole _ _ hz]
    sl_unfold_run_names
    rw [View.readCov_unit_zero (S := S1024x128) _ hz]
    simp only [View.readAt_eq_ld, View.ld_unit_zero (S := S1x4096) hz, View.ld_unit_zero (S := S4096x128) hz,
      View.ld_unit_zero (S := S1024x128) hz, View.ld_unit_zero (S := S128x128) hz, View.ld_unit_zero (S := S1x128) hz]
  iexists _; isplitr
  swap; · iexact HS
  ipureintro
  sl_unfold_run_names
  rw [read_last_whole _ _ hz]
  simp only [View.readAt_eq_ld, View.ld_unit_zero (S := S1x4096) hz, View.ld_unit_zero (S := S4096x128) hz,
    View.ld_unit_zero (S := S1024x128) hz]

/-! ## The body obligation, at a generic point -/

/-- An input window is never idle: the body's post for it is its buffer at its block. -/
theorem leaves_D (c : Dev nD) (t : Fin cfg2.N) :
    (dat V c).leavesExact 0 t = owns (c : Thread nD τ) (st2_0 t) fullShare (iblk V c 0 t) := by
  unfold Dat.leavesExact; rw [show cfg2.idle 0 (grid2.coords t) = false from rfl, after_D]
theorem leaves_T (c : Dev nD) (t : Fin cfg2.N) :
    (dat V c).leavesExact 1 t = owns (c : Thread nD τ) (st2_1 t) fullShare (iblk V c 1 t) := by
  unfold Dat.leavesExact; rw [show cfg2.idle 1 (grid2.coords t) = false from rfl, after_T]
theorem leaves_H (c : Dev nD) (t : Fin cfg2.N) :
    (dat V c).leavesExact 2 t = owns (c : Thread nD τ) (st2_2 t) fullShare (iblk V c 2 t) := by
  unfold Dat.leavesExact; rw [show cfg2.idle 2 (grid2.coords t) = false from rfl, after_H]
theorem leaves_W (c : Dev nD) (t : Fin cfg2.N) :
    (dat V c).leavesExact 3 t = owns (c : Thread nD τ) (st2_3 t) fullShare (iblk V c 3 t) := by
  unfold Dat.leavesExact; rw [show cfg2.idle 3 (grid2.coords t) = false from rfl, after_W]
theorem leaves_B (c : Dev nD) (t : Fin cfg2.N) :
    (dat V c).leavesExact 4 t = owns (c : Thread nD τ) (st2_4 t) fullShare (iblk V c 4 t) := by
  unfold Dat.leavesExact; rw [show cfg2.idle 4 (grid2.coords t) = false from rfl, after_B]
theorem leaves_G (c : Dev nD) (t : Fin cfg2.N) :
    (dat V c).leavesExact 5 t = owns (c : Thread nD τ) (st2_5 t) fullShare (iblk V c 5 t) := by
  unfold Dat.leavesExact; rw [show cfg2.idle 5 (grid2.coords t) = false from rfl, after_G]
theorem leaves_L (c : Dev nD) (t : Fin cfg2.N) :
    (dat V c).leavesExact 6 t = owns (c : Thread nD τ) (st2_6 t) fullShare (iblk V c 6 t) := by
  unfold Dat.leavesExact; rw [show cfg2.idle 6 (grid2.coords t) = false from rfl, after_L]

/-- What the body is called with at point `t` (the library's obligation, the windows one by one), -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body at any point. The inputs' memrefs hold their blocks; the point's edge-block coordinate says which case
    it is in. Where the coordinate is 0 the invariant's scratch, at whatever it holds, is zeroed and summed into; elsewhere
    it holds what the point before left and is summed into; at the last coordinate the output block is computed from
    the sum and stored, at the others the output's buffer is handed back untouched (the window idle, not written
    back). The invariant takes the scratch back at this point's sum; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_D, before_T, before_H, before_W, before_B, before_G, before_L]
  rw [show (dat V c).owesAt () t.succ = (dat V c).owesAt () t.castSucc from rfl]
  rw [show (dat V c).Φ t.succ = Phi V c (t.val + 1) t.isLt from rfl, Phi_succ]
  rw [leaves_D, leaves_T, leaves_H, leaves_W, leaves_B, leaves_G, leaves_L, Phi_castSucc]
  by_cases hr : t.val % 147 = 0
  · have hs : ¬t.val % 147 = 146 := by omega
    rw [Dat.leavesExact_idle (dat V c) 7 t (idle_out t hs) (noflush_out t hs), scr_reset V c t hr]
    iintro ⟨HΦ, Ho, ⟨%dD, HD⟩, ⟨%dT, HT⟩, ⟨%dH, HH⟩, ⟨%dW, HW⟩, ⟨%dB, HB⟩, ⟨%dG, HG⟩, ⟨%dL, HL⟩, ⟨%dO, HO⟩⟩
    ihave HΦ' := (Phi_any V c _ _) $$ HΦ
    icases HΦ' with ⟨⟨HS, HR⟩, Hg⟩
    iapply (run_reset c Set.univ (grid2.coords t) _ _ _ _ _ _ _ _ _ _ _ _ _ _ _ _ _ _ ((hR t).mpr hr) (fun h => hs ((hS t).mp h))
      (dstB V c t) (tB V c t) _)
    isplitl [HD]; · iexact HD
    isplitl [HT]; · iexact HT
    isplitl [HS]; · iexact HS
    iintro ⟨HD, HT, HS⟩
    isplitl [HS HR Hg]
    · isplitl [HS HR]
      · isplitl [HS]; · iexact HS
        iexact HR
      iexact Hg
    isplitl [Ho]; · iexact Ho
    isplitl [HD]; · iexact HD
    isplitl [HT]; · iexact HT
    isplitl [HH]; · iexact HH
    isplitl [HW]; · iexact HW
    isplitl [HB]; · iexact HB
    isplitl [HG]; · iexact HG
    isplitl [HL]; · iexact HL
    iexists _; iexact HO
  · have hz' : t.val ≠ 0 := fun h => hr (by rw [h])
    rw [Phi_pos V c _ _ hz', scr_acc V c t hr]
    by_cases hs : t.val % 147 = 146
    · rw [show (dat V c).leavesExact 7 t = owns (c : Thread nD τ) (st2_7 t) fullShare ((dat V c).after 7 t) from by
        unfold Dat.leavesExact; rw [live_out t hs], after_out]
      unfold outv
      rw [scr_acc V c t hr]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_store c Set.univ (grid2.coords t) _ _ _ _ _ _ _ _ _ _ _ _ _ _ _ _ _ _ (fun h => hr ((hR t).mp h)) ((hS t).mpr hs)
        (dstB V c t) (tB V c t) (hB V c t) (wB V c t) (bB V c t) (gB V c t) (lB V c t) _ _)
      isplitl [HD]; · iexact HD
      isplitl [HT]; · iexact HT
      isplitl [HH]; · iexact HH
      isplitl [HW]; · iexact HW
      isplitl [HB]; · iexact HB
      isplitl [HG]; · iexact HG
      isplitl [HL]; · iexact HL
      isplitl [HO]; · iexists _; iexact HO
      isplitl [HS]; · iexact HS
      iintro ⟨HD, HT, HH, HW, HB, HG, HL, HO, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexact HO
    · rw [Dat.leavesExact_idle (dat V c) 7 t (idle_out t hs) (noflush_out t hs)]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_acc c Set.univ (grid2.coords t) _ _ _ _ _ _ _ _ _ _ _ _ _ _ _ _ _ _ (fun h => hr ((hR t).mp h)) (fun h => hs ((hS t).mp h))
        (dstB V c t) (tB V c t) _ _)
      isplitl [HD]; · iexact HD
      isplitl [HT]; · iexact HT
      isplitl [HS]; · iexact HS
      iintro ⟨HD, HT, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexists _; iexact HO

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region (the class's invariant) is the invariant before the first point. -/
theorem hin (c : Dev nD) : (Pipeline.ΦA spec2 c : sProp 𝕄) ⊢ (dat V c).Φ 0 := by
  rw [show (dat V c).Φ 0 = Pipeline.ΦA spec2 c from rfl]
  try exact Idealize.SL.BI.Entails.refl _

/-- After the last point the invariant gives the class's back: the scratch's named contents are forgotten. -/
theorem hout (c : Dev nD) : (dat V c).Φ (Fin.last cfg2.N) ⊢ (Pipeline.ΦA spec2 c : sProp 𝕄) := by
  rw [PhiA_eq]
  exact Phi_any V c (Fin.last cfg2.N).val (Nat.le_of_lt_succ (Fin.last cfg2.N).isLt)

end Cert.KernelIdeal.Reg2

end
-- ==== Proof.KI.Reg3.lean ====
/-
  Region 1 of the program: the gather of every edge's source row as a one-hot product, accumulated over the node
  blocks in a scratch buffer that the kernel keeps from one grid point to the next.

  The grid is 147 edge blocks by 98 node blocks, the node block the fast coordinate. At the first node block of an
  edge block the accumulator is zeroed; at every point it is updated by the one-hot product of the point's source
  ids against its block of node rows; at the last node block it is rounded and stored into the output block, which
  only that point writes back. This module gives the proof data of that pipeline at a parameter `V` (the
  TensorCore's buffer contents when the region is entered): what the accumulator holds after each point as a
  recursion over the points (`accAt`, with its two case equations), what the output block holds (`outAt`), the
  invariant carrying the accumulator's contents from point to point (`PhiS`), the body's triple in each of its three
  cases and the body obligation. Everything is generic in the float model `F`.
-/
import proofs.«423195_j8272107012813_1_alg».proof.Proof.Gen.KernelIdeal.Launch
import proofs.«423195_j8272107012813_1_alg».proof.Proof.Gen.KernelIdeal.Skeleton
import proofs.«423195_j8272107012813_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: the edge block is the slow coordinate, the node block the fast one -/

/-- The node-block coordinate of point `t` is `t mod 98`. -/
theorem nodeCoord (t : Fin cfg3.N) : (grid3.coords t 1).val = t.val % 98 := by
  show t.val / 1 % 98 = t.val % 98
  rw [Nat.div_one]

/-- The body's first conditional: the node-block coordinate is zero (the accumulator is reset). -/
abbrev condReset (i : grid3.Coords) : Prop :=
  (Scalar.cmpi .ne (Scalar.extui (Scalar.cmpi .eq (BitVec.ofNat 32 (i 1).val) 0#32)) 0#32) = 1#1

/-- The body's second conditional: the node-block coordinate is the last one (the output block is stored). -/
abbrev condStore (i : grid3.Coords) : Prop := k3_cond2 i = 1#1

theorem condReset_fin : ∀ k : Fin 98,
    (Scalar.cmpi .ne (Scalar.extui (Scalar.cmpi .eq (BitVec.ofNat 32 k.val) 0#32)) 0#32) = 1#1 ↔ k.val = 0 := by
  decide

theorem condStore_fin : ∀ k : Fin 98,
    (Scalar.cmpi .ne (Scalar.extui (Scalar.cmpi .eq (BitVec.ofNat 32 k.val) 97#32)) 0#32) = 1#1 ↔ k.val = 97 := by
  decide

theorem condReset_iff (i : grid3.Coords) : condReset i ↔ (i 1).val = 0 := condReset_fin (i 1)

theorem condStore_iff (i : grid3.Coords) : condStore i ↔ (i 1).val = 97 := condStore_fin (i 1)

/-- At a point, in closed form. -/
theorem condReset_at (t : Fin cfg3.N) : condReset (grid3.coords t) ↔ t.val % 98 = 0 := by
  rw [condReset_iff, nodeCoord]

theorem condStore_at (t : Fin cfg3.N) : condStore (grid3.coords t) ↔ t.val % 98 = 97 := by
  rw [condStore_iff, nodeCoord]

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of source ids the point's edge block reads (window 0), at its literal type. -/
abbrev srcBlk (c : Dev nD) (t : Fin cfg3.N) : Vec F S1x4096 .i32 := iblk V c 0 t

/-- The block of node features the point's node block reads (window 1), at its literal type. -/
abbrev featBlk (c : Dev nD) (t : Fin cfg3.N) : Vec F S1024x128 .f32 := iblk V c 1 t

/-- An input window's current staging buffer holds its block at every point, fetched there or not, for any proof
    data whose array is `V`'s and whose body leaves the block in place: unfetched, the block index has not moved. -/
theorem before_src_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_feat_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the accumulator and the output block hold, point by point -/

/-- One point's update of the accumulator: the one-hot product of the point's source ids against its node block,
    added to what the accumulator held (`k3_pay2`, the skeleton's payload). -/
abbrev accStep (i : grid3.Coords) (xs : Vec F S1x4096 .i32) (xh : Vec F S1024x128 .f32) (xa : Vec F S4096x128 .f32) :
    Vec F S4096x128 .f32 := k3_pay2 i xs xh xa

/-- The accumulator at the start of an edge block: all zero (`k3_pay1`). -/
abbrev accZero : Vec F S4096x128 .f32 := k3_pay1 (F := F)

/-- THE ACCUMULATION. What the scratch accumulator holds after the body at position `n`: at the first node block of
    an edge block (`n mod 98 = 0`) one update of the zero accumulator, at every other point one update of what the
    point before left. -/
def accAt (c : Dev nD) : (n : ℕ) → n < cfg3.N → Vec F S4096x128 .f32
  | 0, hn => accStep (grid3.coords ⟨0, hn⟩) (srcBlk V c ⟨0, hn⟩) (featBlk V c ⟨0, hn⟩) accZero
  | n + 1, hn =>
    if (n + 1) % 98 = 0 then accStep (grid3.coords ⟨n + 1, hn⟩) (srcBlk V c ⟨n + 1, hn⟩) (featBlk V c ⟨n + 1, hn⟩) accZero
    else accStep (grid3.coords ⟨n + 1, hn⟩) (srcBlk V c ⟨n + 1, hn⟩) (featBlk V c ⟨n + 1, hn⟩) (accAt c n (Nat.lt_of_succ_lt hn))

/-- At a point where the accumulator is reset. -/
theorem accAt_reset (c : Dev nD) (t : Fin cfg3.N) (h : t.val % 98 = 0) :
    accAt V c t.val t.isLt = accStep (grid3.coords t) (srcBlk V c t) (featBlk V c t) accZero := by
  obtain ⟨n, hn⟩ := t
  cases n with
  | zero => rfl
  | succ n => exact if_pos h

/-- At a point where it is not: over what the point before left. -/
theorem accAt_step (c : Dev nD) (t : Fin cfg3.N) (h : ¬t.val % 98 = 0) :
    accAt V c t.val t.isLt
      = accStep (grid3.coords t) (srcBlk V c t) (featBlk V c t) (accAt V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at point `t`: the accumulator there, rounded to the
    output's format (`k3_pay3`). Stored by the body — and written back — only at the last node block of an edge
    block; elsewhere the window is idle and nothing consults this. -/
def outAt (c : Dev nD) (t : Fin cfg3.N) : Vec F S4096x128 .bf16 := k3_pay3 (accAt V c t.val t.isLt)

/-! ## Where the output window is stored and where it is idle -/

/-- At the last node block of an edge block the body stores the output block: the window is live. -/
theorem live_out (t : Fin cfg3.N) (h : t.val % 98 = 97) : cfg3.idle 2 (grid3.coords t) = false := by
  have hc : k3_cond2 (grid3.coords t) = 1#1 := (condStore_at t).mpr h
  show (!(k3_cond2 (grid3.coords t) == 1#1)) = false
  rw [hc]; rfl

/-- Elsewhere it stores nothing into it: the window is idle, -/
theorem idle_out (t : Fin cfg3.N) (h : ¬t.val % 98 = 97) : cfg3.idle 2 (grid3.coords t) = true := by
  have hc : ¬k3_cond2 (grid3.coords t) = 1#1 := fun e => h ((condStore_at t).mp e)
  show (!(k3_cond2 (grid3.coords t) == 1#1)) = true
  rw [Bool.not_eq_true', beq_eq_false_iff_ne]; exact hc

/-- and the pipeline does not write its block back. -/
theorem noFlush_out (t : Fin cfg3.N) (h : ¬t.val % 98 = 97) : (cfg3.win 2).flush t = false :=
  Bool.eq_false_iff.mpr fun e => h ((flush3_2 t).mp e)

/-! ## The invariant: the accumulator's contents, point by point -/

/-- The scratch accumulator, a whole scoped buffer of the kernel's own. -/
abbrev scM : Memref sig .tc .vmem S4096x128 .f32 := Memref.whole cc3_scratch0

/-- Every other scoped buffer of the core that is no staging buffer of this call, at some contents each. -/
abbrev restBut (c : Dev nD) : sProp 𝕄 :=
  Pipeline.scopedRestBut (Ix := Unit) (Name := ℕ) (U := UR sig nD τ) (Lvl := ℕ) (Val := Elt F) spec3 c [cc3_scratch0]

/-- The class's invariant with the accumulator as a memref owned at some contents. -/
theorem PhiA_eq (c : Dev nD) :
    (Pipeline.ΦA spec3 c : sProp 𝕄)
      = iprop(iprop((∃ d, owns (c : Thread nD τ) scM fullShare d) ∗ restBut (F := F) c) ∗ (∃ r, prngReg c r)) := by
  unfold Pipeline.ΦA; rw [scopedRest3_split]; simp only [scM, owns_whole]; try rfl

/-- The region invariant before position `n`: before the first point the class's (the accumulator at anything);
    afterwards the accumulator at what the point before left in it (`accAt`), the other scoped buffers at anything
    and the generator register at some state. -/
def PhiS (c : Dev nD) : (n : ℕ) → n ≤ cfg3.N → sProp 𝕄
  | 0, _ => Pipeline.ΦA spec3 c
  | n + 1, hn => iprop(iprop(owns (c : Thread nD τ) scM fullShare (accAt V c n hn) ∗ restBut (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg3.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

/-! ## The proof data -/

/-- The proof data of this pipeline on core `c`: the arrays as the region finds them (`V`); after the body at point
    `t` each input's buffer at its block and the output's at `outAt`; the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

/-- What the body leaves, window by window. -/
theorem after_src (c : Dev nD) (t : Fin cfg3.N) : (dat V c).after 0 t = iblk V c 0 t := by dsimp only [dat]
theorem after_feat (c : Dev nD) (t : Fin cfg3.N) : (dat V c).after 1 t = iblk V c 1 t := by dsimp only [dat]
theorem after_out (c : Dev nD) (t : Fin cfg3.N) : (dat V c).after 2 t = outAt V c t := by dsimp only [dat]

/-- The output's staged block in terms of the accumulator. -/
theorem after_out_eq (c : Dev nD) (t : Fin cfg3.N) : (dat V c).after 2 t = k3_pay3 (accAt V c t.val t.isLt) := after_out V c t

/-- The invariant at a point's start, restated at `t.val`. -/
theorem Phi_castSucc (c : Dev nD) (t : Fin cfg3.N) :
    (dat V c).Φ t.castSucc = PhiS V c t.val (Nat.le_of_lt t.isLt) := by
  dsimp only [dat]; simp only [Fin.coe_castSucc]

/-- Each input's current staging buffer holds its block at every point. -/
theorem before_src (c : Dev nD) (t : Fin cfg3.N) (d) : (dat V c).before 0 t d = iblk V c 0 t :=
  before_src_of V (dat V c) (A_eq V c 0) (after_src V c) t d
theorem before_feat (c : Dev nD) (t : Fin cfg3.N) (d) : (dat V c).before 1 t d = iblk V c 1 t :=
  before_feat_of V (dat V c) (A_eq V c 1) (after_feat V c) t d

/-! ## The body's triples, case by case

On whole memrefs — the staging buffers the pipeline passes and the scratch accumulator —, the two inputs' at read
contents `xs` (source ids) and `xh` (node features): the body runs to the continuation holding the inputs' as they
were, the accumulator at one update (`accStep`) of zero or of what it held, and, at the last node block, the
output's at the accumulator rounded. The conditionals are decided by the case's hypotheses. -/

/-- The zero offsets of a whole-buffer rectangle, however spelt. -/
theorem zeroOff : (![0, 0] : Fin 2 → Nat) = fun _ => 0 := by
  funext a; fin_cases a <;> rfl

/-- A list of pieces whose newest is a store through the whole-buffer rectangle covers the buffer. -/
theorem coverHead {e : EltTy} (w : S4096x128.Idx → Elt F e) (L : List (View.Piece (Elt F) S4096x128 e)) (y : S4096x128.Idx) :
    ∃ p ∈ ((⟨Rect.unit (s := S4096x128) ![0, 0] S4096x128.size inb_S4096x128_S4096x128_0_0, w⟩ : View.Piece (Elt F) S4096x128 e) :: L), y ∈ p.1.set :=
  ⟨_, List.Mem.head _, View.mem_set_unit_zero (S := S4096x128) zeroOff inb_S4096x128_S4096x128_0_0 y⟩

set_option maxHeartbeats 1000000 in
/-- AT A RESET POINT (the first node block of an edge block): the accumulator, at anything, is zeroed and updated once.
    The output's memref is not touched. -/
theorem run_reset (c : Dev nD) (i : grid3.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : condReset i) (hs : ¬condStore i)
    (xs : Vec F S1x4096 .i32) (xh : Vec F S1024x128 .f32) (E : Set ℕ) (K : PUnit → sProp 𝕄) :
    iprop(owns (c : Thread nD τ) arg2 fullShare xs ∗ owns (c : Thread nD τ) arg3 fullShare xh ∗ (∃ d, owns (c : Thread nD τ) arg5 fullShare d)
        ∗ (iprop(owns (c : Thread nD τ) arg2 fullShare xs ∗ owns (c : Thread nD τ) arg3 fullShare xh
            ∗ owns (c : Thread nD τ) arg5 fullShare (accStep i xs xh accZero)) -∗ K ⟨⟩))
      ⊢ wp frame (wpE (defs₀ (F := F)) Variants.none c none) E (cc3__gather_kernel i arg2 harg2 arg3 harg3 arg4 harg4 arg5 harg5) K := by
  simp only [cc3__gather_kernel_eq_skeleton]; unfold cc3__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT A POINT THAT NEITHER RESETS NOR STORES: the accumulator, at `xa`, is updated once. The output's memref is not
    touched. -/
theorem run_step (c : Dev nD) (i : grid3.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : ¬condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ owns (c : Thread nD τ) arg5 fullShare xa
        ∗ (iprop(owns (c : Thread nD τ) arg2 fullShare xs ∗ owns (c : Thread nD τ) arg3 fullShare xh
            ∗ owns (c : Thread nD τ) arg5 fullShare (accStep i xs xh xa)) -∗ K ⟨⟩))
      ⊢ wp frame (wpE (defs₀ (F := F)) Variants.none c none) E (cc3__gather_kernel i arg2 harg2 arg3 harg3 arg4 harg4 arg5 harg5) K := by
  simp only [cc3__gather_kernel_eq_skeleton]; unfold cc3__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT THE LAST NODE BLOCK of an edge block: the accumulator, at `xa`, is updated once, and the output's memref, at
    anything, is left at the accumulator rounded to the output's format. -/
theorem run_last (c : Dev nD) (i : grid3.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ (∃ d, owns (c : Thread nD τ) arg4 fullShare d) ∗ owns (c : Thread nD τ) arg5 fullShare xa
        ∗ (iprop(owns (c : Thread nD τ) arg2 fullShare xs ∗ owns (c : Thread nD τ) arg3 fullShare xh
            ∗ owns (c : Thread nD τ) arg4 fullShare (k3_pay3 (accStep i xs xh xa)) ∗ owns (c : Thread nD τ) arg5 fullShare (accStep i xs xh xa)) -∗ K ⟨⟩))
      ⊢ wp frame (wpE (defs₀ (F := F)) Variants.none c none) E (cc3__gather_kernel i arg2 harg2 arg3 harg3 arg4 harg4 arg5 harg5) K := by
  simp only [cc3__gather_kernel_eq_skeleton]; unfold cc3__gather_kernel_skel
  unfold owns
  iintro ⟨⟨%f0, %hf0, H0⟩, ⟨%f1, %hf1, H1⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_run_names
    refine (View.read_writes_eq_canon _ _ _ (coverHead _ _)).trans ?_
    rw [View.canon_cons_unit_zero (S := S4096x128) zeroOff]
    simp only [View.readAt_eq_ld, harg2.read_unread, harg3.read_unread, harg5.read_unread, View.ld_unit_zero (S := S1x4096) zeroOff,
      View.ld_unit_zero (S := S1024x128) zeroOff, View.ld_unit_zero (S := S4096x128) zeroOff, View.readCov_unit_zero (S := S4096x128) _ zeroOff]
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

/-! ## The body obligation, at a generic point -/

/-- Each window's current staging memref at point `t`, spelt as the pipeline passes it, and its wholeness. -/
abbrev msSrc (t : Fin cfg3.N) : Memref sig .tc .vmem S1x4096 .i32 := win3_0.stage (cfg3.slots t 0)
abbrev hsSrc (t : Fin cfg3.N) : (msSrc t).IsWhole := hstage3_0 ((cfg3.slots t 0).cast nbuf3_0)
abbrev msFeat (t : Fin cfg3.N) : Memref sig .tc .vmem S1024x128 .f32 := win3_1.stage (cfg3.slots t 1)
abbrev hsFeat (t : Fin cfg3.N) : (msFeat t).IsWhole := hstage3_1 ((cfg3.slots t 1).cast nbuf3_1)
abbrev msOut (t : Fin cfg3.N) : Memref sig .tc .vmem S4096x128 .bf16 := win3_2.stage (cfg3.slots t 2)
abbrev hsOut (t : Fin cfg3.N) : (msOut t).IsWhole := hstage3_2 ((cfg3.slots t 2).cast nbuf3_2)

/-- What the body is called with at point `t` (the obligation's precondition, the windows one by one), -/
def bodyPre (c : Dev nD) (t : Fin cfg3.N) : sProp 𝕄 :=
  iprop((dat V c).Φ t.castSucc ∗ (dat V c).owesAt () t.castSucc
    ∗ (∃ d, owns (c : Thread nD τ) (msSrc t) fullShare ((dat V c).before 0 t d))
    ∗ (∃ d, owns (c : Thread nD τ) (msFeat t) fullShare ((dat V c).before 1 t d))
    ∗ (∃ d, owns (c : Thread nD τ) (msOut t) fullShare ((dat V c).before 2 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

/-- An input window is never idle: its buffer is left at its block. -/
theorem leaves_src (c : Dev nD) (t : Fin cfg3.N) :
    (dat V c).leavesExact 0 t = owns (c : Thread nD τ) (msSrc t) fullShare (iblk V c 0 t) := by
  rw [← after_src V c t]
theorem leaves_feat (c : Dev nD) (t : Fin cfg3.N) :
    (dat V c).leavesExact 1 t = owns (c : Thread nD τ) (msFeat t) fullShare (iblk V c 1 t) := by
  rw [← after_feat V c t]

/-- The output window where it is stored: its buffer is left at the accumulator rounded. -/
theorem leaves_out_live (c : Dev nD) (t : Fin cfg3.N) (h : t.val % 98 = 97) :
    (dat V c).leavesExact 2 t = owns (c : Thread nD τ) (msOut t) fullShare (outAt V c t) := by
  unfold Dat.leavesExact; rw [live_out t h, after_out]

/-- The output window where it is idle: its buffer is handed back as it was found. -/
theorem leaves_out_idle (c : Dev nD) (t : Fin cfg3.N) (h : ¬t.val % 98 = 97) :
    (dat V c).leavesExact 2 t = iprop(∃ d, owns (c : Thread nD τ) (msOut t) fullShare ((dat V c).before 2 t d)) :=
  Dat.leavesExact_idle (dat V c) 2 t (idle_out t h) (noFlush_out t h)

set_option maxHeartbeats 2000000 in
/-- The body at any point. The inputs' memrefs hold their blocks; the point's position in its edge block says which
    case it is in: at the first node block the accumulator (at what the point before left, or at anything at the very
    first point) is zeroed and updated, elsewhere it is updated from what the point before left; at the last node
    block the output's buffer is stored, elsewhere it is handed back untouched. The invariant takes the accumulator
    back at this point's contents; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_src, before_feat]
  rw [show (dat V c).owesAt () t.succ = (dat V c).owesAt () t.castSucc from rfl]
  rw [show (dat V c).Φ t.succ = PhiS V c (t.val + 1) t.isLt from rfl, PhiS_succ]
  rw [leaves_src, leaves_feat, Phi_castSucc]
  by_cases h0 : t.val % 98 = 0
  · -- the first node block of an edge block
    have h97 : ¬t.val % 98 = 97 := by omega
    rw [leaves_out_idle V c t h97, accAt_reset V c t h0]
    by_cases hz : t.val = 0
    · rw [PhiS_zero V c _ _ hz, PhiA_eq]
      iintro ⟨⟨⟨HS, HR⟩, Hg⟩, Ho, ⟨%d0, H0⟩, ⟨%d1, H1⟩, H2⟩
      iapply (run_reset c (grid3.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [PhiS_pos V c _ _ hz]
      iintro ⟨⟨⟨HS, HR⟩, Hg⟩, Ho, ⟨%d0, H0⟩, ⟨%d1, H1⟩, H2⟩
      iapply (run_reset c (grid3.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexists _; iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [PhiS_pos V c _ _ hz, accAt_step V c t h0]
    by_cases h97 : t.val % 98 = 97
    · -- the last node block of an edge block
      rw [leaves_out_live V c t h97]
      unfold outAt
      rw [accAt_step V c t h0]
      iintro ⟨⟨⟨HS, HR⟩, Hg⟩, Ho, ⟨%d0, H0⟩, ⟨%d1, H1⟩, ⟨%d2, H2⟩⟩
      iapply (run_last c (grid3.coords t) _ _ _ _ _ _ _ _ (fun e => h0 ((condReset_at t).mp e)) ((condStore_at t).mpr h97)
        (srcBlk V c t) (featBlk V c t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · -- a node block in between
      rw [leaves_out_idle V c t h97]
      iintro ⟨⟨⟨HS, HR⟩, Hg⟩, Ho, ⟨%d0, H0⟩, ⟨%d1, H1⟩, H2⟩
      iapply (run_step c (grid3.coords t) _ _ _ _ _ _ _ _ (fun e => h0 ((condReset_at t).mp e)) (fun e => h97 ((condStore_at t).mp e))
        (srcBlk V c t) (featBlk V c t) _ Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : (Pipeline.ΦA spec3 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class's back: the accumulator's named contents are forgotten. -/
theorem Phi_out (c : Dev nD) (t : Fin (cfg3.N + 1)) (ht : t.val ≠ 0) : (dat V c).Φ t ⊢ (Pipeline.ΦA spec3 c : sProp 𝕄) := by
  rw [show (dat V c).Φ t = PhiS V c t.val (Nat.le_of_lt_succ t.isLt) from rfl, PhiS_pos V c _ _ ht, PhiA_eq]
  iintro ⟨⟨HS, HR⟩, Hg⟩
  isplitr [Hg]
  · isplitl [HS]; · iexists _; iexact HS
    iexact HR
  iexact Hg

/-- The same after the last point. -/
theorem hout (c : Dev nD) : (dat V c).Φ (Fin.last cfg3.N) ⊢ (Pipeline.ΦA spec3 c : sProp 𝕄) :=
  Phi_out V c _ (by rw [Fin.val_last]; have : cfg3.N = 14406 := N_3; omega)

end Cert.KernelIdeal.Reg3

end
-- ==== Proof.KI.Reg4.lean ====
/-
  Kernel region 2 (scatter-add by one-hot weights over edge blocks, then the dense layer, ReLU and row
  normalization at the last edge block), on one core, at any float model and at any contents `V` of the
  TensorCore's buffers when the region is entered: the proof data of its pipeline and the body obligation.

  The grid is 98 node blocks by 147 edge blocks, the edge axis fastest. The kernel keeps a 1024 x 128 accumulator in a
  scratch block of its own: zeroed where the edge-block coordinate is 0, increased at every point by the product of the
  point's one-hot matrix (destination ids against the node block's row numbers) with the point's block of gathered
  rows; where the coordinate is 146, the last, the output block is computed from the node block's features plus the
  accumulator and stored. What the scratch holds after each point (`scr`) and what the output block is (`outv`) are
  functions of the input blocks through the kernel's payloads, by recursion on the point; the region's invariant
  carries the scratch at `scr` from point to point.
-/
import proofs.«423195_j8272107012813_1_alg».proof.Proof.Gen.KernelIdeal.Launch
import proofs.«423195_j8272107012813_1_alg».proof.Proof.Gen.KernelIdeal.Skeleton
import proofs.«423195_j8272107012813_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: a point's edge-block coordinate, and the body's two conditions in closed form

The grid is 98 node blocks by 147 edge blocks, the edge axis fastest: point `t` has edge-block coordinate
`t % 147`. The body zeroes its accumulator where that coordinate is 0 and stores its output where it is 146. -/

/-- The edge-block coordinate (axis 1) of point `t` is `t % 147`. -/
theorem coord_e (t : Fin cfg4.N) : ((grid4.coords t) 1).val = t.val % 147 := by
  show t.val / grid4.stride 1 % grid4.bound 1 = t.val % 147
  rw [show grid4.stride 1 = 1 from by decide, Nat.div_one]; rfl

/-- The condition under which the body zeroes the accumulator (the first conditional of the kernel function), as
    the kernel function computes it from the coordinates. -/
abbrev condR (i : grid4.Coords) : Prop :=
  Scalar.cmpi .ne (Scalar.extui (Scalar.cmpi .eq (BitVec.ofNat 32 (i 1).val) 0#32)) 0#32 = 1#1

/-- The condition under which the body computes and stores its output block (the second conditional). -/
abbrev condS (i : grid4.Coords) : Prop := k4_cond2 i = 1#1

/-- The accumulator is zeroed exactly where the edge-block coordinate is 0 (the 147 values of the coordinate
    checked one by one). -/
theorem condR_iff (i : grid4.Coords) : condR i ↔ (i 1).val = 0 :=
  (by decide +kernel : ∀ k : Fin 147,
    (Scalar.cmpi .ne (Scalar.extui (Scalar.cmpi .eq (BitVec.ofNat 32 k.val) 0#32)) 0#32 = 1#1) ↔ k.val = 0) (i 1)

/-- The output is stored exactly where the edge-block coordinate is 146, the last. -/
theorem condS_iff (i : grid4.Coords) : condS i ↔ (i 1).val = 146 :=
  (by decide +kernel : ∀ k : Fin 147,
    (Scalar.cmpi .ne (Scalar.extui (Scalar.cmpi .eq (BitVec.ofNat 32 k.val) 146#32)) 0#32 = 1#1) ↔ k.val = 146) (i 1)

/-- At point `t` the accumulator is zeroed iff `t % 147 = 0`. -/
theorem hR (t : Fin cfg4.N) : condR (grid4.coords t) ↔ t.val % 147 = 0 :=
  (condR_iff (grid4.coords t)).trans (by rw [coord_e])

/-- At point `t` the output is stored iff `t % 147 = 146`. -/
theorem hS (t : Fin cfg4.N) : condS (grid4.coords t) ↔ t.val % 147 = 146 :=
  (condS_iff (grid4.coords t)).trans (by rw [coord_e])

/-- Where the output is not stored its window is idle; -/
theorem idle_out (t : Fin cfg4.N) (h : ¬t.val % 147 = 146) : cfg4.idle 7 (grid4.coords t) = true := by
  have hc : ¬k4_cond2 (grid4.coords t) = 1#1 := fun h' => h ((hS t).mp h')
  show (!(k4_cond2 (grid4.coords t) == 1#1)) = true
  simp [hc]

/-- where it is stored the window is live; -/
theorem live_out (t : Fin cfg4.N) (h : t.val % 147 = 146) : cfg4.idle 7 (grid4.coords t) = false := by
  have hc : k4_cond2 (grid4.coords t) = 1#1 := (hS t).mpr h
  show (!(k4_cond2 (grid4.coords t) == 1#1)) = false
  simp [hc]

/-- and the pipeline writes the block back only there. -/
theorem noflush_out (t : Fin cfg4.N) (h : ¬t.val % 147 = 146) : (cfg4.win 7).flush t = false :=
  Bool.eq_false_iff.mpr fun hf => h ((flush4_7 t).mp hf)

/-! ## The windows' blocks -/

/-- Window `w`'s block at point `t`, read off its array as the region finds it (`V`). -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input blocks at their literal types: the destination ids of edge block `e`, the gathered rows of edge block
    `e`, the node features of node block `n`, the layer's weight, bias, and the normalization's scale and shift. -/
abbrev dstB (c : Dev nD) (t : Fin cfg4.N) : Vec F S1x4096 .i32 := iblk V c 0 t
abbrev tB (c : Dev nD) (t : Fin cfg4.N) : Vec F S4096x128 .bf16 := iblk V c 1 t
abbrev hB (c : Dev nD) (t : Fin cfg4.N) : Vec F S1024x128 .f32 := iblk V c 2 t
abbrev wB (c : Dev nD) (t : Fin cfg4.N) : Vec F S128x128 .f32 := iblk V c 3 t
abbrev bB (c : Dev nD) (t : Fin cfg4.N) : Vec F S1x128 .f32 := iblk V c 4 t
abbrev gB (c : Dev nD) (t : Fin cfg4.N) : Vec F S1x128 .f32 := iblk V c 5 t
abbrev lB (c : Dev nD) (t : Fin cfg4.N) : Vec F S1x128 .f32 := iblk V c 6 t

/-! ## What the body leaves: the accumulator point by point, and the output block -/

/-- THE ACCUMULATION. The accumulator (the kernel's own scratch block) after the body at point `n`: the point's
    one-hot scatter product of its edge block added (`k4_pay2`) to the zero block (`k4_pay1`) where the
    edge-block coordinate is 0, to what the point before left elsewhere. -/
def scr (c : Dev nD) : (n : ℕ) → n < cfg4.N → Vec F S1024x128 .f32
  | 0, hn => k4_pay2 (grid4.coords ⟨0, hn⟩) (dstB V c ⟨0, hn⟩) (tB V c ⟨0, hn⟩) k4_pay1
  | n + 1, hn =>
    if (n + 1) % 147 = 0 then k4_pay2 (grid4.coords ⟨n + 1, hn⟩) (dstB V c ⟨n + 1, hn⟩) (tB V c ⟨n + 1, hn⟩) k4_pay1
    else k4_pay2 (grid4.coords ⟨n + 1, hn⟩) (dstB V c ⟨n + 1, hn⟩) (tB V c ⟨n + 1, hn⟩) (scr c n (Nat.lt_of_succ_lt hn))

/-- At a point whose edge-block coordinate is 0 the sum starts afresh from the zero block; -/
theorem scr_reset (c : Dev nD) (t : Fin cfg4.N) (h : t.val % 147 = 0) :
    scr V c t.val t.isLt = k4_pay2 (grid4.coords t) (dstB V c t) (tB V c t) k4_pay1 := by
  obtain ⟨n, hn⟩ := t
  cases n with
  | zero => rfl
  | succ n => exact if_pos h

/-- elsewhere it goes on from what the point before left. -/
theorem scr_acc (c : Dev nD) (t : Fin cfg4.N) (h : ¬t.val % 147 = 0) :
    scr V c t.val t.isLt = k4_pay2 (grid4.coords t) (dstB V c t) (tB V c t)
      (scr V c (t.val - 1) (Nat.lt_of_le_of_lt (Nat.sub_le _ _) t.isLt)) := by
  obtain ⟨n, hn⟩ := t
  cases n with
  | zero => exact absurd (Nat.zero_mod _) h
  | succ n => exact if_neg h

/-- The output block the body computes from the point's accumulator (the dense layer on features plus aggregate,
    rectified and normalized: `k4_pay3`). The body stores it only where the edge-block coordinate is 146; it is the
    value of the proof data's `after` for the output window at every point, consulted only there. -/
def outv (c : Dev nD) (t : Fin cfg4.N) : Vec F S1024x128 .f32 :=
  k4_pay3 (hB V c t) (scr V c t.val t.isLt) (wB V c t) (bB V c t) (gB V c t) (lB V c t)

/-! ## The invariant: the accumulator between points -/

/-- The kernel's scratch block, whole. -/
abbrev scM : Memref sig .tc .vmem S1024x128 .f32 := Memref.whole cc4_scratch0

/-- The core's scoped buffers other than the staging buffers and the scratch block, each at some contents. -/
abbrev restBut (c : Dev nD) : sProp 𝕄 :=
  Pipeline.scopedRestBut (Ix := Unit) (Name := ℕ) (U := UR sig nD τ) (Lvl := ℕ) (Val := Elt F) spec4 c [cc4_scratch0]

/-- The class's invariant with the scratch block as a memref owned at some contents. -/
theorem PhiA_eq (c : Dev nD) :
    (Pipeline.ΦA spec4 c : sProp 𝕄)
      = iprop(iprop((∃ d, owns (c : Thread nD τ) scM fullShare d) ∗ restBut c) ∗ (∃ r, prngReg c r)) := by
  unfold Pipeline.ΦA; rw [scopedRest4_split]; simp only [scM, owns_whole]; try rfl

/-- The region's invariant before position `n`: before the first point the class's (the scratch at anything);
    afterwards the scratch at what the point before left in it (`scr`), the other scoped buffers at anything, the
    generator register at some state. -/
def Phi (c : Dev nD) : (n : ℕ) → n ≤ cfg4.N → sProp 𝕄
  | 0, _ => Pipeline.ΦA spec4 c
  | n + 1, hn => iprop(iprop(owns (c : Thread nD τ) scM fullShare (scr V c n hn) ∗ restBut c) ∗ (∃ r, prngReg c r))

theorem Phi_succ (c : Dev nD) (n : ℕ) (hn : n < cfg4.N) :
    Phi V c (n + 1) hn = iprop(iprop(owns (c : Thread nD τ) scM fullShare (scr V c n hn) ∗ restBut c) ∗ (∃ r, prngReg c r)) := rfl

theorem Phi_pos (c : Dev nD) (n : ℕ) (h : n ≤ cfg4.N) (hz : n ≠ 0) :
    Phi V c n h = iprop(iprop(owns (c : Thread nD τ) scM fullShare (scr V c (n - 1) (by omega)) ∗ restBut c) ∗ (∃ r, prngReg c r)) := by
  cases n with
  | zero => exact absurd rfl hz
  | succ n => rfl

/-- At any position the invariant yields the scratch at SOME contents: what a point that zeroes it needs, and what
    the class's invariant says. -/
theorem Phi_any (c : Dev nD) (n : ℕ) (h : n ≤ cfg4.N) :
    Phi V c n h ⊢ iprop(iprop((∃ d, owns (c : Thread nD τ) scM fullShare d) ∗ restBut c) ∗ (∃ r, prngReg c r)) := by
  cases n with
  | zero => rw [show Phi V c 0 h = Pipeline.ΦA spec4 c from rfl, PhiA_eq]; try exact Idealize.SL.BI.Entails.refl _
  | succ n =>
    rw [Phi_succ]
    iintro ⟨⟨HS, HR⟩, Hg⟩
    isplitl [HS HR]
    · isplitl [HS]
      · iexists _; iexact HS
      iexact HR
    iexact Hg

/-! ## The pipeline's proof data -/

/-- The proof data of the region on core `c`: the arrays as the region finds them (`V`); after the body at point
    `t` each input's buffer at its block and the output's at `outv`; the invariant `Phi`; nothing owed; full
    shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outv V c t
  Φ t := Phi V c t.val (Nat.le_of_lt_succ t.isLt)
  q _ := fullShare
  owed _ := 0

/-- The proof data's arrays are the region-entry contents. -/
theorem A_eq (c : Dev nD) (w : Fin cfg4.W) : (dat V c).A w = V c (Pipeline.arrRef spec4 w) := by
  dsimp only [dat]

/-- The invariant at a point's start, restated at `t.val`. -/
theorem Phi_castSucc (c : Dev nD) (t : Fin cfg4.N) :
    (dat V c).Φ t.castSucc = Phi V c t.val (Nat.le_of_lt t.isLt) := by
  dsimp only [dat]; simp only [Fin.coe_castSucc]

/-- What the body leaves, window by window. -/
theorem after_D (c : Dev nD) (t : Fin cfg4.N) : (dat V c).after 0 t = iblk V c 0 t := by dsimp only [dat]
theorem after_T (c : Dev nD) (t : Fin cfg4.N) : (dat V c).after 1 t = iblk V c 1 t := by dsimp only [dat]
theorem after_H (c : Dev nD) (t : Fin cfg4.N) : (dat V c).after 2 t = iblk V c 2 t := by dsimp only [dat]
theorem after_W (c : Dev nD) (t : Fin cfg4.N) : (dat V c).after 3 t = iblk V c 3 t := by dsimp only [dat]
theorem after_B (c : Dev nD) (t : Fin cfg4.N) : (dat V c).after 4 t = iblk V c 4 t := by dsimp only [dat]
theorem after_G (c : Dev nD) (t : Fin cfg4.N) : (dat V c).after 5 t = iblk V c 5 t := by dsimp only [dat]
theorem after_L (c : Dev nD) (t : Fin cfg4.N) : (dat V c).after 6 t = iblk V c 6 t := by dsimp only [dat]
theorem after_out (c : Dev nD) (t : Fin cfg4.N) : (dat V c).after 7 t = outv V c t := by dsimp only [dat]

/-- Each input's current staging buffer holds its block at every point, fetched there or not: the body leaves the
    block in place, and where the pipeline does not fetch, the block index has not moved. -/
theorem before_D (c : Dev nD) (t : Fin cfg4.N) (d) : (dat V c).before 0 t d = iblk V c 0 t :=
  ((dat V c).before_in_eq_fetched 0 rfl (fun _ => rfl) (fun _ _ _ => rfl)
    (fun t => by rw [after_D]; unfold Dat.blockOf iblk; rw [A_eq]; try rfl) t d).trans
    (by unfold Dat.fetched Dat.blockOf iblk; rw [A_eq]; try rfl)
theorem before_T (c : Dev nD) (t : Fin cfg4.N) (d) : (dat V c).before 1 t d = iblk V c 1 t :=
  ((dat V c).before_in_eq_fetched 1 rfl (fun _ => rfl) (fun _ _ _ => rfl)
    (fun t => by rw [after_T]; unfold Dat.blockOf iblk; rw [A_eq]; try rfl) t d).trans
    (by unfold Dat.fetched Dat.blockOf iblk; rw [A_eq]; try rfl)
theorem before_H (c : Dev nD) (t : Fin cfg4.N) (d) : (dat V c).before 2 t d = iblk V c 2 t :=
  ((dat V c).before_in_eq_fetched 2 rfl (fun _ => rfl) (fun _ _ _ => rfl)
    (fun t => by rw [after_H]; unfold Dat.blockOf iblk; rw [A_eq]; try rfl) t d).trans
    (by unfold Dat.fetched Dat.blockOf iblk; rw [A_eq]; try rfl)
theorem before_W (c : Dev nD) (t : Fin cfg4.N) (d) : (dat V c).before 3 t d = iblk V c 3 t :=
  ((dat V c).before_in_eq_fetched 3 rfl (fun _ => rfl) (fun _ _ _ => rfl)
    (fun t => by rw [after_W]; unfold Dat.blockOf iblk; rw [A_eq]; try rfl) t d).trans
    (by unfold Dat.fetched Dat.blockOf iblk; rw [A_eq]; try rfl)
theorem before_B (c : Dev nD) (t : Fin cfg4.N) (d) : (dat V c).before 4 t d = iblk V c 4 t :=
  ((dat V c).before_in_eq_fetched 4 rfl (fun _ => rfl) (fun _ _ _ => rfl)
    (fun t => by rw [after_B]; unfold Dat.blockOf iblk; rw [A_eq]; try rfl) t d).trans
    (by unfold Dat.fetched Dat.blockOf iblk; rw [A_eq]; try rfl)
theorem before_G (c : Dev nD) (t : Fin cfg4.N) (d) : (dat V c).before 5 t d = iblk V c 5 t :=
  ((dat V c).before_in_eq_fetched 5 rfl (fun _ => rfl) (fun _ _ _ => rfl)
    (fun t => by rw [after_G]; unfold Dat.blockOf iblk; rw [A_eq]; try rfl) t d).trans
    (by unfold Dat.fetched Dat.blockOf iblk; rw [A_eq]; try rfl)
theorem before_L (c : Dev nD) (t : Fin cfg4.N) (d) : (dat V c).before 6 t d = iblk V c 6 t :=
  ((dat V c).before_in_eq_fetched 6 rfl (fun _ => rfl) (fun _ _ _ => rfl)
    (fun t => by rw [after_L]; unfold Dat.blockOf iblk; rw [A_eq]; try rfl) t d).trans
    (by unfold Dat.fetched Dat.blockOf iblk; rw [A_eq]; try rfl)

/-! ## The body's triple, case by case

The kernel function on whole memrefs. It reads the destination ids and the gathered rows, and reads and rewrites the
accumulator; only where it stores the output does it touch the other operands. The whole-block rectangle's offsets
are zero, so that a load through it reads the contents and a store through it, last, leaves its payload. -/

theorem hz : (![0, 0] : Fin 2 → ℕ) = fun _ => 0 := funext fun a => by fin_cases a <;> rfl

/-- After writes whose LAST is a store through the whole-block rectangle, the buffer reads as that store's payload,
    whatever the earlier writes and the prior contents. -/
theorem read_last_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

set_option maxHeartbeats 1000000 in
/-- WHERE THE ACCUMULATOR IS ZEROED and the output not stored: from the ids and rows at `xd`, `xt` and the
    accumulator at anything, the body leaves the accumulator at the point's product added to the zero block (the
    zero block stored first and read back), the ids and rows as they were. -/
theorem run_reset (c : Dev nD) (E : Set ℕ) (i : grid4.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : condR i) (hs : ¬condS i) (xd : Vec F S1x4096 .i32) (xt : Vec F S4096x128 .bf16) (K : PUnit → sProp 𝕄) :
    iprop(owns (c : Thread nD τ) aD fullShare xd ∗ owns (c : Thread nD τ) aT fullShare xt ∗ (∃ d, owns (c : Thread nD τ) aS fullShare d)
        ∗ (iprop(owns (c : Thread nD τ) aD fullShare xd ∗ owns (c : Thread nD τ) aT fullShare xt
            ∗ owns (c : Thread nD τ) aS fullShare (k4_pay2 i xd xt k4_pay1)) -∗ K ⟨⟩))
      ⊢ wp frame (wpE (defs₀ (F := F)) Variants.none c none) E (cc4__scatter_mlp_ln_kernel i aD hD aT hT aH hH aW hW aB hB' aG hG aL hL aO hO aS hS') K := by
  simp only [cc4__scatter_mlp_ln_kernel_eq_skeleton]; unfold cc4__scatter_mlp_ln_kernel_skel
  unfold owns
  iintro ⟨⟨%fD, %hfD, HD⟩, ⟨%fT, %hfT, HT⟩, ⟨%ds, %fs, -, HS⟩, Hk⟩
  subst hfD; subst hfT
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  sl_unfold_run_names
  rw [View.readCov_unit_zero (S := S1024x128) _ hz]
  simp only [View.readAt_eq_ld, View.ld_unit_zero (S := S1x4096) hz, View.ld_unit_zero (S := S4096x128) hz]

set_option maxHeartbeats 1000000 in
/-- WHERE THE ACCUMULATOR IS KEPT and the output not stored: from the accumulator at `xs`, the body leaves it at the
    point's product added to `xs`. -/
theorem run_acc (c : Dev nD) (E : Set ℕ) (i : grid4.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : ¬condS i) (xd : Vec F S1x4096 .i32) (xt : Vec F S4096x128 .bf16) (xs : Vec F S1024x128 .f32)
    (K : PUnit → sProp 𝕄) :
    iprop(owns (c : Thread nD τ) aD fullShare xd ∗ owns (c : Thread nD τ) aT fullShare xt ∗ owns (c : Thread nD τ) aS fullShare xs
        ∗ (iprop(owns (c : Thread nD τ) aD fullShare xd ∗ owns (c : Thread nD τ) aT fullShare xt
            ∗ owns (c : Thread nD τ) aS fullShare (k4_pay2 i xd xt xs)) -∗ K ⟨⟩))
      ⊢ wp frame (wpE (defs₀ (F := F)) Variants.none c none) E (cc4__scatter_mlp_ln_kernel i aD hD aT hT aH hH aW hW aB hB' aG hG aL hL aO hO aS hS') K := by
  simp only [cc4__scatter_mlp_ln_kernel_eq_skeleton]; unfold cc4__scatter_mlp_ln_kernel_skel
  unfold owns
  iintro ⟨⟨%fD, %hfD, HD⟩, ⟨%fT, %hfT, HT⟩, ⟨%fs, %hfs, HS⟩, Hk⟩
  subst hfD; subst hfT; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  simp only [View.readAt_eq_ld, View.ld_unit_zero (S := S1x4096) hz, View.ld_unit_zero (S := S4096x128) hz,
    View.ld_unit_zero (S := S1024x128) hz]

set_option maxHeartbeats 2000000 in
/-- WHERE THE OUTPUT IS STORED (the accumulator kept): from the accumulator at `xs` and the other operands at their
    contents, the output's buffer at anything, the body leaves the accumulator at the point's product added to `xs`
    and the output's buffer at the block computed from that sum. -/
theorem run_store (c : Dev nD) (E : Set ℕ) (i : grid4.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : condS i) (xd : Vec F S1x4096 .i32) (xt : Vec F S4096x128 .bf16) (xh : Vec F S1024x128 .f32)
    (xw : Vec F S128x128 .f32) (xb : Vec F S1x128 .f32) (xg : Vec F S1x128 .f32) (xl : Vec F S1x128 .f32)
    (xs : Vec F S1024x128 .f32) (K : PUnit → sProp 𝕄) :
    iprop(owns (c : Thread nD τ) aD fullShare xd ∗ owns (c : Thread nD τ) aT fullShare xt ∗ owns (c : Thread nD τ) aH fullShare xh ∗ owns (c : Thread nD τ) aW fullShare xw
        ∗ owns (c : Thread nD τ) aB fullShare xb ∗ owns (c : Thread nD τ) aG fullShare xg ∗ owns (c : Thread nD τ) aL fullShare xl
        ∗ (∃ d, owns (c : Thread nD τ) aO fullShare d) ∗ owns (c : Thread nD τ) aS fullShare xs
        ∗ (iprop(owns (c : Thread nD τ) aD fullShare xd ∗ owns (c : Thread nD τ) aT fullShare xt ∗ owns (c : Thread nD τ) aH fullShare xh ∗ owns (c : Thread nD τ) aW fullShare xw
            ∗ owns (c : Thread nD τ) aB fullShare xb ∗ owns (c : Thread nD τ) aG fullShare xg ∗ owns (c : Thread nD τ) aL fullShare xl
            ∗ owns (c : Thread nD τ) aO fullShare (k4_pay3 xh (k4_pay2 i xd xt xs) xw xb xg xl)
            ∗ owns (c : Thread nD τ) aS fullShare (k4_pay2 i xd xt xs)) -∗ K ⟨⟩))
      ⊢ wp frame (wpE (defs₀ (F := F)) Variants.none c none) E (cc4__scatter_mlp_ln_kernel i aD hD aT hT aH hH aW hW aB hB' aG hG aL hL aO hO aS hS') K := by
  simp only [cc4__scatter_mlp_ln_kernel_eq_skeleton]; unfold cc4__scatter_mlp_ln_kernel_skel
  unfold owns
  iintro ⟨⟨%fD, %hfD, HD⟩, ⟨%fT, %hfT, HT⟩, ⟨%fH, %hfH, HH⟩, ⟨%fW, %hfW, HW⟩, ⟨%fB, %hfB, HB⟩, ⟨%fG, %hfG, HG⟩, ⟨%fL, %hfL, HL⟩,
    ⟨%dO, %fO, -, HO⟩, ⟨%fs, %hfs, HS⟩, Hk⟩
  subst hfD; subst hfT; subst hfH; subst hfW; subst hfB; subst hfG; subst hfL; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  isplitl [HH]
  · iexists fH; isplitr; · ipureintro; rfl
    iexact HH
  isplitl [HW]
  · iexists fW; isplitr; · ipureintro; rfl
    iexact HW
  isplitl [HB]
  · iexists fB; isplitr; · ipureintro; rfl
    iexact HB
  isplitl [HG]
  · iexists fG; isplitr; · ipureintro; rfl
    iexact HG
  isplitl [HL]
  · iexists fL; isplitr; · ipureintro; rfl
    iexact HL
  isplitl [HO]
  · iexists _; isplitr
    swap; · iexact HO
    ipureintro
    rw [read_last_whole _ _ hz]
    sl_unfold_run_names
    rw [View.readCov_unit_zero (S := S1024x128) _ hz]
    simp only [View.readAt_eq_ld, View.ld_unit_zero (S := S1x4096) hz, View.ld_unit_zero (S := S4096x128) hz,
      View.ld_unit_zero (S := S1024x128) hz, View.ld_unit_zero (S := S128x128) hz, View.ld_unit_zero (S := S1x128) hz]
  iexists _; isplitr
  swap; · iexact HS
  ipureintro
  sl_unfold_run_names
  rw [read_last_whole _ _ hz]
  simp only [View.readAt_eq_ld, View.ld_unit_zero (S := S1x4096) hz, View.ld_unit_zero (S := S4096x128) hz,
    View.ld_unit_zero (S := S1024x128) hz]

/-! ## The body obligation, at a generic point -/

/-- An input window is never idle: the body's post for it is its buffer at its block. -/
theorem leaves_D (c : Dev nD) (t : Fin cfg4.N) :
    (dat V c).leavesExact 0 t = owns (c : Thread nD τ) (st4_0 t) fullShare (iblk V c 0 t) := by
  unfold Dat.leavesExact; rw [show cfg4.idle 0 (grid4.coords t) = false from rfl, after_D]
theorem leaves_T (c : Dev nD) (t : Fin cfg4.N) :
    (dat V c).leavesExact 1 t = owns (c : Thread nD τ) (st4_1 t) fullShare (iblk V c 1 t) := by
  unfold Dat.leavesExact; rw [show cfg4.idle 1 (grid4.coords t) = false from rfl, after_T]
theorem leaves_H (c : Dev nD) (t : Fin cfg4.N) :
    (dat V c).leavesExact 2 t = owns (c : Thread nD τ) (st4_2 t) fullShare (iblk V c 2 t) := by
  unfold Dat.leavesExact; rw [show cfg4.idle 2 (grid4.coords t) = false from rfl, after_H]
theorem leaves_W (c : Dev nD) (t : Fin cfg4.N) :
    (dat V c).leavesExact 3 t = owns (c : Thread nD τ) (st4_3 t) fullShare (iblk V c 3 t) := by
  unfold Dat.leavesExact; rw [show cfg4.idle 3 (grid4.coords t) = false from rfl, after_W]
theorem leaves_B (c : Dev nD) (t : Fin cfg4.N) :
    (dat V c).leavesExact 4 t = owns (c : Thread nD τ) (st4_4 t) fullShare (iblk V c 4 t) := by
  unfold Dat.leavesExact; rw [show cfg4.idle 4 (grid4.coords t) = false from rfl, after_B]
theorem leaves_G (c : Dev nD) (t : Fin cfg4.N) :
    (dat V c).leavesExact 5 t = owns (c : Thread nD τ) (st4_5 t) fullShare (iblk V c 5 t) := by
  unfold Dat.leavesExact; rw [show cfg4.idle 5 (grid4.coords t) = false from rfl, after_G]
theorem leaves_L (c : Dev nD) (t : Fin cfg4.N) :
    (dat V c).leavesExact 6 t = owns (c : Thread nD τ) (st4_6 t) fullShare (iblk V c 6 t) := by
  unfold Dat.leavesExact; rw [show cfg4.idle 6 (grid4.coords t) = false from rfl, after_L]

/-- What the body is called with at point `t` (the library's obligation, the windows one by one), -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d))
    ∗ (∃ d, owns (c : Thread nD τ) (st4_7 t) fullShare ((dat V c).before 7 t d)))

/-- and what it returns. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body at any point. The inputs' memrefs hold their blocks; the point's edge-block coordinate says which case
    it is in. Where the coordinate is 0 the invariant's scratch, at whatever it holds, is zeroed and summed into; elsewhere
    it holds what the point before left and is summed into; at the last coordinate the output block is computed from
    the sum and stored, at the others the output's buffer is handed back untouched (the window idle, not written
    back). The invariant takes the scratch back at this point's sum; the core owes nothing throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_D, before_T, before_H, before_W, before_B, before_G, before_L]
  rw [show (dat V c).owesAt () t.succ = (dat V c).owesAt () t.castSucc from rfl]
  rw [show (dat V c).Φ t.succ = Phi V c (t.val + 1) t.isLt from rfl, Phi_succ]
  rw [leaves_D, leaves_T, leaves_H, leaves_W, leaves_B, leaves_G, leaves_L, Phi_castSucc]
  by_cases hr : t.val % 147 = 0
  · have hs : ¬t.val % 147 = 146 := by omega
    rw [Dat.leavesExact_idle (dat V c) 7 t (idle_out t hs) (noflush_out t hs), scr_reset V c t hr]
    iintro ⟨HΦ, Ho, ⟨%dD, HD⟩, ⟨%dT, HT⟩, ⟨%dH, HH⟩, ⟨%dW, HW⟩, ⟨%dB, HB⟩, ⟨%dG, HG⟩, ⟨%dL, HL⟩, ⟨%dO, HO⟩⟩
    ihave HΦ' := (Phi_any V c _ _) $$ HΦ
    icases HΦ' with ⟨⟨HS, HR⟩, Hg⟩
    iapply (run_reset c Set.univ (grid4.coords t) _ _ _ _ _ _ _ _ _ _ _ _ _ _ _ _ _ _ ((hR t).mpr hr) (fun h => hs ((hS t).mp h))
      (dstB V c t) (tB V c t) _)
    isplitl [HD]; · iexact HD
    isplitl [HT]; · iexact HT
    isplitl [HS]; · iexact HS
    iintro ⟨HD, HT, HS⟩
    isplitl [HS HR Hg]
    · isplitl [HS HR]
      · isplitl [HS]; · iexact HS
        iexact HR
      iexact Hg
    isplitl [Ho]; · iexact Ho
    isplitl [HD]; · iexact HD
    isplitl [HT]; · iexact HT
    isplitl [HH]; · iexact HH
    isplitl [HW]; · iexact HW
    isplitl [HB]; · iexact HB
    isplitl [HG]; · iexact HG
    isplitl [HL]; · iexact HL
    iexists _; iexact HO
  · have hz' : t.val ≠ 0 := fun h => hr (by rw [h])
    rw [Phi_pos V c _ _ hz', scr_acc V c t hr]
    by_cases hs : t.val % 147 = 146
    · rw [show (dat V c).leavesExact 7 t = owns (c : Thread nD τ) (st4_7 t) fullShare ((dat V c).after 7 t) from by
        unfold Dat.leavesExact; rw [live_out t hs], after_out]
      unfold outv
      rw [scr_acc V c t hr]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_store c Set.univ (grid4.coords t) _ _ _ _ _ _ _ _ _ _ _ _ _ _ _ _ _ _ (fun h => hr ((hR t).mp h)) ((hS t).mpr hs)
        (dstB V c t) (tB V c t) (hB V c t) (wB V c t) (bB V c t) (gB V c t) (lB V c t) _ _)
      isplitl [HD]; · iexact HD
      isplitl [HT]; · iexact HT
      isplitl [HH]; · iexact HH
      isplitl [HW]; · iexact HW
      isplitl [HB]; · iexact HB
      isplitl [HG]; · iexact HG
      isplitl [HL]; · iexact HL
      isplitl [HO]; · iexists _; iexact HO
      isplitl [HS]; · iexact HS
      iintro ⟨HD, HT, HH, HW, HB, HG, HL, HO, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexact HO
    · rw [Dat.leavesExact_idle (dat V c) 7 t (idle_out t hs) (noflush_out t hs)]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_acc c Set.univ (grid4.coords t) _ _ _ _ _ _ _ _ _ _ _ _ _ _ _ _ _ _ (fun h => hr ((hR t).mp h)) (fun h => hs ((hS t).mp h))
        (dstB V c t) (tB V c t) _ _)
      isplitl [HD]; · iexact HD
      isplitl [HT]; · iexact HT
      isplitl [HS]; · iexact HS
      iintro ⟨HD, HT, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexists _; iexact HO

/-- The library's body obligation, at every point. -/
theorem body_obligation (c : Dev nD) : BodyObligation (dat (F := F) V c) (defs₀ (F := F)) Variants.none () Set.univ := fun t => by
  rw [bigSep_W4, bigSep_W4]
  exact sound_body V c t

/-- What the launch hands the region (the class's invariant) is the invariant before the first point. -/
theorem hin (c : Dev nD) : (Pipeline.ΦA spec4 c : sProp 𝕄) ⊢ (dat V c).Φ 0 := by
  rw [show (dat V c).Φ 0 = Pipeline.ΦA spec4 c from rfl]
  try exact Idealize.SL.BI.Entails.refl _

/-- After the last point the invariant gives the class's back: the scratch's named contents are forgotten. -/
theorem hout (c : Dev nD) : (dat V c).Φ (Fin.last cfg4.N) ⊢ (Pipeline.ΦA spec4 c : sProp 𝕄) := by
  rw [PhiA_eq]
  exact Phi_any V c (Fin.last cfg4.N).val (Nat.le_of_lt_succ (Fin.last cfg4.N).isLt)

end Cert.KernelIdeal.Reg4

end
-- ==== Proof.KI.Reg5.lean ====
/-
  Region 1 of the program: the gather of every edge's source row as a one-hot product, accumulated over the node
  blocks in a scratch buffer that the kernel keeps from one grid point to the next.

  The grid is 147 edge blocks by 98 node blocks, the node block the fast coordinate. At the first node block of an
  edge block the accumulator is zeroed; at every point it is updated by the one-hot product of the point's source
  ids against its block of node rows; at the last node block it is rounded and stored into the output block, which
  only that point writes back. This module gives the proof data of that pipeline at a parameter `V` (the
  TensorCore's buffer contents when the region is entered): what the accumulator holds after each point as a
  recursion over the points (`accAt`, with its two case equations), what the output block holds (`outAt`), the
  invariant carrying the accumulator's contents from point to point (`PhiS`), the body's triple in each of its three
  cases and the body obligation. Everything is generic in the float model `F`.
-/
import proofs.«423195_j8272107012813_1_alg».proof.Proof.Gen.KernelIdeal.Launch
import proofs.«423195_j8272107012813_1_alg».proof.Proof.Gen.KernelIdeal.Skeleton
import proofs.«423195_j8272107012813_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.KernelIdeal.Reg5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: the edge block is the slow coordinate, the node block the fast one -/

/-- The node-block coordinate of point `t` is `t mod 98`. -/
theorem nodeCoord (t : Fin cfg5.N) : (grid5.coords t 1).val = t.val % 98 := by
  show t.val / 1 % 98 = t.val % 98
  rw [Nat.div_one]

/-- The body's first conditional: the node-block coordinate is zero (the accumulator is reset). -/
abbrev condReset (i : grid5.Coords) : Prop :=
  (Scalar.cmpi .ne (Scalar.extui (Scalar.cmpi .eq (BitVec.ofNat 32 (i 1).val) 0#32)) 0#32) = 1#1

/-- The body's second conditional: the node-block coordinate is the last one (the output block is stored). -/
abbrev condStore (i : grid5.Coords) : Prop := k5_cond2 i = 1#1

theorem condReset_fin : ∀ k : Fin 98,
    (Scalar.cmpi .ne (Scalar.extui (Scalar.cmpi .eq (BitVec.ofNat 32 k.val) 0#32)) 0#32) = 1#1 ↔ k.val = 0 := by
  decide

theorem condStore_fin : ∀ k : Fin 98,
    (Scalar.cmpi .ne (Scalar.extui (Scalar.cmpi .eq (BitVec.ofNat 32 k.val) 97#32)) 0#32) = 1#1 ↔ k.val = 97 := by
  decide

theorem condReset_iff (i : grid5.Coords) : condReset i ↔ (i 1).val = 0 := condReset_fin (i 1)

theorem condStore_iff (i : grid5.Coords) : condStore i ↔ (i 1).val = 97 := condStore_fin (i 1)

/-- At a point, in closed form. -/
theorem condReset_at (t : Fin cfg5.N) : condReset (grid5.coords t) ↔ t.val % 98 = 0 := by
  rw [condReset_iff, nodeCoord]

theorem condStore_at (t : Fin cfg5.N) : condStore (grid5.coords t) ↔ t.val % 98 = 97 := by
  rw [condStore_iff, nodeCoord]

/-! ## The windows' blocks -/

/-- Window `w`'s block at point `t`, read off its array as the region finds it (`V`). -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The block of source ids the point's edge block reads (window 0), at its literal type. -/
abbrev srcBlk (c : Dev nD) (t : Fin cfg5.N) : Vec F S1x4096 .i32 := iblk V c 0 t

/-- The block of node features the point's node block reads (window 1), at its literal type. -/
abbrev featBlk (c : Dev nD) (t : Fin cfg5.N) : Vec F S1024x128 .f32 := iblk V c 1 t

/-- An input window's current staging buffer holds its block at every point, fetched there or not, for any proof
    data whose array is `V`'s and whose body leaves the block in place: unfetched, the block index has not moved. -/
theorem before_src_of {c : Dev nD} (dat : Dat τ (Elt F) Unit ℕ (UR sig nD τ) ℕ cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_feat_of {c : Dev nD} (dat : Dat τ (Elt F) Unit ℕ (UR sig nD τ) ℕ cfg5 c) (hA : dat.A 1 = V c (Pipeline.arrRef spec5 1))
    (hafter : ∀ t, dat.after 1 t = iblk V c 1 t) (t : Fin cfg5.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the accumulator and the output block hold, point by point -/

/-- One point's update of the accumulator: the one-hot product of the point's source ids against its node block,
    added to what the accumulator held (`k5_pay2`, the skeleton's payload). -/
abbrev accStep (i : grid5.Coords) (xs : Vec F S1x4096 .i32) (xh : Vec F S1024x128 .f32) (xa : Vec F S4096x128 .f32) :
    Vec F S4096x128 .f32 := k5_pay2 i xs xh xa

/-- The accumulator at the start of an edge block: all zero (`k5_pay1`). -/
abbrev accZero : Vec F S4096x128 .f32 := k5_pay1 (F := F)

/-- THE ACCUMULATION. What the scratch accumulator holds after the body at position `n`: at the first node block of
    an edge block (`n mod 98 = 0`) one update of the zero accumulator, at every other point one update of what the
    point before left. -/
def accAt (c : Dev nD) : (n : ℕ) → n < cfg5.N → Vec F S4096x128 .f32
  | 0, hn => accStep (grid5.coords ⟨0, hn⟩) (srcBlk V c ⟨0, hn⟩) (featBlk V c ⟨0, hn⟩) accZero
  | n + 1, hn =>
    if (n + 1) % 98 = 0 then accStep (grid5.coords ⟨n + 1, hn⟩) (srcBlk V c ⟨n + 1, hn⟩) (featBlk V c ⟨n + 1, hn⟩) accZero
    else accStep (grid5.coords ⟨n + 1, hn⟩) (srcBlk V c ⟨n + 1, hn⟩) (featBlk V c ⟨n + 1, hn⟩) (accAt c n (Nat.lt_of_succ_lt hn))

/-- At a point where the accumulator is reset. -/
theorem accAt_reset (c : Dev nD) (t : Fin cfg5.N) (h : t.val % 98 = 0) :
    accAt V c t.val t.isLt = accStep (grid5.coords t) (srcBlk V c t) (featBlk V c t) accZero := by
  obtain ⟨n, hn⟩ := t
  cases n with
  | zero => rfl
  | succ n => exact if_pos h

/-- At a point where it is not: over what the point before left. -/
theorem accAt_step (c : Dev nD) (t : Fin cfg5.N) (h : ¬t.val % 98 = 0) :
    accAt V c t.val t.isLt
      = accStep (grid5.coords t) (srcBlk V c t) (featBlk V c t) (accAt V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at point `t`: the accumulator there, rounded to the
    output's format (`k5_pay3`). Stored by the body — and written back — only at the last node block of an edge
    block; elsewhere the window is idle and nothing consults this. -/
def outAt (c : Dev nD) (t : Fin cfg5.N) : Vec F S4096x128 .bf16 := k5_pay3 (accAt V c t.val t.isLt)

/-! ## Where the output window is stored and where it is idle -/

/-- At the last node block of an edge block the body stores the output block: the window is live. -/
theorem live_out (t : Fin cfg5.N) (h : t.val % 98 = 97) : cfg5.idle 2 (grid5.coords t) = false := by
  have hc : k5_cond2 (grid5.coords t) = 1#1 := (condStore_at t).mpr h
  show (!(k5_cond2 (grid5.coords t) == 1#1)) = false
  rw [hc]; rfl

/-- Elsewhere it stores nothing into it: the window is idle, -/
theorem idle_out (t : Fin cfg5.N) (h : ¬t.val % 98 = 97) : cfg5.idle 2 (grid5.coords t) = true := by
  have hc : ¬k5_cond2 (grid5.coords t) = 1#1 := fun e => h ((condStore_at t).mp e)
  show (!(k5_cond2 (grid5.coords t) == 1#1)) = true
  rw [Bool.not_eq_true', beq_eq_false_iff_ne]; exact hc

/-- and the pipeline does not write its block back. -/
theorem noFlush_out (t : Fin cfg5.N) (h : ¬t.val % 98 = 97) : (cfg5.win 2).flush t = false :=
  Bool.eq_false_iff.mpr fun e => h ((flush5_2 t).mp e)

/-! ## The invariant: the accumulator's contents, point by point -/

/-- The scratch accumulator, a whole scoped buffer of the kernel's own. -/
abbrev scM : Memref sig .tc .vmem S4096x128 .f32 := Memref.whole cc5_scratch0

/-- Every other scoped buffer of the core that is no staging buffer of this call, at some contents each. -/
abbrev restBut (c : Dev nD) : sProp 𝕄 :=
  Pipeline.scopedRestBut (Ix := Unit) (Name := ℕ) (U := UR sig nD τ) (Lvl := ℕ) (Val := Elt F) spec5 c [cc5_scratch0]

/-- The class's invariant with the accumulator as a memref owned at some contents. -/
theorem PhiA_eq (c : Dev nD) :
    (Pipeline.ΦA spec5 c : sProp 𝕄)
      = iprop(iprop((∃ d, owns (c : Thread nD τ) scM fullShare d) ∗ restBut (F := F) c) ∗ (∃ r, prngReg c r)) := by
  unfold Pipeline.ΦA; rw [scopedRest5_split]; simp only [scM, owns_whole]; try rfl

/-- The region invariant before position `n`: before the first point the class's (the accumulator at anything);
    afterwards the accumulator at what the point before left in it (`accAt`), the other scoped buffers at anything
    and the generator register at some state. -/
def PhiS (c : Dev nD) : (n : ℕ) → n ≤ cfg5.N → sProp 𝕄
  | 0, _ => Pipeline.ΦA spec5 c
  | n + 1, hn => iprop(iprop(owns (c : Thread nD τ) scM fullShare (accAt V c n hn) ∗ restBut (F := F) c) ∗ (∃ r, prngReg c r))

theorem PhiS_zero (c : Dev nD) (n : ℕ) (h : n ≤ cfg5.N) (hz : n = 0) : PhiS V c n h = Pipeline.ΦA spec5 c := by
  subst hz; rfl

theorem PhiS_succ (c : Dev nD) (n : ℕ) (hn : n < cfg5.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg5.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

/-! ## The proof data -/

/-- The proof data of this pipeline on core `c`: the arrays as the region finds them (`V`); after the body at point
    `t` each input's buffer at its block and the output's at `outAt`; the invariant `PhiS`; nothing owed; full shares. -/
def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg5.W) : (dat V c).A w = V c (Pipeline.arrRef spec5 w) := by
  dsimp only [dat]

/-- What the body leaves, window by window. -/
theorem after_src (c : Dev nD) (t : Fin cfg5.N) : (dat V c).after 0 t = iblk V c 0 t := by dsimp only [dat]
theorem after_feat (c : Dev nD) (t : Fin cfg5.N) : (dat V c).after 1 t = iblk V c 1 t := by dsimp only [dat]
theorem after_out (c : Dev nD) (t : Fin cfg5.N) : (dat V c).after 2 t = outAt V c t := by dsimp only [dat]

/-- The output's staged block in terms of the accumulator. -/
theorem after_out_eq (c : Dev nD) (t : Fin cfg5.N) : (dat V c).after 2 t = k5_pay3 (accAt V c t.val t.isLt) := after_out V c t

/-- The invariant at a point's start, restated at `t.val`. -/
theorem Phi_castSucc (c : Dev nD) (t : Fin cfg5.N) :
    (dat V c).Φ t.castSucc = PhiS V c t.val (Nat.le_of_lt t.isLt) := by
  dsimp only [dat]; simp only [Fin.coe_castSucc]

/-- Each input's current staging buffer holds its block at every point. -/
theorem before_src (c : Dev nD) (t : Fin cfg5.N) (d) : (dat V c).before 0 t d = iblk V c 0 t :=
  before_src_of V (dat V c) (A_eq V c 0) (after_src V c) t d
theorem before_feat (c : Dev nD) (t : Fin cfg5.N) (d) : (dat V c).before 1 t d = iblk V c 1 t :=
  before_feat_of V (dat V c) (A_eq V c 1) (after_feat V c) t d

/-! ## The body's triples, case by case

On whole memrefs — the staging buffers the pipeline passes and the scratch accumulator —, the two inputs' at read
contents `xs` (source ids) and `xh` (node features): the body runs to the continuation holding the inputs' as they
were, the accumulator at one update (`accStep`) of zero or of what it held, and, at the last node block, the
output's at the accumulator rounded. The conditionals are decided by the case's hypotheses. -/

/-- The zero offsets of a whole-buffer rectangle, however spelt. -/
theorem zeroOff : (![0, 0] : Fin 2 → Nat) = fun _ => 0 := by
  funext a; fin_cases a <;> rfl

/-- A list of pieces whose newest is a store through the whole-buffer rectangle covers the buffer. -/
theorem coverHead {e : EltTy} (w : S4096x128.Idx → Elt F e) (L : List (View.Piece (Elt F) S4096x128 e)) (y : S4096x128.Idx) :
    ∃ p ∈ ((⟨Rect.unit (s := S4096x128) ![0, 0] S4096x128.size inb_S4096x128_S4096x128_0_0, w⟩ : View.Piece (Elt F) S4096x128 e) :: L), y ∈ p.1.set :=
  ⟨_, List.Mem.head _, View.mem_set_unit_zero (S := S4096x128) zeroOff inb_S4096x128_S4096x128_0_0 y⟩

set_option maxHeartbeats 1000000 in
/-- AT A RESET POINT (the first node block of an edge block): the accumulator, at anything, is zeroed and updated once.
    The output's memref is not touched. -/
theorem run_reset (c : Dev nD) (i : grid5.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : condReset i) (hs : ¬condStore i)
    (xs : Vec F S1x4096 .i32) (xh : Vec F S1024x128 .f32) (E : Set ℕ) (K : PUnit → sProp 𝕄) :
    iprop(owns (c : Thread nD τ) arg2 fullShare xs ∗ owns (c : Thread nD τ) arg3 fullShare xh ∗ (∃ d, owns (c : Thread nD τ) arg5 fullShare d)
        ∗ (iprop(owns (c : Thread nD τ) arg2 fullShare xs ∗ owns (c : Thread nD τ) arg3 fullShare xh
            ∗ owns (c : Thread nD τ) arg5 fullShare (accStep i xs xh accZero)) -∗ K ⟨⟩))
      ⊢ wp frame (wpE (defs₀ (F := F)) Variants.none c none) E (cc5__gather_kernel i arg2 harg2 arg3 harg3 arg4 harg4 arg5 harg5) K := by
  simp only [cc5__gather_kernel_eq_skeleton]; unfold cc5__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT A POINT THAT NEITHER RESETS NOR STORES: the accumulator, at `xa`, is updated once. The output's memref is not
    touched. -/
theorem run_step (c : Dev nD) (i : grid5.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : ¬condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ owns (c : Thread nD τ) arg5 fullShare xa
        ∗ (iprop(owns (c : Thread nD τ) arg2 fullShare xs ∗ owns (c : Thread nD τ) arg3 fullShare xh
            ∗ owns (c : Thread nD τ) arg5 fullShare (accStep i xs xh xa)) -∗ K ⟨⟩))
      ⊢ wp frame (wpE (defs₀ (F := F)) Variants.none c none) E (cc5__gather_kernel i arg2 harg2 arg3 harg3 arg4 harg4 arg5 harg5) K := by
  simp only [cc5__gather_kernel_eq_skeleton]; unfold cc5__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

set_option maxHeartbeats 1000000 in
/-- AT THE LAST NODE BLOCK of an edge block: the accumulator, at `xa`, is updated once, and the output's memref, at
    anything, is left at the accumulator rounded to the output's format. -/
theorem run_last (c : Dev nD) (i : grid5.Coords)
    (arg2 : Memref sig .tc .vmem S1x4096 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hr : ¬condReset i) (hs : condStore i)
    (xs : Vec F S1x4096 .i32) (xh : Vec F S1024x128 .f32) (xa : Vec F S4096x128 .f32) (E : Set ℕ) (K : PUnit → sProp 𝕄) :
    iprop(owns (c : Thread nD τ) arg2 fullShare xs ∗ owns (c : Thread nD τ) arg3 fullShare xh ∗ (∃ d, owns (c : Thread nD τ) arg4 fullShare d) ∗ owns (c : Thread nD τ) arg5 fullShare xa
        ∗ (iprop(owns (c : Thread nD τ) arg2 fullShare xs ∗ owns (c : Thread nD τ) arg3 fullShare xh
            ∗ owns (c : Thread nD τ) arg4 fullShare (k5_pay3 (accStep i xs xh xa)) ∗ owns (c : Thread nD τ) arg5 fullShare (accStep i xs xh xa)) -∗ K ⟨⟩))
      ⊢ wp frame (wpE (defs₀ (F := F)) Variants.none c none) E (cc5__gather_kernel i arg2 harg2 arg3 harg3 arg4 harg4 arg5 harg5) K := by
  simp only [cc5__gather_kernel_eq_skeleton]; unfold cc5__gather_kernel_skel
  unfold owns
  iintro ⟨⟨%f0, %hf0, H0⟩, ⟨%f1, %hf1, H1⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hr | exact hs)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_run_names
    refine (View.read_writes_eq_canon _ _ _ (coverHead _ _)).trans ?_
    rw [View.canon_cons_unit_zero (S := S4096x128) zeroOff]
    simp only [View.readAt_eq_ld, harg2.read_unread, harg3.read_unread, harg5.read_unread, View.ld_unit_zero (S := S1x4096) zeroOff,
      View.ld_unit_zero (S := S1024x128) zeroOff, View.ld_unit_zero (S := S4096x128) zeroOff, View.readCov_unit_zero (S := S4096x128) _ zeroOff]
  iexists _; isplitr
  swap; · iexact HS
  ipureintro
  sl_unfold_run_names
  refine (View.read_writes_eq_canon _ _ _ (coverHead _ _)).trans ?_
  rw [View.canon_cons_unit_zero (S := S4096x128) zeroOff]
  simp only [View.readAt_eq_ld, harg2.read_unread, harg3.read_unread, harg5.read_unread, View.ld_unit_zero (S := S1x4096) zeroOff,
    View.ld_unit_zero (S := S1024x128) zeroOff, View.ld_unit_zero (S := S4096x128) zeroOff, View.readCov_unit_zero (S := S4096x128) _ zeroOff]

/-! ## The body obligation, at a generic point -/

/-- Each window's current staging memref at point `t`, spelt as the pipeline passes it, and its wholeness. -/
abbrev msSrc (t : Fin cfg5.N) : Memref sig .tc .vmem S1x4096 .i32 := win5_0.stage (cfg5.slots t 0)
abbrev hsSrc (t : Fin cfg5.N) : (msSrc t).IsWhole := hstage5_0 ((cfg5.slots t 0).cast nbuf5_0)
abbrev msFeat (t : Fin cfg5.N) : Memref sig .tc .vmem S1024x128 .f32 := win5_1.stage (cfg5.slots t 1)
abbrev hsFeat (t : Fin cfg5.N) : (msFeat t).IsWhole := hstage5_1 ((cfg5.slots t 1).cast nbuf5_1)
abbrev msOut (t : Fin cfg5.N) : Memref sig .tc .vmem S4096x128 .bf16 := win5_2.stage (cfg5.slots t 2)
abbrev hsOut (t : Fin cfg5.N) : (msOut t).IsWhole := hstage5_2 ((cfg5.slots t 2).cast nbuf5_2)

/-- What the body is called with at point `t` (the obligation's precondition, the windows one by one), -/
def bodyPre (c : Dev nD) (t : Fin cfg5.N) : sProp 𝕄 :=
  iprop((dat V c).Φ t.castSucc ∗ (dat V c).owesAt () t.castSucc
    ∗ (∃ d, owns (c : Thread nD τ) (msSrc t) fullShare ((dat V c).before 0 t d))
    ∗ (∃ d, owns (c : Thread nD τ) (msFeat t) fullShare ((dat V c).before 1 t d))
    ∗ (∃ d, owns (c : Thread nD τ) (msOut t) fullShare ((dat V c).before 2 t d)))

/-- and what it returns. -/
def bodyPost (c : Dev nD) (t : Fin cfg5.N) : sProp 𝕄 :=
  iprop((dat V c).Φ t.succ ∗ (dat V c).owesAt () t.succ
    ∗ (dat V c).leavesExact 0 t
    ∗ (dat V c).leavesExact 1 t
    ∗ (dat V c).leavesExact 2 t)

/-- An input window is never idle: its buffer is left at its block. -/
theorem leaves_src (c : Dev nD) (t : Fin cfg5.N) :
    (dat V c).leavesExact 0 t = owns (c : Thread nD τ) (msSrc t) fullShare (iblk V c 0 t) := by
  rw [← after_src V c t]
theorem leaves_feat (c : Dev nD) (t : Fin cfg5.N) :
    (dat V c).leavesExact 1 t = owns (c : Thread nD τ) (msFeat t) fullShare (iblk V c 1 t) := by
  rw [← after_feat V c t]

/-- The output window where it is stored: its buffer is left at the accumulator rounded. -/
theorem leaves_out_live (c : Dev nD) (t : Fin cfg5.N) (h : t.val % 98 = 97) :
    (dat V c).leavesExact 2 t = owns (c : Thread nD τ) (msOut t) fullShare (outAt V c t) := by
  unfold Dat.leavesExact; rw [live_out t h, after_out]

/-- The output window where it is idle: its buffer is handed back as it was found. -/
theorem leaves_out_idle (c : Dev nD) (t : Fin cfg5.N) (h : ¬t.val % 98 = 97) :
    (dat V c).leavesExact 2 t = iprop(∃ d, owns (c : Thread nD τ) (msOut t) fullShare ((dat V c).before 2 t d)) :=
  Dat.leavesExact_idle (dat V c) 2 t (idle_out t h) (noFlush_out t h)

set_option maxHeartbeats 2000000 in
/-- The body at any point. The inputs' memrefs hold their blocks; the point's position in its edge block says which
    case it is in: at the first node block the accumulator (at what the point before left, or at anything at the very
    first point) is zeroed and updated, elsewhere it is updated from what the point before left; at the last node
    block the output's buffer is stored, elsewhere it is handed back untouched. The invariant takes the accumulator
    back at this point's contents; the core owes nothing throughout. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_src, before_feat]
  rw [show (dat V c).owesAt () t.succ = (dat V c).owesAt () t.castSucc from rfl]
  rw [show (dat V c).Φ t.succ = PhiS V c (t.val + 1) t.isLt from rfl, PhiS_succ]
  rw [leaves_src, leaves_feat, Phi_castSucc]
  by_cases h0 : t.val % 98 = 0
  · -- the first node block of an edge block
    have h97 : ¬t.val % 98 = 97 := by omega
    rw [leaves_out_idle V c t h97, accAt_reset V c t h0]
    by_cases hz : t.val = 0
    · rw [PhiS_zero V c _ _ hz, PhiA_eq]
      iintro ⟨⟨⟨HS, HR⟩, Hg⟩, Ho, ⟨%d0, H0⟩, ⟨%d1, H1⟩, H2⟩
      iapply (run_reset c (grid5.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [PhiS_pos V c _ _ hz]
      iintro ⟨⟨⟨HS, HR⟩, Hg⟩, Ho, ⟨%d0, H0⟩, ⟨%d1, H1⟩, H2⟩
      iapply (run_reset c (grid5.coords t) _ _ _ _ _ _ _ _ ((condReset_at t).mpr h0) (fun e => h97 ((condStore_at t).mp e))
        (srcBlk V c t) (featBlk V c t) Set.univ _)
      isplitl [H0]; · iexact H0
      isplitl [H1]; · iexact H1
      isplitl [HS]; · iexists _; iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [PhiS_pos V c _ _ hz, accAt_step V c t h0]
    by_cases h97 : t.val % 98 = 97
    · -- the last node block of an edge block
      rw [leaves_out_live V c t h97]
      unfold outAt
      rw [accAt_step V c t h0]
      iintro ⟨⟨⟨HS, HR⟩, Hg⟩, Ho, ⟨%d0, H0⟩, ⟨%d1, H1⟩, ⟨%d2, H2⟩⟩
      iapply (run_last c (grid5.coords t) _ _ _ _ _ _ _ _ (fun e => h0 ((condReset_at t).mp e)) ((condStore_at t).mpr h97)
        (srcBlk V c t) (featBlk V c t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · -- a node block in between
      rw [leaves_out_idle V c t h97]
      iintro ⟨⟨⟨HS, HR⟩, Hg⟩, Ho, ⟨%d0, H0⟩, ⟨%d1, H1⟩, H2⟩
      iapply (run_step c (grid5.coords t) _ _ _ _ _ _ _ _ (fun e => h0 ((condReset_at t).mp e)) (fun e => h97 ((condStore_at t).mp e))
        (srcBlk V c t) (featBlk V c t) _ Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W5, bigSep_W5]
  exact sound_body V c t

/-- What the launch hands the region is the invariant before the first point. -/
theorem hin (c : Dev nD) : (Pipeline.ΦA spec5 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class's back: the accumulator's named contents are forgotten. -/
theorem Phi_out (c : Dev nD) (t : Fin (cfg5.N + 1)) (ht : t.val ≠ 0) : (dat V c).Φ t ⊢ (Pipeline.ΦA spec5 c : sProp 𝕄) := by
  rw [show (dat V c).Φ t = PhiS V c t.val (Nat.le_of_lt_succ t.isLt) from rfl, PhiS_pos V c _ _ ht, PhiA_eq]
  iintro ⟨⟨HS, HR⟩, Hg⟩
  isplitr [Hg]
  · isplitl [HS]; · iexists _; iexact HS
    iexact HR
  iexact Hg

/-- The same after the last point. -/
theorem hout (c : Dev nD) : (dat V c).Φ (Fin.last cfg5.N) ⊢ (Pipeline.ΦA spec5 c : sProp 𝕄) :=
  Phi_out V c _ (by rw [Fin.val_last]; have : cfg5.N = 14406 := N_5; omega)

end Cert.KernelIdeal.Reg5

end
-- ==== Proof.KI.Reg6.lean ====
/-
  Kernel region 2 (scatter-add by one-hot weights over edge blocks, then the dense layer, ReLU and row
  normalization at the last edge block), on one core, at any float model and at any contents `V` of the
  TensorCore's buffers when the region is entered: the proof data of its pipeline and the body obligation.

  The grid is 98 node blocks by 147 edge blocks, the edge axis fastest. The kernel keeps a 1024 x 128 accumulator in a
  scratch block of its own: zeroed where the edge-block coordinate is 0, increased at every point by the product of the
  point's one-hot matrix (destination ids against the node block's row numbers) with the point's block of gathered
  rows; where the coordinate is 146, the last, the output block is computed from the node block's features plus the
  accumulator and stored. What the scratch holds after each point (`scr`) and what the output block is (`outv`) are
  functions of the input blocks through the kernel's payloads, by recursion on the point; the region's invariant
  carries the scratch at `scr` from point to point.
-/
import proofs.«423195_j8272107012813_1_alg».proof.Proof.Gen.KernelIdeal.Launch
import proofs.«423195_j8272107012813_1_alg».proof.Proof.Gen.KernelIdeal.Skeleton
import proofs.«423195_j8272107012813_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.KernelIdeal.Reg6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: a point's edge-block coordinate, and the body's two conditions in closed form

The grid is 98 node blocks by 147 edge blocks, the edge axis fastest: point `t` has edge-block coordinate
`t % 147`. The body zeroes its accumulator where that coordinate is 0 and stores its output where it is 146. -/

/-- The edge-block coordinate (axis 1) of point `t` is `t % 147`. -/
theorem coord_e (t : Fin cfg6.N) : ((grid6.coords t) 1).val = t.val % 147 := by
  show t.val / grid6.stride 1 % grid6.bound 1 = t.val % 147
  rw [show grid6.stride 1 = 1 from by decide, Nat.div_one]; rfl

/-- The condition under which the body zeroes the accumulator (the first conditional of the kernel function), as
    the kernel function computes it from the coordinates. -/
abbrev condR (i : grid6.Coords) : Prop :=
  Scalar.cmpi .ne (Scalar.extui (Scalar.cmpi .eq (BitVec.ofNat 32 (i 1).val) 0#32)) 0#32 = 1#1

/-- The condition under which the body computes and stores its output block (the second conditional). -/
abbrev condS (i : grid6.Coords) : Prop := k6_cond2 i = 1#1

/-- The accumulator is zeroed exactly where the edge-block coordinate is 0 (the 147 values of the coordinate
    checked one by one). -/
theorem condR_iff (i : grid6.Coords) : condR i ↔ (i 1).val = 0 :=
  (by decide +kernel : ∀ k : Fin 147,
    (Scalar.cmpi .ne (Scalar.extui (Scalar.cmpi .eq (BitVec.ofNat 32 k.val) 0#32)) 0#32 = 1#1) ↔ k.val = 0) (i 1)

/-- The output is stored exactly where the edge-block coordinate is 146, the last. -/
theorem condS_iff (i : grid6.Coords) : condS i ↔ (i 1).val = 146 :=
  (by decide +kernel : ∀ k : Fin 147,
    (Scalar.cmpi .ne (Scalar.extui (Scalar.cmpi .eq (BitVec.ofNat 32 k.val) 146#32)) 0#32 = 1#1) ↔ k.val = 146) (i 1)

/-- At point `t` the accumulator is zeroed iff `t % 147 = 0`. -/
theorem hR (t : Fin cfg6.N) : condR (grid6.coords t) ↔ t.val % 147 = 0 :=
  (condR_iff (grid6.coords t)).trans (by rw [coord_e])

/-- At point `t` the output is stored iff `t % 147 = 146`. -/
theorem hS (t : Fin cfg6.N) : condS (grid6.coords t) ↔ t.val % 147 = 146 :=
  (condS_iff (grid6.coords t)).trans (by rw [coord_e])

/-- Where the output is not stored its window is idle; -/
theorem idle_out (t : Fin cfg6.N) (h : ¬t.val % 147 = 146) : cfg6.idle 7 (grid6.coords t) = true := by
  have hc : ¬k6_cond2 (grid6.coords t) = 1#1 := fun h' => h ((hS t).mp h')
  show (!(k6_cond2 (grid6.coords t) == 1#1)) = true
  simp [hc]

/-- where it is stored the window is live; -/
theorem live_out (t : Fin cfg6.N) (h : t.val % 147 = 146) : cfg6.idle 7 (grid6.coords t) = false := by
  have hc : k6_cond2 (grid6.coords t) = 1#1 := (hS t).mpr h
  show (!(k6_cond2 (grid6.coords t) == 1#1)) = false
  simp [hc]

/-- and the pipeline writes the block back only there. -/
theorem noflush_out (t : Fin cfg6.N) (h : ¬t.val % 147 = 146) : (cfg6.win 7).flush t = false :=
  Bool.eq_false_iff.mpr fun hf => h ((flush6_7 t).mp hf)

/-! ## The windows' blocks -/

/-- Window `w`'s block at point `t`, read off its array as the region finds it (`V`). -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The input blocks at their literal types: the destination ids of edge block `e`, the gathered rows of edge block
    `e`, the node features of node block `n`, the layer's weight, bias, and the normalization's scale and shift. -/
abbrev dstB (c : Dev nD) (t : Fin cfg6.N) : Vec F S1x4096 .i32 := iblk V c 0 t
abbrev tB (c : Dev nD) (t : Fin cfg6.N) : Vec F S4096x128 .bf16 := iblk V c 1 t
abbrev hB (c : Dev nD) (t : Fin cfg6.N) : Vec F S1024x128 .f32 := iblk V c 2 t
abbrev wB (c : Dev nD) (t : Fin cfg6.N) : Vec F S128x128 .f32 := iblk V c 3 t
abbrev bB (c : Dev nD) (t : Fin cfg6.N) : Vec F S1x128 .f32 := iblk V c 4 t
abbrev gB (c : Dev nD) (t : Fin cfg6.N) : Vec F S1x128 .f32 := iblk V c 5 t
abbrev lB (c : Dev nD) (t : Fin cfg6.N) : Vec F S1x128 .f32 := iblk V c 6 t

/-! ## What the body leaves: the accumulator point by point, and the output block -/

/-- THE ACCUMULATION. The accumulator (the kernel's own scratch block) after the body at point `n`: the point's
    one-hot scatter product of its edge block added (`k6_pay2`) to the zero block (`k6_pay1`) where the
    edge-block coordinate is 0, to what the point before left elsewhere. -/
def scr (c : Dev nD) : (n : ℕ) → n < cfg6.N → Vec F S1024x128 .f32
  | 0, hn => k6_pay2 (grid6.coords ⟨0, hn⟩) (dstB V c ⟨0, hn⟩) (tB V c ⟨0, hn⟩) k6_pay1
  | n + 1, hn =>
    if (n + 1) % 147 = 0 then k6_pay2 (grid6.coords ⟨n + 1, hn⟩) (dstB V c ⟨n + 1, hn⟩) (tB V c ⟨n + 1, hn⟩) k6_pay1
    else k6_pay2 (grid6.coords ⟨n + 1, hn⟩) (dstB V c ⟨n + 1, hn⟩) (tB V c ⟨n + 1, hn⟩) (scr c n (Nat.lt_of_succ_lt hn))

/-- At a point whose edge-block coordinate is 0 the sum starts afresh from the zero block; -/
theorem scr_reset (c : Dev nD) (t : Fin cfg6.N) (h : t.val % 147 = 0) :
    scr V c t.val t.isLt = k6_pay2 (grid6.coords t) (dstB V c t) (tB V c t) k6_pay1 := by
  obtain ⟨n, hn⟩ := t
  cases n with
  | zero => rfl
  | succ n => exact if_pos h

/-- elsewhere it goes on from what the point before left. -/
theorem scr_acc (c : Dev nD) (t : Fin cfg6.N) (h : ¬t.val % 147 = 0) :
    scr V c t.val t.isLt = k6_pay2 (grid6.coords t) (dstB V c t) (tB V c t)
      (scr V c (t.val - 1) (Nat.lt_of_le_of_lt (Nat.sub_le _ _) t.isLt)) := by
  obtain ⟨n, hn⟩ := t
  cases n with
  | zero => exact absurd (Nat.zero_mod _) h
  | succ n => exact if_neg h

/-- The output block the body computes from the point's accumulator (the dense layer on features plus aggregate,
    rectified and normalized: `k6_pay3`). The body stores it only where the edge-block coordinate is 146; it is the
    value of the proof data's `after` for the output window at every point, consulted only there. -/
def outv (c : Dev nD) (t : Fin cfg6.N) : Vec F S1024x128 .f32 :=
  k6_pay3 (hB V c t) (scr V c t.val t.isLt) (wB V c t) (bB V c t) (gB V c t) (lB V c t)

/-! ## The invariant: the accumulator between points -/

/-- The kernel's scratch block, whole. -/
abbrev scM : Memref sig .tc .vmem S1024x128 .f32 := Memref.whole cc6_scratch0

/-- The core's scoped buffers other than the staging buffers and the scratch block, each at some contents. -/
abbrev restBut (c : Dev nD) : sProp 𝕄 :=
  Pipeline.scopedRestBut (Ix := Unit) (Name := ℕ) (U := UR sig nD τ) (Lvl := ℕ) (Val := Elt F) spec6 c [cc6_scratch0]

/-- The class's invariant with the scratch block as a memref owned at some contents. -/
theorem PhiA_eq (c : Dev nD) :
    (Pipeline.ΦA spec6 c : sProp 𝕄)
      = iprop(iprop((∃ d, owns (c : Thread nD τ) scM fullShare d) ∗ restBut c) ∗ (∃ r, prngReg c r)) := by
  unfold Pipeline.ΦA; rw [scopedRest6_split]; simp only [scM, owns_whole]; try rfl

/-- The region's invariant before position `n`: before the first point the class's (the scratch at anything);
    afterwards the scratch at what the point before left in it (`scr`), the other scoped buffers at anything, the
    generator register at some state. -/
def Phi (c : Dev nD) : (n : ℕ) → n ≤ cfg6.N → sProp 𝕄
  | 0, _ => Pipeline.ΦA spec6 c
  | n + 1, hn => iprop(iprop(owns (c : Thread nD τ) scM fullShare (scr V c n hn) ∗ restBut c) ∗ (∃ r, prngReg c r))

theorem Phi_succ (c : Dev nD) (n : ℕ) (hn : n < cfg6.N) :
    Phi V c (n + 1) hn = iprop(iprop(owns (c : Thread nD τ) scM fullShare (scr V c n hn) ∗ restBut c) ∗ (∃ r, prngReg c r)) := rfl

theorem Phi_pos (c : Dev nD) (n : ℕ) (h : n ≤ cfg6.N) (hz : n ≠ 0) :
    Phi V c n h = iprop(iprop(owns (c : Thread nD τ) scM fullShare (scr V c (n - 1) (by omega)) ∗ restBut c) ∗ (∃ r, prngReg c r)) := by
  cases n with
  | zero => exact absurd rfl hz
  | succ n => rfl

/-- At any position the invariant yields the scratch at SOME contents: what a point that zeroes it needs, and what
    the class's invariant says. -/
theorem Phi_any (c : Dev nD) (n : ℕ) (h : n ≤ cfg6.N) :
    Phi V c n h ⊢ iprop(iprop((∃ d, owns (c : Thread nD τ) scM fullShare d) ∗ restBut c) ∗ (∃ r, prngReg c r)) := by
  cases n with
  | zero => rw [show Phi V c 0 h = Pipeline.ΦA spec6 c from rfl, PhiA_eq]; try exact Idealize.SL.BI.Entails.refl _
  | succ n =>
    rw [Phi_succ]
    iintro ⟨⟨HS, HR⟩, Hg⟩
    isplitl [HS HR]
    · isplitl [HS]
      · iexists _; iexact HS
      iexact HR
    iexact Hg

/-! ## The pipeline's proof data -/

/-- The proof data of the region on core `c`: the arrays as the region finds them (`V`); after the body at point
    `t` each input's buffer at its block and the output's at `outv`; the invariant `Phi`; nothing owed; full
    shares. -/
def dat (c : Dev nD) : Dat τ (Elt F) Unit ℕ (UR sig nD τ) ℕ cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outv V c t
  Φ t := Phi V c t.val (Nat.le_of_lt_succ t.isLt)
  q _ := fullShare
  owed _ := 0

/-- The proof data's arrays are the region-entry contents. -/
theorem A_eq (c : Dev nD) (w : Fin cfg6.W) : (dat V c).A w = V c (Pipeline.arrRef spec6 w) := by
  dsimp only [dat]

/-- The invariant at a point's start, restated at `t.val`. -/
theorem Phi_castSucc (c : Dev nD) (t : Fin cfg6.N) :
    (dat V c).Φ t.castSucc = Phi V c t.val (Nat.le_of_lt t.isLt) := by
  dsimp only [dat]; simp only [Fin.coe_castSucc]

/-- What the body leaves, window by window. -/
theorem after_D (c : Dev nD) (t : Fin cfg6.N) : (dat V c).after 0 t = iblk V c 0 t := by dsimp only [dat]
theorem after_T (c : Dev nD) (t : Fin cfg6.N) : (dat V c).after 1 t = iblk V c 1 t := by dsimp only [dat]
theorem after_H (c : Dev nD) (t : Fin cfg6.N) : (dat V c).after 2 t = iblk V c 2 t := by dsimp only [dat]
theorem after_W (c : Dev nD) (t : Fin cfg6.N) : (dat V c).after 3 t = iblk V c 3 t := by dsimp only [dat]
theorem after_B (c : Dev nD) (t : Fin cfg6.N) : (dat V c).after 4 t = iblk V c 4 t := by dsimp only [dat]
theorem after_G (c : Dev nD) (t : Fin cfg6.N) : (dat V c).after 5 t = iblk V c 5 t := by dsimp only [dat]
theorem after_L (c : Dev nD) (t : Fin cfg6.N) : (dat V c).after 6 t = iblk V c 6 t := by dsimp only [dat]
theorem after_out (c : Dev nD) (t : Fin cfg6.N) : (dat V c).after 7 t = outv V c t := by dsimp only [dat]

/-- Each input's current staging buffer holds its block at every point, fetched there or not: the body leaves the
    block in place, and where the pipeline does not fetch, the block index has not moved. -/
theorem before_D (c : Dev nD) (t : Fin cfg6.N) (d) : (dat V c).before 0 t d = iblk V c 0 t :=
  ((dat V c).before_in_eq_fetched 0 rfl (fun _ => rfl) (fun _ _ _ => rfl)
    (fun t => by rw [after_D]; unfold Dat.blockOf iblk; rw [A_eq]; try rfl) t d).trans
    (by unfold Dat.fetched Dat.blockOf iblk; rw [A_eq]; try rfl)
theorem before_T (c : Dev nD) (t : Fin cfg6.N) (d) : (dat V c).before 1 t d = iblk V c 1 t :=
  ((dat V c).before_in_eq_fetched 1 rfl (fun _ => rfl) (fun _ _ _ => rfl)
    (fun t => by rw [after_T]; unfold Dat.blockOf iblk; rw [A_eq]; try rfl) t d).trans
    (by unfold Dat.fetched Dat.blockOf iblk; rw [A_eq]; try rfl)
theorem before_H (c : Dev nD) (t : Fin cfg6.N) (d) : (dat V c).before 2 t d = iblk V c 2 t :=
  ((dat V c).before_in_eq_fetched 2 rfl (fun _ => rfl) (fun _ _ _ => rfl)
    (fun t => by rw [after_H]; unfold Dat.blockOf iblk; rw [A_eq]; try rfl) t d).trans
    (by unfold Dat.fetched Dat.blockOf iblk; rw [A_eq]; try rfl)
theorem before_W (c : Dev nD) (t : Fin cfg6.N) (d) : (dat V c).before 3 t d = iblk V c 3 t :=
  ((dat V c).before_in_eq_fetched 3 rfl (fun _ => rfl) (fun _ _ _ => rfl)
    (fun t => by rw [after_W]; unfold Dat.blockOf iblk; rw [A_eq]; try rfl) t d).trans
    (by unfold Dat.fetched Dat.blockOf iblk; rw [A_eq]; try rfl)
theorem before_B (c : Dev nD) (t : Fin cfg6.N) (d) : (dat V c).before 4 t d = iblk V c 4 t :=
  ((dat V c).before_in_eq_fetched 4 rfl (fun _ => rfl) (fun _ _ _ => rfl)
    (fun t => by rw [after_B]; unfold Dat.blockOf iblk; rw [A_eq]; try rfl) t d).trans
    (by unfold Dat.fetched Dat.blockOf iblk; rw [A_eq]; try rfl)
theorem before_G (c : Dev nD) (t : Fin cfg6.N) (d) : (dat V c).before 5 t d = iblk V c 5 t :=
  ((dat V c).before_in_eq_fetched 5 rfl (fun _ => rfl) (fun _ _ _ => rfl)
    (fun t => by rw [after_G]; unfold Dat.blockOf iblk; rw [A_eq]; try rfl) t d).trans
    (by unfold Dat.fetched Dat.blockOf iblk; rw [A_eq]; try rfl)
theorem before_L (c : Dev nD) (t : Fin cfg6.N) (d) : (dat V c).before 6 t d = iblk V c 6 t :=
  ((dat V c).before_in_eq_fetched 6 rfl (fun _ => rfl) (fun _ _ _ => rfl)
    (fun t => by rw [after_L]; unfold Dat.blockOf iblk; rw [A_eq]; try rfl) t d).trans
    (by unfold Dat.fetched Dat.blockOf iblk; rw [A_eq]; try rfl)

/-! ## The body's triple, case by case

The kernel function on whole memrefs. It reads the destination ids and the gathered rows, and reads and rewrites the
accumulator; only where it stores the output does it touch the other operands. The whole-block rectangle's offsets
are zero, so that a load through it reads the contents and a store through it, last, leaves its payload. -/

theorem hz : (![0, 0] : Fin 2 → ℕ) = fun _ => 0 := funext fun a => by fin_cases a <;> rfl

/-- After writes whose LAST is a store through the whole-block rectangle, the buffer reads as that store's payload,
    whatever the earlier writes and the prior contents. -/
theorem read_last_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

set_option maxHeartbeats 1000000 in
/-- WHERE THE ACCUMULATOR IS ZEROED and the output not stored: from the ids and rows at `xd`, `xt` and the
    accumulator at anything, the body leaves the accumulator at the point's product added to the zero block (the
    zero block stored first and read back), the ids and rows as they were. -/
theorem run_reset (c : Dev nD) (E : Set ℕ) (i : grid6.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : condR i) (hs : ¬condS i) (xd : Vec F S1x4096 .i32) (xt : Vec F S4096x128 .bf16) (K : PUnit → sProp 𝕄) :
    iprop(owns (c : Thread nD τ) aD fullShare xd ∗ owns (c : Thread nD τ) aT fullShare xt ∗ (∃ d, owns (c : Thread nD τ) aS fullShare d)
        ∗ (iprop(owns (c : Thread nD τ) aD fullShare xd ∗ owns (c : Thread nD τ) aT fullShare xt
            ∗ owns (c : Thread nD τ) aS fullShare (k6_pay2 i xd xt k6_pay1)) -∗ K ⟨⟩))
      ⊢ wp frame (wpE (defs₀ (F := F)) Variants.none c none) E (cc6__scatter_mlp_ln_kernel i aD hD aT hT aH hH aW hW aB hB' aG hG aL hL aO hO aS hS') K := by
  simp only [cc6__scatter_mlp_ln_kernel_eq_skeleton]; unfold cc6__scatter_mlp_ln_kernel_skel
  unfold owns
  iintro ⟨⟨%fD, %hfD, HD⟩, ⟨%fT, %hfT, HT⟩, ⟨%ds, %fs, -, HS⟩, Hk⟩
  subst hfD; subst hfT
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  sl_unfold_run_names
  rw [View.readCov_unit_zero (S := S1024x128) _ hz]
  simp only [View.readAt_eq_ld, View.ld_unit_zero (S := S1x4096) hz, View.ld_unit_zero (S := S4096x128) hz]

set_option maxHeartbeats 1000000 in
/-- WHERE THE ACCUMULATOR IS KEPT and the output not stored: from the accumulator at `xs`, the body leaves it at the
    point's product added to `xs`. -/
theorem run_acc (c : Dev nD) (E : Set ℕ) (i : grid6.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : ¬condS i) (xd : Vec F S1x4096 .i32) (xt : Vec F S4096x128 .bf16) (xs : Vec F S1024x128 .f32)
    (K : PUnit → sProp 𝕄) :
    iprop(owns (c : Thread nD τ) aD fullShare xd ∗ owns (c : Thread nD τ) aT fullShare xt ∗ owns (c : Thread nD τ) aS fullShare xs
        ∗ (iprop(owns (c : Thread nD τ) aD fullShare xd ∗ owns (c : Thread nD τ) aT fullShare xt
            ∗ owns (c : Thread nD τ) aS fullShare (k6_pay2 i xd xt xs)) -∗ K ⟨⟩))
      ⊢ wp frame (wpE (defs₀ (F := F)) Variants.none c none) E (cc6__scatter_mlp_ln_kernel i aD hD aT hT aH hH aW hW aB hB' aG hG aL hL aO hO aS hS') K := by
  simp only [cc6__scatter_mlp_ln_kernel_eq_skeleton]; unfold cc6__scatter_mlp_ln_kernel_skel
  unfold owns
  iintro ⟨⟨%fD, %hfD, HD⟩, ⟨%fT, %hfT, HT⟩, ⟨%fs, %hfs, HS⟩, Hk⟩
  subst hfD; subst hfT; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  iexists _; isplitr
  swap; · iexact HS
  ipureintro
  rw [read_last_whole _ _ hz]
  simp only [View.readAt_eq_ld, View.ld_unit_zero (S := S1x4096) hz, View.ld_unit_zero (S := S4096x128) hz,
    View.ld_unit_zero (S := S1024x128) hz]

set_option maxHeartbeats 2000000 in
/-- WHERE THE OUTPUT IS STORED (the accumulator kept): from the accumulator at `xs` and the other operands at their
    contents, the output's buffer at anything, the body leaves the accumulator at the point's product added to `xs`
    and the output's buffer at the block computed from that sum. -/
theorem run_store (c : Dev nD) (E : Set ℕ) (i : grid6.Coords)
    (aD : Memref sig .tc .vmem S1x4096 .i32) (hD : aD.IsWhole) (aT : Memref sig .tc .vmem S4096x128 .bf16) (hT : aT.IsWhole)
    (aH : Memref sig .tc .vmem S1024x128 .f32) (hH : aH.IsWhole) (aW : Memref sig .tc .vmem S128x128 .f32) (hW : aW.IsWhole)
    (aB : Memref sig .tc .vmem S1x128 .f32) (hB' : aB.IsWhole) (aG : Memref sig .tc .vmem S1x128 .f32) (hG : aG.IsWhole)
    (aL : Memref sig .tc .vmem S1x128 .f32) (hL : aL.IsWhole) (aO : Memref sig .tc .vmem S1024x128 .f32) (hO : aO.IsWhole)
    (aS : Memref sig .tc .vmem S1024x128 .f32) (hS' : aS.IsWhole)
    (hr : ¬condR i) (hs : condS i) (xd : Vec F S1x4096 .i32) (xt : Vec F S4096x128 .bf16) (xh : Vec F S1024x128 .f32)
    (xw : Vec F S128x128 .f32) (xb : Vec F S1x128 .f32) (xg : Vec F S1x128 .f32) (xl : Vec F S1x128 .f32)
    (xs : Vec F S1024x128 .f32) (K : PUnit → sProp 𝕄) :
    iprop(owns (c : Thread nD τ) aD fullShare xd ∗ owns (c : Thread nD τ) aT fullShare xt ∗ owns (c : Thread nD τ) aH fullShare xh ∗ owns (c : Thread nD τ) aW fullShare xw
        ∗ owns (c : Thread nD τ) aB fullShare xb ∗ owns (c : Thread nD τ) aG fullShare xg ∗ owns (c : Thread nD τ) aL fullShare xl
        ∗ (∃ d, owns (c : Thread nD τ) aO fullShare d) ∗ owns (c : Thread nD τ) aS fullShare xs
        ∗ (iprop(owns (c : Thread nD τ) aD fullShare xd ∗ owns (c : Thread nD τ) aT fullShare xt ∗ owns (c : Thread nD τ) aH fullShare xh ∗ owns (c : Thread nD τ) aW fullShare xw
            ∗ owns (c : Thread nD τ) aB fullShare xb ∗ owns (c : Thread nD τ) aG fullShare xg ∗ owns (c : Thread nD τ) aL fullShare xl
            ∗ owns (c : Thread nD τ) aO fullShare (k6_pay3 xh (k6_pay2 i xd xt xs) xw xb xg xl)
            ∗ owns (c : Thread nD τ) aS fullShare (k6_pay2 i xd xt xs)) -∗ K ⟨⟩))
      ⊢ wp frame (wpE (defs₀ (F := F)) Variants.none c none) E (cc6__scatter_mlp_ln_kernel i aD hD aT hT aH hH aW hW aB hB' aG hG aL hL aO hO aS hS') K := by
  simp only [cc6__scatter_mlp_ln_kernel_eq_skeleton]; unfold cc6__scatter_mlp_ln_kernel_skel
  unfold owns
  iintro ⟨⟨%fD, %hfD, HD⟩, ⟨%fT, %hfT, HT⟩, ⟨%fH, %hfH, HH⟩, ⟨%fW, %hfW, HW⟩, ⟨%fB, %hfB, HB⟩, ⟨%fG, %hfG, HG⟩, ⟨%fL, %hfL, HL⟩,
    ⟨%dO, %fO, -, HO⟩, ⟨%fs, %hfs, HS⟩, Hk⟩
  subst hfD; subst hfT; subst hfH; subst hfW; subst hfB; subst hfG; subst hfL; subst hfs
  sl_exec (disch := first | exact hr | exact hs)
  sl_step
  iapply Hk
  isplitl [HD]
  · iexists fD; isplitr; · ipureintro; rfl
    iexact HD
  isplitl [HT]
  · iexists fT; isplitr; · ipureintro; rfl
    iexact HT
  isplitl [HH]
  · iexists fH; isplitr; · ipureintro; rfl
    iexact HH
  isplitl [HW]
  · iexists fW; isplitr; · ipureintro; rfl
    iexact HW
  isplitl [HB]
  · iexists fB; isplitr; · ipureintro; rfl
    iexact HB
  isplitl [HG]
  · iexists fG; isplitr; · ipureintro; rfl
    iexact HG
  isplitl [HL]
  · iexists fL; isplitr; · ipureintro; rfl
    iexact HL
  isplitl [HO]
  · iexists _; isplitr
    swap; · iexact HO
    ipureintro
    rw [read_last_whole _ _ hz]
    sl_unfold_run_names
    rw [View.readCov_unit_zero (S := S1024x128) _ hz]
    simp only [View.readAt_eq_ld, View.ld_unit_zero (S := S1x4096) hz, View.ld_unit_zero (S := S4096x128) hz,
      View.ld_unit_zero (S := S1024x128) hz, View.ld_unit_zero (S := S128x128) hz, View.ld_unit_zero (S := S1x128) hz]
  iexists _; isplitr
  swap; · iexact HS
  ipureintro
  sl_unfold_run_names
  rw [read_last_whole _ _ hz]
  simp only [View.readAt_eq_ld, View.ld_unit_zero (S := S1x4096) hz, View.ld_unit_zero (S := S4096x128) hz,
    View.ld_unit_zero (S := S1024x128) hz]

/-! ## The body obligation, at a generic point -/

/-- An input window is never idle: the body's post for it is its buffer at its block. -/
theorem leaves_D (c : Dev nD) (t : Fin cfg6.N) :
    (dat V c).leavesExact 0 t = owns (c : Thread nD τ) (st6_0 t) fullShare (iblk V c 0 t) := by
  unfold Dat.leavesExact; rw [show cfg6.idle 0 (grid6.coords t) = false from rfl, after_D]
theorem leaves_T (c : Dev nD) (t : Fin cfg6.N) :
    (dat V c).leavesExact 1 t = owns (c : Thread nD τ) (st6_1 t) fullShare (iblk V c 1 t) := by
  unfold Dat.leavesExact; rw [show cfg6.idle 1 (grid6.coords t) = false from rfl, after_T]
theorem leaves_H (c : Dev nD) (t : Fin cfg6.N) :
    (dat V c).leavesExact 2 t = owns (c : Thread nD τ) (st6_2 t) fullShare (iblk V c 2 t) := by
  unfold Dat.leavesExact; rw [show cfg6.idle 2 (grid6.coords t) = false from rfl, after_H]
theorem leaves_W (c : Dev nD) (t : Fin cfg6.N) :
    (dat V c).leavesExact 3 t = owns (c : Thread nD τ) (st6_3 t) fullShare (iblk V c 3 t) := by
  unfold Dat.leavesExact; rw [show cfg6.idle 3 (grid6.coords t) = false from rfl, after_W]
theorem leaves_B (c : Dev nD) (t : Fin cfg6.N) :
    (dat V c).leavesExact 4 t = owns (c : Thread nD τ) (st6_4 t) fullShare (iblk V c 4 t) := by
  unfold Dat.leavesExact; rw [show cfg6.idle 4 (grid6.coords t) = false from rfl, after_B]
theorem leaves_G (c : Dev nD) (t : Fin cfg6.N) :
    (dat V c).leavesExact 5 t = owns (c : Thread nD τ) (st6_5 t) fullShare (iblk V c 5 t) := by
  unfold Dat.leavesExact; rw [show cfg6.idle 5 (grid6.coords t) = false from rfl, after_G]
theorem leaves_L (c : Dev nD) (t : Fin cfg6.N) :
    (dat V c).leavesExact 6 t = owns (c : Thread nD τ) (st6_6 t) fullShare (iblk V c 6 t) := by
  unfold Dat.leavesExact; rw [show cfg6.idle 6 (grid6.coords t) = false from rfl, after_L]

/-- What the body is called with at point `t` (the library's obligation, the windows one by one), -/
def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d))
    ∗ (∃ d, owns (c : Thread nD τ) (st6_6 t) fullShare ((dat V c).before 6 t d))
    ∗ (∃ d, owns (c : Thread nD τ) (st6_7 t) fullShare ((dat V c).before 7 t d)))

/-- and what it returns. -/
def bodyPost (c : Dev nD) (t : Fin cfg6.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body at any point. The inputs' memrefs hold their blocks; the point's edge-block coordinate says which case
    it is in. Where the coordinate is 0 the invariant's scratch, at whatever it holds, is zeroed and summed into; elsewhere
    it holds what the point before left and is summed into; at the last coordinate the output block is computed from
    the sum and stored, at the others the output's buffer is handed back untouched (the window idle, not written
    back). The invariant takes the scratch back at this point's sum; the core owes nothing throughout. -/
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_D, before_T, before_H, before_W, before_B, before_G, before_L]
  rw [show (dat V c).owesAt () t.succ = (dat V c).owesAt () t.castSucc from rfl]
  rw [show (dat V c).Φ t.succ = Phi V c (t.val + 1) t.isLt from rfl, Phi_succ]
  rw [leaves_D, leaves_T, leaves_H, leaves_W, leaves_B, leaves_G, leaves_L, Phi_castSucc]
  by_cases hr : t.val % 147 = 0
  · have hs : ¬t.val % 147 = 146 := by omega
    rw [Dat.leavesExact_idle (dat V c) 7 t (idle_out t hs) (noflush_out t hs), scr_reset V c t hr]
    iintro ⟨HΦ, Ho, ⟨%dD, HD⟩, ⟨%dT, HT⟩, ⟨%dH, HH⟩, ⟨%dW, HW⟩, ⟨%dB, HB⟩, ⟨%dG, HG⟩, ⟨%dL, HL⟩, ⟨%dO, HO⟩⟩
    ihave HΦ' := (Phi_any V c _ _) $$ HΦ
    icases HΦ' with ⟨⟨HS, HR⟩, Hg⟩
    iapply (run_reset c Set.univ (grid6.coords t) _ _ _ _ _ _ _ _ _ _ _ _ _ _ _ _ _ _ ((hR t).mpr hr) (fun h => hs ((hS t).mp h))
      (dstB V c t) (tB V c t) _)
    isplitl [HD]; · iexact HD
    isplitl [HT]; · iexact HT
    isplitl [HS]; · iexact HS
    iintro ⟨HD, HT, HS⟩
    isplitl [HS HR Hg]
    · isplitl [HS HR]
      · isplitl [HS]; · iexact HS
        iexact HR
      iexact Hg
    isplitl [Ho]; · iexact Ho
    isplitl [HD]; · iexact HD
    isplitl [HT]; · iexact HT
    isplitl [HH]; · iexact HH
    isplitl [HW]; · iexact HW
    isplitl [HB]; · iexact HB
    isplitl [HG]; · iexact HG
    isplitl [HL]; · iexact HL
    iexists _; iexact HO
  · have hz' : t.val ≠ 0 := fun h => hr (by rw [h])
    rw [Phi_pos V c _ _ hz', scr_acc V c t hr]
    by_cases hs : t.val % 147 = 146
    · rw [show (dat V c).leavesExact 7 t = owns (c : Thread nD τ) (st6_7 t) fullShare ((dat V c).after 7 t) from by
        unfold Dat.leavesExact; rw [live_out t hs], after_out]
      unfold outv
      rw [scr_acc V c t hr]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_store c Set.univ (grid6.coords t) _ _ _ _ _ _ _ _ _ _ _ _ _ _ _ _ _ _ (fun h => hr ((hR t).mp h)) ((hS t).mpr hs)
        (dstB V c t) (tB V c t) (hB V c t) (wB V c t) (bB V c t) (gB V c t) (lB V c t) _ _)
      isplitl [HD]; · iexact HD
      isplitl [HT]; · iexact HT
      isplitl [HH]; · iexact HH
      isplitl [HW]; · iexact HW
      isplitl [HB]; · iexact HB
      isplitl [HG]; · iexact HG
      isplitl [HL]; · iexact HL
      isplitl [HO]; · iexists _; iexact HO
      isplitl [HS]; · iexact HS
      iintro ⟨HD, HT, HH, HW, HB, HG, HL, HO, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexact HO
    · rw [Dat.leavesExact_idle (dat V c) 7 t (idle_out t hs) (noflush_out t hs)]
      iintro ⟨⟨⟨HS, HR⟩, Hg⟩, Ho, ⟨%dD, HD⟩, ⟨%dT, HT⟩, ⟨%dH, HH⟩, ⟨%dW, HW⟩, ⟨%dB, HB⟩, ⟨%dG, HG⟩, ⟨%dL, HL⟩, ⟨%dO, HO⟩⟩
      iapply (run_acc c Set.univ (grid6.coords t) _ _ _ _ _ _ _ _ _ _ _ _ _ _ _ _ _ _ (fun h => hr ((hR t).mp h)) (fun h => hs ((hS t).mp h))
        (dstB V c t) (tB V c t) _ _)
      isplitl [HD]; · iexact HD
      isplitl [HT]; · iexact HT
      isplitl [HS]; · iexact HS
      iintro ⟨HD, HT, HS⟩
      isplitl [HS HR Hg]
      · isplitl [HS HR]
        · isplitl [HS]; · iexact HS
          iexact HR
        iexact Hg
      isplitl [Ho]; · iexact Ho
      isplitl [HD]; · iexact HD
      isplitl [HT]; · iexact HT
      isplitl [HH]; · iexact HH
      isplitl [HW]; · iexact HW
      isplitl [HB]; · iexact HB
      isplitl [HG]; · iexact HG
      isplitl [HL]; · iexact HL
      iexists _; iexact HO

/-- The library's body obligation, at every point. -/
theorem body_obligation (c : Dev nD) : BodyObligation (dat (F := F) V c) (defs₀ (F := F)) Variants.none () Set.univ := fun t => by
  rw [bigSep_W6, bigSep_W6]
  exact sound_body V c t

/-- What the launch hands the region (the class's invariant) is the invariant before the first point. -/
theorem hin (c : Dev nD) : (Pipeline.ΦA spec6 c : sProp 𝕄) ⊢ (dat V c).Φ 0 := by
  rw [show (dat V c).Φ 0 = Pipeline.ΦA spec6 c from rfl]
  try exact Idealize.SL.BI.Entails.refl _

/-- After the last point the invariant gives the class's back: the scratch's named contents are forgotten. -/
theorem hout (c : Dev nD) : (dat V c).Φ (Fin.last cfg6.N) ⊢ (Pipeline.ΦA spec6 c : sProp 𝕄) := by
  rw [PhiA_eq]
  exact Phi_any V c (Fin.last cfg6.N).val (Nat.le_of_lt_succ (Fin.last cfg6.N).isLt)

end Cert.KernelIdeal.Reg6

end
-- ==== Proof.KI.Reg7.lean ====
/-
  Kernel region 7 of the program, the mean-pool kernel, at the TensorCore's buffer contents `V` found when the
  region is entered: the proof data of its pipeline and the body obligation, generic in the float model.

  The kernel runs over 98 node blocks. Window 0 is the block's 1024 graph ids (i32), window 1 its 1024x128 block
  of node features; windows 2 (the 128x128 sums) and 3 (the 128x1 counts) are outputs whose block index never
  moves: their staging buffers stay resident over the whole grid and are written back once, after the last
  point. At the first point the body stores the zero blocks into both (under the branch on the grid coordinate);
  at every point it reads each output buffer back and stores the payload of the ids, the feature block and what
  it read: `k7_pay4 ids h sums` and `k7_pay5 ids counts`. So the output buffers after point `n` are two
  left folds over the points, `sumsAt` and `countsAt`, stated here by recursion on the point with the payloads
  kept closed: nothing below looks inside a payload, only at this sequence of loads and stores.
-/
import proofs.«423195_j8272107012813_1_alg».proof.Proof.Gen.KernelIdeal.Launch
import proofs.«423195_j8272107012813_1_alg».proof.Proof.Gen.KernelIdeal.Skeleton
import proofs.«423195_j8272107012813_1_alg».proof.Proof.Gen.KernelIdeal.Points
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Reg7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The graph ids of node block `t`: window 0's block, at its literal type. -/
abbrev ids (c : Dev nD) (t : Fin cfg7.N) : Vec F S1x1024 .i32 := iblk V c 0 t

/-- The features of node block `t`: window 1's block, at its literal type. -/
abbrev feats (c : Dev nD) (t : Fin cfg7.N) : Vec F S1024x128 .f32 := iblk V c 1 t

/-! ## What the resident outputs hold after each point -/

/-- The sums' buffer after point `n`: at the first point the zero block the reset stores, read back and
    updated with the point's ids and features; at a later point what the point before left, updated. -/
def sumsAt (c : Dev nD) : (n : ℕ) → n < cfg7.N → Vec F S128x128 .f32
  | 0, hn => k7_pay4 (ids V c ⟨0, hn⟩) (feats V c ⟨0, hn⟩) k7_pay1
  | n + 1, hn => k7_pay4 (ids V c ⟨n + 1, hn⟩) (feats V c ⟨n + 1, hn⟩) (sumsAt c n (Nat.lt_of_succ_lt hn))

/-- The counts' buffer after point `n`, likewise. -/
def countsAt (c : Dev nD) : (n : ℕ) → n < cfg7.N → Vec F S128x1 .f32
  | 0, hn => k7_pay5 (ids V c ⟨0, hn⟩) k7_pay2
  | n + 1, hn => k7_pay5 (ids V c ⟨n + 1, hn⟩) (countsAt c n (Nat.lt_of_succ_lt hn))

/-- At the point where the reset runs (the first), the sums are the update of the zero block. -/
theorem sumsAt_reset (c : Dev nD) (t : Fin cfg7.N) (h0 : t.val = 0) :
    sumsAt V c t.val t.isLt = k7_pay4 (ids V c t) (feats V c t) k7_pay1 := by
  obtain ⟨n, hn⟩ := t
  cases n with
  | zero => rfl
  | succ n => exact absurd h0 (Nat.succ_ne_zero n)

/-- At any other point, the update of what the point before left. -/
theorem sumsAt_acc (c : Dev nD) (t : Fin cfg7.N) (h0 : t.val ≠ 0) :
    sumsAt V c t.val t.isLt
      = k7_pay4 (ids V c t) (feats V c t) (sumsAt V c (t.val - 1) (Nat.lt_of_le_of_lt (Nat.sub_le _ _) t.isLt)) := by
  obtain ⟨n, hn⟩ := t
  cases n with
  | zero => exact absurd rfl h0
  | succ n => rfl

theorem countsAt_reset (c : Dev nD) (t : Fin cfg7.N) (h0 : t.val = 0) :
    countsAt V c t.val t.isLt = k7_pay5 (ids V c t) k7_pay2 := by
  obtain ⟨n, hn⟩ := t
  cases n with
  | zero => rfl
  | succ n => exact absurd h0 (Nat.succ_ne_zero n)

theorem countsAt_acc (c : Dev nD) (t : Fin cfg7.N) (h0 : t.val ≠ 0) :
    countsAt V c t.val t.isLt
      = k7_pay5 (ids V c t) (countsAt V c (t.val - 1) (Nat.lt_of_le_of_lt (Nat.sub_le _ _) t.isLt)) := by
  obtain ⟨n, hn⟩ := t
  cases n with
  | zero => exact absurd rfl h0
  | succ n => rfl

/-! ## The pipeline's proof data -/

/-- The proof data of the region's pipeline on core `c`: the arrays as the region finds them; after the body at
    point `t` each input's buffer at its block, the sums' at `sumsAt` and the counts' at `countsAt`; the
    invariant the scoped rest and the generator register, which the body never touches; nothing owed; full
    shares. -/
def dat (c : Dev nD) : Dat τ (Elt F) Unit ℕ (UR sig nD τ) ℕ cfg7 c where
  A w := V c (Pipeline.arrRef spec7 w)
  after w t := match w with
    | ⟨0, _⟩ => iblk V c 0 t
    | ⟨1, _⟩ => iblk V c 1 t
    | ⟨2, _⟩ => sumsAt V c t.val t.isLt
    | ⟨3, _⟩ => countsAt V c t.val t.isLt
  Φ _ := Pipeline.ΦA spec7 c
  q _ := fullShare
  owed _ := 0

/-- The proof data's arrays are the region-entry contents. -/
theorem A_eq (c : Dev nD) (w : Fin cfg7.W) : (dat V c).A w = V c (Pipeline.arrRef spec7 w) := by
  dsimp only [dat]

/-- What the body leaves, window by window. -/
theorem after_0 (c : Dev nD) (t : Fin cfg7.N) : (dat V c).after 0 t = iblk V c 0 t := by dsimp only [dat]
theorem after_1 (c : Dev nD) (t : Fin cfg7.N) : (dat V c).after 1 t = iblk V c 1 t := by dsimp only [dat]
theorem after_2 (c : Dev nD) (t : Fin cfg7.N) : (dat V c).after 2 t = sumsAt V c t.val t.isLt := by dsimp only [dat]
theorem after_3 (c : Dev nD) (t : Fin cfg7.N) : (dat V c).after 3 t = countsAt V c t.val t.isLt := by dsimp only [dat]

/-- The invariant is the same at every point. -/
theorem Φ_eq (c : Dev nD) (n : Fin (cfg7.N + 1)) : (dat V c).Φ n = (Pipeline.ΦA spec7 c : sProp 𝕄) := by dsimp only [dat]

/-- What the launch hands the kernel is the invariant before the first point, -/
theorem hin (c : Dev nD) : (Pipeline.ΦA spec7 c : sProp 𝕄) ⊢ (dat V c).Φ 0 := by
  rw [Φ_eq]

/-- and the invariant after the last point is what the launch takes back. -/
theorem hout (c : Dev nD) : (dat V c).Φ (Fin.last cfg7.N) ⊢ (Pipeline.ΦA spec7 c : sProp 𝕄) := by
  rw [Φ_eq]

/-! ## The body's branch condition -/

/-- The condition of the body's one branch, from the grid coordinate: the coordinate is zero. -/
abbrev cond0 (i : grid7.Coords) : Prop :=
  (Scalar.cmpi .ne (Scalar.extui (Scalar.cmpi .eq (BitVec.ofNat 32 (i 0).val) 0#32)) 0#32) = 1#1

/-- It holds at the first point only (98 points: decided). -/
theorem hcond0 : ∀ t : Fin cfg7.N, cond0 (grid7.coords t) ↔ t.val = 0 :=
  (by decide +kernel : ∀ t : Fin grid7.N, cond0 (grid7.coords t) ↔ t.val = 0)

/-! ## The body's two runs -/

theorem hz : (![0, 0] : Fin 2 → Nat) = fun _ => 0 := funext fun a => by fin_cases a <;> rfl

/-- A buffer whose LAST store went through the whole-shape rectangle (zero offsets, the shape's own sizes) reads
    that store's payload, whatever was stored before and whatever the buffer held. -/
theorem read_writes_cons_whole {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

set_option maxHeartbeats 1000000 in
/-- WHERE THE RESET RUNS. On whole staging memrefs, the inputs' at contents `x0` (ids) and `x1` (features), the
    outputs' at anything, the body runs to the continuation holding the inputs' as they were, the sums' at the
    update of the zero block and the counts' likewise: each output's last store covers its buffer, and what the
    store's payload read back is the zero block the reset had just stored. -/
theorem kernel_reset (c : Dev nD) (E : Set ℕ) (i : grid7.Coords)
    (arg1 : Memref sig .tc .vmem S1x1024 .i32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x1 .f32) (harg4 : arg4.IsWhole)
    (hc : cond0 i) (x0 : Vec F S1x1024 .i32) (x1 : Vec F S1024x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k7_pay4 x0 x1 k7_pay1)
            ∗ owns (c : Thread nD τ) arg4 fullShare (k7_pay5 x0 k7_pay2)) -∗ K ⟨⟩))
      ⊢ wp frame (wpE (defs₀ (F := F)) Variants.none c none) E
          (cc7__pool_kernel i arg1 harg1 arg2 harg2 arg3 harg3 arg4 harg4) K := by
  simp only [cc7__pool_kernel_eq_skeleton]; unfold cc7__pool_kernel_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_cons_whole (S := S128x128) _ _ hz, View.readCov_unit_zero (S := S128x128) _ hz]
    simp only [View.readAt_eq_ld, harg1.read_unread, harg2.read_unread, View.ld_unit_zero (S := S1x1024) hz,
      View.ld_unit_zero (S := S1024x128) hz]
  · iexists _; isplitr
    swap; · iexact H3
    ipureintro
    sl_unfold_words
    rw [read_writes_cons_whole (S := S128x1) _ _ hz, View.readCov_unit_zero (S := S128x1) _ hz]
    simp only [View.readAt_eq_ld, harg1.read_unread, View.ld_unit_zero (S := S1x1024) hz]

set_option maxHeartbeats 1000000 in
/-- WHERE IT DOES NOT. The same memrefs, the outputs' now at the running contents `xo2` (sums) and `xo3` (counts):
    the body leaves the sums' at their update and the counts' at theirs; the payloads' read-backs are the
    running contents themselves. -/
theorem kernel_acc (c : Dev nD) (E : Set ℕ) (i : grid7.Coords)
    (arg1 : Memref sig .tc .vmem S1x1024 .i32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x1 .f32) (harg4 : arg4.IsWhole)
    (hc : ¬cond0 i) (x0 : Vec F S1x1024 .i32) (x1 : Vec F S1024x128 .f32)
    (xo2 : Vec F S128x128 .f32) (xo3 : Vec F S128x1 .f32) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k7_pay4 x0 x1 xo2)
            ∗ owns (c : Thread nD τ) arg4 fullShare (k7_pay5 x0 xo3)) -∗ K ⟨⟩))
      ⊢ wp frame (wpE (defs₀ (F := F)) Variants.none c none) E
          (cc7__pool_kernel i arg1 harg1 arg2 harg2 arg3 harg3 arg4 harg4) K := by
  simp only [cc7__pool_kernel_eq_skeleton]; unfold cc7__pool_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_cons_whole (S := S128x128) _ _ hz]
    simp only [View.readAt_eq_ld, harg1.read_unread, harg2.read_unread, harg3.read_unread,
      View.ld_unit_zero (S := S1x1024) hz, View.ld_unit_zero (S := S1024x128) hz, View.ld_unit_zero (S := S128x128) hz]
  · iexists _; isplitr
    swap; · iexact H3
    ipureintro
    sl_unfold_words
    rw [read_writes_cons_whole (S := S128x1) _ _ hz]
    simp only [View.readAt_eq_ld, harg1.read_unread, harg4.read_unread,
      View.ld_unit_zero (S := S1x1024) hz, View.ld_unit_zero (S := S128x1) hz]

/-! ## What the body finds in each staging buffer -/

/-- An input's current staging buffer holds its block at every point, fetched there or not: the body leaves the
    block in place, and an unfetched block's index has not moved. -/
theorem before_0 (c : Dev nD) (t : Fin cfg7.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg7.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- After the first point the sums' buffer holds what the body left at the point before: the buffer is written
    back only after the last point, the window is never idle and its block is not cut. -/
theorem before_2 (c : Dev nD) (t : Fin cfg7.N) (h0 : t.val ≠ 0) (d) :
    (dat V c).before 2 t d = sumsAt V c (t.val - 1) (Nat.lt_of_le_of_lt (Nat.sub_le _ _) t.isLt) := by
  have hN : t.val < 98 := lt_of_lt_of_eq t.isLt (show cfg7.N = 98 from N_7)
  rw [Dat.before_out_kept _ 2 rfl t h0
    (Bool.eq_false_iff.mpr fun h => by have := (flush7_2 _).mp h; dsimp only at this; omega)
    (fun _ => rfl) (fun _ _ => rfl)]
  dsimp only [dat]

/-- The counts' buffer likewise. -/
theorem before_3 (c : Dev nD) (t : Fin cfg7.N) (h0 : t.val ≠ 0) (d) :
    (dat V c).before 3 t d = countsAt V c (t.val - 1) (Nat.lt_of_le_of_lt (Nat.sub_le _ _) t.isLt) := by
  have hN : t.val < 98 := lt_of_lt_of_eq t.isLt (show cfg7.N = 98 from N_7)
  rw [Dat.before_out_kept _ 3 rfl t h0
    (Bool.eq_false_iff.mpr fun h => by have := (flush7_3 _).mp h; dsimp only at this; omega)
    (fun _ => rfl) (fun _ _ => rfl)]
  dsimp only [dat]

/-! ## The body obligation, at a generic point -/

/-- What the body is called with at point `t`: the invariant, the core owing nothing, and each window's current
    staging buffer at what it then holds, -/
def bodyPre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d)))

/-- and what it returns: the same, each buffer at what the proof data says the body leaves. -/
def bodyPost (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t))

set_option maxHeartbeats 800000 in
/-- The body at any point. The inputs' buffers hold their blocks. At the first point the branch is taken and the
    outputs' buffers may hold anything: the run with the reset applies. At a later point it is not, and the
    outputs' buffers hold what the point before left: the other run applies at those contents. The invariant and
    the core's debts pass through untouched. -/
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1]
  rw [show (dat V c).Φ t.succ = (dat V c).Φ t.castSucc from rfl,
    show (dat V c).owesAt () t.succ = (dat V c).owesAt () t.castSucc from rfl,
    after_0, after_1, after_2, after_3]
  by_cases h0 : t.val = 0
  · rw [sumsAt_reset V c t h0, countsAt_reset V c t h0]
    iintro ⟨HΦ, Ho, ⟨%d0, H0⟩, ⟨%d1, H1⟩, ⟨%d2, H2⟩, ⟨%d3, H3⟩⟩
    iapply (kernel_reset c Set.univ (grid7.coords t) _ _ _ _ _ _ _ _ ((hcond0 t).mpr h0) (iblk V c 0 t) (iblk V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [sumsAt_acc V c t h0, countsAt_acc V c t h0]
    simp only [before_2 V c t h0, before_3 V c t h0]
    iintro ⟨HΦ, Ho, ⟨%d0, H0⟩, ⟨%d1, H1⟩, ⟨%d2, H2⟩, ⟨%d3, H3⟩⟩
    iapply (kernel_acc c Set.univ (grid7.coords t) _ _ _ _ _ _ _ _ (fun h => h0 ((hcond0 t).mp h)) (iblk V c 0 t) (iblk V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W7, bigSep_W7]
  exact sound_body V c t

/-! ## The result arrays after the run -/

/-- The last point, the only one after which the outputs are written back. -/
def tLast : Fin cfg7.N := ⟨97, by rw [show cfg7.N = 98 from N_7]; decide⟩

/-- The sums after the run, as contents of the result array: what the last point left in the resident buffer
    (the window's one block is the whole array). -/
abbrev sumsFinal (c : Dev nD) : Buf (Elt F) ((c : Thread nD τ).loc main_v46_0) :=
  sumsAt V c 97 (by rw [show cfg7.N = 98 from N_7]; decide)

/-- The counts after the run, likewise. -/
abbrev countsFinal (c : Dev nD) : Buf (Elt F) ((c : Thread nD τ).loc main_v46_1) :=
  countsAt V c 97 (by rw [show cfg7.N = 98 from N_7]; decide)

/-- The one write-back of the sums, after the last point, writes them: block (0, 0) of the 128x128 array read
    through zero offsets is the array. -/
theorem flushed_2 (c : Dev nD) (t : Fin cfg7.N) (hf : (cfg7.win 2).flush t = true) :
    (dat V c).flushed 2 t = ((cfg7.win 2).blk t).view.read (Elt F) (sumsFinal V c) := by
  have hN : cfg7.N = 98 := N_7
  have h97 : t.val = 97 := by have := (flush7_2 t).mp hf; have := t.isLt; omega
  obtain rfl : t = tLast := Fin.ext h97
  show (cfg7.win 2).cut (grid7.coords tLast) ((dat V c).after 2 tLast) = _
  rw [after_2]
  have hz' : (fun a => win7_2.index tLast a * main_v46_0.ty.shape.size a) = fun _ => 0 :=
    funext fun a => by fin_cases a <;> decide
  exact (Memref.read_access_unit_zero (Elt F) main_v46_0 hz' (fun a => by rw [congrFun hz' a]; simp) (sumsFinal V c)).symm

theorem flushed_3 (c : Dev nD) (t : Fin cfg7.N) (hf : (cfg7.win 3).flush t = true) :
    (dat V c).flushed 3 t = ((cfg7.win 3).blk t).view.read (Elt F) (countsFinal V c) := by
  have hN : cfg7.N = 98 := N_7
  have h97 : t.val = 97 := by have := (flush7_3 t).mp hf; have := t.isLt; omega
  obtain rfl : t = tLast := Fin.ext h97
  show (cfg7.win 3).cut (grid7.coords tLast) ((dat V c).after 3 tLast) = _
  rw [after_3]
  have hz' : (fun a => win7_3.index tLast a * main_v46_1.ty.shape.size a) = fun _ => 0 :=
    funext fun a => by fin_cases a <;> decide
  exact (Memref.read_access_unit_zero (Elt F) main_v46_1 hz' (fun a => by rw [congrFun hz' a]; simp) (countsFinal V c)).symm

/-- So the sums array ends holding what the last point left: that point's block covers it. -/
theorem final_2 (c : Dev nD) : (dat V c).arrAt 2 cfg7.N = sumsFinal V c :=
  (dat V c).arrAt_eq_of_cover 2 (sumsFinal V c) (flushed_2 V c) fun i =>
    ⟨tLast, (flush7_2 tLast).mpr rfl, by
      show i ∈ ((View.whole main_v46_0).slice (win7_2.rect tLast)).set
      rw [View.set_slice_whole, Rect.mem_set_unit]
      intro a
      have h0 : (i 0 : Nat) < 128 := (i 0).isLt
      have h1 : (i 1 : Nat) < 128 := (i 1).isLt
      match a with
      | ⟨0, _⟩ =>
        show win7_2.index tLast 0 * win7_2.size 0 ≤ (i 0 : Nat)
          ∧ (i 0 : Nat) < win7_2.index tLast 0 * win7_2.size 0 + win7_2.xsize (grid7.coords tLast) 0
        rw [show win7_2.index tLast 0 * win7_2.size 0 = 0 from by decide +kernel,
          show win7_2.xsize (grid7.coords tLast) 0 = 128 from by decide +kernel]; omega
      | ⟨1, _⟩ =>
        show win7_2.index tLast 1 * win7_2.size 1 ≤ (i 1 : Nat)
          ∧ (i 1 : Nat) < win7_2.index tLast 1 * win7_2.size 1 + win7_2.xsize (grid7.coords tLast) 1
        rw [show win7_2.index tLast 1 * win7_2.size 1 = 0 from by decide +kernel,
          show win7_2.xsize (grid7.coords tLast) 1 = 128 from by decide +kernel]; omega⟩

/-- And the counts array. -/
theorem final_3 (c : Dev nD) : (dat V c).arrAt 3 cfg7.N = countsFinal V c :=
  (dat V c).arrAt_eq_of_cover 3 (countsFinal V c) (flushed_3 V c) fun i =>
    ⟨tLast, (flush7_3 tLast).mpr rfl, by
      show i ∈ ((View.whole main_v46_1).slice (win7_3.rect tLast)).set
      rw [View.set_slice_whole, Rect.mem_set_unit]
      intro a
      have h0 : (i 0 : Nat) < 128 := (i 0).isLt
      have h1 : (i 1 : Nat) < 1 := (i 1).isLt
      match a with
      | ⟨0, _⟩ =>
        show win7_3.index tLast 0 * win7_3.size 0 ≤ (i 0 : Nat)
          ∧ (i 0 : Nat) < win7_3.index tLast 0 * win7_3.size 0 + win7_3.xsize (grid7.coords tLast) 0
        rw [show win7_3.index tLast 0 * win7_3.size 0 = 0 from by decide +kernel,
          show win7_3.xsize (grid7.coords tLast) 0 = 128 from by decide +kernel]; omega
      | ⟨1, _⟩ =>
        show win7_3.index tLast 1 * win7_3.size 1 ≤ (i 1 : Nat)
          ∧ (i 1 : Nat) < win7_3.index tLast 1 * win7_3.size 1 + win7_3.xsize (grid7.coords tLast) 1
        rw [show win7_3.index tLast 1 * win7_3.size 1 = 0 from by decide +kernel,
          show win7_3.xsize (grid7.coords tLast) 1 = 1 from by decide +kernel]; omega⟩

end Cert.KernelIdeal.Reg7

end
-- ==== Proof.KI.Run.lean ====
/-
  The launch of the idealized kernel program: its eight kernel regions as segments of @main.

  Between two items of @main a core holds every unscoped buffer at a known valuation.  A region takes the
  buffers its windows stage out of that valuation, runs its pipeline, and puts them back at what the
  write-backs leave; every other buffer passes by untouched.  One constructor builds a region's record from
  its proof data, its body obligation and the two valuations; the eight regions are its instances.
-/
import proofs.«423195_j8272107012813_1_alg».proof.Proof.Gen.KernelIdeal.Regions
import proofs.«423195_j8272107012813_1_alg».proof.Proof.KI.Reg0
import proofs.«423195_j8272107012813_1_alg».proof.Proof.KI.Reg1
import proofs.«423195_j8272107012813_1_alg».proof.Proof.KI.Reg2
import proofs.«423195_j8272107012813_1_alg».proof.Proof.KI.Reg3
import proofs.«423195_j8272107012813_1_alg».proof.Proof.KI.Reg4
import proofs.«423195_j8272107012813_1_alg».proof.Proof.KI.Reg5
import proofs.«423195_j8272107012813_1_alg».proof.Proof.KI.Reg6
import proofs.«423195_j8272107012813_1_alg».proof.Proof.KI.Reg7
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)

/-- A valuation read at the TensorCore's references. -/
abbrev atRefs (W : Dev nD → Valuation τ sig (Elt F)) : (c : Dev nD) → (b : Ref sig .tc) → Buf (Elt F) ((c : Thread nD τ).loc b) :=
  fun c b => W c b

set_option backward.isDefEq.respectTransparency.types false in
/-- A region's record from its proof data: entered with every unscoped buffer at `Vi`, left with them at `Vo`. -/
def mkReg (p : Fin 8) (pd : (p : Fin 8) → (c : Dev nD) → Dat τ (Elt F) Unit ℕ (UR sig nD τ) ℕ (cfgs p) c)
    (lf : Pipeline.LaunchFacts (nD := nD) (τ := τ) cfgs p)
    (Vi Vo : Dev nD → Valuation τ sig (Elt F))
    (hq : ∀ c w, (pd p c).q w = fullShare)
    (howed : ∀ c t, (pd p c).owed t = 0)
    (hrec : ∀ c t, (pd p c).recorded t = Set.univ)
    (hA : ∀ c w, (pd p c).A w = Vi c (Pipeline.arrRef (cfgs p).spec w))
    (hbody : ∀ c, BodyObligation (pd p c) (defs₀ (F := F)) 𝒱₀ () Set.univ)
    (hin : ∀ c, (Pipeline.ΦA (cfgs p).spec c : sProp 𝕄) ⊢ (pd p c).Φ 0)
    (hout : ∀ c, (pd p c).Φ (Fin.last (cfgs p).N) ⊢ (Pipeline.ΦA (cfgs p).spec c : sProp 𝕄))
    (hF : ∀ c w, (pd p c).arrAt w (cfgs p).N = Vo c (Pipeline.arrRef (cfgs p).spec w))
    (hrest : ∀ c (b : Ref sig .tc), b ∉ Finset.univ.image (Pipeline.arrRef (cfgs p).spec) → Vo c b = Vi c b) :
    RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm pd lf.win lf.arr_whole c
      ((pd p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c 0]; exact Set.mem_univ x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Vi c b) (fun b => Vo c b) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-! ## The buffers' contents between items -/

variable (m : (ℓ : Loc nD τ sig) → Buf (Elt F) ℓ)

/-- After region 0: its arrays at what its write-backs leave, read at the result it may change. -/
def o10 (c : Dev nD) : Valuation τ sig (Elt F) :=
  Pipeline.withArrays spec0 c (V9 m c) fun w => (Reg0.dat (atRefs (V9 m)) c).arrAt w cfg0.N
abbrev Y10 (c : Dev nD) : Valuation τ sig (Elt F) := Function.update (V9 m c) main_v15 (o10 m c main_v15)
def o11 (c : Dev nD) : Valuation τ sig (Elt F) :=
  Pipeline.withArrays spec1 c (Y10 m c) fun w => (Reg1.dat (atRefs (Y10 m)) c).arrAt w cfg1.N
abbrev Y11 (c : Dev nD) : Valuation τ sig (Elt F) := Function.update (Y10 m c) main_v16 (o11 m c main_v16)
abbrev Y12 (c : Dev nD) : Valuation τ sig (Elt F) := StableHlo.after hostOps2 (Y11 m c)
def o13 (c : Dev nD) : Valuation τ sig (Elt F) :=
  Pipeline.withArrays spec2 c (Y12 m c) fun w => (Reg2.dat (atRefs (Y12 m)) c).arrAt w cfg2.N
abbrev Y13 (c : Dev nD) : Valuation τ sig (Elt F) := Function.update (Y12 m c) main_v25 (o13 m c main_v25)
def o14 (c : Dev nD) : Valuation τ sig (Elt F) :=
  Pipeline.withArrays spec3 c (Y13 m c) fun w => (Reg3.dat (atRefs (Y13 m)) c).arrAt w cfg3.N
abbrev Y14 (c : Dev nD) : Valuation τ sig (Elt F) := Function.update (Y13 m c) main_v26 (o14 m c main_v26)
abbrev Y15 (c : Dev nD) : Valuation τ sig (Elt F) := StableHlo.after hostOps4 (Y14 m c)
def o16 (c : Dev nD) : Valuation τ sig (Elt F) :=
  Pipeline.withArrays spec4 c (Y15 m c) fun w => (Reg4.dat (atRefs (Y15 m)) c).arrAt w cfg4.N
abbrev Y16 (c : Dev nD) : Valuation τ sig (Elt F) := Function.update (Y15 m c) main_v35 (o16 m c main_v35)
def o17 (c : Dev nD) : Valuation τ sig (Elt F) :=
  Pipeline.withArrays spec5 c (Y16 m c) fun w => (Reg5.dat (atRefs (Y16 m)) c).arrAt w cfg5.N
abbrev Y17 (c : Dev nD) : Valuation τ sig (Elt F) := Function.update (Y16 m c) main_v36 (o17 m c main_v36)
abbrev Y18 (c : Dev nD) : Valuation τ sig (Elt F) := StableHlo.after hostOps6 (Y17 m c)
def o19 (c : Dev nD) : Valuation τ sig (Elt F) :=
  Pipeline.withArrays spec6 c (Y18 m c) fun w => (Reg6.dat (atRefs (Y18 m)) c).arrAt w cfg6.N
abbrev Y19 (c : Dev nD) : Valuation τ sig (Elt F) := Function.update (Y18 m c) main_v45 (o19 m c main_v45)
def o20 (c : Dev nD) : Valuation τ sig (Elt F) :=
  Pipeline.withArrays spec7 c (Y19 m c) fun w => (Reg7.dat (atRefs (Y19 m)) c).arrAt w cfg7.N
abbrev Y20 (c : Dev nD) : Valuation τ sig (Elt F) :=
  Function.update (Function.update (Y19 m c) main_v46_0 (o20 m c main_v46_0)) main_v46_1 (o20 m c main_v46_1)

/-- What the regions leave, item by item. -/
def outs : Outs (F := F) := fun J r c =>
  match J with
  | 10 => o10 m c r
  | 11 => o11 m c r
  | 13 => o13 m c r
  | 14 => o14 m c r
  | 16 => o16 m c r
  | 17 => o17 m c r
  | 19 => o19 m c r
  | _ => o20 m c r

theorem V10_eq (c : Dev nD) : V10 m (outs m) c = Y10 m c := rfl
theorem V11_eq (c : Dev nD) : V11 m (outs m) c = Y11 m c := rfl
theorem V12_eq (c : Dev nD) : V12 m (outs m) c = Y12 m c := rfl
theorem V13_eq (c : Dev nD) : V13 m (outs m) c = Y13 m c := rfl
theorem V14_eq (c : Dev nD) : V14 m (outs m) c = Y14 m c := rfl
theorem V15_eq (c : Dev nD) : V15 m (outs m) c = Y15 m c := rfl
theorem V16_eq (c : Dev nD) : V16 m (outs m) c = Y16 m c := rfl
theorem V17_eq (c : Dev nD) : V17 m (outs m) c = Y17 m c := rfl
theorem V18_eq (c : Dev nD) : V18 m (outs m) c = Y18 m c := rfl
theorem V19_eq (c : Dev nD) : V19 m (outs m) c = Y19 m c := rfl
theorem V20_eq (c : Dev nD) : V20 m (outs m) c = Y20 m c := rfl

/-- Every pipeline's proof data, each at its region's entry contents. -/
def pdats : (p : Fin 8) → (c : Dev nD) → Dat τ (Elt F) Unit ℕ (UR sig nD τ) ℕ (cfgs p) c
  | ⟨0, _⟩ => fun c => Reg0.dat (atRefs (V9 m)) c
  | ⟨1, _⟩ => fun c => Reg1.dat (atRefs (Y10 m)) c
  | ⟨2, _⟩ => fun c => Reg2.dat (atRefs (Y12 m)) c
  | ⟨3, _⟩ => fun c => Reg3.dat (atRefs (Y13 m)) c
  | ⟨4, _⟩ => fun c => Reg4.dat (atRefs (Y15 m)) c
  | ⟨5, _⟩ => fun c => Reg5.dat (atRefs (Y16 m)) c
  | ⟨6, _⟩ => fun c => Reg6.dat (atRefs (Y18 m)) c
  | ⟨7, _⟩ => fun c => Reg7.dat (atRefs (Y19 m)) c

/-! ## The regions as segments -/

set_option backward.isDefEq.respectTransparency.types false in
/-- Region 0: entered at `V9`, left at `Y10`. -/
def reg0 : RegionSeg (pcfgs (F := F)) adm (pdats m) () defs₀ 𝒱₀ L lv 0 :=
  mkReg 0 (pdats m) launch0 (V9 m) (Y10 m) (fun _ _ => rfl) (fun _ _ => rfl) (fun _ _ => rfl)
    (fun c w => Reg0.A_eq _ c w) (fun c => Reg0.body_obligation _ c) (fun c => Reg0.hin _ c) (fun c => Reg0.hout _ c)
    (fun c w => by
      match w with
    | ⟨0, _⟩ => exact ((pdats m 0 c).arrAt_in ⟨0, by decide⟩ rfl _).trans ((Reg0.A_eq _ c ⟨0, by decide⟩).trans (Function.update_of_ne (StableHlo.devRef_ne_of_ne (by decide)) _ _).symm)
    | ⟨1, _⟩ => exact ((pdats m 0 c).arrAt_in ⟨1, by decide⟩ rfl _).trans ((Reg0.A_eq _ c ⟨1, by decide⟩).trans (Function.update_of_ne (StableHlo.devRef_ne_of_ne (by decide)) _ _).symm)
    | ⟨2, _⟩ => exact ((pdats m 0 c).arrAt_in ⟨2, by decide⟩ rfl _).trans ((Reg0.A_eq _ c ⟨2, by decide⟩).trans (Function.update_of_ne (StableHlo.devRef_ne_of_ne (by decide)) _ _).symm)
    | ⟨3, _⟩ =>
      refine Eq.symm ?_
      refine (Function.update_self _ _ _).trans ?_
      unfold o10
      exact Pipeline.withArrays_arr spec0 launch0.win.arr_inj c _ _ ⟨3, by decide⟩)
    (fun c b hb => Function.update_of_ne (StableHlo.devRef_ne_of_ne (fun e => hb (Finset.mem_image.mpr ⟨⟨3, by decide⟩, Finset.mem_univ _, e.symm⟩))) _ _)

set_option backward.isDefEq.respectTransparency.types false in
/-- Region 1: entered at `Y10`, left at `Y11`. -/
def reg1 : RegionSeg (pcfgs (F := F)) adm (pdats m) () defs₀ 𝒱₀ L lv 1 :=
  mkReg 1 (pdats m) launch1 (Y10 m) (Y11 m) (fun _ _ => rfl) (fun _ _ => rfl) (fun _ _ => rfl)
    (fun c w => Reg1.A_eq _ c w) (fun c => Reg1.body_obligation _ c) (fun c => Reg1.hin _ c) (fun c => Reg1.hout _ c)
    (fun c w => by
      match w with
    | ⟨0, _⟩ => exact ((pdats m 1 c).arrAt_in ⟨0, by decide⟩ rfl _).trans ((Reg1.A_eq _ c ⟨0, by decide⟩).trans (Function.update_of_ne (StableHlo.devRef_ne_of_ne (by decide)) _ _).symm)
    | ⟨1, _⟩ => exact ((pdats m 1 c).arrAt_in ⟨1, by decide⟩ rfl _).trans ((Reg1.A_eq _ c ⟨1, by decide⟩).trans (Function.update_of_ne (StableHlo.devRef_ne_of_ne (by decide)) _ _).symm)
    | ⟨2, _⟩ =>
      refine Eq.symm ?_
      refine (Function.update_self _ _ _).trans ?_
      unfold o11
      exact Pipeline.withArrays_arr spec1 launch1.win.arr_inj c _ _ ⟨2, by decide⟩)
    (fun c b hb => Function.update_of_ne (StableHlo.devRef_ne_of_ne (fun e => hb (Finset.mem_image.mpr ⟨⟨2, by decide⟩, Finset.mem_univ _, e.symm⟩))) _ _)

set_option backward.isDefEq.respectTransparency.types false in
/-- Region 2: entered at `Y12`, left at `Y13`. -/
def reg2 : RegionSeg (pcfgs (F := F)) adm (pdats m) () defs₀ 𝒱₀ L lv 2 :=
  mkReg 2 (pdats m) launch2 (Y12 m) (Y13 m) (fun _ _ => rfl) (fun _ _ => rfl) (fun _ _ => rfl)
    (fun c w => Reg2.A_eq _ c w) (fun c => Reg2.body_obligation _ c) (fun c => Reg2.hin _ c) (fun c => Reg2.hout _ c)
    (fun c w => by
      match w with
    | ⟨0, _⟩ => exact ((pdats m 2 c).arrAt_in ⟨0, by decide⟩ rfl _).trans ((Reg2.A_eq _ c ⟨0, by decide⟩).trans (Function.update_of_ne (StableHlo.devRef_ne_of_ne (by decide)) _ _).symm)
    | ⟨1, _⟩ => exact ((pdats m 2 c).arrAt_in ⟨1, by decide⟩ rfl _).trans ((Reg2.A_eq _ c ⟨1, by decide⟩).trans (Function.update_of_ne (StableHlo.devRef_ne_of_ne (by decide)) _ _).symm)
    | ⟨2, _⟩ => exact ((pdats m 2 c).arrAt_in ⟨2, by decide⟩ rfl _).trans ((Reg2.A_eq _ c ⟨2, by decide⟩).trans (Function.update_of_ne (StableHlo.devRef_ne_of_ne (by decide)) _ _).symm)
    | ⟨3, _⟩ => exact ((pdats m 2 c).arrAt_in ⟨3, by decide⟩ rfl _).trans ((Reg2.A_eq _ c ⟨3, by decide⟩).trans (Function.update_of_ne (StableHlo.devRef_ne_of_ne (by decide)) _ _).symm)
    | ⟨4, _⟩ => exact ((pdats m 2 c).arrAt_in ⟨4, by decide⟩ rfl _).trans ((Reg2.A_eq _ c ⟨4, by decide⟩).trans (Function.update_of_ne (StableHlo.devRef_ne_of_ne (by decide)) _ _).symm)
    | ⟨5, _⟩ => exact ((pdats m 2 c).arrAt_in ⟨5, by decide⟩ rfl _).trans ((Reg2.A_eq _ c ⟨5, by decide⟩).trans (Function.update_of_ne (StableHlo.devRef_ne_of_ne (by decide)) _ _).symm)
    | ⟨6, _⟩ => exact ((pdats m 2 c).arrAt_in ⟨6, by decide⟩ rfl _).trans ((Reg2.A_eq _ c ⟨6, by decide⟩).trans (Function.update_of_ne (StableHlo.devRef_ne_of_ne (by decide)) _ _).symm)
    | ⟨7, _⟩ =>
      refine Eq.symm ?_
      refine (Function.update_self _ _ _).trans ?_
      unfold o13
      exact Pipeline.withArrays_arr spec2 launch2.win.arr_inj c _ _ ⟨7, by decide⟩)
    (fun c b hb => Function.update_of_ne (StableHlo.devRef_ne_of_ne (fun e => hb (Finset.mem_image.mpr ⟨⟨7, by decide⟩, Finset.mem_univ _, e.symm⟩))) _ _)

set_option backward.isDefEq.respectTransparency.types false in
/-- Region 3: entered at `Y13`, left at `Y14`. -/
def reg3 : RegionSeg (pcfgs (F := F)) adm (pdats m) () defs₀ 𝒱₀ L lv 3 :=
  mkReg 3 (pdats m) launch3 (Y13 m) (Y14 m) (fun _ _ => rfl) (fun _ _ => rfl) (fun _ _ => rfl)
    (fun c w => Reg3.A_eq _ c w) (fun c => Reg3.body_obligation _ c) (fun c => Reg3.hin _ c) (fun c => Reg3.hout _ c)
    (fun c w => by
      match w with
    | ⟨0, _⟩ => exact ((pdats m 3 c).arrAt_in ⟨0, by decide⟩ rfl _).trans ((Reg3.A_eq _ c ⟨0, by decide⟩).trans (Function.update_of_ne (StableHlo.devRef_ne_of_ne (by decide)) _ _).symm)
    | ⟨1, _⟩ => exact ((pdats m 3 c).arrAt_in ⟨1, by decide⟩ rfl _).trans ((Reg3.A_eq _ c ⟨1, by decide⟩).trans (Function.update_of_ne (StableHlo.devRef_ne_of_ne (by decide)) _ _).symm)
    | ⟨2, _⟩ =>
      refine Eq.symm ?_
      refine (Function.update_self _ _ _).trans ?_
      unfold o14
      exact Pipeline.withArrays_arr spec3 launch3.win.arr_inj c _ _ ⟨2, by decide⟩)
    (fun c b hb => Function.update_of_ne (StableHlo.devRef_ne_of_ne (fun e => hb (Finset.mem_image.mpr ⟨⟨2, by decide⟩, Finset.mem_univ _, e.symm⟩))) _ _)

set_option backward.isDefEq.respectTransparency.types false in
/-- Region 4: entered at `Y15`, left at `Y16`. -/
def reg4 : RegionSeg (pcfgs (F := F)) adm (pdats m) () defs₀ 𝒱₀ L lv 4 :=
  mkReg 4 (pdats m) launch4 (Y15 m) (Y16 m) (fun _ _ => rfl) (fun _ _ => rfl) (fun _ _ => rfl)
    (fun c w => Reg4.A_eq _ c w) (fun c => Reg4.body_obligation _ c) (fun c => Reg4.hin _ c) (fun c => Reg4.hout _ c)
    (fun c w => by
      match w with
    | ⟨0, _⟩ => exact ((pdats m 4 c).arrAt_in ⟨0, by decide⟩ rfl _).trans ((Reg4.A_eq _ c ⟨0, by decide⟩).trans (Function.update_of_ne (StableHlo.devRef_ne_of_ne (by decide)) _ _).symm)
    | ⟨1, _⟩ => exact ((pdats m 4 c).arrAt_in ⟨1, by decide⟩ rfl _).trans ((Reg4.A_eq _ c ⟨1, by decide⟩).trans (Function.update_of_ne (StableHlo.devRef_ne_of_ne (by decide)) _ _).symm)
    | ⟨2, _⟩ => exact ((pdats m 4 c).arrAt_in ⟨2, by decide⟩ rfl _).trans ((Reg4.A_eq _ c ⟨2, by decide⟩).trans (Function.update_of_ne (StableHlo.devRef_ne_of_ne (by decide)) _ _).symm)
    | ⟨3, _⟩ => exact ((pdats m 4 c).arrAt_in ⟨3, by decide⟩ rfl _).trans ((Reg4.A_eq _ c ⟨3, by decide⟩).trans (Function.update_of_ne (StableHlo.devRef_ne_of_ne (by decide)) _ _).symm)
    | ⟨4, _⟩ => exact ((pdats m 4 c).arrAt_in ⟨4, by decide⟩ rfl _).trans ((Reg4.A_eq _ c ⟨4, by decide⟩).trans (Function.update_of_ne (StableHlo.devRef_ne_of_ne (by decide)) _ _).symm)
    | ⟨5, _⟩ => exact ((pdats m 4 c).arrAt_in ⟨5, by decide⟩ rfl _).trans ((Reg4.A_eq _ c ⟨5, by decide⟩).trans (Function.update_of_ne (StableHlo.devRef_ne_of_ne (by decide)) _ _).symm)
    | ⟨6, _⟩ => exact ((pdats m 4 c).arrAt_in ⟨6, by decide⟩ rfl _).trans ((Reg4.A_eq _ c ⟨6, by decide⟩).trans (Function.update_of_ne (StableHlo.devRef_ne_of_ne (by decide)) _ _).symm)
    | ⟨7, _⟩ =>
      refine Eq.symm ?_
      refine (Function.update_self _ _ _).trans ?_
      unfold o16
      exact Pipeline.withArrays_arr spec4 launch4.win.arr_inj c _ _ ⟨7, by decide⟩)
    (fun c b hb => Function.update_of_ne (StableHlo.devRef_ne_of_ne (fun e => hb (Finset.mem_image.mpr ⟨⟨7, by decide⟩, Finset.mem_univ _, e.symm⟩))) _ _)

set_option backward.isDefEq.respectTransparency.types false in
/-- Region 5: entered at `Y16`, left at `Y17`. -/
def reg5 : RegionSeg (pcfgs (F := F)) adm (pdats m) () defs₀ 𝒱₀ L lv 5 :=
  mkReg 5 (pdats m) launch5 (Y16 m) (Y17 m) (fun _ _ => rfl) (fun _ _ => rfl) (fun _ _ => rfl)
    (fun c w => Reg5.A_eq _ c w) (fun c => Reg5.body_obligation _ c) (fun c => Reg5.hin _ c) (fun c => Reg5.hout _ c)
    (fun c w => by
      match w with
    | ⟨0, _⟩ => exact ((pdats m 5 c).arrAt_in ⟨0, by decide⟩ rfl _).trans ((Reg5.A_eq _ c ⟨0, by decide⟩).trans (Function.update_of_ne (StableHlo.devRef_ne_of_ne (by decide)) _ _).symm)
    | ⟨1, _⟩ => exact ((pdats m 5 c).arrAt_in ⟨1, by decide⟩ rfl _).trans ((Reg5.A_eq _ c ⟨1, by decide⟩).trans (Function.update_of_ne (StableHlo.devRef_ne_of_ne (by decide)) _ _).symm)
    | ⟨2, _⟩ =>
      refine Eq.symm ?_
      refine (Function.update_self _ _ _).trans ?_
      unfold o17
      exact Pipeline.withArrays_arr spec5 launch5.win.arr_inj c _ _ ⟨2, by decide⟩)
    (fun c b hb => Function.update_of_ne (StableHlo.devRef_ne_of_ne (fun e => hb (Finset.mem_image.mpr ⟨⟨2, by decide⟩, Finset.mem_univ _, e.symm⟩))) _ _)

set_option backward.isDefEq.respectTransparency.types false in
/-- Region 6: entered at `Y18`, left at `Y19`. -/
def reg6 : RegionSeg (pcfgs (F := F)) adm (pdats m) () defs₀ 𝒱₀ L lv 6 :=
  mkReg 6 (pdats m) launch6 (Y18 m) (Y19 m) (fun _ _ => rfl) (fun _ _ => rfl) (fun _ _ => rfl)
    (fun c w => Reg6.A_eq _ c w) (fun c => Reg6.body_obligation _ c) (fun c => Reg6.hin _ c) (fun c => Reg6.hout _ c)
    (fun c w => by
      match w with
    | ⟨0, _⟩ => exact ((pdats m 6 c).arrAt_in ⟨0, by decide⟩ rfl _).trans ((Reg6.A_eq _ c ⟨0, by decide⟩).trans (Function.update_of_ne (StableHlo.devRef_ne_of_ne (by decide)) _ _).symm)
    | ⟨1, _⟩ => exact ((pdats m 6 c).arrAt_in ⟨1, by decide⟩ rfl _).trans ((Reg6.A_eq _ c ⟨1, by decide⟩).trans (Function.update_of_ne (StableHlo.devRef_ne_of_ne (by decide)) _ _).symm)
    | ⟨2, _⟩ => exact ((pdats m 6 c).arrAt_in ⟨2, by decide⟩ rfl _).trans ((Reg6.A_eq _ c ⟨2, by decide⟩).trans (Function.update_of_ne (StableHlo.devRef_ne_of_ne (by decide)) _ _).symm)
    | ⟨3, _⟩ => exact ((pdats m 6 c).arrAt_in ⟨3, by decide⟩ rfl _).trans ((Reg6.A_eq _ c ⟨3, by decide⟩).trans (Function.update_of_ne (StableHlo.devRef_ne_of_ne (by decide)) _ _).symm)
    | ⟨4, _⟩ => exact ((pdats m 6 c).arrAt_in ⟨4, by decide⟩ rfl _).trans ((Reg6.A_eq _ c ⟨4, by decide⟩).trans (Function.update_of_ne (StableHlo.devRef_ne_of_ne (by decide)) _ _).symm)
    | ⟨5, _⟩ => exact ((pdats m 6 c).arrAt_in ⟨5, by decide⟩ rfl _).trans ((Reg6.A_eq _ c ⟨5, by decide⟩).trans (Function.update_of_ne (StableHlo.devRef_ne_of_ne (by decide)) _ _).symm)
    | ⟨6, _⟩ => exact ((pdats m 6 c).arrAt_in ⟨6, by decide⟩ rfl _).trans ((Reg6.A_eq _ c ⟨6, by decide⟩).trans (Function.update_of_ne (StableHlo.devRef_ne_of_ne (by decide)) _ _).symm)
    | ⟨7, _⟩ =>
      refine Eq.symm ?_
      refine (Function.update_self _ _ _).trans ?_
      unfold o19
      exact Pipeline.withArrays_arr spec6 launch6.win.arr_inj c _ _ ⟨7, by decide⟩)
    (fun c b hb => Function.update_of_ne (StableHlo.devRef_ne_of_ne (fun e => hb (Finset.mem_image.mpr ⟨⟨7, by decide⟩, Finset.mem_univ _, e.symm⟩))) _ _)

set_option backward.isDefEq.respectTransparency.types false in
/-- Region 7: entered at `Y19`, left at `Y20`. -/
def reg7 : RegionSeg (pcfgs (F := F)) adm (pdats m) () defs₀ 𝒱₀ L lv 7 :=
  mkReg 7 (pdats m) launch7 (Y19 m) (Y20 m) (fun _ _ => rfl) (fun _ _ => rfl) (fun _ _ => rfl)
    (fun c w => Reg7.A_eq _ c w) (fun c => Reg7.body_obligation _ c) (fun c => Reg7.hin _ c) (fun c => Reg7.hout _ c)
    (fun c w => by
      match w with
    | ⟨0, _⟩ => exact ((pdats m 7 c).arrAt_in ⟨0, by decide⟩ rfl _).trans ((Reg7.A_eq _ c ⟨0, by decide⟩).trans ((Function.update_of_ne (StableHlo.devRef_ne_of_ne (by decide)) _ _).trans (Function.update_of_ne (StableHlo.devRef_ne_of_ne (by decide)) _ _)).symm)
    | ⟨1, _⟩ => exact ((pdats m 7 c).arrAt_in ⟨1, by decide⟩ rfl _).trans ((Reg7.A_eq _ c ⟨1, by decide⟩).trans ((Function.update_of_ne (StableHlo.devRef_ne_of_ne (by decide)) _ _).trans (Function.update_of_ne (StableHlo.devRef_ne_of_ne (by decide)) _ _)).symm)
    | ⟨2, _⟩ =>
      refine Eq.symm ?_
      refine (Function.update_of_ne (StableHlo.devRef_ne_of_ne (by decide : (main_v46_0 : Ref sig .tc) ≠ main_v46_1)) _ _).trans ?_
      refine (Function.update_self _ _ _).trans ?_
      unfold o20
      exact Pipeline.withArrays_arr spec7 launch7.win.arr_inj c _ _ ⟨2, by decide⟩
    | ⟨3, _⟩ =>
      refine Eq.symm ?_
      refine (Function.update_self _ _ _).trans ?_
      unfold o20
      exact Pipeline.withArrays_arr spec7 launch7.win.arr_inj c _ _ ⟨3, by decide⟩)
    (fun c b hb => (Function.update_of_ne (StableHlo.devRef_ne_of_ne (fun e => hb (Finset.mem_image.mpr ⟨⟨3, by decide⟩, Finset.mem_univ _, e.symm⟩))) _ _).trans (Function.update_of_ne (StableHlo.devRef_ne_of_ne (fun e => hb (Finset.mem_image.mpr ⟨⟨2, by decide⟩, Finset.mem_univ _, e.symm⟩))) _ _))

/-! ## The launch -/

variable (ρ : Dev nD → PrngReg)

/-- The launch element is the pipelines' cells and duty tokens; nothing else is dealt. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core starts with its generator register at the launch state and owing nothing. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

/-- At the end a core still owes nothing. -/
theorem hE8 (c : Dev nD) : R (F := F) c ⊢ (iprop(∃ W, owes (c : Thread nD τ) (0 : CellTallies nD τ sig Unit) W) : sProp 𝕄) := by
  iintro ⟨-, HO⟩; iexact HO

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (m := m) (EP := emb₁) (ι := ()) (𝒱₀ := 𝒱₀) (L := L) (lv := lv) (hL := fun _ _ => rfl) (ρ := ρ) (outs := outs m) (pdats := pdats m)
    (O₀ := 0) (G := fun _ => iprop(emp)) (u₀ := initOf (Pipeline.cells cfgs cellOf_inj) (Pipeline.launchToks cfgs cellOf_inj))
    (hu₀ := hu₀) (E := fun _ c => R c) (hE0 := hE0 ρ) (hE8 := hE8)
    (R0 := reg0 m) (hpre0 := (fun c => .rfl)) (hpost0 := fun c => by rw [V10_eq m c]; exact .rfl)
    (R1 := reg1 m) (hpre1 := (fun c => by rw [V10_eq m c]; exact .rfl)) (hpost1 := fun c => by rw [V11_eq m c]; exact .rfl)
    (R2 := reg2 m) (hpre2 := (fun c => by rw [V12_eq m c]; exact .rfl)) (hpost2 := fun c => by rw [V13_eq m c]; exact .rfl)
    (R3 := reg3 m) (hpre3 := (fun c => by rw [V13_eq m c]; exact .rfl)) (hpost3 := fun c => by rw [V14_eq m c]; exact .rfl)
    (R4 := reg4 m) (hpre4 := (fun c => by rw [V15_eq m c]; exact .rfl)) (hpost4 := fun c => by rw [V16_eq m c]; exact .rfl)
    (R5 := reg5 m) (hpre5 := (fun c => by rw [V16_eq m c]; exact .rfl)) (hpost5 := fun c => by rw [V17_eq m c]; exact .rfl)
    (R6 := reg6 m) (hpre6 := (fun c => by rw [V18_eq m c]; exact .rfl)) (hpost6 := fun c => by rw [V19_eq m c]; exact .rfl)
    (R7 := reg7 m) (hpre7 := (fun c => by rw [V19_eq m c]; exact .rfl)) (hpost7 := fun c => by rw [V20_eq m c]; exact .rfl)

end Cert.KernelIdeal.Run

end
-- ==== Proof.KI.RunVal.lean ====
/-
  The idealized kernel program's run with its result named: the same launch as the frame's, the final state read
  also at the result array.
-/
import proofs.«423195_j8272107012813_1_alg».proof.Proof.KI.Run
import proofs.«423195_j8272107012813_1_alg».proof.Proof.KI.RegionsV

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The same run, with the result array read off the last valuation. -/
theorem run_val : θ_run defs (onTc (τ := τ) (main (F := F))) ⟨m, fun _ => 0, ρ⟩ (fun r => ∀ c : Dev nD,
      r.2.mem ((c.tc : Thread nD τ).loc main_v52) = V21 m (outs m) c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Cert.KernelIdeal.RunV.frame_cond_val (m := m) (EP := emb₁) (ι := ()) (𝒱₀ := 𝒱₀) (L := L) (lv := lv) (hL := fun _ _ => rfl) (ρ := ρ) (outs := outs m) (pdats := pdats m)
    (O₀ := 0) (G := fun _ => iprop(emp)) (u₀ := initOf (Pipeline.cells cfgs cellOf_inj) (Pipeline.launchToks cfgs cellOf_inj))
    (hu₀ := hu₀) (E := fun _ c => R c) (hE0 := hE0 ρ) (hE8 := hE8)
    (R0 := reg0 m) (hpre0 := (fun c => .rfl)) (hpost0 := fun c => by rw [V10_eq m c]; exact .rfl)
    (R1 := reg1 m) (hpre1 := (fun c => by rw [V10_eq m c]; exact .rfl)) (hpost1 := fun c => by rw [V11_eq m c]; exact .rfl)
    (R2 := reg2 m) (hpre2 := (fun c => by rw [V12_eq m c]; exact .rfl)) (hpost2 := fun c => by rw [V13_eq m c]; exact .rfl)
    (R3 := reg3 m) (hpre3 := (fun c => by rw [V13_eq m c]; exact .rfl)) (hpost3 := fun c => by rw [V14_eq m c]; exact .rfl)
    (R4 := reg4 m) (hpre4 := (fun c => by rw [V15_eq m c]; exact .rfl)) (hpost4 := fun c => by rw [V16_eq m c]; exact .rfl)
    (R5 := reg5 m) (hpre5 := (fun c => by rw [V16_eq m c]; exact .rfl)) (hpost5 := fun c => by rw [V17_eq m c]; exact .rfl)
    (R6 := reg6 m) (hpre6 := (fun c => by rw [V18_eq m c]; exact .rfl)) (hpost6 := fun c => by rw [V19_eq m c]; exact .rfl)
    (R7 := reg7 m) (hpre7 := (fun c => by rw [V19_eq m c]; exact .rfl)) (hpost7 := fun c => by rw [V20_eq m c]; exact .rfl)

end Cert.KernelIdeal.Run

end
-- ==== Proof.Spec.lean ====
/-
  The mathematics of the two programs, as plain functions over extended reals.

  A graph encoder on N nodes with 128 features: a projection with ReLU; three rounds of
  "gather the source row of every edge, add it into the destination row, add the node's own row,
  apply a linear map with ReLU, normalise the row"; a mean over the nodes of each graph.
  A row is picked, and a row is added into, through ONE-HOT WEIGHTS: `oh w r` is 1 when the signed
  reading of the index word `w` is `r` and 0 otherwise, so that a sum over all rows weighted by
  `oh` is the row the word names (or nothing, when it names no row).  Both programs are instances
  of these functions: the kernel on arrays padded to 100352 nodes and 602112 edges, the reference
  on the arrays as given.
-/
import Idealize.ShloMosaic.PureOps.Ideal

noncomputable section

open scoped BigOperators
open Idealize.ShloMosaic

namespace Cert.Spec

/-- The one-hot weight of index word `w` at row `r`. -/
def oh (w : BitVec 32) (r : ℕ) : EReal := if w.toInt = (r : ℤ) then 1 else 0

/-- The layer-norm epsilon and the row length, as the programs spell them. -/
def eps : EReal := Ideal.ofBits .f32 0x3727C5AC#32
def c128 : EReal := Ideal.ofBits .f32 0x43000000#32

/-- A linear map on rows, a bias, and ReLU. -/
def linRelu {n : ℕ} (x : Fin n → Fin 128 → EReal) (W : Fin 128 → Fin 128 → EReal) (b : Fin 128 → EReal) :
    Fin n → Fin 128 → EReal :=
  fun r d => max ((∑ k : Fin 128, x r k * W k d) + b d) 0

/-- The mean of a row. -/
def mean (y : Fin 128 → EReal) : EReal := Ideal.div (∑ k : Fin 128, y k) c128

/-- Layer normalisation of a row with gain `g` and offset `lb`. -/
def ln (y g lb : Fin 128 → EReal) : Fin 128 → EReal := fun d =>
  (y d - mean y) * Ideal.rsqrt (mean (fun k => (y k - mean y) * (y k - mean y)) + eps) * g d + lb d

/-- One round's node update from the rows `h` and the aggregated messages `agg`. -/
def mlpLn {n : ℕ} (h agg : Fin n → Fin 128 → EReal) (W : Fin 128 → Fin 128 → EReal) (b g lb : Fin 128 → EReal) :
    Fin n → Fin 128 → EReal :=
  fun r => ln (linRelu (fun r' k => h r' k + agg r' k) W b r) g lb

/-- Every edge's source row, picked by one-hot weights. -/
def gatherOH {n e : ℕ} (src : Fin e → BitVec 32) (h : Fin n → Fin 128 → EReal) : Fin e → Fin 128 → EReal :=
  fun j d => ∑ r : Fin n, oh (src j) r.val * h r d

/-- Every node's incoming messages, added up by one-hot weights. -/
def scatterOH {n e : ℕ} (dst : Fin e → BitVec 32) (T : Fin e → Fin 128 → EReal) : Fin n → Fin 128 → EReal :=
  fun r d => ∑ j : Fin e, oh (dst j) r.val * T j d

/-- Per-graph feature sums and node counts (graphs numbered below `G`). -/
def poolSum {n G : ℕ} (batch : Fin n → BitVec 32) (h : Fin n → Fin 128 → EReal) : Fin G → Fin 128 → EReal :=
  fun g d => ∑ r : Fin n, oh (batch r) g.val * h r d
def poolCnt {n G : ℕ} (batch : Fin n → BitVec 32) : Fin G → EReal :=
  fun g => ∑ r : Fin n, oh (batch r) g.val

/-- The mean over each graph's nodes (an empty graph divides by one). -/
def meanPool {G : ℕ} (sums : Fin G → Fin 128 → EReal) (cnt : Fin G → EReal) : Fin G → Fin 128 → EReal :=
  fun g d => Ideal.div (sums g d) (max (cnt g) 1)

/-- One message-passing round with the gather done by one-hot weights. -/
def roundOH {n e : ℕ} (src dst : Fin e → BitVec 32) (h : Fin n → Fin 128 → EReal)
    (W : Fin 128 → Fin 128 → EReal) (b g lb : Fin 128 → EReal) : Fin n → Fin 128 → EReal :=
  mlpLn h (scatterOH dst (gatherOH src h)) W b g lb

/-- One message-passing round with the source row read directly: word `w` names row `rowOf w`. -/
def roundIdx {n e : ℕ} (rowOf : BitVec 32 → Fin n) (src dst : Fin e → BitVec 32) (h : Fin n → Fin 128 → EReal)
    (W : Fin 128 → Fin 128 → EReal) (b g lb : Fin 128 → EReal) : Fin n → Fin 128 → EReal :=
  mlpLn h (scatterOH dst (fun j d => h (rowOf (src j)) d)) W b g lb

end Cert.Spec

end
-- ==== Proof.Bridge.lean ====
/-
  The padded computation is the plain one on every real node.

  The kernel works on arrays padded to 100352 node rows and 602112 edges: padded feature rows are zero,
  padded edges point from and to row 100000 (no real node), padded nodes belong to graph -1 (no graph),
  and it numbers 128 graphs of which the first 64 are kept.  The reference works on the arrays as given and
  reads an edge's source row directly.  When every source index names a real node the two agree.
-/
import proofs.«423195_j8272107012813_1_alg».proof.Proof.Spec

noncomputable section

open scoped BigOperators
open Idealize.ShloMosaic

namespace Cert.Bridge

open Cert.Spec

/-- Feature rows padded with zero rows. -/
def padRows (x : Fin 100000 → Fin 128 → EReal) : Fin 100352 → Fin 128 → EReal :=
  fun r k => if h : r.val < 100000 then x ⟨r.val, h⟩ k else 0

/-- An index vector padded with a fill word. -/
def padIdx {n np : ℕ} (fill : BitVec 32) (v : Fin n → BitVec 32) : Fin np → BitVec 32 :=
  fun j => if h : j.val < n then v ⟨j.val, h⟩ else fill

/-- The row an index word names in the reference: a negative word counts from the end, and the result is
    clamped into the array. -/
def rowOf (w : BitVec 32) : Fin 100000 :=
  ⟨min ((if w.toInt < 0 then w + 100000#32 else w).toInt.toNat) 99999, by omega⟩

variable (x : Fin 100000 → Fin 128 → EReal) (src dst : Fin 600000 → BitVec 32) (batch : Fin 100000 → BitVec 32)
  (pW : Fin 128 → Fin 128 → EReal) (pb : Fin 128 → EReal)
  (W : Fin 3 → Fin 128 → Fin 128 → EReal) (b g lb : Fin 3 → Fin 128 → EReal)

/-- The kernel's node rows after the projection and after each round, on the padded arrays. -/
def kH0 : Fin 100352 → Fin 128 → EReal := linRelu (padRows x) pW pb
def kH1 : Fin 100352 → Fin 128 → EReal :=
  roundOH (padIdx (np := 602112) 100000#32 src) (padIdx (np := 602112) 100000#32 dst) (kH0 x pW pb) (W 0) (b 0) (g 0) (lb 0)
def kH2 : Fin 100352 → Fin 128 → EReal :=
  roundOH (padIdx (np := 602112) 100000#32 src) (padIdx (np := 602112) 100000#32 dst) (kH1 x src dst pW pb W b g lb) (W 1) (b 1) (g 1) (lb 1)
def kH3 : Fin 100352 → Fin 128 → EReal :=
  roundOH (padIdx (np := 602112) 100000#32 src) (padIdx (np := 602112) 100000#32 dst) (kH2 x src dst pW pb W b g lb) (W 2) (b 2) (g 2) (lb 2)

/-- The kernel's result: 128 graphs pooled over the padded nodes, the first 64 kept. -/
def kernelVal : Fin 64 → Fin 128 → EReal :=
  meanPool
    (fun q d => poolSum (G := 128) (padIdx (np := 100352) 4294967295#32 batch) (kH3 x src dst pW pb W b g lb) ⟨q.val, by omega⟩ d)
    (fun q => poolCnt (G := 128) (padIdx (np := 100352) 4294967295#32 batch) ⟨q.val, by omega⟩)

/-- The reference's node rows. -/
def rH0 : Fin 100000 → Fin 128 → EReal := linRelu x pW pb
def rH1 : Fin 100000 → Fin 128 → EReal := roundIdx rowOf src dst (rH0 x pW pb) (W 0) (b 0) (g 0) (lb 0)
def rH2 : Fin 100000 → Fin 128 → EReal := roundIdx rowOf src dst (rH1 x src dst pW pb W b g lb) (W 1) (b 1) (g 1) (lb 1)
def rH3 : Fin 100000 → Fin 128 → EReal := roundIdx rowOf src dst (rH2 x src dst pW pb W b g lb) (W 2) (b 2) (g 2) (lb 2)

/-- The reference's result. -/
def refVal : Fin 64 → Fin 128 → EReal :=
  meanPool (poolSum (G := 64) batch (rH3 x src dst pW pb W b g lb)) (poolCnt (G := 64) batch)

/-! ### Sums over a longer index range whose extra terms vanish -/

/-- A sum over `Fin np` whose terms vanish from index `n` on is the sum over `Fin n`. -/
theorem sum_castLE {M : Type*} [AddCommMonoid M] {n np : ℕ} (h : n ≤ np) (f : Fin np → M)
    (hz : ∀ j : Fin np, n ≤ j.val → f j = 0) :
    ∑ j : Fin np, f j = ∑ j : Fin n, f (Fin.castLE h j) := by
  symm
  have hm : ∑ j : Fin n, f (Fin.castLE h j) = ∑ j ∈ Finset.univ.map (Fin.castLEEmb h), f j := by
    rw [Finset.sum_map]; rfl
  rw [hm]
  apply Finset.sum_subset (Finset.subset_univ _)
  intro j _ hj
  apply hz
  by_contra hge
  have hlt : j.val < n := Nat.lt_of_not_le hge
  apply hj
  rw [Finset.mem_map]
  exact ⟨⟨j.val, hlt⟩, Finset.mem_univ _, by ext; rfl⟩

/-! ### One-hot weights -/

theorem oh_self (w : BitVec 32) (h0 : 0 ≤ w.toInt) : oh w w.toInt.toNat = 1 := by
  unfold oh
  rw [if_pos (Int.toNat_of_nonneg h0).symm]

theorem oh_ne (w : BitVec 32) (r : ℕ) (h : w.toInt ≠ (r : ℤ)) : oh w r = 0 := by
  unfold oh
  rw [if_neg h]

/-- A one-hot weighted sum over all rows is the row the word names. -/
theorem oh_sum_pick {n : ℕ} (w : BitVec 32) (f : Fin n → EReal) (h0 : 0 ≤ w.toInt)
    (h1 : w.toInt.toNat < n) :
    ∑ r : Fin n, oh w r.val * f r = f ⟨w.toInt.toNat, h1⟩ := by
  rw [Finset.sum_eq_single (⟨w.toInt.toNat, h1⟩ : Fin n)]
  · rw [oh_self w h0, one_mul]
  · intro r _ hr
    rw [oh_ne, zero_mul]
    intro hw
    apply hr
    ext
    simp only
    rw [hw, Int.toNat_natCast]
  · intro hn
    exact absurd (Finset.mem_univ _) hn

/-- A word whose signed reading is a row below `n` names that row: no wrap and no clamp. -/
theorem rowOf_val (w : BitVec 32) (h0 : 0 ≤ w.toInt) (h1 : w.toInt < 100000) :
    (rowOf w).val = w.toInt.toNat := by
  unfold rowOf
  simp only
  rw [if_neg (not_lt.mpr h0)]
  omega

/-! ### Padded index vectors and rows on the real range -/

theorem padIdx_real {n np : ℕ} (hn : n ≤ np) (fill : BitVec 32) (v : Fin n → BitVec 32) (j : Fin n) :
    padIdx (np := np) fill v (Fin.castLE hn j) = v j := by
  unfold padIdx
  rw [dif_pos (show (Fin.castLE hn j).val < n from j.isLt)]
  rfl

theorem padIdx_pad {n np : ℕ} (fill : BitVec 32) (v : Fin n → BitVec 32) (j : Fin np) (hj : n ≤ j.val) :
    padIdx fill v j = fill := by
  unfold padIdx
  rw [dif_neg (Nat.not_lt.mpr hj)]

/-! ### The node update acts row by row -/

theorem mlpLn_row {n np : ℕ} (hk aggk : Fin np → Fin 128 → EReal) (hr aggr : Fin n → Fin 128 → EReal)
    (W : Fin 128 → Fin 128 → EReal) (b g lb : Fin 128 → EReal) (rk : Fin np) (rr : Fin n)
    (h1 : ∀ k, hk rk k = hr rr k) (h2 : ∀ k, aggk rk k = aggr rr k) :
    mlpLn hk aggk W b g lb rk = mlpLn hr aggr W b g lb rr := by
  unfold mlpLn
  congr 1
  funext d
  simp only [linRelu, h1, h2]

/-! ### One round -/

/-- If the padded rows agree with the plain rows on every real node, they still do after one round:
    a padded edge adds into no real row, and a real edge reads a real source row. -/
theorem round_agree {n np e ep : ℕ} (hn : n ≤ np) (he : e ≤ ep) (fill : BitVec 32)
    (hfill : ∀ r : ℕ, r < n → fill.toInt ≠ (r : ℤ))
    (row : BitVec 32 → Fin n) (src dst : Fin e → BitVec 32)
    (hsrc : ∀ j, 0 ≤ (src j).toInt ∧ (src j).toInt < n)
    (hrow : ∀ j, (row (src j)).val = (src j).toInt.toNat)
    (hk : Fin np → Fin 128 → EReal) (hr : Fin n → Fin 128 → EReal)
    (hag : ∀ (r : Fin n) (d : Fin 128), hk (Fin.castLE hn r) d = hr r d)
    (W : Fin 128 → Fin 128 → EReal) (b g lb : Fin 128 → EReal) (r : Fin n) (d : Fin 128) :
    roundOH (padIdx (np := ep) fill src) (padIdx (np := ep) fill dst) hk W b g lb (Fin.castLE hn r) d
      = roundIdx row src dst hr W b g lb r d := by
  unfold roundOH roundIdx
  rw [mlpLn_row hk _ hr _ W b g lb (Fin.castLE hn r) r (hag r)]
  intro k
  unfold scatterOH
  rw [sum_castLE he]
  · apply Finset.sum_congr rfl
    intro j _
    rw [padIdx_real he fill dst j]
    congr 1
    unfold gatherOH
    rw [padIdx_real he fill src j]
    have h0 := (hsrc j).1
    have h1 : (src j).toInt.toNat < np := by
      have := (hsrc j).2
      omega
    rw [oh_sum_pick (src j) (fun r' => hk r' k) h0 h1]
    have hlt : (src j).toInt.toNat < n := by
      have := (hsrc j).2
      omega
    have hcast : (⟨(src j).toInt.toNat, h1⟩ : Fin np) = Fin.castLE hn (row (src j)) := by
      ext
      simp only [Fin.coe_castLE]
      exact (hrow j).symm
    rw [hcast, hag]
  · intro j hj
    have hz : oh fill (Fin.castLE hn r).val = 0 := oh_ne fill _ (hfill _ r.isLt)
    rw [padIdx_pad fill dst j hj, hz, zero_mul]

/-! ### The pool -/

/-- Pooling over the padded nodes is pooling over the real nodes: a padded node is in no graph. -/
theorem poolSum_agree {n np G Gp : ℕ} (hn : n ≤ np) (fill : BitVec 32)
    (hfill : ∀ q : ℕ, q < G → fill.toInt ≠ (q : ℤ)) (batch : Fin n → BitVec 32)
    (hk : Fin np → Fin 128 → EReal) (hr : Fin n → Fin 128 → EReal)
    (hag : ∀ (r : Fin n) (d : Fin 128), hk (Fin.castLE hn r) d = hr r d)
    (q : Fin G) (hq : q.val < Gp) (d : Fin 128) :
    poolSum (G := Gp) (padIdx (np := np) fill batch) hk ⟨q.val, hq⟩ d = poolSum (G := G) batch hr q d := by
  unfold poolSum
  rw [sum_castLE hn]
  · apply Finset.sum_congr rfl
    intro r _
    rw [padIdx_real hn fill batch r, hag]
  · intro r hr'
    have hz : oh fill (⟨q.val, hq⟩ : Fin Gp).val = 0 := oh_ne fill _ (hfill _ q.isLt)
    rw [padIdx_pad fill batch r hr', hz, zero_mul]

theorem poolCnt_agree {n np G Gp : ℕ} (hn : n ≤ np) (fill : BitVec 32)
    (hfill : ∀ q : ℕ, q < G → fill.toInt ≠ (q : ℤ)) (batch : Fin n → BitVec 32)
    (q : Fin G) (hq : q.val < Gp) :
    poolCnt (G := Gp) (padIdx (np := np) fill batch) ⟨q.val, hq⟩ = poolCnt (G := G) batch q := by
  unfold poolCnt
  rw [sum_castLE hn]
  · apply Finset.sum_congr rfl
    intro r _
    rw [padIdx_real hn fill batch r]
  · intro r hr'
    have hz : oh fill (⟨q.val, hq⟩ : Fin Gp).val = 0 := oh_ne fill _ (hfill _ q.isLt)
    rw [padIdx_pad fill batch r hr', hz]

/-! ### The sizes of this encoder -/

theorem nodes_le : 100000 ≤ 100352 := by norm_num
theorem edges_le : 600000 ≤ 602112 := by norm_num

/-- The fill word of a padded edge reads 100000, which is no real row. -/
theorem edgeFill_ne (r : ℕ) (hr : r < 100000) : (100000#32 : BitVec 32).toInt ≠ (r : ℤ) := by
  have h : (100000#32 : BitVec 32).toInt = 100000 := by decide
  rw [h]
  omega

/-- The fill word of a padded node reads -1, which is no graph number. -/
theorem nodeFill_ne (q : ℕ) (_hq : q < 64) : (4294967295#32 : BitVec 32).toInt ≠ (q : ℤ) := by
  have h : (4294967295#32 : BitVec 32).toInt = -1 := by decide
  rw [h]
  omega

/-- The padded projection agrees with the plain one on every real node. -/
theorem proj_agree (x : Fin 100000 → Fin 128 → EReal) (pW : Fin 128 → Fin 128 → EReal) (pb : Fin 128 → EReal)
    (r : Fin 100000) (d : Fin 128) :
    kH0 x pW pb (Fin.castLE nodes_le r) d = rH0 x pW pb r d := by
  unfold kH0 rH0 linRelu
  have hp : ∀ k, padRows x (Fin.castLE nodes_le r) k = x r k := by
    intro k
    unfold padRows
    rw [dif_pos (show (Fin.castLE nodes_le r).val < 100000 from r.isLt)]
    rfl
  simp only [hp]

/-- When every source index names a real node, the padded one-hot computation is the reference's. -/
theorem kernelVal_eq_refVal (hsrc : ∀ j, 0 ≤ (src j).toInt ∧ (src j).toInt < 100000) :
    kernelVal x src dst batch pW pb W b g lb = refVal x src dst batch pW pb W b g lb := by
  have hsrc' : ∀ j, 0 ≤ (src j).toInt ∧ (src j).toInt < ((100000 : ℕ) : ℤ) := by
    intro j
    exact_mod_cast hsrc j
  have hrow : ∀ j, (rowOf (src j)).val = (src j).toInt.toNat :=
    fun j => rowOf_val _ (hsrc j).1 (hsrc j).2
  have a0 : ∀ (r : Fin 100000) (d : Fin 128),
      kH0 x pW pb (Fin.castLE nodes_le r) d = rH0 x pW pb r d := proj_agree x pW pb
  have a1 : ∀ (r : Fin 100000) (d : Fin 128),
      kH1 x src dst pW pb W b g lb (Fin.castLE nodes_le r) d = rH1 x src dst pW pb W b g lb r d :=
    round_agree nodes_le edges_le _ edgeFill_ne rowOf src dst hsrc' hrow _ _ a0 _ _ _ _
  have a2 : ∀ (r : Fin 100000) (d : Fin 128),
      kH2 x src dst pW pb W b g lb (Fin.castLE nodes_le r) d = rH2 x src dst pW pb W b g lb r d :=
    round_agree nodes_le edges_le _ edgeFill_ne rowOf src dst hsrc' hrow _ _ a1 _ _ _ _
  have a3 : ∀ (r : Fin 100000) (d : Fin 128),
      kH3 x src dst pW pb W b g lb (Fin.castLE nodes_le r) d = rH3 x src dst pW pb W b g lb r d :=
    round_agree nodes_le edges_le _ edgeFill_ne rowOf src dst hsrc' hrow _ _ a2 _ _ _ _
  funext q d
  unfold kernelVal refVal meanPool
  simp only
  rw [poolSum_agree nodes_le _ nodeFill_ne batch _ _ a3 q _ d,
    poolCnt_agree nodes_le _ nodeFill_ne batch q _]

end Cert.Bridge

end
-- ==== Proof.Args.lean ====
/-
  The programs' argument arrays as the plain functions the mathematics is stated over, and the two
  results as arrays of 64 graphs by 128 features.
-/
import proofs.«423195_j8272107012813_1_alg».proof.Proof.Bridge
import Idealize.ShloMosaic.Lib.ValueIdx

noncomputable section

open Idealize.ShloMosaic Idealize.ShloMosaic.ValueIdx

namespace Cert.Args

/-- A rank-2 array as rows. -/
def rows2 {n d : ℕ} (a : (⟨2, ![n, d]⟩ : Shape).Idx → EReal) : Fin n → Fin d → EReal := fun r k => a (ix2 r k)
/-- A rank-1 array as a function of its one coordinate. -/
def vec1 {α : Type} {n : ℕ} (a : (⟨1, ![n]⟩ : Shape).Idx → α) : Fin n → α := fun r => a (ix1 r)
/-- Layer `l`'s matrix of a stack of three, and layer `l`'s row of a [3, 128] array. -/
def mat3 (a : (⟨3, ![3, 128, 128]⟩ : Shape).Idx → EReal) : Fin 3 → Fin 128 → Fin 128 → EReal := fun l k d => a (ix3 l k d)
/-- The edges' source and destination words: rows 0 and 1 of the [2, 600000] index array. -/
def srcOf (ei : (⟨2, ![2, 600000]⟩ : Shape).Idx → BitVec 32) : Fin 600000 → BitVec 32 := fun j => ei (ix2 0 j)
def dstOf (ei : (⟨2, ![2, 600000]⟩ : Shape).Idx → BitVec 32) : Fin 600000 → BitVec 32 := fun j => ei (ix2 1 j)

variable (x : (⟨2, ![100000, 128]⟩ : Shape).Idx → EReal) (ei : (⟨2, ![2, 600000]⟩ : Shape).Idx → BitVec 32)
  (batch : (⟨1, ![100000]⟩ : Shape).Idx → BitVec 32) (pW : (⟨2, ![128, 128]⟩ : Shape).Idx → EReal)
  (pb : (⟨1, ![128]⟩ : Shape).Idx → EReal) (mW : (⟨3, ![3, 128, 128]⟩ : Shape).Idx → EReal)
  (mb lg lb : (⟨2, ![3, 128]⟩ : Shape).Idx → EReal)

/-- The kernel's result array. -/
def kernOut : (⟨2, ![64, 128]⟩ : Shape).Idx → EReal := fun i =>
  Cert.Bridge.kernelVal (rows2 x) (srcOf ei) (dstOf ei) (vec1 batch) (rows2 pW) (vec1 pb) (mat3 mW) (rows2 mb) (rows2 lg) (rows2 lb)
    (i 0) (i 1)

/-- The reference's result array. -/
def refOut : (⟨2, ![64, 128]⟩ : Shape).Idx → EReal := fun i =>
  Cert.Bridge.refVal (rows2 x) (srcOf ei) (dstOf ei) (vec1 batch) (rows2 pW) (vec1 pb) (mat3 mW) (rows2 mb) (rows2 lg) (rows2 lb)
    (i 0) (i 1)

/-- When every source word names a real node the two result arrays are equal. -/
theorem kernOut_eq_refOut (hsrc : ∀ j, 0 ≤ (srcOf ei j).toInt ∧ (srcOf ei j).toInt < 100000) :
    kernOut x ei batch pW pb mW mb lg lb = refOut x ei batch pW pb mW mb lg lb := by
  funext i
  unfold kernOut refOut
  rw [Cert.Bridge.kernelVal_eq_refVal _ _ _ _ _ _ _ _ _ _ hsrc]

end Cert.Args

end
-- ==== Proof.KI.HostVals.lean ====
/-
  What the host operations around the eight kernel regions compute, read at an index.

  Before the first region the program pads the node features with 352 zero rows, cuts the two rows of the edge
  array apart and pads each with the word 100000 to 602112 entries, pads the graph ids with the word -1 to
  100352 entries, and gives the bias vectors a unit axis.  Before each message-passing round it cuts that
  round's matrix and its three rows out of the stacks.  After the last region it keeps the first 64 graphs and
  divides each graph's feature sums by its node count, an empty graph's count replaced by one.
-/
import proofs.«423195_j8272107012813_1_alg».proof.Proof.Gen.KernelIdeal.Regions
import proofs.«423195_j8272107012813_1_alg».proof.Proof.Args
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost

set_option maxRecDepth 4096

noncomputable section

namespace Cert.KernelIdeal.HostVals

open Cert.KernelIdeal Cert.KernelIdeal.Gen
open Idealize.ShloMosaic Idealize.ShloMosaic.TcCoe Idealize.ShloMosaic.ValueIdx

/-! ## Layout operations read at an index -/

section Generic
variable {α : Type}

/-- Slab `l` of a stack of `n` matrices — the stack cut at offset `o = l` on its leading axis, the unit axis then
    dropped — reads, at `(i, j)`, the stack at `(l, i, j)`. -/
theorem slab_apply {n a b : ℕ} (o : ℕ) (X : (⟨3, ![n, a, b]⟩ : Shape).Idx → α)
    (hs : (⟨3, ![n, a, b]⟩ : Shape).Slices ![o, 0, 0] ⟨3, ![1, a, b]⟩)
    (hc : (⟨3, ![1, a, b]⟩ : Shape).ShapeCasts ⟨2, ![a, b]⟩) (l : Fin n) (hl : l.val = o) (i : Fin a) (j : Fin b) :
    shapeCast ⟨2, ![a, b]⟩ (extractStridedSlice ⟨3, ![1, a, b]⟩ ![o, 0, 0] X hs) hc (ix2 i j) = X (ix3 l i j) := by
  rw [shapeCast_1ab_ab_apply]
  exact extractStridedSlice_apply _ _ _ _ _ (fun ax => by
    match ax with
    | ⟨0, _⟩ => exact hl.trans (Nat.add_zero _).symm
    | ⟨1, _⟩ => exact (Nat.zero_add _).symm
    | ⟨2, _⟩ => exact (Nat.zero_add _).symm)

/-- Row `l` of a matrix of `n` rows — the matrix cut at offset `o = l` on its row axis, the unit axis then dropped —
    reads, at `j`, the matrix at `(l, j)`. -/
theorem row_apply {n b : ℕ} (o : ℕ) (X : (⟨2, ![n, b]⟩ : Shape).Idx → α)
    (hs : (⟨2, ![n, b]⟩ : Shape).Slices ![o, 0] ⟨2, ![1, b]⟩)
    (hc : (⟨2, ![1, b]⟩ : Shape).ShapeCasts ⟨1, ![b]⟩) (l : Fin n) (hl : l.val = o) (j : Fin b) :
    shapeCast ⟨1, ![b]⟩ (extractStridedSlice ⟨2, ![1, b]⟩ ![o, 0] X hs) hc (ix1 j) = X (ix2 l j) := by
  rw [shapeCast_1a_a_apply]
  exact slice2_axis0_apply o X hs 0 j l (hl.trans (Nat.add_zero _).symm)

/-- A vector of `n` words padded behind with `p` copies of a fill word: entry `j` is the vector's while `j < n`
    and the fill word after. -/
theorem padBehind_apply {n np : ℕ} (p : ℕ) (x : (⟨1, ![n]⟩ : Shape).Idx → BitVec 32) {u : Shape} (v : u.Idx → BitVec 32)
    (h : (⟨1, ![n]⟩ : Shape).Pads ![0] ![p] ![0] ⟨1, ![np]⟩) (hu : 0 < u.numel) (fill : BitVec 32)
    (hv : ∀ i, v i = fill) (j : Fin np) :
    pad ⟨1, ![np]⟩ ![0] ![p] ![0] x v h hu (ix1 j) = Cert.Bridge.padIdx fill (fun i => x (ix1 i)) j := by
  unfold Cert.Bridge.padIdx
  by_cases hj : j.val < n
  · rw [dif_pos hj]
    exact pad_apply_of_inside _ _ _ x v h hu (ix1 j) (ix1 ⟨j.val, hj⟩) (fun a => by
      match a with
      | ⟨0, _⟩ => show j.val = 0 + j.val * (0 + 1); omega)
  · rw [dif_neg hj, pad_apply_of_not_inside _ _ _ x v h hu (ix1 j) 0 (by
      show ¬(0 ≤ j.val ∧ (j.val - 0) % (0 + 1) = 0 ∧ (j.val - 0) / (0 + 1) < n)
      omega)]
    exact hv _

/-- A matrix of `n` rows padded behind with `p` rows of a fill value: row `r` is the matrix's while `r < n` and
    the fill value after. -/
theorem padRowsBehind_apply {n np d : ℕ} (p : ℕ) (x : (⟨2, ![n, d]⟩ : Shape).Idx → α) {u : Shape} (v : u.Idx → α)
    (h : (⟨2, ![n, d]⟩ : Shape).Pads ![0, 0] ![p, 0] ![0, 0] ⟨2, ![np, d]⟩) (hu : 0 < u.numel) (fill : α)
    (hv : ∀ i, v i = fill) (r : Fin np) (k : Fin d) :
    pad ⟨2, ![np, d]⟩ ![0, 0] ![p, 0] ![0, 0] x v h hu (ix2 r k) = if hr : r.val < n then x (ix2 ⟨r.val, hr⟩ k) else fill := by
  by_cases hr : r.val < n
  · rw [dif_pos hr]
    exact pad_apply_of_inside _ _ _ x v h hu (ix2 r k) (ix2 ⟨r.val, hr⟩ k) (fun a => by
      match a with
      | ⟨0, _⟩ => show r.val = 0 + r.val * (0 + 1); omega
      | ⟨1, _⟩ => show k.val = 0 + k.val * (0 + 1); omega)
  · rw [dif_neg hr, pad_apply_of_not_inside _ _ _ x v h hu (ix2 r k) 0 (by
      show ¬(0 ≤ r.val ∧ (r.val - 0) % (0 + 1) = 0 ∧ (r.val - 0) / (0 + 1) < n)
      omega)]
    exact hv _

end Generic

/-- The zero word converted to a float is zero: the value the feature rows are padded with. -/
theorem fill0 (i : S_.Idx) : (sitofp (F := Ideal) .f32 (constantI S_ 32 0#32) : S_.Idx → EReal) i = 0 := by
  show ((((0#32 : BitVec 32).toInt : ℤ) : ℝ) : EReal) = 0
  simp

/-! ## Each stretch of host operations, from arbitrary contents -/

section Stretches
variable (W : Valuation τ sig (Elt Ideal))

/-- The padded feature rows: the features, then rows of the converted zero word. -/
theorem after0_1_v0 :
    (StableHlo.after (hostOps0_1 (F := Ideal)) W main_v0 : S100352x128.Idx → EReal)
      = pad S100352x128 ![0, 0] ![352, 0] ![0, 0] (W main_arg0 : S100000x128.Idx → EReal)
          (sitofp (F := Ideal) .f32 (W main_c : S_.Idx → BitVec 32) : S_.Idx → EReal)
          pads_S100000x128_S100352x128_03520_000 h_S_ := by
  show StableHlo.after hostOps0_1 W (Proc.devRef .tc main_v0) = _
  after_results
  rfl

theorem after0_c : (StableHlo.after (hostOps0 (F := Ideal)) W main_c : S_.Idx → BitVec 32) = constantI S_ 32 0#32 := by
  show StableHlo.after hostOps0 W (Proc.devRef .tc main_c) = _
  after_results

/-- The edges' source words as a vector: row 0 of the edge array, its unit axis dropped. -/
theorem after0_2_v2 :
    (StableHlo.after (hostOps0_2 (F := Ideal)) W main_v2 : S600000.Idx → BitVec 32)
      = shapeCast S600000 (extractStridedSlice S1x600000 ![0, 0] (W main_arg1 : S2x600000.Idx → BitVec 32) slices_S2x600000_S1x600000_0_0)
          shapeCasts_S1x600000_S600000 := by
  show StableHlo.after hostOps0_2 W (Proc.devRef .tc main_v2) = _
  after_results
  rfl

/-- The edges' destination words as a vector: row 1 of the edge array. -/
theorem after0_2_v4 :
    (StableHlo.after (hostOps0_2 (F := Ideal)) W main_v4 : S600000.Idx → BitVec 32)
      = shapeCast S600000 (extractStridedSlice S1x600000 ![1, 0] (W main_arg1 : S2x600000.Idx → BitVec 32) slices_S2x600000_S1x600000_1_0)
          shapeCasts_S1x600000_S600000 := by
  show StableHlo.after hostOps0_2 W (Proc.devRef .tc main_v4) = _
  after_results
  rfl

theorem after0_2_c0 : (StableHlo.after (hostOps0_2 (F := Ideal)) W main_c_0 : S_.Idx → BitVec 32) = constantI S_ 32 100000#32 := by
  show StableHlo.after hostOps0_2 W (Proc.devRef .tc main_c_0) = _
  after_results

theorem after0_3_v5 :
    (StableHlo.after (hostOps0_3 (F := Ideal)) W main_v5 : S602112.Idx → BitVec 32)
      = pad S602112 ![0] ![2112] ![0] (W main_v2 : S600000.Idx → BitVec 32) (W main_c_0 : S_.Idx → BitVec 32)
          pads_S600000_S602112_021120 h_S_ := by
  show StableHlo.after hostOps0_3 W (Proc.devRef .tc main_v5) = _
  after_results
  rfl

theorem after0_4_c1 : (StableHlo.after (hostOps0_4 (F := Ideal)) W main_c_1 : S_.Idx → BitVec 32) = constantI S_ 32 100000#32 := by
  show StableHlo.after hostOps0_4 W (Proc.devRef .tc main_c_1) = _
  after_results

theorem after0_5_v6 :
    (StableHlo.after (hostOps0_5 (F := Ideal)) W main_v6 : S602112.Idx → BitVec 32)
      = pad S602112 ![0] ![2112] ![0] (W main_v4 : S600000.Idx → BitVec 32) (W main_c_1 : S_.Idx → BitVec 32)
          pads_S600000_S602112_021120 h_S_ := by
  show StableHlo.after hostOps0_5 W (Proc.devRef .tc main_v6) = _
  after_results
  rfl

theorem after0_6_c2 : (StableHlo.after (hostOps0_6 (F := Ideal)) W main_c_2 : S_.Idx → BitVec 32) = constantI S_ 32 4294967295#32 := by
  show StableHlo.after hostOps0_6 W (Proc.devRef .tc main_c_2) = _
  after_results

theorem after0_7_v7 :
    (StableHlo.after (hostOps0_7 (F := Ideal)) W main_v7 : S100352.Idx → BitVec 32)
      = pad S100352 ![0] ![352] ![0] (W main_arg2 : S100000.Idx → BitVec 32) (W main_c_2 : S_.Idx → BitVec 32)
          pads_S100000_S100352_03520 h_S_ := by
  show StableHlo.after hostOps0_7 W (Proc.devRef .tc main_v7) = _
  after_results
  rfl

theorem after0_8_v8 :
    (StableHlo.after (hostOps0_8 (F := Ideal)) W main_v8 : S1x602112.Idx → BitVec 32)
      = shapeCast S1x602112 (W main_v5 : S602112.Idx → BitVec 32) shapeCasts_S602112_S1x602112 := by
  show StableHlo.after hostOps0_8 W (Proc.devRef .tc main_v8) = _
  after_results
  rfl

theorem after0_8_v9 :
    (StableHlo.after (hostOps0_8 (F := Ideal)) W main_v9 : S1x602112.Idx → BitVec 32)
      = shapeCast S1x602112 (W main_v6 : S602112.Idx → BitVec 32) shapeCasts_S602112_S1x602112 := by
  show StableHlo.after hostOps0_8 W (Proc.devRef .tc main_v9) = _
  after_results
  rfl

theorem after0_8_v10 :
    (StableHlo.after (hostOps0_8 (F := Ideal)) W main_v10 : S1x100352.Idx → BitVec 32)
      = shapeCast S1x100352 (W main_v7 : S100352.Idx → BitVec 32) shapeCasts_S100352_S1x100352 := by
  show StableHlo.after hostOps0_8 W (Proc.devRef .tc main_v10) = _
  after_results
  rfl

theorem after0_8_v11 :
    (StableHlo.after (hostOps0_8 (F := Ideal)) W main_v11 : S1x128.Idx → EReal)
      = shapeCast S1x128 (W main_arg4 : S128.Idx → EReal) shapeCasts_S128_S1x128 := by
  show StableHlo.after hostOps0_8 W (Proc.devRef .tc main_v11) = _
  after_results
  rfl

theorem after0_8_v12 :
    (StableHlo.after (hostOps0_8 (F := Ideal)) W main_v12 : S3x1x128.Idx → EReal)
      = shapeCast S3x1x128 (W main_arg6 : S3x128.Idx → EReal) shapeCasts_S3x128_S3x1x128 := by
  show StableHlo.after hostOps0_8 W (Proc.devRef .tc main_v12) = _
  after_results
  rfl

theorem after0_8_v13 :
    (StableHlo.after (hostOps0_8 (F := Ideal)) W main_v13 : S3x1x128.Idx → EReal)
      = shapeCast S3x1x128 (W main_arg7 : S3x128.Idx → EReal) shapeCasts_S3x128_S3x1x128 := by
  show StableHlo.after hostOps0_8 W (Proc.devRef .tc main_v13) = _
  after_results
  rfl

theorem after0_8_v14 :
    (StableHlo.after (hostOps0_8 (F := Ideal)) W main_v14 : S3x1x128.Idx → EReal)
      = shapeCast S3x1x128 (W main_arg8 : S3x128.Idx → EReal) shapeCasts_S3x128_S3x1x128 := by
  show StableHlo.after hostOps0_8 W (Proc.devRef .tc main_v14) = _
  after_results
  rfl

end Stretches

/-! ## The contents before the first region -/

section Prefix
variable (m : (ℓ : Loc nD τ sig) → Buf (Elt Ideal) ℓ) (c : Dev nD)

/-- A reference none of the first eight stretches writes holds its launch contents after them. -/
theorem V8_eq_launch (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W)
    (h7 : r ∉ hostOps0_7_W) : V8 m c r = m ((c : Thread nD τ).loc r) :=
  (V8_of m c r h7).trans <| (V7_of m c r h6).trans <| (V6_of m c r h5).trans <| (V5_of m c r h4).trans <|
    (V4_of m c r h3).trans <| (V3_of m c r h2).trans <| (V2_of m c r h1).trans <| (V1_of m c r h0).trans rfl

/-- The features the regions read: the argument's rows, then 352 zero rows. -/
theorem v0 :
    Cert.Args.rows2 (V9 m c main_v0 : S100352x128.Idx → EReal)
      = Cert.Bridge.padRows (Cert.Args.rows2 (m ((c : Thread nD τ).loc main_arg0) : S100000x128.Idx → EReal)) := by
  have h9 : V9 m c main_v0 = V2 m c main_v0 :=
    (V9_of m c main_v0 (by decide)).trans <| (V8_of m c main_v0 (by decide)).trans <| (V7_of m c main_v0 (by decide)).trans <|
    (V6_of m c main_v0 (by decide)).trans <| (V5_of m c main_v0 (by decide)).trans <| (V4_of m c main_v0 (by decide)).trans <|
    (V3_of m c main_v0 (by decide))
  have hc : (V1 m c main_c : S_.Idx → BitVec 32) = constantI S_ 32 0#32 := after0_c (V0 m c)
  have ha : V1 m c main_arg0 = m ((c : Thread nD τ).loc main_arg0) := (V1_of m c main_arg0 (by decide)).trans rfl
  have e : (V9 m c main_v0 : S100352x128.Idx → EReal)
      = pad S100352x128 ![0, 0] ![352, 0] ![0, 0] (m ((c : Thread nD τ).loc main_arg0) : S100000x128.Idx → EReal)
          (sitofp (F := Ideal) .f32 (constantI S_ 32 0#32) : S_.Idx → EReal) pads_S100000x128_S100352x128_03520_000 h_S_ := by
    rw [h9, ← hc, ← ha]
    exact after0_1_v0 (V1 m c)
  funext r k
  show (V9 m c main_v0 : S100352x128.Idx → EReal) (ix2 r k) = _
  rw [e, padRowsBehind_apply 352 _ _ _ _ (0 : EReal) fill0 r k]
  rfl

/-- An index vector of the edge array, padded: the common part of the source and destination rows. -/
theorem edgeRow (o : ℕ) (l : Fin 2) (hl : l.val = o) (X : S2x600000.Idx → BitVec 32) (v : S_.Idx → BitVec 32)
    (hs : S2x600000.Slices ![o, 0] S1x600000) (hv : ∀ i, v i = 100000#32) (j : Fin 602112) :
    shapeCast S1x602112 (pad S602112 ![0] ![2112] ![0]
        (shapeCast S600000 (extractStridedSlice S1x600000 ![o, 0] X hs) shapeCasts_S1x600000_S600000) v
        pads_S600000_S602112_021120 h_S_) shapeCasts_S602112_S1x602112 (ix2 0 j)
      = Cert.Bridge.padIdx (np := 602112) 100000#32 (fun i : Fin 600000 => X (ix2 l i)) j := by
  rw [shapeCast_a_1a_apply, padBehind_apply 2112 _ v _ _ 100000#32 hv j]
  congr 1
  funext i
  exact row_apply o X hs _ l hl i

/-- The edges' source words as the regions read them: 600000 words, then the word 100000. -/
theorem v8 :
    (fun j : Fin 602112 => (V9 m c main_v8 : S1x602112.Idx → BitVec 32) (ix2 0 j))
      = Cert.Bridge.padIdx (np := 602112) 100000#32
          (Cert.Args.srcOf (m ((c : Thread nD τ).loc main_arg1) : S2x600000.Idx → BitVec 32)) := by
  have h5 : V8 m c main_v5 = V4 m c main_v5 :=
    (V8_of m c main_v5 (by decide)).trans <| (V7_of m c main_v5 (by decide)).trans <| (V6_of m c main_v5 (by decide)).trans <|
    (V5_of m c main_v5 (by decide))
  have ha : V2 m c main_arg1 = m ((c : Thread nD τ).loc main_arg1) :=
    (V2_of m c main_arg1 (by decide)).trans <| (V1_of m c main_arg1 (by decide)).trans rfl
  have e : (V9 m c main_v8 : S1x602112.Idx → BitVec 32)
      = shapeCast S1x602112 (pad S602112 ![0] ![2112] ![0]
          (shapeCast S600000 (extractStridedSlice S1x600000 ![0, 0] (m ((c : Thread nD τ).loc main_arg1) : S2x600000.Idx → BitVec 32)
            slices_S2x600000_S1x600000_0_0) shapeCasts_S1x600000_S600000)
          (constantI S_ 32 100000#32) pads_S600000_S602112_021120 h_S_) shapeCasts_S602112_S1x602112 := by
    rw [← ha, ← after0_2_v2 (V2 m c), ← after0_2_c0 (V2 m c), ← after0_3_v5 (V3 m c)]
    show _ = shapeCast S1x602112 (V4 m c main_v5 : S602112.Idx → BitVec 32) shapeCasts_S602112_S1x602112
    rw [← h5]
    exact after0_8_v8 (V8 m c)
  funext j
  rw [e]
  exact edgeRow 0 0 rfl _ _ _ (fun _ => rfl) j

/-- The edges' destination words as the regions read them. -/
theorem v9 :
    (fun j : Fin 602112 => (V9 m c main_v9 : S1x602112.Idx → BitVec 32) (ix2 0 j))
      = Cert.Bridge.padIdx (np := 602112) 100000#32
          (Cert.Args.dstOf (m ((c : Thread nD τ).loc main_arg1) : S2x600000.Idx → BitVec 32)) := by
  have h6 : V8 m c main_v6 = V6 m c main_v6 :=
    (V8_of m c main_v6 (by decide)).trans <| (V7_of m c main_v6 (by decide))
  have h4 : V5 m c main_v4 = V3 m c main_v4 :=
    (V5_of m c main_v4 (by decide)).trans <| (V4_of m c main_v4 (by decide))
  have ha : V2 m c main_arg1 = m ((c : Thread nD τ).loc main_arg1) :=
    (V2_of m c main_arg1 (by decide)).trans <| (V1_of m c main_arg1 (by decide)).trans rfl
  have e : (V9 m c main_v9 : S1x602112.Idx → BitVec 32)
      = shapeCast S1x602112 (pad S602112 ![0] ![2112] ![0]
          (shapeCast S600000 (extractStridedSlice S1x600000 ![1, 0] (m ((c : Thread nD τ).loc main_arg1) : S2x600000.Idx → BitVec 32)
            slices_S2x600000_S1x600000_1_0) shapeCasts_S1x600000_S600000)
          (constantI S_ 32 100000#32) pads_S600000_S602112_021120 h_S_) shapeCasts_S602112_S1x602112 := by
    rw [← ha, ← after0_2_v4 (V2 m c), ← after0_4_c1 (V4 m c)]
    show _ = shapeCast S1x602112 (pad S602112 ![0] ![2112] ![0] (V3 m c main_v4 : S600000.Idx → BitVec 32)
      (V5 m c main_c_1 : S_.Idx → BitVec 32) pads_S600000_S602112_021120 h_S_) shapeCasts_S602112_S1x602112
    rw [← h4, ← after0_5_v6 (V5 m c)]
    show _ = shapeCast S1x602112 (V6 m c main_v6 : S602112.Idx → BitVec 32) shapeCasts_S602112_S1x602112
    rw [← h6]
    exact after0_8_v9 (V8 m c)
  funext j
  rw [e]
  exact edgeRow 1 1 rfl _ _ _ (fun _ => rfl) j

/-- The graph ids as the regions read them: 100000 words, then the word -1. -/
theorem v10 :
    (fun r : Fin 100352 => (V9 m c main_v10 : S1x100352.Idx → BitVec 32) (ix2 0 r))
      = Cert.Bridge.padIdx (np := 100352) 4294967295#32
          (Cert.Args.vec1 (m ((c : Thread nD τ).loc main_arg2) : S100000.Idx → BitVec 32)) := by
  have ha : V7 m c main_arg2 = m ((c : Thread nD τ).loc main_arg2) :=
    (V7_of m c main_arg2 (by decide)).trans <| (V6_of m c main_arg2 (by decide)).trans <| (V5_of m c main_arg2 (by decide)).trans <|
    (V4_of m c main_arg2 (by decide)).trans <| (V3_of m c main_arg2 (by decide)).trans <| (V2_of m c main_arg2 (by decide)).trans <|
    (V1_of m c main_arg2 (by decide)).trans rfl
  have e : (V9 m c main_v10 : S1x100352.Idx → BitVec 32)
      = shapeCast S1x100352 (pad S100352 ![0] ![352] ![0] (m ((c : Thread nD τ).loc main_arg2) : S100000.Idx → BitVec 32)
          (constantI S_ 32 4294967295#32) pads_S100000_S100352_03520 h_S_) shapeCasts_S100352_S1x100352 := by
    rw [← ha, ← after0_6_c2 (V6 m c), ← after0_7_v7 (V7 m c)]
    exact after0_8_v10 (V8 m c)
  funext r
  rw [e, shapeCast_a_1a_apply, padBehind_apply 352 _ (constantI S_ 32 4294967295#32) _ _ 4294967295#32 (fun _ => rfl) r]
  rfl

/-- The projection's bias with a unit axis in front. -/
theorem v11 :
    (fun d : Fin 128 => (V9 m c main_v11 : S1x128.Idx → EReal) (ix2 0 d))
      = Cert.Args.vec1 (m ((c : Thread nD τ).loc main_arg4) : S128.Idx → EReal) := by
  have ha : V8 m c main_arg4 = m ((c : Thread nD τ).loc main_arg4) :=
    V8_eq_launch m c main_arg4 (by decide) (by decide) (by decide) (by decide) (by decide) (by decide) (by decide) (by decide)
  have e : (V9 m c main_v11 : S1x128.Idx → EReal)
      = shapeCast S1x128 (m ((c : Thread nD τ).loc main_arg4) : S128.Idx → EReal) shapeCasts_S128_S1x128 := by
    rw [← ha]
    exact after0_8_v11 (V8 m c)
  funext d
  rw [e, shapeCast_a_1a_apply]
  rfl

/-- A [3, 128] array given a unit middle axis reads, at `(l, 0, d)`, the array at `(l, d)`. -/
theorem mid_apply (X : S3x128.Idx → EReal) (l : Fin 3) (d : Fin 128) :
    shapeCast S3x1x128 X shapeCasts_S3x128_S3x1x128 (ix3 l 0 d) = X (ix2 l d) :=
  shapeCast_apply X _ _ _ (by
    rw [Shape.rowMajor_val_three, Shape.rowMajor_val_two]
    show l.val * 128 + d.val = (l.val * 1 + (0 : Fin 1).val) * 128 + d.val
    show l.val * 128 + d.val = (l.val * 1 + 0) * 128 + d.val
    omega)

/-- The rounds' biases, gains and offsets with a unit middle axis. -/
theorem v12 (l : Fin 3) (d : Fin 128) :
    (V9 m c main_v12 : S3x1x128.Idx → EReal) (ix3 l 0 d) = (m ((c : Thread nD τ).loc main_arg6) : S3x128.Idx → EReal) (ix2 l d) := by
  have ha : V8 m c main_arg6 = m ((c : Thread nD τ).loc main_arg6) :=
    V8_eq_launch m c main_arg6 (by decide) (by decide) (by decide) (by decide) (by decide) (by decide) (by decide) (by decide)
  rw [← ha]
  exact (congrFun (after0_8_v12 (V8 m c)) _).trans (mid_apply _ l d)

theorem v13 (l : Fin 3) (d : Fin 128) :
    (V9 m c main_v13 : S3x1x128.Idx → EReal) (ix3 l 0 d) = (m ((c : Thread nD τ).loc main_arg7) : S3x128.Idx → EReal) (ix2 l d) := by
  have ha : V8 m c main_arg7 = m ((c : Thread nD τ).loc main_arg7) :=
    V8_eq_launch m c main_arg7 (by decide) (by decide) (by decide) (by decide) (by decide) (by decide) (by decide) (by decide)
  rw [← ha]
  exact (congrFun (after0_8_v13 (V8 m c)) _).trans (mid_apply _ l d)

theorem v14 (l : Fin 3) (d : Fin 128) :
    (V9 m c main_v14 : S3x1x128.Idx → EReal) (ix3 l 0 d) = (m ((c : Thread nD τ).loc main_arg8) : S3x128.Idx → EReal) (ix2 l d) := by
  have ha : V8 m c main_arg8 = m ((c : Thread nD τ).loc main_arg8) :=
    V8_eq_launch m c main_arg8 (by decide) (by decide) (by decide) (by decide) (by decide) (by decide) (by decide) (by decide)
  rw [← ha]
  exact (congrFun (after0_8_v14 (V8 m c)) _).trans (mid_apply _ l d)

end Prefix

/-! ## The stretch before each round, from arbitrary contents: that round's matrix and its three rows -/

section Layers
variable (W : Valuation τ sig (Elt Ideal))

/-- Round 0's matrix. -/
theorem after2_v18 (k d : Fin 128) :
    (StableHlo.after (hostOps2 (F := Ideal)) W main_v18 : S128x128.Idx → EReal) (ix2 k d)
      = (W main_arg5 : S3x128x128.Idx → EReal) (ix3 0 k d) := by
  have e : (StableHlo.after (hostOps2 (F := Ideal)) W main_v18 : S128x128.Idx → EReal)
      = shapeCast S128x128 (extractStridedSlice S1x128x128 ![0, 0, 0] (W main_arg5 : S3x128x128.Idx → EReal)
          slices_S3x128x128_S1x128x128_0_0_0) shapeCasts_S1x128x128_S128x128 := by
    show StableHlo.after hostOps2 W (Proc.devRef .tc main_v18) = _
    after_results
    rfl
  rw [e]
  exact slab_apply 0 _ _ _ 0 rfl k d

/-- Round 0's bias row. -/
theorem after2_v20 (d : Fin 128) :
    (StableHlo.after (hostOps2 (F := Ideal)) W main_v20 : S1x128.Idx → EReal) (ix2 0 d)
      = (W main_v12 : S3x1x128.Idx → EReal) (ix3 0 0 d) := by
  have e : (StableHlo.after (hostOps2 (F := Ideal)) W main_v20 : S1x128.Idx → EReal)
      = shapeCast S1x128 (extractStridedSlice S1x1x128 ![0, 0, 0] (W main_v12 : S3x1x128.Idx → EReal)
          slices_S3x1x128_S1x1x128_0_0_0) shapeCasts_S1x1x128_S1x128 := by
    show StableHlo.after hostOps2 W (Proc.devRef .tc main_v20) = _
    after_results
    rfl
  rw [e]
  exact slab_apply 0 _ _ _ 0 rfl 0 d

/-- Round 0's gain row. -/
theorem after2_v22 (d : Fin 128) :
    (StableHlo.after (hostOps2 (F := Ideal)) W main_v22 : S1x128.Idx → EReal) (ix2 0 d)
      = (W main_v13 : S3x1x128.Idx → EReal) (ix3 0 0 d) := by
  have e : (StableHlo.after (hostOps2 (F := Ideal)) W main_v22 : S1x128.Idx → EReal)
      = shapeCast S1x128 (extractStridedSlice S1x1x128 ![0, 0, 0] (W main_v13 : S3x1x128.Idx → EReal)
          slices_S3x1x128_S1x1x128_0_0_0) shapeCasts_S1x1x128_S1x128 := by
    show StableHlo.after hostOps2 W (Proc.devRef .tc main_v22) = _
    after_results
    rfl
  rw [e]
  exact slab_apply 0 _ _ _ 0 rfl 0 d

/-- Round 0's offset row. -/
theorem after2_v24 (d : Fin 128) :
    (StableHlo.after (hostOps2 (F := Ideal)) W main_v24 : S1x128.Idx → EReal) (ix2 0 d)
      = (W main_v14 : S3x1x128.Idx → EReal) (ix3 0 0 d) := by
  have e : (StableHlo.after (hostOps2 (F := Ideal)) W main_v24 : S1x128.Idx → EReal)
      = shapeCast S1x128 (extractStridedSlice S1x1x128 ![0, 0, 0] (W main_v14 : S3x1x128.Idx → EReal)
          slices_S3x1x128_S1x1x128_0_0_0) shapeCasts_S1x1x128_S1x128 := by
    show StableHlo.after hostOps2 W (Proc.devRef .tc main_v24) = _
    after_results
    rfl
  rw [e]
  exact slab_apply 0 _ _ _ 0 rfl 0 d

/-- Round 1's matrix. -/
theorem after4_v28 (k d : Fin 128) :
    (StableHlo.after (hostOps4 (F := Ideal)) W main_v28 : S128x128.Idx → EReal) (ix2 k d)
      = (W main_arg5 : S3x128x128.Idx → EReal) (ix3 1 k d) := by
  have e : (StableHlo.after (hostOps4 (F := Ideal)) W main_v28 : S128x128.Idx → EReal)
      = shapeCast S128x128 (extractStridedSlice S1x128x128 ![1, 0, 0] (W main_arg5 : S3x128x128.Idx → EReal)
          slices_S3x128x128_S1x128x128_1_0_0) shapeCasts_S1x128x128_S128x128 := by
    show StableHlo.after hostOps4 W (Proc.devRef .tc main_v28) = _
    after_results
    rfl
  rw [e]
  exact slab_apply 1 _ _ _ 1 rfl k d

/-- Round 1's bias row. -/
theorem after4_v30 (d : Fin 128) :
    (StableHlo.after (hostOps4 (F := Ideal)) W main_v30 : S1x128.Idx → EReal) (ix2 0 d)
      = (W main_v12 : S3x1x128.Idx → EReal) (ix3 1 0 d) := by
  have e : (StableHlo.after (hostOps4 (F := Ideal)) W main_v30 : S1x128.Idx → EReal)
      = shapeCast S1x128 (extractStridedSlice S1x1x128 ![1, 0, 0] (W main_v12 : S3x1x128.Idx → EReal)
          slices_S3x1x128_S1x1x128_1_0_0) shapeCasts_S1x1x128_S1x128 := by
    show StableHlo.after hostOps4 W (Proc.devRef .tc main_v30) = _
    after_results
    rfl
  rw [e]
  exact slab_apply 1 _ _ _ 1 rfl 0 d

/-- Round 1's gain row. -/
theorem after4_v32 (d : Fin 128) :
    (StableHlo.after (hostOps4 (F := Ideal)) W main_v32 : S1x128.Idx → EReal) (ix2 0 d)
      = (W main_v13 : S3x1x128.Idx → EReal) (ix3 1 0 d) := by
  have e : (StableHlo.after (hostOps4 (F := Ideal)) W main_v32 : S1x128.Idx → EReal)
      = shapeCast S1x128 (extractStridedSlice S1x1x128 ![1, 0, 0] (W main_v13 : S3x1x128.Idx → EReal)
          slices_S3x1x128_S1x1x128_1_0_0) shapeCasts_S1x1x128_S1x128 := by
    show StableHlo.after hostOps4 W (Proc.devRef .tc main_v32) = _
    after_results
    rfl
  rw [e]
  exact slab_apply 1 _ _ _ 1 rfl 0 d

/-- Round 1's offset row. -/
theorem after4_v34 (d : Fin 128) :
    (StableHlo.after (hostOps4 (F := Ideal)) W main_v34 : S1x128.Idx → EReal) (ix2 0 d)
      = (W main_v14 : S3x1x128.Idx → EReal) (ix3 1 0 d) := by
  have e : (StableHlo.after (hostOps4 (F := Ideal)) W main_v34 : S1x128.Idx → EReal)
      = shapeCast S1x128 (extractStridedSlice S1x1x128 ![1, 0, 0] (W main_v14 : S3x1x128.Idx → EReal)
          slices_S3x1x128_S1x1x128_1_0_0) shapeCasts_S1x1x128_S1x128 := by
    show StableHlo.after hostOps4 W (Proc.devRef .tc main_v34) = _
    after_results
    rfl
  rw [e]
  exact slab_apply 1 _ _ _ 1 rfl 0 d

/-- Round 2's matrix. -/
theorem after6_v38 (k d : Fin 128) :
    (StableHlo.after (hostOps6 (F := Ideal)) W main_v38 : S128x128.Idx → EReal) (ix2 k d)
      = (W main_arg5 : S3x128x128.Idx → EReal) (ix3 2 k d) := by
  have e : (StableHlo.after (hostOps6 (F := Ideal)) W main_v38 : S128x128.Idx → EReal)
      = shapeCast S128x128 (extractStridedSlice S1x128x128 ![2, 0, 0] (W main_arg5 : S3x128x128.Idx → EReal)
          slices_S3x128x128_S1x128x128_2_0_0) shapeCasts_S1x128x128_S128x128 := by
    show StableHlo.after hostOps6 W (Proc.devRef .tc main_v38) = _
    after_results
    rfl
  rw [e]
  exact slab_apply 2 _ _ _ 2 rfl k d

/-- Round 2's bias row. -/
theorem after6_v40 (d : Fin 128) :
    (StableHlo.after (hostOps6 (F := Ideal)) W main_v40 : S1x128.Idx → EReal) (ix2 0 d)
      = (W main_v12 : S3x1x128.Idx → EReal) (ix3 2 0 d) := by
  have e : (StableHlo.after (hostOps6 (F := Ideal)) W main_v40 : S1x128.Idx → EReal)
      = shapeCast S1x128 (extractStridedSlice S1x1x128 ![2, 0, 0] (W main_v12 : S3x1x128.Idx → EReal)
          slices_S3x1x128_S1x1x128_2_0_0) shapeCasts_S1x1x128_S1x128 := by
    show StableHlo.after hostOps6 W (Proc.devRef .tc main_v40) = _
    after_results
    rfl
  rw [e]
  exact slab_apply 2 _ _ _ 2 rfl 0 d

/-- Round 2's gain row. -/
theorem after6_v42 (d : Fin 128) :
    (StableHlo.after (hostOps6 (F := Ideal)) W main_v42 : S1x128.Idx → EReal) (ix2 0 d)
      = (W main_v13 : S3x1x128.Idx → EReal) (ix3 2 0 d) := by
  have e : (StableHlo.after (hostOps6 (F := Ideal)) W main_v42 : S1x128.Idx → EReal)
      = shapeCast S1x128 (extractStridedSlice S1x1x128 ![2, 0, 0] (W main_v13 : S3x1x128.Idx → EReal)
          slices_S3x1x128_S1x1x128_2_0_0) shapeCasts_S1x1x128_S1x128 := by
    show StableHlo.after hostOps6 W (Proc.devRef .tc main_v42) = _
    after_results
    rfl
  rw [e]
  exact slab_apply 2 _ _ _ 2 rfl 0 d

/-- Round 2's offset row. -/
theorem after6_v44 (d : Fin 128) :
    (StableHlo.after (hostOps6 (F := Ideal)) W main_v44 : S1x128.Idx → EReal) (ix2 0 d)
      = (W main_v14 : S3x1x128.Idx → EReal) (ix3 2 0 d) := by
  have e : (StableHlo.after (hostOps6 (F := Ideal)) W main_v44 : S1x128.Idx → EReal)
      = shapeCast S1x128 (extractStridedSlice S1x1x128 ![2, 0, 0] (W main_v14 : S3x1x128.Idx → EReal)
          slices_S3x1x128_S1x1x128_2_0_0) shapeCasts_S1x1x128_S1x128 := by
    show StableHlo.after hostOps6 W (Proc.devRef .tc main_v44) = _
    after_results
    rfl
  rw [e]
  exact slab_apply 2 _ _ _ 2 rfl 0 d

end Layers

/-! ## The closing stretch, from arbitrary contents -/

section Closing
variable (W : Valuation τ sig (Elt Ideal))

/-- The result: graph `q`'s feature sums over its node count, a count below one replaced by one; of the 128
    graphs the last region numbers, the first 64. -/
theorem after8_v52 (q : Fin 64) (d : Fin 128) :
    (StableHlo.after (hostOps8 (F := Ideal)) W main_v52 : S64x128.Idx → EReal) (ix2 q d)
      = Ideal.div ((W main_v46_0 : S128x128.Idx → EReal) (ix2 ⟨q.val, by omega⟩ d))
          (max ((W main_v46_1 : S128x1.Idx → EReal) (ix2 ⟨q.val, by omega⟩ 0)) 1) := by
  have e : (StableHlo.after (hostOps8 (F := Ideal)) W main_v52 : S64x128.Idx → EReal)
      = Host.divf (F := Ideal)
          (extractStridedSlice S64x128 ![0, 0] (W main_v46_0 : S128x128.Idx → EReal) slices_S128x128_S64x128_0_0)
          (broadcastInDim S64x128 ![0, 1] bcast_S64x1_S64x128_0_1
            (maximumf (F := Ideal)
              (extractStridedSlice S64x1 ![0, 0] (W main_v46_1 : S128x1.Idx → EReal) slices_S128x1_S64x1_0_0)
              (broadcastInDim S64x1 ![] bcast_S_S64x1 (constant (F := Ideal) S_ .f32 0x3F800000#32)))) := by
    show StableHlo.after hostOps8 W (Proc.devRef .tc main_v52) = _
    after_results
  rw [e, hostDivf_apply]
  congr 1
  · exact slice2_axis0_apply 0 _ _ q d ⟨q.val, _⟩ (Nat.zero_add _).symm
  · rw [broadcastInDim_apply (![0, 1]) bcast_S64x1_S64x128_0_1 _ (ix2 q d) (ix2 q 0)
      (fun a => by match a with | ⟨0, _⟩ => rfl | ⟨1, _⟩ => rfl), maximumf_apply]
    congr 1
    · exact slice2_axis0_apply 0 _ _ q 0 ⟨q.val, _⟩ (Nat.zero_add _).symm
    · rw [broadcastInDim_scalar_apply, constant_apply, Ideal.ofBits_one_f32]

end Closing

/-! ## The same as whole rows -/

section LayerRows
variable (W : Valuation τ sig (Elt Ideal))

theorem after2_v18_rows :
    Cert.Args.rows2 (StableHlo.after (hostOps2 (F := Ideal)) W main_v18 : S128x128.Idx → EReal)
      = fun k d => (W main_arg5 : S3x128x128.Idx → EReal) (ix3 0 k d) :=
  funext fun k => funext fun d => after2_v18 W k d
theorem after2_v20_row :
    (fun d : Fin 128 => (StableHlo.after (hostOps2 (F := Ideal)) W main_v20 : S1x128.Idx → EReal) (ix2 0 d))
      = fun d => (W main_v12 : S3x1x128.Idx → EReal) (ix3 0 0 d) := funext (after2_v20 W)
theorem after2_v22_row :
    (fun d : Fin 128 => (StableHlo.after (hostOps2 (F := Ideal)) W main_v22 : S1x128.Idx → EReal) (ix2 0 d))
      = fun d => (W main_v13 : S3x1x128.Idx → EReal) (ix3 0 0 d) := funext (after2_v22 W)
theorem after2_v24_row :
    (fun d : Fin 128 => (StableHlo.after (hostOps2 (F := Ideal)) W main_v24 : S1x128.Idx → EReal) (ix2 0 d))
      = fun d => (W main_v14 : S3x1x128.Idx → EReal) (ix3 0 0 d) := funext (after2_v24 W)

theorem after4_v28_rows :
    Cert.Args.rows2 (StableHlo.after (hostOps4 (F := Ideal)) W main_v28 : S128x128.Idx → EReal)
      = fun k d => (W main_arg5 : S3x128x128.Idx → EReal) (ix3 1 k d) :=
  funext fun k => funext fun d => after4_v28 W k d
theorem after4_v30_row :
    (fun d : Fin 128 => (StableHlo.after (hostOps4 (F := Ideal)) W main_v30 : S1x128.Idx → EReal) (ix2 0 d))
      = fun d => (W main_v12 : S3x1x128.Idx → EReal) (ix3 1 0 d) := funext (after4_v30 W)
theorem after4_v32_row :
    (fun d : Fin 128 => (StableHlo.after (hostOps4 (F := Ideal)) W main_v32 : S1x128.Idx → EReal) (ix2 0 d))
      = fun d => (W main_v13 : S3x1x128.Idx → EReal) (ix3 1 0 d) := funext (after4_v32 W)
theorem after4_v34_row :
    (fun d : Fin 128 => (StableHlo.after (hostOps4 (F := Ideal)) W main_v34 : S1x128.Idx → EReal) (ix2 0 d))
      = fun d => (W main_v14 : S3x1x128.Idx → EReal) (ix3 1 0 d) := funext (after4_v34 W)

theorem after6_v38_rows :
    Cert.Args.rows2 (StableHlo.after (hostOps6 (F := Ideal)) W main_v38 : S128x128.Idx → EReal)
      = fun k d => (W main_arg5 : S3x128x128.Idx → EReal) (ix3 2 k d) :=
  funext fun k => funext fun d => after6_v38 W k d
theorem after6_v40_row :
    (fun d : Fin 128 => (StableHlo.after (hostOps6 (F := Ideal)) W main_v40 : S1x128.Idx → EReal) (ix2 0 d))
      = fun d => (W main_v12 : S3x1x128.Idx → EReal) (ix3 2 0 d) := funext (after6_v40 W)
theorem after6_v42_row :
    (fun d : Fin 128 => (StableHlo.after (hostOps6 (F := Ideal)) W main_v42 : S1x128.Idx → EReal) (ix2 0 d))
      = fun d => (W main_v13 : S3x1x128.Idx → EReal) (ix3 2 0 d) := funext (after6_v42 W)
theorem after6_v44_row :
    (fun d : Fin 128 => (StableHlo.after (hostOps6 (F := Ideal)) W main_v44 : S1x128.Idx → EReal) (ix2 0 d))
      = fun d => (W main_v14 : S3x1x128.Idx → EReal) (ix3 2 0 d) := funext (after6_v44 W)

end LayerRows

end Cert.KernelIdeal.HostVals

end
-- ==== Proof.LibPlainDot.lean ====
/-
  A plain matrix product read at an element, at the extended reals: for dimension numbers that contract the left
  operand's axis 1 with the right operand's axis 0 and have no batch axis ([M, K] by [K, N]), the contraction at (p, q)
  is the sum over k of lhs[p, k] * rhs[k, q] — for a kernel's matmul into a zero accumulator and for the host's
  dot_general alike. General lemmas over any sizes; they import no program.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

/-- The plain dimension numbers over any well-formedness proof. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the output's row … -/
theorem lhs_0 (i : (⟨2, ![M, N]⟩ : Shape).Idx) (q : (plainDims M K N wf).contr.Idx) :
    ((plainDims M K N wf).lhsIdx i q 0).val = (i 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl
/-- … its column the contracted coordinate … -/
theorem lhs_1 (i : (⟨2, ![M, N]⟩ : Shape).Idx) (q : (plainDims M K N wf).contr.Idx) :
    ((plainDims M K N wf).lhsIdx i q 1).val = (q ⟨0, (Nat.one_pos : 0 < (plainDims M K N wf).contr.rank)⟩).val :=
  (plainDims M K N wf).lhsIdx_val_of_single rfl i q
/-- … the right operand's row the contracted coordinate … -/
theorem rhs_0 (i : (⟨2, ![M, N]⟩ : Shape).Idx) (q : (plainDims M K N wf).contr.Idx) :
    ((plainDims M K N wf).rhsIdx i q 0).val = (q ⟨0, (Nat.one_pos : 0 < (plainDims M K N wf).contr.rank)⟩).val :=
  (plainDims M K N wf).rhsIdx_val_of_single rfl i q
/-- … and its column the output's column. -/
theorem rhs_1 (i : (⟨2, ![M, N]⟩ : Shape).Idx) (q : (plainDims M K N wf).contr.Idx) :
    ((plainDims M K N wf).rhsIdx i q 1).val = (i 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- The contraction sum of the plain dimension numbers at (p, q), re-indexed by the contracted coordinate. -/
theorem plain_sum (l : (⟨2, ![M, K]⟩ : Shape).Idx → EReal) (r : (⟨2, ![K, N]⟩ : Shape).Idx → EReal) (p : Fin M) (q : Fin N) :
    ∑ k : (plainDims M K N wf).contr.Idx, l ((plainDims M K N wf).lhsIdx (ix2 p q) k) * r ((plainDims M K N wf).rhsIdx (ix2 p q) k)
      = ∑ k : Fin K, l (ix2 p k) * r (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_0 wf _ _
      | ⟨1, _⟩ => exact (lhs_1 wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_0 wf _ _).trans hk
      | ⟨1, _⟩ => exact rhs_1 wf _ _)
  rw [el, er]

/-- The same for any record of dimension numbers whose six lists are the plain ones. -/
theorem contr_sum_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf'⟩ := d
  dsimp only at hlc hrc hln hrn hlb hrb
  subst hlc hrc hln hrn hlb hrb
  exact plain_sum wf' l r p q

/-- A kernel's matmul into the zero accumulator, at (p, q): the sum over k of lhs[p, k] * rhs[k, q]. -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact contr_sum_apply d hlc hrc hln hrn hlb hrb l r p q

/-- The host's dot_general, at (p, q): the same sum. -/
theorem dotGeneral_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact contr_sum_apply d hlc hrc hln hrn hlb hrb l r p q

end Idealize.ShloMosaic.PlainDot

end
-- ==== Proof.KI.Val0.lean ====
/-
  The value of kernel region 0 (the projection) at the extended reals: the output array after the region is
  relu(x·W + b) row by row, of the three arrays as the region found them.

  Each grid point t writes back one 2048×128 row block; what it writes is the body's one payload of the blocks at
  t.  Read at (p, q) the payload is max((∑ₖ x[p,k]·W[k,q]) + b[0,q], 0): roundings to bf16 are the identity on
  extended reals and the matmul accumulates into zero.  Row p of the features' block at t is row t·2048 + p of the
  features, which is also where row p of the output's block at t sits; the weight and the bias are read whole.  So
  every point writes its block of ONE function of the arrays, the 49 blocks cover the 100352 rows, and the array
  ends holding that function.
-/
import proofs.«423195_j8272107012813_1_alg».proof.Proof.KI.Reg0
import proofs.«423195_j8272107012813_1_alg».proof.Proof.Args
import proofs.«423195_j8272107012813_1_alg».proof.Proof.LibPlainDot

set_option maxRecDepth 16384

noncomputable section

open scoped BigOperators
open Idealize.ShloMosaic

namespace Cert.KernelIdeal.Val0

open Cert.KernelIdeal Cert.KernelIdeal.Gen
open Idealize.ShloMosaic Idealize.ShloMosaic.TcCoe Idealize.SL.Sem
open Idealize.ShloMosaic.ValueIdx
open Idealize.ShloMosaic.Pipeline (Dat)
open Cert.Spec Cert.Args

-- the TensorCore's buffer contents when the region is entered
variable (V : (c : Dev nD) → (b : Ref sig .tc) → Buf (Elt Ideal) ((c : Thread nD τ).loc b))

/-! ## The body's payload at an element -/

/-- The body's payload at row p, lane q of a block: the row's product with the weight's column q (the rounding to
    bf16 is the identity on extended reals, the accumulator is zero), plus the bias's lane q, cut off below at 0. -/
theorem pay_apply (x0 : Vec Ideal S2048x128 .f32) (x1 : Vec Ideal S128x128 .f32) (x2 : Vec Ideal S1x128 .f32)
    (p : Fin 2048) (q : Fin 128) :
    k0_pay1 (F := Ideal) x0 x1 x2 (ix2 p q) = max ((∑ k : Fin 128, x0 (ix2 p k) * x1 (ix2 k q)) + x2 (ix2 0 q)) 0 := by
  unfold k0_pay1
  rw [maximumf_apply, addf_apply, broadcast_apply, shapeCast_self, shapeCast_self]
  have hm := PlainDot.matmul_zero_apply (M := 2048) (K := 128) (N := 128) dot_S2048x128_S128x128_S2048x128_1_0_0_1_n_n
    rfl rfl rfl rfl rfl rfl none (truncf .bf16 x0 bitsLt_bf16_f32) (truncf .bf16 x1 bitsLt_bf16_f32) p q
  have hb : broadcastTo S2048x128 x2 broadcasts_S1x128_S2048x128 (ix2 p q) = x2 (ix2 0 q) :=
    broadcastTo_apply x2 broadcasts_S1x128_S2048x128 (ix2 p q) (ix2 0 q) fun a => by
      match a with
      | ⟨0, _⟩ => rfl
      | ⟨1, _⟩ => rfl
  have hz : (FloatOps.ofBits (F := Ideal) FTy.f32 0x00000000#32 : EReal) = 0 := Ideal.ofBits_zero_f32
  refine congrArg₂ max (congrArg₂ (· + ·) (hm.trans ?_) hb) hz
  rfl

/-! ## The array the region leaves -/

/-- relu(x·W + b) row by row, as one function of the three arrays. -/
def proj (X : S100352x128.Idx → EReal) (W : S128x128.Idx → EReal) (B : S1x128.Idx → EReal) : S100352x128.Idx → EReal :=
  fun i => linRelu (rows2 X) (rows2 W) (fun d => B (ix2 0 d)) (i 0) (i 1)

/-- The payload of three blocks at (p, q) is proj of three arrays at an index i, when row p of the first block is
    row i 0 of the first array, column q of the second block is column i 1 of the second array, and lane q of the
    third block is lane i 1 of the third array. -/
theorem pay_eq_proj (X : S100352x128.Idx → EReal) (W : S128x128.Idx → EReal) (B : S1x128.Idx → EReal)
    (x0 : Vec Ideal S2048x128 .f32) (x1 : Vec Ideal S128x128 .f32) (x2 : Vec Ideal S1x128 .f32)
    (i : S100352x128.Idx) (p : Fin 2048) (q : Fin 128)
    (h0 : ∀ k : Fin 128, x0 (ix2 p k) = X (ix2 (i 0) k)) (h1 : ∀ k : Fin 128, x1 (ix2 k q) = W (ix2 k (i 1)))
    (h2 : x2 (ix2 0 q) = B (ix2 0 (i 1))) :
    k0_pay1 (F := Ideal) x0 x1 x2 (ix2 p q) = proj X W B i := by
  rw [pay_apply, h2]
  unfold proj linRelu rows2
  exact congrArg₂ max (congrArg₂ (· + ·) (Finset.sum_congr rfl fun k _ => by rw [h0 k, h1 k]) rfl) rfl

/-- The windows' block indices over the grid: the features' and the output's row block is the point's number, the
    weight's and the bias's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of proj of the arrays as the region finds them: row p of the block is row
    t·2048 + p of the features, the weight and the bias are read whole. -/
theorem flushed_eq (c : Dev nD) (t : Fin cfg0.N) :
    (Reg0.dat (F := Ideal) V c).flushed 3 t
      = ((cfg0.win 3).blk t).view.read (Elt Ideal) (proj (V c main_v0) (V c main_arg3) (V c main_v11)) := by
  rw [Reg0.flushed_3]
  unfold Reg0.outAt
  obtain ⟨e00, e01, e10, e11, e20, e21, e30, e31⟩ := idx_facts t
  funext j
  obtain ⟨p, q, rfl⟩ : ∃ (p : Fin 2048) (q : Fin 128), j = ix2 p q := ⟨j 0, j 1, eq_ix2 j⟩
  show k0_pay1 (F := Ideal) (Reg0.iblk V c 0 t) (Reg0.iblk V c 1 t) (Reg0.iblk V c 2 t) (ix2 p q)
      = proj (V c main_v0) (V c main_arg3) (V c main_v11) (((cfg0.win 3).blk t).view.emb (ix2 p q))
  refine pay_eq_proj (V c main_v0) (V c main_arg3) (V c main_v11) _ _ _ (((cfg0.win 3).blk t).view.emb (ix2 p q)) p q
    (fun k => ?_) (fun k => ?_) ?_
  · show V c main_v0 (((cfg0.win 0).blk t).view.emb (ix2 p k)) = V c main_v0 (ix2 ((((cfg0.win 3).blk t).view.emb (ix2 p q)) 0) k)
    refine congrArg (V c main_v0) (funext fun a => Fin.ext ?_)
    match a with
    | ⟨0, _⟩ => show win0_0.index t (0 : Fin 2) * 2048 + 1 * p.val = win0_3.index t (0 : Fin 2) * 2048 + 1 * p.val; omega
    | ⟨1, _⟩ => show win0_0.index t (1 : Fin 2) * 128 + 1 * k.val = k.val; omega
  · show V c main_arg3 (((cfg0.win 1).blk t).view.emb (ix2 k q)) = V c main_arg3 (ix2 k ((((cfg0.win 3).blk t).view.emb (ix2 p q)) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · show V c main_v11 (((cfg0.win 2).blk t).view.emb (ix2 0 q)) = V c main_v11 (ix2 0 ((((cfg0.win 3).blk t).view.emb (ix2 p q)) 1))
    refine congrArg (V c main_v11) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the output array is in point t's block iff each coordinate is in the block's range on its axis. -/
theorem mem_blk (t : Fin cfg0.N) (i : S100352x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v15).slice (win0_3.rect t)).set ↔ _
  rw [View.set_slice_whole, Rect.mem_set_unit]
  exact Iff.rfl

/-- The 49 row blocks cover the array: row r is in the block of point r / 2048. -/
theorem cover (i : S100352x128.Idx) :
    ∃ t : Fin cfg0.N, (cfg0.win 3).flush t = true ∧ i ∈ ((cfg0.win 3).blk t).view.set := by
  have hi0 : (i 0).val < 100352 := (i 0).isLt
  have hi1 : (i 1).val < 128 := (i 1).isLt
  have hN : (i 0).val / 2048 < cfg0.N := by rw [show cfg0.N = 49 from N_0]; omega
  obtain ⟨-, -, -, -, -, -, e30, e31⟩ := idx_facts ⟨(i 0).val / 2048, hN⟩
  refine ⟨⟨(i 0).val / 2048, hN⟩, Reg0.flush_3 _, ?_⟩
  rw [mem_blk]
  intro a
  match a with
  | ⟨0, _⟩ =>
    show win0_3.index ⟨(i 0).val / 2048, hN⟩ (0 : Fin 2) * 2048 ≤ (i 0).val ∧ (i 0).val < win0_3.index ⟨(i 0).val / 2048, hN⟩ (0 : Fin 2) * 2048 + 2048
    rw [e30]; show (i 0).val / 2048 * 2048 ≤ (i 0).val ∧ (i 0).val < (i 0).val / 2048 * 2048 + 2048; omega
  | ⟨1, _⟩ =>
    show win0_3.index ⟨(i 0).val / 2048, hN⟩ (1 : Fin 2) * 128 ≤ (i 1).val ∧ (i 1).val < win0_3.index ⟨(i 0).val / 2048, hN⟩ (1 : Fin 2) * 128 + 128
    rw [e31]; omega

/-- The output array after the region: relu(x·W + b) of the arrays as the region found them. -/
theorem arr_final (c : Dev nD) :
    (Reg0.dat (F := Ideal) V c).arrAt 3 cfg0.N = proj (V c main_v0) (V c main_arg3) (V c main_v11) :=
  (Reg0.dat (F := Ideal) V c).arrAt_eq_of_cover 3 _ (fun t _ => flushed_eq V c t) cover

/-- The same by rows. -/
theorem final (c : Dev nD) :
    rows2 ((Reg0.dat (F := Ideal) V c).arrAt 3 cfg0.N)
      = linRelu (rows2 (V c main_v0)) (rows2 (V c main_arg3)) (fun d => V c main_v11 (ix2 0 d)) := by
  funext r d
  show (Reg0.dat (F := Ideal) V c).arrAt 3 cfg0.N (ix2 r d) = _
  rw [arr_final]
  rfl

end Cert.KernelIdeal.Val0

end
-- ==== Proof.KI.Val1.lean ====
/-
  The value of region 1: the array the gather leaves is, row by row, the one-hot sum over ALL rows of the node array
  of each edge's source word.

  One point's update of the accumulator, read at an element, adds the one-hot weights of the edge's source word
  against the 1024 rows of the point's node block (the comparison bit, widened and converted, is the weight; the
  matrix product into the zero accumulator is the plain sum; the format changes are the identity on the extended
  reals). By induction over the points of an edge block the accumulator after node block k is the sum of the shares of
  blocks 0..k; after the last one, all 98 blocks of 1024 rows, which is the sum over all 100352 rows. The point that
  holds this stores it, and its block of the output array is written back; these blocks cover the array.
-/
import proofs.«423195_j8272107012813_1_alg».proof.Proof.KI.Reg1
import proofs.«423195_j8272107012813_1_alg».proof.Proof.Spec
import proofs.«423195_j8272107012813_1_alg».proof.Proof.Args
import proofs.«423195_j8272107012813_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val1

open Cert.KernelIdeal Cert.KernelIdeal.Gen
open Idealize.ShloMosaic Idealize.ShloMosaic.TcCoe Idealize.ShloMosaic.ValueIdx Idealize.ShloMosaic.PlainDot
open Idealize.ShloMosaic.Pipeline (Dat)
open Cert.Spec Cert.Args

/-! ## One point's update, read at an element -/

/-- A word below 2^31 written as a 32-bit numeral reads back, signed, as itself. -/
theorem toInt_ofNat_small (r : ℕ) (hr : r < 2147483648) : (BitVec.ofNat 32 r).toInt = (r : ℤ) := by
  have hn : (BitVec.ofNat 32 r).toNat = r := by rw [BitVec.toNat_ofNat]; exact Nat.mod_eq_of_lt (by omega)
  rw [BitVec.toInt_eq_toNat_of_lt (by rw [hn]; omega), hn]

/-- The one-hot entry the kernel computes — the comparison bit of the source word against a row number, widened and
    converted — is the one-hot weight of the word at that row. -/
theorem oneHot_entry (w : BitVec 32) (r : ℕ) (hr : r < 2147483648) :
    ((((IntOp.cmpi .eq w (BitVec.ofNat 32 r)).setWidth 32).toInt : ℝ) : EReal) = oh w r := by
  have hb := toInt_ofNat_small r hr
  unfold oh IntOp.cmpi
  by_cases h : w = BitVec.ofNat 32 r
  · subst h
    rw [if_pos hb, show (BitVec.ofNat 32 r == BitVec.ofNat 32 r) = true from beq_self_eq_true _,
      show ((BitVec.ofBool true).setWidth 32).toInt = 1 from by decide]
    simp
  · have hne : ¬w.toInt = (r : ℤ) := fun e => h (BitVec.eq_of_toInt_eq (e.trans hb.symm))
    rw [if_neg hne, show (w == BitVec.ofNat 32 r) = false from beq_eq_false_iff_ne.mpr h,
      show ((BitVec.ofBool false).setWidth 32).toInt = 0 from by decide]
    simp

/-- The row number the kernel compares against: node block `a`, row `k` of the block. -/
theorem rowWord (a k : ℕ) :
    IntOp.addi (Scalar.muli (BitVec.ofNat 32 a) 1024#32) (BitVec.ofNat 32 k) = BitVec.ofNat 32 (a * 1024 + k) := by
  unfold IntOp.addi Scalar.muli IntOp.muli
  rw [BitVec.ofNat_add, BitVec.ofNat_mul]

theorem accStep_apply (i : grid1.Coords) (xs : Vec Ideal S1x4096 .i32) (xh : Vec Ideal S1024x128 .f32)
    (xa : Vec Ideal S4096x128 .f32) (p : Fin 4096) (q : Fin 128) :
    k1_pay2 i xs xh xa (ix2 p q)
      = xa (ix2 p q) + ∑ k : Fin 1024, oh (xs (ix2 0 p)) ((i 1).val * 1024 + k.val) * xh (ix2 k q) := by
  unfold k1_pay2
  simp only [shapeCast_self]
  rw [addf_apply]
  refine congrArg (xa (ix2 p q) + ·) ?_
  refine (matmul_zero_apply (M := 4096) (K := 1024) (N := 128) dot_S4096x1024_S1024x128_S4096x128_1_0_0_1_n_n
    rfl rfl rfl rfl rfl rfl none _ _ p q).trans ?_
  refine Finset.sum_congr rfl fun k _ => ?_
  rw [truncf_apply]
  refine congrArg (· * xh (ix2 k q)) ?_
  rw [transpose_apply [1, 0] _ transposes_S1024x4096_p1_0_S4096x1024 (ix2 p k) (ix2 k p)
    (by intro b; match b with | ⟨0, _⟩ => rfl | ⟨1, _⟩ => rfl)]
  rw [truncf_apply, sitofp_apply, extui_apply]
  rw [show ∀ (A B : IVec S1024x4096 32) (j : S1024x4096.Idx), cmpi CmpIPredicate.eq A B j = IntOp.cmpi .eq (A j) (B j) from
    fun _ _ _ => rfl]
  rw [broadcastTo_apply xs broadcasts_S1x4096_S1024x4096 (ix2 k p) (ix2 0 p)
      (by intro a; match a with | ⟨0, _⟩ => rfl | ⟨1, _⟩ => rfl),
    broadcastTo_apply _ broadcasts_S1024x1_S1024x4096 (ix2 k p) (ix2 k 0)
      (by intro a; match a with | ⟨0, _⟩ => rfl | ⟨1, _⟩ => rfl)]
  rw [show ∀ (A B : IVec S1024x1 32) (j : S1024x1.Idx), addi A B j = IntOp.addi (A j) (B j) from fun _ _ _ => rfl,
    broadcast_apply, iota_single_apply, rowWord]
  have hlt : (i 1).val < 98 := (i 1).isLt
  have hk : k.val < 1024 := k.isLt
  exact oneHot_entry (xs (ix2 0 p)) ((i 1).val * 1024 + k.val) (by omega)

/-- The zero accumulator, read at an element. -/
theorem accZero_apply (j : S4096x128.Idx) : Reg1.accZero (F := Ideal) j = 0 := by
  unfold Reg1.accZero k1_pay1
  simp only [shapeCast_self]
  exact Ideal.ofBits_zero_f32

/-- Rounding to the output's format is the identity on the extended reals. -/
theorem round_apply (x : Vec Ideal S4096x128 .f32) (j : S4096x128.Idx) : k1_pay3 x j = x j := rfl

/-! ## The arrays and their blocks -/

variable (V : (c : Dev nD) → (b : Ref sig .tc) → Buf (Elt Ideal) ((c : Thread nD τ).loc b))

/-- The array of source ids (one row of padded length) and the array of node rows, as the region finds them. -/
abbrev srcArr (c : Dev nD) : S1x602112.Idx → BitVec 32 := V c (Pipeline.arrRef spec1 0)
abbrev featArr (c : Dev nD) : S100352x128.Idx → EReal := V c (Pipeline.arrRef spec1 1)

/-- The edge-block coordinate of point `t` is `t / 98`. -/
theorem edgeCoord (t : Fin cfg1.N) : (grid1.coords t 0).val = t.val / 98 := by
  have hN : cfg1.N = 14406 := N_1
  have ht := t.isLt
  show t.val / 98 % 147 = t.val / 98
  exact Nat.mod_eq_of_lt (by omega)

/-- A small number written as a 32-bit word and read back unsigned is itself. -/
theorem toNat_ofNat_small (n : ℕ) (h : n < 4294967296) : (BitVec.ofNat 32 n).toNat = n := by
  rw [BitVec.toNat_ofNat]; exact Nat.mod_eq_of_lt h

/-- The block indices of the three windows at point `t`: the source ids' block is the edge block, the node rows'
    block the node block, the output's block the edge block. -/
theorem index_src (t : Fin cfg1.N) : win1_0.index t 0 = 0 ∧ win1_0.index t 1 = t.val / 98 := by
  have h := edgeCoord t
  refine ⟨rfl, ?_⟩
  show (BitVec.ofNat 32 (grid1.coords t 0).val).toNat = _
  rw [h, toNat_ofNat_small _ (by have := t.isLt; have : cfg1.N = 14406 := N_1; omega)]

theorem index_feat (t : Fin cfg1.N) : win1_1.index t 0 = t.val % 98 ∧ win1_1.index t 1 = 0 := by
  have h := Reg1.nodeCoord t
  refine ⟨?_, rfl⟩
  show (BitVec.ofNat 32 (grid1.coords t 1).val).toNat = _
  rw [h, toNat_ofNat_small _ (by omega)]

theorem index_out (t : Fin cfg1.N) : win1_2.index t 0 = t.val / 98 ∧ win1_2.index t 1 = 0 := by
  have h := edgeCoord t
  refine ⟨?_, rfl⟩
  show (BitVec.ofNat 32 (grid1.coords t 0).val).toNat = _
  rw [h, toNat_ofNat_small _ (by have := t.isLt; have : cfg1.N = 14406 := N_1; omega)]

/-- The source-id block at point `t` is entries `4096 (t / 98) …` of the array. -/
theorem srcBlk_apply (c : Dev nD) (t : Fin cfg1.N) (p : Fin 4096) (j : Fin 602112) (hj : j.val = t.val / 98 * 4096 + p.val) :
    Reg1.srcBlk V c t (ix2 0 p) = srcArr V c (ix2 0 j) := by
  obtain ⟨h0, h1⟩ := index_src t
  unfold Reg1.srcBlk Reg1.iblk
  rw [View.read_apply]
  show V c (Pipeline.arrRef spec1 0) _ = V c (Pipeline.arrRef spec1 0) _
  congr 1
  funext a
  apply Fin.ext
  match a with
  | ⟨0, _⟩ => show win1_0.index t 0 * 1 + 1 * 0 = 0; rw [h0]
  | ⟨1, _⟩ => show win1_0.index t 1 * 4096 + 1 * p.val = j.val; rw [h1, hj]; omega

/-- The node-row block at point `t` is rows `1024 (t mod 98) …` of the array. -/
theorem featBlk_apply (c : Dev nD) (t : Fin cfg1.N) (k : Fin 1024) (q : Fin 128) (r : Fin 100352) (hr : r.val = t.val % 98 * 1024 + k.val) :
    Reg1.featBlk V c t (ix2 k q) = featArr V c (ix2 r q) := by
  obtain ⟨h0, h1⟩ := index_feat t
  unfold Reg1.featBlk Reg1.iblk
  rw [View.read_apply]
  show V c (Pipeline.arrRef spec1 1) _ = V c (Pipeline.arrRef spec1 1) _
  congr 1
  funext a
  apply Fin.ext
  match a with
  | ⟨0, _⟩ => show win1_1.index t 0 * 1024 + 1 * k.val = r.val; rw [h0, hr]; omega
  | ⟨1, _⟩ => show win1_1.index t 1 * 128 + 1 * q.val = q.val; rw [h1]; omega

/-! ## The accumulator after a point, read at an element

Past the padded arrays' ends nothing is ever read; the total forms below spare every index its bound. -/

/-- Entry `j` of the source ids (zero past the end). -/
def srcWord (c : Dev nD) (j : ℕ) : BitVec 32 := if h : j < 602112 then srcArr V c (ix2 0 ⟨j, h⟩) else 0

/-- Row `r` of the node features at feature `q` (zero past the end). -/
def featRow (c : Dev nD) (r : ℕ) (q : Fin 128) : EReal := if h : r < 100352 then featArr V c (ix2 ⟨r, h⟩ q) else 0

/-- Node block `k`'s share of the gathered row for edge `4096 e + p`: the one-hot weights of the edge's source word
    against the block's 1024 rows. -/
def blockTerm (c : Dev nD) (e : ℕ) (p : Fin 4096) (q : Fin 128) (k : ℕ) : EReal :=
  ∑ j : Fin 1024, oh (srcWord V c (e * 4096 + p.val)) (k * 1024 + j.val) * featRow V c (k * 1024 + j.val) q

/-- One point's update adds the point's node block's share. -/
theorem step_apply (c : Dev nD) (t : Fin cfg1.N) (xa : Vec Ideal S4096x128 .f32) (p : Fin 4096) (q : Fin 128) :
    Reg1.accStep (grid1.coords t) (Reg1.srcBlk V c t) (Reg1.featBlk V c t) xa (ix2 p q)
      = xa (ix2 p q) + blockTerm V c (t.val / 98) p q (t.val % 98) := by
  have hN : cfg1.N = 14406 := N_1
  have ht := t.isLt
  have hp := p.isLt
  refine (accStep_apply (grid1.coords t) (Reg1.srcBlk V c t) (Reg1.featBlk V c t) xa p q).trans ?_
  refine congrArg (xa (ix2 p q) + ·) ?_
  unfold blockTerm
  refine Finset.sum_congr rfl fun k _ => ?_
  have hk := k.isLt
  rw [Reg1.nodeCoord t,
    srcBlk_apply V c t p ⟨t.val / 98 * 4096 + p.val, by omega⟩ rfl,
    featBlk_apply V c t k q ⟨t.val % 98 * 1024 + k.val, by omega⟩ rfl]
  unfold srcWord featRow
  rw [dif_pos (by omega), dif_pos (by omega)]

/-- THE FOLD. After point `n` — node block `n mod 98` of edge block `n / 98` — the accumulator holds the shares of the
    node blocks up to that one. -/
theorem accAt_apply (c : Dev nD) (p : Fin 4096) (q : Fin 128) : ∀ (n : ℕ) (hn : n < cfg1.N),
    Reg1.accAt V c n hn (ix2 p q) = ∑ k ∈ Finset.range (n % 98 + 1), blockTerm V c (n / 98) p q k := by
  intro n
  induction n with
  | zero =>
    intro hn
    refine (congrFun (Reg1.accAt_reset V c ⟨0, hn⟩ rfl) (ix2 p q)).trans ?_
    rw [step_apply V c ⟨0, hn⟩ _ p q, accZero_apply, zero_add]
    show blockTerm V c (0 / 98) p q (0 % 98) = _
    rw [Finset.sum_range_one]
  | succ n ih =>
    intro hn
    by_cases h : (n + 1) % 98 = 0
    · refine (congrFun (Reg1.accAt_reset V c ⟨n + 1, hn⟩ h) (ix2 p q)).trans ?_
      rw [step_apply V c ⟨n + 1, hn⟩ _ p q, accZero_apply, zero_add]
      show blockTerm V c ((n + 1) / 98) p q ((n + 1) % 98) = _
      rw [h, Finset.sum_range_one]
    · refine (congrFun (Reg1.accAt_step V c ⟨n + 1, hn⟩ h) (ix2 p q)).trans ?_
      rw [step_apply V c ⟨n + 1, hn⟩ _ p q]
      show Reg1.accAt V c n _ (ix2 p q) + blockTerm V c ((n + 1) / 98) p q ((n + 1) % 98) = _
      rw [ih (Nat.lt_of_succ_lt hn)]
      have e1 : (n + 1) % 98 = n % 98 + 1 := by omega
      have e2 : (n + 1) / 98 = n / 98 := by omega
      rw [e1, e2, Finset.sum_range_succ _ (n % 98 + 1)]

/-! ## All node blocks together: the sum over every row -/

/-- A sum over `K` blocks of `B` consecutive numbers each is the sum over the first `K B` numbers. -/
theorem sum_blocks (B : ℕ) (f : ℕ → EReal) : ∀ K : ℕ,
    ∑ k ∈ Finset.range K, ∑ j : Fin B, f (k * B + j.val) = ∑ r ∈ Finset.range (K * B), f r
  | 0 => by simp
  | K + 1 => by
    rw [Finset.sum_range_succ, sum_blocks B f K, Nat.succ_mul, Finset.sum_range_add, Fin.sum_univ_eq_sum_range (fun j => f (K * B + j)) B]

/-- The shares of all 98 node blocks add up to the one-hot sum over all rows of the node array. -/
theorem blocks_total (c : Dev nD) (e : ℕ) (p : Fin 4096) (q : Fin 128) :
    ∑ k ∈ Finset.range 98, blockTerm V c e p q k
      = ∑ r : Fin 100352, oh (srcWord V c (e * 4096 + p.val)) r.val * featArr V c (ix2 r q) := by
  unfold blockTerm
  rw [sum_blocks 1024 (fun r => oh (srcWord V c (e * 4096 + p.val)) r * featRow V c r q) 98,
    ← Fin.sum_univ_eq_sum_range (fun r => oh (srcWord V c (e * 4096 + p.val)) r * featRow V c r q) (98 * 1024)]
  refine Finset.sum_congr rfl fun r _ => ?_
  unfold featRow
  rw [dif_pos r.isLt]

/-! ## From the blocks to the array -/

/-- THE GATHERED ARRAY: entry (j, d) is the one-hot sum, over all rows of the node array, of edge `j`'s source word. -/
def gathered (c : Dev nD) : S602112x128.Idx → EReal :=
  fun i => ∑ r : Fin 100352, oh (srcArr V c (ix2 0 (i 0))) r.val * featArr V c (ix2 r (i 1))

/-- It at the entry a block coordinate names. -/
theorem gathered_at (c : Dev nD) (i : S602112x128.Idx) (e : ℕ) (p : Fin 4096) (q : Fin 128)
    (h0 : (i 0).val = e * 4096 + p.val) (h1 : (i 1).val = q.val) :
    gathered V c i = ∑ r : Fin 100352, oh (srcWord V c (e * 4096 + p.val)) r.val * featArr V c (ix2 r q) := by
  have hlt : e * 4096 + p.val < 602112 := by have := idx2_lt0 i; omega
  have hi : i = ix2 (⟨e * 4096 + p.val, hlt⟩ : Fin 602112) q := by
    funext a
    match a with
    | ⟨0, _⟩ => exact Fin.ext h0
    | ⟨1, _⟩ => exact Fin.ext h1
  subst hi
  unfold gathered srcWord
  rw [dif_pos hlt]

/-- WHAT A STORING POINT WRITES BACK is its block of the gathered array. -/
theorem flushed_eq (c : Dev nD) (t : Fin cfg1.N) (hf : (cfg1.win 2).flush t = true) :
    (Reg1.dat V c).flushed 2 t = ((cfg1.win 2).blk t).view.read (Elt Ideal) (gathered V c) := by
  have h97 : t.val % 98 = 97 := (flush1_2 t).mp hf
  obtain ⟨e0, e1⟩ := index_out t
  show (cfg1.win 2).cut (grid1.coords t) ((Reg1.dat V c).after 2 t) = _
  rw [Reg1.after_out_eq]
  funext y
  rw [View.read_apply]
  have hy0 : (y 0).val < 4096 := (y 0).isLt
  have hy1 : (y 1).val < 128 := (y 1).isLt
  refine Eq.trans (b := Reg1.accAt V c t.val t.isLt (ix2 (⟨(y 0).val, hy0⟩ : Fin 4096) (⟨(y 1).val, hy1⟩ : Fin 128))) ?_ ?_
  · show Reg1.accAt V c t.val t.isLt ((cfg1.win 2).xinj (grid1.coords t) y) = _
    refine congrArg (Reg1.accAt V c t.val t.isLt) ?_
    funext a
    match a with
    | ⟨0, _⟩ => rfl
    | ⟨1, _⟩ => rfl
  · rw [accAt_apply V c _ _ t.val t.isLt, h97, blocks_total]
    rw [cast_eq]
    refine (gathered_at V c (((cfg1.win 2).blk t).view.emb y) (t.val / 98) ⟨(y 0).val, hy0⟩ ⟨(y 1).val, hy1⟩ ?_ ?_).symm
    · show win1_2.index t 0 * 4096 + 1 * (y 0).val = t.val / 98 * 4096 + (y 0).val
      rw [e0]; omega
    · show win1_2.index t 1 * 128 + 1 * (y 1).val = (y 1).val
      rw [e1]; omega

/-- An index of the output array is in point `t`'s block iff each coordinate is in the block's range on its axis. -/
theorem mem_outBlk (t : Fin cfg1.N) (i : S602112x128.Idx) :
    i ∈ ((cfg1.win 2).blk t).view.set
      ↔ ∀ a : Fin 2, win1_2.index t a * S4096x128.size a ≤ (i a).val ∧ (i a).val < win1_2.index t a * S4096x128.size a + S4096x128.size a := by
  show i ∈ ((View.whole (Pipeline.arrRef spec1 2)).slice (win1_2.rect t)).set ↔ _
  rw [View.set_slice_whole, Rect.mem_set_unit]
  exact Iff.rfl

/-- Every entry of the output array lies in the block of the last node block of its edge block, which is stored. -/
theorem covered (i : S602112x128.Idx) :
    ∃ t : Fin cfg1.N, (cfg1.win 2).flush t = true ∧ i ∈ ((cfg1.win 2).blk t).view.set := by
  have hN : cfg1.N = 14406 := N_1
  have hi0 := idx2_lt0 i
  have hi1 := idx2_lt1 i
  have htl : (i 0).val / 4096 * 98 + 97 < cfg1.N := by omega
  obtain ⟨e0, e1⟩ := index_out ⟨(i 0).val / 4096 * 98 + 97, htl⟩
  refine ⟨⟨(i 0).val / 4096 * 98 + 97, htl⟩, (flush1_2 _).mpr (by show ((i 0).val / 4096 * 98 + 97) % 98 = 97; omega), ?_⟩
  rw [mem_outBlk]
  intro a
  match a with
  | ⟨0, _⟩ =>
    show win1_2.index _ 0 * 4096 ≤ (i 0).val ∧ (i 0).val < win1_2.index _ 0 * 4096 + 4096
    rw [e0]
    show ((i 0).val / 4096 * 98 + 97) / 98 * 4096 ≤ (i 0).val ∧ (i 0).val < ((i 0).val / 4096 * 98 + 97) / 98 * 4096 + 4096
    omega
  | ⟨1, _⟩ =>
    show win1_2.index _ 1 * 128 ≤ (i 1).val ∧ (i 1).val < win1_2.index _ 1 * 128 + 128
    rw [e1]; omega

/-- THE ARRAY AFTER THE REGION: the output array ends holding the gathered array. -/
theorem final_arr (c : Dev nD) : (Reg1.dat V c).arrAt 2 cfg1.N = gathered V c :=
  (Reg1.dat V c).arrAt_eq_of_cover 2 (gathered V c) (flushed_eq V c) (covered)

/-- As rows: every edge's source row of the node array, picked by one-hot weights. -/
theorem final (c : Dev nD) :
    rows2 ((Reg1.dat (F := Ideal) V c).arrAt 2 cfg1.N)
      = gatherOH (fun j => srcArr V c (ix2 0 j)) (rows2 (featArr V c)) := by
  rw [final_arr]
  rfl

end Cert.KernelIdeal.Val1

end
-- ==== Proof.KI.Pay2.lean ====
/-
  The payloads of kernel region 2 read at one element, at the extended reals: the zero block; the accumulator's
  update — what it held plus the sum, over the edge block's 4096 edges, of the one-hot weight of the edge's
  destination id at the element's node row times the edge's gathered row —; and the output block — the dense layer
  on features plus aggregate, rectified, then the row normalized with gain and offset.
-/
import proofs.«423195_j8272107012813_1_alg».proof.Proof.Gen.KernelIdeal.Skeleton
import proofs.«423195_j8272107012813_1_alg».proof.Proof.LibPlainDot
import proofs.«423195_j8272107012813_1_alg».proof.Proof.Spec
import Idealize.ShloMosaic.Lib.Pipeline.Value
import Idealize.ShloMosaic.Lib.ValueLayout
import Idealize.ShloMosaic.Lib.ValueIdx

noncomputable section

open scoped BigOperators

namespace Cert.KernelIdeal.Pay2

open Cert.KernelIdeal Cert.KernelIdeal.Gen Cert.Spec
open Idealize.ShloMosaic Idealize.ShloMosaic.ValueIdx

/-! ## Index words -/

/-- A word made from a number below 2^31 reads back, signed, as that number. -/
theorem toInt_ofNat_small (n : ℕ) (h : n < 2 ^ 31) : (BitVec.ofNat 32 n).toInt = (n : ℤ) := by
  rw [BitVec.toInt_eq_toNat_cond, BitVec.toNat_ofNat]
  have : n % 2 ^ 32 = n := Nat.mod_eq_of_lt (by omega)
  rw [this]
  split <;> omega

/-- The row number the kernel compares an id against: node block `a` (below 98) times 1024 plus the row `p` within
    the block, computed in 32-bit words, is the word of that number. -/
theorem rowWord (a p : ℕ) (ha : a < 98) (hp : p < 1024) :
    IntOp.addi (Scalar.muli (BitVec.ofNat 32 a) 1024#32) (BitVec.ofNat 32 (0 * 1024 + p)) = BitVec.ofNat 32 (a * 1024 + p) := by
  apply BitVec.eq_of_toNat_eq
  simp only [IntOp.addi, Scalar.muli, IntOp.muli, BitVec.toNat_add, BitVec.toNat_mul, BitVec.toNat_ofNat]
  omega

/-- The one-hot entry as the kernel makes it — compare for equality, widen the bit, convert to a float — is the
    one-hot weight of the id at that row. -/
theorem onehot_entry (w : BitVec 32) (a p : ℕ) (ha : a < 98) (hp : p < 1024) :
    (FloatOps.sitofp (F := Ideal) .f32 ((IntOp.cmpi .eq w (IntOp.addi (Scalar.muli (BitVec.ofNat 32 a) 1024#32) (BitVec.ofNat 32 (0 * 1024 + p)))).setWidth 32) : EReal)
      = oh w (a * 1024 + p) := by
  rw [rowWord a p ha hp]
  unfold oh
  by_cases h : w = BitVec.ofNat 32 (a * 1024 + p)
  · subst h
    rw [if_pos (toInt_ofNat_small _ (by omega))]
    simp [IntOp.cmpi]
    show (((1#32 : BitVec 32).toInt : ℝ) : EReal) = 1
    rw [show (1#32 : BitVec 32).toInt = 1 from by decide]; simp
  · have hne : ¬w.toInt = ((a * 1024 + p : ℕ) : ℤ) := fun e => h (BitVec.eq_of_toInt_eq (by rw [e, toInt_ofNat_small _ (by omega)]))
    rw [if_neg hne]
    simp [IntOp.cmpi, h]
    rw [beq_false_of_ne h]
    show (((BitVec.setWidth 32 (BitVec.ofBool false)).toInt : ℝ) : EReal) = 0
    rw [show (BitVec.setWidth 32 (BitVec.ofBool false)).toInt = 0 from by decide]; simp

/-! ## The payloads at an element -/

theorem cmpi_at {s : Shape} {w : Nat} (pr : CmpIPredicate) (x y : IVec s w) (i : s.Idx) :
    cmpi pr x y i = IntOp.cmpi pr (x i) (y i) := rfl

/-- The zero block is zero everywhere. -/
theorem zero_apply (p : Fin 1024) (q : Fin 128) : k2_pay1 (F := Ideal) (ix2 p q) = 0 := by
  unfold k2_pay1
  simp only [shapeCast_self]
  exact Ideal.ofBits_zero_f32

/-- The accumulator's update at row `p`, feature `q`: what it held, plus over the block's 4096 edges the one-hot
    weight of the edge's destination id at node row `1024 n + p` times the edge's gathered feature. -/
theorem acc_apply (i : grid2.Coords) (xd : Vec Ideal S1x4096 .i32) (xt : Vec Ideal S4096x128 .bf16)
    (xs : Vec Ideal S1024x128 .f32) (p : Fin 1024) (q : Fin 128) :
    k2_pay2 i xd xt xs (ix2 p q)
      = xs (ix2 p q) + ∑ j : Fin 4096, oh (xd (ix2 0 j)) ((i 0).val * 1024 + p.val) * xt (ix2 j q) := by
  unfold k2_pay2
  simp only [shapeCast_self]
  rw [addf_apply]
  refine congrArg (xs (ix2 p q) + ·) ?_
  refine (PlainDot.matmul_zero_apply (φ₁ := .bf16) (φ₂ := .bf16) dot_S1024x4096_S4096x128_S1024x128_1_0_0_1_n_n rfl rfl rfl rfl rfl rfl none _ xt p q).trans ?_
  refine Finset.sum_congr rfl fun j _ => ?_
  refine congrArg (· * xt (ix2 j q)) ?_
  rw [truncf_apply, sitofp_apply, extui_apply, cmpi_at,
    broadcastTo_apply xd broadcasts_S1x4096_S1024x4096 (ix2 p j) (ix2 0 j)
      (fun a => by match a with | ⟨0, _⟩ => rfl | ⟨1, _⟩ => rfl),
    broadcastTo_apply _ broadcasts_S1024x1_S1024x4096 (ix2 p j) (ix2 p 0)
      (fun a => by match a with | ⟨0, _⟩ => rfl | ⟨1, _⟩ => rfl)]
  exact onehot_entry (xd (ix2 0 j)) (i 0).val p.val (i 0).isLt p.isLt

/-! ## The output block at an element -/

theorem rsqrt_at {s : Shape} (x : FVec Ideal s .f32) (i : s.Idx) : rsqrt x i = Ideal.rsqrt (x i) := rfl

/-- A row vector spread over the rows reads its own column; -/
theorem bcRow_apply (r : FVec Ideal S1x128 .f32) (p : Fin 1024) (q : Fin 128) :
    broadcastTo S1024x128 r broadcasts_S1x128_S1024x128 (ix2 p q) = r (ix2 0 q) :=
  broadcastTo_apply r broadcasts_S1x128_S1024x128 (ix2 p q) (ix2 0 q)
    (fun a => by match a with | ⟨0, _⟩ => rfl | ⟨1, _⟩ => rfl)

/-- a column vector spread over the columns reads its own row. -/
theorem bcCol_apply (cv : FVec Ideal S1024x1 .f32) (p : Fin 1024) (q : Fin 128) :
    broadcastTo S1024x128 cv broadcasts_S1024x1_S1024x128 (ix2 p q) = cv (ix2 p 0) :=
  broadcastTo_apply cv broadcasts_S1024x1_S1024x128 (ix2 p q) (ix2 p 0)
    (fun a => by match a with | ⟨0, _⟩ => rfl | ⟨1, _⟩ => rfl)

/-- A row's sum, kept as a column: the sum of the row's 128 entries. -/
theorem rowSum_apply (Z : FVec Ideal S1024x128 .f32) (hφ : FKind.Formats FTy.f32)
    (hacc : (0x00000000#32 : BitVec 32) = 0x00000000#32) (p : Fin 1024) :
    shapeCast S1024x1 (multiReduction .add [1] S1024 Z 0x00000000#32 reduces_S1024x128_S1024 hφ hacc) shapeCasts_S1024_S1024x1 (ix2 p 0)
      = ∑ k : Fin 128, Z (ix2 p k) := by
  refine (shapeCast_apply _ shapeCasts_S1024_S1024x1 (ix2 p 0) (ix1 p) ?_).trans ?_
  · rw [Shape.rowMajor_val_one, Shape.rowMajor_val_two]; simp
  refine (Ideal.multiReduction_add_single Z 0x00000000#32 reduces_S1024x128_S1024 hφ hacc (ix1 p)).trans ?_
  refine Finset.sum_congr rfl fun k _ => congrArg Z ?_
  exact funext fun c => Fin.ext (by match c with | ⟨0, _⟩ => rfl | ⟨1, _⟩ => rfl)

/-- The dense layer's product at an element. -/
theorem mm_apply (l : FVec Ideal S1024x128 .bf16) (r : FVec Ideal S128x128 .bf16) (p : Fin 1024) (q : Fin 128) :
    matmul dot_S1024x128_S128x128_S1024x128_1_0_0_1_n_n none l r (constant S1024x128 .f32 0x00000000#32) (ix2 p q)
      = ∑ k : Fin 128, l (ix2 p k) * r (ix2 k q) :=
  PlainDot.matmul_zero_apply (φ₁ := .bf16) (φ₂ := .bf16) dot_S1024x128_S128x128_S1024x128_1_0_0_1_n_n rfl rfl rfl rfl rfl rfl none l r p q

/-- The rectified dense layer on features plus aggregate, as the kernel computes it. -/
def act (xh xs : FVec Ideal S1024x128 .f32) (xw : FVec Ideal S128x128 .f32) (xb : FVec Ideal S1x128 .f32) : FVec Ideal S1024x128 .f32 :=
  maximumf (addf (matmul dot_S1024x128_S128x128_S1024x128_1_0_0_1_n_n none (truncf .bf16 (addf xh xs) bitsLt_bf16_f32)
      (truncf .bf16 xw bitsLt_bf16_f32) (constant S1024x128 .f32 0x00000000#32)) (broadcastTo S1024x128 xb broadcasts_S1x128_S1024x128))
    (broadcast S1024x128 (Scalar.ofBits .f32 0x00000000#32))

theorem act_apply (xh xs : FVec Ideal S1024x128 .f32) (xw : FVec Ideal S128x128 .f32) (xb : FVec Ideal S1x128 .f32)
    (p : Fin 1024) (q : Fin 128) :
    act xh xs xw xb (ix2 p q) = max ((∑ k : Fin 128, (xh (ix2 p k) + xs (ix2 p k)) * xw (ix2 k q)) + xb (ix2 0 q)) 0 := by
  unfold act
  simp only [maximumf_apply, addf_apply, truncf_apply, broadcast_apply, bcRow_apply, mm_apply]
  exact congrArg (max _) Ideal.ofBits_zero_f32

/-- The mean of each row, kept as a column, as the kernel computes it: the row's sum divided by 128. -/
def rowMean (Z : FVec Ideal S1024x128 .f32) : FVec Ideal S1024x1 .f32 :=
  divf (shapeCast S1024x1 (multiReduction .add [1] S1024 Z 0x00000000#32 reduces_S1024x128_S1024 (.inl rfl) rfl) shapeCasts_S1024_S1024x1)
    (broadcast S1024x1 (Scalar.ofBits .f32 0x43000000#32))

theorem rowMean_apply (Z : FVec Ideal S1024x128 .f32) (p : Fin 1024) :
    rowMean Z (ix2 p 0) = mean (fun k => Z (ix2 p k)) := by
  unfold rowMean mean
  rw [divf_apply, broadcast_apply]
  exact congrArg (Ideal.div · _) (rowSum_apply Z _ _ p)

/-- The normalization of the rows of `Y` with gain `g` and offset `l`, as the kernel computes it. -/
def normed (Y : FVec Ideal S1024x128 .f32) (g l : FVec Ideal S1x128 .f32) : FVec Ideal S1024x128 .f32 :=
  addf (mulf (mulf (subf Y (broadcastTo S1024x128 (rowMean Y) broadcasts_S1024x1_S1024x128))
        (broadcastTo S1024x128 (rsqrt (addf (rowMean (mulf (subf Y (broadcastTo S1024x128 (rowMean Y) broadcasts_S1024x1_S1024x128))
            (subf Y (broadcastTo S1024x128 (rowMean Y) broadcasts_S1024x1_S1024x128))))
          (broadcast S1024x1 (Scalar.ofBits .f32 0x3727C5AC#32)))) broadcasts_S1024x1_S1024x128))
      (broadcastTo S1024x128 g broadcasts_S1x128_S1024x128))
    (broadcastTo S1024x128 l broadcasts_S1x128_S1024x128)

theorem normed_apply (Y : FVec Ideal S1024x128 .f32) (g l : FVec Ideal S1x128 .f32) (p : Fin 1024) (q : Fin 128) :
    normed Y g l (ix2 p q) = ln (fun d => Y (ix2 p d)) (fun d => g (ix2 0 d)) (fun d => l (ix2 0 d)) q := by
  unfold normed ln
  simp only [addf_apply, mulf_apply, subf_apply, broadcast_apply, rsqrt_at, bcRow_apply, bcCol_apply, rowMean_apply]
  rfl

/-- The output block is the normalization of the rectified dense layer. -/
theorem out_eq (xh xs : Vec Ideal S1024x128 .f32) (xw : Vec Ideal S128x128 .f32) (xb xg xl : Vec Ideal S1x128 .f32) :
    k2_pay3 xh xs xw xb xg xl = normed (act xh xs xw xb) xg xl := by
  unfold k2_pay3
  simp only [shapeCast_self]
  rfl

/-- The output block at row `p`, feature `q`: the row of features plus aggregate through the dense layer and the
    rectifier, then normalized with gain and offset. -/
theorem out_apply (xh xs : Vec Ideal S1024x128 .f32) (xw : Vec Ideal S128x128 .f32) (xb xg xl : Vec Ideal S1x128 .f32)
    (p : Fin 1024) (q : Fin 128) :
    k2_pay3 xh xs xw xb xg xl (ix2 p q)
      = ln (fun d => max ((∑ k : Fin 128, (xh (ix2 p k) + xs (ix2 p k)) * xw (ix2 k d)) + xb (ix2 0 d)) 0)
          (fun d => xg (ix2 0 d)) (fun d => xl (ix2 0 d)) q := by
  rw [out_eq, normed_apply]
  simp only [act_apply]

end Cert.KernelIdeal.Pay2

end
-- ==== Proof.KI.Val2.lean ====
/-
  What kernel region 2 leaves in its result array, at the extended reals and at any contents `V` of the buffers when
  the region is entered: one round's node update — for every node, its features plus the messages added into it by
  one-hot weights over all edges, through the dense layer and the rectifier, the row then normalized.

  The accumulator after the point (node block n, edge block e) holds, for each row of the node block, the sum over
  edge blocks 0 … e of the block's one-hot-weighted gathered rows (induction over the points, the sum restarting where
  e = 0); after e = 146 that is the sum over all 602112 edges (147 blocks of 4096). The point (n, 146) computes the
  output block from it and is the one point that writes node block n's rows back; the 98 blocks tile the array.
-/
import proofs.«423195_j8272107012813_1_alg».proof.Proof.KI.Reg2
import proofs.«423195_j8272107012813_1_alg».proof.Proof.KI.Pay2
import proofs.«423195_j8272107012813_1_alg».proof.Proof.Args
import Idealize.ShloMosaic.Lib.Pipeline.Value

set_option maxRecDepth 16384

noncomputable section

namespace Cert.KernelIdeal.Val2

open Cert.KernelIdeal Cert.KernelIdeal.Gen Cert.KernelIdeal.Reg2 Cert.KernelIdeal.Pay2 Cert.Spec Cert.Args
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The arrays the region reads, at their literal types -/

/-- The destination ids of all edges, the gathered rows of all edges, the node features, and the layer's
    parameters, as the region finds them. -/
abbrev dstA (c : Dev nD) : S1x602112.Idx → BitVec 32 := V c (Pipeline.arrRef spec2 0)
abbrev tA (c : Dev nD) : S602112x128.Idx → EReal := V c (Pipeline.arrRef spec2 1)
abbrev hA (c : Dev nD) : S100352x128.Idx → EReal := V c (Pipeline.arrRef spec2 2)
abbrev wA (c : Dev nD) : S128x128.Idx → EReal := V c (Pipeline.arrRef spec2 3)
abbrev bA (c : Dev nD) : S1x128.Idx → EReal := V c (Pipeline.arrRef spec2 4)
abbrev gA (c : Dev nD) : S1x128.Idx → EReal := V c (Pipeline.arrRef spec2 5)
abbrev lA (c : Dev nD) : S1x128.Idx → EReal := V c (Pipeline.arrRef spec2 6)

/-! ## The grid and the index maps in closed form -/

theorem tlt (t : Fin cfg2.N) : t.val < 14406 := lt_of_lt_of_eq t.isLt N_2

/-- The node-block coordinate (axis 0) of point `t` is `t / 147`. -/
theorem coord_n (t : Fin cfg2.N) : ((grid2.coords t) 0).val = t.val / 147 := by
  show t.val / grid2.stride 0 % grid2.bound 0 = t.val / 147
  rw [show grid2.stride 0 = 147 from by decide]
  exact Nat.mod_eq_of_lt (by have := tlt t; show t.val / 147 < 98; omega)

/-- The ids' block index: (0, edge block). -/
theorem idxD (t : Fin cfg2.N) : win2_0.index t 0 = 0 ∧ win2_0.index t 1 = t.val % 147 := by
  refine ⟨rfl, ?_⟩
  show (BitVec.ofNat 32 ((grid2.coords t) 1).val).toNat = t.val % 147
  rw [BitVec.toNat_ofNat, coord_e]; exact Nat.mod_eq_of_lt (by omega)

/-- The gathered rows' block index: (edge block, 0). -/
theorem idxT (t : Fin cfg2.N) : win2_1.index t 0 = t.val % 147 ∧ win2_1.index t 1 = 0 := by
  refine ⟨?_, rfl⟩
  show (BitVec.ofNat 32 ((grid2.coords t) 1).val).toNat = t.val % 147
  rw [BitVec.toNat_ofNat, coord_e]; exact Nat.mod_eq_of_lt (by omega)

/-- The features' block index: (node block, 0). -/
theorem idxH (t : Fin cfg2.N) : win2_2.index t 0 = t.val / 147 ∧ win2_2.index t 1 = 0 := by
  refine ⟨?_, rfl⟩
  show (BitVec.ofNat 32 ((grid2.coords t) 0).val).toNat = t.val / 147
  rw [BitVec.toNat_ofNat, coord_n]; exact Nat.mod_eq_of_lt (by have := tlt t; omega)

/-- The output's block index: (node block, 0). -/
theorem idxO (t : Fin cfg2.N) : win2_7.index t 0 = t.val / 147 ∧ win2_7.index t 1 = 0 := by
  refine ⟨?_, rfl⟩
  show (BitVec.ofNat 32 ((grid2.coords t) 0).val).toNat = t.val / 147
  rw [BitVec.toNat_ofNat, coord_n]; exact Nat.mod_eq_of_lt (by have := tlt t; omega)

/-! ## The blocks as parts of the arrays -/

/-- Edge block `e`'s ids are entries `4096 e …` of the id array. -/
theorem dstB_apply (c : Dev nD) (t : Fin cfg2.N) (j : Fin 4096) (k : S1x602112.Idx)
    (hk0 : (k 0).val = 0) (hk1 : (k 1).val = t.val % 147 * 4096 + j.val) :
    dstB V c t (ix2 0 j) = dstA V c k := by
  obtain ⟨h0, h1⟩ := idxD t
  unfold dstB iblk
  rw [View.read_apply]
  show V c (Pipeline.arrRef spec2 0) _ = V c (Pipeline.arrRef spec2 0) _
  congr 1
  funext a
  apply Fin.ext
  match a with
  | ⟨0, _⟩ => show win2_0.index t 0 * 1 + 1 * ((ix2 (0 : Fin 1) j) 0).val = (k 0).val; rw [h0, hk0]; rfl
  | ⟨1, _⟩ => show win2_0.index t 1 * 4096 + 1 * ((ix2 (0 : Fin 1) j) 1).val = (k 1).val; rw [h1, hk1]; show _ + 1 * j.val = _; omega

/-- Edge block `e`'s gathered rows are rows `4096 e …` of the gathered array. -/
theorem tB_apply (c : Dev nD) (t : Fin cfg2.N) (j : Fin 4096) (q : Fin 128) (k : S602112x128.Idx)
    (hk0 : (k 0).val = t.val % 147 * 4096 + j.val) (hk1 : (k 1).val = q.val) :
    tB V c t (ix2 j q) = tA V c k := by
  obtain ⟨h0, h1⟩ := idxT t
  unfold tB iblk
  rw [View.read_apply]
  show V c (Pipeline.arrRef spec2 1) _ = V c (Pipeline.arrRef spec2 1) _
  congr 1
  funext a
  apply Fin.ext
  match a with
  | ⟨0, _⟩ => show win2_1.index t 0 * 4096 + 1 * ((ix2 j q) 0).val = (k 0).val; rw [h0, hk0]; show _ + 1 * j.val = _; omega
  | ⟨1, _⟩ => show win2_1.index t 1 * 128 + 1 * ((ix2 j q) 1).val = (k 1).val; rw [h1, hk1]; show _ + 1 * q.val = _; omega

/-- Node block `n`'s features are rows `1024 n …` of the feature array. -/
theorem hB_apply (c : Dev nD) (t : Fin cfg2.N) (p : Fin 1024) (q : Fin 128) (k : S100352x128.Idx)
    (hk0 : (k 0).val = t.val / 147 * 1024 + p.val) (hk1 : (k 1).val = q.val) :
    hB V c t (ix2 p q) = hA V c k := by
  obtain ⟨h0, h1⟩ := idxH t
  unfold hB iblk
  rw [View.read_apply]
  show V c (Pipeline.arrRef spec2 2) _ = V c (Pipeline.arrRef spec2 2) _
  congr 1
  funext a
  apply Fin.ext
  match a with
  | ⟨0, _⟩ => show win2_2.index t 0 * 1024 + 1 * ((ix2 p q) 0).val = (k 0).val; rw [h0, hk0]; show _ + 1 * p.val = _; omega
  | ⟨1, _⟩ => show win2_2.index t 1 * 128 + 1 * ((ix2 p q) 1).val = (k 1).val; rw [h1, hk1]; show _ + 1 * q.val = _; omega

/-- The parameters' blocks are the parameter arrays. -/
theorem wB_apply (c : Dev nD) (t : Fin cfg2.N) (k : Fin 128) (d : Fin 128) : wB V c t (ix2 k d) = wA V c (ix2 k d) := by
  unfold wB iblk
  rw [View.read_apply]
  show V c (Pipeline.arrRef spec2 3) _ = V c (Pipeline.arrRef spec2 3) _
  congr 1
  funext a
  apply Fin.ext
  match a with
  | ⟨0, _⟩ => show win2_3.index t 0 * 128 + 1 * ((ix2 k d) 0).val = ((ix2 k d) 0).val; rw [show win2_3.index t 0 = 0 from rfl]; omega
  | ⟨1, _⟩ => show win2_3.index t 1 * 128 + 1 * ((ix2 k d) 1).val = ((ix2 k d) 1).val; rw [show win2_3.index t 1 = 0 from rfl]; omega

theorem bB_apply (c : Dev nD) (t : Fin cfg2.N) (d : Fin 128) : bB V c t (ix2 0 d) = bA V c (ix2 0 d) := by
  unfold bB iblk
  rw [View.read_apply]
  show V c (Pipeline.arrRef spec2 4) _ = V c (Pipeline.arrRef spec2 4) _
  congr 1
  funext a
  apply Fin.ext
  match a with
  | ⟨0, _⟩ => show win2_4.index t 0 * 1 + 1 * ((ix2 (0 : Fin 1) d) 0).val = ((ix2 (0 : Fin 1) d) 0).val; rw [show win2_4.index t 0 = 0 from rfl]; omega
  | ⟨1, _⟩ => show win2_4.index t 1 * 128 + 1 * ((ix2 (0 : Fin 1) d) 1).val = ((ix2 (0 : Fin 1) d) 1).val; rw [show win2_4.index t 1 = 0 from rfl]; omega

theorem gB_apply (c : Dev nD) (t : Fin cfg2.N) (d : Fin 128) : gB V c t (ix2 0 d) = gA V c (ix2 0 d) := by
  unfold gB iblk
  rw [View.read_apply]
  show V c (Pipeline.arrRef spec2 5) _ = V c (Pipeline.arrRef spec2 5) _
  congr 1
  funext a
  apply Fin.ext
  match a with
  | ⟨0, _⟩ => show win2_5.index t 0 * 1 + 1 * ((ix2 (0 : Fin 1) d) 0).val = ((ix2 (0 : Fin 1) d) 0).val; rw [show win2_5.index t 0 = 0 from rfl]; omega
  | ⟨1, _⟩ => show win2_5.index t 1 * 128 + 1 * ((ix2 (0 : Fin 1) d) 1).val = ((ix2 (0 : Fin 1) d) 1).val; rw [show win2_5.index t 1 = 0 from rfl]; omega

theorem lB_apply (c : Dev nD) (t : Fin cfg2.N) (d : Fin 128) : lB V c t (ix2 0 d) = lA V c (ix2 0 d) := by
  unfold lB iblk
  rw [View.read_apply]
  show V c (Pipeline.arrRef spec2 6) _ = V c (Pipeline.arrRef spec2 6) _
  congr 1
  funext a
  apply Fin.ext
  match a with
  | ⟨0, _⟩ => show win2_6.index t 0 * 1 + 1 * ((ix2 (0 : Fin 1) d) 0).val = ((ix2 (0 : Fin 1) d) 0).val; rw [show win2_6.index t 0 = 0 from rfl]; omega
  | ⟨1, _⟩ => show win2_6.index t 1 * 128 + 1 * ((ix2 (0 : Fin 1) d) 1).val = ((ix2 (0 : Fin 1) d) 1).val; rw [show win2_6.index t 1 = 0 from rfl]; omega

/-! ## The accumulator as a partial sum over edge blocks -/

/-- Edge block `e`'s contribution to node row `r`, feature `q`: over the block's 4096 edges, the one-hot weight
    of the edge's destination id at `r` times the edge's gathered feature (nothing for `e` beyond the 147 blocks). -/
def blockSum (c : Dev nD) (r : ℕ) (q : Fin 128) (e : ℕ) : EReal :=
  if h : e < 147 then
    ∑ j : Fin 4096, oh (dstA V c (ix2 0 (⟨e * 4096 + j.val, by have := j.isLt; omega⟩ : Fin 602112))) r
      * tA V c (ix2 (⟨e * 4096 + j.val, by have := j.isLt; omega⟩ : Fin 602112) q)
  else 0

/-- What a point adds to the accumulator is its edge block's contribution to its node block's rows. -/
theorem block_term (c : Dev nD) (t : Fin cfg2.N) (p : Fin 1024) (q : Fin 128) :
    ∑ j : Fin 4096, oh (dstB V c t (ix2 0 j)) (((grid2.coords t) 0).val * 1024 + p.val) * tB V c t (ix2 j q)
      = blockSum V c (t.val / 147 * 1024 + p.val) q (t.val % 147) := by
  unfold blockSum
  rw [dif_pos (Nat.mod_lt _ (by norm_num)), coord_n]
  refine Finset.sum_congr rfl fun j _ => ?_
  have hlt : t.val % 147 * 4096 + j.val < 602112 := by have := j.isLt; omega
  rw [dstB_apply V c t j (ix2 0 ⟨t.val % 147 * 4096 + j.val, hlt⟩) rfl rfl,
    tB_apply V c t j q (ix2 ⟨t.val % 147 * 4096 + j.val, hlt⟩ q) rfl rfl]

/-- THE ACCUMULATOR after point `k` = (node block `k / 147`, edge block `k % 147`): the contributions of edge
    blocks `0 … k % 147` to the node block's rows, added in that order from zero. -/
theorem scr_sum (c : Dev nD) : ∀ (k : ℕ) (hk : k < cfg2.N) (p : Fin 1024) (q : Fin 128),
    scr V c k hk (ix2 p q) = ∑ e ∈ Finset.range (k % 147 + 1), blockSum V c (k / 147 * 1024 + p.val) q e := by
  intro k
  induction k with
  | zero =>
    intro hk p q
    refine (congrFun (scr_reset V c ⟨0, hk⟩ rfl) (ix2 p q)).trans ?_
    refine (acc_apply _ _ _ _ p q).trans ?_
    rw [zero_apply, zero_add, block_term V c ⟨0, hk⟩ p q]
    simp
  | succ n ih =>
    intro hk p q
    by_cases hr : (n + 1) % 147 = 0
    · refine (congrFun (scr_reset V c ⟨n + 1, hk⟩ hr) (ix2 p q)).trans ?_
      refine (acc_apply _ _ _ _ p q).trans ?_
      rw [zero_apply, zero_add, block_term V c ⟨n + 1, hk⟩ p q]
      show blockSum V c ((n + 1) / 147 * 1024 + p.val) q ((n + 1) % 147) = _
      rw [hr]; simp
    · refine (congrFun (scr_acc V c ⟨n + 1, hk⟩ hr) (ix2 p q)).trans ?_
      refine (acc_apply _ _ _ _ p q).trans ?_
      rw [block_term V c ⟨n + 1, hk⟩ p q]
      show scr V c n _ (ix2 p q) + blockSum V c ((n + 1) / 147 * 1024 + p.val) q ((n + 1) % 147) = _
      rw [ih (Nat.lt_of_succ_lt hk) p q, Finset.sum_range_succ _ ((n + 1) % 147),
        show n % 147 + 1 = (n + 1) % 147 from by omega, show n / 147 = (n + 1) / 147 from by omega]

/-- All 147 contributions are the sum over all edges. -/
theorem sum_blocks (c : Dev nD) (r : ℕ) (q : Fin 128) :
    ∑ e ∈ Finset.range 147, blockSum V c r q e
      = ∑ j : Fin 602112, oh (dstA V c (ix2 0 j)) r * tA V c (ix2 j q) := by
  rw [Finset.sum_range]
  refine Eq.symm ((Equiv.sum_comp (finProdFinEquiv : Fin 147 × Fin 4096 ≃ Fin 602112)
    (fun j => oh (dstA V c (ix2 0 j)) r * tA V c (ix2 j q))).symm.trans ?_)
  rw [Fintype.sum_prod_type]
  refine Finset.sum_congr rfl fun e _ => ?_
  unfold blockSum
  rw [dif_pos e.isLt]
  refine Finset.sum_congr rfl fun j _ => ?_
  have hj : (finProdFinEquiv (e, j) : Fin 602112) = ⟨e.val * 4096 + j.val, by have := e.isLt; have := j.isLt; omega⟩ :=
    Fin.ext (by show j.val + 4096 * e.val = e.val * 4096 + j.val; omega)
  rw [hj]

/-! ## The output block, and from blocks to the array -/

/-- Every node's incoming messages: over all edges, the one-hot weight of the edge's destination id at the node
    times the edge's gathered row. -/
def aggr (c : Dev nD) : Fin 100352 → Fin 128 → EReal :=
  scatterOH (fun j => dstA V c (ix2 0 j)) (rows2 (tA V c))

/-- What the region's result array ends holding: one round's node update from the features and the aggregated
    messages. -/
def G (c : Dev nD) : S100352x128.Idx → EReal := fun i =>
  mlpLn (rows2 (hA V c)) (aggr V c) (rows2 (wA V c)) (fun d => bA V c (ix2 0 d)) (fun d => gA V c (ix2 0 d))
    (fun d => lA V c (ix2 0 d)) (i 0) (i 1)

/-- After the last edge block the accumulator holds the node block's rows of the aggregated messages. -/
theorem scr_last (c : Dev nD) (t : Fin cfg2.N) (he : t.val % 147 = 146) (p : Fin 1024) (k : Fin 128)
    (r : Fin 100352) (hr : r.val = t.val / 147 * 1024 + p.val) :
    scr V c t.val t.isLt (ix2 p k) = aggr V c r k := by
  rw [scr_sum V c t.val t.isLt p k, he, sum_blocks V c _ k, ← hr]
  rfl

/-- The output block the last edge block's point stores is the node block's rows of `G`. -/
theorem outv_last (c : Dev nD) (t : Fin cfg2.N) (he : t.val % 147 = 146) (p : Fin 1024) (q : Fin 128)
    (i : S100352x128.Idx) (hi0 : (i 0).val = t.val / 147 * 1024 + p.val) (hi1 : (i 1).val = q.val) :
    outv V c t (ix2 p q) = G V c i := by
  have hq : i 1 = q := Fin.ext hi1
  unfold outv G
  rw [out_apply, hq]
  unfold mlpLn linRelu
  have eh : ∀ k : Fin 128, hB V c t (ix2 p k) = rows2 (hA V c) (i 0) k := fun k => hB_apply V c t p k _ hi0 rfl
  have es : ∀ k : Fin 128, scr V c t.val t.isLt (ix2 p k) = aggr V c (i 0) k := fun k => scr_last V c t he p k (i 0) hi0
  have ew : ∀ k d : Fin 128, wB V c t (ix2 k d) = rows2 (wA V c) k d := fun k d => wB_apply V c t k d
  have eb : ∀ d : Fin 128, bB V c t (ix2 0 d) = bA V c (ix2 0 d) := fun d => bB_apply V c t d
  have eg : ∀ d : Fin 128, gB V c t (ix2 0 d) = gA V c (ix2 0 d) := fun d => gB_apply V c t d
  have el : ∀ d : Fin 128, lB V c t (ix2 0 d) = lA V c (ix2 0 d) := fun d => lB_apply V c t d
  simp only [eh, es, ew, eb, eg, el]

/-- WHAT A POINT WRITES BACK is its block of `G`. -/
theorem flushed_eq (c : Dev nD) (t : Fin cfg2.N) (hf : (cfg2.win 7).flush t = true) :
    (dat V c).flushed 7 t = ((cfg2.win 7).blk t).view.read (Elt Ideal) (G V c) := by
  have he : t.val % 147 = 146 := (flush2_7 t).mp hf
  obtain ⟨h0, h1⟩ := idxO t
  show (cfg2.win 7).cut (grid2.coords t) ((dat V c).after 7 t) = _
  rw [after_out]
  funext y
  obtain ⟨p, q, rfl⟩ : ∃ (p : Fin 1024) (q : Fin 128), y = ix2 p q := ⟨y 0, y 1, eq_ix2 y⟩
  rw [View.read_apply]
  refine outv_last V c t he p q _ ?_ ?_
  · show win2_7.index t 0 * 1024 + 1 * ((ix2 p q) 0).val = _; rw [h0]; show _ + 1 * p.val = _; omega
  · show win2_7.index t 1 * 128 + 1 * ((ix2 p q) 1).val = _; rw [h1]; show _ + 1 * q.val = _; omega

/-- An index of the result array is in point `t`'s block iff each coordinate is in the block's range. -/
theorem mem_blk (t : Fin cfg2.N) (i : S100352x128.Idx) :
    i ∈ ((cfg2.win 7).blk t).view.set ↔ ∀ a : Fin 2, win2_7.index t a * S1024x128.size a ≤ (i a).val ∧ (i a).val < win2_7.index t a * S1024x128.size a + S1024x128.size a := by
  show i ∈ ((View.whole (Pipeline.arrRef spec2 7)).slice (win2_7.rect t)).set ↔ _
  rw [View.set_slice_whole, Rect.mem_set_unit]
  exact Iff.rfl

/-- Every row of the result array is in the block of its node block's last point. -/
theorem cover (i : S100352x128.Idx) : ∃ t : Fin cfg2.N, (cfg2.win 7).flush t = true ∧ i ∈ ((cfg2.win 7).blk t).view.set := by
  have hi0 : (i 0).val < 100352 := (i 0).isLt
  have hi1 : (i 1).val < 128 := (i 1).isLt
  have hN : cfg2.N = 14406 := N_2
  let t : Fin cfg2.N := ⟨(i 0).val / 1024 * 147 + 146, by rw [hN]; omega⟩
  have htv : t.val = (i 0).val / 1024 * 147 + 146 := rfl
  obtain ⟨h0, h1⟩ := idxO t
  refine ⟨t, (flush2_7 t).mpr (by rw [htv]; omega), ?_⟩
  rw [mem_blk]
  intro a
  match a with
  | ⟨0, _⟩ => show win2_7.index t 0 * 1024 ≤ (i 0).val ∧ (i 0).val < win2_7.index t 0 * 1024 + 1024; rw [h0, htv]; omega
  | ⟨1, _⟩ => show win2_7.index t 1 * 128 ≤ (i 1).val ∧ (i 1).val < win2_7.index t 1 * 128 + 128; rw [h1]; omega

/-- THE RESULT ARRAY after the region: one round's node update. -/
theorem arr_final (c : Dev nD) : (dat V c).arrAt 7 cfg2.N = G V c :=
  (dat V c).arrAt_eq_of_cover 7 (G V c) (flushed_eq V c) cover

theorem final (c : Dev nD) :
    rows2 ((dat (F := Ideal) V c).arrAt 7 cfg2.N)
      = mlpLn (rows2 (V c (Pipeline.arrRef spec2 2)))
          (scatterOH (fun j => V c (Pipeline.arrRef spec2 0) (ix2 0 j)) (rows2 (V c (Pipeline.arrRef spec2 1))))
          (rows2 (V c (Pipeline.arrRef spec2 3))) (fun d => V c (Pipeline.arrRef spec2 4) (ix2 0 d))
          (fun d => V c (Pipeline.arrRef spec2 5) (ix2 0 d)) (fun d => V c (Pipeline.arrRef spec2 6) (ix2 0 d)) := by
  rw [arr_final]
  rfl

end Cert.KernelIdeal.Val2

end
-- ==== Proof.KI.Val3.lean ====
/-
  The value of region 1: the array the gather leaves is, row by row, the one-hot sum over ALL rows of the node array
  of each edge's source word.

  One point's update of the accumulator, read at an element, adds the one-hot weights of the edge's source word
  against the 1024 rows of the point's node block (the comparison bit, widened and converted, is the weight; the
  matrix product into the zero accumulator is the plain sum; the format changes are the identity on the extended
  reals). By induction over the points of an edge block the accumulator after node block k is the sum of the shares of
  blocks 0..k; after the last one, all 98 blocks of 1024 rows, which is the sum over all 100352 rows. The point that
  holds this stores it, and its block of the output array is written back; these blocks cover the array.
-/
import proofs.«423195_j8272107012813_1_alg».proof.Proof.KI.Reg3
import proofs.«423195_j8272107012813_1_alg».proof.Proof.Spec
import proofs.«423195_j8272107012813_1_alg».proof.Proof.Args
import proofs.«423195_j8272107012813_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val3

open Cert.KernelIdeal Cert.KernelIdeal.Gen
open Idealize.ShloMosaic Idealize.ShloMosaic.TcCoe Idealize.ShloMosaic.ValueIdx Idealize.ShloMosaic.PlainDot
open Idealize.ShloMosaic.Pipeline (Dat)
open Cert.Spec Cert.Args

/-! ## One point's update, read at an element -/

/-- A word below 2^31 written as a 32-bit numeral reads back, signed, as itself. -/
theorem toInt_ofNat_small (r : ℕ) (hr : r < 2147483648) : (BitVec.ofNat 32 r).toInt = (r : ℤ) := by
  have hn : (BitVec.ofNat 32 r).toNat = r := by rw [BitVec.toNat_ofNat]; exact Nat.mod_eq_of_lt (by omega)
  rw [BitVec.toInt_eq_toNat_of_lt (by rw [hn]; omega), hn]

/-- The one-hot entry the kernel computes — the comparison bit of the source word against a row number, widened and
    converted — is the one-hot weight of the word at that row. -/
theorem oneHot_entry (w : BitVec 32) (r : ℕ) (hr : r < 2147483648) :
    ((((IntOp.cmpi .eq w (BitVec.ofNat 32 r)).setWidth 32).toInt : ℝ) : EReal) = oh w r := by
  have hb := toInt_ofNat_small r hr
  unfold oh IntOp.cmpi
  by_cases h : w = BitVec.ofNat 32 r
  · subst h
    rw [if_pos hb, show (BitVec.ofNat 32 r == BitVec.ofNat 32 r) = true from beq_self_eq_true _,
      show ((BitVec.ofBool true).setWidth 32).toInt = 1 from by decide]
    simp
  · have hne : ¬w.toInt = (r : ℤ) := fun e => h (BitVec.eq_of_toInt_eq (e.trans hb.symm))
    rw [if_neg hne, show (w == BitVec.ofNat 32 r) = false from beq_eq_false_iff_ne.mpr h,
      show ((BitVec.ofBool false).setWidth 32).toInt = 0 from by decide]
    simp

/-- The row number the kernel compares against: node block `a`, row `k` of the block. -/
theorem rowWord (a k : ℕ) :
    IntOp.addi (Scalar.muli (BitVec.ofNat 32 a) 1024#32) (BitVec.ofNat 32 k) = BitVec.ofNat 32 (a * 1024 + k) := by
  unfold IntOp.addi Scalar.muli IntOp.muli
  rw [BitVec.ofNat_add, BitVec.ofNat_mul]

theorem accStep_apply (i : grid3.Coords) (xs : Vec Ideal S1x4096 .i32) (xh : Vec Ideal S1024x128 .f32)
    (xa : Vec Ideal S4096x128 .f32) (p : Fin 4096) (q : Fin 128) :
    k3_pay2 i xs xh xa (ix2 p q)
      = xa (ix2 p q) + ∑ k : Fin 1024, oh (xs (ix2 0 p)) ((i 1).val * 1024 + k.val) * xh (ix2 k q) := by
  unfold k3_pay2
  simp only [shapeCast_self]
  rw [addf_apply]
  refine congrArg (xa (ix2 p q) + ·) ?_
  refine (matmul_zero_apply (M := 4096) (K := 1024) (N := 128) dot_S4096x1024_S1024x128_S4096x128_1_0_0_1_n_n
    rfl rfl rfl rfl rfl rfl none _ _ p q).trans ?_
  refine Finset.sum_congr rfl fun k _ => ?_
  rw [truncf_apply]
  refine congrArg (· * xh (ix2 k q)) ?_
  rw [transpose_apply [1, 0] _ transposes_S1024x4096_p1_0_S4096x1024 (ix2 p k) (ix2 k p)
    (by intro b; match b with | ⟨0, _⟩ => rfl | ⟨1, _⟩ => rfl)]
  rw [truncf_apply, sitofp_apply, extui_apply]
  rw [show ∀ (A B : IVec S1024x4096 32) (j : S1024x4096.Idx), cmpi CmpIPredicate.eq A B j = IntOp.cmpi .eq (A j) (B j) from
    fun _ _ _ => rfl]
  rw [broadcastTo_apply xs broadcasts_S1x4096_S1024x4096 (ix2 k p) (ix2 0 p)
      (by intro a; match a with | ⟨0, _⟩ => rfl | ⟨1, _⟩ => rfl),
    broadcastTo_apply _ broadcasts_S1024x1_S1024x4096 (ix2 k p) (ix2 k 0)
      (by intro a; match a with | ⟨0, _⟩ => rfl | ⟨1, _⟩ => rfl)]
  rw [show ∀ (A B : IVec S1024x1 32) (j : S1024x1.Idx), addi A B j = IntOp.addi (A j) (B j) from fun _ _ _ => rfl,
    broadcast_apply, iota_single_apply, rowWord]
  have hlt : (i 1).val < 98 := (i 1).isLt
  have hk : k.val < 1024 := k.isLt
  exact oneHot_entry (xs (ix2 0 p)) ((i 1).val * 1024 + k.val) (by omega)

/-- The zero accumulator, read at an element. -/
theorem accZero_apply (j : S4096x128.Idx) : Reg3.accZero (F := Ideal) j = 0 := by
  unfold Reg3.accZero k3_pay1
  simp only [shapeCast_self]
  exact Ideal.ofBits_zero_f32

/-- Rounding to the output's format is the identity on the extended reals. -/
theorem round_apply (x : Vec Ideal S4096x128 .f32) (j : S4096x128.Idx) : k3_pay3 x j = x j := rfl

/-! ## The arrays and their blocks -/

variable (V : (c : Dev nD) → (b : Ref sig .tc) → Buf (Elt Ideal) ((c : Thread nD τ).loc b))

/-- The array of source ids (one row of padded length) and the array of node rows, as the region finds them. -/
abbrev srcArr (c : Dev nD) : S1x602112.Idx → BitVec 32 := V c (Pipeline.arrRef spec3 0)
abbrev featArr (c : Dev nD) : S100352x128.Idx → EReal := V c (Pipeline.arrRef spec3 1)

/-- The edge-block coordinate of point `t` is `t / 98`. -/
theorem edgeCoord (t : Fin cfg3.N) : (grid3.coords t 0).val = t.val / 98 := by
  have hN : cfg3.N = 14406 := N_3
  have ht := t.isLt
  show t.val / 98 % 147 = t.val / 98
  exact Nat.mod_eq_of_lt (by omega)

/-- A small number written as a 32-bit word and read back unsigned is itself. -/
theorem toNat_ofNat_small (n : ℕ) (h : n < 4294967296) : (BitVec.ofNat 32 n).toNat = n := by
  rw [BitVec.toNat_ofNat]; exact Nat.mod_eq_of_lt h

/-- The block indices of the three windows at point `t`: the source ids' block is the edge block, the node rows'
    block the node block, the output's block the edge block. -/
theorem index_src (t : Fin cfg3.N) : win3_0.index t 0 = 0 ∧ win3_0.index t 1 = t.val / 98 := by
  have h := edgeCoord t
  refine ⟨rfl, ?_⟩
  show (BitVec.ofNat 32 (grid3.coords t 0).val).toNat = _
  rw [h, toNat_ofNat_small _ (by have := t.isLt; have : cfg3.N = 14406 := N_3; omega)]

theorem index_feat (t : Fin cfg3.N) : win3_1.index t 0 = t.val % 98 ∧ win3_1.index t 1 = 0 := by
  have h := Reg3.nodeCoord t
  refine ⟨?_, rfl⟩
  show (BitVec.ofNat 32 (grid3.coords t 1).val).toNat = _
  rw [h, toNat_ofNat_small _ (by omega)]

theorem index_out (t : Fin cfg3.N) : win3_2.index t 0 = t.val / 98 ∧ win3_2.index t 1 = 0 := by
  have h := edgeCoord t
  refine ⟨?_, rfl⟩
  show (BitVec.ofNat 32 (grid3.coords t 0).val).toNat = _
  rw [h, toNat_ofNat_small _ (by have := t.isLt; have : cfg3.N = 14406 := N_3; omega)]

/-- The source-id block at point `t` is entries `4096 (t / 98) …` of the array. -/
theorem srcBlk_apply (c : Dev nD) (t : Fin cfg3.N) (p : Fin 4096) (j : Fin 602112) (hj : j.val = t.val / 98 * 4096 + p.val) :
    Reg3.srcBlk V c t (ix2 0 p) = srcArr V c (ix2 0 j) := by
  obtain ⟨h0, h1⟩ := index_src t
  unfold Reg3.srcBlk Reg3.iblk
  rw [View.read_apply]
  show V c (Pipeline.arrRef spec3 0) _ = V c (Pipeline.arrRef spec3 0) _
  congr 1
  funext a
  apply Fin.ext
  match a with
  | ⟨0, _⟩ => show win3_0.index t 0 * 1 + 1 * 0 = 0; rw [h0]
  | ⟨1, _⟩ => show win3_0.index t 1 * 4096 + 1 * p.val = j.val; rw [h1, hj]; omega

/-- The node-row block at point `t` is rows `1024 (t mod 98) …` of the array. -/
theorem featBlk_apply (c : Dev nD) (t : Fin cfg3.N) (k : Fin 1024) (q : Fin 128) (r : Fin 100352) (hr : r.val = t.val % 98 * 1024 + k.val) :
    Reg3.featBlk V c t (ix2 k q) = featArr V c (ix2 r q) := by
  obtain ⟨h0, h1⟩ := index_feat t
  unfold Reg3.featBlk Reg3.iblk
  rw [View.read_apply]
  show V c (Pipeline.arrRef spec3 1) _ = V c (Pipeline.arrRef spec3 1) _
  congr 1
  funext a
  apply Fin.ext
  match a with
  | ⟨0, _⟩ => show win3_1.index t 0 * 1024 + 1 * k.val = r.val; rw [h0, hr]; omega
  | ⟨1, _⟩ => show win3_1.index t 1 * 128 + 1 * q.val = q.val; rw [h1]; omega

/-! ## The accumulator after a point, read at an element

Past the padded arrays' ends nothing is ever read; the total forms below spare every index its bound. -/

/-- Entry `j` of the source ids (zero past the end). -/
def srcWord (c : Dev nD) (j : ℕ) : BitVec 32 := if h : j < 602112 then srcArr V c (ix2 0 ⟨j, h⟩) else 0

/-- Row `r` of the node features at feature `q` (zero past the end). -/
def featRow (c : Dev nD) (r : ℕ) (q : Fin 128) : EReal := if h : r < 100352 then featArr V c (ix2 ⟨r, h⟩ q) else 0

/-- Node block `k`'s share of the gathered row for edge `4096 e + p`: the one-hot weights of the edge's source word
    against the block's 1024 rows. -/
def blockTerm (c : Dev nD) (e : ℕ) (p : Fin 4096) (q : Fin 128) (k : ℕ) : EReal :=
  ∑ j : Fin 1024, oh (srcWord V c (e * 4096 + p.val)) (k * 1024 + j.val) * featRow V c (k * 1024 + j.val) q

/-- One point's update adds the point's node block's share. -/
theorem step_apply (c : Dev nD) (t : Fin cfg3.N) (xa : Vec Ideal S4096x128 .f32) (p : Fin 4096) (q : Fin 128) :
    Reg3.accStep (grid3.coords t) (Reg3.srcBlk V c t) (Reg3.featBlk V c t) xa (ix2 p q)
      = xa (ix2 p q) + blockTerm V c (t.val / 98) p q (t.val % 98) := by
  have hN : cfg3.N = 14406 := N_3
  have ht := t.isLt
  have hp := p.isLt
  refine (accStep_apply (grid3.coords t) (Reg3.srcBlk V c t) (Reg3.featBlk V c t) xa p q).trans ?_
  refine congrArg (xa (ix2 p q) + ·) ?_
  unfold blockTerm
  refine Finset.sum_congr rfl fun k _ => ?_
  have hk := k.isLt
  rw [Reg3.nodeCoord t,
    srcBlk_apply V c t p ⟨t.val / 98 * 4096 + p.val, by omega⟩ rfl,
    featBlk_apply V c t k q ⟨t.val % 98 * 1024 + k.val, by omega⟩ rfl]
  unfold srcWord featRow
  rw [dif_pos (by omega), dif_pos (by omega)]

/-- THE FOLD. After point `n` — node block `n mod 98` of edge block `n / 98` — the accumulator holds the shares of the
    node blocks up to that one. -/
theorem accAt_apply (c : Dev nD) (p : Fin 4096) (q : Fin 128) : ∀ (n : ℕ) (hn : n < cfg3.N),
    Reg3.accAt V c n hn (ix2 p q) = ∑ k ∈ Finset.range (n % 98 + 1), blockTerm V c (n / 98) p q k := by
  intro n
  induction n with
  | zero =>
    intro hn
    refine (congrFun (Reg3.accAt_reset V c ⟨0, hn⟩ rfl) (ix2 p q)).trans ?_
    rw [step_apply V c ⟨0, hn⟩ _ p q, accZero_apply, zero_add]
    show blockTerm V c (0 / 98) p q (0 % 98) = _
    rw [Finset.sum_range_one]
  | succ n ih =>
    intro hn
    by_cases h : (n + 1) % 98 = 0
    · refine (congrFun (Reg3.accAt_reset V c ⟨n + 1, hn⟩ h) (ix2 p q)).trans ?_
      rw [step_apply V c ⟨n + 1, hn⟩ _ p q, accZero_apply, zero_add]
      show blockTerm V c ((n + 1) / 98) p q ((n + 1) % 98) = _
      rw [h, Finset.sum_range_one]
    · refine (congrFun (Reg3.accAt_step V c ⟨n + 1, hn⟩ h) (ix2 p q)).trans ?_
      rw [step_apply V c ⟨n + 1, hn⟩ _ p q]
      show Reg3.accAt V c n _ (ix2 p q) + blockTerm V c ((n + 1) / 98) p q ((n + 1) % 98) = _
      rw [ih (Nat.lt_of_succ_lt hn)]
      have e1 : (n + 1) % 98 = n % 98 + 1 := by omega
      have e2 : (n + 1) / 98 = n / 98 := by omega
      rw [e1, e2, Finset.sum_range_succ _ (n % 98 + 1)]

/-! ## All node blocks together: the sum over every row -/

/-- A sum over `K` blocks of `B` consecutive numbers each is the sum over the first `K B` numbers. -/
theorem sum_blocks (B : ℕ) (f : ℕ → EReal) : ∀ K : ℕ,
    ∑ k ∈ Finset.range K, ∑ j : Fin B, f (k * B + j.val) = ∑ r ∈ Finset.range (K * B), f r
  | 0 => by simp
  | K + 1 => by
    rw [Finset.sum_range_succ, sum_blocks B f K, Nat.succ_mul, Finset.sum_range_add, Fin.sum_univ_eq_sum_range (fun j => f (K * B + j)) B]

/-- The shares of all 98 node blocks add up to the one-hot sum over all rows of the node array. -/
theorem blocks_total (c : Dev nD) (e : ℕ) (p : Fin 4096) (q : Fin 128) :
    ∑ k ∈ Finset.range 98, blockTerm V c e p q k
      = ∑ r : Fin 100352, oh (srcWord V c (e * 4096 + p.val)) r.val * featArr V c (ix2 r q) := by
  unfold blockTerm
  rw [sum_blocks 1024 (fun r => oh (srcWord V c (e * 4096 + p.val)) r * featRow V c r q) 98,
    ← Fin.sum_univ_eq_sum_range (fun r => oh (srcWord V c (e * 4096 + p.val)) r * featRow V c r q) (98 * 1024)]
  refine Finset.sum_congr rfl fun r _ => ?_
  unfold featRow
  rw [dif_pos r.isLt]

/-! ## From the blocks to the array -/

/-- THE GATHERED ARRAY: entry (j, d) is the one-hot sum, over all rows of the node array, of edge `j`'s source word. -/
def gathered (c : Dev nD) : S602112x128.Idx → EReal :=
  fun i => ∑ r : Fin 100352, oh (srcArr V c (ix2 0 (i 0))) r.val * featArr V c (ix2 r (i 1))

/-- It at the entry a block coordinate names. -/
theorem gathered_at (c : Dev nD) (i : S602112x128.Idx) (e : ℕ) (p : Fin 4096) (q : Fin 128)
    (h0 : (i 0).val = e * 4096 + p.val) (h1 : (i 1).val = q.val) :
    gathered V c i = ∑ r : Fin 100352, oh (srcWord V c (e * 4096 + p.val)) r.val * featArr V c (ix2 r q) := by
  have hlt : e * 4096 + p.val < 602112 := by have := idx2_lt0 i; omega
  have hi : i = ix2 (⟨e * 4096 + p.val, hlt⟩ : Fin 602112) q := by
    funext a
    match a with
    | ⟨0, _⟩ => exact Fin.ext h0
    | ⟨1, _⟩ => exact Fin.ext h1
  subst hi
  unfold gathered srcWord
  rw [dif_pos hlt]

/-- WHAT A STORING POINT WRITES BACK is its block of the gathered array. -/
theorem flushed_eq (c : Dev nD) (t : Fin cfg3.N) (hf : (cfg3.win 2).flush t = true) :
    (Reg3.dat V c).flushed 2 t = ((cfg3.win 2).blk t).view.read (Elt Ideal) (gathered V c) := by
  have h97 : t.val % 98 = 97 := (flush3_2 t).mp hf
  obtain ⟨e0, e1⟩ := index_out t
  show (cfg3.win 2).cut (grid3.coords t) ((Reg3.dat V c).after 2 t) = _
  rw [Reg3.after_out_eq]
  funext y
  rw [View.read_apply]
  have hy0 : (y 0).val < 4096 := (y 0).isLt
  have hy1 : (y 1).val < 128 := (y 1).isLt
  refine Eq.trans (b := Reg3.accAt V c t.val t.isLt (ix2 (⟨(y 0).val, hy0⟩ : Fin 4096) (⟨(y 1).val, hy1⟩ : Fin 128))) ?_ ?_
  · show Reg3.accAt V c t.val t.isLt ((cfg3.win 2).xinj (grid3.coords t) y) = _
    refine congrArg (Reg3.accAt V c t.val t.isLt) ?_
    funext a
    match a with
    | ⟨0, _⟩ => rfl
    | ⟨1, _⟩ => rfl
  · rw [accAt_apply V c _ _ t.val t.isLt, h97, blocks_total]
    rw [cast_eq]
    refine (gathered_at V c (((cfg3.win 2).blk t).view.emb y) (t.val / 98) ⟨(y 0).val, hy0⟩ ⟨(y 1).val, hy1⟩ ?_ ?_).symm
    · show win3_2.index t 0 * 4096 + 1 * (y 0).val = t.val / 98 * 4096 + (y 0).val
      rw [e0]; omega
    · show win3_2.index t 1 * 128 + 1 * (y 1).val = (y 1).val
      rw [e1]; omega

/-- An index of the output array is in point `t`'s block iff each coordinate is in the block's range on its axis. -/
theorem mem_outBlk (t : Fin cfg3.N) (i : S602112x128.Idx) :
    i ∈ ((cfg3.win 2).blk t).view.set
      ↔ ∀ a : Fin 2, win3_2.index t a * S4096x128.size a ≤ (i a).val ∧ (i a).val < win3_2.index t a * S4096x128.size a + S4096x128.size a := by
  show i ∈ ((View.whole (Pipeline.arrRef spec3 2)).slice (win3_2.rect t)).set ↔ _
  rw [View.set_slice_whole, Rect.mem_set_unit]
  exact Iff.rfl

/-- Every entry of the output array lies in the block of the last node block of its edge block, which is stored. -/
theorem covered (i : S602112x128.Idx) :
    ∃ t : Fin cfg3.N, (cfg3.win 2).flush t = true ∧ i ∈ ((cfg3.win 2).blk t).view.set := by
  have hN : cfg3.N = 14406 := N_3
  have hi0 := idx2_lt0 i
  have hi1 := idx2_lt1 i
  have htl : (i 0).val / 4096 * 98 + 97 < cfg3.N := by omega
  obtain ⟨e0, e1⟩ := index_out ⟨(i 0).val / 4096 * 98 + 97, htl⟩
  refine ⟨⟨(i 0).val / 4096 * 98 + 97, htl⟩, (flush3_2 _).mpr (by show ((i 0).val / 4096 * 98 + 97) % 98 = 97; omega), ?_⟩
  rw [mem_outBlk]
  intro a
  match a with
  | ⟨0, _⟩ =>
    show win3_2.index _ 0 * 4096 ≤ (i 0).val ∧ (i 0).val < win3_2.index _ 0 * 4096 + 4096
    rw [e0]
    show ((i 0).val / 4096 * 98 + 97) / 98 * 4096 ≤ (i 0).val ∧ (i 0).val < ((i 0).val / 4096 * 98 + 97) / 98 * 4096 + 4096
    omega
  | ⟨1, _⟩ =>
    show win3_2.index _ 1 * 128 ≤ (i 1).val ∧ (i 1).val < win3_2.index _ 1 * 128 + 128
    rw [e1]; omega

/-- THE ARRAY AFTER THE REGION: the output array ends holding the gathered array. -/
theorem final_arr (c : Dev nD) : (Reg3.dat V c).arrAt 2 cfg3.N = gathered V c :=
  (Reg3.dat V c).arrAt_eq_of_cover 2 (gathered V c) (flushed_eq V c) (covered)

/-- As rows: every edge's source row of the node array, picked by one-hot weights. -/
theorem final (c : Dev nD) :
    rows2 ((Reg3.dat (F := Ideal) V c).arrAt 2 cfg3.N)
      = gatherOH (fun j => srcArr V c (ix2 0 j)) (rows2 (featArr V c)) := by
  rw [final_arr]
  rfl

end Cert.KernelIdeal.Val3

end
-- ==== Proof.KI.Pay4.lean ====
/-
  The payloads of kernel region 2 read at one element, at the extended reals: the zero block; the accumulator's
  update — what it held plus the sum, over the edge block's 4096 edges, of the one-hot weight of the edge's
  destination id at the element's node row times the edge's gathered row —; and the output block — the dense layer
  on features plus aggregate, rectified, then the row normalized with gain and offset.
-/
import proofs.«423195_j8272107012813_1_alg».proof.Proof.Gen.KernelIdeal.Skeleton
import proofs.«423195_j8272107012813_1_alg».proof.Proof.LibPlainDot
import proofs.«423195_j8272107012813_1_alg».proof.Proof.Spec
import Idealize.ShloMosaic.Lib.Pipeline.Value
import Idealize.ShloMosaic.Lib.ValueLayout
import Idealize.ShloMosaic.Lib.ValueIdx

noncomputable section

open scoped BigOperators

namespace Cert.KernelIdeal.Pay4

open Cert.KernelIdeal Cert.KernelIdeal.Gen Cert.Spec
open Idealize.ShloMosaic Idealize.ShloMosaic.ValueIdx

/-! ## Index words -/

/-- A word made from a number below 2^31 reads back, signed, as that number. -/
theorem toInt_ofNat_small (n : ℕ) (h : n < 2 ^ 31) : (BitVec.ofNat 32 n).toInt = (n : ℤ) := by
  rw [BitVec.toInt_eq_toNat_cond, BitVec.toNat_ofNat]
  have : n % 2 ^ 32 = n := Nat.mod_eq_of_lt (by omega)
  rw [this]
  split <;> omega

/-- The row number the kernel compares an id against: node block `a` (below 98) times 1024 plus the row `p` within
    the block, computed in 32-bit words, is the word of that number. -/
theorem rowWord (a p : ℕ) (ha : a < 98) (hp : p < 1024) :
    IntOp.addi (Scalar.muli (BitVec.ofNat 32 a) 1024#32) (BitVec.ofNat 32 (0 * 1024 + p)) = BitVec.ofNat 32 (a * 1024 + p) := by
  apply BitVec.eq_of_toNat_eq
  simp only [IntOp.addi, Scalar.muli, IntOp.muli, BitVec.toNat_add, BitVec.toNat_mul, BitVec.toNat_ofNat]
  omega

/-- The one-hot entry as the kernel makes it — compare for equality, widen the bit, convert to a float — is the
    one-hot weight of the id at that row. -/
theorem onehot_entry (w : BitVec 32) (a p : ℕ) (ha : a < 98) (hp : p < 1024) :
    (FloatOps.sitofp (F := Ideal) .f32 ((IntOp.cmpi .eq w (IntOp.addi (Scalar.muli (BitVec.ofNat 32 a) 1024#32) (BitVec.ofNat 32 (0 * 1024 + p)))).setWidth 32) : EReal)
      = oh w (a * 1024 + p) := by
  rw [rowWord a p ha hp]
  unfold oh
  by_cases h : w = BitVec.ofNat 32 (a * 1024 + p)
  · subst h
    rw [if_pos (toInt_ofNat_small _ (by omega))]
    simp [IntOp.cmpi]
    show (((1#32 : BitVec 32).toInt : ℝ) : EReal) = 1
    rw [show (1#32 : BitVec 32).toInt = 1 from by decide]; simp
  · have hne : ¬w.toInt = ((a * 1024 + p : ℕ) : ℤ) := fun e => h (BitVec.eq_of_toInt_eq (by rw [e, toInt_ofNat_small _ (by omega)]))
    rw [if_neg hne]
    simp [IntOp.cmpi, h]
    rw [beq_false_of_ne h]
    show (((BitVec.setWidth 32 (BitVec.ofBool false)).toInt : ℝ) : EReal) = 0
    rw [show (BitVec.setWidth 32 (BitVec.ofBool false)).toInt = 0 from by decide]; simp

/-! ## The payloads at an element -/

theorem cmpi_at {s : Shape} {w : Nat} (pr : CmpIPredicate) (x y : IVec s w) (i : s.Idx) :
    cmpi pr x y i = IntOp.cmpi pr (x i) (y i) := rfl

/-- The zero block is zero everywhere. -/
theorem zero_apply (p : Fin 1024) (q : Fin 128) : k4_pay1 (F := Ideal) (ix2 p q) = 0 := by
  unfold k4_pay1
  simp only [shapeCast_self]
  exact Ideal.ofBits_zero_f32

/-- The accumulator's update at row `p`, feature `q`: what it held, plus over the block's 4096 edges the one-hot
    weight of the edge's destination id at node row `1024 n + p` times the edge's gathered feature. -/
theorem acc_apply (i : grid4.Coords) (xd : Vec Ideal S1x4096 .i32) (xt : Vec Ideal S4096x128 .bf16)
    (xs : Vec Ideal S1024x128 .f32) (p : Fin 1024) (q : Fin 128) :
    k4_pay2 i xd xt xs (ix2 p q)
      = xs (ix2 p q) + ∑ j : Fin 4096, oh (xd (ix2 0 j)) ((i 0).val * 1024 + p.val) * xt (ix2 j q) := by
  unfold k4_pay2
  simp only [shapeCast_self]
  rw [addf_apply]
  refine congrArg (xs (ix2 p q) + ·) ?_
  refine (PlainDot.matmul_zero_apply (φ₁ := .bf16) (φ₂ := .bf16) dot_S1024x4096_S4096x128_S1024x128_1_0_0_1_n_n rfl rfl rfl rfl rfl rfl none _ xt p q).trans ?_
  refine Finset.sum_congr rfl fun j _ => ?_
  refine congrArg (· * xt (ix2 j q)) ?_
  rw [truncf_apply, sitofp_apply, extui_apply, cmpi_at,
    broadcastTo_apply xd broadcasts_S1x4096_S1024x4096 (ix2 p j) (ix2 0 j)
      (fun a => by match a with | ⟨0, _⟩ => rfl | ⟨1, _⟩ => rfl),
    broadcastTo_apply _ broadcasts_S1024x1_S1024x4096 (ix2 p j) (ix2 p 0)
      (fun a => by match a with | ⟨0, _⟩ => rfl | ⟨1, _⟩ => rfl)]
  exact onehot_entry (xd (ix2 0 j)) (i 0).val p.val (i 0).isLt p.isLt

/-! ## The output block at an element -/

theorem rsqrt_at {s : Shape} (x : FVec Ideal s .f32) (i : s.Idx) : rsqrt x i = Ideal.rsqrt (x i) := rfl

/-- A row vector spread over the rows reads its own column; -/
theorem bcRow_apply (r : FVec Ideal S1x128 .f32) (p : Fin 1024) (q : Fin 128) :
    broadcastTo S1024x128 r broadcasts_S1x128_S1024x128 (ix2 p q) = r (ix2 0 q) :=
  broadcastTo_apply r broadcasts_S1x128_S1024x128 (ix2 p q) (ix2 0 q)
    (fun a => by match a with | ⟨0, _⟩ => rfl | ⟨1, _⟩ => rfl)

/-- a column vector spread over the columns reads its own row. -/
theorem bcCol_apply (cv : FVec Ideal S1024x1 .f32) (p : Fin 1024) (q : Fin 128) :
    broadcastTo S1024x128 cv broadcasts_S1024x1_S1024x128 (ix2 p q) = cv (ix2 p 0) :=
  broadcastTo_apply cv broadcasts_S1024x1_S1024x128 (ix2 p q) (ix2 p 0)
    (fun a => by match a with | ⟨0, _⟩ => rfl | ⟨1, _⟩ => rfl)

/-- A row's sum, kept as a column: the sum of the row's 128 entries. -/
theorem rowSum_apply (Z : FVec Ideal S1024x128 .f32) (hφ : FKind.Formats FTy.f32)
    (hacc : (0x00000000#32 : BitVec 32) = 0x00000000#32) (p : Fin 1024) :
    shapeCast S1024x1 (multiReduction .add [1] S1024 Z 0x00000000#32 reduces_S1024x128_S1024 hφ hacc) shapeCasts_S1024_S1024x1 (ix2 p 0)
      = ∑ k : Fin 128, Z (ix2 p k) := by
  refine (shapeCast_apply _ shapeCasts_S1024_S1024x1 (ix2 p 0) (ix1 p) ?_).trans ?_
  · rw [Shape.rowMajor_val_one, Shape.rowMajor_val_two]; simp
  refine (Ideal.multiReduction_add_single Z 0x00000000#32 reduces_S1024x128_S1024 hφ hacc (ix1 p)).trans ?_
  refine Finset.sum_congr rfl fun k _ => congrArg Z ?_
  exact funext fun c => Fin.ext (by match c with | ⟨0, _⟩ => rfl | ⟨1, _⟩ => rfl)

/-- The dense layer's product at an element. -/
theorem mm_apply (l : FVec Ideal S1024x128 .bf16) (r : FVec Ideal S128x128 .bf16) (p : Fin 1024) (q : Fin 128) :
    matmul dot_S1024x128_S128x128_S1024x128_1_0_0_1_n_n none l r (constant S1024x128 .f32 0x00000000#32) (ix2 p q)
      = ∑ k : Fin 128, l (ix2 p k) * r (ix2 k q) :=
  PlainDot.matmul_zero_apply (φ₁ := .bf16) (φ₂ := .bf16) dot_S1024x128_S128x128_S1024x128_1_0_0_1_n_n rfl rfl rfl rfl rfl rfl none l r p q

/-- The rectified dense layer on features plus aggregate, as the kernel computes it. -/
def act (xh xs : FVec Ideal S1024x128 .f32) (xw : FVec Ideal S128x128 .f32) (xb : FVec Ideal S1x128 .f32) : FVec Ideal S1024x128 .f32 :=
  maximumf (addf (matmul dot_S1024x128_S128x128_S1024x128_1_0_0_1_n_n none (truncf .bf16 (addf xh xs) bitsLt_bf16_f32)
      (truncf .bf16 xw bitsLt_bf16_f32) (constant S1024x128 .f32 0x00000000#32)) (broadcastTo S1024x128 xb broadcasts_S1x128_S1024x128))
    (broadcast S1024x128 (Scalar.ofBits .f32 0x00000000#32))

theorem act_apply (xh xs : FVec Ideal S1024x128 .f32) (xw : FVec Ideal S128x128 .f32) (xb : FVec Ideal S1x128 .f32)
    (p : Fin 1024) (q : Fin 128) :
    act xh xs xw xb (ix2 p q) = max ((∑ k : Fin 128, (xh (ix2 p k) + xs (ix2 p k)) * xw (ix2 k q)) + xb (ix2 0 q)) 0 := by
  unfold act
  simp only [maximumf_apply, addf_apply, truncf_apply, broadcast_apply, bcRow_apply, mm_apply]
  exact congrArg (max _) Ideal.ofBits_zero_f32

/-- The mean of each row, kept as a column, as the kernel computes it: the row's sum divided by 128. -/
def rowMean (Z : FVec Ideal S1024x128 .f32) : FVec Ideal S1024x1 .f32 :=
  divf (shapeCast S1024x1 (multiReduction .add [1] S1024 Z 0x00000000#32 reduces_S1024x128_S1024 (.inl rfl) rfl) shapeCasts_S1024_S1024x1)
    (broadcast S1024x1 (Scalar.ofBits .f32 0x43000000#32))

theorem rowMean_apply (Z : FVec Ideal S1024x128 .f32) (p : Fin 1024) :
    rowMean Z (ix2 p 0) = mean (fun k => Z (ix2 p k)) := by
  unfold rowMean mean
  rw [divf_apply, broadcast_apply]
  exact congrArg (Ideal.div · _) (rowSum_apply Z _ _ p)

/-- The normalization of the rows of `Y` with gain `g` and offset `l`, as the kernel computes it. -/
def normed (Y : FVec Ideal S1024x128 .f32) (g l : FVec Ideal S1x128 .f32) : FVec Ideal S1024x128 .f32 :=
  addf (mulf (mulf (subf Y (broadcastTo S1024x128 (rowMean Y) broadcasts_S1024x1_S1024x128))
        (broadcastTo S1024x128 (rsqrt (addf (rowMean (mulf (subf Y (broadcastTo S1024x128 (rowMean Y) broadcasts_S1024x1_S1024x128))
            (subf Y (broadcastTo S1024x128 (rowMean Y) broadcasts_S1024x1_S1024x128))))
          (broadcast S1024x1 (Scalar.ofBits .f32 0x3727C5AC#32)))) broadcasts_S1024x1_S1024x128))
      (broadcastTo S1024x128 g broadcasts_S1x128_S1024x128))
    (broadcastTo S1024x128 l broadcasts_S1x128_S1024x128)

theorem normed_apply (Y : FVec Ideal S1024x128 .f32) (g l : FVec Ideal S1x128 .f32) (p : Fin 1024) (q : Fin 128) :
    normed Y g l (ix2 p q) = ln (fun d => Y (ix2 p d)) (fun d => g (ix2 0 d)) (fun d => l (ix2 0 d)) q := by
  unfold normed ln
  simp only [addf_apply, mulf_apply, subf_apply, broadcast_apply, rsqrt_at, bcRow_apply, bcCol_apply, rowMean_apply]
  rfl

/-- The output block is the normalization of the rectified dense layer. -/
theorem out_eq (xh xs : Vec Ideal S1024x128 .f32) (xw : Vec Ideal S128x128 .f32) (xb xg xl : Vec Ideal S1x128 .f32) :
    k4_pay3 xh xs xw xb xg xl = normed (act xh xs xw xb) xg xl := by
  unfold k4_pay3
  simp only [shapeCast_self]
  rfl

/-- The output block at row `p`, feature `q`: the row of features plus aggregate through the dense layer and the
    rectifier, then normalized with gain and offset. -/
theorem out_apply (xh xs : Vec Ideal S1024x128 .f32) (xw : Vec Ideal S128x128 .f32) (xb xg xl : Vec Ideal S1x128 .f32)
    (p : Fin 1024) (q : Fin 128) :
    k4_pay3 xh xs xw xb xg xl (ix2 p q)
      = ln (fun d => max ((∑ k : Fin 128, (xh (ix2 p k) + xs (ix2 p k)) * xw (ix2 k d)) + xb (ix2 0 d)) 0)
          (fun d => xg (ix2 0 d)) (fun d => xl (ix2 0 d)) q := by
  rw [out_eq, normed_apply]
  simp only [act_apply]

end Cert.KernelIdeal.Pay4

end
-- ==== Proof.KI.Val4.lean ====
/-
  What kernel region 2 leaves in its result array, at the extended reals and at any contents `V` of the buffers when
  the region is entered: one round's node update — for every node, its features plus the messages added into it by
  one-hot weights over all edges, through the dense layer and the rectifier, the row then normalized.

  The accumulator after the point (node block n, edge block e) holds, for each row of the node block, the sum over
  edge blocks 0 … e of the block's one-hot-weighted gathered rows (induction over the points, the sum restarting where
  e = 0); after e = 146 that is the sum over all 602112 edges (147 blocks of 4096). The point (n, 146) computes the
  output block from it and is the one point that writes node block n's rows back; the 98 blocks tile the array.
-/
import proofs.«423195_j8272107012813_1_alg».proof.Proof.KI.Reg4
import proofs.«423195_j8272107012813_1_alg».proof.Proof.KI.Pay4
import proofs.«423195_j8272107012813_1_alg».proof.Proof.Args
import Idealize.ShloMosaic.Lib.Pipeline.Value

set_option maxRecDepth 16384

noncomputable section

namespace Cert.KernelIdeal.Val4

open Cert.KernelIdeal Cert.KernelIdeal.Gen Cert.KernelIdeal.Reg4 Cert.KernelIdeal.Pay4 Cert.Spec Cert.Args
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The arrays the region reads, at their literal types -/

/-- The destination ids of all edges, the gathered rows of all edges, the node features, and the layer's
    parameters, as the region finds them. -/
abbrev dstA (c : Dev nD) : S1x602112.Idx → BitVec 32 := V c (Pipeline.arrRef spec4 0)
abbrev tA (c : Dev nD) : S602112x128.Idx → EReal := V c (Pipeline.arrRef spec4 1)
abbrev hA (c : Dev nD) : S100352x128.Idx → EReal := V c (Pipeline.arrRef spec4 2)
abbrev wA (c : Dev nD) : S128x128.Idx → EReal := V c (Pipeline.arrRef spec4 3)
abbrev bA (c : Dev nD) : S1x128.Idx → EReal := V c (Pipeline.arrRef spec4 4)
abbrev gA (c : Dev nD) : S1x128.Idx → EReal := V c (Pipeline.arrRef spec4 5)
abbrev lA (c : Dev nD) : S1x128.Idx → EReal := V c (Pipeline.arrRef spec4 6)

/-! ## The grid and the index maps in closed form -/

theorem tlt (t : Fin cfg4.N) : t.val < 14406 := lt_of_lt_of_eq t.isLt N_4

/-- The node-block coordinate (axis 0) of point `t` is `t / 147`. -/
theorem coord_n (t : Fin cfg4.N) : ((grid4.coords t) 0).val = t.val / 147 := by
  show t.val / grid4.stride 0 % grid4.bound 0 = t.val / 147
  rw [show grid4.stride 0 = 147 from by decide]
  exact Nat.mod_eq_of_lt (by have := tlt t; show t.val / 147 < 98; omega)

/-- The ids' block index: (0, edge block). -/
theorem idxD (t : Fin cfg4.N) : win4_0.index t 0 = 0 ∧ win4_0.index t 1 = t.val % 147 := by
  refine ⟨rfl, ?_⟩
  show (BitVec.ofNat 32 ((grid4.coords t) 1).val).toNat = t.val % 147
  rw [BitVec.toNat_ofNat, coord_e]; exact Nat.mod_eq_of_lt (by omega)

/-- The gathered rows' block index: (edge block, 0). -/
theorem idxT (t : Fin cfg4.N) : win4_1.index t 0 = t.val % 147 ∧ win4_1.index t 1 = 0 := by
  refine ⟨?_, rfl⟩
  show (BitVec.ofNat 32 ((grid4.coords t) 1).val).toNat = t.val % 147
  rw [BitVec.toNat_ofNat, coord_e]; exact Nat.mod_eq_of_lt (by omega)

/-- The features' block index: (node block, 0). -/
theorem idxH (t : Fin cfg4.N) : win4_2.index t 0 = t.val / 147 ∧ win4_2.index t 1 = 0 := by
  refine ⟨?_, rfl⟩
  show (BitVec.ofNat 32 ((grid4.coords t) 0).val).toNat = t.val / 147
  rw [BitVec.toNat_ofNat, coord_n]; exact Nat.mod_eq_of_lt (by have := tlt t; omega)

/-- The output's block index: (node block, 0). -/
theorem idxO (t : Fin cfg4.N) : win4_7.index t 0 = t.val / 147 ∧ win4_7.index t 1 = 0 := by
  refine ⟨?_, rfl⟩
  show (BitVec.ofNat 32 ((grid4.coords t) 0).val).toNat = t.val / 147
  rw [BitVec.toNat_ofNat, coord_n]; exact Nat.mod_eq_of_lt (by have := tlt t; omega)

/-! ## The blocks as parts of the arrays -/

/-- Edge block `e`'s ids are entries `4096 e …` of the id array. -/
theorem dstB_apply (c : Dev nD) (t : Fin cfg4.N) (j : Fin 4096) (k : S1x602112.Idx)
    (hk0 : (k 0).val = 0) (hk1 : (k 1).val = t.val % 147 * 4096 + j.val) :
    dstB V c t (ix2 0 j) = dstA V c k := by
  obtain ⟨h0, h1⟩ := idxD t
  unfold dstB iblk
  rw [View.read_apply]
  show V c (Pipeline.arrRef spec4 0) _ = V c (Pipeline.arrRef spec4 0) _
  congr 1
  funext a
  apply Fin.ext
  match a with
  | ⟨0, _⟩ => show win4_0.index t 0 * 1 + 1 * ((ix2 (0 : Fin 1) j) 0).val = (k 0).val; rw [h0, hk0]; rfl
  | ⟨1, _⟩ => show win4_0.index t 1 * 4096 + 1 * ((ix2 (0 : Fin 1) j) 1).val = (k 1).val; rw [h1, hk1]; show _ + 1 * j.val = _; omega

/-- Edge block `e`'s gathered rows are rows `4096 e …` of the gathered array. -/
theorem tB_apply (c : Dev nD) (t : Fin cfg4.N) (j : Fin 4096) (q : Fin 128) (k : S602112x128.Idx)
    (hk0 : (k 0).val = t.val % 147 * 4096 + j.val) (hk1 : (k 1).val = q.val) :
    tB V c t (ix2 j q) = tA V c k := by
  obtain ⟨h0, h1⟩ := idxT t
  unfold tB iblk
  rw [View.read_apply]
  show V c (Pipeline.arrRef spec4 1) _ = V c (Pipeline.arrRef spec4 1) _
  congr 1
  funext a
  apply Fin.ext
  match a with
  | ⟨0, _⟩ => show win4_1.index t 0 * 4096 + 1 * ((ix2 j q) 0).val = (k 0).val; rw [h0, hk0]; show _ + 1 * j.val = _; omega
  | ⟨1, _⟩ => show win4_1.index t 1 * 128 + 1 * ((ix2 j q) 1).val = (k 1).val; rw [h1, hk1]; show _ + 1 * q.val = _; omega

/-- Node block `n`'s features are rows `1024 n …` of the feature array. -/
theorem hB_apply (c : Dev nD) (t : Fin cfg4.N) (p : Fin 1024) (q : Fin 128) (k : S100352x128.Idx)
    (hk0 : (k 0).val = t.val / 147 * 1024 + p.val) (hk1 : (k 1).val = q.val) :
    hB V c t (ix2 p q) = hA V c k := by
  obtain ⟨h0, h1⟩ := idxH t
  unfold hB iblk
  rw [View.read_apply]
  show V c (Pipeline.arrRef spec4 2) _ = V c (Pipeline.arrRef spec4 2) _
  congr 1
  funext a
  apply Fin.ext
  match a with
  | ⟨0, _⟩ => show win4_2.index t 0 * 1024 + 1 * ((ix2 p q) 0).val = (k 0).val; rw [h0, hk0]; show _ + 1 * p.val = _; omega
  | ⟨1, _⟩ => show win4_2.index t 1 * 128 + 1 * ((ix2 p q) 1).val = (k 1).val; rw [h1, hk1]; show _ + 1 * q.val = _; omega

/-- The parameters' blocks are the parameter arrays. -/
theorem wB_apply (c : Dev nD) (t : Fin cfg4.N) (k : Fin 128) (d : Fin 128) : wB V c t (ix2 k d) = wA V c (ix2 k d) := by
  unfold wB iblk
  rw [View.read_apply]
  show V c (Pipeline.arrRef spec4 3) _ = V c (Pipeline.arrRef spec4 3) _
  congr 1
  funext a
  apply Fin.ext
  match a with
  | ⟨0, _⟩ => show win4_3.index t 0 * 128 + 1 * ((ix2 k d) 0).val = ((ix2 k d) 0).val; rw [show win4_3.index t 0 = 0 from rfl]; omega
  | ⟨1, _⟩ => show win4_3.index t 1 * 128 + 1 * ((ix2 k d) 1).val = ((ix2 k d) 1).val; rw [show win4_3.index t 1 = 0 from rfl]; omega

theorem bB_apply (c : Dev nD) (t : Fin cfg4.N) (d : Fin 128) : bB V c t (ix2 0 d) = bA V c (ix2 0 d) := by
  unfold bB iblk
  rw [View.read_apply]
  show V c (Pipeline.arrRef spec4 4) _ = V c (Pipeline.arrRef spec4 4) _
  congr 1
  funext a
  apply Fin.ext
  match a with
  | ⟨0, _⟩ => show win4_4.index t 0 * 1 + 1 * ((ix2 (0 : Fin 1) d) 0).val = ((ix2 (0 : Fin 1) d) 0).val; rw [show win4_4.index t 0 = 0 from rfl]; omega
  | ⟨1, _⟩ => show win4_4.index t 1 * 128 + 1 * ((ix2 (0 : Fin 1) d) 1).val = ((ix2 (0 : Fin 1) d) 1).val; rw [show win4_4.index t 1 = 0 from rfl]; omega

theorem gB_apply (c : Dev nD) (t : Fin cfg4.N) (d : Fin 128) : gB V c t (ix2 0 d) = gA V c (ix2 0 d) := by
  unfold gB iblk
  rw [View.read_apply]
  show V c (Pipeline.arrRef spec4 5) _ = V c (Pipeline.arrRef spec4 5) _
  congr 1
  funext a
  apply Fin.ext
  match a with
  | ⟨0, _⟩ => show win4_5.index t 0 * 1 + 1 * ((ix2 (0 : Fin 1) d) 0).val = ((ix2 (0 : Fin 1) d) 0).val; rw [show win4_5.index t 0 = 0 from rfl]; omega
  | ⟨1, _⟩ => show win4_5.index t 1 * 128 + 1 * ((ix2 (0 : Fin 1) d) 1).val = ((ix2 (0 : Fin 1) d) 1).val; rw [show win4_5.index t 1 = 0 from rfl]; omega

theorem lB_apply (c : Dev nD) (t : Fin cfg4.N) (d : Fin 128) : lB V c t (ix2 0 d) = lA V c (ix2 0 d) := by
  unfold lB iblk
  rw [View.read_apply]
  show V c (Pipeline.arrRef spec4 6) _ = V c (Pipeline.arrRef spec4 6) _
  congr 1
  funext a
  apply Fin.ext
  match a with
  | ⟨0, _⟩ => show win4_6.index t 0 * 1 + 1 * ((ix2 (0 : Fin 1) d) 0).val = ((ix2 (0 : Fin 1) d) 0).val; rw [show win4_6.index t 0 = 0 from rfl]; omega
  | ⟨1, _⟩ => show win4_6.index t 1 * 128 + 1 * ((ix2 (0 : Fin 1) d) 1).val = ((ix2 (0 : Fin 1) d) 1).val; rw [show win4_6.index t 1 = 0 from rfl]; omega

/-! ## The accumulator as a partial sum over edge blocks -/

/-- Edge block `e`'s contribution to node row `r`, feature `q`: over the block's 4096 edges, the one-hot weight
    of the edge's destination id at `r` times the edge's gathered feature (nothing for `e` beyond the 147 blocks). -/
def blockSum (c : Dev nD) (r : ℕ) (q : Fin 128) (e : ℕ) : EReal :=
  if h : e < 147 then
    ∑ j : Fin 4096, oh (dstA V c (ix2 0 (⟨e * 4096 + j.val, by have := j.isLt; omega⟩ : Fin 602112))) r
      * tA V c (ix2 (⟨e * 4096 + j.val, by have := j.isLt; omega⟩ : Fin 602112) q)
  else 0

/-- What a point adds to the accumulator is its edge block's contribution to its node block's rows. -/
theorem block_term (c : Dev nD) (t : Fin cfg4.N) (p : Fin 1024) (q : Fin 128) :
    ∑ j : Fin 4096, oh (dstB V c t (ix2 0 j)) (((grid4.coords t) 0).val * 1024 + p.val) * tB V c t (ix2 j q)
      = blockSum V c (t.val / 147 * 1024 + p.val) q (t.val % 147) := by
  unfold blockSum
  rw [dif_pos (Nat.mod_lt _ (by norm_num)), coord_n]
  refine Finset.sum_congr rfl fun j _ => ?_
  have hlt : t.val % 147 * 4096 + j.val < 602112 := by have := j.isLt; omega
  rw [dstB_apply V c t j (ix2 0 ⟨t.val % 147 * 4096 + j.val, hlt⟩) rfl rfl,
    tB_apply V c t j q (ix2 ⟨t.val % 147 * 4096 + j.val, hlt⟩ q) rfl rfl]

/-- THE ACCUMULATOR after point `k` = (node block `k / 147`, edge block `k % 147`): the contributions of edge
    blocks `0 … k % 147` to the node block's rows, added in that order from zero. -/
theorem scr_sum (c : Dev nD) : ∀ (k : ℕ) (hk : k < cfg4.N) (p : Fin 1024) (q : Fin 128),
    scr V c k hk (ix2 p q) = ∑ e ∈ Finset.range (k % 147 + 1), blockSum V c (k / 147 * 1024 + p.val) q e := by
  intro k
  induction k with
  | zero =>
    intro hk p q
    refine (congrFun (scr_reset V c ⟨0, hk⟩ rfl) (ix2 p q)).trans ?_
    refine (acc_apply _ _ _ _ p q).trans ?_
    rw [zero_apply, zero_add, block_term V c ⟨0, hk⟩ p q]
    simp
  | succ n ih =>
    intro hk p q
    by_cases hr : (n + 1) % 147 = 0
    · refine (congrFun (scr_reset V c ⟨n + 1, hk⟩ hr) (ix2 p q)).trans ?_
      refine (acc_apply _ _ _ _ p q).trans ?_
      rw [zero_apply, zero_add, block_term V c ⟨n + 1, hk⟩ p q]
      show blockSum V c ((n + 1) / 147 * 1024 + p.val) q ((n + 1) % 147) = _
      rw [hr]; simp
    · refine (congrFun (scr_acc V c ⟨n + 1, hk⟩ hr) (ix2 p q)).trans ?_
      refine (acc_apply _ _ _ _ p q).trans ?_
      rw [block_term V c ⟨n + 1, hk⟩ p q]
      show scr V c n _ (ix2 p q) + blockSum V c ((n + 1) / 147 * 1024 + p.val) q ((n + 1) % 147) = _
      rw [ih (Nat.lt_of_succ_lt hk) p q, Finset.sum_range_succ _ ((n + 1) % 147),
        show n % 147 + 1 = (n + 1) % 147 from by omega, show n / 147 = (n + 1) / 147 from by omega]

/-- All 147 contributions are the sum over all edges. -/
theorem sum_blocks (c : Dev nD) (r : ℕ) (q : Fin 128) :
    ∑ e ∈ Finset.range 147, blockSum V c r q e
      = ∑ j : Fin 602112, oh (dstA V c (ix2 0 j)) r * tA V c (ix2 j q) := by
  rw [Finset.sum_range]
  refine Eq.symm ((Equiv.sum_comp (finProdFinEquiv : Fin 147 × Fin 4096 ≃ Fin 602112)
    (fun j => oh (dstA V c (ix2 0 j)) r * tA V c (ix2 j q))).symm.trans ?_)
  rw [Fintype.sum_prod_type]
  refine Finset.sum_congr rfl fun e _ => ?_
  unfold blockSum
  rw [dif_pos e.isLt]
  refine Finset.sum_congr rfl fun j _ => ?_
  have hj : (finProdFinEquiv (e, j) : Fin 602112) = ⟨e.val * 4096 + j.val, by have := e.isLt; have := j.isLt; omega⟩ :=
    Fin.ext (by show j.val + 4096 * e.val = e.val * 4096 + j.val; omega)
  rw [hj]

/-! ## The output block, and from blocks to the array -/

/-- Every node's incoming messages: over all edges, the one-hot weight of the edge's destination id at the node
    times the edge's gathered row. -/
def aggr (c : Dev nD) : Fin 100352 → Fin 128 → EReal :=
  scatterOH (fun j => dstA V c (ix2 0 j)) (rows2 (tA V c))

/-- What the region's result array ends holding: one round's node update from the features and the aggregated
    messages. -/
def G (c : Dev nD) : S100352x128.Idx → EReal := fun i =>
  mlpLn (rows2 (hA V c)) (aggr V c) (rows2 (wA V c)) (fun d => bA V c (ix2 0 d)) (fun d => gA V c (ix2 0 d))
    (fun d => lA V c (ix2 0 d)) (i 0) (i 1)

/-- After the last edge block the accumulator holds the node block's rows of the aggregated messages. -/
theorem scr_last (c : Dev nD) (t : Fin cfg4.N) (he : t.val % 147 = 146) (p : Fin 1024) (k : Fin 128)
    (r : Fin 100352) (hr : r.val = t.val / 147 * 1024 + p.val) :
    scr V c t.val t.isLt (ix2 p k) = aggr V c r k := by
  rw [scr_sum V c t.val t.isLt p k, he, sum_blocks V c _ k, ← hr]
  rfl

/-- The output block the last edge block's point stores is the node block's rows of `G`. -/
theorem outv_last (c : Dev nD) (t : Fin cfg4.N) (he : t.val % 147 = 146) (p : Fin 1024) (q : Fin 128)
    (i : S100352x128.Idx) (hi0 : (i 0).val = t.val / 147 * 1024 + p.val) (hi1 : (i 1).val = q.val) :
    outv V c t (ix2 p q) = G V c i := by
  have hq : i 1 = q := Fin.ext hi1
  unfold outv G
  rw [out_apply, hq]
  unfold mlpLn linRelu
  have eh : ∀ k : Fin 128, hB V c t (ix2 p k) = rows2 (hA V c) (i 0) k := fun k => hB_apply V c t p k _ hi0 rfl
  have es : ∀ k : Fin 128, scr V c t.val t.isLt (ix2 p k) = aggr V c (i 0) k := fun k => scr_last V c t he p k (i 0) hi0
  have ew : ∀ k d : Fin 128, wB V c t (ix2 k d) = rows2 (wA V c) k d := fun k d => wB_apply V c t k d
  have eb : ∀ d : Fin 128, bB V c t (ix2 0 d) = bA V c (ix2 0 d) := fun d => bB_apply V c t d
  have eg : ∀ d : Fin 128, gB V c t (ix2 0 d) = gA V c (ix2 0 d) := fun d => gB_apply V c t d
  have el : ∀ d : Fin 128, lB V c t (ix2 0 d) = lA V c (ix2 0 d) := fun d => lB_apply V c t d
  simp only [eh, es, ew, eb, eg, el]

/-- WHAT A POINT WRITES BACK is its block of `G`. -/
theorem flushed_eq (c : Dev nD) (t : Fin cfg4.N) (hf : (cfg4.win 7).flush t = true) :
    (dat V c).flushed 7 t = ((cfg4.win 7).blk t).view.read (Elt Ideal) (G V c) := by
  have he : t.val % 147 = 146 := (flush4_7 t).mp hf
  obtain ⟨h0, h1⟩ := idxO t
  show (cfg4.win 7).cut (grid4.coords t) ((dat V c).after 7 t) = _
  rw [after_out]
  funext y
  obtain ⟨p, q, rfl⟩ : ∃ (p : Fin 1024) (q : Fin 128), y = ix2 p q := ⟨y 0, y 1, eq_ix2 y⟩
  rw [View.read_apply]
  refine outv_last V c t he p q _ ?_ ?_
  · show win4_7.index t 0 * 1024 + 1 * ((ix2 p q) 0).val = _; rw [h0]; show _ + 1 * p.val = _; omega
  · show win4_7.index t 1 * 128 + 1 * ((ix2 p q) 1).val = _; rw [h1]; show _ + 1 * q.val = _; omega

/-- An index of the result array is in point `t`'s block iff each coordinate is in the block's range. -/
theorem mem_blk (t : Fin cfg4.N) (i : S100352x128.Idx) :
    i ∈ ((cfg4.win 7).blk t).view.set ↔ ∀ a : Fin 2, win4_7.index t a * S1024x128.size a ≤ (i a).val ∧ (i a).val < win4_7.index t a * S1024x128.size a + S1024x128.size a := by
  show i ∈ ((View.whole (Pipeline.arrRef spec4 7)).slice (win4_7.rect t)).set ↔ _
  rw [View.set_slice_whole, Rect.mem_set_unit]
  exact Iff.rfl

/-- Every row of the result array is in the block of its node block's last point. -/
theorem cover (i : S100352x128.Idx) : ∃ t : Fin cfg4.N, (cfg4.win 7).flush t = true ∧ i ∈ ((cfg4.win 7).blk t).view.set := by
  have hi0 : (i 0).val < 100352 := (i 0).isLt
  have hi1 : (i 1).val < 128 := (i 1).isLt
  have hN : cfg4.N = 14406 := N_4
  let t : Fin cfg4.N := ⟨(i 0).val / 1024 * 147 + 146, by rw [hN]; omega⟩
  have htv : t.val = (i 0).val / 1024 * 147 + 146 := rfl
  obtain ⟨h0, h1⟩ := idxO t
  refine ⟨t, (flush4_7 t).mpr (by rw [htv]; omega), ?_⟩
  rw [mem_blk]
  intro a
  match a with
  | ⟨0, _⟩ => show win4_7.index t 0 * 1024 ≤ (i 0).val ∧ (i 0).val < win4_7.index t 0 * 1024 + 1024; rw [h0, htv]; omega
  | ⟨1, _⟩ => show win4_7.index t 1 * 128 ≤ (i 1).val ∧ (i 1).val < win4_7.index t 1 * 128 + 128; rw [h1]; omega

/-- THE RESULT ARRAY after the region: one round's node update. -/
theorem arr_final (c : Dev nD) : (dat V c).arrAt 7 cfg4.N = G V c :=
  (dat V c).arrAt_eq_of_cover 7 (G V c) (flushed_eq V c) cover

theorem final (c : Dev nD) :
    rows2 ((dat (F := Ideal) V c).arrAt 7 cfg4.N)
      = mlpLn (rows2 (V c (Pipeline.arrRef spec4 2)))
          (scatterOH (fun j => V c (Pipeline.arrRef spec4 0) (ix2 0 j)) (rows2 (V c (Pipeline.arrRef spec4 1))))
          (rows2 (V c (Pipeline.arrRef spec4 3))) (fun d => V c (Pipeline.arrRef spec4 4) (ix2 0 d))
          (fun d => V c (Pipeline.arrRef spec4 5) (ix2 0 d)) (fun d => V c (Pipeline.arrRef spec4 6) (ix2 0 d)) := by
  rw [arr_final]
  rfl

end Cert.KernelIdeal.Val4

end
-- ==== Proof.KI.Val5.lean ====
/-
  The value of region 1: the array the gather leaves is, row by row, the one-hot sum over ALL rows of the node array
  of each edge's source word.

  One point's update of the accumulator, read at an element, adds the one-hot weights of the edge's source word
  against the 1024 rows of the point's node block (the comparison bit, widened and converted, is the weight; the
  matrix product into the zero accumulator is the plain sum; the format changes are the identity on the extended
  reals). By induction over the points of an edge block the accumulator after node block k is the sum of the shares of
  blocks 0..k; after the last one, all 98 blocks of 1024 rows, which is the sum over all 100352 rows. The point that
  holds this stores it, and its block of the output array is written back; these blocks cover the array.
-/
import proofs.«423195_j8272107012813_1_alg».proof.Proof.KI.Reg5
import proofs.«423195_j8272107012813_1_alg».proof.Proof.Spec
import proofs.«423195_j8272107012813_1_alg».proof.Proof.Args
import proofs.«423195_j8272107012813_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val5

open Cert.KernelIdeal Cert.KernelIdeal.Gen
open Idealize.ShloMosaic Idealize.ShloMosaic.TcCoe Idealize.ShloMosaic.ValueIdx Idealize.ShloMosaic.PlainDot
open Idealize.ShloMosaic.Pipeline (Dat)
open Cert.Spec Cert.Args

/-! ## One point's update, read at an element -/

/-- A word below 2^31 written as a 32-bit numeral reads back, signed, as itself. -/
theorem toInt_ofNat_small (r : ℕ) (hr : r < 2147483648) : (BitVec.ofNat 32 r).toInt = (r : ℤ) := by
  have hn : (BitVec.ofNat 32 r).toNat = r := by rw [BitVec.toNat_ofNat]; exact Nat.mod_eq_of_lt (by omega)
  rw [BitVec.toInt_eq_toNat_of_lt (by rw [hn]; omega), hn]

/-- The one-hot entry the kernel computes — the comparison bit of the source word against a row number, widened and
    converted — is the one-hot weight of the word at that row. -/
theorem oneHot_entry (w : BitVec 32) (r : ℕ) (hr : r < 2147483648) :
    ((((IntOp.cmpi .eq w (BitVec.ofNat 32 r)).setWidth 32).toInt : ℝ) : EReal) = oh w r := by
  have hb := toInt_ofNat_small r hr
  unfold oh IntOp.cmpi
  by_cases h : w = BitVec.ofNat 32 r
  · subst h
    rw [if_pos hb, show (BitVec.ofNat 32 r == BitVec.ofNat 32 r) = true from beq_self_eq_true _,
      show ((BitVec.ofBool true).setWidth 32).toInt = 1 from by decide]
    simp
  · have hne : ¬w.toInt = (r : ℤ) := fun e => h (BitVec.eq_of_toInt_eq (e.trans hb.symm))
    rw [if_neg hne, show (w == BitVec.ofNat 32 r) = false from beq_eq_false_iff_ne.mpr h,
      show ((BitVec.ofBool false).setWidth 32).toInt = 0 from by decide]
    simp

/-- The row number the kernel compares against: node block `a`, row `k` of the block. -/
theorem rowWord (a k : ℕ) :
    IntOp.addi (Scalar.muli (BitVec.ofNat 32 a) 1024#32) (BitVec.ofNat 32 k) = BitVec.ofNat 32 (a * 1024 + k) := by
  unfold IntOp.addi Scalar.muli IntOp.muli
  rw [BitVec.ofNat_add, BitVec.ofNat_mul]

theorem accStep_apply (i : grid5.Coords) (xs : Vec Ideal S1x4096 .i32) (xh : Vec Ideal S1024x128 .f32)
    (xa : Vec Ideal S4096x128 .f32) (p : Fin 4096) (q : Fin 128) :
    k5_pay2 i xs xh xa (ix2 p q)
      = xa (ix2 p q) + ∑ k : Fin 1024, oh (xs (ix2 0 p)) ((i 1).val * 1024 + k.val) * xh (ix2 k q) := by
  unfold k5_pay2
  simp only [shapeCast_self]
  rw [addf_apply]
  refine congrArg (xa (ix2 p q) + ·) ?_
  refine (matmul_zero_apply (M := 4096) (K := 1024) (N := 128) dot_S4096x1024_S1024x128_S4096x128_1_0_0_1_n_n
    rfl rfl rfl rfl rfl rfl none _ _ p q).trans ?_
  refine Finset.sum_congr rfl fun k _ => ?_
  rw [truncf_apply]
  refine congrArg (· * xh (ix2 k q)) ?_
  rw [transpose_apply [1, 0] _ transposes_S1024x4096_p1_0_S4096x1024 (ix2 p k) (ix2 k p)
    (by intro b; match b with | ⟨0, _⟩ => rfl | ⟨1, _⟩ => rfl)]
  rw [truncf_apply, sitofp_apply, extui_apply]
  rw [show ∀ (A B : IVec S1024x4096 32) (j : S1024x4096.Idx), cmpi CmpIPredicate.eq A B j = IntOp.cmpi .eq (A j) (B j) from
    fun _ _ _ => rfl]
  rw [broadcastTo_apply xs broadcasts_S1x4096_S1024x4096 (ix2 k p) (ix2 0 p)
      (by intro a; match a with | ⟨0, _⟩ => rfl | ⟨1, _⟩ => rfl),
    broadcastTo_apply _ broadcasts_S1024x1_S1024x4096 (ix2 k p) (ix2 k 0)
      (by intro a; match a with | ⟨0, _⟩ => rfl | ⟨1, _⟩ => rfl)]
  rw [show ∀ (A B : IVec S1024x1 32) (j : S1024x1.Idx), addi A B j = IntOp.addi (A j) (B j) from fun _ _ _ => rfl,
    broadcast_apply, iota_single_apply, rowWord]
  have hlt : (i 1).val < 98 := (i 1).isLt
  have hk : k.val < 1024 := k.isLt
  exact oneHot_entry (xs (ix2 0 p)) ((i 1).val * 1024 + k.val) (by omega)

/-- The zero accumulator, read at an element. -/
theorem accZero_apply (j : S4096x128.Idx) : Reg5.accZero (F := Ideal) j = 0 := by
  unfold Reg5.accZero k5_pay1
  simp only [shapeCast_self]
  exact Ideal.ofBits_zero_f32

/-- Rounding to the output's format is the identity on the extended reals. -/
theorem round_apply (x : Vec Ideal S4096x128 .f32) (j : S4096x128.Idx) : k5_pay3 x j = x j := rfl

/-! ## The arrays and their blocks -/

variable (V : (c : Dev nD) → (b : Ref sig .tc) → Buf (Elt Ideal) ((c : Thread nD τ).loc b))

/-- The array of source ids (one row of padded length) and the array of node rows, as the region finds them. -/
abbrev srcArr (c : Dev nD) : S1x602112.Idx → BitVec 32 := V c (Pipeline.arrRef spec5 0)
abbrev featArr (c : Dev nD) : S100352x128.Idx → EReal := V c (Pipeline.arrRef spec5 1)

/-- The edge-block coordinate of point `t` is `t / 98`. -/
theorem edgeCoord (t : Fin cfg5.N) : (grid5.coords t 0).val = t.val / 98 := by
  have hN : cfg5.N = 14406 := N_5
  have ht := t.isLt
  show t.val / 98 % 147 = t.val / 98
  exact Nat.mod_eq_of_lt (by omega)

/-- A small number written as a 32-bit word and read back unsigned is itself. -/
theorem toNat_ofNat_small (n : ℕ) (h : n < 4294967296) : (BitVec.ofNat 32 n).toNat = n := by
  rw [BitVec.toNat_ofNat]; exact Nat.mod_eq_of_lt h

/-- The block indices of the three windows at point `t`: the source ids' block is the edge block, the node rows'
    block the node block, the output's block the edge block. -/
theorem index_src (t : Fin cfg5.N) : win5_0.index t 0 = 0 ∧ win5_0.index t 1 = t.val / 98 := by
  have h := edgeCoord t
  refine ⟨rfl, ?_⟩
  show (BitVec.ofNat 32 (grid5.coords t 0).val).toNat = _
  rw [h, toNat_ofNat_small _ (by have := t.isLt; have : cfg5.N = 14406 := N_5; omega)]

theorem index_feat (t : Fin cfg5.N) : win5_1.index t 0 = t.val % 98 ∧ win5_1.index t 1 = 0 := by
  have h := Reg5.nodeCoord t
  refine ⟨?_, rfl⟩
  show (BitVec.ofNat 32 (grid5.coords t 1).val).toNat = _
  rw [h, toNat_ofNat_small _ (by omega)]

theorem index_out (t : Fin cfg5.N) : win5_2.index t 0 = t.val / 98 ∧ win5_2.index t 1 = 0 := by
  have h := edgeCoord t
  refine ⟨?_, rfl⟩
  show (BitVec.ofNat 32 (grid5.coords t 0).val).toNat = _
  rw [h, toNat_ofNat_small _ (by have := t.isLt; have : cfg5.N = 14406 := N_5; omega)]

/-- The source-id block at point `t` is entries `4096 (t / 98) …` of the array. -/
theorem srcBlk_apply (c : Dev nD) (t : Fin cfg5.N) (p : Fin 4096) (j : Fin 602112) (hj : j.val = t.val / 98 * 4096 + p.val) :
    Reg5.srcBlk V c t (ix2 0 p) = srcArr V c (ix2 0 j) := by
  obtain ⟨h0, h1⟩ := index_src t
  unfold Reg5.srcBlk Reg5.iblk
  rw [View.read_apply]
  show V c (Pipeline.arrRef spec5 0) _ = V c (Pipeline.arrRef spec5 0) _
  congr 1
  funext a
  apply Fin.ext
  match a with
  | ⟨0, _⟩ => show win5_0.index t 0 * 1 + 1 * 0 = 0; rw [h0]
  | ⟨1, _⟩ => show win5_0.index t 1 * 4096 + 1 * p.val = j.val; rw [h1, hj]; omega

/-- The node-row block at point `t` is rows `1024 (t mod 98) …` of the array. -/
theorem featBlk_apply (c : Dev nD) (t : Fin cfg5.N) (k : Fin 1024) (q : Fin 128) (r : Fin 100352) (hr : r.val = t.val % 98 * 1024 + k.val) :
    Reg5.featBlk V c t (ix2 k q) = featArr V c (ix2 r q) := by
  obtain ⟨h0, h1⟩ := index_feat t
  unfold Reg5.featBlk Reg5.iblk
  rw [View.read_apply]
  show V c (Pipeline.arrRef spec5 1) _ = V c (Pipeline.arrRef spec5 1) _
  congr 1
  funext a
  apply Fin.ext
  match a with
  | ⟨0, _⟩ => show win5_1.index t 0 * 1024 + 1 * k.val = r.val; rw [h0, hr]; omega
  | ⟨1, _⟩ => show win5_1.index t 1 * 128 + 1 * q.val = q.val; rw [h1]; omega

/-! ## The accumulator after a point, read at an element

Past the padded arrays' ends nothing is ever read; the total forms below spare every index its bound. -/

/-- Entry `j` of the source ids (zero past the end). -/
def srcWord (c : Dev nD) (j : ℕ) : BitVec 32 := if h : j < 602112 then srcArr V c (ix2 0 ⟨j, h⟩) else 0

/-- Row `r` of the node features at feature `q` (zero past the end). -/
def featRow (c : Dev nD) (r : ℕ) (q : Fin 128) : EReal := if h : r < 100352 then featArr V c (ix2 ⟨r, h⟩ q) else 0

/-- Node block `k`'s share of the gathered row for edge `4096 e + p`: the one-hot weights of the edge's source word
    against the block's 1024 rows. -/
def blockTerm (c : Dev nD) (e : ℕ) (p : Fin 4096) (q : Fin 128) (k : ℕ) : EReal :=
  ∑ j : Fin 1024, oh (srcWord V c (e * 4096 + p.val)) (k * 1024 + j.val) * featRow V c (k * 1024 + j.val) q

/-- One point's update adds the point's node block's share. -/
theorem step_apply (c : Dev nD) (t : Fin cfg5.N) (xa : Vec Ideal S4096x128 .f32) (p : Fin 4096) (q : Fin 128) :
    Reg5.accStep (grid5.coords t) (Reg5.srcBlk V c t) (Reg5.featBlk V c t) xa (ix2 p q)
      = xa (ix2 p q) + blockTerm V c (t.val / 98) p q (t.val % 98) := by
  have hN : cfg5.N = 14406 := N_5
  have ht := t.isLt
  have hp := p.isLt
  refine (accStep_apply (grid5.coords t) (Reg5.srcBlk V c t) (Reg5.featBlk V c t) xa p q).trans ?_
  refine congrArg (xa (ix2 p q) + ·) ?_
  unfold blockTerm
  refine Finset.sum_congr rfl fun k _ => ?_
  have hk := k.isLt
  rw [Reg5.nodeCoord t,
    srcBlk_apply V c t p ⟨t.val / 98 * 4096 + p.val, by omega⟩ rfl,
    featBlk_apply V c t k q ⟨t.val % 98 * 1024 + k.val, by omega⟩ rfl]
  unfold srcWord featRow
  rw [dif_pos (by omega), dif_pos (by omega)]

/-- THE FOLD. After point `n` — node block `n mod 98` of edge block `n / 98` — the accumulator holds the shares of the
    node blocks up to that one. -/
theorem accAt_apply (c : Dev nD) (p : Fin 4096) (q : Fin 128) : ∀ (n : ℕ) (hn : n < cfg5.N),
    Reg5.accAt V c n hn (ix2 p q) = ∑ k ∈ Finset.range (n % 98 + 1), blockTerm V c (n / 98) p q k := by
  intro n
  induction n with
  | zero =>
    intro hn
    refine (congrFun (Reg5.accAt_reset V c ⟨0, hn⟩ rfl) (ix2 p q)).trans ?_
    rw [step_apply V c ⟨0, hn⟩ _ p q, accZero_apply, zero_add]
    show blockTerm V c (0 / 98) p q (0 % 98) = _
    rw [Finset.sum_range_one]
  | succ n ih =>
    intro hn
    by_cases h : (n + 1) % 98 = 0
    · refine (congrFun (Reg5.accAt_reset V c ⟨n + 1, hn⟩ h) (ix2 p q)).trans ?_
      rw [step_apply V c ⟨n + 1, hn⟩ _ p q, accZero_apply, zero_add]
      show blockTerm V c ((n + 1) / 98) p q ((n + 1) % 98) = _
      rw [h, Finset.sum_range_one]
    · refine (congrFun (Reg5.accAt_step V c ⟨n + 1, hn⟩ h) (ix2 p q)).trans ?_
      rw [step_apply V c ⟨n + 1, hn⟩ _ p q]
      show Reg5.accAt V c n _ (ix2 p q) + blockTerm V c ((n + 1) / 98) p q ((n + 1) % 98) = _
      rw [ih (Nat.lt_of_succ_lt hn)]
      have e1 : (n + 1) % 98 = n % 98 + 1 := by omega
      have e2 : (n + 1) / 98 = n / 98 := by omega
      rw [e1, e2, Finset.sum_range_succ _ (n % 98 + 1)]

/-! ## All node blocks together: the sum over every row -/

/-- A sum over `K` blocks of `B` consecutive numbers each is the sum over the first `K B` numbers. -/
theorem sum_blocks (B : ℕ) (f : ℕ → EReal) : ∀ K : ℕ,
    ∑ k ∈ Finset.range K, ∑ j : Fin B, f (k * B + j.val) = ∑ r ∈ Finset.range (K * B), f r
  | 0 => by simp
  | K + 1 => by
    rw [Finset.sum_range_succ, sum_blocks B f K, Nat.succ_mul, Finset.sum_range_add, Fin.sum_univ_eq_sum_range (fun j => f (K * B + j)) B]

/-- The shares of all 98 node blocks add up to the one-hot sum over all rows of the node array. -/
theorem blocks_total (c : Dev nD) (e : ℕ) (p : Fin 4096) (q : Fin 128) :
    ∑ k ∈ Finset.range 98, blockTerm V c e p q k
      = ∑ r : Fin 100352, oh (srcWord V c (e * 4096 + p.val)) r.val * featArr V c (ix2 r q) := by
  unfold blockTerm
  rw [sum_blocks 1024 (fun r => oh (srcWord V c (e * 4096 + p.val)) r * featRow V c r q) 98,
    ← Fin.sum_univ_eq_sum_range (fun r => oh (srcWord V c (e * 4096 + p.val)) r * featRow V c r q) (98 * 1024)]
  refine Finset.sum_congr rfl fun r _ => ?_
  unfold featRow
  rw [dif_pos r.isLt]

/-! ## From the blocks to the array -/

/-- THE GATHERED ARRAY: entry (j, d) is the one-hot sum, over all rows of the node array, of edge `j`'s source word. -/
def gathered (c : Dev nD) : S602112x128.Idx → EReal :=
  fun i => ∑ r : Fin 100352, oh (srcArr V c (ix2 0 (i 0))) r.val * featArr V c (ix2 r (i 1))

/-- It at the entry a block coordinate names. -/
theorem gathered_at (c : Dev nD) (i : S602112x128.Idx) (e : ℕ) (p : Fin 4096) (q : Fin 128)
    (h0 : (i 0).val = e * 4096 + p.val) (h1 : (i 1).val = q.val) :
    gathered V c i = ∑ r : Fin 100352, oh (srcWord V c (e * 4096 + p.val)) r.val * featArr V c (ix2 r q) := by
  have hlt : e * 4096 + p.val < 602112 := by have := idx2_lt0 i; omega
  have hi : i = ix2 (⟨e * 4096 + p.val, hlt⟩ : Fin 602112) q := by
    funext a
    match a with
    | ⟨0, _⟩ => exact Fin.ext h0
    | ⟨1, _⟩ => exact Fin.ext h1
  subst hi
  unfold gathered srcWord
  rw [dif_pos hlt]

/-- WHAT A STORING POINT WRITES BACK is its block of the gathered array. -/
theorem flushed_eq (c : Dev nD) (t : Fin cfg5.N) (hf : (cfg5.win 2).flush t = true) :
    (Reg5.dat V c).flushed 2 t = ((cfg5.win 2).blk t).view.read (Elt Ideal) (gathered V c) := by
  have h97 : t.val % 98 = 97 := (flush5_2 t).mp hf
  obtain ⟨e0, e1⟩ := index_out t
  show (cfg5.win 2).cut (grid5.coords t) ((Reg5.dat V c).after 2 t) = _
  rw [Reg5.after_out_eq]
  funext y
  rw [View.read_apply]
  have hy0 : (y 0).val < 4096 := (y 0).isLt
  have hy1 : (y 1).val < 128 := (y 1).isLt
  refine Eq.trans (b := Reg5.accAt V c t.val t.isLt (ix2 (⟨(y 0).val, hy0⟩ : Fin 4096) (⟨(y 1).val, hy1⟩ : Fin 128))) ?_ ?_
  · show Reg5.accAt V c t.val t.isLt ((cfg5.win 2).xinj (grid5.coords t) y) = _
    refine congrArg (Reg5.accAt V c t.val t.isLt) ?_
    funext a
    match a with
    | ⟨0, _⟩ => rfl
    | ⟨1, _⟩ => rfl
  · rw [accAt_apply V c _ _ t.val t.isLt, h97, blocks_total]
    rw [cast_eq]
    refine (gathered_at V c (((cfg5.win 2).blk t).view.emb y) (t.val / 98) ⟨(y 0).val, hy0⟩ ⟨(y 1).val, hy1⟩ ?_ ?_).symm
    · show win5_2.index t 0 * 4096 + 1 * (y 0).val = t.val / 98 * 4096 + (y 0).val
      rw [e0]; omega
    · show win5_2.index t 1 * 128 + 1 * (y 1).val = (y 1).val
      rw [e1]; omega

/-- An index of the output array is in point `t`'s block iff each coordinate is in the block's range on its axis. -/
theorem mem_outBlk (t : Fin cfg5.N) (i : S602112x128.Idx) :
    i ∈ ((cfg5.win 2).blk t).view.set
      ↔ ∀ a : Fin 2, win5_2.index t a * S4096x128.size a ≤ (i a).val ∧ (i a).val < win5_2.index t a * S4096x128.size a + S4096x128.size a := by
  show i ∈ ((View.whole (Pipeline.arrRef spec5 2)).slice (win5_2.rect t)).set ↔ _
  rw [View.set_slice_whole, Rect.mem_set_unit]
  exact Iff.rfl

/-- Every entry of the output array lies in the block of the last node block of its edge block, which is stored. -/
theorem covered (i : S602112x128.Idx) :
    ∃ t : Fin cfg5.N, (cfg5.win 2).flush t = true ∧ i ∈ ((cfg5.win 2).blk t).view.set := by
  have hN : cfg5.N = 14406 := N_5
  have hi0 := idx2_lt0 i
  have hi1 := idx2_lt1 i
  have htl : (i 0).val / 4096 * 98 + 97 < cfg5.N := by omega
  obtain ⟨e0, e1⟩ := index_out ⟨(i 0).val / 4096 * 98 + 97, htl⟩
  refine ⟨⟨(i 0).val / 4096 * 98 + 97, htl⟩, (flush5_2 _).mpr (by show ((i 0).val / 4096 * 98 + 97) % 98 = 97; omega), ?_⟩
  rw [mem_outBlk]
  intro a
  match a with
  | ⟨0, _⟩ =>
    show win5_2.index _ 0 * 4096 ≤ (i 0).val ∧ (i 0).val < win5_2.index _ 0 * 4096 + 4096
    rw [e0]
    show ((i 0).val / 4096 * 98 + 97) / 98 * 4096 ≤ (i 0).val ∧ (i 0).val < ((i 0).val / 4096 * 98 + 97) / 98 * 4096 + 4096
    omega
  | ⟨1, _⟩ =>
    show win5_2.index _ 1 * 128 ≤ (i 1).val ∧ (i 1).val < win5_2.index _ 1 * 128 + 128
    rw [e1]; omega

/-- THE ARRAY AFTER THE REGION: the output array ends holding the gathered array. -/
theorem final_arr (c : Dev nD) : (Reg5.dat V c).arrAt 2 cfg5.N = gathered V c :=
  (Reg5.dat V c).arrAt_eq_of_cover 2 (gathered V c) (flushed_eq V c) (covered)

/-- As rows: every edge's source row of the node array, picked by one-hot weights. -/
theorem final (c : Dev nD) :
    rows2 ((Reg5.dat (F := Ideal) V c).arrAt 2 cfg5.N)
      = gatherOH (fun j => srcArr V c (ix2 0 j)) (rows2 (featArr V c)) := by
  rw [final_arr]
  rfl

end Cert.KernelIdeal.Val5

end
-- ==== Proof.KI.Pay6.lean ====
/-
  The payloads of kernel region 2 read at one element, at the extended reals: the zero block; the accumulator's
  update — what it held plus the sum, over the edge block's 4096 edges, of the one-hot weight of the edge's
  destination id at the element's node row times the edge's gathered row —; and the output block — the dense layer
  on features plus aggregate, rectified, then the row normalized with gain and offset.
-/
import proofs.«423195_j8272107012813_1_alg».proof.Proof.Gen.KernelIdeal.Skeleton
import proofs.«423195_j8272107012813_1_alg».proof.Proof.LibPlainDot
import proofs.«423195_j8272107012813_1_alg».proof.Proof.Spec
import Idealize.ShloMosaic.Lib.Pipeline.Value
import Idealize.ShloMosaic.Lib.ValueLayout
import Idealize.ShloMosaic.Lib.ValueIdx

noncomputable section

open scoped BigOperators

namespace Cert.KernelIdeal.Pay6

open Cert.KernelIdeal Cert.KernelIdeal.Gen Cert.Spec
open Idealize.ShloMosaic Idealize.ShloMosaic.ValueIdx

/-! ## Index words -/

/-- A word made from a number below 2^31 reads back, signed, as that number. -/
theorem toInt_ofNat_small (n : ℕ) (h : n < 2 ^ 31) : (BitVec.ofNat 32 n).toInt = (n : ℤ) := by
  rw [BitVec.toInt_eq_toNat_cond, BitVec.toNat_ofNat]
  have : n % 2 ^ 32 = n := Nat.mod_eq_of_lt (by omega)
  rw [this]
  split <;> omega

/-- The row number the kernel compares an id against: node block `a` (below 98) times 1024 plus the row `p` within
    the block, computed in 32-bit words, is the word of that number. -/
theorem rowWord (a p : ℕ) (ha : a < 98) (hp : p < 1024) :
    IntOp.addi (Scalar.muli (BitVec.ofNat 32 a) 1024#32) (BitVec.ofNat 32 (0 * 1024 + p)) = BitVec.ofNat 32 (a * 1024 + p) := by
  apply BitVec.eq_of_toNat_eq
  simp only [IntOp.addi, Scalar.muli, IntOp.muli, BitVec.toNat_add, BitVec.toNat_mul, BitVec.toNat_ofNat]
  omega

/-- The one-hot entry as the kernel makes it — compare for equality, widen the bit, convert to a float — is the
    one-hot weight of the id at that row. -/
theorem onehot_entry (w : BitVec 32) (a p : ℕ) (ha : a < 98) (hp : p < 1024) :
    (FloatOps.sitofp (F := Ideal) .f32 ((IntOp.cmpi .eq w (IntOp.addi (Scalar.muli (BitVec.ofNat 32 a) 1024#32) (BitVec.ofNat 32 (0 * 1024 + p)))).setWidth 32) : EReal)
      = oh w (a * 1024 + p) := by
  rw [rowWord a p ha hp]
  unfold oh
  by_cases h : w = BitVec.ofNat 32 (a * 1024 + p)
  · subst h
    rw [if_pos (toInt_ofNat_small _ (by omega))]
    simp [IntOp.cmpi]
    show (((1#32 : BitVec 32).toInt : ℝ) : EReal) = 1
    rw [show (1#32 : BitVec 32).toInt = 1 from by decide]; simp
  · have hne : ¬w.toInt = ((a * 1024 + p : ℕ) : ℤ) := fun e => h (BitVec.eq_of_toInt_eq (by rw [e, toInt_ofNat_small _ (by omega)]))
    rw [if_neg hne]
    simp [IntOp.cmpi, h]
    rw [beq_false_of_ne h]
    show (((BitVec.setWidth 32 (BitVec.ofBool false)).toInt : ℝ) : EReal) = 0
    rw [show (BitVec.setWidth 32 (BitVec.ofBool false)).toInt = 0 from by decide]; simp

/-! ## The payloads at an element -/

theorem cmpi_at {s : Shape} {w : Nat} (pr : CmpIPredicate) (x y : IVec s w) (i : s.Idx) :
    cmpi pr x y i = IntOp.cmpi pr (x i) (y i) := rfl

/-- The zero block is zero everywhere. -/
theorem zero_apply (p : Fin 1024) (q : Fin 128) : k6_pay1 (F := Ideal) (ix2 p q) = 0 := by
  unfold k6_pay1
  simp only [shapeCast_self]
  exact Ideal.ofBits_zero_f32

/-- The accumulator's update at row `p`, feature `q`: what it held, plus over the block's 4096 edges the one-hot
    weight of the edge's destination id at node row `1024 n + p` times the edge's gathered feature. -/
theorem acc_apply (i : grid6.Coords) (xd : Vec Ideal S1x4096 .i32) (xt : Vec Ideal S4096x128 .bf16)
    (xs : Vec Ideal S1024x128 .f32) (p : Fin 1024) (q : Fin 128) :
    k6_pay2 i xd xt xs (ix2 p q)
      = xs (ix2 p q) + ∑ j : Fin 4096, oh (xd (ix2 0 j)) ((i 0).val * 1024 + p.val) * xt (ix2 j q) := by
  unfold k6_pay2
  simp only [shapeCast_self]
  rw [addf_apply]
  refine congrArg (xs (ix2 p q) + ·) ?_
  refine (PlainDot.matmul_zero_apply (φ₁ := .bf16) (φ₂ := .bf16) dot_S1024x4096_S4096x128_S1024x128_1_0_0_1_n_n rfl rfl rfl rfl rfl rfl none _ xt p q).trans ?_
  refine Finset.sum_congr rfl fun j _ => ?_
  refine congrArg (· * xt (ix2 j q)) ?_
  rw [truncf_apply, sitofp_apply, extui_apply, cmpi_at,
    broadcastTo_apply xd broadcasts_S1x4096_S1024x4096 (ix2 p j) (ix2 0 j)
      (fun a => by match a with | ⟨0, _⟩ => rfl | ⟨1, _⟩ => rfl),
    broadcastTo_apply _ broadcasts_S1024x1_S1024x4096 (ix2 p j) (ix2 p 0)
      (fun a => by match a with | ⟨0, _⟩ => rfl | ⟨1, _⟩ => rfl)]
  exact onehot_entry (xd (ix2 0 j)) (i 0).val p.val (i 0).isLt p.isLt

/-! ## The output block at an element -/

theorem rsqrt_at {s : Shape} (x : FVec Ideal s .f32) (i : s.Idx) : rsqrt x i = Ideal.rsqrt (x i) := rfl

/-- A row vector spread over the rows reads its own column; -/
theorem bcRow_apply (r : FVec Ideal S1x128 .f32) (p : Fin 1024) (q : Fin 128) :
    broadcastTo S1024x128 r broadcasts_S1x128_S1024x128 (ix2 p q) = r (ix2 0 q) :=
  broadcastTo_apply r broadcasts_S1x128_S1024x128 (ix2 p q) (ix2 0 q)
    (fun a => by match a with | ⟨0, _⟩ => rfl | ⟨1, _⟩ => rfl)

/-- a column vector spread over the columns reads its own row. -/
theorem bcCol_apply (cv : FVec Ideal S1024x1 .f32) (p : Fin 1024) (q : Fin 128) :
    broadcastTo S1024x128 cv broadcasts_S1024x1_S1024x128 (ix2 p q) = cv (ix2 p 0) :=
  broadcastTo_apply cv broadcasts_S1024x1_S1024x128 (ix2 p q) (ix2 p 0)
    (fun a => by match a with | ⟨0, _⟩ => rfl | ⟨1, _⟩ => rfl)

/-- A row's sum, kept as a column: the sum of the row's 128 entries. -/
theorem rowSum_apply (Z : FVec Ideal S1024x128 .f32) (hφ : FKind.Formats FTy.f32)
    (hacc : (0x00000000#32 : BitVec 32) = 0x00000000#32) (p : Fin 1024) :
    shapeCast S1024x1 (multiReduction .add [1] S1024 Z 0x00000000#32 reduces_S1024x128_S1024 hφ hacc) shapeCasts_S1024_S1024x1 (ix2 p 0)
      = ∑ k : Fin 128, Z (ix2 p k) := by
  refine (shapeCast_apply _ shapeCasts_S1024_S1024x1 (ix2 p 0) (ix1 p) ?_).trans ?_
  · rw [Shape.rowMajor_val_one, Shape.rowMajor_val_two]; simp
  refine (Ideal.multiReduction_add_single Z 0x00000000#32 reduces_S1024x128_S1024 hφ hacc (ix1 p)).trans ?_
  refine Finset.sum_congr rfl fun k _ => congrArg Z ?_
  exact funext fun c => Fin.ext (by match c with | ⟨0, _⟩ => rfl | ⟨1, _⟩ => rfl)

/-- The dense layer's product at an element. -/
theorem mm_apply (l : FVec Ideal S1024x128 .bf16) (r : FVec Ideal S128x128 .bf16) (p : Fin 1024) (q : Fin 128) :
    matmul dot_S1024x128_S128x128_S1024x128_1_0_0_1_n_n none l r (constant S1024x128 .f32 0x00000000#32) (ix2 p q)
      = ∑ k : Fin 128, l (ix2 p k) * r (ix2 k q) :=
  PlainDot.matmul_zero_apply (φ₁ := .bf16) (φ₂ := .bf16) dot_S1024x128_S128x128_S1024x128_1_0_0_1_n_n rfl rfl rfl rfl rfl rfl none l r p q

/-- The rectified dense layer on features plus aggregate, as the kernel computes it. -/
def act (xh xs : FVec Ideal S1024x128 .f32) (xw : FVec Ideal S128x128 .f32) (xb : FVec Ideal S1x128 .f32) : FVec Ideal S1024x128 .f32 :=
  maximumf (addf (matmul dot_S1024x128_S128x128_S1024x128_1_0_0_1_n_n none (truncf .bf16 (addf xh xs) bitsLt_bf16_f32)
      (truncf .bf16 xw bitsLt_bf16_f32) (constant S1024x128 .f32 0x00000000#32)) (broadcastTo S1024x128 xb broadcasts_S1x128_S1024x128))
    (broadcast S1024x128 (Scalar.ofBits .f32 0x00000000#32))

theorem act_apply (xh xs : FVec Ideal S1024x128 .f32) (xw : FVec Ideal S128x128 .f32) (xb : FVec Ideal S1x128 .f32)
    (p : Fin 1024) (q : Fin 128) :
    act xh xs xw xb (ix2 p q) = max ((∑ k : Fin 128, (xh (ix2 p k) + xs (ix2 p k)) * xw (ix2 k q)) + xb (ix2 0 q)) 0 := by
  unfold act
  simp only [maximumf_apply, addf_apply, truncf_apply, broadcast_apply, bcRow_apply, mm_apply]
  exact congrArg (max _) Ideal.ofBits_zero_f32

/-- The mean of each row, kept as a column, as the kernel computes it: the row's sum divided by 128. -/
def rowMean (Z : FVec Ideal S1024x128 .f32) : FVec Ideal S1024x1 .f32 :=
  divf (shapeCast S1024x1 (multiReduction .add [1] S1024 Z 0x00000000#32 reduces_S1024x128_S1024 (.inl rfl) rfl) shapeCasts_S1024_S1024x1)
    (broadcast S1024x1 (Scalar.ofBits .f32 0x43000000#32))

theorem rowMean_apply (Z : FVec Ideal S1024x128 .f32) (p : Fin 1024) :
    rowMean Z (ix2 p 0) = mean (fun k => Z (ix2 p k)) := by
  unfold rowMean mean
  rw [divf_apply, broadcast_apply]
  exact congrArg (Ideal.div · _) (rowSum_apply Z _ _ p)

/-- The normalization of the rows of `Y` with gain `g` and offset `l`, as the kernel computes it. -/
def normed (Y : FVec Ideal S1024x128 .f32) (g l : FVec Ideal S1x128 .f32) : FVec Ideal S1024x128 .f32 :=
  addf (mulf (mulf (subf Y (broadcastTo S1024x128 (rowMean Y) broadcasts_S1024x1_S1024x128))
        (broadcastTo S1024x128 (rsqrt (addf (rowMean (mulf (subf Y (broadcastTo S1024x128 (rowMean Y) broadcasts_S1024x1_S1024x128))
            (subf Y (broadcastTo S1024x128 (rowMean Y) broadcasts_S1024x1_S1024x128))))
          (broadcast S1024x1 (Scalar.ofBits .f32 0x3727C5AC#32)))) broadcasts_S1024x1_S1024x128))
      (broadcastTo S1024x128 g broadcasts_S1x128_S1024x128))
    (broadcastTo S1024x128 l broadcasts_S1x128_S1024x128)

theorem normed_apply (Y : FVec Ideal S1024x128 .f32) (g l : FVec Ideal S1x128 .f32) (p : Fin 1024) (q : Fin 128) :
    normed Y g l (ix2 p q) = ln (fun d => Y (ix2 p d)) (fun d => g (ix2 0 d)) (fun d => l (ix2 0 d)) q := by
  unfold normed ln
  simp only [addf_apply, mulf_apply, subf_apply, broadcast_apply, rsqrt_at, bcRow_apply, bcCol_apply, rowMean_apply]
  rfl

/-- The output block is the normalization of the rectified dense layer. -/
theorem out_eq (xh xs : Vec Ideal S1024x128 .f32) (xw : Vec Ideal S128x128 .f32) (xb xg xl : Vec Ideal S1x128 .f32) :
    k6_pay3 xh xs xw xb xg xl = normed (act xh xs xw xb) xg xl := by
  unfold k6_pay3
  simp only [shapeCast_self]
  rfl

/-- The output block at row `p`, feature `q`: the row of features plus aggregate through the dense layer and the
    rectifier, then normalized with gain and offset. -/
theorem out_apply (xh xs : Vec Ideal S1024x128 .f32) (xw : Vec Ideal S128x128 .f32) (xb xg xl : Vec Ideal S1x128 .f32)
    (p : Fin 1024) (q : Fin 128) :
    k6_pay3 xh xs xw xb xg xl (ix2 p q)
      = ln (fun d => max ((∑ k : Fin 128, (xh (ix2 p k) + xs (ix2 p k)) * xw (ix2 k d)) + xb (ix2 0 d)) 0)
          (fun d => xg (ix2 0 d)) (fun d => xl (ix2 0 d)) q := by
  rw [out_eq, normed_apply]
  simp only [act_apply]

end Cert.KernelIdeal.Pay6

end
-- ==== Proof.KI.Val6.lean ====
/-
  What kernel region 2 leaves in its result array, at the extended reals and at any contents `V` of the buffers when
  the region is entered: one round's node update — for every node, its features plus the messages added into it by
  one-hot weights over all edges, through the dense layer and the rectifier, the row then normalized.

  The accumulator after the point (node block n, edge block e) holds, for each row of the node block, the sum over
  edge blocks 0 … e of the block's one-hot-weighted gathered rows (induction over the points, the sum restarting where
  e = 0); after e = 146 that is the sum over all 602112 edges (147 blocks of 4096). The point (n, 146) computes the
  output block from it and is the one point that writes node block n's rows back; the 98 blocks tile the array.
-/
import proofs.«423195_j8272107012813_1_alg».proof.Proof.KI.Reg6
import proofs.«423195_j8272107012813_1_alg».proof.Proof.KI.Pay6
import proofs.«423195_j8272107012813_1_alg».proof.Proof.Args
import Idealize.ShloMosaic.Lib.Pipeline.Value

set_option maxRecDepth 16384

noncomputable section

namespace Cert.KernelIdeal.Val6

open Cert.KernelIdeal Cert.KernelIdeal.Gen Cert.KernelIdeal.Reg6 Cert.KernelIdeal.Pay6 Cert.Spec Cert.Args
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The arrays the region reads, at their literal types -/

/-- The destination ids of all edges, the gathered rows of all edges, the node features, and the layer's
    parameters, as the region finds them. -/
abbrev dstA (c : Dev nD) : S1x602112.Idx → BitVec 32 := V c (Pipeline.arrRef spec6 0)
abbrev tA (c : Dev nD) : S602112x128.Idx → EReal := V c (Pipeline.arrRef spec6 1)
abbrev hA (c : Dev nD) : S100352x128.Idx → EReal := V c (Pipeline.arrRef spec6 2)
abbrev wA (c : Dev nD) : S128x128.Idx → EReal := V c (Pipeline.arrRef spec6 3)
abbrev bA (c : Dev nD) : S1x128.Idx → EReal := V c (Pipeline.arrRef spec6 4)
abbrev gA (c : Dev nD) : S1x128.Idx → EReal := V c (Pipeline.arrRef spec6 5)
abbrev lA (c : Dev nD) : S1x128.Idx → EReal := V c (Pipeline.arrRef spec6 6)

/-! ## The grid and the index maps in closed form -/

theorem tlt (t : Fin cfg6.N) : t.val < 14406 := lt_of_lt_of_eq t.isLt N_6

/-- The node-block coordinate (axis 0) of point `t` is `t / 147`. -/
theorem coord_n (t : Fin cfg6.N) : ((grid6.coords t) 0).val = t.val / 147 := by
  show t.val / grid6.stride 0 % grid6.bound 0 = t.val / 147
  rw [show grid6.stride 0 = 147 from by decide]
  exact Nat.mod_eq_of_lt (by have := tlt t; show t.val / 147 < 98; omega)

/-- The ids' block index: (0, edge block). -/
theorem idxD (t : Fin cfg6.N) : win6_0.index t 0 = 0 ∧ win6_0.index t 1 = t.val % 147 := by
  refine ⟨rfl, ?_⟩
  show (BitVec.ofNat 32 ((grid6.coords t) 1).val).toNat = t.val % 147
  rw [BitVec.toNat_ofNat, coord_e]; exact Nat.mod_eq_of_lt (by omega)

/-- The gathered rows' block index: (edge block, 0). -/
theorem idxT (t : Fin cfg6.N) : win6_1.index t 0 = t.val % 147 ∧ win6_1.index t 1 = 0 := by
  refine ⟨?_, rfl⟩
  show (BitVec.ofNat 32 ((grid6.coords t) 1).val).toNat = t.val % 147
  rw [BitVec.toNat_ofNat, coord_e]; exact Nat.mod_eq_of_lt (by omega)

/-- The features' block index: (node block, 0). -/
theorem idxH (t : Fin cfg6.N) : win6_2.index t 0 = t.val / 147 ∧ win6_2.index t 1 = 0 := by
  refine ⟨?_, rfl⟩
  show (BitVec.ofNat 32 ((grid6.coords t) 0).val).toNat = t.val / 147
  rw [BitVec.toNat_ofNat, coord_n]; exact Nat.mod_eq_of_lt (by have := tlt t; omega)

/-- The output's block index: (node block, 0). -/
theorem idxO (t : Fin cfg6.N) : win6_7.index t 0 = t.val / 147 ∧ win6_7.index t 1 = 0 := by
  refine ⟨?_, rfl⟩
  show (BitVec.ofNat 32 ((grid6.coords t) 0).val).toNat = t.val / 147
  rw [BitVec.toNat_ofNat, coord_n]; exact Nat.mod_eq_of_lt (by have := tlt t; omega)

/-! ## The blocks as parts of the arrays -/

/-- Edge block `e`'s ids are entries `4096 e …` of the id array. -/
theorem dstB_apply (c : Dev nD) (t : Fin cfg6.N) (j : Fin 4096) (k : S1x602112.Idx)
    (hk0 : (k 0).val = 0) (hk1 : (k 1).val = t.val % 147 * 4096 + j.val) :
    dstB V c t (ix2 0 j) = dstA V c k := by
  obtain ⟨h0, h1⟩ := idxD t
  unfold dstB iblk
  rw [View.read_apply]
  show V c (Pipeline.arrRef spec6 0) _ = V c (Pipeline.arrRef spec6 0) _
  congr 1
  funext a
  apply Fin.ext
  match a with
  | ⟨0, _⟩ => show win6_0.index t 0 * 1 + 1 * ((ix2 (0 : Fin 1) j) 0).val = (k 0).val; rw [h0, hk0]; rfl
  | ⟨1, _⟩ => show win6_0.index t 1 * 4096 + 1 * ((ix2 (0 : Fin 1) j) 1).val = (k 1).val; rw [h1, hk1]; show _ + 1 * j.val = _; omega

/-- Edge block `e`'s gathered rows are rows `4096 e …` of the gathered array. -/
theorem tB_apply (c : Dev nD) (t : Fin cfg6.N) (j : Fin 4096) (q : Fin 128) (k : S602112x128.Idx)
    (hk0 : (k 0).val = t.val % 147 * 4096 + j.val) (hk1 : (k 1).val = q.val) :
    tB V c t (ix2 j q) = tA V c k := by
  obtain ⟨h0, h1⟩ := idxT t
  unfold tB iblk
  rw [View.read_apply]
  show V c (Pipeline.arrRef spec6 1) _ = V c (Pipeline.arrRef spec6 1) _
  congr 1
  funext a
  apply Fin.ext
  match a with
  | ⟨0, _⟩ => show win6_1.index t 0 * 4096 + 1 * ((ix2 j q) 0).val = (k 0).val; rw [h0, hk0]; show _ + 1 * j.val = _; omega
  | ⟨1, _⟩ => show win6_1.index t 1 * 128 + 1 * ((ix2 j q) 1).val = (k 1).val; rw [h1, hk1]; show _ + 1 * q.val = _; omega

/-- Node block `n`'s features are rows `1024 n …` of the feature array. -/
theorem hB_apply (c : Dev nD) (t : Fin cfg6.N) (p : Fin 1024) (q : Fin 128) (k : S100352x128.Idx)
    (hk0 : (k 0).val = t.val / 147 * 1024 + p.val) (hk1 : (k 1).val = q.val) :
    hB V c t (ix2 p q) = hA V c k := by
  obtain ⟨h0, h1⟩ := idxH t
  unfold hB iblk
  rw [View.read_apply]
  show V c (Pipeline.arrRef spec6 2) _ = V c (Pipeline.arrRef spec6 2) _
  congr 1
  funext a
  apply Fin.ext
  match a with
  | ⟨0, _⟩ => show win6_2.index t 0 * 1024 + 1 * ((ix2 p q) 0).val = (k 0).val; rw [h0, hk0]; show _ + 1 * p.val = _; omega
  | ⟨1, _⟩ => show win6_2.index t 1 * 128 + 1 * ((ix2 p q) 1).val = (k 1).val; rw [h1, hk1]; show _ + 1 * q.val = _; omega

/-- The parameters' blocks are the parameter arrays. -/
theorem wB_apply (c : Dev nD) (t : Fin cfg6.N) (k : Fin 128) (d : Fin 128) : wB V c t (ix2 k d) = wA V c (ix2 k d) := by
  unfold wB iblk
  rw [View.read_apply]
  show V c (Pipeline.arrRef spec6 3) _ = V c (Pipeline.arrRef spec6 3) _
  congr 1
  funext a
  apply Fin.ext
  match a with
  | ⟨0, _⟩ => show win6_3.index t 0 * 128 + 1 * ((ix2 k d) 0).val = ((ix2 k d) 0).val; rw [show win6_3.index t 0 = 0 from rfl]; omega
  | ⟨1, _⟩ => show win6_3.index t 1 * 128 + 1 * ((ix2 k d) 1).val = ((ix2 k d) 1).val; rw [show win6_3.index t 1 = 0 from rfl]; omega

theorem bB_apply (c : Dev nD) (t : Fin cfg6.N) (d : Fin 128) : bB V c t (ix2 0 d) = bA V c (ix2 0 d) := by
  unfold bB iblk
  rw [View.read_apply]
  show V c (Pipeline.arrRef spec6 4) _ = V c (Pipeline.arrRef spec6 4) _
  congr 1
  funext a
  apply Fin.ext
  match a with
  | ⟨0, _⟩ => show win6_4.index t 0 * 1 + 1 * ((ix2 (0 : Fin 1) d) 0).val = ((ix2 (0 : Fin 1) d) 0).val; rw [show win6_4.index t 0 = 0 from rfl]; omega
  | ⟨1, _⟩ => show win6_4.index t 1 * 128 + 1 * ((ix2 (0 : Fin 1) d) 1).val = ((ix2 (0 : Fin 1) d) 1).val; rw [show win6_4.index t 1 = 0 from rfl]; omega

theorem gB_apply (c : Dev nD) (t : Fin cfg6.N) (d : Fin 128) : gB V c t (ix2 0 d) = gA V c (ix2 0 d) := by
  unfold gB iblk
  rw [View.read_apply]
  show V c (Pipeline.arrRef spec6 5) _ = V c (Pipeline.arrRef spec6 5) _
  congr 1
  funext a
  apply Fin.ext
  match a with
  | ⟨0, _⟩ => show win6_5.index t 0 * 1 + 1 * ((ix2 (0 : Fin 1) d) 0).val = ((ix2 (0 : Fin 1) d) 0).val; rw [show win6_5.index t 0 = 0 from rfl]; omega
  | ⟨1, _⟩ => show win6_5.index t 1 * 128 + 1 * ((ix2 (0 : Fin 1) d) 1).val = ((ix2 (0 : Fin 1) d) 1).val; rw [show win6_5.index t 1 = 0 from rfl]; omega

theorem lB_apply (c : Dev nD) (t : Fin cfg6.N) (d : Fin 128) : lB V c t (ix2 0 d) = lA V c (ix2 0 d) := by
  unfold lB iblk
  rw [View.read_apply]
  show V c (Pipeline.arrRef spec6 6) _ = V c (Pipeline.arrRef spec6 6) _
  congr 1
  funext a
  apply Fin.ext
  match a with
  | ⟨0, _⟩ => show win6_6.index t 0 * 1 + 1 * ((ix2 (0 : Fin 1) d) 0).val = ((ix2 (0 : Fin 1) d) 0).val; rw [show win6_6.index t 0 = 0 from rfl]; omega
  | ⟨1, _⟩ => show win6_6.index t 1 * 128 + 1 * ((ix2 (0 : Fin 1) d) 1).val = ((ix2 (0 : Fin 1) d) 1).val; rw [show win6_6.index t 1 = 0 from rfl]; omega

/-! ## The accumulator as a partial sum over edge blocks -/

/-- Edge block `e`'s contribution to node row `r`, feature `q`: over the block's 4096 edges, the one-hot weight
    of the edge's destination id at `r` times the edge's gathered feature (nothing for `e` beyond the 147 blocks). -/
def blockSum (c : Dev nD) (r : ℕ) (q : Fin 128) (e : ℕ) : EReal :=
  if h : e < 147 then
    ∑ j : Fin 4096, oh (dstA V c (ix2 0 (⟨e * 4096 + j.val, by have := j.isLt; omega⟩ : Fin 602112))) r
      * tA V c (ix2 (⟨e * 4096 + j.val, by have := j.isLt; omega⟩ : Fin 602112) q)
  else 0

/-- What a point adds to the accumulator is its edge block's contribution to its node block's rows. -/
theorem block_term (c : Dev nD) (t : Fin cfg6.N) (p : Fin 1024) (q : Fin 128) :
    ∑ j : Fin 4096, oh (dstB V c t (ix2 0 j)) (((grid6.coords t) 0).val * 1024 + p.val) * tB V c t (ix2 j q)
      = blockSum V c (t.val / 147 * 1024 + p.val) q (t.val % 147) := by
  unfold blockSum
  rw [dif_pos (Nat.mod_lt _ (by norm_num)), coord_n]
  refine Finset.sum_congr rfl fun j _ => ?_
  have hlt : t.val % 147 * 4096 + j.val < 602112 := by have := j.isLt; omega
  rw [dstB_apply V c t j (ix2 0 ⟨t.val % 147 * 4096 + j.val, hlt⟩) rfl rfl,
    tB_apply V c t j q (ix2 ⟨t.val % 147 * 4096 + j.val, hlt⟩ q) rfl rfl]

/-- THE ACCUMULATOR after point `k` = (node block `k / 147`, edge block `k % 147`): the contributions of edge
    blocks `0 … k % 147` to the node block's rows, added in that order from zero. -/
theorem scr_sum (c : Dev nD) : ∀ (k : ℕ) (hk : k < cfg6.N) (p : Fin 1024) (q : Fin 128),
    scr V c k hk (ix2 p q) = ∑ e ∈ Finset.range (k % 147 + 1), blockSum V c (k / 147 * 1024 + p.val) q e := by
  intro k
  induction k with
  | zero =>
    intro hk p q
    refine (congrFun (scr_reset V c ⟨0, hk⟩ rfl) (ix2 p q)).trans ?_
    refine (acc_apply _ _ _ _ p q).trans ?_
    rw [zero_apply, zero_add, block_term V c ⟨0, hk⟩ p q]
    simp
  | succ n ih =>
    intro hk p q
    by_cases hr : (n + 1) % 147 = 0
    · refine (congrFun (scr_reset V c ⟨n + 1, hk⟩ hr) (ix2 p q)).trans ?_
      refine (acc_apply _ _ _ _ p q).trans ?_
      rw [zero_apply, zero_add, block_term V c ⟨n + 1, hk⟩ p q]
      show blockSum V c ((n + 1) / 147 * 1024 + p.val) q ((n + 1) % 147) = _
      rw [hr]; simp
    · refine (congrFun (scr_acc V c ⟨n + 1, hk⟩ hr) (ix2 p q)).trans ?_
      refine (acc_apply _ _ _ _ p q).trans ?_
      rw [block_term V c ⟨n + 1, hk⟩ p q]
      show scr V c n _ (ix2 p q) + blockSum V c ((n + 1) / 147 * 1024 + p.val) q ((n + 1) % 147) = _
      rw [ih (Nat.lt_of_succ_lt hk) p q, Finset.sum_range_succ _ ((n + 1) % 147),
        show n % 147 + 1 = (n + 1) % 147 from by omega, show n / 147 = (n + 1) / 147 from by omega]

/-- All 147 contributions are the sum over all edges. -/
theorem sum_blocks (c : Dev nD) (r : ℕ) (q : Fin 128) :
    ∑ e ∈ Finset.range 147, blockSum V c r q e
      = ∑ j : Fin 602112, oh (dstA V c (ix2 0 j)) r * tA V c (ix2 j q) := by
  rw [Finset.sum_range]
  refine Eq.symm ((Equiv.sum_comp (finProdFinEquiv : Fin 147 × Fin 4096 ≃ Fin 602112)
    (fun j => oh (dstA V c (ix2 0 j)) r * tA V c (ix2 j q))).symm.trans ?_)
  rw [Fintype.sum_prod_type]
  refine Finset.sum_congr rfl fun e _ => ?_
  unfold blockSum
  rw [dif_pos e.isLt]
  refine Finset.sum_congr rfl fun j _ => ?_
  have hj : (finProdFinEquiv (e, j) : Fin 602112) = ⟨e.val * 4096 + j.val, by have := e.isLt; have := j.isLt; omega⟩ :=
    Fin.ext (by show j.val + 4096 * e.val = e.val * 4096 + j.val; omega)
  rw [hj]

/-! ## The output block, and from blocks to the array -/

/-- Every node's incoming messages: over all edges, the one-hot weight of the edge's destination id at the node
    times the edge's gathered row. -/
def aggr (c : Dev nD) : Fin 100352 → Fin 128 → EReal :=
  scatterOH (fun j => dstA V c (ix2 0 j)) (rows2 (tA V c))

/-- What the region's result array ends holding: one round's node update from the features and the aggregated
    messages. -/
def G (c : Dev nD) : S100352x128.Idx → EReal := fun i =>
  mlpLn (rows2 (hA V c)) (aggr V c) (rows2 (wA V c)) (fun d => bA V c (ix2 0 d)) (fun d => gA V c (ix2 0 d))
    (fun d => lA V c (ix2 0 d)) (i 0) (i 1)

/-- After the last edge block the accumulator holds the node block's rows of the aggregated messages. -/
theorem scr_last (c : Dev nD) (t : Fin cfg6.N) (he : t.val % 147 = 146) (p : Fin 1024) (k : Fin 128)
    (r : Fin 100352) (hr : r.val = t.val / 147 * 1024 + p.val) :
    scr V c t.val t.isLt (ix2 p k) = aggr V c r k := by
  rw [scr_sum V c t.val t.isLt p k, he, sum_blocks V c _ k, ← hr]
  rfl

/-- The output block the last edge block's point stores is the node block's rows of `G`. -/
theorem outv_last (c : Dev nD) (t : Fin cfg6.N) (he : t.val % 147 = 146) (p : Fin 1024) (q : Fin 128)
    (i : S100352x128.Idx) (hi0 : (i 0).val = t.val / 147 * 1024 + p.val) (hi1 : (i 1).val = q.val) :
    outv V c t (ix2 p q) = G V c i := by
  have hq : i 1 = q := Fin.ext hi1
  unfold outv G
  rw [out_apply, hq]
  unfold mlpLn linRelu
  have eh : ∀ k : Fin 128, hB V c t (ix2 p k) = rows2 (hA V c) (i 0) k := fun k => hB_apply V c t p k _ hi0 rfl
  have es : ∀ k : Fin 128, scr V c t.val t.isLt (ix2 p k) = aggr V c (i 0) k := fun k => scr_last V c t he p k (i 0) hi0
  have ew : ∀ k d : Fin 128, wB V c t (ix2 k d) = rows2 (wA V c) k d := fun k d => wB_apply V c t k d
  have eb : ∀ d : Fin 128, bB V c t (ix2 0 d) = bA V c (ix2 0 d) := fun d => bB_apply V c t d
  have eg : ∀ d : Fin 128, gB V c t (ix2 0 d) = gA V c (ix2 0 d) := fun d => gB_apply V c t d
  have el : ∀ d : Fin 128, lB V c t (ix2 0 d) = lA V c (ix2 0 d) := fun d => lB_apply V c t d
  simp only [eh, es, ew, eb, eg, el]

/-- WHAT A POINT WRITES BACK is its block of `G`. -/
theorem flushed_eq (c : Dev nD) (t : Fin cfg6.N) (hf : (cfg6.win 7).flush t = true) :
    (dat V c).flushed 7 t = ((cfg6.win 7).blk t).view.read (Elt Ideal) (G V c) := by
  have he : t.val % 147 = 146 := (flush6_7 t).mp hf
  obtain ⟨h0, h1⟩ := idxO t
  show (cfg6.win 7).cut (grid6.coords t) ((dat V c).after 7 t) = _
  rw [after_out]
  funext y
  obtain ⟨p, q, rfl⟩ : ∃ (p : Fin 1024) (q : Fin 128), y = ix2 p q := ⟨y 0, y 1, eq_ix2 y⟩
  rw [View.read_apply]
  refine outv_last V c t he p q _ ?_ ?_
  · show win6_7.index t 0 * 1024 + 1 * ((ix2 p q) 0).val = _; rw [h0]; show _ + 1 * p.val = _; omega
  · show win6_7.index t 1 * 128 + 1 * ((ix2 p q) 1).val = _; rw [h1]; show _ + 1 * q.val = _; omega

/-- An index of the result array is in point `t`'s block iff each coordinate is in the block's range. -/
theorem mem_blk (t : Fin cfg6.N) (i : S100352x128.Idx) :
    i ∈ ((cfg6.win 7).blk t).view.set ↔ ∀ a : Fin 2, win6_7.index t a * S1024x128.size a ≤ (i a).val ∧ (i a).val < win6_7.index t a * S1024x128.size a + S1024x128.size a := by
  show i ∈ ((View.whole (Pipeline.arrRef spec6 7)).slice (win6_7.rect t)).set ↔ _
  rw [View.set_slice_whole, Rect.mem_set_unit]
  exact Iff.rfl

/-- Every row of the result array is in the block of its node block's last point. -/
theorem cover (i : S100352x128.Idx) : ∃ t : Fin cfg6.N, (cfg6.win 7).flush t = true ∧ i ∈ ((cfg6.win 7).blk t).view.set := by
  have hi0 : (i 0).val < 100352 := (i 0).isLt
  have hi1 : (i 1).val < 128 := (i 1).isLt
  have hN : cfg6.N = 14406 := N_6
  let t : Fin cfg6.N := ⟨(i 0).val / 1024 * 147 + 146, by rw [hN]; omega⟩
  have htv : t.val = (i 0).val / 1024 * 147 + 146 := rfl
  obtain ⟨h0, h1⟩ := idxO t
  refine ⟨t, (flush6_7 t).mpr (by rw [htv]; omega), ?_⟩
  rw [mem_blk]
  intro a
  match a with
  | ⟨0, _⟩ => show win6_7.index t 0 * 1024 ≤ (i 0).val ∧ (i 0).val < win6_7.index t 0 * 1024 + 1024; rw [h0, htv]; omega
  | ⟨1, _⟩ => show win6_7.index t 1 * 128 ≤ (i 1).val ∧ (i 1).val < win6_7.index t 1 * 128 + 128; rw [h1]; omega

/-- THE RESULT ARRAY after the region: one round's node update. -/
theorem arr_final (c : Dev nD) : (dat V c).arrAt 7 cfg6.N = G V c :=
  (dat V c).arrAt_eq_of_cover 7 (G V c) (flushed_eq V c) cover

theorem final (c : Dev nD) :
    rows2 ((dat (F := Ideal) V c).arrAt 7 cfg6.N)
      = mlpLn (rows2 (V c (Pipeline.arrRef spec6 2)))
          (scatterOH (fun j => V c (Pipeline.arrRef spec6 0) (ix2 0 j)) (rows2 (V c (Pipeline.arrRef spec6 1))))
          (rows2 (V c (Pipeline.arrRef spec6 3))) (fun d => V c (Pipeline.arrRef spec6 4) (ix2 0 d))
          (fun d => V c (Pipeline.arrRef spec6 5) (ix2 0 d)) (fun d => V c (Pipeline.arrRef spec6 6) (ix2 0 d)) := by
  rw [arr_final]
  rfl

end Cert.KernelIdeal.Val6

end
-- ==== Proof.KI.Val7.lean ====
/-
  What kernel region 7, the mean-pool kernel, leaves in its two result arrays, at the extended reals: the sums
  array holds, for graph g and feature d, the sum over ALL 100352 nodes of the one-hot weight of the node's id
  word at g times the node's feature d, and the counts array the number of nodes whose id is g.

  The kernel visits the nodes in 98 blocks of 1024. At a block it builds the 128x1024 indicator whose (g, j)
  entry compares node j's id word with g, and adds into the resident sums the product of the indicator with the
  block's features, into the resident counts the indicator's row sums. Read at an element with exact
  arithmetic, the indicator's entry is the one-hot weight (a graph number below 128 is the same word read
  signed or unsigned), the product into a zero accumulator is the plain sum over the block's nodes, the format
  changes are the identity and the reset stores zero; so by induction on the block the resident buffers hold the
  sums over the blocks so far, and after the last block the sum over all nodes, regrouped block by block.
-/
import proofs.«423195_j8272107012813_1_alg».proof.Proof.KI.Reg7
import proofs.«423195_j8272107012813_1_alg».proof.Proof.Args
import proofs.«423195_j8272107012813_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Val7

open Cert.KernelIdeal Cert.KernelIdeal.Gen Cert.Spec Cert.Args
open Idealize.ShloMosaic Idealize.ShloMosaic.TcCoe Idealize.ShloMosaic.ValueIdx
open Idealize.ShloMosaic.Pipeline (Dat)
open scoped BigOperators

/-! ## The one-hot entry -/

/-- A graph number below 128, as a 32-bit word, reads back signed as itself. -/
theorem toInt_ofNat_graph (g : Fin 128) : (BitVec.ofNat 32 g.val).toInt = (g.val : ℤ) := by
  revert g; decide

/-- A word equals graph number `g`'s word exactly when its signed reading is `g`. -/
theorem eq_ofNat_graph_iff (w : BitVec 32) (g : Fin 128) : w = BitVec.ofNat 32 g.val ↔ w.toInt = (g.val : ℤ) :=
  ⟨fun h => h ▸ toInt_ofNat_graph g, fun h => BitVec.toInt_inj.mp (h.trans (toInt_ofNat_graph g).symm)⟩

/-- The comparison of an id word with a graph number, widened and converted: the one-hot weight. -/
theorem onehot_word (w : BitVec 32) (g : Fin 128) :
    (FloatOps.sitofp (F := Ideal) .f32 ((IntOp.cmpi .eq w (BitVec.ofNat 32 g.val)).setWidth 32) : EReal) = oh w g.val := by
  unfold oh
  by_cases h : w = BitVec.ofNat 32 g.val
  · rw [if_pos ((eq_ofNat_graph_iff w g).mp h)]
    subst h
    have : IntOp.cmpi .eq (BitVec.ofNat 32 g.val) (BitVec.ofNat 32 g.val) = 1#1 := by simp [IntOp.cmpi]
    rw [this]
    show (((BitVec.setWidth 32 1#1).toInt : ℝ) : EReal) = 1
    have e : (BitVec.setWidth 32 1#1).toInt = 1 := by decide
    rw [e]; simp
  · rw [if_neg (fun h' => h ((eq_ofNat_graph_iff w g).mpr h'))]
    have hb : (w == BitVec.ofNat 32 g.val) = false := beq_eq_false_iff_ne.mpr h
    have : IntOp.cmpi .eq w (BitVec.ofNat 32 g.val) = 0#1 := by simp [IntOp.cmpi, hb]
    rw [this]
    show (((BitVec.setWidth 32 0#1).toInt : ℝ) : EReal) = 0
    have e : (BitVec.setWidth 32 0#1).toInt = 0 := by decide
    rw [e]; simp

/-! ## The payloads at an element -/

/-- The 128x1024 indicator block at (g, j): the one-hot weight of node j's id word at graph g. -/
theorem pay3_apply (v4 : Vec Ideal S1x1024 .i32) (g : Fin 128) (j : Fin 1024) :
    k7_pay3 (F := Ideal) v4 (ix2 g j) = oh (v4 (ix2 0 j)) g.val := by
  unfold k7_pay3
  refine Eq.trans ?_ (onehot_word (v4 (ix2 0 j)) g)
  show FloatOps.sitofp (F := Ideal) .f32 ((IntOp.cmpi .eq
      (broadcastTo S128x1024 (shapeCast S1x1024 v4 shapeCasts_S1x1024_S1x1024) broadcasts_S1x1024_S128x1024 (ix2 g j))
      (broadcastTo S128x1024 (iota .tc S128x1 32 [0] iota_S128x1_d0_w32) broadcasts_S128x1_S128x1024 (ix2 g j))).setWidth 32) = _
  rw [broadcastTo_apply _ broadcasts_S1x1024_S128x1024 (ix2 g j) (ix2 0 j) (fun a => by
        match a with
        | ⟨0, _⟩ => rfl
        | ⟨1, _⟩ => rfl),
    broadcastTo_apply _ broadcasts_S128x1_S128x1024 (ix2 g j) (ix2 g 0) (fun a => by
        match a with
        | ⟨0, _⟩ => rfl
        | ⟨1, _⟩ => rfl),
    shapeCast_self, iota_single_apply]

/-- The zero blocks the reset stores. -/
theorem pay1_apply (i : S128x128.Idx) : k7_pay1 (F := Ideal) i = 0 := by
  unfold k7_pay1
  exact Ideal.ofBits_zero_f32
theorem pay2_apply (i : S128x1.Idx) : k7_pay2 (F := Ideal) i = 0 := by
  unfold k7_pay2
  exact Ideal.ofBits_zero_f32

/-- The sums' update at (g, d): what was there plus, over the block's 1024 nodes, the one-hot weight of the node's
    id at graph g times the node's feature d. -/
theorem pay4_apply (v4 : Vec Ideal S1x1024 .i32) (v12 : Vec Ideal S1024x128 .f32) (v15 : Vec Ideal S128x128 .f32)
    (g d : Fin 128) :
    k7_pay4 (F := Ideal) v4 v12 v15 (ix2 g d)
      = v15 (ix2 g d) + ∑ j : Fin 1024, oh (v4 (ix2 0 j)) g.val * v12 (ix2 j d) := by
  unfold k7_pay4
  show shapeCast S128x128 v15 shapeCasts_S128x128_S128x128 (ix2 g d)
      + FloatOps.matmul dot_S128x1024_S1024x128_S128x128_1_0_0_1_n_n none
          (truncf .bf16 (k7_pay3 (F := Ideal) v4) bitsLt_bf16_f32)
          (truncf .bf16 (shapeCast S1024x128 v12 shapeCasts_S1024x128_S1024x128) bitsLt_bf16_f32)
          (constant (F := Ideal) S128x128 .f32 0x00000000#32) (ix2 g d) = _
  refine congrArg₂ (· + ·) (congrFun (shapeCast_self v15 _) _) ?_
  refine (PlainDot.matmul_zero_apply dot_S128x1024_S1024x128_S128x128_1_0_0_1_n_n rfl rfl rfl rfl rfl rfl none _ _ g d).trans ?_
  refine Finset.sum_congr rfl fun j _ => ?_
  refine congrArg₂ (· * ·) (pay3_apply v4 g j) ?_
  show shapeCast S1024x128 v12 shapeCasts_S1024x128_S1024x128 (ix2 j d) = _
  exact congrFun (shapeCast_self v12 _) _

/-- The counts' update at (g, 0): what was there plus the number of the block's nodes whose id is g. -/
theorem pay5_apply (v4 : Vec Ideal S1x1024 .i32) (v20 : Vec Ideal S128x1 .f32) (g : Fin 128) :
    k7_pay5 (F := Ideal) v4 v20 (ix2 g 0) = v20 (ix2 g 0) + ∑ j : Fin 1024, oh (v4 (ix2 0 j)) g.val := by
  unfold k7_pay5
  show shapeCast S128x1 v20 shapeCasts_S128x1_S128x1 (ix2 g 0)
      + shapeCast S128x1 (multiReduction (F := Ideal) .add [1] S128 (k7_pay3 (F := Ideal) v4) 0x00000000#32
          reduces_S128x1024_S128 (.inl rfl) rfl) shapeCasts_S128_S128x1 (ix2 g 0) = _
  refine congrArg₂ (· + ·) (congrFun (shapeCast_self v20 _) _) ?_
  refine (shapeCast_apply _ shapeCasts_S128_S128x1 (ix2 g 0) (ix1 g) (by
    rw [Shape.rowMajor_val_one, Shape.rowMajor_val_two]
    show g.val = g.val * 1 + (0 : Fin 1).val
    simp)).trans ?_
  refine (Ideal.multiReduction_add_single (k7_pay3 (F := Ideal) v4) 0x00000000#32 reduces_S128x1024_S128 (.inl rfl) rfl (ix1 g)).trans ?_
  refine Finset.sum_congr rfl fun j _ => ?_
  have e : reduces_S128x1024_S128.lift (ix1 g) j = ix2 g j := funext fun a => Fin.ext (by
    match a with
    | ⟨0, _⟩ => rfl
    | ⟨1, _⟩ => rfl)
  rw [e]
  exact pay3_apply v4 g j

/-! ## The blocks read off the arrays -/

variable (V : (c : Dev nD) → (b : Ref sig .tc) → Buf (Elt Ideal) ((c : Thread nD τ).loc b))

/-- The printed index maps, decided over the 98 points: block t of the ids is columns 1024 t onwards of the one
    row, block t of the features rows 1024 t onwards. -/
theorem idx_facts : ∀ t : Fin cfg7.N, win7_0.index t (0 : Fin 2) = 0 ∧ win7_0.index t (1 : Fin 2) = t.val
    ∧ win7_1.index t (0 : Fin 2) = t.val ∧ win7_1.index t (1 : Fin 2) = 0 :=
  (by decide +kernel : ∀ t : Fin grid7.N, _)

/-- Node j of block t is node 1024 t + j of the array: its id word, -/
theorem ids_apply (c : Dev nD) (t : Fin cfg7.N) (j : Fin 1024) (r : Fin 100352) (hr : r.val = t.val * 1024 + j.val) :
    Reg7.ids (F := Ideal) V c t (ix2 0 j) = V c main_v10 (ix2 0 r) := by
  obtain ⟨e0, e1, -, -⟩ := idx_facts t
  show V c main_v10 (((cfg7.win 0).blk t).view.emb (ix2 0 j)) = V c main_v10 (ix2 0 r)
  refine congrArg _ (funext fun a => Fin.ext ?_)
  match a with
  | ⟨0, _⟩ => show win7_0.index t (0 : Fin 2) * 1 + 1 * (0 : Fin 1).val = (0 : Fin 1).val; simp [e0]
  | ⟨1, _⟩ => show win7_0.index t (1 : Fin 2) * 1024 + 1 * j.val = r.val; omega

/-- and its feature d. -/
theorem feats_apply (c : Dev nD) (t : Fin cfg7.N) (j : Fin 1024) (d : Fin 128) (r : Fin 100352)
    (hr : r.val = t.val * 1024 + j.val) :
    Reg7.feats (F := Ideal) V c t (ix2 j d) = V c main_v45 (ix2 r d) := by
  obtain ⟨-, -, e2, e3⟩ := idx_facts t
  show V c main_v45 (((cfg7.win 1).blk t).view.emb (ix2 j d)) = V c main_v45 (ix2 r d)
  refine congrArg _ (funext fun a => Fin.ext ?_)
  match a with
  | ⟨0, _⟩ => show win7_1.index t (0 : Fin 2) * 1024 + 1 * j.val = r.val; omega
  | ⟨1, _⟩ => show win7_1.index t (1 : Fin 2) * 128 + 1 * d.val = d.val; omega

/-! ## The running sums, point by point -/

/-- The sums after point n at (g, d): over the blocks so far and each block's 1024 nodes, the one-hot weight of the
    node's id at graph g times its feature d. By induction on the point: the reset contributes zero and every
    point adds its block's sum. -/
theorem sumsAt_apply (c : Dev nD) : ∀ (n : ℕ) (h : n < cfg7.N) (g d : Fin 128),
    Reg7.sumsAt (F := Ideal) V c n h (ix2 g d)
      = ∑ k : Fin (n + 1), ∑ j : Fin 1024,
          oh (Reg7.ids (F := Ideal) V c ⟨k.val, lt_of_lt_of_le k.isLt h⟩ (ix2 0 j)) g.val
            * Reg7.feats (F := Ideal) V c ⟨k.val, lt_of_lt_of_le k.isLt h⟩ (ix2 j d)
  | 0, h, g, d => by
    refine (pay4_apply (Reg7.ids (F := Ideal) V c ⟨0, h⟩) (Reg7.feats (F := Ideal) V c ⟨0, h⟩) (k7_pay1 (F := Ideal)) g d).trans ?_
    rw [pay1_apply, zero_add, Fin.sum_univ_one]
    rfl
  | n + 1, h, g, d => by
    refine (pay4_apply (Reg7.ids (F := Ideal) V c ⟨n + 1, h⟩) (Reg7.feats (F := Ideal) V c ⟨n + 1, h⟩)
      (Reg7.sumsAt (F := Ideal) V c n (Nat.lt_of_succ_lt h)) g d).trans ?_
    rw [sumsAt_apply c n (Nat.lt_of_succ_lt h) g d, Fin.sum_univ_castSucc (n := n + 1)]
    rfl

/-- The counts after point n at (g, 0): the number of nodes so far whose id is g. -/
theorem countsAt_apply (c : Dev nD) : ∀ (n : ℕ) (h : n < cfg7.N) (g : Fin 128),
    Reg7.countsAt (F := Ideal) V c n h (ix2 g 0)
      = ∑ k : Fin (n + 1), ∑ j : Fin 1024,
          oh (Reg7.ids (F := Ideal) V c ⟨k.val, lt_of_lt_of_le k.isLt h⟩ (ix2 0 j)) g.val
  | 0, h, g => by
    refine (pay5_apply (Reg7.ids (F := Ideal) V c ⟨0, h⟩) (k7_pay2 (F := Ideal)) g).trans ?_
    rw [pay2_apply, zero_add, Fin.sum_univ_one]
    rfl
  | n + 1, h, g => by
    refine (pay5_apply (Reg7.ids (F := Ideal) V c ⟨n + 1, h⟩) (Reg7.countsAt (F := Ideal) V c n (Nat.lt_of_succ_lt h)) g).trans ?_
    rw [countsAt_apply c n (Nat.lt_of_succ_lt h) g, Fin.sum_univ_castSucc (n := n + 1)]
    rfl

/-! ## All the nodes, block by block -/

/-- A sum over the 100352 nodes is the sum over the 98 blocks of the sums over each block's 1024 nodes. -/
theorem sum_nodes (f : Fin 100352 → EReal) :
    ∑ r : Fin 100352, f r = ∑ k : Fin 98, ∑ j : Fin 1024, f ⟨k.val * 1024 + j.val, by have := k.isLt; have := j.isLt; omega⟩ := by
  rw [← Equiv.sum_comp (finProdFinEquiv (m := 98) (n := 1024)) f, Fintype.sum_prod_type]
  refine Finset.sum_congr rfl fun k _ => Finset.sum_congr rfl fun j _ => congrArg f (Fin.ext ?_)
  show j.val + 1024 * k.val = k.val * 1024 + j.val
  omega

/-! ## The two result arrays -/

/-- The sums array after the run: each graph's feature sums over all the nodes. -/
theorem final_sums (c : Dev nD) :
    rows2 ((Reg7.dat (F := Ideal) V c).arrAt 2 cfg7.N)
      = poolSum (G := 128) (fun r => V c main_v10 (ix2 0 r)) (rows2 (V c main_v45)) := by
  rw [Reg7.final_2]
  funext g d
  show Reg7.sumsAt (F := Ideal) V c 97 _ (ix2 g d) = ∑ r : Fin 100352, oh (V c main_v10 (ix2 0 r)) g.val * V c main_v45 (ix2 r d)
  rw [sumsAt_apply V c 97 _ g d, sum_nodes]
  refine Finset.sum_congr rfl fun k _ => Finset.sum_congr rfl fun j _ => ?_
  rw [ids_apply V c ⟨k.val, _⟩ j ⟨k.val * 1024 + j.val, by have := k.isLt; have := j.isLt; omega⟩ rfl,
    feats_apply V c ⟨k.val, _⟩ j d ⟨k.val * 1024 + j.val, by have := k.isLt; have := j.isLt; omega⟩ rfl]

/-- The counts array after the run: each graph's number of nodes. -/
theorem final_cnt (c : Dev nD) :
    (fun g => (Reg7.dat (F := Ideal) V c).arrAt 3 cfg7.N (ix2 g 0))
      = poolCnt (G := 128) (fun r => V c main_v10 (ix2 0 r)) := by
  rw [Reg7.final_3]
  funext g
  show Reg7.countsAt (F := Ideal) V c 97 _ (ix2 g 0) = ∑ r : Fin 100352, oh (V c main_v10 (ix2 0 r)) g.val
  rw [countsAt_apply V c 97 _ g, sum_nodes]
  refine Finset.sum_congr rfl fun k _ => Finset.sum_congr rfl fun j _ => ?_
  rw [ids_apply V c ⟨k.val, _⟩ j ⟨k.val * 1024 + j.val, by have := k.isLt; have := j.isLt; omega⟩ rfl]

end Cert.KernelIdeal.Val7

end
-- ==== Proof.KI.Value.lean ====
/-
  What the idealized kernel program leaves in its result: the padded one-hot computation of the arguments.

  The program is twenty-one items: nine stretches of host operations that pad and reshape the arguments, then the
  projection, then three rounds of (gather, a stretch that slices the round's parameters, update), then the pool and
  a closing stretch that divides the sums by the counts.  Between two items every buffer holds known contents.  Item by
  item: a region's output array is the value proved of that region, read at the contents the region was entered
  with; a buffer no item in between writes keeps its contents; a host stretch's results are read off its operations.
  Chaining these from the launch gives, in order, the node rows after the projection and after each round, each
  round's gathered rows, the per-graph sums and counts, and at the end the quotient the result holds.
-/
import proofs.«423195_j8272107012813_1_alg».proof.Proof.KI.Run
import proofs.«423195_j8272107012813_1_alg».proof.Proof.Args
import proofs.«423195_j8272107012813_1_alg».proof.Proof.KI.HostVals
import proofs.«423195_j8272107012813_1_alg».proof.Proof.KI.Val0
import proofs.«423195_j8272107012813_1_alg».proof.Proof.KI.Val1
import proofs.«423195_j8272107012813_1_alg».proof.Proof.KI.Val2
import proofs.«423195_j8272107012813_1_alg».proof.Proof.KI.Val3
import proofs.«423195_j8272107012813_1_alg».proof.Proof.KI.Val4
import proofs.«423195_j8272107012813_1_alg».proof.Proof.KI.Val5
import proofs.«423195_j8272107012813_1_alg».proof.Proof.KI.Val6
import proofs.«423195_j8272107012813_1_alg».proof.Proof.KI.Val7

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.ValueIdx Cert.Spec Cert.Args Cert.Bridge

variable (m : (ℓ : Loc nD τ sig) → Buf (Elt Ideal) ℓ)

/-! ## The arguments as the plain functions the mathematics is stated over -/

abbrev aX (c : Dev nD) : Fin 100000 → Fin 128 → EReal := rows2 (m ((c.tc : Thread nD τ).loc main_arg0) : S100000x128.Idx → EReal)
abbrev aSrc (c : Dev nD) : Fin 600000 → BitVec 32 := srcOf (m ((c.tc : Thread nD τ).loc main_arg1) : S2x600000.Idx → BitVec 32)
abbrev aDst (c : Dev nD) : Fin 600000 → BitVec 32 := dstOf (m ((c.tc : Thread nD τ).loc main_arg1) : S2x600000.Idx → BitVec 32)
abbrev aBatch (c : Dev nD) : Fin 100000 → BitVec 32 := vec1 (m ((c.tc : Thread nD τ).loc main_arg2) : S100000.Idx → BitVec 32)
abbrev aPW (c : Dev nD) : Fin 128 → Fin 128 → EReal := rows2 (m ((c.tc : Thread nD τ).loc main_arg3) : S128x128.Idx → EReal)
abbrev aPb (c : Dev nD) : Fin 128 → EReal := vec1 (m ((c.tc : Thread nD τ).loc main_arg4) : S128.Idx → EReal)
abbrev aW (c : Dev nD) : Fin 3 → Fin 128 → Fin 128 → EReal := mat3 (m ((c.tc : Thread nD τ).loc main_arg5) : S3x128x128.Idx → EReal)
abbrev aB (c : Dev nD) : Fin 3 → Fin 128 → EReal := rows2 (m ((c.tc : Thread nD τ).loc main_arg6) : S3x128.Idx → EReal)
abbrev aG (c : Dev nD) : Fin 3 → Fin 128 → EReal := rows2 (m ((c.tc : Thread nD τ).loc main_arg7) : S3x128.Idx → EReal)
abbrev aLb (c : Dev nD) : Fin 3 → Fin 128 → EReal := rows2 (m ((c.tc : Thread nD τ).loc main_arg8) : S3x128.Idx → EReal)

/-- The padded index vectors. -/
abbrev srcP (c : Dev nD) : Fin 602112 → BitVec 32 := padIdx (np := 602112) 100000#32 (aSrc m c)
abbrev dstP (c : Dev nD) : Fin 602112 → BitVec 32 := padIdx (np := 602112) 100000#32 (aDst m c)
abbrev batchP (c : Dev nD) : Fin 100352 → BitVec 32 := padIdx (np := 100352) 4294967295#32 (aBatch m c)

/-- The padded node rows after the projection and after each round. -/
abbrev K0 (c : Dev nD) : Fin 100352 → Fin 128 → EReal := kH0 (aX m c) (aPW m c) (aPb m c)
abbrev K1 (c : Dev nD) : Fin 100352 → Fin 128 → EReal :=
  kH1 (aX m c) (aSrc m c) (aDst m c) (aPW m c) (aPb m c) (aW m c) (aB m c) (aG m c) (aLb m c)
abbrev K2 (c : Dev nD) : Fin 100352 → Fin 128 → EReal :=
  kH2 (aX m c) (aSrc m c) (aDst m c) (aPW m c) (aPb m c) (aW m c) (aB m c) (aG m c) (aLb m c)
abbrev K3 (c : Dev nD) : Fin 100352 → Fin 128 → EReal :=
  kH3 (aX m c) (aSrc m c) (aDst m c) (aPW m c) (aPb m c) (aW m c) (aB m c) (aG m c) (aLb m c)

/-! ## Each region's output array is that region's value -/

set_option backward.isDefEq.respectTransparency.types false in
theorem arr10 (c : Dev nD) : Y10 m c main_v15 = (Reg0.dat (atRefs (V9 m)) c).arrAt 3 cfg0.N := by
  refine (Function.update_self _ _ _).trans ?_
  unfold o10
  exact Pipeline.withArrays_arr spec0 launch0.win.arr_inj c _ _ ⟨3, by decide⟩

set_option backward.isDefEq.respectTransparency.types false in
theorem arr11 (c : Dev nD) : Y11 m c main_v16 = (Reg1.dat (atRefs (Y10 m)) c).arrAt 2 cfg1.N := by
  refine (Function.update_self _ _ _).trans ?_
  unfold o11
  exact Pipeline.withArrays_arr spec1 launch1.win.arr_inj c _ _ ⟨2, by decide⟩

set_option backward.isDefEq.respectTransparency.types false in
theorem arr13 (c : Dev nD) : Y13 m c main_v25 = (Reg2.dat (atRefs (Y12 m)) c).arrAt 7 cfg2.N := by
  refine (Function.update_self _ _ _).trans ?_
  unfold o13
  exact Pipeline.withArrays_arr spec2 launch2.win.arr_inj c _ _ ⟨7, by decide⟩

set_option backward.isDefEq.respectTransparency.types false in
theorem arr14 (c : Dev nD) : Y14 m c main_v26 = (Reg3.dat (atRefs (Y13 m)) c).arrAt 2 cfg3.N := by
  refine (Function.update_self _ _ _).trans ?_
  unfold o14
  exact Pipeline.withArrays_arr spec3 launch3.win.arr_inj c _ _ ⟨2, by decide⟩

set_option backward.isDefEq.respectTransparency.types false in
theorem arr16 (c : Dev nD) : Y16 m c main_v35 = (Reg4.dat (atRefs (Y15 m)) c).arrAt 7 cfg4.N := by
  refine (Function.update_self _ _ _).trans ?_
  unfold o16
  exact Pipeline.withArrays_arr spec4 launch4.win.arr_inj c _ _ ⟨7, by decide⟩

set_option backward.isDefEq.respectTransparency.types false in
theorem arr17 (c : Dev nD) : Y17 m c main_v36 = (Reg5.dat (atRefs (Y16 m)) c).arrAt 2 cfg5.N := by
  refine (Function.update_self _ _ _).trans ?_
  unfold o17
  exact Pipeline.withArrays_arr spec5 launch5.win.arr_inj c _ _ ⟨2, by decide⟩

set_option backward.isDefEq.respectTransparency.types false in
theorem arr19 (c : Dev nD) : Y19 m c main_v45 = (Reg6.dat (atRefs (Y18 m)) c).arrAt 7 cfg6.N := by
  refine (Function.update_self _ _ _).trans ?_
  unfold o19
  exact Pipeline.withArrays_arr spec6 launch6.win.arr_inj c _ _ ⟨7, by decide⟩

set_option backward.isDefEq.respectTransparency.types false in
theorem arr20_0 (c : Dev nD) : Y20 m c main_v46_0 = (Reg7.dat (atRefs (Y19 m)) c).arrAt 2 cfg7.N := by
  refine (Function.update_of_ne (StableHlo.devRef_ne_of_ne (by decide)) _ _).trans ?_
  refine (Function.update_self _ _ _).trans ?_
  unfold o20
  exact Pipeline.withArrays_arr spec7 launch7.win.arr_inj c _ _ ⟨2, by decide⟩
set_option backward.isDefEq.respectTransparency.types false in
theorem arr20_1 (c : Dev nD) : Y20 m c main_v46_1 = (Reg7.dat (atRefs (Y19 m)) c).arrAt 3 cfg7.N := by
  refine (Function.update_self _ _ _).trans ?_
  unfold o20
  exact Pipeline.withArrays_arr spec7 launch7.win.arr_inj c _ _ ⟨3, by decide⟩

/-! ## The projection -/

theorem c9_arg3 (c : Dev nD) : V9 m c main_arg3 = m ((c.tc : Thread nD τ).loc main_arg3) :=
  (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))

/-- After the projection the node rows are the padded computation's. -/
theorem h0 (c : Dev nD) : rows2 (Y10 m c main_v15 : S100352x128.Idx → EReal) = K0 m c := by
  rw [arr10 m c]
  refine (Val0.final (atRefs (V9 m)) c).trans ?_
  show linRelu (rows2 (V9 m c main_v0 : S100352x128.Idx → EReal)) (rows2 (V9 m c main_arg3 : S128x128.Idx → EReal))
      (fun d : Fin 128 => (V9 m c main_v11 : S1x128.Idx → EReal) (ix2 0 d)) = _
  rw [HostVals.v0 m c, HostVals.v11 m c, c9_arg3 m c]
  rfl

/-! ## The three rounds -/

theorem c10_v8 (c : Dev nD) : Y10 m c main_v8 = V9 m c main_v8 :=
  (V10_of m (outs m) c main_v8 (by decide))

/-- Gather 1: every edge's source row of the current node rows. -/
theorem t1 (c : Dev nD) : rows2 (Y11 m c main_v16 : S602112x128.Idx → EReal) = gatherOH (srcP m c) (K0 m c) := by
  rw [arr11 m c]
  refine (Val1.final (atRefs (Y10 m)) c).trans ?_
  show gatherOH (fun j : Fin 602112 => (Y10 m c main_v8 : S1x602112.Idx → BitVec 32) (ix2 0 j))
      (rows2 (Y10 m c main_v15 : S100352x128.Idx → EReal)) = _
  rw [c10_v8 m c, HostVals.v8 m c, h0 m c]

/-! ### Layer 0's parameters, as the host stretch before its update lays them out -/

theorem c11_arg5 (c : Dev nD) : Y11 m c main_arg5 = m ((c.tc : Thread nD τ).loc main_arg5) :=
  (V11_of m (outs m) c main_arg5 (by decide)).trans <| (V10_of m (outs m) c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem c11_v12 (c : Dev nD) : Y11 m c main_v12 = V9 m c main_v12 :=
  (V11_of m (outs m) c main_v12 (by decide)).trans <| (V10_of m (outs m) c main_v12 (by decide))
theorem c11_v13 (c : Dev nD) : Y11 m c main_v13 = V9 m c main_v13 :=
  (V11_of m (outs m) c main_v13 (by decide)).trans <| (V10_of m (outs m) c main_v13 (by decide))
theorem c11_v14 (c : Dev nD) : Y11 m c main_v14 = V9 m c main_v14 :=
  (V11_of m (outs m) c main_v14 (by decide)).trans <| (V10_of m (outs m) c main_v14 (by decide))

theorem lW0 (c : Dev nD) : rows2 (Y12 m c main_v18 : S128x128.Idx → EReal) = aW m c 0 := by
  show rows2 (StableHlo.after (hostOps2 (F := Ideal)) (Y11 m c) main_v18 : S128x128.Idx → EReal) = _
  rw [HostVals.after2_v18_rows (Y11 m c), c11_arg5 m c]
  rfl
theorem lb0 (c : Dev nD) : (fun d : Fin 128 => (Y12 m c main_v20 : S1x128.Idx → EReal) (ix2 0 d)) = aB m c 0 := by
  show (fun d : Fin 128 => (StableHlo.after (hostOps2 (F := Ideal)) (Y11 m c) main_v20 : S1x128.Idx → EReal) (ix2 0 d)) = _
  rw [HostVals.after2_v20_row (Y11 m c), c11_v12 m c]
  funext d
  exact HostVals.v12 m c 0 d
theorem lg0 (c : Dev nD) : (fun d : Fin 128 => (Y12 m c main_v22 : S1x128.Idx → EReal) (ix2 0 d)) = aG m c 0 := by
  show (fun d : Fin 128 => (StableHlo.after (hostOps2 (F := Ideal)) (Y11 m c) main_v22 : S1x128.Idx → EReal) (ix2 0 d)) = _
  rw [HostVals.after2_v22_row (Y11 m c), c11_v13 m c]
  funext d
  exact HostVals.v13 m c 0 d
theorem ll0 (c : Dev nD) : (fun d : Fin 128 => (Y12 m c main_v24 : S1x128.Idx → EReal) (ix2 0 d)) = aLb m c 0 := by
  show (fun d : Fin 128 => (StableHlo.after (hostOps2 (F := Ideal)) (Y11 m c) main_v24 : S1x128.Idx → EReal) (ix2 0 d)) = _
  rw [HostVals.after2_v24_row (Y11 m c), c11_v14 m c]
  funext d
  exact HostVals.v14 m c 0 d

theorem c12_v15 (c : Dev nD) : Y12 m c main_v15 = Y10 m c main_v15 :=
  (V12_of m (outs m) c main_v15 (by decide)).trans <| (V11_of m (outs m) c main_v15 (by decide))
theorem c12_v9 (c : Dev nD) : Y12 m c main_v9 = V9 m c main_v9 :=
  (V12_of m (outs m) c main_v9 (by decide)).trans <| (V11_of m (outs m) c main_v9 (by decide)).trans <| (V10_of m (outs m) c main_v9 (by decide))
theorem c12_v16 (c : Dev nD) : Y12 m c main_v16 = Y11 m c main_v16 :=
  (V12_of m (outs m) c main_v16 (by decide))

/-- After update 1 the node rows are the padded computation's. -/
theorem h1 (c : Dev nD) : rows2 (Y13 m c main_v25 : S100352x128.Idx → EReal) = K1 m c := by
  rw [arr13 m c]
  refine (Val2.final (atRefs (Y12 m)) c).trans ?_
  show mlpLn (rows2 (Y12 m c main_v15 : S100352x128.Idx → EReal))
      (scatterOH (fun j : Fin 602112 => (Y12 m c main_v9 : S1x602112.Idx → BitVec 32) (ix2 0 j))
        (rows2 (Y12 m c main_v16 : S602112x128.Idx → EReal)))
      (rows2 (Y12 m c main_v18 : S128x128.Idx → EReal))
      (fun d : Fin 128 => (Y12 m c main_v20 : S1x128.Idx → EReal) (ix2 0 d))
      (fun d : Fin 128 => (Y12 m c main_v22 : S1x128.Idx → EReal) (ix2 0 d))
      (fun d : Fin 128 => (Y12 m c main_v24 : S1x128.Idx → EReal) (ix2 0 d)) = _
  rw [c12_v15 m c, h0 m c, c12_v9 m c, HostVals.v9 m c, c12_v16 m c, t1 m c,
    lW0 m c, lb0 m c, lg0 m c, ll0 m c]
  rfl

theorem c13_v8 (c : Dev nD) : Y13 m c main_v8 = V9 m c main_v8 :=
  (V13_of m (outs m) c main_v8 (by decide)).trans <| (V12_of m (outs m) c main_v8 (by decide)).trans <| (V11_of m (outs m) c main_v8 (by decide)).trans <| (V10_of m (outs m) c main_v8 (by decide))

/-- Gather 2: every edge's source row of the current node rows. -/
theorem t2 (c : Dev nD) : rows2 (Y14 m c main_v26 : S602112x128.Idx → EReal) = gatherOH (srcP m c) (K1 m c) := by
  rw [arr14 m c]
  refine (Val3.final (atRefs (Y13 m)) c).trans ?_
  show gatherOH (fun j : Fin 602112 => (Y13 m c main_v8 : S1x602112.Idx → BitVec 32) (ix2 0 j))
      (rows2 (Y13 m c main_v25 : S100352x128.Idx → EReal)) = _
  rw [c13_v8 m c, HostVals.v8 m c, h1 m c]

/-! ### Layer 1's parameters, as the host stretch before its update lays them out -/

theorem c14_arg5 (c : Dev nD) : Y14 m c main_arg5 = m ((c.tc : Thread nD τ).loc main_arg5) :=
  (V14_of m (outs m) c main_arg5 (by decide)).trans <| (V13_of m (outs m) c main_arg5 (by decide)).trans <| (V12_of m (outs m) c main_arg5 (by decide)).trans <| (V11_of m (outs m) c main_arg5 (by decide)).trans <| (V10_of m (outs m) c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem c14_v12 (c : Dev nD) : Y14 m c main_v12 = V9 m c main_v12 :=
  (V14_of m (outs m) c main_v12 (by decide)).trans <| (V13_of m (outs m) c main_v12 (by decide)).trans <| (V12_of m (outs m) c main_v12 (by decide)).trans <| (V11_of m (outs m) c main_v12 (by decide)).trans <| (V10_of m (outs m) c main_v12 (by decide))
theorem c14_v13 (c : Dev nD) : Y14 m c main_v13 = V9 m c main_v13 :=
  (V14_of m (outs m) c main_v13 (by decide)).trans <| (V13_of m (outs m) c main_v13 (by decide)).trans <| (V12_of m (outs m) c main_v13 (by decide)).trans <| (V11_of m (outs m) c main_v13 (by decide)).trans <| (V10_of m (outs m) c main_v13 (by decide))
theorem c14_v14 (c : Dev nD) : Y14 m c main_v14 = V9 m c main_v14 :=
  (V14_of m (outs m) c main_v14 (by decide)).trans <| (V13_of m (outs m) c main_v14 (by decide)).trans <| (V12_of m (outs m) c main_v14 (by decide)).trans <| (V11_of m (outs m) c main_v14 (by decide)).trans <| (V10_of m (outs m) c main_v14 (by decide))

theorem lW1 (c : Dev nD) : rows2 (Y15 m c main_v28 : S128x128.Idx → EReal) = aW m c 1 := by
  show rows2 (StableHlo.after (hostOps4 (F := Ideal)) (Y14 m c) main_v28 : S128x128.Idx → EReal) = _
  rw [HostVals.after4_v28_rows (Y14 m c), c14_arg5 m c]
  rfl
theorem lb1 (c : Dev nD) : (fun d : Fin 128 => (Y15 m c main_v30 : S1x128.Idx → EReal) (ix2 0 d)) = aB m c 1 := by
  show (fun d : Fin 128 => (StableHlo.after (hostOps4 (F := Ideal)) (Y14 m c) main_v30 : S1x128.Idx → EReal) (ix2 0 d)) = _
  rw [HostVals.after4_v30_row (Y14 m c), c14_v12 m c]
  funext d
  exact HostVals.v12 m c 1 d
theorem lg1 (c : Dev nD) : (fun d : Fin 128 => (Y15 m c main_v32 : S1x128.Idx → EReal) (ix2 0 d)) = aG m c 1 := by
  show (fun d : Fin 128 => (StableHlo.after (hostOps4 (F := Ideal)) (Y14 m c) main_v32 : S1x128.Idx → EReal) (ix2 0 d)) = _
  rw [HostVals.after4_v32_row (Y14 m c), c14_v13 m c]
  funext d
  exact HostVals.v13 m c 1 d
theorem ll1 (c : Dev nD) : (fun d : Fin 128 => (Y15 m c main_v34 : S1x128.Idx → EReal) (ix2 0 d)) = aLb m c 1 := by
  show (fun d : Fin 128 => (StableHlo.after (hostOps4 (F := Ideal)) (Y14 m c) main_v34 : S1x128.Idx → EReal) (ix2 0 d)) = _
  rw [HostVals.after4_v34_row (Y14 m c), c14_v14 m c]
  funext d
  exact HostVals.v14 m c 1 d

theorem c15_v25 (c : Dev nD) : Y15 m c main_v25 = Y13 m c main_v25 :=
  (V15_of m (outs m) c main_v25 (by decide)).trans <| (V14_of m (outs m) c main_v25 (by decide))
theorem c15_v9 (c : Dev nD) : Y15 m c main_v9 = V9 m c main_v9 :=
  (V15_of m (outs m) c main_v9 (by decide)).trans <| (V14_of m (outs m) c main_v9 (by decide)).trans <| (V13_of m (outs m) c main_v9 (by decide)).trans <| (V12_of m (outs m) c main_v9 (by decide)).trans <| (V11_of m (outs m) c main_v9 (by decide)).trans <| (V10_of m (outs m) c main_v9 (by decide))
theorem c15_v26 (c : Dev nD) : Y15 m c main_v26 = Y14 m c main_v26 :=
  (V15_of m (outs m) c main_v26 (by decide))

/-- After update 2 the node rows are the padded computation's. -/
theorem h2 (c : Dev nD) : rows2 (Y16 m c main_v35 : S100352x128.Idx → EReal) = K2 m c := by
  rw [arr16 m c]
  refine (Val4.final (atRefs (Y15 m)) c).trans ?_
  show mlpLn (rows2 (Y15 m c main_v25 : S100352x128.Idx → EReal))
      (scatterOH (fun j : Fin 602112 => (Y15 m c main_v9 : S1x602112.Idx → BitVec 32) (ix2 0 j))
        (rows2 (Y15 m c main_v26 : S602112x128.Idx → EReal)))
      (rows2 (Y15 m c main_v28 : S128x128.Idx → EReal))
      (fun d : Fin 128 => (Y15 m c main_v30 : S1x128.Idx → EReal) (ix2 0 d))
      (fun d : Fin 128 => (Y15 m c main_v32 : S1x128.Idx → EReal) (ix2 0 d))
      (fun d : Fin 128 => (Y15 m c main_v34 : S1x128.Idx → EReal) (ix2 0 d)) = _
  rw [c15_v25 m c, h1 m c, c15_v9 m c, HostVals.v9 m c, c15_v26 m c, t2 m c,
    lW1 m c, lb1 m c, lg1 m c, ll1 m c]
  rfl

theorem c16_v8 (c : Dev nD) : Y16 m c main_v8 = V9 m c main_v8 :=
  (V16_of m (outs m) c main_v8 (by decide)).trans <| (V15_of m (outs m) c main_v8 (by decide)).trans <| (V14_of m (outs m) c main_v8 (by decide)).trans <| (V13_of m (outs m) c main_v8 (by decide)).trans <| (V12_of m (outs m) c main_v8 (by decide)).trans <| (V11_of m (outs m) c main_v8 (by decide)).trans <| (V10_of m (outs m) c main_v8 (by decide))

/-- Gather 3: every edge's source row of the current node rows. -/
theorem t3 (c : Dev nD) : rows2 (Y17 m c main_v36 : S602112x128.Idx → EReal) = gatherOH (srcP m c) (K2 m c) := by
  rw [arr17 m c]
  refine (Val5.final (atRefs (Y16 m)) c).trans ?_
  show gatherOH (fun j : Fin 602112 => (Y16 m c main_v8 : S1x602112.Idx → BitVec 32) (ix2 0 j))
      (rows2 (Y16 m c main_v35 : S100352x128.Idx → EReal)) = _
  rw [c16_v8 m c, HostVals.v8 m c, h2 m c]

/-! ### Layer 2's parameters, as the host stretch before its update lays them out -/

theorem c17_arg5 (c : Dev nD) : Y17 m c main_arg5 = m ((c.tc : Thread nD τ).loc main_arg5) :=
  (V17_of m (outs m) c main_arg5 (by decide)).trans <| (V16_of m (outs m) c main_arg5 (by decide)).trans <| (V15_of m (outs m) c main_arg5 (by decide)).trans <| (V14_of m (outs m) c main_arg5 (by decide)).trans <| (V13_of m (outs m) c main_arg5 (by decide)).trans <| (V12_of m (outs m) c main_arg5 (by decide)).trans <| (V11_of m (outs m) c main_arg5 (by decide)).trans <| (V10_of m (outs m) c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem c17_v12 (c : Dev nD) : Y17 m c main_v12 = V9 m c main_v12 :=
  (V17_of m (outs m) c main_v12 (by decide)).trans <| (V16_of m (outs m) c main_v12 (by decide)).trans <| (V15_of m (outs m) c main_v12 (by decide)).trans <| (V14_of m (outs m) c main_v12 (by decide)).trans <| (V13_of m (outs m) c main_v12 (by decide)).trans <| (V12_of m (outs m) c main_v12 (by decide)).trans <| (V11_of m (outs m) c main_v12 (by decide)).trans <| (V10_of m (outs m) c main_v12 (by decide))
theorem c17_v13 (c : Dev nD) : Y17 m c main_v13 = V9 m c main_v13 :=
  (V17_of m (outs m) c main_v13 (by decide)).trans <| (V16_of m (outs m) c main_v13 (by decide)).trans <| (V15_of m (outs m) c main_v13 (by decide)).trans <| (V14_of m (outs m) c main_v13 (by decide)).trans <| (V13_of m (outs m) c main_v13 (by decide)).trans <| (V12_of m (outs m) c main_v13 (by decide)).trans <| (V11_of m (outs m) c main_v13 (by decide)).trans <| (V10_of m (outs m) c main_v13 (by decide))
theorem c17_v14 (c : Dev nD) : Y17 m c main_v14 = V9 m c main_v14 :=
  (V17_of m (outs m) c main_v14 (by decide)).trans <| (V16_of m (outs m) c main_v14 (by decide)).trans <| (V15_of m (outs m) c main_v14 (by decide)).trans <| (V14_of m (outs m) c main_v14 (by decide)).trans <| (V13_of m (outs m) c main_v14 (by decide)).trans <| (V12_of m (outs m) c main_v14 (by decide)).trans <| (V11_of m (outs m) c main_v14 (by decide)).trans <| (V10_of m (outs m) c main_v14 (by decide))

theorem lW2 (c : Dev nD) : rows2 (Y18 m c main_v38 : S128x128.Idx → EReal) = aW m c 2 := by
  show rows2 (StableHlo.after (hostOps6 (F := Ideal)) (Y17 m c) main_v38 : S128x128.Idx → EReal) = _
  rw [HostVals.after6_v38_rows (Y17 m c), c17_arg5 m c]
  rfl
theorem lb2 (c : Dev nD) : (fun d : Fin 128 => (Y18 m c main_v40 : S1x128.Idx → EReal) (ix2 0 d)) = aB m c 2 := by
  show (fun d : Fin 128 => (StableHlo.after (hostOps6 (F := Ideal)) (Y17 m c) main_v40 : S1x128.Idx → EReal) (ix2 0 d)) = _
  rw [HostVals.after6_v40_row (Y17 m c), c17_v12 m c]
  funext d
  exact HostVals.v12 m c 2 d
theorem lg2 (c : Dev nD) : (fun d : Fin 128 => (Y18 m c main_v42 : S1x128.Idx → EReal) (ix2 0 d)) = aG m c 2 := by
  show (fun d : Fin 128 => (StableHlo.after (hostOps6 (F := Ideal)) (Y17 m c) main_v42 : S1x128.Idx → EReal) (ix2 0 d)) = _
  rw [HostVals.after6_v42_row (Y17 m c), c17_v13 m c]
  funext d
  exact HostVals.v13 m c 2 d
theorem ll2 (c : Dev nD) : (fun d : Fin 128 => (Y18 m c main_v44 : S1x128.Idx → EReal) (ix2 0 d)) = aLb m c 2 := by
  show (fun d : Fin 128 => (StableHlo.after (hostOps6 (F := Ideal)) (Y17 m c) main_v44 : S1x128.Idx → EReal) (ix2 0 d)) = _
  rw [HostVals.after6_v44_row (Y17 m c), c17_v14 m c]
  funext d
  exact HostVals.v14 m c 2 d

theorem c18_v35 (c : Dev nD) : Y18 m c main_v35 = Y16 m c main_v35 :=
  (V18_of m (outs m) c main_v35 (by decide)).trans <| (V17_of m (outs m) c main_v35 (by decide))
theorem c18_v9 (c : Dev nD) : Y18 m c main_v9 = V9 m c main_v9 :=
  (V18_of m (outs m) c main_v9 (by decide)).trans <| (V17_of m (outs m) c main_v9 (by decide)).trans <| (V16_of m (outs m) c main_v9 (by decide)).trans <| (V15_of m (outs m) c main_v9 (by decide)).trans <| (V14_of m (outs m) c main_v9 (by decide)).trans <| (V13_of m (outs m) c main_v9 (by decide)).trans <| (V12_of m (outs m) c main_v9 (by decide)).trans <| (V11_of m (outs m) c main_v9 (by decide)).trans <| (V10_of m (outs m) c main_v9 (by decide))
theorem c18_v36 (c : Dev nD) : Y18 m c main_v36 = Y17 m c main_v36 :=
  (V18_of m (outs m) c main_v36 (by decide))

/-- After update 3 the node rows are the padded computation's. -/
theorem h3 (c : Dev nD) : rows2 (Y19 m c main_v45 : S100352x128.Idx → EReal) = K3 m c := by
  rw [arr19 m c]
  refine (Val6.final (atRefs (Y18 m)) c).trans ?_
  show mlpLn (rows2 (Y18 m c main_v35 : S100352x128.Idx → EReal))
      (scatterOH (fun j : Fin 602112 => (Y18 m c main_v9 : S1x602112.Idx → BitVec 32) (ix2 0 j))
        (rows2 (Y18 m c main_v36 : S602112x128.Idx → EReal)))
      (rows2 (Y18 m c main_v38 : S128x128.Idx → EReal))
      (fun d : Fin 128 => (Y18 m c main_v40 : S1x128.Idx → EReal) (ix2 0 d))
      (fun d : Fin 128 => (Y18 m c main_v42 : S1x128.Idx → EReal) (ix2 0 d))
      (fun d : Fin 128 => (Y18 m c main_v44 : S1x128.Idx → EReal) (ix2 0 d)) = _
  rw [c18_v35 m c, h2 m c, c18_v9 m c, HostVals.v9 m c, c18_v36 m c, t3 m c,
    lW2 m c, lb2 m c, lg2 m c, ll2 m c]
  rfl

/-! ## The pool -/

theorem c19_v10 (c : Dev nD) : Y19 m c main_v10 = V9 m c main_v10 :=
  (V19_of m (outs m) c main_v10 (by decide)).trans <| (V18_of m (outs m) c main_v10 (by decide)).trans <| (V17_of m (outs m) c main_v10 (by decide)).trans <| (V16_of m (outs m) c main_v10 (by decide)).trans <| (V15_of m (outs m) c main_v10 (by decide)).trans <| (V14_of m (outs m) c main_v10 (by decide)).trans <| (V13_of m (outs m) c main_v10 (by decide)).trans <| (V12_of m (outs m) c main_v10 (by decide)).trans <| (V11_of m (outs m) c main_v10 (by decide)).trans <| (V10_of m (outs m) c main_v10 (by decide))

/-- The per-graph sums of the last node rows over the padded nodes, -/
theorem sums (c : Dev nD) : rows2 (Y20 m c main_v46_0 : S128x128.Idx → EReal) = poolSum (G := 128) (batchP m c) (K3 m c) := by
  rw [arr20_0 m c]
  refine (Val7.final_sums (atRefs (Y19 m)) c).trans ?_
  show poolSum (G := 128) (fun r : Fin 100352 => (Y19 m c main_v10 : S1x100352.Idx → BitVec 32) (ix2 0 r))
      (rows2 (Y19 m c main_v45 : S100352x128.Idx → EReal)) = _
  rw [c19_v10 m c, HostVals.v10 m c, h3 m c]

/-- and the per-graph node counts. -/
theorem cnt (c : Dev nD) : (fun g : Fin 128 => (Y20 m c main_v46_1 : S128x1.Idx → EReal) (ix2 g 0)) = poolCnt (G := 128) (batchP m c) := by
  rw [arr20_1 m c]
  refine (Val7.final_cnt (atRefs (Y19 m)) c).trans ?_
  show poolCnt (G := 128) (fun r : Fin 100352 => (Y19 m c main_v10 : S1x100352.Idx → BitVec 32) (ix2 0 r)) = _
  rw [c19_v10 m c, HostVals.v10 m c]

/-! ## The result -/

/-- The result buffer holds, for each of the first 64 graphs, the sums divided by the count (an empty graph's by one):
    the padded one-hot computation of the nine arguments. -/
theorem result (c : Dev nD) : V21 m (outs m) c main_v52 = Cert.Args.kernOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨q, d, rfl⟩ : ∃ (q : Fin 64) (d : Fin 128), i = ix2 q d := ⟨i 0, i 1, eq_ix2 i⟩
  show (StableHlo.after (hostOps8 (F := Ideal)) (Y20 m c) main_v52 : S64x128.Idx → EReal) (ix2 q d) = _
  rw [HostVals.after8_v52 (Y20 m c) q d]
  have hs := congrFun (congrFun (sums m c) ⟨q.val, by omega⟩) d
  have hc := congrFun (cnt m c) ⟨q.val, by omega⟩
  unfold Cert.Args.kernOut Cert.Bridge.kernelVal Cert.Spec.meanPool
  refine congrArg₂ Ideal.div (hs.trans ?_) (congrArg (max · 1) (hc.trans ?_))
  · rfl
  · rfl

end Cert.KernelIdeal.Value

end
-- ==== Proof.RefInv.lean ====
/-
  Reading a straight line of host operations in consecutive pieces: the buffers' contents after two lists of
  operations run one after the other are the second list's over the first's; and what it means for the nine
  argument buffers to hold given arrays.
-/
import proofs.«423195_j8272107012813_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lists of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The nine argument buffers hold the arrays `x0 … x8`. -/
def ArgsAt (W : Valuation τ sig (Elt F)) (x0 : (⟨S100000x128, .f32⟩ : BufTy).Contents (Elt F)) (x1 : (⟨S2x600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) (x7 : (⟨S3x128, .f32⟩ : BufTy).Contents (Elt F)) (x8 : (⟨S3x128, .f32⟩ : BufTy).Contents (Elt F)) : Prop :=
  W (Proc.devRef .tc main_arg0) = x0 ∧ W (Proc.devRef .tc main_arg1) = x1 ∧ W (Proc.devRef .tc main_arg2) = x2
    ∧ W (Proc.devRef .tc main_arg3) = x3 ∧ W (Proc.devRef .tc main_arg4) = x4 ∧ W (Proc.devRef .tc main_arg5) = x5
    ∧ W (Proc.devRef .tc main_arg6) = x6 ∧ W (Proc.devRef .tc main_arg7) = x7 ∧ W (Proc.devRef .tc main_arg8) = x8

end Cert.ReferenceIdeal.RefRun

end
-- ==== Proof.RefStP.lean ====
/-
  The reference's first stretch: the projection of the node features, its bias and the ReLU. Read off the seven
  operations from any contents that hold the nine arguments.
-/
import proofs.«423195_j8272107012813_1_alg».proof.Proof.RefOps
import proofs.«423195_j8272107012813_1_alg».proof.Proof.RefRead
import proofs.«423195_j8272107012813_1_alg».proof.Proof.RefInv

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The projection with its bias and ReLU: after its seven operations the node rows hold the stage value, and the
    nine arguments are untouched. -/
theorem stP (W : Valuation τ sig (Elt F)) (x0 : (⟨S100000x128, .f32⟩ : BufTy).Contents (Elt F)) (x1 : (⟨S2x600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) (x7 : (⟨S3x128, .f32⟩ : BufTy).Contents (Elt F)) (x8 : (⟨S3x128, .f32⟩ : BufTy).Contents (Elt F))
    (ha : ArgsAt W x0 x1 x2 x3 x4 x5 x6 x7 x8) :
    ArgsAt (after opsP W) x0 x1 x2 x3 x4 x5 x6 x7 x8
      ∧ after opsP W (Proc.devRef .tc main_v4) = ReadC.val_main_v4 (F := F) x0 x3 x4 := by
  obtain ⟨h0, h1, h2, h3, h4, h5, h6, h7, h8⟩ := ha
  refine ⟨⟨?_, ?_, ?_, ?_, ?_, ?_, ?_, ?_, ?_⟩, ?_⟩
  · after_results_simp
    exact h0
  · after_results_simp
    exact h1
  · after_results_simp
    exact h2
  · after_results_simp
    exact h3
  · after_results_simp
    exact h4
  · after_results_simp
    exact h5
  · after_results_simp
    exact h6
  · after_results_simp
    exact h7
  · after_results_simp
    exact h8
  · after_results_simp
    rw [h0, h3, h4]
    rfl

end Cert.ReferenceIdeal.RefRun

end
-- ==== Proof.RefStA0.lean ====
/-
  The reference's first round, its message-passing half, as one stretch of host operations: from the projected
  features (`main_v4`) it splits the edge list into sources and destinations, wraps negative source indices, gathers
  the source rows, adds them into the destination rows, adds the node's own row, applies the round's dense layer with
  its bias and the rectifier. If the nine arguments and `main_v4` hold their stage values before the stretch, the
  arguments are untouched and the sources, the destinations and the rectified layer hold theirs after it.
-/
import proofs.«423195_j8272107012813_1_alg».proof.Proof.RefOps
import proofs.«423195_j8272107012813_1_alg».proof.Proof.RefRead
import proofs.«423195_j8272107012813_1_alg».proof.Proof.RefInv

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
theorem stA0 (W : Valuation τ sig (Elt F)) (x0 : (⟨S100000x128, .f32⟩ : BufTy).Contents (Elt F)) (x1 : (⟨S2x600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) (x7 : (⟨S3x128, .f32⟩ : BufTy).Contents (Elt F)) (x8 : (⟨S3x128, .f32⟩ : BufTy).Contents (Elt F))
    (ha : ArgsAt W x0 x1 x2 x3 x4 x5 x6 x7 x8)
    (h4 : W (Proc.devRef .tc main_v4) = ReadC.val_main_v4 (F := F) x0 x3 x4) :
    ArgsAt (after opsA0 W) x0 x1 x2 x3 x4 x5 x6 x7 x8
      ∧ after opsA0 W (Proc.devRef .tc main_v6) = ReadC.val_main_v6 (F := F) x1
      ∧ after opsA0 W (Proc.devRef .tc main_v8) = ReadC.val_main_v8 (F := F) x1
      ∧ after opsA0 W (Proc.devRef .tc main_v28) = ReadC.val_main_v28 (F := F) x0 x1 x3 x4 x5 x6 := by
  obtain ⟨a0, a1, a2, a3, a4, a5, a6, a7, a8⟩ := ha
  refine ⟨⟨?_, ?_, ?_, ?_, ?_, ?_, ?_, ?_, ?_⟩, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; rw [a1]; rfl
  · after_results_simp; rw [a1]; rfl
  · after_results_simp; rw [h4, a1, a5, a6]; rfl

end Cert.ReferenceIdeal.RefRun

end
-- ==== Proof.RefStB0.lean ====
/-
  One stretch of the reference program read as stage values: round 0's row normalisation.
-/
import proofs.«423195_j8272107012813_1_alg».proof.Proof.RefOps
import proofs.«423195_j8272107012813_1_alg».proof.Proof.RefRead
import proofs.«423195_j8272107012813_1_alg».proof.Proof.RefInv

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- ROUND 0's NORMALISATION. From the rows before normalisation (`main_v28`) and the gain and offset rows of the
    two parameter arrays, the stretch computes each row's mean, the mean of the squared deviations, the reciprocal
    root, and the scaled and shifted rows (`main_v56`); it writes none of the arguments nor the two edge-index
    vectors, which therefore hold what they held. -/
theorem stB0 (W : Valuation τ sig (Elt F)) (x0 : (⟨S100000x128, .f32⟩ : BufTy).Contents (Elt F)) (x1 : (⟨S2x600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) (x7 : (⟨S3x128, .f32⟩ : BufTy).Contents (Elt F)) (x8 : (⟨S3x128, .f32⟩ : BufTy).Contents (Elt F))
    (ha : ArgsAt W x0 x1 x2 x3 x4 x5 x6 x7 x8)
    (h6 : W (Proc.devRef .tc main_v6) = ReadC.val_main_v6 (F := F) x1)
    (h8 : W (Proc.devRef .tc main_v8) = ReadC.val_main_v8 (F := F) x1)
    (h28 : W (Proc.devRef .tc main_v28) = ReadC.val_main_v28 (F := F) x0 x1 x3 x4 x5 x6) :
    ArgsAt (after opsB0 W) x0 x1 x2 x3 x4 x5 x6 x7 x8
      ∧ after opsB0 W (Proc.devRef .tc main_v6) = ReadC.val_main_v6 (F := F) x1
      ∧ after opsB0 W (Proc.devRef .tc main_v8) = ReadC.val_main_v8 (F := F) x1
      ∧ after opsB0 W (Proc.devRef .tc main_v56) = ReadC.val_main_v56 (F := F) x0 x1 x3 x4 x5 x6 x7 x8 := by
  obtain ⟨a0, a1, a2, a3, a4, a5, a6, a7, a8⟩ := ha
  refine ⟨⟨?_, ?_, ?_, ?_, ?_, ?_, ?_, ?_, ?_⟩, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact h6
  · after_results_simp; exact h8
  · after_results_simp
    rw [h28, a7, a8]
    rfl

end Cert.ReferenceIdeal.RefRun

end
-- ==== Proof.RefStA1.lean ====
/-
  The reference's second message-passing round, first half, read as one step: if the buffers the operations
  read hold their stage values before, the buffer they end in holds its stage value after, and the nine
  argument buffers are as they were.
-/
import proofs.«423195_j8272107012813_1_alg».proof.Proof.RefOps
import proofs.«423195_j8272107012813_1_alg».proof.Proof.RefRead
import proofs.«423195_j8272107012813_1_alg».proof.Proof.RefInv

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Round 1's aggregation and linear map: from the rows after round 0 (`main_v56`) and the two index vectors,
    the gathered source rows are added into their destination rows, the node's own row is added, the second
    matrix and bias are applied, and the result is cut off below at zero (`main_v76`).  No argument is written. -/
theorem stA1 (W : Valuation τ sig (Elt F)) (x0 : (⟨S100000x128, .f32⟩ : BufTy).Contents (Elt F)) (x1 : (⟨S2x600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) (x7 : (⟨S3x128, .f32⟩ : BufTy).Contents (Elt F)) (x8 : (⟨S3x128, .f32⟩ : BufTy).Contents (Elt F))
    (ha : ArgsAt W x0 x1 x2 x3 x4 x5 x6 x7 x8)
    (h6 : W (Proc.devRef .tc main_v6) = ReadC.val_main_v6 (F := F) x1)
    (h8 : W (Proc.devRef .tc main_v8) = ReadC.val_main_v8 (F := F) x1)
    (h56 : W (Proc.devRef .tc main_v56) = ReadC.val_main_v56 (F := F) x0 x1 x3 x4 x5 x6 x7 x8) :
    ArgsAt (after opsA1 W) x0 x1 x2 x3 x4 x5 x6 x7 x8
      ∧ after opsA1 W (Proc.devRef .tc main_v6) = ReadC.val_main_v6 (F := F) x1
      ∧ after opsA1 W (Proc.devRef .tc main_v8) = ReadC.val_main_v8 (F := F) x1
      ∧ after opsA1 W (Proc.devRef .tc main_v76) = ReadC.val_main_v76 (F := F) x0 x1 x3 x4 x5 x6 x7 x8 := by
  obtain ⟨a0, a1, a2, a3, a4, a5, a6, a7, a8⟩ := ha
  refine ⟨⟨?_, ?_, ?_, ?_, ?_, ?_, ?_, ?_, ?_⟩, ?_, ?_, ?_⟩
  · after_results_simp
    exact a0
  · after_results_simp
    exact a1
  · after_results_simp
    exact a2
  · after_results_simp
    exact a3
  · after_results_simp
    exact a4
  · after_results_simp
    exact a5
  · after_results_simp
    exact a6
  · after_results_simp
    exact a7
  · after_results_simp
    exact a8
  · after_results_simp
    exact h6
  · after_results_simp
    exact h8
  · after_results_simp
    rw [h56, h6, h8, a5, a6]
    rfl

end Cert.ReferenceIdeal.RefRun

end
-- ==== Proof.RefStB1.lean ====
/-
  The reference's second message-passing round, second half, read as one step: if the buffers the operations
  read hold their stage values before, the buffer they end in holds its stage value after, and the nine
  argument buffers are as they were.
-/
import proofs.«423195_j8272107012813_1_alg».proof.Proof.RefOps
import proofs.«423195_j8272107012813_1_alg».proof.Proof.RefRead
import proofs.«423195_j8272107012813_1_alg».proof.Proof.RefInv

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- Round 1's row normalisation: from the rows `main_v76`, each row's mean is taken off, the result is scaled by
    the reciprocal square root of the row's mean square deviation plus the epsilon, and the second gain and
    offset rows are applied (`main_v104`).  The two index vectors and the arguments are not written. -/
theorem stB1 (W : Valuation τ sig (Elt F)) (x0 : (⟨S100000x128, .f32⟩ : BufTy).Contents (Elt F)) (x1 : (⟨S2x600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) (x7 : (⟨S3x128, .f32⟩ : BufTy).Contents (Elt F)) (x8 : (⟨S3x128, .f32⟩ : BufTy).Contents (Elt F))
    (ha : ArgsAt W x0 x1 x2 x3 x4 x5 x6 x7 x8)
    (h6 : W (Proc.devRef .tc main_v6) = ReadC.val_main_v6 (F := F) x1)
    (h8 : W (Proc.devRef .tc main_v8) = ReadC.val_main_v8 (F := F) x1)
    (h76 : W (Proc.devRef .tc main_v76) = ReadC.val_main_v76 (F := F) x0 x1 x3 x4 x5 x6 x7 x8) :
    ArgsAt (after opsB1 W) x0 x1 x2 x3 x4 x5 x6 x7 x8
      ∧ after opsB1 W (Proc.devRef .tc main_v6) = ReadC.val_main_v6 (F := F) x1
      ∧ after opsB1 W (Proc.devRef .tc main_v8) = ReadC.val_main_v8 (F := F) x1
      ∧ after opsB1 W (Proc.devRef .tc main_v104) = ReadC.val_main_v104 (F := F) x0 x1 x3 x4 x5 x6 x7 x8 := by
  obtain ⟨a0, a1, a2, a3, a4, a5, a6, a7, a8⟩ := ha
  refine ⟨⟨?_, ?_, ?_, ?_, ?_, ?_, ?_, ?_, ?_⟩, ?_, ?_, ?_⟩
  · after_results_simp
    exact a0
  · after_results_simp
    exact a1
  · after_results_simp
    exact a2
  · after_results_simp
    exact a3
  · after_results_simp
    exact a4
  · after_results_simp
    exact a5
  · after_results_simp
    exact a6
  · after_results_simp
    exact a7
  · after_results_simp
    exact a8
  · after_results_simp
    exact h6
  · after_results_simp
    exact h8
  · after_results_simp
    rw [h76, a7, a8]
    rfl

end Cert.ReferenceIdeal.RefRun

end
-- ==== Proof.RefStA2.lean ====
/-
  The reference's run, slice by slice: round 2's aggregation and linear map. The slice reads the layer's input and
  the two index rows, and ends at the layer's rectified hidden activation; its operations write fresh buffers only, so
  the nine argument buffers keep their arrays.
-/
import proofs.«423195_j8272107012813_1_alg».proof.Proof.RefOps
import proofs.«423195_j8272107012813_1_alg».proof.Proof.RefRead
import proofs.«423195_j8272107012813_1_alg».proof.Proof.RefInv

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Round 2's aggregation, from the layer's input `main_v104` and the two index rows to the layer's hidden
    activation `main_v124`: the wrapped source indices, the gather of the input rows, their scatter-add at the
    destination rows, the sum with the input, the linear map by layer 2's matrix and bias, and the rectification. Each
    buffer of the slice holds its stage value when the slice's three inputs do, and no argument buffer is written. -/
theorem stA2 (W : Valuation τ sig (Elt F)) (x0 : (⟨S100000x128, .f32⟩ : BufTy).Contents (Elt F)) (x1 : (⟨S2x600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) (x7 : (⟨S3x128, .f32⟩ : BufTy).Contents (Elt F)) (x8 : (⟨S3x128, .f32⟩ : BufTy).Contents (Elt F))
    (ha : ArgsAt W x0 x1 x2 x3 x4 x5 x6 x7 x8)
    (h6 : W (Proc.devRef .tc main_v6) = ReadC.val_main_v6 (F := F) x1)
    (h8 : W (Proc.devRef .tc main_v8) = ReadC.val_main_v8 (F := F) x1)
    (h104 : W (Proc.devRef .tc main_v104) = ReadC.val_main_v104 (F := F) x0 x1 x3 x4 x5 x6 x7 x8) :
    ArgsAt (after opsA2 W) x0 x1 x2 x3 x4 x5 x6 x7 x8
      ∧ after opsA2 W (Proc.devRef .tc main_v124) = ReadC.val_main_v124 (F := F) x0 x1 x3 x4 x5 x6 x7 x8 := by
  obtain ⟨a0, a1, a2, a3, a4, a5, a6, a7, a8⟩ := ha
  refine ⟨⟨?_, ?_, ?_, ?_, ?_, ?_, ?_, ?_, ?_⟩, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp
    rw [h6, h8, h104, a5, a6]
    rfl

end Cert.ReferenceIdeal.RefRun

end
-- ==== Proof.RefStB2.lean ====
/-
  The reference's run, slice by slice: round 2's normalisation. The slice reads the layer's rectified hidden
  activation and layer 2's rows of the scale and shift arrays, and ends at the layer's output; its operations write
  fresh buffers only, so the nine argument buffers keep their arrays.
-/
import proofs.«423195_j8272107012813_1_alg».proof.Proof.RefOps
import proofs.«423195_j8272107012813_1_alg».proof.Proof.RefRead
import proofs.«423195_j8272107012813_1_alg».proof.Proof.RefInv

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Round 2's normalisation, from the layer's hidden activation `main_v124` to the layer's output `main_v152`: the
    mean of each row over its 128 features, the centred rows, the mean of their squares, the reciprocal root of that
    variance plus the small constant, and the scaling and shift by layer 2's rows of the two [3, 128] arrays. The
    output buffer holds its stage value when the hidden activation does, and no argument buffer is written. -/
theorem stB2 (W : Valuation τ sig (Elt F)) (x0 : (⟨S100000x128, .f32⟩ : BufTy).Contents (Elt F)) (x1 : (⟨S2x600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) (x7 : (⟨S3x128, .f32⟩ : BufTy).Contents (Elt F)) (x8 : (⟨S3x128, .f32⟩ : BufTy).Contents (Elt F))
    (ha : ArgsAt W x0 x1 x2 x3 x4 x5 x6 x7 x8)
    (h124 : W (Proc.devRef .tc main_v124) = ReadC.val_main_v124 (F := F) x0 x1 x3 x4 x5 x6 x7 x8) :
    ArgsAt (after opsB2 W) x0 x1 x2 x3 x4 x5 x6 x7 x8
      ∧ after opsB2 W (Proc.devRef .tc main_v152) = ReadC.val_main_v152 (F := F) x0 x1 x3 x4 x5 x6 x7 x8 := by
  obtain ⟨a0, a1, a2, a3, a4, a5, a6, a7, a8⟩ := ha
  refine ⟨⟨?_, ?_, ?_, ?_, ?_, ?_, ?_, ?_, ?_⟩, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp
    rw [h124, a7, a8]
    rfl

end Cert.ReferenceIdeal.RefRun

end
-- ==== Proof.RefStL.lean ====
/-
  The reference's last stretch: the mean over each graph's nodes. Read off the sixteen operations from any contents
  that hold the nine arguments and the node rows after the third round.
-/
import proofs.«423195_j8272107012813_1_alg».proof.Proof.RefOps
import proofs.«423195_j8272107012813_1_alg».proof.Proof.RefRead
import proofs.«423195_j8272107012813_1_alg».proof.Proof.RefInv

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The pool: per-graph sums of the last node rows and per-graph node counts by scatter-add, the counts raised to at
    least one, and the quotient. After its sixteen operations the result holds the stage value, and the nine
    arguments are untouched. -/
theorem stL (W : Valuation τ sig (Elt F)) (x0 : (⟨S100000x128, .f32⟩ : BufTy).Contents (Elt F)) (x1 : (⟨S2x600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) (x7 : (⟨S3x128, .f32⟩ : BufTy).Contents (Elt F)) (x8 : (⟨S3x128, .f32⟩ : BufTy).Contents (Elt F))
    (ha : ArgsAt W x0 x1 x2 x3 x4 x5 x6 x7 x8)
    (h152 : W (Proc.devRef .tc main_v152) = ReadC.val_main_v152 (F := F) x0 x1 x3 x4 x5 x6 x7 x8) :
    ArgsAt (after opsL W) x0 x1 x2 x3 x4 x5 x6 x7 x8
      ∧ after opsL W (Proc.devRef .tc main_v164) = ReadC.val_main_v164 (F := F) x0 x1 x2 x3 x4 x5 x6 x7 x8 := by
  obtain ⟨h0, h1, h2, h3, h4, h5, h6, h7, h8⟩ := ha
  refine ⟨⟨?_, ?_, ?_, ?_, ?_, ?_, ?_, ?_, ?_⟩, ?_⟩
  · after_results_simp
    exact h0
  · after_results_simp
    exact h1
  · after_results_simp
    exact h2
  · after_results_simp
    exact h3
  · after_results_simp
    exact h4
  · after_results_simp
    exact h5
  · after_results_simp
    exact h6
  · after_results_simp
    exact h7
  · after_results_simp
    exact h8
  · after_results_simp
    rw [h2, h152]
    rfl

end Cert.ReferenceIdeal.RefRun

end
-- ==== Proof.LibScatterRead.lean ====
/-
  Host scatters and gathers read at an index, at the extended reals: what `x.at[idx].add(u)` and `x[idx]` over
  rows hold at one element, as a sum over the updates that land there / as the operand's row at the clamped index.
  General lemmas over any sizes; they import no program.
-/
import Idealize.ShloMosaic.Lib.ValueIdx
import Idealize.ShloMosaic.PureOps.Ideal.Laws

noncomputable section

open scoped BigOperators

namespace Idealize.ShloMosaic.ScatterRead

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- An update lands at operand index `i` exactly when, on every operand axis, its window's start plus its window
    coordinate is `i`'s coordinate there (the start read signed: a sum that is negative or past the axis's end is no
    coordinate of any `i`, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show d.start j idx a + (d.window j a : ℤ) = ((d.start j idx a + (d.window j a : ℤ)).toNat : ℤ)
      omega
    · intro hi
      funext a
      apply Fin.ext
      show (d.start j idx a + (d.window j a : ℤ)).toNat = (i a).val
      have := hi a
      omega
  · next h =>
    constructor
    · intro h'
      cases h'
    · intro hi
      exfalso
      apply h
      intro a
      have := hi a
      have := (i a).isLt
      omega

/-- The dimension numbers of a row scatter: the updates' axis 1 is the window, going to the operand's axis 1; the
    operand's axis 0 is inserted and is the one the scatter index names; the index vector is the column's axis 1. -/
abbrev rowsDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where update `(v, k')` of a row scatter lands: at `(g, k)` exactly when `v`'s index, read signed, is `g` and
    `k' = k` (the window starts at row = the index, column 0, and the window coordinate is `k'` on the column axis). -/
theorem rows_resultIdx?_iff {N M D w : Nat} (wf : ScatterDims.WF ⟨2, ![N, D]⟩ ⟨2, ![M, 1]⟩ ⟨2, ![M, D]⟩ [1] [0] [0] 1)
    (idx : IVec ⟨2, ![M, 1]⟩ w) (v : Fin M) (k' : Fin D) (g : Fin N) (k : Fin D) :
    (rowsDims N M D wf).resultIdx? (ix2 v k') idx = some (ix2 g k)
      ↔ (idx (ix2 v (0 : Fin 1))).toInt = (g.val : ℤ) ∧ k' = k := by
  rw [resultIdx?_eq_some_iff]
  -- the scatter index of update `(v, k')` is read at `(v, 0)`
  have hsi : (rowsDims N M D wf).siIdx (ix2 v k') ⟨0, Nat.one_pos⟩ = ix2 v (0 : Fin 1) := by
    funext b
    match b with
    | ⟨0, _⟩ => rfl
    | ⟨1, _⟩ => rfl
  -- starts and window coordinates on the two operand axes
  have e0 : (rowsDims N M D wf).start (ix2 v k') idx 0 = (idx (ix2 v (0 : Fin 1))).toInt := by rw [← hsi]; rfl
  have e1 : (rowsDims N M D wf).start (ix2 v k') idx 1 = 0 := rfl
  have w0 : (rowsDims N M D wf).window (ix2 v k') 0 = 0 := rfl
  have w1 : (rowsDims N M D wf).window (ix2 v k') 1 = k'.val := rfl
  constructor
  · intro h
    have h0 : (rowsDims N M D wf).start (ix2 v k') idx 0 + ((rowsDims N M D wf).window (ix2 v k') 0 : ℤ) = (g.val : ℤ) := h 0
    have h1 : (rowsDims N M D wf).start (ix2 v k') idx 1 + ((rowsDims N M D wf).window (ix2 v k') 1 : ℤ) = (k.val : ℤ) := h 1
    rw [e0, w0] at h0
    rw [e1, w1] at h1
    refine ⟨by simpa using h0, Fin.ext ?_⟩
    omega
  · rintro ⟨hg, rfl⟩
    have t0 : (rowsDims N M D wf).start (ix2 v k') idx 0 + ((rowsDims N M D wf).window (ix2 v k') 0 : ℤ) = (g.val : ℤ) := by
      rw [e0, w0, hg]; simp
    have t1 : (rowsDims N M D wf).start (ix2 v k') idx 1 + ((rowsDims N M D wf).window (ix2 v k') 1 : ℤ) = (k'.val : ℤ) := by
      rw [e1, w1]; simp
    intro a
    match a with
    | ⟨0, _⟩ => exact t0
    | ⟨1, _⟩ => exact t1

/-- A row scatter-add (`x.at[idx].add(u)` over the first axis of a matrix, the indices an [M × 1] column): element
    `(g, k)` of the result is the operand's plus the sum of the updates' column-`k` entries of the rows `v` whose
    index, read signed, is `g`; a row whose index is outside `[0, N)` lands nowhere. -/
theorem scatterAdd_rows_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![M, 1]⟩ w) (upd : (⟨2, ![M, D]⟩ : Shape).Idx → EReal)
    (g : Fin N) (k : Fin D) :
    Ideal.hostScatterAdd d x idx upd (ix2 g k)
      = x (ix2 g k) + ∑ v ∈ Finset.univ.filter (fun v : Fin M => (idx (ix2 v (0 : Fin 1))).toInt = (g.val : ℤ)), upd (ix2 v k) := by
  obtain ⟨uw, iw, sd, iv, wf⟩ := d
  dsimp only at huw hiw hsd hiv
  subst huw hiw hsd hiv
  show x (ix2 g k) + ∑ j ∈ Finset.univ.filter (fun j => (rowsDims N M D wf).resultIdx? j idx = some (ix2 g k)), upd j = _
  congr 1
  -- the sum over the updates `(v, k')` that land at `(g, k)`, as a double sum over rows and columns
  rw [Finset.sum_filter, Finset.sum_filter, sum_idx2]
  refine Finset.sum_congr rfl fun v _ => ?_
  simp only [rows_resultIdx?_iff]
  by_cases hv : (idx (ix2 v (0 : Fin 1))).toInt = (g.val : ℤ)
  · simp [hv]
  · simp [hv]

/-- The dimension numbers of a flat scatter: the updates have no window axis; the operand's one axis is inserted and
    is the one the scatter index names; the index vector is the column's axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `v` of a flat scatter lands: at `g` exactly when `v`'s index, read signed, is `g` (the window is
    the one element at the index). -/
theorem flat_resultIdx?_iff {N M w : Nat} (wf : ScatterDims.WF ⟨1, ![N]⟩ ⟨2, ![M, 1]⟩ ⟨1, ![M]⟩ [] [0] [0] 1)
    (idx : IVec ⟨2, ![M, 1]⟩ w) (v : Fin M) (g : Fin N) :
    (flatDims N M wf).resultIdx? (ix1 v) idx = some (ix1 g) ↔ (idx (ix2 v (0 : Fin 1))).toInt = (g.val : ℤ) := by
  rw [resultIdx?_eq_some_iff]
  -- the scatter index of update `v` is read at `(v, 0)`
  have hsi : (flatDims N M wf).siIdx (ix1 v) ⟨0, Nat.one_pos⟩ = ix2 v (0 : Fin 1) := by
    funext b
    match b with
    | ⟨0, _⟩ => rfl
    | ⟨1, _⟩ => rfl
  have e0 : (flatDims N M wf).start (ix1 v) idx 0 = (idx (ix2 v (0 : Fin 1))).toInt := by rw [← hsi]; rfl
  have w0 : (flatDims N M wf).window (ix1 v) 0 = 0 := rfl
  constructor
  · intro h
    have h0 : (flatDims N M wf).start (ix1 v) idx 0 + ((flatDims N M wf).window (ix1 v) 0 : ℤ) = (g.val : ℤ) := h 0
    rw [e0, w0] at h0
    simpa using h0
  · intro hg
    have t0 : (flatDims N M wf).start (ix1 v) idx 0 + ((flatDims N M wf).window (ix1 v) 0 : ℤ) = (g.val : ℤ) := by
      rw [e0, w0, hg]; simp
    intro a
    match a with
    | ⟨0, _⟩ => exact t0

/-- A flat scatter-add (`x.at[idx].add(u)` over a vector): element `g` is the operand's plus the sum of the updates
    whose index, read signed, is `g`. -/
theorem scatterAdd_flat_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (g : Fin N) :
    Ideal.hostScatterAdd d x idx upd (ix1 g)
      = x (ix1 g) + ∑ v ∈ Finset.univ.filter (fun v : Fin M => (idx (ix2 v (0 : Fin 1))).toInt = (g.val : ℤ)), upd (ix1 v) := by
  obtain ⟨uw, iw, sd, iv, wf⟩ := d
  dsimp only at huw hiw hsd hiv
  subst huw hiw hsd hiv
  show x (ix1 g) + ∑ j ∈ Finset.univ.filter (fun j => (flatDims N M wf).resultIdx? j idx = some (ix1 g)), upd j = _
  congr 1
  -- the updates' index set is its one coordinate's range
  rw [Finset.sum_filter, Finset.sum_filter, sum_idx1]
  refine Finset.sum_congr rfl fun v _ => ?_
  simp only [flat_resultIdx?_iff]

/-- A row gather (`x[idx]` over the first axis of a matrix, the indices an [M × 1] column): row `e` of the result
    is the operand's row at `e`'s index read signed and clamped into `[0, N − 1]`. -/
theorem gather_rows_apply {α : Type} {N M D w : Nat} (hN : 0 < N) (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![M, 1]⟩ w) (e : Fin M) (k : Fin D) :
    Host.gather d x idx (ix2 e k) = x (ix2 (⟨min (idx (ix2 e (0 : Fin 1))).toInt.toNat (N - 1), by omega⟩ : Fin N) k) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the row axis: collapsed, start-indexed; the start index of result `(e, k)` is read at `(e, 0)`
    have hsi : (GatherDims.mk (s := ⟨2, ![N, D]⟩) (si := ⟨2, ![M, 1]⟩) (t := ⟨2, ![M, D]⟩) [1] [0] [] [] [0] 1 ![1, D] wf).siIdx
        (ix2 e k) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl
  | ⟨1, _⟩ =>
    -- the column axis: kept, not start-indexed: start 0, offset coordinate `k`
    show 0 + 0 + k.val = k.val
    omega

end Idealize.ShloMosaic.ScatterRead

end
-- ==== Proof.RefRows.lean ====
/-
  Three facts about the reference's indexed operations, free of any program stage: the index arithmetic in
  front of a row gather names the row `rowOf`, and a scatter-add into zeros is a one-hot weighted sum.
-/
import proofs.«423195_j8272107012813_1_alg».proof.Proof.Bridge
import proofs.«423195_j8272107012813_1_alg».proof.Proof.LibScatterRead
import Idealize.ShloMosaic.Lib.IdealHost

noncomputable section

open scoped BigOperators

namespace Cert.RefRows

open Idealize.ShloMosaic Idealize.ShloMosaic.ValueIdx Idealize.ShloMosaic.ScatterRead Cert.Spec

/-- The signed comparison with zero and the select after it: the word plus the node count when the word reads
    negative, the word itself otherwise. -/
private theorem select_slt_zero (w a : BitVec 32) :
    Scalar.select (IntOp.cmpi .slt w 0#32) a w = if w.toInt < 0 then a else w := by
  unfold Scalar.select IntOp.cmpi
  simp only
  by_cases h : w.toInt < 0
  · have hs : w.slt 0#32 = true := by
      rw [BitVec.slt_eq_decide, BitVec.toInt_zero]
      exact decide_eq_true h
    rw [hs, if_pos h]
    rfl
  · have hs : w.slt 0#32 = false := by
      rw [BitVec.slt_eq_decide, BitVec.toInt_zero]
      exact decide_eq_false h
    rw [hs, if_neg h]
    rfl

/-- The reference wraps a negative source word by the node count and the gather clamps it into the array: together that is the row `rowOf` names. -/
theorem clamp_wrap_eq_rowOf (w : BitVec 32) :
    (⟨min (Scalar.select (IntOp.cmpi .slt w 0#32) (IntOp.addi w 100000#32) w).toInt.toNat (100000 - 1), by omega⟩ : Fin 100000)
      = Cert.Bridge.rowOf w := by
  unfold Cert.Bridge.rowOf
  apply Fin.ext
  simp only
  rw [select_slt_zero]
  rfl

/-- A one-hot weight times a value is the value when the word names the row and nothing otherwise. -/
private theorem oh_mul (w : BitVec 32) (r : ℕ) (y : EReal) :
    oh w r * y = if w.toInt = (r : ℤ) then y else 0 := by
  unfold oh
  by_cases h : w.toInt = (r : ℤ)
  · rw [if_pos h, if_pos h, one_mul]
  · rw [if_neg h, if_neg h, zero_mul]

/-- A row scatter-add into zeros is the one-hot weighted sum of the update rows. -/
theorem scatterAdd_rows_oh {N M D : ℕ} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (z : (⟨2, ![N, D]⟩ : Shape).Idx → EReal) (hz : ∀ i, z i = 0) (idx : IVec ⟨2, ![M, 1]⟩ 32)
    (upd : (⟨2, ![M, D]⟩ : Shape).Idx → EReal) (g : Fin N) (k : Fin D) :
    Host.scatterAdd (F := Ideal) (φ := .f32) d z idx upd (ix2 g k)
      = ∑ v : Fin M, oh (idx (ix2 v (0 : Fin 1))) g.val * upd (ix2 v k) := by
  show Ideal.hostScatterAdd d z idx upd (ix2 g k) = _
  rw [scatterAdd_rows_apply d huw hiw hsd hiv z idx upd g k, hz, zero_add, Finset.sum_filter]
  apply Finset.sum_congr rfl
  intro v _
  rw [oh_mul]

/-- A flat scatter-add of ones into zeros counts the index words that name the element. -/
theorem scatterAdd_flat_cnt {N M : ℕ} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (z : (⟨1, ![N]⟩ : Shape).Idx → EReal) (hz : ∀ i, z i = 0) (idx : IVec ⟨2, ![M, 1]⟩ 32)
    (ones : (⟨1, ![M]⟩ : Shape).Idx → EReal) (hone : ∀ i, ones i = 1) (g : Fin N) :
    Host.scatterAdd (F := Ideal) (φ := .f32) d z idx ones (ix1 g)
      = ∑ v : Fin M, oh (idx (ix2 v (0 : Fin 1))) g.val := by
  show Ideal.hostScatterAdd d z idx ones (ix1 g) = _
  rw [scatterAdd_flat_apply d huw hiw hsd hiv z idx ones g, hz, zero_add, Finset.sum_filter]
  apply Finset.sum_congr rfl
  intro v _
  rw [hone]
  rfl

end Cert.RefRows

end
-- ==== Proof.RefPool.lean ====
/-
  The tail of the reference program, the mean pool over the graphs, read at one element of the result.

  The reference adds every node's row into the row of the graph its id word names (a scatter-add into a zero
  block), counts each graph's nodes the same way (a scatter-add of ones into zeros), raises the counts to at
  least one and divides. A scatter-add into zeros is a one-hot weighted sum over the nodes, so at (g, d) the
  quotient is the sum over the nodes of the one-hot weight of the node's id at g times the node's feature d,
  divided by the larger of graph g's node count and one: the mean pool of the rows, whatever rows the update
  array holds.
-/
import proofs.«423195_j8272107012813_1_alg».proof.Proof.RefRead
import proofs.«423195_j8272107012813_1_alg».proof.Proof.Args
import proofs.«423195_j8272107012813_1_alg».proof.Proof.RefRows
import Idealize.ShloMosaic.Lib.IdealHost

noncomputable section

open scoped BigOperators

namespace Cert.ReferenceIdeal.RefPool

open Cert.ReferenceIdeal Cert.ReferenceIdeal.Gen Cert.ReferenceIdeal.ReadC Idealize.ShloMosaic Idealize.ShloMosaic.StableHlo Idealize.ShloMosaic.ValueIdx

/-- The zero block the sums are added into. -/
theorem zeros_153 (i : S64x128.Idx) : val_main_v153 (F := Ideal) i = 0 := by
  rw [val_main_v153_apply, val_main_cst_22_apply, Ideal.ofBits_def, Ideal.ofBits_zero_f32]

/-- The zero vector the counts are added into. -/
theorem zeros_157 (i : S64.Idx) : val_main_v157 (F := Ideal) i = 0 := by
  rw [val_main_v157_apply, val_main_cst_24_apply, Ideal.ofBits_def, Ideal.ofBits_zero_f32]

/-- The vector of ones that is counted. -/
theorem ones_156 (i : S100000.Idx) : val_main_v156 (F := Ideal) i = 1 := by
  rw [val_main_v156_apply, val_main_cst_23_apply, Ideal.ofBits_def, Ideal.ofBits_one_f32]

/-- The ones an empty graph's count is raised to. -/
theorem ones_160 (i : S64.Idx) : val_main_v160 (F := Ideal) i = 1 := by
  rw [val_main_v160_apply, val_main_cst_25_apply, Ideal.ofBits_def, Ideal.ofBits_one_f32]

/-- The graph ids as a column: entry (v, 0) is node v's id word. -/
theorem ids_154 (x2 : (⟨S100000, .i32⟩ : BufTy).Contents (Elt Ideal)) (v : Fin 100000) :
    val_main_v154 (F := Ideal) x2 (ix2 v (0 : Fin 1)) = Cert.Args.vec1 x2 v := by
  rw [val_main_v154_apply]
  exact congrArg x2 (funext fun a => by match a with | ⟨0, _⟩ => rfl)

theorem ids_158 (x2 : (⟨S100000, .i32⟩ : BufTy).Contents (Elt Ideal)) (v : Fin 100000) :
    val_main_v158 (F := Ideal) x2 (ix2 v (0 : Fin 1)) = Cert.Args.vec1 x2 v := by
  rw [val_main_v158_apply]
  exact congrArg x2 (funext fun a => by match a with | ⟨0, _⟩ => rfl)

/-- The count of graph g: the scatter-add of the ones at the id words. -/
theorem cnt_159 (x2 : (⟨S100000, .i32⟩ : BufTy).Contents (Elt Ideal)) (g : Fin 64) :
    val_main_v159 (F := Ideal) x2 (ix1 g) = Cert.Spec.poolCnt (G := 64) (Cert.Args.vec1 x2) g := by
  unfold val_main_v159 Cert.Spec.poolCnt
  rw [Cert.RefRows.scatterAdd_flat_cnt scatter_S64_S100000x1_S100000_n_0_0_1 rfl rfl rfl rfl _ zeros_157 _ _ ones_156 g]
  exact Finset.sum_congr rfl fun v _ => by rw [ids_158]

/-- The divisor at (g, d): graph g's count, raised to one. -/
theorem div_163 (x2 : (⟨S100000, .i32⟩ : BufTy).Contents (Elt Ideal)) (g : Fin 64) (d : Fin 128) :
    val_main_v163 (F := Ideal) x2 (ix2 g d) = max (Cert.Spec.poolCnt (G := 64) (Cert.Args.vec1 x2) g) 1 := by
  rw [val_main_v163_apply, val_main_v162_apply, val_main_v161_apply, Ideal.maximumf_def, ones_160]
  refine congrArg (fun y => max y 1) ?_
  refine Eq.trans (congrArg (val_main_v159 (F := Ideal) x2) (funext fun a => by match a with | ⟨0, _⟩ => rfl)) (cnt_159 x2 g)

/-- THE POOL TAIL at an element: the scatter-added rows divided by the raised counts are the mean pool of the
    rows `h3` the update array holds. -/
theorem pool_c (x2 : (⟨S100000, .i32⟩ : BufTy).Contents (Elt Ideal))
    (H : (⟨S100000x128, .f32⟩ : BufTy).Contents (Elt Ideal)) (h3 : Fin 100000 → Fin 128 → EReal)
    (hH : ∀ i : S100000x128.Idx, H i = h3 (i 0) (i 1)) (i : S64x128.Idx) :
    FloatOps.hostDivf (F := Ideal) (φ := .f32)
        (Host.scatterAdd scatter_S64x128_S100000x1_S100000x128_1_0_0_1 (val_main_v153 (F := Ideal)) (val_main_v154 (F := Ideal) x2) H i)
        (val_main_v163 (F := Ideal) x2 i)
      = Cert.Spec.meanPool (Cert.Spec.poolSum (G := 64) (Cert.Args.vec1 x2) h3) (Cert.Spec.poolCnt (G := 64) (Cert.Args.vec1 x2)) (i 0) (i 1) := by
  obtain ⟨g, d, rfl⟩ : ∃ (g : Fin 64) (d : Fin 128), i = ix2 g d := ⟨i 0, i 1, eq_ix2 i⟩
  have hs : Host.scatterAdd (F := Ideal) (φ := .f32) scatter_S64x128_S100000x1_S100000x128_1_0_0_1
      (val_main_v153 (F := Ideal)) (val_main_v154 (F := Ideal) x2) H (ix2 g d)
        = Cert.Spec.poolSum (G := 64) (Cert.Args.vec1 x2) h3 g d := by
    rw [Cert.RefRows.scatterAdd_rows_oh scatter_S64x128_S100000x1_S100000x128_1_0_0_1 rfl rfl rfl rfl _ zeros_153 _ H g d]
    unfold Cert.Spec.poolSum
    exact Finset.sum_congr rfl fun v _ => by rw [ids_154, hH]
  rw [Ideal.hostDivf_def, div_163, hs]
  rfl

end Cert.ReferenceIdeal.RefPool

end
-- ==== Proof.RefValue.lean ====
/-
  The reference program's result is the plain mathematical function.

  The reference projects the node features and applies ReLU; three times it reads every edge's source row
  (a negative index word wrapped by the node count, the read clamped into the array), adds the rows read into
  zeros at the destination rows, adds the node's own row, applies a linear map with bias and ReLU and normalises
  each row; then it adds the rows into zeros per graph, counts the nodes per graph, and divides by the count
  (at least one).  Each stage of the run is read at an index and shown to be the corresponding plain function of
  the argument arrays at that index's coordinates; the stages compose to `Cert.Args.refOut`.
-/
import proofs.«423195_j8272107012813_1_alg».proof.Proof.RefRead
import proofs.«423195_j8272107012813_1_alg».proof.Proof.Args
import proofs.«423195_j8272107012813_1_alg».proof.Proof.RefRows
import proofs.«423195_j8272107012813_1_alg».proof.Proof.RefPool
import Idealize.ShloMosaic.Lib.IdealHost

noncomputable section

open scoped BigOperators

namespace Cert.ReferenceIdeal.RefValue

open Cert.ReferenceIdeal Cert.ReferenceIdeal.Gen Cert.ReferenceIdeal.ReadC Idealize.ShloMosaic Idealize.ShloMosaic.StableHlo
  Idealize.ShloMosaic.ValueIdx Idealize.ShloMosaic.ScatterRead Cert.Bridge Cert.Args

/-! ### Indices with equal coordinates are equal -/

theorem idx1_ext {n : ℕ} (i j : (⟨1, ![n]⟩ : Shape).Idx) (h0 : i 0 = j 0) : i = j :=
  (eq_ix1 i).trans ((congrArg ix1 h0).trans (eq_ix1 j).symm)

theorem idx2_ext {n0 n1 : ℕ} (i j : (⟨2, ![n0, n1]⟩ : Shape).Idx) (h0 : i 0 = j 0) (h1 : i 1 = j 1) : i = j :=
  (eq_ix2 i).trans ((congrArg₂ ix2 h0 h1).trans (eq_ix2 j).symm)

theorem idx3_ext {n0 n1 n2 : ℕ} (i j : (⟨3, ![n0, n1, n2]⟩ : Shape).Idx) (h0 : i 0 = j 0) (h1 : i 1 = j 1)
    (h2 : i 2 = j 2) : i = j := by
  rw [eq_ix3 i, eq_ix3 j, h0, h1, h2]

/-! ### One round, from the previous rows -/

/-- A round's incoming messages: every edge's source row, read directly, added into its destination row. -/
def aggOf (src dst : Fin 600000 → BitVec 32) (hp : Fin 100000 → Fin 128 → EReal) : Fin 100000 → Fin 128 → EReal :=
  Spec.scatterOH dst (fun j d => hp (rowOf (src j)) d)

/-- A round's rows before normalisation. -/
def preOf (src dst : Fin 600000 → BitVec 32) (hp : Fin 100000 → Fin 128 → EReal)
    (W : Fin 128 → Fin 128 → EReal) (b : Fin 128 → EReal) : Fin 100000 → Fin 128 → EReal :=
  Spec.linRelu (fun r k => hp r k + aggOf src dst hp r k) W b

/-- The wrapped source word of an edge, as the reference computes it. -/
def wrap (w : BitVec 32) : BitVec 32 := Scalar.select (IntOp.cmpi .slt w 0#32) (IntOp.addi w 100000#32) w

/-- A row gather of rows `P` at wrapped source words reads the row the word names. -/
theorem gather_c (P : (⟨S100000x128, .f32⟩ : BufTy).Contents (Elt Ideal)) (hp : Fin 100000 → Fin 128 → EReal)
    (hP : ∀ i : S100000x128.Idx, P i = hp (i 0) (i 1))
    (srcc : (⟨S600000x1, .i32⟩ : BufTy).Contents (Elt Ideal)) (src : Fin 600000 → BitVec 32)
    (hs : ∀ i : S600000x1.Idx, srcc i = wrap (src (i 0))) (i : S600000x128.Idx) :
    Host.gather gather_S100000x128_S600000x1_S600000x128_1_0_n_n_0_1_1128 P srcc i = hp (rowOf (src (i 0))) (i 1) := by
  obtain ⟨e, k, rfl⟩ : ∃ (e : Fin 600000) (k : Fin 128), i = ix2 e k := ⟨i 0, i 1, eq_ix2 i⟩
  rw [gather_rows_apply (by norm_num) gather_S100000x128_S600000x1_S600000x128_1_0_n_n_0_1_1128 rfl rfl rfl rfl rfl rfl rfl P srcc e k,
    hP]
  simp only [hs]
  show hp (⟨min (wrap (src e)).toInt.toNat (100000 - 1), by omega⟩ : Fin 100000) k = hp (rowOf (src e)) k
  rw [show (⟨min (wrap (src e)).toInt.toNat (100000 - 1), by omega⟩ : Fin 100000) = rowOf (src e) from
    Cert.RefRows.clamp_wrap_eq_rowOf (src e)]

/-- The rows read by the gather, added into zeros at the destination words, are the round's messages. -/
theorem agg_c (P : (⟨S100000x128, .f32⟩ : BufTy).Contents (Elt Ideal)) (hp : Fin 100000 → Fin 128 → EReal)
    (hP : ∀ i : S100000x128.Idx, P i = hp (i 0) (i 1))
    (srcc : (⟨S600000x1, .i32⟩ : BufTy).Contents (Elt Ideal)) (src : Fin 600000 → BitVec 32)
    (hs : ∀ i : S600000x1.Idx, srcc i = wrap (src (i 0)))
    (z : (⟨S100000x128, .f32⟩ : BufTy).Contents (Elt Ideal)) (hz : ∀ i : S100000x128.Idx, z i = 0)
    (dstc : (⟨S600000x1, .i32⟩ : BufTy).Contents (Elt Ideal)) (dst : Fin 600000 → BitVec 32)
    (hd : ∀ i : S600000x1.Idx, dstc i = dst (i 0)) (i : S100000x128.Idx) :
    Host.scatterAdd (F := Ideal) (φ := .f32) scatter_S100000x128_S600000x1_S600000x128_1_0_0_1 z dstc
        (Host.gather gather_S100000x128_S600000x1_S600000x128_1_0_n_n_0_1_1128 P srcc) i
      = aggOf src dst hp (i 0) (i 1) := by
  obtain ⟨r, k, rfl⟩ : ∃ (r : Fin 100000) (k : Fin 128), i = ix2 r k := ⟨i 0, i 1, eq_ix2 i⟩
  rw [Cert.RefRows.scatterAdd_rows_oh scatter_S100000x128_S600000x1_S600000x128_1_0_0_1 rfl rfl rfl rfl z hz dstc _ r k]
  show _ = ∑ j : Fin 600000, Spec.oh (dst j) r.val * hp (rowOf (src j)) k
  refine Finset.sum_congr rfl fun v _ => ?_
  rw [hd, gather_c P hp hP srcc src hs]

variable (x0 : (⟨S100000x128, .f32⟩ : BufTy).Contents (Elt Ideal)) (x1 : (⟨S2x600000, .i32⟩ : BufTy).Contents (Elt Ideal))
  (x2 : (⟨S100000, .i32⟩ : BufTy).Contents (Elt Ideal)) (x3 : (⟨S128x128, .f32⟩ : BufTy).Contents (Elt Ideal))
  (x4 : (⟨S128, .f32⟩ : BufTy).Contents (Elt Ideal)) (x5 : (⟨S3x128x128, .f32⟩ : BufTy).Contents (Elt Ideal))
  (x6 x7 x8 : (⟨S3x128, .f32⟩ : BufTy).Contents (Elt Ideal))

/-- The reference's rows after the projection and after each round, over the argument arrays. -/
abbrev R0 : Fin 100000 → Fin 128 → EReal := rH0 (rows2 x0) (rows2 x3) (vec1 x4)
abbrev R1 : Fin 100000 → Fin 128 → EReal :=
  rH1 (rows2 x0) (srcOf x1) (dstOf x1) (rows2 x3) (vec1 x4) (mat3 x5) (rows2 x6) (rows2 x7) (rows2 x8)
abbrev R2 : Fin 100000 → Fin 128 → EReal :=
  rH2 (rows2 x0) (srcOf x1) (dstOf x1) (rows2 x3) (vec1 x4) (mat3 x5) (rows2 x6) (rows2 x7) (rows2 x8)
abbrev R3 : Fin 100000 → Fin 128 → EReal :=
  rH3 (rows2 x0) (srcOf x1) (dstOf x1) (rows2 x3) (vec1 x4) (mat3 x5) (rows2 x6) (rows2 x7) (rows2 x8)

/-- Each round's rows before normalisation. -/
abbrev Y0 : Fin 100000 → Fin 128 → EReal := preOf (srcOf x1) (dstOf x1) (R0 x0 x3 x4) (mat3 x5 0) (rows2 x6 0)
abbrev Y1 : Fin 100000 → Fin 128 → EReal :=
  preOf (srcOf x1) (dstOf x1) (R1 x0 x1 x3 x4 x5 x6 x7 x8) (mat3 x5 1) (rows2 x6 1)
abbrev Y2 : Fin 100000 → Fin 128 → EReal :=
  preOf (srcOf x1) (dstOf x1) (R2 x0 x1 x3 x4 x5 x6 x7 x8) (mat3 x5 2) (rows2 x6 2)

/-! ### The edges' words -/

/-- Row 0 of the index array, reshaped to a vector: the source words. -/
theorem v6_c (i : S600000.Idx) : val_main_v6 (F := Ideal) x1 i = srcOf x1 (i 0) := by
  obtain ⟨e, rfl⟩ : ∃ e : Fin 600000, i = ix1 e := ⟨i 0, eq_ix1 i⟩
  rw [val_main_v6_apply, val_main_v5_apply]
  exact congrArg x1 (idx2_ext _ _ rfl (Fin.ext (Nat.mod_eq_of_lt e.isLt)))

/-- Row 1 of the index array, reshaped to a vector: the destination words. -/
theorem v8_c (i : S600000.Idx) : val_main_v8 (F := Ideal) x1 i = dstOf x1 (i 0) := by
  obtain ⟨e, rfl⟩ : ∃ e : Fin 600000, i = ix1 e := ⟨i 0, eq_ix1 i⟩
  rw [val_main_v8_apply, val_main_v7_apply]
  exact congrArg x1 (idx2_ext _ _ rfl (Fin.ext (Nat.mod_eq_of_lt e.isLt)))

/-- Each round's column of wrapped source words. -/
theorem v14_c (i : S600000x1.Idx) : val_main_v14 (F := Ideal) x1 i = wrap (srcOf x1 (i 0)) := by
  rw [val_main_v14_apply, val_main_v13_apply, val_main_v10_apply, val_main_v12_apply, v6_c, val_main_v9_apply,
    val_main_c_apply, val_main_v11_apply, val_main_c_0_apply]
  rfl
theorem v62_c (i : S600000x1.Idx) : val_main_v62 (F := Ideal) x1 i = wrap (srcOf x1 (i 0)) := by
  rw [val_main_v62_apply, val_main_v61_apply, val_main_v58_apply, val_main_v60_apply, v6_c, val_main_v57_apply,
    val_main_c_6_apply, val_main_v59_apply, val_main_c_7_apply]
  rfl
theorem v110_c (i : S600000x1.Idx) : val_main_v110 (F := Ideal) x1 i = wrap (srcOf x1 (i 0)) := by
  rw [val_main_v110_apply, val_main_v109_apply, val_main_v106_apply, val_main_v108_apply, v6_c, val_main_v105_apply,
    val_main_c_14_apply, val_main_v107_apply, val_main_c_15_apply]
  rfl

/-- Each round's column of destination words. -/
theorem v17_c (i : S600000x1.Idx) : val_main_v17 (F := Ideal) x1 i = dstOf x1 (i 0) := by
  rw [val_main_v17_apply, v8_c]; rfl
theorem v65_c (i : S600000x1.Idx) : val_main_v65 (F := Ideal) x1 i = dstOf x1 (i 0) := by
  rw [val_main_v65_apply, v8_c]; rfl
theorem v113_c (i : S600000x1.Idx) : val_main_v113 (F := Ideal) x1 i = dstOf x1 (i 0) := by
  rw [val_main_v113_apply, v8_c]; rfl

/-- Each round's array of zeros. -/
theorem v16_z (i : S100000x128.Idx) : val_main_v16 (F := Ideal) i = 0 := by
  rw [val_main_v16_apply, val_main_cst_apply]; simp only [Ideal.ofBits_def, Ideal.ofBits_zero_f32]
theorem v64_z (i : S100000x128.Idx) : val_main_v64 (F := Ideal) i = 0 := by
  rw [val_main_v64_apply, val_main_cst_8_apply]; simp only [Ideal.ofBits_def, Ideal.ofBits_zero_f32]
theorem v112_z (i : S100000x128.Idx) : val_main_v112 (F := Ideal) i = 0 := by
  rw [val_main_v112_apply, val_main_cst_16_apply]; simp only [Ideal.ofBits_def, Ideal.ofBits_zero_f32]

/-! ### The projection -/

theorem v4_c (i : S100000x128.Idx) : val_main_v4 (F := Ideal) x0 x3 x4 i = R0 x0 x3 x4 (i 0) (i 1) := by
  obtain ⟨r, d, rfl⟩ : ∃ (r : Fin 100000) (d : Fin 128), i = ix2 r d := ⟨i 0, i 1, eq_ix2 i⟩
  rw [val_main_v4_apply, val_main_v3_apply, val_main_v0_apply, val_main_v2_apply, val_main_v1_apply,
    val_main_call0_v0_apply, val_main_call0_cst_apply]
  simp only [Ideal.addf_def, Ideal.maximumf_def, Ideal.ofBits_def, Ideal.ofBits_zero_f32]
  have hs : (∑ k : Fin 128, x0 (lidx_main_v0 (ix2 r d) k) * x3 (ridx_main_v0 (ix2 r d) k))
      = ∑ k : Fin 128, x0 (ix2 r k) * x3 (ix2 k d) :=
    Finset.sum_congr rfl fun k _ => by
      rw [show lidx_main_v0 (ix2 r d) k = ix2 r k from idx2_ext _ _ rfl rfl,
        show ridx_main_v0 (ix2 r d) k = ix2 k d from idx2_ext _ _ rfl rfl]
  rw [hs, show idx_main_v1 (idx_main_v2 (ix2 r d)) = ix1 d from idx1_ext _ _ rfl]
  rfl

/-! ### Round 0: stages 15 to 56 -/

theorem v18_c (i : S100000x128.Idx) :
    val_main_v18 (F := Ideal) x0 x1 x3 x4 i = aggOf (srcOf x1) (dstOf x1) (R0 x0 x3 x4) (i 0) (i 1) := by
  unfold val_main_v18 val_main_v15
  exact agg_c _ _ (v4_c x0 x3 x4) _ _ (v14_c x1) _ v16_z _ _ (v17_c x1) i

/-- The round's matrix: layer 0 of the stack, reshaped. -/
theorem v21_c (i : S128x128.Idx) : val_main_v21 (F := Ideal) x5 i = mat3 x5 0 (i 0) (i 1) := by
  obtain ⟨a, b, rfl⟩ : ∃ (a : Fin 128) (b : Fin 128), i = ix2 a b := ⟨i 0, i 1, eq_ix2 i⟩
  rw [val_main_v21_apply, val_main_v20_apply]
  refine congrArg x5 (idx3_ext _ _ rfl (Fin.ext ?_) (Fin.ext ?_))
  · show (a.val * 128 + b.val) / 128 % 128 = a.val
    have ha := a.isLt; have hb := b.isLt; omega
  · show (a.val * 128 + b.val) % 128 = b.val
    have ha := a.isLt; have hb := b.isLt; omega

/-- The round's bias, gain and offset rows, broadcast over the nodes. -/
theorem v26_c (i : S100000x128.Idx) : val_main_v26 (F := Ideal) x6 i = rows2 x6 0 (i 1) := by
  obtain ⟨r, d, rfl⟩ : ∃ (r : Fin 100000) (d : Fin 128), i = ix2 r d := ⟨i 0, i 1, eq_ix2 i⟩
  rw [val_main_v26_apply, val_main_v25_apply, val_main_v24_apply, val_main_v23_apply]
  exact congrArg x6 (idx2_ext _ _ rfl (Fin.ext (Nat.mod_eq_of_lt d.isLt)))
theorem v52_c (i : S100000x128.Idx) : val_main_v52 (F := Ideal) x7 i = rows2 x7 0 (i 1) := by
  obtain ⟨r, d, rfl⟩ : ∃ (r : Fin 100000) (d : Fin 128), i = ix2 r d := ⟨i 0, i 1, eq_ix2 i⟩
  rw [val_main_v52_apply, val_main_v51_apply, val_main_v30_apply, val_main_v29_apply]
  exact congrArg x7 (idx2_ext _ _ rfl (Fin.ext (Nat.mod_eq_of_lt d.isLt)))
theorem v55_c (i : S100000x128.Idx) : val_main_v55 (F := Ideal) x8 i = rows2 x8 0 (i 1) := by
  obtain ⟨r, d, rfl⟩ : ∃ (r : Fin 100000) (d : Fin 128), i = ix2 r d := ⟨i 0, i 1, eq_ix2 i⟩
  rw [val_main_v55_apply, val_main_v54_apply, val_main_v32_apply, val_main_v31_apply]
  exact congrArg x8 (idx2_ext _ _ rfl (Fin.ext (Nat.mod_eq_of_lt d.isLt)))

/-- Own row plus messages, through the linear map, the bias and ReLU. -/
theorem v28_c (i : S100000x128.Idx) :
    val_main_v28 (F := Ideal) x0 x1 x3 x4 x5 x6 i = Y0 x0 x1 x3 x4 x5 x6 (i 0) (i 1) := by
  rw [val_main_v28_apply, val_main_v27_apply, val_main_v22_apply, v26_c, val_main_call1_v0_apply, val_main_call1_cst_apply]
  simp only [val_main_v19_apply, v4_c, v18_c, v21_c, Ideal.addf_def, Ideal.maximumf_def, Ideal.ofBits_def,
    Ideal.ofBits_zero_f32]
  rfl

/-- The row's mean. -/
theorem v36_c (i : S100000x1.Idx) :
    val_main_v36 (F := Ideal) x0 x1 x3 x4 x5 x6 i = Spec.mean (Y0 x0 x1 x3 x4 x5 x6 (i 0)) := by
  rw [val_main_v36_apply, val_main_v34_apply, val_main_v33_apply, val_main_cst_1_apply, val_main_v35_apply,
    val_main_cst_2_apply]
  simp only [v28_c, Ideal.hostDivf_def, Ideal.ofBits_def, Ideal.ofBits_zero_f32, zero_add]
  rfl

/-- The row's variance. -/
theorem v43_c (i : S100000x1.Idx) :
    val_main_v43 (F := Ideal) x0 x1 x3 x4 x5 x6 i
      = Spec.mean (fun k => (Y0 x0 x1 x3 x4 x5 x6 (i 0) k - Spec.mean (Y0 x0 x1 x3 x4 x5 x6 (i 0)))
          * (Y0 x0 x1 x3 x4 x5 x6 (i 0) k - Spec.mean (Y0 x0 x1 x3 x4 x5 x6 (i 0)))) := by
  rw [val_main_v43_apply, val_main_v41_apply, val_main_v40_apply, val_main_cst_3_apply, val_main_v42_apply,
    val_main_cst_4_apply]
  simp only [val_main_v39_apply, val_main_v38_apply, val_main_v37_apply, v36_c, v28_c, Ideal.hostDivf_def,
    Ideal.mulf_def, Ideal.subf_def, Ideal.ofBits_def, Ideal.ofBits_zero_f32, zero_add]
  rfl

/-- The normalised row: the rows after round 0. -/
theorem v56_c (i : S100000x128.Idx) :
    val_main_v56 (F := Ideal) x0 x1 x3 x4 x5 x6 x7 x8 i = R1 x0 x1 x3 x4 x5 x6 x7 x8 (i 0) (i 1) := by
  rw [val_main_v56_apply, val_main_v53_apply, val_main_v50_apply, val_main_v45_apply, val_main_v44_apply,
    val_main_v49_apply, val_main_v48_apply, val_main_v47_apply, val_main_v46_apply, val_main_cst_5_apply,
    v52_c, v55_c, v28_c, v36_c, v43_c]
  simp only [Ideal.addf_def, Ideal.mulf_def, Ideal.subf_def, Ideal.hostUnary_rsqrt_def, Ideal.ofBits_def]
  rfl

/-! ### Round 1: stages 63 to 104 -/

theorem v66_c (i : S100000x128.Idx) :
    val_main_v66 (F := Ideal) x0 x1 x3 x4 x5 x6 x7 x8 i
      = aggOf (srcOf x1) (dstOf x1) (R1 x0 x1 x3 x4 x5 x6 x7 x8) (i 0) (i 1) := by
  unfold val_main_v66 val_main_v63
  exact agg_c _ _ (v56_c x0 x1 x3 x4 x5 x6 x7 x8) _ _ (v62_c x1) _ v64_z _ _ (v65_c x1) i

/-- The round's matrix: layer 1 of the stack, reshaped. -/
theorem v69_c (i : S128x128.Idx) : val_main_v69 (F := Ideal) x5 i = mat3 x5 1 (i 0) (i 1) := by
  obtain ⟨a, b, rfl⟩ : ∃ (a : Fin 128) (b : Fin 128), i = ix2 a b := ⟨i 0, i 1, eq_ix2 i⟩
  rw [val_main_v69_apply, val_main_v68_apply]
  refine congrArg x5 (idx3_ext _ _ rfl (Fin.ext ?_) (Fin.ext ?_))
  · show (a.val * 128 + b.val) / 128 % 128 = a.val
    have ha := a.isLt; have hb := b.isLt; omega
  · show (a.val * 128 + b.val) % 128 = b.val
    have ha := a.isLt; have hb := b.isLt; omega

/-- The round's bias, gain and offset rows, broadcast over the nodes. -/
theorem v74_c (i : S100000x128.Idx) : val_main_v74 (F := Ideal) x6 i = rows2 x6 1 (i 1) := by
  obtain ⟨r, d, rfl⟩ : ∃ (r : Fin 100000) (d : Fin 128), i = ix2 r d := ⟨i 0, i 1, eq_ix2 i⟩
  rw [val_main_v74_apply, val_main_v73_apply, val_main_v72_apply, val_main_v71_apply]
  exact congrArg x6 (idx2_ext _ _ rfl (Fin.ext (Nat.mod_eq_of_lt d.isLt)))
theorem v100_c (i : S100000x128.Idx) : val_main_v100 (F := Ideal) x7 i = rows2 x7 1 (i 1) := by
  obtain ⟨r, d, rfl⟩ : ∃ (r : Fin 100000) (d : Fin 128), i = ix2 r d := ⟨i 0, i 1, eq_ix2 i⟩
  rw [val_main_v100_apply, val_main_v99_apply, val_main_v78_apply, val_main_v77_apply]
  exact congrArg x7 (idx2_ext _ _ rfl (Fin.ext (Nat.mod_eq_of_lt d.isLt)))
theorem v103_c (i : S100000x128.Idx) : val_main_v103 (F := Ideal) x8 i = rows2 x8 1 (i 1) := by
  obtain ⟨r, d, rfl⟩ : ∃ (r : Fin 100000) (d : Fin 128), i = ix2 r d := ⟨i 0, i 1, eq_ix2 i⟩
  rw [val_main_v103_apply, val_main_v102_apply, val_main_v80_apply, val_main_v79_apply]
  exact congrArg x8 (idx2_ext _ _ rfl (Fin.ext (Nat.mod_eq_of_lt d.isLt)))

/-- Own row plus messages, through the linear map, the bias and ReLU. -/
theorem v76_c (i : S100000x128.Idx) :
    val_main_v76 (F := Ideal) x0 x1 x3 x4 x5 x6 x7 x8 i = Y1 x0 x1 x3 x4 x5 x6 x7 x8 (i 0) (i 1) := by
  rw [val_main_v76_apply, val_main_v75_apply, val_main_v70_apply, v74_c, val_main_call2_v0_apply, val_main_call2_cst_apply]
  simp only [val_main_v67_apply, v56_c, v66_c, v69_c, Ideal.addf_def, Ideal.maximumf_def, Ideal.ofBits_def,
    Ideal.ofBits_zero_f32]
  rfl

/-- The row's mean. -/
theorem v84_c (i : S100000x1.Idx) :
    val_main_v84 (F := Ideal) x0 x1 x3 x4 x5 x6 x7 x8 i = Spec.mean (Y1 x0 x1 x3 x4 x5 x6 x7 x8 (i 0)) := by
  rw [val_main_v84_apply, val_main_v82_apply, val_main_v81_apply, val_main_cst_9_apply, val_main_v83_apply,
    val_main_cst_10_apply]
  simp only [v76_c, Ideal.hostDivf_def, Ideal.ofBits_def, Ideal.ofBits_zero_f32, zero_add]
  rfl

/-- The row's variance. -/
theorem v91_c (i : S100000x1.Idx) :
    val_main_v91 (F := Ideal) x0 x1 x3 x4 x5 x6 x7 x8 i
      = Spec.mean (fun k => (Y1 x0 x1 x3 x4 x5 x6 x7 x8 (i 0) k - Spec.mean (Y1 x0 x1 x3 x4 x5 x6 x7 x8 (i 0)))
          * (Y1 x0 x1 x3 x4 x5 x6 x7 x8 (i 0) k - Spec.mean (Y1 x0 x1 x3 x4 x5 x6 x7 x8 (i 0)))) := by
  rw [val_main_v91_apply, val_main_v89_apply, val_main_v88_apply, val_main_cst_11_apply, val_main_v90_apply,
    val_main_cst_12_apply]
  simp only [val_main_v87_apply, val_main_v86_apply, val_main_v85_apply, v84_c, v76_c, Ideal.hostDivf_def,
    Ideal.mulf_def, Ideal.subf_def, Ideal.ofBits_def, Ideal.ofBits_zero_f32, zero_add]
  rfl

/-- The normalised row: the rows after round 1. -/
theorem v104_c (i : S100000x128.Idx) :
    val_main_v104 (F := Ideal) x0 x1 x3 x4 x5 x6 x7 x8 i = R2 x0 x1 x3 x4 x5 x6 x7 x8 (i 0) (i 1) := by
  rw [val_main_v104_apply, val_main_v101_apply, val_main_v98_apply, val_main_v93_apply, val_main_v92_apply,
    val_main_v97_apply, val_main_v96_apply, val_main_v95_apply, val_main_v94_apply, val_main_cst_13_apply,
    v100_c, v103_c, v76_c, v84_c, v91_c]
  simp only [Ideal.addf_def, Ideal.mulf_def, Ideal.subf_def, Ideal.hostUnary_rsqrt_def, Ideal.ofBits_def]
  rfl

/-! ### Round 2: stages 111 to 152 -/

theorem v114_c (i : S100000x128.Idx) :
    val_main_v114 (F := Ideal) x0 x1 x3 x4 x5 x6 x7 x8 i
      = aggOf (srcOf x1) (dstOf x1) (R2 x0 x1 x3 x4 x5 x6 x7 x8) (i 0) (i 1) := by
  unfold val_main_v114 val_main_v111
  exact agg_c _ _ (v104_c x0 x1 x3 x4 x5 x6 x7 x8) _ _ (v110_c x1) _ v112_z _ _ (v113_c x1) i

/-- The round's matrix: layer 2 of the stack, reshaped. -/
theorem v117_c (i : S128x128.Idx) : val_main_v117 (F := Ideal) x5 i = mat3 x5 2 (i 0) (i 1) := by
  obtain ⟨a, b, rfl⟩ : ∃ (a : Fin 128) (b : Fin 128), i = ix2 a b := ⟨i 0, i 1, eq_ix2 i⟩
  rw [val_main_v117_apply, val_main_v116_apply]
  refine congrArg x5 (idx3_ext _ _ rfl (Fin.ext ?_) (Fin.ext ?_))
  · show (a.val * 128 + b.val) / 128 % 128 = a.val
    have ha := a.isLt; have hb := b.isLt; omega
  · show (a.val * 128 + b.val) % 128 = b.val
    have ha := a.isLt; have hb := b.isLt; omega

/-- The round's bias, gain and offset rows, broadcast over the nodes. -/
theorem v122_c (i : S100000x128.Idx) : val_main_v122 (F := Ideal) x6 i = rows2 x6 2 (i 1) := by
  obtain ⟨r, d, rfl⟩ : ∃ (r : Fin 100000) (d : Fin 128), i = ix2 r d := ⟨i 0, i 1, eq_ix2 i⟩
  rw [val_main_v122_apply, val_main_v121_apply, val_main_v120_apply, val_main_v119_apply]
  exact congrArg x6 (idx2_ext _ _ rfl (Fin.ext (Nat.mod_eq_of_lt d.isLt)))
theorem v148_c (i : S100000x128.Idx) : val_main_v148 (F := Ideal) x7 i = rows2 x7 2 (i 1) := by
  obtain ⟨r, d, rfl⟩ : ∃ (r : Fin 100000) (d : Fin 128), i = ix2 r d := ⟨i 0, i 1, eq_ix2 i⟩
  rw [val_main_v148_apply, val_main_v147_apply, val_main_v126_apply, val_main_v125_apply]
  exact congrArg x7 (idx2_ext _ _ rfl (Fin.ext (Nat.mod_eq_of_lt d.isLt)))
theorem v151_c (i : S100000x128.Idx) : val_main_v151 (F := Ideal) x8 i = rows2 x8 2 (i 1) := by
  obtain ⟨r, d, rfl⟩ : ∃ (r : Fin 100000) (d : Fin 128), i = ix2 r d := ⟨i 0, i 1, eq_ix2 i⟩
  rw [val_main_v151_apply, val_main_v150_apply, val_main_v128_apply, val_main_v127_apply]
  exact congrArg x8 (idx2_ext _ _ rfl (Fin.ext (Nat.mod_eq_of_lt d.isLt)))

/-- Own row plus messages, through the linear map, the bias and ReLU. -/
theorem v124_c (i : S100000x128.Idx) :
    val_main_v124 (F := Ideal) x0 x1 x3 x4 x5 x6 x7 x8 i = Y2 x0 x1 x3 x4 x5 x6 x7 x8 (i 0) (i 1) := by
  rw [val_main_v124_apply, val_main_v123_apply, val_main_v118_apply, v122_c, val_main_call3_v0_apply, val_main_call3_cst_apply]
  simp only [val_main_v115_apply, v104_c, v114_c, v117_c, Ideal.addf_def, Ideal.maximumf_def, Ideal.ofBits_def,
    Ideal.ofBits_zero_f32]
  rfl

/-- The row's mean. -/
theorem v132_c (i : S100000x1.Idx) :
    val_main_v132 (F := Ideal) x0 x1 x3 x4 x5 x6 x7 x8 i = Spec.mean (Y2 x0 x1 x3 x4 x5 x6 x7 x8 (i 0)) := by
  rw [val_main_v132_apply, val_main_v130_apply, val_main_v129_apply, val_main_cst_17_apply, val_main_v131_apply,
    val_main_cst_18_apply]
  simp only [v124_c, Ideal.hostDivf_def, Ideal.ofBits_def, Ideal.ofBits_zero_f32, zero_add]
  rfl

/-- The row's variance. -/
theorem v139_c (i : S100000x1.Idx) :
    val_main_v139 (F := Ideal) x0 x1 x3 x4 x5 x6 x7 x8 i
      = Spec.mean (fun k => (Y2 x0 x1 x3 x4 x5 x6 x7 x8 (i 0) k - Spec.mean (Y2 x0 x1 x3 x4 x5 x6 x7 x8 (i 0)))
          * (Y2 x0 x1 x3 x4 x5 x6 x7 x8 (i 0) k - Spec.mean (Y2 x0 x1 x3 x4 x5 x6 x7 x8 (i 0)))) := by
  rw [val_main_v139_apply, val_main_v137_apply, val_main_v136_apply, val_main_cst_19_apply, val_main_v138_apply,
    val_main_cst_20_apply]
  simp only [val_main_v135_apply, val_main_v134_apply, val_main_v133_apply, v132_c, v124_c, Ideal.hostDivf_def,
    Ideal.mulf_def, Ideal.subf_def, Ideal.ofBits_def, Ideal.ofBits_zero_f32, zero_add]
  rfl

/-- The normalised row: the rows after round 2. -/
theorem v152_c (i : S100000x128.Idx) :
    val_main_v152 (F := Ideal) x0 x1 x3 x4 x5 x6 x7 x8 i = R3 x0 x1 x3 x4 x5 x6 x7 x8 (i 0) (i 1) := by
  rw [val_main_v152_apply, val_main_v149_apply, val_main_v146_apply, val_main_v141_apply, val_main_v140_apply,
    val_main_v145_apply, val_main_v144_apply, val_main_v143_apply, val_main_v142_apply, val_main_cst_21_apply,
    v148_c, v151_c, v124_c, v132_c, v139_c]
  simp only [Ideal.addf_def, Ideal.mulf_def, Ideal.subf_def, Ideal.hostUnary_rsqrt_def, Ideal.ofBits_def]
  rfl

/-! ### The pool and the result -/

theorem v164_c (i : S64x128.Idx) :
    val_main_v164 (F := Ideal) x0 x1 x2 x3 x4 x5 x6 x7 x8 i
      = refVal (rows2 x0) (srcOf x1) (dstOf x1) (vec1 x2) (rows2 x3) (vec1 x4) (mat3 x5) (rows2 x6) (rows2 x7)
          (rows2 x8) (i 0) (i 1) := by
  rw [val_main_v164_apply]
  unfold val_main_v155
  exact Cert.ReferenceIdeal.RefPool.pool_c x2 _ _ (v152_c x0 x1 x3 x4 x5 x6 x7 x8) i

/-- The reference's run ends in the plain function of its nine argument arrays. -/
theorem result_eq :
    val_main_v164 (F := Ideal) x0 x1 x2 x3 x4 x5 x6 x7 x8 = refOut x0 x1 x2 x3 x4 x5 x6 x7 x8 :=
  funext fun i => v164_c x0 x1 x2 x3 x4 x5 x6 x7 x8 i

end Cert.ReferenceIdeal.RefValue

end
-- ==== Proof.RefRun.lean ====
/-
  The reference program's run, read in eight consecutive pieces.

  The program is a straight line of 201 host operations; every weakly fair execution ends with each buffer at the
  fold of the operations' results over the launch contents.  The fold is read piece by piece: a piece whose inputs
  hold their stage values leaves its outputs at theirs and does not touch the nine arguments.  Joined, the last
  buffer holds the last stage's value of the arguments, which is the plain function `Cert.Args.refOut` of them.
-/
import proofs.«423195_j8272107012813_1_alg».proof.Proof.RefOps
import proofs.«423195_j8272107012813_1_alg».proof.Proof.RefRead
import proofs.«423195_j8272107012813_1_alg».proof.Proof.RefInv
import proofs.«423195_j8272107012813_1_alg».proof.Proof.RefStP
import proofs.«423195_j8272107012813_1_alg».proof.Proof.RefStA0
import proofs.«423195_j8272107012813_1_alg».proof.Proof.RefStB0
import proofs.«423195_j8272107012813_1_alg».proof.Proof.RefStA1
import proofs.«423195_j8272107012813_1_alg».proof.Proof.RefStB1
import proofs.«423195_j8272107012813_1_alg».proof.Proof.RefStA2
import proofs.«423195_j8272107012813_1_alg».proof.Proof.RefStB2
import proofs.«423195_j8272107012813_1_alg».proof.Proof.RefStL
import proofs.«423195_j8272107012813_1_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ### No operation allocates: piece by piece -/

theorem fresh_opsP : ∀ op ∈ (opsP : List (HloOp τ sig (Elt F))), op.fresh = ∅ := by
  intro _ h; (repeat (cases h with | head => rfl | tail _ h => ?_)); exact nomatch h
theorem fresh_opsA0 : ∀ op ∈ (opsA0 : List (HloOp τ sig (Elt F))), op.fresh = ∅ := by
  intro _ h; (repeat (cases h with | head => rfl | tail _ h => ?_)); exact nomatch h
theorem fresh_opsB0 : ∀ op ∈ (opsB0 : List (HloOp τ sig (Elt F))), op.fresh = ∅ := by
  intro _ h; (repeat (cases h with | head => rfl | tail _ h => ?_)); exact nomatch h
theorem fresh_opsA1 : ∀ op ∈ (opsA1 : List (HloOp τ sig (Elt F))), op.fresh = ∅ := by
  intro _ h; (repeat (cases h with | head => rfl | tail _ h => ?_)); exact nomatch h
theorem fresh_opsB1 : ∀ op ∈ (opsB1 : List (HloOp τ sig (Elt F))), op.fresh = ∅ := by
  intro _ h; (repeat (cases h with | head => rfl | tail _ h => ?_)); exact nomatch h
theorem fresh_opsA2 : ∀ op ∈ (opsA2 : List (HloOp τ sig (Elt F))), op.fresh = ∅ := by
  intro _ h; (repeat (cases h with | head => rfl | tail _ h => ?_)); exact nomatch h
theorem fresh_opsB2 : ∀ op ∈ (opsB2 : List (HloOp τ sig (Elt F))), op.fresh = ∅ := by
  intro _ h; (repeat (cases h with | head => rfl | tail _ h => ?_)); exact nomatch h
theorem fresh_opsL : ∀ op ∈ (opsL : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rw [ops_cut] at h
  simp only [List.mem_append] at h
  rcases h with h | h | h | h | h | h | h | h
  exacts [fresh_opsP op h, fresh_opsA0 op h, fresh_opsB0 op h, fresh_opsA1 op h, fresh_opsB1 op h, fresh_opsA2 op h, fresh_opsB2 op h, fresh_opsL op h]

/-! ### The eight pieces joined -/

/-- After all the operations the arguments are untouched and the last buffer holds the last stage's value of them. -/
theorem after_ops (V : Valuation τ sig (Elt F)) :
    ArgsAt (after ops V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))
      ∧ after ops V (Proc.devRef .tc main_v164)
          = ReadC.val_main_v164 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have a0 : ArgsAt V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
    ⟨rfl, rfl, rfl, rfl, rfl, rfl, rfl, rfl, rfl⟩
  rw [ops_cut]
  simp only [after_append]
  obtain ⟨aP, h4⟩ := stP V _ _ _ _ _ _ _ _ _ a0
  obtain ⟨aA0, h6, h8, h28⟩ := stA0 _ _ _ _ _ _ _ _ _ _ aP h4
  obtain ⟨aB0, h6b, h8b, h56⟩ := stB0 _ _ _ _ _ _ _ _ _ _ aA0 h6 h8 h28
  obtain ⟨aA1, h6c, h8c, h76⟩ := stA1 _ _ _ _ _ _ _ _ _ _ aB0 h6b h8b h56
  obtain ⟨aB1, h6d, h8d, h104⟩ := stB1 _ _ _ _ _ _ _ _ _ _ aA1 h6c h8c h76
  obtain ⟨aA2, h124⟩ := stA2 _ _ _ _ _ _ _ _ _ _ aB1 h6d h8d h104
  obtain ⟨aB2, h152⟩ := stB2 _ _ _ _ _ _ _ _ _ _ aA2 h124
  exact stL _ _ _ _ _ _ _ _ _ _ aB2 h152

/-! ### The run -/

set_option maxRecDepth 8192 in
/-- On every device, from any memory with zero counters: every weakly fair execution of @main terminates with the
    result buffer at the plain function of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v164)
          = Cert.Args.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
      obtain ⟨⟨h0, h1, h2, h3, h4, h5, h6, h7, h8⟩, hv⟩ := after_ops (F := Ideal) (launchContents m c)
      exact ⟨(h c main_v164).trans (hv.trans (Cert.ReferenceIdeal.RefValue.result_eq _ _ _ _ _ _ _ _ _)),
        (h c main_arg0).trans h0, (h c main_arg1).trans h1, (h c main_arg2).trans h2, (h c main_arg3).trans h3,
        (h c main_arg4).trans h4, (h c main_arg5).trans h5, (h c main_arg6).trans h6, (h c main_arg7).trans h7,
        (h c main_arg8).trans h8⟩)
    (run_seq scopedRefs_eq scopedSems_eq defs main (fun _ => ops) main_eq (fun _ => ops_sub) m ρ (fun _ => ops_fresh))

end Cert.ReferenceIdeal.RefRun

end
-- ==== Proof.PreDecode.lean ====
/-
  The precondition, read back at the index array. The printed predicate is a conjunction of eight one-bit
  results; the last one is the reduction by `and`, over all 600000 positions, of
  (0 ≤ e) ∧ (e < 100000) taken signed on the words e of row 0 of the [2, 600000] index array (the row is
  sliced out as a [1, 600000] block and flattened). When the whole predicate is 1, that conjunct is 1, so the
  bit is 1 at every position, and at position j the two comparisons say 0 ≤ e_j < 100000 of the word
  e_j = edge_index[0, j]. The seven conjuncts on the float arrays play no part, and neither does the float
  interpretation: the statement holds at every one.
-/
import proofs.«423195_j8272107012813_1_alg».proof.Pre_finite_inputs
import proofs.«423195_j8272107012813_1_alg».proof.Proof.Args
import Idealize.ShloMosaic.Lib.ReduceAll
import Idealize.ShloMosaic.Lib.StableHlo.Predicate
import Idealize.ShloMosaic.Lib.Pipeline.Value
import Idealize.ShloMosaic.Lib.ValueIdx

noncomputable section

namespace Cert.PreDecode

open Idealize.ShloMosaic Idealize.ShloMosaic.ValueIdx Cert.Pre_finite_inputs

variable [Cert.Pre_finite_inputs.Facts]

/-- The rank-0 result has one index. -/
instance : Subsingleton S_.Idx := ⟨fun a b => funext fun d => d.elim0⟩

/-- Row 0 of the index array as the predicate reads it: the [1, 600000] block at offset (0, 0), flattened. -/
def row0 (ei : IVec S2x600000 32) : IVec S600000 32 :=
  shapeCast S600000 (extractStridedSlice S1x600000 ![0, 0] ei Facts.slices_S2x600000_S1x600000_0_0)
    Facts.shapeCasts_S1x600000_S600000

/-- The flattened row at position j is the array at (0, j): the flattening keeps the row-major position
    0 * 600000 + j, and the block starts at offset 0 on both axes. -/
theorem row0_apply (ei : IVec S2x600000 32) (j : Fin 600000) : row0 ei (ix1 j) = ei (ix2 0 j) := by
  unfold row0
  refine (shapeCast_apply _ _ (ix1 j) (ix2 (0 : Fin 1) j) ?_).trans ?_
  · rw [Shape.rowMajor_val_one, Shape.rowMajor_val_two]
    show 0 * 600000 + j.val = j.val
    omega
  · refine extractStridedSlice_apply _ _ _ _ (ix2 (0 : Fin 2) j) fun a => ?_
    match a with
    | ⟨0, _⟩ => rfl
    | ⟨1, _⟩ => show j.val = 0 + j.val; omega

/-- The integer conjunct of the predicate: all of (0 ≤ e) ∧ (e < 100000) over row 0. -/
def srcPred (ei : IVec S2x600000 32) : IVec S_ 1 :=
  Host.reduce IntOp.andi
    (andi (cmpi .sge (row0 ei) (broadcastInDim S600000 ![] Facts.bcast_S_S600000 (constantI S_ 32 0#32)))
      (cmpi .slt (row0 ei) (broadcastInDim S600000 ![] Facts.bcast_S_S600000 (constantI S_ 32 100000#32))))
    (constantI S_ 1 1#1) Facts.reducesTo_S600000_S_d0 Facts.h_S_

/-- The printed predicate is the `and` of its first seven conjuncts (some bit `v`) with the integer conjunct:
    its chain of operations ends in that `and`, and the integer conjunct reads the index array alone. -/
theorem fn_eq_andi {F : FTy → Type} [FloatOps F] (x : FVec F S100000x128 .f32) (ei : IVec S2x600000 32)
    (batch : IVec S100000 32) (pW : FVec F S128x128 .f32) (pb : FVec F S128 .f32) (mW : FVec F S3x128x128 .f32)
    (mb lg lb : FVec F S3x128 .f32) :
    ∃ v : IVec S_ 1, Cert.Pre_finite_inputs.fn (F := F) x ei batch pW pb mW mb lg lb = andi v (srcPred ei) :=
  ⟨_, rfl⟩

/-- A word that is ≥ 0 and < 100000 by the two signed comparisons has its signed value in [0, 100000). -/
theorem word_in_range (w : BitVec 32) (h0 : IntOp.cmpi .sge w 0#32 = 1#1) (h1 : IntOp.cmpi .slt w 100000#32 = 1#1) :
    0 ≤ w.toInt ∧ w.toInt < 100000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (100000#32 : BitVec 32).toInt = 100000 := by decide
  rw [e0] at h0
  rw [e1] at h1
  exact ⟨h0, h1⟩

/-- THE PRECONDITION DECODED: when the printed predicate of the nine argument arrays is all ones, every source
    word edge_index[0, j] has its signed value in [0, 100000). -/
theorem src_in_range {F : FTy → Type} [FloatOps F] (x : FVec F S100000x128 .f32) (ei : IVec S2x600000 32)
    (batch : IVec S100000 32) (pW : FVec F S128x128 .f32) (pb : FVec F S128 .f32) (mW : FVec F S3x128x128 .f32)
    (mb lg lb : FVec F S3x128 .f32)
    (h : Cert.Pre_finite_inputs.fn (F := F) x ei batch pW pb mW mb lg lb = (fun _ => 1#1)) :
    ∀ j : Fin 600000, 0 ≤ (Cert.Args.srcOf ei j).toInt ∧ (Cert.Args.srcOf ei j).toInt < 100000 := by
  intro j
  obtain ⟨v, hv⟩ := fn_eq_andi x ei batch pW pb mW mb lg lb
  -- the whole predicate at its one index is the `and` of two bits; the second is the integer conjunct
  have e : IntOp.andi (v ix0) (srcPred ei ix0) = 1#1 := by
    have := congrFun h ix0
    rw [hv] at this
    exact this
  have ered : srcPred ei ix0 = 1#1 := (IntOp.andi_eq_one.1 e).2
  -- the reduction by `and` is 1, so the bit at position j is 1; it is the `and` of the two comparisons there
  have ej := Host.reduce_andi_all _ _ _ _ ix0 ered (ix1 j)
  have ej' : IntOp.andi (IntOp.cmpi .sge (row0 ei (ix1 j)) 0#32) (IntOp.cmpi .slt (row0 ei (ix1 j)) 100000#32) = 1#1 := ej
  obtain ⟨h0, h1⟩ := IntOp.andi_eq_one.1 ej'
  rw [row0_apply] at h0 h1
  exact word_in_range _ h0 h1

end Cert.PreDecode

end
-- ==== Proof.lean ====
/-
  The certificate of the graph encoder: a Pallas program of eight kernel calls against its jnp reference.

  The kernel replaces every data-dependent row read and row accumulation by a product with a one-hot matrix
  built by comparing index words against node numbers, on arrays padded to whole blocks.  At the ideal
  instance a one-hot weighted sum over all rows is the one row the word names, so the kernel's projection,
  its three message-passing rounds and its mean pool compute, on every real node, what the reference
  computes by direct reads — provided every edge's source index names a real node (the added
  precondition: outside it the reference itself indexes out of range).  Each program's frame is its launch;
  the kernel's only sanctioned rewrite is a widening of a narrowing that the ideal instance reads as the
  identity.
-/
import proofs.«423195_j8272107012813_1_alg».proof.Defs
import proofs.«423195_j8272107012813_1_alg».proof.Proof.Gen.Kernel
import proofs.«423195_j8272107012813_1_alg».proof.Proof.Gen.KernelIdeal
import proofs.«423195_j8272107012813_1_alg».proof.Proof.Gen.ReferenceIdeal
import proofs.«423195_j8272107012813_1_alg».proof.Proof.Gen.Pre_finite_inputs
import proofs.«423195_j8272107012813_1_alg».proof.Proof.K.Run
import proofs.«423195_j8272107012813_1_alg».proof.Proof.KI.RunVal
import proofs.«423195_j8272107012813_1_alg».proof.Proof.KI.Value
import proofs.«423195_j8272107012813_1_alg».proof.Proof.RefRun
import proofs.«423195_j8272107012813_1_alg».proof.Proof.PreDecode
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Run.frame m ρ

/-- So does the idealized program. -/
theorem frame_ki : Cert.frame_KernelIdeal := fun m ρ _ => Cert.KernelIdeal.Run.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.RefRun.run m ρ)

/-- The one rewrite of the ideal pass: widening after narrowing is the identity at the ideal instance. -/
theorem preserves : Cert.preserves_Kernel_KernelIdeal :=
  IdealRules.truncf_extf.statement Cert.KernelIdeal.S128x1024 .f32 .bf16

/-- Both idealized programs end at the same array: the kernel at the padded one-hot computation, the reference
    at the direct one, equal because every source index names a real node. -/
theorem algebraic : Cert.algebraic_KernelIdeal_ReferenceIdeal := by
  intro m ρ m' ρ' hpre hagree
  refine ⟨fun c => Cert.Args.kernOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    (θ_run Cert.KernelIdeal.defs _ _).mono (fun _ h c => ⟨(h c).1.trans (Cert.KernelIdeal.Value.result m c), (h c).2⟩)
      (Cert.KernelIdeal.Run.run_val (F := Ideal) m ρ), ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.Args.kernOut_eq_refOut _ _ _ _ _ _ _ _ _ (Cert.PreDecode.src_in_range _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
